-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![8192, 2048]⟩ ⟨2, ![16384, 2048]⟩ (Layout.meshBlock [2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![16384, 1024]⟩ ⟨2, ![16384, 2048]⟩ (Layout.meshBlock [2, 2] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  main_v3
-- ==== Pre_finite_inputs_ReferenceIdeal.lean ====
abbrev S16384x2048 : Shape := ⟨2, ![16384, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  main_v3
-- ==== Kernel.lean ====
abbrev S8192x2048 : Shape := ⟨2, ![8192, 2048]⟩
abbrev S16384x1024 : Shape := ⟨2, ![16384, 1024]⟩
abbrev S32x128x1024 : Shape := ⟨3, ![32, 128, 1024]⟩
abbrev S2x1024x1024 : Shape := ⟨3, ![2, 1024, 1024]⟩
abbrev S8192x1024 : Shape := ⟨2, ![8192, 1024]⟩
abbrev S32 : Shape := ⟨1, ![32]⟩
abbrev S2 : Shape := ⟨1, ![2]⟩
abbrev S_ : Shape := ⟨0, ![]⟩
abbrev S1 : Shape := ⟨1, ![1]⟩
abbrev S1x128x1024 : Shape := ⟨3, ![1, 128, 1024]⟩
abbrev S128x1024 : Shape := ⟨2, ![128, 1024]⟩
abbrev S1x1024x1024 : Shape := ⟨3, ![1, 1024, 1024]⟩
abbrev S1024x1024 : Shape := ⟨2, ![1024, 1024]⟩

abbrev nBuf : Space → Nat
  | .hbm => 2
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S16384x1024, .bf16⟩
  | .local _ .vmem, ⟨0, _⟩ => ⟨S32x128x1024, .f32⟩
  | .local _ .vmem, ⟨1, _⟩ => ⟨S32x128x1024, .bf16⟩
  | .local _ .vmem, ⟨2, _⟩ => ⟨S32x128x1024, .bf16⟩
  | .local _ .vmem, ⟨3, _⟩ => ⟨S2x1024x1024, .f32⟩
  | .local _ .vmem, ⟨4, _⟩ => ⟨S8192x1024, .bf16⟩
  | _, _ => ⟨S8192x2048, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 195 → Bool
  | ⟨i, _⟩ => dmaSemScopedAt i

abbrev sig : RefSig :=
  (ofTc nBuf bufTy 1 195 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_13 : BitVec 32 := 2#32
  let v22 : BitVec 32 := Scalar.muli v6 c2_i32_13
  let v23 : BitVec 32 := Scalar.addi c0_i32 v22
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_14 : BitVec 32 := 1#32
  let v24 : BitVec 32 := Scalar.muli v5 c1_i32_14
  let v25 : BitVec 32 := Scalar.addi v23 v24
  v25.toNat
def k0_dev2 (d0 : Dev nD) : Nat :=
  let c0_i32_17 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_16 : BitVec 32 := 2#32
  let v26 : BitVec 32 := Scalar.muli v2 c2_i32_16
  let v27 : BitVec 32 := Scalar.addi c0_i32_17 v26
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_18 : BitVec 32 := 1#32
  let v28 : BitVec 32 := Scalar.muli v7 c1_i32_18
  let v29 : BitVec 32 := Scalar.addi v27 v28
  v29.toNat
def k0_off1 (d0 : Dev nD) (c0_i32_20 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v11 : BitVec 32 := Scalar.muli v5 c4096_i32
  let v30 : BitVec 32 := Scalar.addi v11 c0_i32_20
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c1024_i32 : BitVec 32 := 1024#32
  let v9 : BitVec 32 := Scalar.muli v8 c1024_i32
  ![v30.toNat, v9.toNat]
def k0_dev3 (d0 : Dev nD) : Nat :=
  let c0_i32_135 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_134 : BitVec 32 := 2#32
  let v233 : BitVec 32 := Scalar.muli v6 c2_i32_134
  let v234 : BitVec 32 := Scalar.addi c0_i32_135 v233
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_136 : BitVec 32 := 1#32
  let v235 : BitVec 32 := Scalar.muli v5 c1_i32_136
  let v236 : BitVec 32 := Scalar.addi v234 v235
  v236.toNat
def k0_dev4 (d0 : Dev nD) : Nat :=
  let c0_i32_155 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_154 : BitVec 32 := 2#32
  let v256 : BitVec 32 := Scalar.muli v6 c2_i32_154
  let v257 : BitVec 32 := Scalar.addi c0_i32_155 v256
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_156 : BitVec 32 := 1#32
  let v258 : BitVec 32 := Scalar.muli v5 c1_i32_156
  let v259 : BitVec 32 := Scalar.addi v257 v258
  v259.toNat
def k0_dev5 (d0 : Dev nD) : Nat :=
  let c0_i32_175 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_174 : BitVec 32 := 2#32
  let v279 : BitVec 32 := Scalar.muli v6 c2_i32_174
  let v280 : BitVec 32 := Scalar.addi c0_i32_175 v279
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_176 : BitVec 32 := 1#32
  let v281 : BitVec 32 := Scalar.muli v5 c1_i32_176
  let v282 : BitVec 32 := Scalar.addi v280 v281
  v282.toNat
def k0_dev6 (d0 : Dev nD) : Nat :=
  let c0_i32_195 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_194 : BitVec 32 := 2#32
  let v302 : BitVec 32 := Scalar.muli v6 c2_i32_194
  let v303 : BitVec 32 := Scalar.addi c0_i32_195 v302
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_196 : BitVec 32 := 1#32
  let v304 : BitVec 32 := Scalar.muli v5 c1_i32_196
  let v305 : BitVec 32 := Scalar.addi v303 v304
  v305.toNat
def k0_dev7 (d0 : Dev nD) : Nat :=
  let c0_i32_215 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_214 : BitVec 32 := 2#32
  let v325 : BitVec 32 := Scalar.muli v6 c2_i32_214
  let v326 : BitVec 32 := Scalar.addi c0_i32_215 v325
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_216 : BitVec 32 := 1#32
  let v327 : BitVec 32 := Scalar.muli v5 c1_i32_216
  let v328 : BitVec 32 := Scalar.addi v326 v327
  v328.toNat
def k0_dev8 (d0 : Dev nD) : Nat :=
  let c0_i32_235 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_234 : BitVec 32 := 2#32
  let v348 : BitVec 32 := Scalar.muli v6 c2_i32_234
  let v349 : BitVec 32 := Scalar.addi c0_i32_235 v348
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_236 : BitVec 32 := 1#32
  let v350 : BitVec 32 := Scalar.muli v5 c1_i32_236
  let v351 : BitVec 32 := Scalar.addi v349 v350
  v351.toNat
def k0_dev9 (d0 : Dev nD) : Nat :=
  let c0_i32_255 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_254 : BitVec 32 := 2#32
  let v371 : BitVec 32 := Scalar.muli v6 c2_i32_254
  let v372 : BitVec 32 := Scalar.addi c0_i32_255 v371
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_256 : BitVec 32 := 1#32
  let v373 : BitVec 32 := Scalar.muli v5 c1_i32_256
  let v374 : BitVec 32 := Scalar.addi v372 v373
  v374.toNat
def k0_dev10 (d0 : Dev nD) : Nat :=
  let c0_i32_275 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_274 : BitVec 32 := 2#32
  let v394 : BitVec 32 := Scalar.muli v6 c2_i32_274
  let v395 : BitVec 32 := Scalar.addi c0_i32_275 v394
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_276 : BitVec 32 := 1#32
  let v396 : BitVec 32 := Scalar.muli v5 c1_i32_276
  let v397 : BitVec 32 := Scalar.addi v395 v396
  v397.toNat
def k0_dev11 (d0 : Dev nD) : Nat :=
  let c0_i32_295 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_294 : BitVec 32 := 2#32
  let v417 : BitVec 32 := Scalar.muli v6 c2_i32_294
  let v418 : BitVec 32 := Scalar.addi c0_i32_295 v417
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_296 : BitVec 32 := 1#32
  let v419 : BitVec 32 := Scalar.muli v5 c1_i32_296
  let v420 : BitVec 32 := Scalar.addi v418 v419
  v420.toNat
def k0_dev12 (d0 : Dev nD) : Nat :=
  let c0_i32_315 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_314 : BitVec 32 := 2#32
  let v440 : BitVec 32 := Scalar.muli v6 c2_i32_314
  let v441 : BitVec 32 := Scalar.addi c0_i32_315 v440
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_316 : BitVec 32 := 1#32
  let v442 : BitVec 32 := Scalar.muli v5 c1_i32_316
  let v443 : BitVec 32 := Scalar.addi v441 v442
  v443.toNat
def k0_dev13 (d0 : Dev nD) : Nat :=
  let c0_i32_335 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_334 : BitVec 32 := 2#32
  let v463 : BitVec 32 := Scalar.muli v6 c2_i32_334
  let v464 : BitVec 32 := Scalar.addi c0_i32_335 v463
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_336 : BitVec 32 := 1#32
  let v465 : BitVec 32 := Scalar.muli v5 c1_i32_336
  let v466 : BitVec 32 := Scalar.addi v464 v465
  v466.toNat
def k0_dev14 (d0 : Dev nD) : Nat :=
  let c0_i32_355 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_354 : BitVec 32 := 2#32
  let v486 : BitVec 32 := Scalar.muli v6 c2_i32_354
  let v487 : BitVec 32 := Scalar.addi c0_i32_355 v486
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_356 : BitVec 32 := 1#32
  let v488 : BitVec 32 := Scalar.muli v5 c1_i32_356
  let v489 : BitVec 32 := Scalar.addi v487 v488
  v489.toNat
def k0_dev15 (d0 : Dev nD) : Nat :=
  let c0_i32_375 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_374 : BitVec 32 := 2#32
  let v509 : BitVec 32 := Scalar.muli v6 c2_i32_374
  let v510 : BitVec 32 := Scalar.addi c0_i32_375 v509
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_376 : BitVec 32 := 1#32
  let v511 : BitVec 32 := Scalar.muli v5 c1_i32_376
  let v512 : BitVec 32 := Scalar.addi v510 v511
  v512.toNat
def k0_dev16 (d0 : Dev nD) : Nat :=
  let c0_i32_395 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_394 : BitVec 32 := 2#32
  let v532 : BitVec 32 := Scalar.muli v6 c2_i32_394
  let v533 : BitVec 32 := Scalar.addi c0_i32_395 v532
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_396 : BitVec 32 := 1#32
  let v534 : BitVec 32 := Scalar.muli v5 c1_i32_396
  let v535 : BitVec 32 := Scalar.addi v533 v534
  v535.toNat
def k0_dev17 (d0 : Dev nD) : Nat :=
  let c0_i32_415 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_414 : BitVec 32 := 2#32
  let v555 : BitVec 32 := Scalar.muli v6 c2_i32_414
  let v556 : BitVec 32 := Scalar.addi c0_i32_415 v555
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_416 : BitVec 32 := 1#32
  let v557 : BitVec 32 := Scalar.muli v5 c1_i32_416
  let v558 : BitVec 32 := Scalar.addi v556 v557
  v558.toNat
def k0_dev18 (d0 : Dev nD) : Nat :=
  let c0_i32_435 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_434 : BitVec 32 := 2#32
  let v578 : BitVec 32 := Scalar.muli v6 c2_i32_434
  let v579 : BitVec 32 := Scalar.addi c0_i32_435 v578
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_436 : BitVec 32 := 1#32
  let v580 : BitVec 32 := Scalar.muli v5 c1_i32_436
  let v581 : BitVec 32 := Scalar.addi v579 v580
  v581.toNat
def k0_dev19 (d0 : Dev nD) : Nat :=
  let c0_i32_455 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_454 : BitVec 32 := 2#32
  let v601 : BitVec 32 := Scalar.muli v6 c2_i32_454
  let v602 : BitVec 32 := Scalar.addi c0_i32_455 v601
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_456 : BitVec 32 := 1#32
  let v603 : BitVec 32 := Scalar.muli v5 c1_i32_456
  let v604 : BitVec 32 := Scalar.addi v602 v603
  v604.toNat
def k0_dev20 (d0 : Dev nD) : Nat :=
  let c0_i32_475 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_474 : BitVec 32 := 2#32
  let v624 : BitVec 32 := Scalar.muli v6 c2_i32_474
  let v625 : BitVec 32 := Scalar.addi c0_i32_475 v624
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_476 : BitVec 32 := 1#32
  let v626 : BitVec 32 := Scalar.muli v5 c1_i32_476
  let v627 : BitVec 32 := Scalar.addi v625 v626
  v627.toNat
def k0_dev21 (d0 : Dev nD) : Nat :=
  let c0_i32_495 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_494 : BitVec 32 := 2#32
  let v647 : BitVec 32 := Scalar.muli v6 c2_i32_494
  let v648 : BitVec 32 := Scalar.addi c0_i32_495 v647
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_496 : BitVec 32 := 1#32
  let v649 : BitVec 32 := Scalar.muli v5 c1_i32_496
  let v650 : BitVec 32 := Scalar.addi v648 v649
  v650.toNat
def k0_dev22 (d0 : Dev nD) : Nat :=
  let c0_i32_515 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_514 : BitVec 32 := 2#32
  let v670 : BitVec 32 := Scalar.muli v6 c2_i32_514
  let v671 : BitVec 32 := Scalar.addi c0_i32_515 v670
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_516 : BitVec 32 := 1#32
  let v672 : BitVec 32 := Scalar.muli v5 c1_i32_516
  let v673 : BitVec 32 := Scalar.addi v671 v672
  v673.toNat
def k0_dev23 (d0 : Dev nD) : Nat :=
  let c0_i32_535 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_534 : BitVec 32 := 2#32
  let v693 : BitVec 32 := Scalar.muli v6 c2_i32_534
  let v694 : BitVec 32 := Scalar.addi c0_i32_535 v693
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_536 : BitVec 32 := 1#32
  let v695 : BitVec 32 := Scalar.muli v5 c1_i32_536
  let v696 : BitVec 32 := Scalar.addi v694 v695
  v696.toNat
def k0_dev24 (d0 : Dev nD) : Nat :=
  let c0_i32_555 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_554 : BitVec 32 := 2#32
  let v716 : BitVec 32 := Scalar.muli v6 c2_i32_554
  let v717 : BitVec 32 := Scalar.addi c0_i32_555 v716
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_556 : BitVec 32 := 1#32
  let v718 : BitVec 32 := Scalar.muli v5 c1_i32_556
  let v719 : BitVec 32 := Scalar.addi v717 v718
  v719.toNat
def k0_dev25 (d0 : Dev nD) : Nat :=
  let c0_i32_575 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_574 : BitVec 32 := 2#32
  let v739 : BitVec 32 := Scalar.muli v6 c2_i32_574
  let v740 : BitVec 32 := Scalar.addi c0_i32_575 v739
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_576 : BitVec 32 := 1#32
  let v741 : BitVec 32 := Scalar.muli v5 c1_i32_576
  let v742 : BitVec 32 := Scalar.addi v740 v741
  v742.toNat
def k0_dev26 (d0 : Dev nD) : Nat :=
  let c0_i32_595 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_594 : BitVec 32 := 2#32
  let v762 : BitVec 32 := Scalar.muli v6 c2_i32_594
  let v763 : BitVec 32 := Scalar.addi c0_i32_595 v762
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_596 : BitVec 32 := 1#32
  let v764 : BitVec 32 := Scalar.muli v5 c1_i32_596
  let v765 : BitVec 32 := Scalar.addi v763 v764
  v765.toNat
def k0_dev27 (d0 : Dev nD) : Nat :=
  let c0_i32_615 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_614 : BitVec 32 := 2#32
  let v785 : BitVec 32 := Scalar.muli v6 c2_i32_614
  let v786 : BitVec 32 := Scalar.addi c0_i32_615 v785
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_616 : BitVec 32 := 1#32
  let v787 : BitVec 32 := Scalar.muli v5 c1_i32_616
  let v788 : BitVec 32 := Scalar.addi v786 v787
  v788.toNat
def k0_dev28 (d0 : Dev nD) : Nat :=
  let c0_i32_635 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_634 : BitVec 32 := 2#32
  let v808 : BitVec 32 := Scalar.muli v6 c2_i32_634
  let v809 : BitVec 32 := Scalar.addi c0_i32_635 v808
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_636 : BitVec 32 := 1#32
  let v810 : BitVec 32 := Scalar.muli v5 c1_i32_636
  let v811 : BitVec 32 := Scalar.addi v809 v810
  v811.toNat
def k0_dev29 (d0 : Dev nD) : Nat :=
  let c0_i32_655 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_654 : BitVec 32 := 2#32
  let v831 : BitVec 32 := Scalar.muli v6 c2_i32_654
  let v832 : BitVec 32 := Scalar.addi c0_i32_655 v831
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_656 : BitVec 32 := 1#32
  let v833 : BitVec 32 := Scalar.muli v5 c1_i32_656
  let v834 : BitVec 32 := Scalar.addi v832 v833
  v834.toNat
def k0_dev30 (d0 : Dev nD) : Nat :=
  let c0_i32_675 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_674 : BitVec 32 := 2#32
  let v854 : BitVec 32 := Scalar.muli v6 c2_i32_674
  let v855 : BitVec 32 := Scalar.addi c0_i32_675 v854
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_676 : BitVec 32 := 1#32
  let v856 : BitVec 32 := Scalar.muli v5 c1_i32_676
  let v857 : BitVec 32 := Scalar.addi v855 v856
  v857.toNat
def k0_dev31 (d0 : Dev nD) : Nat :=
  let c0_i32_695 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_694 : BitVec 32 := 2#32
  let v877 : BitVec 32 := Scalar.muli v6 c2_i32_694
  let v878 : BitVec 32 := Scalar.addi c0_i32_695 v877
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_696 : BitVec 32 := 1#32
  let v879 : BitVec 32 := Scalar.muli v5 c1_i32_696
  let v880 : BitVec 32 := Scalar.addi v878 v879
  v880.toNat
def k0_dev32 (d0 : Dev nD) : Nat :=
  let c0_i32_715 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_714 : BitVec 32 := 2#32
  let v900 : BitVec 32 := Scalar.muli v6 c2_i32_714
  let v901 : BitVec 32 := Scalar.addi c0_i32_715 v900
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_716 : BitVec 32 := 1#32
  let v902 : BitVec 32 := Scalar.muli v5 c1_i32_716
  let v903 : BitVec 32 := Scalar.addi v901 v902
  v903.toNat
def k0_dev33 (d0 : Dev nD) : Nat :=
  let c0_i32_735 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_734 : BitVec 32 := 2#32
  let v923 : BitVec 32 := Scalar.muli v6 c2_i32_734
  let v924 : BitVec 32 := Scalar.addi c0_i32_735 v923
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_736 : BitVec 32 := 1#32
  let v925 : BitVec 32 := Scalar.muli v5 c1_i32_736
  let v926 : BitVec 32 := Scalar.addi v924 v925
  v926.toNat
def k0_dev34 (d0 : Dev nD) : Nat :=
  let c0_i32_755 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_754 : BitVec 32 := 2#32
  let v946 : BitVec 32 := Scalar.muli v6 c2_i32_754
  let v947 : BitVec 32 := Scalar.addi c0_i32_755 v946
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_756 : BitVec 32 := 1#32
  let v948 : BitVec 32 := Scalar.muli v5 c1_i32_756
  let v949 : BitVec 32 := Scalar.addi v947 v948
  v949.toNat
def k0_off2 (d0 : Dev nD) : Fin 2 → Nat :=
  let c0_i32_765 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_5 : BitVec 32 := 1024#32
  let v10 : BitVec 32 := Scalar.muli v2 c1024_i32_5
  ![0, v10.toNat]
def k0_off3 (d0 : Dev nD) (c0_i32_766 : BitVec 32) : Fin 2 → Nat :=
  let c1_i32_6 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v12 : BitVec 32 := Scalar.subi c1_i32_6 v2
  let c8192_i32 : BitVec 32 := 8192#32
  let v13 : BitVec 32 := Scalar.muli v12 c8192_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32_7 : BitVec 32 := 4096#32
  let v14 : BitVec 32 := Scalar.muli v5 c4096_i32_7
  let v15 : BitVec 32 := Scalar.addi v13 v14
  let v963 : BitVec 32 := Scalar.addi v15 c0_i32_766
  let c0_i32_784 : BitVec 32 := 0#32
  ![v963.toNat, 0]
def k0_dev35 (d0 : Dev nD) : Nat :=
  let c0_i32_782 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_781 : BitVec 32 := 2#32
  let v974 : BitVec 32 := Scalar.muli v2 c2_i32_781
  let v975 : BitVec 32 := Scalar.addi c0_i32_782 v974
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_783 : BitVec 32 := 1#32
  let v976 : BitVec 32 := Scalar.muli v7 c1_i32_783
  let v977 : BitVec 32 := Scalar.addi v975 v976
  v977.toNat
def k0_off4 (d0 : Dev nD) : Fin 2 → Nat :=
  let c1024_i32_796 : BitVec 32 := 1024#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_5 : BitVec 32 := 1024#32
  let v10 : BitVec 32 := Scalar.muli v2 c1024_i32_5
  ![1024, v10.toNat]
def k0_dev36 (d0 : Dev nD) : Nat :=
  let c0_i32_823 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_822 : BitVec 32 := 2#32
  let v1017 : BitVec 32 := Scalar.muli v2 c2_i32_822
  let v1018 : BitVec 32 := Scalar.addi c0_i32_823 v1017
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_824 : BitVec 32 := 1#32
  let v1019 : BitVec 32 := Scalar.muli v7 c1_i32_824
  let v1020 : BitVec 32 := Scalar.addi v1018 v1019
  v1020.toNat
def k0_dev37 (d0 : Dev nD) : Nat :=
  let c0_i32_849 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_848 : BitVec 32 := 2#32
  let v1044 : BitVec 32 := Scalar.muli v2 c2_i32_848
  let v1045 : BitVec 32 := Scalar.addi c0_i32_849 v1044
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_850 : BitVec 32 := 1#32
  let v1046 : BitVec 32 := Scalar.muli v7 c1_i32_850
  let v1047 : BitVec 32 := Scalar.addi v1045 v1046
  v1047.toNat
def k0_dev38 (d0 : Dev nD) : Nat :=
  let c0_i32_875 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_874 : BitVec 32 := 2#32
  let v1071 : BitVec 32 := Scalar.muli v2 c2_i32_874
  let v1072 : BitVec 32 := Scalar.addi c0_i32_875 v1071
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_876 : BitVec 32 := 1#32
  let v1073 : BitVec 32 := Scalar.muli v7 c1_i32_876
  let v1074 : BitVec 32 := Scalar.addi v1072 v1073
  v1074.toNat
def k0_dev39 (d0 : Dev nD) : Nat :=
  let c0_i32_901 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_900 : BitVec 32 := 2#32
  let v1098 : BitVec 32 := Scalar.muli v2 c2_i32_900
  let v1099 : BitVec 32 := Scalar.addi c0_i32_901 v1098
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_902 : BitVec 32 := 1#32
  let v1100 : BitVec 32 := Scalar.muli v7 c1_i32_902
  let v1101 : BitVec 32 := Scalar.addi v1099 v1100
  v1101.toNat
def k0_off5 (d0 : Dev nD) : Fin 2 → Nat :=
  let c2048_i32_915 : BitVec 32 := 2048#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_5 : BitVec 32 := 1024#32
  let v10 : BitVec 32 := Scalar.muli v2 c1024_i32_5
  ![2048, v10.toNat]
def k0_dev40 (d0 : Dev nD) : Nat :=
  let c0_i32_941 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_940 : BitVec 32 := 2#32
  let v1141 : BitVec 32 := Scalar.muli v2 c2_i32_940
  let v1142 : BitVec 32 := Scalar.addi c0_i32_941 v1141
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_942 : BitVec 32 := 1#32
  let v1143 : BitVec 32 := Scalar.muli v7 c1_i32_942
  let v1144 : BitVec 32 := Scalar.addi v1142 v1143
  v1144.toNat
def k0_dev41 (d0 : Dev nD) : Nat :=
  let c0_i32_967 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_966 : BitVec 32 := 2#32
  let v1168 : BitVec 32 := Scalar.muli v2 c2_i32_966
  let v1169 : BitVec 32 := Scalar.addi c0_i32_967 v1168
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_968 : BitVec 32 := 1#32
  let v1170 : BitVec 32 := Scalar.muli v7 c1_i32_968
  let v1171 : BitVec 32 := Scalar.addi v1169 v1170
  v1171.toNat
def k0_dev42 (d0 : Dev nD) : Nat :=
  let c0_i32_993 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_992 : BitVec 32 := 2#32
  let v1195 : BitVec 32 := Scalar.muli v2 c2_i32_992
  let v1196 : BitVec 32 := Scalar.addi c0_i32_993 v1195
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_994 : BitVec 32 := 1#32
  let v1197 : BitVec 32 := Scalar.muli v7 c1_i32_994
  let v1198 : BitVec 32 := Scalar.addi v1196 v1197
  v1198.toNat
def k0_dev43 (d0 : Dev nD) : Nat :=
  let c0_i32_1019 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1018 : BitVec 32 := 2#32
  let v1222 : BitVec 32 := Scalar.muli v2 c2_i32_1018
  let v1223 : BitVec 32 := Scalar.addi c0_i32_1019 v1222
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1020 : BitVec 32 := 1#32
  let v1224 : BitVec 32 := Scalar.muli v7 c1_i32_1020
  let v1225 : BitVec 32 := Scalar.addi v1223 v1224
  v1225.toNat
def k0_off6 (d0 : Dev nD) : Fin 2 → Nat :=
  let c3072_i32_1033 : BitVec 32 := 3072#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_5 : BitVec 32 := 1024#32
  let v10 : BitVec 32 := Scalar.muli v2 c1024_i32_5
  ![3072, v10.toNat]
def k0_dev44 (d0 : Dev nD) : Nat :=
  let c0_i32_1059 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1058 : BitVec 32 := 2#32
  let v1265 : BitVec 32 := Scalar.muli v2 c2_i32_1058
  let v1266 : BitVec 32 := Scalar.addi c0_i32_1059 v1265
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1060 : BitVec 32 := 1#32
  let v1267 : BitVec 32 := Scalar.muli v7 c1_i32_1060
  let v1268 : BitVec 32 := Scalar.addi v1266 v1267
  v1268.toNat
def k0_dev45 (d0 : Dev nD) : Nat :=
  let c0_i32_1085 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1084 : BitVec 32 := 2#32
  let v1292 : BitVec 32 := Scalar.muli v2 c2_i32_1084
  let v1293 : BitVec 32 := Scalar.addi c0_i32_1085 v1292
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1086 : BitVec 32 := 1#32
  let v1294 : BitVec 32 := Scalar.muli v7 c1_i32_1086
  let v1295 : BitVec 32 := Scalar.addi v1293 v1294
  v1295.toNat
def k0_dev46 (d0 : Dev nD) : Nat :=
  let c0_i32_1111 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1110 : BitVec 32 := 2#32
  let v1319 : BitVec 32 := Scalar.muli v2 c2_i32_1110
  let v1320 : BitVec 32 := Scalar.addi c0_i32_1111 v1319
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1112 : BitVec 32 := 1#32
  let v1321 : BitVec 32 := Scalar.muli v7 c1_i32_1112
  let v1322 : BitVec 32 := Scalar.addi v1320 v1321
  v1322.toNat
def k0_dev47 (d0 : Dev nD) : Nat :=
  let c0_i32_1137 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1136 : BitVec 32 := 2#32
  let v1346 : BitVec 32 := Scalar.muli v2 c2_i32_1136
  let v1347 : BitVec 32 := Scalar.addi c0_i32_1137 v1346
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1138 : BitVec 32 := 1#32
  let v1348 : BitVec 32 := Scalar.muli v7 c1_i32_1138
  let v1349 : BitVec 32 := Scalar.addi v1347 v1348
  v1349.toNat
def k0_off7 (d0 : Dev nD) : Fin 2 → Nat :=
  let c4096_i32_1151 : BitVec 32 := 4096#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_5 : BitVec 32 := 1024#32
  let v10 : BitVec 32 := Scalar.muli v2 c1024_i32_5
  ![4096, v10.toNat]
def k0_dev48 (d0 : Dev nD) : Nat :=
  let c0_i32_1177 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1176 : BitVec 32 := 2#32
  let v1389 : BitVec 32 := Scalar.muli v2 c2_i32_1176
  let v1390 : BitVec 32 := Scalar.addi c0_i32_1177 v1389
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1178 : BitVec 32 := 1#32
  let v1391 : BitVec 32 := Scalar.muli v7 c1_i32_1178
  let v1392 : BitVec 32 := Scalar.addi v1390 v1391
  v1392.toNat
def k0_dev49 (d0 : Dev nD) : Nat :=
  let c0_i32_1203 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1202 : BitVec 32 := 2#32
  let v1416 : BitVec 32 := Scalar.muli v2 c2_i32_1202
  let v1417 : BitVec 32 := Scalar.addi c0_i32_1203 v1416
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1204 : BitVec 32 := 1#32
  let v1418 : BitVec 32 := Scalar.muli v7 c1_i32_1204
  let v1419 : BitVec 32 := Scalar.addi v1417 v1418
  v1419.toNat
def k0_dev50 (d0 : Dev nD) : Nat :=
  let c0_i32_1229 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1228 : BitVec 32 := 2#32
  let v1443 : BitVec 32 := Scalar.muli v2 c2_i32_1228
  let v1444 : BitVec 32 := Scalar.addi c0_i32_1229 v1443
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1230 : BitVec 32 := 1#32
  let v1445 : BitVec 32 := Scalar.muli v7 c1_i32_1230
  let v1446 : BitVec 32 := Scalar.addi v1444 v1445
  v1446.toNat
def k0_dev51 (d0 : Dev nD) : Nat :=
  let c0_i32_1255 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1254 : BitVec 32 := 2#32
  let v1470 : BitVec 32 := Scalar.muli v2 c2_i32_1254
  let v1471 : BitVec 32 := Scalar.addi c0_i32_1255 v1470
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1256 : BitVec 32 := 1#32
  let v1472 : BitVec 32 := Scalar.muli v7 c1_i32_1256
  let v1473 : BitVec 32 := Scalar.addi v1471 v1472
  v1473.toNat
def k0_off8 (d0 : Dev nD) : Fin 2 → Nat :=
  let c5120_i32 : BitVec 32 := 5120#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_5 : BitVec 32 := 1024#32
  let v10 : BitVec 32 := Scalar.muli v2 c1024_i32_5
  ![5120, v10.toNat]
def k0_dev52 (d0 : Dev nD) : Nat :=
  let c0_i32_1294 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1293 : BitVec 32 := 2#32
  let v1513 : BitVec 32 := Scalar.muli v2 c2_i32_1293
  let v1514 : BitVec 32 := Scalar.addi c0_i32_1294 v1513
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1295 : BitVec 32 := 1#32
  let v1515 : BitVec 32 := Scalar.muli v7 c1_i32_1295
  let v1516 : BitVec 32 := Scalar.addi v1514 v1515
  v1516.toNat
def k0_dev53 (d0 : Dev nD) : Nat :=
  let c0_i32_1320 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1319 : BitVec 32 := 2#32
  let v1540 : BitVec 32 := Scalar.muli v2 c2_i32_1319
  let v1541 : BitVec 32 := Scalar.addi c0_i32_1320 v1540
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1321 : BitVec 32 := 1#32
  let v1542 : BitVec 32 := Scalar.muli v7 c1_i32_1321
  let v1543 : BitVec 32 := Scalar.addi v1541 v1542
  v1543.toNat
def k0_dev54 (d0 : Dev nD) : Nat :=
  let c0_i32_1346 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1345 : BitVec 32 := 2#32
  let v1567 : BitVec 32 := Scalar.muli v2 c2_i32_1345
  let v1568 : BitVec 32 := Scalar.addi c0_i32_1346 v1567
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1347 : BitVec 32 := 1#32
  let v1569 : BitVec 32 := Scalar.muli v7 c1_i32_1347
  let v1570 : BitVec 32 := Scalar.addi v1568 v1569
  v1570.toNat
def k0_dev55 (d0 : Dev nD) : Nat :=
  let c0_i32_1372 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1371 : BitVec 32 := 2#32
  let v1594 : BitVec 32 := Scalar.muli v2 c2_i32_1371
  let v1595 : BitVec 32 := Scalar.addi c0_i32_1372 v1594
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1373 : BitVec 32 := 1#32
  let v1596 : BitVec 32 := Scalar.muli v7 c1_i32_1373
  let v1597 : BitVec 32 := Scalar.addi v1595 v1596
  v1597.toNat
def k0_off9 (d0 : Dev nD) : Fin 2 → Nat :=
  let c6144_i32 : BitVec 32 := 6144#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_5 : BitVec 32 := 1024#32
  let v10 : BitVec 32 := Scalar.muli v2 c1024_i32_5
  ![6144, v10.toNat]
def k0_dev56 (d0 : Dev nD) : Nat :=
  let c0_i32_1411 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1410 : BitVec 32 := 2#32
  let v1637 : BitVec 32 := Scalar.muli v2 c2_i32_1410
  let v1638 : BitVec 32 := Scalar.addi c0_i32_1411 v1637
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1412 : BitVec 32 := 1#32
  let v1639 : BitVec 32 := Scalar.muli v7 c1_i32_1412
  let v1640 : BitVec 32 := Scalar.addi v1638 v1639
  v1640.toNat
def k0_dev57 (d0 : Dev nD) : Nat :=
  let c0_i32_1437 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1436 : BitVec 32 := 2#32
  let v1664 : BitVec 32 := Scalar.muli v2 c2_i32_1436
  let v1665 : BitVec 32 := Scalar.addi c0_i32_1437 v1664
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1438 : BitVec 32 := 1#32
  let v1666 : BitVec 32 := Scalar.muli v7 c1_i32_1438
  let v1667 : BitVec 32 := Scalar.addi v1665 v1666
  v1667.toNat
def k0_dev58 (d0 : Dev nD) : Nat :=
  let c0_i32_1463 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1462 : BitVec 32 := 2#32
  let v1691 : BitVec 32 := Scalar.muli v2 c2_i32_1462
  let v1692 : BitVec 32 := Scalar.addi c0_i32_1463 v1691
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1464 : BitVec 32 := 1#32
  let v1693 : BitVec 32 := Scalar.muli v7 c1_i32_1464
  let v1694 : BitVec 32 := Scalar.addi v1692 v1693
  v1694.toNat
def k0_dev59 (d0 : Dev nD) : Nat :=
  let c0_i32_1489 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1488 : BitVec 32 := 2#32
  let v1718 : BitVec 32 := Scalar.muli v2 c2_i32_1488
  let v1719 : BitVec 32 := Scalar.addi c0_i32_1489 v1718
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1490 : BitVec 32 := 1#32
  let v1720 : BitVec 32 := Scalar.muli v7 c1_i32_1490
  let v1721 : BitVec 32 := Scalar.addi v1719 v1720
  v1721.toNat
def k0_off10 (d0 : Dev nD) : Fin 2 → Nat :=
  let c7168_i32 : BitVec 32 := 7168#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_5 : BitVec 32 := 1024#32
  let v10 : BitVec 32 := Scalar.muli v2 c1024_i32_5
  ![7168, v10.toNat]
def k0_dev60 (d0 : Dev nD) : Nat :=
  let c0_i32_1528 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1527 : BitVec 32 := 2#32
  let v1761 : BitVec 32 := Scalar.muli v2 c2_i32_1527
  let v1762 : BitVec 32 := Scalar.addi c0_i32_1528 v1761
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1529 : BitVec 32 := 1#32
  let v1763 : BitVec 32 := Scalar.muli v7 c1_i32_1529
  let v1764 : BitVec 32 := Scalar.addi v1762 v1763
  v1764.toNat
def k0_dev61 (d0 : Dev nD) : Nat :=
  let c0_i32_1554 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1553 : BitVec 32 := 2#32
  let v1788 : BitVec 32 := Scalar.muli v2 c2_i32_1553
  let v1789 : BitVec 32 := Scalar.addi c0_i32_1554 v1788
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1555 : BitVec 32 := 1#32
  let v1790 : BitVec 32 := Scalar.muli v7 c1_i32_1555
  let v1791 : BitVec 32 := Scalar.addi v1789 v1790
  v1791.toNat
def k0_dev62 (d0 : Dev nD) : Nat :=
  let c0_i32_1580 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1579 : BitVec 32 := 2#32
  let v1815 : BitVec 32 := Scalar.muli v2 c2_i32_1579
  let v1816 : BitVec 32 := Scalar.addi c0_i32_1580 v1815
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1581 : BitVec 32 := 1#32
  let v1817 : BitVec 32 := Scalar.muli v7 c1_i32_1581
  let v1818 : BitVec 32 := Scalar.addi v1816 v1817
  v1818.toNat
def k0_dev63 (d0 : Dev nD) : Nat :=
  let c0_i32_1606 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1605 : BitVec 32 := 2#32
  let v1842 : BitVec 32 := Scalar.muli v2 c2_i32_1605
  let v1843 : BitVec 32 := Scalar.addi c0_i32_1606 v1842
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1607 : BitVec 32 := 1#32
  let v1844 : BitVec 32 := Scalar.muli v7 c1_i32_1607
  let v1845 : BitVec 32 := Scalar.addi v1843 v1844
  v1845.toNat
def k0_dev64 (d0 : Dev nD) : Nat :=
  let c0_i32_1641 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1640 : BitVec 32 := 2#32
  let v1880 : BitVec 32 := Scalar.muli v2 c2_i32_1640
  let v1881 : BitVec 32 := Scalar.addi c0_i32_1641 v1880
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1642 : BitVec 32 := 1#32
  let v1882 : BitVec 32 := Scalar.muli v7 c1_i32_1642
  let v1883 : BitVec 32 := Scalar.addi v1881 v1882
  v1883.toNat
def k0_dev65 (d0 : Dev nD) : Nat :=
  let c0_i32_1667 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1666 : BitVec 32 := 2#32
  let v1907 : BitVec 32 := Scalar.muli v2 c2_i32_1666
  let v1908 : BitVec 32 := Scalar.addi c0_i32_1667 v1907
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1668 : BitVec 32 := 1#32
  let v1909 : BitVec 32 := Scalar.muli v7 c1_i32_1668
  let v1910 : BitVec 32 := Scalar.addi v1908 v1909
  v1910.toNat
def k0_dev66 (d0 : Dev nD) : Nat :=
  let c0_i32_1693 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1692 : BitVec 32 := 2#32
  let v1934 : BitVec 32 := Scalar.muli v2 c2_i32_1692
  let v1935 : BitVec 32 := Scalar.addi c0_i32_1693 v1934
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1694 : BitVec 32 := 1#32
  let v1936 : BitVec 32 := Scalar.muli v7 c1_i32_1694
  let v1937 : BitVec 32 := Scalar.addi v1935 v1936
  v1937.toNat
def k0_off11 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32_1703 : BitVec 32 := 8192#32
  let v1950 : BitVec 32 := Scalar.muli v2 c8192_i32_1703
  let c0_i32_1704 : BitVec 32 := 0#32
  ![v1950.toNat, 0]
def k0_off12 (d0 : Dev nD) (c0_i32_1705 : BitVec 32) : Fin 2 → Nat :=
  let c1_i32_8 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v16 : BitVec 32 := Scalar.subi c1_i32_8 v2
  let c8192_i32_9 : BitVec 32 := 8192#32
  let v17 : BitVec 32 := Scalar.muli v16 c8192_i32_9
  let c1_i32_10 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_10 v5
  let c4096_i32_11 : BitVec 32 := 4096#32
  let v19 : BitVec 32 := Scalar.muli v18 c4096_i32_11
  let v20 : BitVec 32 := Scalar.addi v17 v19
  let v1952 : BitVec 32 := Scalar.addi v20 c0_i32_1705
  let c0_i32_1712 : BitVec 32 := 0#32
  ![v1952.toNat, 0]

class Facts₀ : Prop where
  hamt_1 : (1#32 : BitVec 32).msb = false
  hamt_2 : (2#32 : BitVec 32).msb = false
  inb_S32_S1_0 : ∀ a, (![0] : Fin 1 → Nat) a + S1.size a ≤ S32.size a
  squeezes_S1_S_ : S1.Squeezes S_
  inb_S32x128x1024_S1x128x1024_0_0_0 : ∀ a, (![0, 0, 0] : Fin 3 → Nat) a + S1x128x1024.size a ≤ S32x128x1024.size a
  squeezes_S1x128x1024_S128x1024 : S1x128x1024.Squeezes S128x1024
  inb_S32_S1_1 : ∀ a, (![1] : Fin 1 → Nat) a + S1.size a ≤ S32.size a
  inb_S32x128x1024_S1x128x1024_1_0_0 : ∀ a, (![1, 0, 0] : Fin 3 → Nat) a + S1x128x1024.size a ≤ S32x128x1024.size a
  inb_S32_S1_2 : ∀ a, (![2] : Fin 1 → Nat) a + S1.size a ≤ S32.size a
  inb_S32x128x1024_S1x128x1024_2_0_0 : ∀ a, (![2, 0, 0] : Fin 3 → Nat) a + S1x128x1024.size a ≤ S32x128x1024.size a
  inb_S32_S1_3 : ∀ a, (![3] : Fin 1 → Nat) a + S1.size a ≤ S32.size a
  inb_S32x128x1024_S1x128x1024_3_0_0 : ∀ a, (![3, 0, 0] : Fin 3 → Nat) a + S1x128x1024.size a ≤ S32x128x1024.size a
  inb_S32_S1_4 : ∀ a, (![4] : Fin 1 → Nat) a + S1.size a ≤ S32.size a
  inb_S32x128x1024_S1x128x1024_4_0_0 : ∀ a, (![4, 0, 0] : Fin 3 → Nat) a + S1x128x1024.size a ≤ S32x128x1024.size a
  inb_S32_S1_5 : ∀ a, (![5] : Fin 1 → Nat) a + S1.size a ≤ S32.size a
  inb_S32x128x1024_S1x128x1024_5_0_0 : ∀ a, (![5, 0, 0] : Fin 3 → Nat) a + S1x128x1024.size a ≤ S32x128x1024.size a
  inb_S32_S1_6 : ∀ a, (![6] : Fin 1 → Nat) a + S1.size a ≤ S32.size a
  inb_S32x128x1024_S1x128x1024_6_0_0 : ∀ a, (![6, 0, 0] : Fin 3 → Nat) a + S1x128x1024.size a ≤ S32x128x1024.size a
  inb_S32_S1_7 : ∀ a, (![7] : Fin 1 → Nat) a + S1.size a ≤ S32.size a
  inb_S32x128x1024_S1x128x1024_7_0_0 : ∀ a, (![7, 0, 0] : Fin 3 → Nat) a + S1x128x1024.size a ≤ S32x128x1024.size a
  inb_S32_S1_8 : ∀ a, (![8] : Fin 1 → Nat) a + S1.size a ≤ S32.size a
  inb_S32x128x1024_S1x128x1024_8_0_0 : ∀ a, (![8, 0, 0] : Fin 3 → Nat) a + S1x128x1024.size a ≤ S32x128x1024.size a
  inb_S32_S1_9 : ∀ a, (![9] : Fin 1 → Nat) a + S1.size a ≤ S32.size a
  inb_S32x128x1024_S1x128x1024_9_0_0 : ∀ a, (![9, 0, 0] : Fin 3 → Nat) a + S1x128x1024.size a ≤ S32x128x1024.size a
  inb_S32_S1_10 : ∀ a, (![10] : Fin 1 → Nat) a + S1.size a ≤ S32.size a
  inb_S32x128x1024_S1x128x1024_10_0_0 : ∀ a, (![10, 0, 0] : Fin 3 → Nat) a + S1x128x1024.size a ≤ S32x128x1024.size a
  inb_S32_S1_11 : ∀ a, (![11] : Fin 1 → Nat) a + S1.size a ≤ S32.size a
  inb_S32x128x1024_S1x128x1024_11_0_0 : ∀ a, (![11, 0, 0] : Fin 3 → Nat) a + S1x128x1024.size a ≤ S32x128x1024.size a
  inb_S32_S1_12 : ∀ a, (![12] : Fin 1 → Nat) a + S1.size a ≤ S32.size a
  inb_S32x128x1024_S1x128x1024_12_0_0 : ∀ a, (![12, 0, 0] : Fin 3 → Nat) a + S1x128x1024.size a ≤ S32x128x1024.size a
  inb_S32_S1_13 : ∀ a, (![13] : Fin 1 → Nat) a + S1.size a ≤ S32.size a
  inb_S32x128x1024_S1x128x1024_13_0_0 : ∀ a, (![13, 0, 0] : Fin 3 → Nat) a + S1x128x1024.size a ≤ S32x128x1024.size a
  inb_S32_S1_14 : ∀ a, (![14] : Fin 1 → Nat) a + S1.size a ≤ S32.size a
  inb_S32x128x1024_S1x128x1024_14_0_0 : ∀ a, (![14, 0, 0] : Fin 3 → Nat) a + S1x128x1024.size a ≤ S32x128x1024.size a
  inb_S32_S1_15 : ∀ a, (![15] : Fin 1 → Nat) a + S1.size a ≤ S32.size a
  inb_S32x128x1024_S1x128x1024_15_0_0 : ∀ a, (![15, 0, 0] : Fin 3 → Nat) a + S1x128x1024.size a ≤ S32x128x1024.size a
  inb_S32_S1_16 : ∀ a, (![16] : Fin 1 → Nat) a + S1.size a ≤ S32.size a
  inb_S32x128x1024_S1x128x1024_16_0_0 : ∀ a, (![16, 0, 0] : Fin 3 → Nat) a + S1x128x1024.size a ≤ S32x128x1024.size a
  inb_S32_S1_17 : ∀ a, (![17] : Fin 1 → Nat) a + S1.size a ≤ S32.size a
  inb_S32x128x1024_S1x128x1024_17_0_0 : ∀ a, (![17, 0, 0] : Fin 3 → Nat) a + S1x128x1024.size a ≤ S32x128x1024.size a
  inb_S32_S1_18 : ∀ a, (![18] : Fin 1 → Nat) a + S1.size a ≤ S32.size a
  inb_S32x128x1024_S1x128x1024_18_0_0 : ∀ a, (![18, 0, 0] : Fin 3 → Nat) a + S1x128x1024.size a ≤ S32x128x1024.size a
  inb_S32_S1_19 : ∀ a, (![19] : Fin 1 → Nat) a + S1.size a ≤ S32.size a
  inb_S32x128x1024_S1x128x1024_19_0_0 : ∀ a, (![19, 0, 0] : Fin 3 → Nat) a + S1x128x1024.size a ≤ S32x128x1024.size a
  inb_S32_S1_20 : ∀ a, (![20] : Fin 1 → Nat) a + S1.size a ≤ S32.size a
  inb_S32x128x1024_S1x128x1024_20_0_0 : ∀ a, (![20, 0, 0] : Fin 3 → Nat) a + S1x128x1024.size a ≤ S32x128x1024.size a
  inb_S32_S1_21 : ∀ a, (![21] : Fin 1 → Nat) a + S1.size a ≤ S32.size a
  inb_S32x128x1024_S1x128x1024_21_0_0 : ∀ a, (![21, 0, 0] : Fin 3 → Nat) a + S1x128x1024.size a ≤ S32x128x1024.size a
  inb_S32_S1_22 : ∀ a, (![22] : Fin 1 → Nat) a + S1.size a ≤ S32.size a
  inb_S32x128x1024_S1x128x1024_22_0_0 : ∀ a, (![22, 0, 0] : Fin 3 → Nat) a + S1x128x1024.size a ≤ S32x128x1024.size a
  inb_S32_S1_23 : ∀ a, (![23] : Fin 1 → Nat) a + S1.size a ≤ S32.size a
  inb_S32x128x1024_S1x128x1024_23_0_0 : ∀ a, (![23, 0, 0] : Fin 3 → Nat) a + S1x128x1024.size a ≤ S32x128x1024.size a
  inb_S32_S1_24 : ∀ a, (![24] : Fin 1 → Nat) a + S1.size a ≤ S32.size a
  inb_S32x128x1024_S1x128x1024_24_0_0 : ∀ a, (![24, 0, 0] : Fin 3 → Nat) a + S1x128x1024.size a ≤ S32x128x1024.size a
  inb_S32_S1_25 : ∀ a, (![25] : Fin 1 → Nat) a + S1.size a ≤ S32.size a
  inb_S32x128x1024_S1x128x1024_25_0_0 : ∀ a, (![25, 0, 0] : Fin 3 → Nat) a + S1x128x1024.size a ≤ S32x128x1024.size a
  inb_S32_S1_26 : ∀ a, (![26] : Fin 1 → Nat) a + S1.size a ≤ S32.size a
  inb_S32x128x1024_S1x128x1024_26_0_0 : ∀ a, (![26, 0, 0] : Fin 3 → Nat) a + S1x128x1024.size a ≤ S32x128x1024.size a
  inb_S32_S1_27 : ∀ a, (![27] : Fin 1 → Nat) a + S1.size a ≤ S32.size a
  inb_S32x128x1024_S1x128x1024_27_0_0 : ∀ a, (![27, 0, 0] : Fin 3 → Nat) a + S1x128x1024.size a ≤ S32x128x1024.size a
  inb_S32_S1_28 : ∀ a, (![28] : Fin 1 → Nat) a + S1.size a ≤ S32.size a
  inb_S32x128x1024_S1x128x1024_28_0_0 : ∀ a, (![28, 0, 0] : Fin 3 → Nat) a + S1x128x1024.size a ≤ S32x128x1024.size a
  inb_S32_S1_29 : ∀ a, (![29] : Fin 1 → Nat) a + S1.size a ≤ S32.size a
  inb_S32x128x1024_S1x128x1024_29_0_0 : ∀ a, (![29, 0, 0] : Fin 3 → Nat) a + S1x128x1024.size a ≤ S32x128x1024.size a
  inb_S32_S1_30 : ∀ a, (![30] : Fin 1 → Nat) a + S1.size a ≤ S32.size a
  inb_S32x128x1024_S1x128x1024_30_0_0 : ∀ a, (![30, 0, 0] : Fin 3 → Nat) a + S1x128x1024.size a ≤ S32x128x1024.size a
  inb_S32_S1_31 : ∀ a, (![31] : Fin 1 → Nat) a + S1.size a ≤ S32.size a
  inb_S32x128x1024_S1x128x1024_31_0_0 : ∀ a, (![31, 0, 0] : Fin 3 → Nat) a + S1x128x1024.size a ≤ S32x128x1024.size a
  h_S1x128x1024 : 0 < S1x128x1024.numel
  shapeCasts_S1x128x1024_S128x1024 : S1x128x1024.ShapeCasts S128x1024
  bitsLt_bf16_f32 : FTy.bits .bf16 < FTy.bits .f32
  shapeCasts_S128x1024_S1x128x1024 : S128x1024.ShapeCasts S1x128x1024
  packedbf16_S32x128x1024_S1x128x1024_0_0_0 : (Rect.unit (s := S32x128x1024) ![0, 0, 0] S1x128x1024.size inb_S32x128x1024_S1x128x1024_0_0_0).PackedRows (EltTy.packing .bf16)
  wordsbf16_S32x128x1024_S1x128x1024_0_0_0 : (Rect.unit (s := S32x128x1024) ![0, 0, 0] S1x128x1024.size inb_S32x128x1024_S1x128x1024_0_0_0).WholeWords (EltTy.packing .bf16)
  packedbf16_S32x128x1024_S1x128x1024_1_0_0 : (Rect.unit (s := S32x128x1024) ![1, 0, 0] S1x128x1024.size inb_S32x128x1024_S1x128x1024_1_0_0).PackedRows (EltTy.packing .bf16)
  wordsbf16_S32x128x1024_S1x128x1024_1_0_0 : (Rect.unit (s := S32x128x1024) ![1, 0, 0] S1x128x1024.size inb_S32x128x1024_S1x128x1024_1_0_0).WholeWords (EltTy.packing .bf16)
  packedbf16_S32x128x1024_S1x128x1024_2_0_0 : (Rect.unit (s := S32x128x1024) ![2, 0, 0] S1x128x1024.size inb_S32x128x1024_S1x128x1024_2_0_0).PackedRows (EltTy.packing .bf16)
  wordsbf16_S32x128x1024_S1x128x1024_2_0_0 : (Rect.unit (s := S32x128x1024) ![2, 0, 0] S1x128x1024.size inb_S32x128x1024_S1x128x1024_2_0_0).WholeWords (EltTy.packing .bf16)
  packedbf16_S32x128x1024_S1x128x1024_3_0_0 : (Rect.unit (s := S32x128x1024) ![3, 0, 0] S1x128x1024.size inb_S32x128x1024_S1x128x1024_3_0_0).PackedRows (EltTy.packing .bf16)
  wordsbf16_S32x128x1024_S1x128x1024_3_0_0 : (Rect.unit (s := S32x128x1024) ![3, 0, 0] S1x128x1024.size inb_S32x128x1024_S1x128x1024_3_0_0).WholeWords (EltTy.packing .bf16)
  packedbf16_S32x128x1024_S1x128x1024_4_0_0 : (Rect.unit (s := S32x128x1024) ![4, 0, 0] S1x128x1024.size inb_S32x128x1024_S1x128x1024_4_0_0).PackedRows (EltTy.packing .bf16)
  wordsbf16_S32x128x1024_S1x128x1024_4_0_0 : (Rect.unit (s := S32x128x1024) ![4, 0, 0] S1x128x1024.size inb_S32x128x1024_S1x128x1024_4_0_0).WholeWords (EltTy.packing .bf16)
  packedbf16_S32x128x1024_S1x128x1024_5_0_0 : (Rect.unit (s := S32x128x1024) ![5, 0, 0] S1x128x1024.size inb_S32x128x1024_S1x128x1024_5_0_0).PackedRows (EltTy.packing .bf16)
  wordsbf16_S32x128x1024_S1x128x1024_5_0_0 : (Rect.unit (s := S32x128x1024) ![5, 0, 0] S1x128x1024.size inb_S32x128x1024_S1x128x1024_5_0_0).WholeWords (EltTy.packing .bf16)
  packedbf16_S32x128x1024_S1x128x1024_6_0_0 : (Rect.unit (s := S32x128x1024) ![6, 0, 0] S1x128x1024.size inb_S32x128x1024_S1x128x1024_6_0_0).PackedRows (EltTy.packing .bf16)
  wordsbf16_S32x128x1024_S1x128x1024_6_0_0 : (Rect.unit (s := S32x128x1024) ![6, 0, 0] S1x128x1024.size inb_S32x128x1024_S1x128x1024_6_0_0).WholeWords (EltTy.packing .bf16)
  packedbf16_S32x128x1024_S1x128x1024_7_0_0 : (Rect.unit (s := S32x128x1024) ![7, 0, 0] S1x128x1024.size inb_S32x128x1024_S1x128x1024_7_0_0).PackedRows (EltTy.packing .bf16)
  wordsbf16_S32x128x1024_S1x128x1024_7_0_0 : (Rect.unit (s := S32x128x1024) ![7, 0, 0] S1x128x1024.size inb_S32x128x1024_S1x128x1024_7_0_0).WholeWords (EltTy.packing .bf16)
  packedbf16_S32x128x1024_S1x128x1024_8_0_0 : (Rect.unit (s := S32x128x1024) ![8, 0, 0] S1x128x1024.size inb_S32x128x1024_S1x128x1024_8_0_0).PackedRows (EltTy.packing .bf16)
  wordsbf16_S32x128x1024_S1x128x1024_8_0_0 : (Rect.unit (s := S32x128x1024) ![8, 0, 0] S1x128x1024.size inb_S32x128x1024_S1x128x1024_8_0_0).WholeWords (EltTy.packing .bf16)
  packedbf16_S32x128x1024_S1x128x1024_9_0_0 : (Rect.unit (s := S32x128x1024) ![9, 0, 0] S1x128x1024.size inb_S32x128x1024_S1x128x1024_9_0_0).PackedRows (EltTy.packing .bf16)
  wordsbf16_S32x128x1024_S1x128x1024_9_0_0 : (Rect.unit (s := S32x128x1024) ![9, 0, 0] S1x128x1024.size inb_S32x128x1024_S1x128x1024_9_0_0).WholeWords (EltTy.packing .bf16)
  packedbf16_S32x128x1024_S1x128x1024_10_0_0 : (Rect.unit (s := S32x128x1024) ![10, 0, 0] S1x128x1024.size inb_S32x128x1024_S1x128x1024_10_0_0).PackedRows (EltTy.packing .bf16)
  wordsbf16_S32x128x1024_S1x128x1024_10_0_0 : (Rect.unit (s := S32x128x1024) ![10, 0, 0] S1x128x1024.size inb_S32x128x1024_S1x128x1024_10_0_0).WholeWords (EltTy.packing .bf16)
  packedbf16_S32x128x1024_S1x128x1024_11_0_0 : (Rect.unit (s := S32x128x1024) ![11, 0, 0] S1x128x1024.size inb_S32x128x1024_S1x128x1024_11_0_0).PackedRows (EltTy.packing .bf16)
  wordsbf16_S32x128x1024_S1x128x1024_11_0_0 : (Rect.unit (s := S32x128x1024) ![11, 0, 0] S1x128x1024.size inb_S32x128x1024_S1x128x1024_11_0_0).WholeWords (EltTy.packing .bf16)
  packedbf16_S32x128x1024_S1x128x1024_12_0_0 : (Rect.unit (s := S32x128x1024) ![12, 0, 0] S1x128x1024.size inb_S32x128x1024_S1x128x1024_12_0_0).PackedRows (EltTy.packing .bf16)
  wordsbf16_S32x128x1024_S1x128x1024_12_0_0 : (Rect.unit (s := S32x128x1024) ![12, 0, 0] S1x128x1024.size inb_S32x128x1024_S1x128x1024_12_0_0).WholeWords (EltTy.packing .bf16)
  packedbf16_S32x128x1024_S1x128x1024_13_0_0 : (Rect.unit (s := S32x128x1024) ![13, 0, 0] S1x128x1024.size inb_S32x128x1024_S1x128x1024_13_0_0).PackedRows (EltTy.packing .bf16)
  wordsbf16_S32x128x1024_S1x128x1024_13_0_0 : (Rect.unit (s := S32x128x1024) ![13, 0, 0] S1x128x1024.size inb_S32x128x1024_S1x128x1024_13_0_0).WholeWords (EltTy.packing .bf16)
  packedbf16_S32x128x1024_S1x128x1024_14_0_0 : (Rect.unit (s := S32x128x1024) ![14, 0, 0] S1x128x1024.size inb_S32x128x1024_S1x128x1024_14_0_0).PackedRows (EltTy.packing .bf16)
  wordsbf16_S32x128x1024_S1x128x1024_14_0_0 : (Rect.unit (s := S32x128x1024) ![14, 0, 0] S1x128x1024.size inb_S32x128x1024_S1x128x1024_14_0_0).WholeWords (EltTy.packing .bf16)
  packedbf16_S32x128x1024_S1x128x1024_15_0_0 : (Rect.unit (s := S32x128x1024) ![15, 0, 0] S1x128x1024.size inb_S32x128x1024_S1x128x1024_15_0_0).PackedRows (EltTy.packing .bf16)
  wordsbf16_S32x128x1024_S1x128x1024_15_0_0 : (Rect.unit (s := S32x128x1024) ![15, 0, 0] S1x128x1024.size inb_S32x128x1024_S1x128x1024_15_0_0).WholeWords (EltTy.packing .bf16)
  packedbf16_S32x128x1024_S1x128x1024_16_0_0 : (Rect.unit (s := S32x128x1024) ![16, 0, 0] S1x128x1024.size inb_S32x128x1024_S1x128x1024_16_0_0).PackedRows (EltTy.packing .bf16)
  wordsbf16_S32x128x1024_S1x128x1024_16_0_0 : (Rect.unit (s := S32x128x1024) ![16, 0, 0] S1x128x1024.size inb_S32x128x1024_S1x128x1024_16_0_0).WholeWords (EltTy.packing .bf16)
  packedbf16_S32x128x1024_S1x128x1024_17_0_0 : (Rect.unit (s := S32x128x1024) ![17, 0, 0] S1x128x1024.size inb_S32x128x1024_S1x128x1024_17_0_0).PackedRows (EltTy.packing .bf16)
  wordsbf16_S32x128x1024_S1x128x1024_17_0_0 : (Rect.unit (s := S32x128x1024) ![17, 0, 0] S1x128x1024.size inb_S32x128x1024_S1x128x1024_17_0_0).WholeWords (EltTy.packing .bf16)
  packedbf16_S32x128x1024_S1x128x1024_18_0_0 : (Rect.unit (s := S32x128x1024) ![18, 0, 0] S1x128x1024.size inb_S32x128x1024_S1x128x1024_18_0_0).PackedRows (EltTy.packing .bf16)
  wordsbf16_S32x128x1024_S1x128x1024_18_0_0 : (Rect.unit (s := S32x128x1024) ![18, 0, 0] S1x128x1024.size inb_S32x128x1024_S1x128x1024_18_0_0).WholeWords (EltTy.packing .bf16)
  packedbf16_S32x128x1024_S1x128x1024_19_0_0 : (Rect.unit (s := S32x128x1024) ![19, 0, 0] S1x128x1024.size inb_S32x128x1024_S1x128x1024_19_0_0).PackedRows (EltTy.packing .bf16)
  wordsbf16_S32x128x1024_S1x128x1024_19_0_0 : (Rect.unit (s := S32x128x1024) ![19, 0, 0] S1x128x1024.size inb_S32x128x1024_S1x128x1024_19_0_0).WholeWords (EltTy.packing .bf16)
  packedbf16_S32x128x1024_S1x128x1024_20_0_0 : (Rect.unit (s := S32x128x1024) ![20, 0, 0] S1x128x1024.size inb_S32x128x1024_S1x128x1024_20_0_0).PackedRows (EltTy.packing .bf16)
  wordsbf16_S32x128x1024_S1x128x1024_20_0_0 : (Rect.unit (s := S32x128x1024) ![20, 0, 0] S1x128x1024.size inb_S32x128x1024_S1x128x1024_20_0_0).WholeWords (EltTy.packing .bf16)
  packedbf16_S32x128x1024_S1x128x1024_21_0_0 : (Rect.unit (s := S32x128x1024) ![21, 0, 0] S1x128x1024.size inb_S32x128x1024_S1x128x1024_21_0_0).PackedRows (EltTy.packing .bf16)
  wordsbf16_S32x128x1024_S1x128x1024_21_0_0 : (Rect.unit (s := S32x128x1024) ![21, 0, 0] S1x128x1024.size inb_S32x128x1024_S1x128x1024_21_0_0).WholeWords (EltTy.packing .bf16)
  packedbf16_S32x128x1024_S1x128x1024_22_0_0 : (Rect.unit (s := S32x128x1024) ![22, 0, 0] S1x128x1024.size inb_S32x128x1024_S1x128x1024_22_0_0).PackedRows (EltTy.packing .bf16)
  wordsbf16_S32x128x1024_S1x128x1024_22_0_0 : (Rect.unit (s := S32x128x1024) ![22, 0, 0] S1x128x1024.size inb_S32x128x1024_S1x128x1024_22_0_0).WholeWords (EltTy.packing .bf16)
  packedbf16_S32x128x1024_S1x128x1024_23_0_0 : (Rect.unit (s := S32x128x1024) ![23, 0, 0] S1x128x1024.size inb_S32x128x1024_S1x128x1024_23_0_0).PackedRows (EltTy.packing .bf16)
  wordsbf16_S32x128x1024_S1x128x1024_23_0_0 : (Rect.unit (s := S32x128x1024) ![23, 0, 0] S1x128x1024.size inb_S32x128x1024_S1x128x1024_23_0_0).WholeWords (EltTy.packing .bf16)
  packedbf16_S32x128x1024_S1x128x1024_24_0_0 : (Rect.unit (s := S32x128x1024) ![24, 0, 0] S1x128x1024.size inb_S32x128x1024_S1x128x1024_24_0_0).PackedRows (EltTy.packing .bf16)
  wordsbf16_S32x128x1024_S1x128x1024_24_0_0 : (Rect.unit (s := S32x128x1024) ![24, 0, 0] S1x128x1024.size inb_S32x128x1024_S1x128x1024_24_0_0).WholeWords (EltTy.packing .bf16)
  packedbf16_S32x128x1024_S1x128x1024_25_0_0 : (Rect.unit (s := S32x128x1024) ![25, 0, 0] S1x128x1024.size inb_S32x128x1024_S1x128x1024_25_0_0).PackedRows (EltTy.packing .bf16)
  wordsbf16_S32x128x1024_S1x128x1024_25_0_0 : (Rect.unit (s := S32x128x1024) ![25, 0, 0] S1x128x1024.size inb_S32x128x1024_S1x128x1024_25_0_0).WholeWords (EltTy.packing .bf16)
  packedbf16_S32x128x1024_S1x128x1024_26_0_0 : (Rect.unit (s := S32x128x1024) ![26, 0, 0] S1x128x1024.size inb_S32x128x1024_S1x128x1024_26_0_0).PackedRows (EltTy.packing .bf16)
  wordsbf16_S32x128x1024_S1x128x1024_26_0_0 : (Rect.unit (s := S32x128x1024) ![26, 0, 0] S1x128x1024.size inb_S32x128x1024_S1x128x1024_26_0_0).WholeWords (EltTy.packing .bf16)
  packedbf16_S32x128x1024_S1x128x1024_27_0_0 : (Rect.unit (s := S32x128x1024) ![27, 0, 0] S1x128x1024.size inb_S32x128x1024_S1x128x1024_27_0_0).PackedRows (EltTy.packing .bf16)
  wordsbf16_S32x128x1024_S1x128x1024_27_0_0 : (Rect.unit (s := S32x128x1024) ![27, 0, 0] S1x128x1024.size inb_S32x128x1024_S1x128x1024_27_0_0).WholeWords (EltTy.packing .bf16)
  packedbf16_S32x128x1024_S1x128x1024_28_0_0 : (Rect.unit (s := S32x128x1024) ![28, 0, 0] S1x128x1024.size inb_S32x128x1024_S1x128x1024_28_0_0).PackedRows (EltTy.packing .bf16)
  wordsbf16_S32x128x1024_S1x128x1024_28_0_0 : (Rect.unit (s := S32x128x1024) ![28, 0, 0] S1x128x1024.size inb_S32x128x1024_S1x128x1024_28_0_0).WholeWords (EltTy.packing .bf16)
  packedbf16_S32x128x1024_S1x128x1024_29_0_0 : (Rect.unit (s := S32x128x1024) ![29, 0, 0] S1x128x1024.size inb_S32x128x1024_S1x128x1024_29_0_0).PackedRows (EltTy.packing .bf16)
  wordsbf16_S32x128x1024_S1x128x1024_29_0_0 : (Rect.unit (s := S32x128x1024) ![29, 0, 0] S1x128x1024.size inb_S32x128x1024_S1x128x1024_29_0_0).WholeWords (EltTy.packing .bf16)
  packedbf16_S32x128x1024_S1x128x1024_30_0_0 : (Rect.unit (s := S32x128x1024) ![30, 0, 0] S1x128x1024.size inb_S32x128x1024_S1x128x1024_30_0_0).PackedRows (EltTy.packing .bf16)
  wordsbf16_S32x128x1024_S1x128x1024_30_0_0 : (Rect.unit (s := S32x128x1024) ![30, 0, 0] S1x128x1024.size inb_S32x128x1024_S1x128x1024_30_0_0).WholeWords (EltTy.packing .bf16)
  packedbf16_S32x128x1024_S1x128x1024_31_0_0 : (Rect.unit (s := S32x128x1024) ![31, 0, 0] S1x128x1024.size inb_S32x128x1024_S1x128x1024_31_0_0).PackedRows (EltTy.packing .bf16)
  wordsbf16_S32x128x1024_S1x128x1024_31_0_0 : (Rect.unit (s := S32x128x1024) ![31, 0, 0] S1x128x1024.size inb_S32x128x1024_S1x128x1024_31_0_0).WholeWords (EltTy.packing .bf16)
  inb_S2_S1_0 : ∀ a, (![0] : Fin 1 → Nat) a + S1.size a ≤ S2.size a
  inb_S2x1024x1024_S1x1024x1024_0_0_0 : ∀ a, (![0, 0, 0] : Fin 3 → Nat) a + S1x1024x1024.size a ≤ S2x1024x1024.size a
  squeezes_S1x1024x1024_S1024x1024 : S1x1024x1024.Squeezes S1024x1024
  inb_S2_S1_1 : ∀ a, (![1] : Fin 1 → Nat) a + S1.size a ≤ S2.size a
  inb_S2x1024x1024_S1x1024x1024_1_0_0 : ∀ a, (![1, 0, 0] : Fin 3 → Nat) a + S1x1024x1024.size a ≤ S2x1024x1024.size a
  h_S1x1024x1024 : 0 < S1x1024x1024.numel
  shapeCasts_S1x1024x1024_S1024x1024 : S1x1024x1024.ShapeCasts S1024x1024
  inb_S8192x1024_S1024x1024_0_0 : ∀ a, (![0, 0] : Fin 2 → Nat) a + S1024x1024.size a ≤ S8192x1024.size a
  h_S1024x1024 : 0 < S1024x1024.numel
  shapeCasts_S1024x1024_S1024x1024 : S1024x1024.ShapeCasts S1024x1024
  packedbf16_S8192x1024_S1024x1024_0_0 : (Rect.unit (s := S8192x1024) ![0, 0] S1024x1024.size inb_S8192x1024_S1024x1024_0_0).PackedRows (EltTy.packing .bf16)
  inb_S8192x1024_S1024x1024_1024_0 : ∀ a, (![1024, 0] : Fin 2 → Nat) a + S1024x1024.size a ≤ S8192x1024.size a
  packedbf16_S8192x1024_S1024x1024_1024_0 : (Rect.unit (s := S8192x1024) ![1024, 0] S1024x1024.size inb_S8192x1024_S1024x1024_1024_0).PackedRows (EltTy.packing .bf16)
  inb_S8192x1024_S1024x1024_2048_0 : ∀ a, (![2048, 0] : Fin 2 → Nat) a + S1024x1024.size a ≤ S8192x1024.size a
  packedbf16_S8192x1024_S1024x1024_2048_0 : (Rect.unit (s := S8192x1024) ![2048, 0] S1024x1024.size inb_S8192x1024_S1024x1024_2048_0).PackedRows (EltTy.packing .bf16)
  inb_S8192x1024_S1024x1024_3072_0 : ∀ a, (![3072, 0] : Fin 2 → Nat) a + S1024x1024.size a ≤ S8192x1024.size a
  packedbf16_S8192x1024_S1024x1024_3072_0 : (Rect.unit (s := S8192x1024) ![3072, 0] S1024x1024.size inb_S8192x1024_S1024x1024_3072_0).PackedRows (EltTy.packing .bf16)
  inb_S8192x1024_S1024x1024_4096_0 : ∀ a, (![4096, 0] : Fin 2 → Nat) a + S1024x1024.size a ≤ S8192x1024.size a
  packedbf16_S8192x1024_S1024x1024_4096_0 : (Rect.unit (s := S8192x1024) ![4096, 0] S1024x1024.size inb_S8192x1024_S1024x1024_4096_0).PackedRows (EltTy.packing .bf16)
  inb_S8192x1024_S1024x1024_5120_0 : ∀ a, (![5120, 0] : Fin 2 → Nat) a + S1024x1024.size a ≤ S8192x1024.size a
  packedbf16_S8192x1024_S1024x1024_5120_0 : (Rect.unit (s := S8192x1024) ![5120, 0] S1024x1024.size inb_S8192x1024_S1024x1024_5120_0).PackedRows (EltTy.packing .bf16)
  inb_S8192x1024_S1024x1024_6144_0 : ∀ a, (![6144, 0] : Fin 2 → Nat) a + S1024x1024.size a ≤ S8192x1024.size a
  packedbf16_S8192x1024_S1024x1024_6144_0 : (Rect.unit (s := S8192x1024) ![6144, 0] S1024x1024.size inb_S8192x1024_S1024x1024_6144_0).PackedRows (EltTy.packing .bf16)
  inb_S8192x1024_S1024x1024_7168_0 : ∀ a, (![7168, 0] : Fin 2 → Nat) a + S1024x1024.size a ≤ S8192x1024.size a
  packedbf16_S8192x1024_S1024x1024_7168_0 : (Rect.unit (s := S8192x1024) ![7168, 0] S1024x1024.size inb_S8192x1024_S1024x1024_7168_0).PackedRows (EltTy.packing .bf16)
  hcc0_scratch5 : 0 + S32.numel ≤ 195
  hcc0_scratch6 : 32 + S2.numel ≤ 195
  hcc0_scratch7 : 34 + S_.numel ≤ 195
  hcc0_scratch8 : 35 + S32.numel ≤ 195
  hcc0_scratch9 : 67 + S32.numel ≤ 195
  hcc0_scratch10 : 99 + S32.numel ≤ 195
  hcc0_scratch11 : 131 + S32.numel ≤ 195
  hcc0_scratch12 : 163 + S32.numel ≤ 195
  k0_dev1_lt : ∀ d0 : Dev nD, (k0_dev1 d0) < nD
  k0_dev2_lt : ∀ d0 : Dev nD, (k0_dev2 d0) < nD
  k0_off1_inb : ∀ d0 : Dev nD, ∀ (r : Fin 32), ∀ a, (k0_off1 d0 (BitVec.ofNat 32 (128 * r.val))) a + S128x1024.size a ≤ S8192x2048.size a
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_off2_inb : ∀ d0 : Dev nD, ∀ a, (k0_off2 d0) a + S1024x1024.size a ≤ S8192x2048.size a
  k0_off3_inb : ∀ d0 : Dev nD, ∀ (r : Fin 32), ∀ a, (k0_off3 d0 (BitVec.ofNat 32 (128 * r.val))) a + S128x1024.size a ≤ S16384x1024.size a
  k0_off3_wordsbf16 : ∀ d0 : Dev nD, ∀ (r : Fin 32), (Rect.unit (s := S16384x1024) (k0_off3 d0 (BitVec.ofNat 32 (128 * r.val))) S128x1024.size (k0_off3_inb d0 r)).WholeWords (EltTy.packing .bf16)
  k0_dev35_lt : ∀ d0 : Dev nD, (k0_dev35 d0) < nD
  k0_off4_inb : ∀ d0 : Dev nD, ∀ a, (k0_off4 d0) a + S1024x1024.size a ≤ S8192x2048.size a
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_off5_inb : ∀ d0 : Dev nD, ∀ a, (k0_off5 d0) a + S1024x1024.size a ≤ S8192x2048.size a
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_off6_inb : ∀ d0 : Dev nD, ∀ a, (k0_off6 d0) a + S1024x1024.size a ≤ S8192x2048.size a
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_off7_inb : ∀ d0 : Dev nD, ∀ a, (k0_off7 d0) a + S1024x1024.size a ≤ S8192x2048.size a
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_off8_inb : ∀ d0 : Dev nD, ∀ a, (k0_off8 d0) a + S1024x1024.size a ≤ S8192x2048.size a
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_off9_inb : ∀ d0 : Dev nD, ∀ a, (k0_off9 d0) a + S1024x1024.size a ≤ S8192x2048.size a
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_off10_inb : ∀ d0 : Dev nD, ∀ a, (k0_off10 d0) a + S1024x1024.size a ≤ S8192x2048.size a
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_dev63_lt : ∀ d0 : Dev nD, (k0_dev63 d0) < nD
  k0_dev64_lt : ∀ d0 : Dev nD, (k0_dev64 d0) < nD
  k0_dev65_lt : ∀ d0 : Dev nD, (k0_dev65 d0) < nD
  k0_dev66_lt : ∀ d0 : Dev nD, (k0_dev66 d0) < nD
  k0_off11_inb : ∀ d0 : Dev nD, ∀ a, (k0_off11 d0) a + S8192x1024.size a ≤ S16384x1024.size a
  k0_off11_wordsbf16 : ∀ d0 : Dev nD, (Rect.unit (s := S16384x1024) (k0_off11 d0) S8192x1024.size (k0_off11_inb d0)).WholeWords (EltTy.packing .bf16)
  k0_off12_inb : ∀ d0 : Dev nD, ∀ (r : Fin 32), ∀ a, (k0_off12 d0 (BitVec.ofNat 32 (128 * r.val))) a + S128x1024.size a ≤ S16384x1024.size a
  k0_off12_wordsbf16 : ∀ d0 : Dev nD, ∀ (r : Fin 32), (Rect.unit (s := S16384x1024) (k0_off12 d0 (BitVec.ofNat 32 (128 * r.val))) S128x1024.size (k0_off12_inb d0 r)).WholeWords (EltTy.packing .bf16)

variable [Facts₀]

abbrev cc0_scratch5 : DmaSems sig S32 := SemArray.consecutive 0 S32 hcc0_scratch5
abbrev cc0_scratch6 : DmaSems sig S2 := SemArray.consecutive 32 S2 hcc0_scratch6
abbrev cc0_scratch7 : DmaSems sig S_ := SemArray.consecutive 34 S_ hcc0_scratch7
abbrev cc0_scratch8 : DmaSems sig S32 := SemArray.consecutive 35 S32 hcc0_scratch8
abbrev cc0_scratch9 : DmaSems sig S32 := SemArray.consecutive 67 S32 hcc0_scratch9
abbrev cc0_scratch10 : DmaSems sig S32 := SemArray.consecutive 99 S32 hcc0_scratch10
abbrev cc0_scratch11 : DmaSems sig S32 := SemArray.consecutive 131 S32 hcc0_scratch11
abbrev cc0_scratch12 : DmaSems sig S32 := SemArray.consecutive 163 S32 hcc0_scratch12

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S16384x2048 : Shape := ⟨2, ![16384, 2048]⟩

abbrev nBuf : Space → Nat
  | .hbm => 2
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]

class Facts₀ : Prop where
  bitsLt_bf16_f32 : FTy.bits .bf16 < FTy.bits .f32

variable [Facts₀]

class Facts : Prop extends Facts₀ where

variable [Facts]
-- ==== Proof.Mesh.lean ====
/-
  The mesh, the buffers and their pieces, the cells of the exchange, and what every buffer is to hold.

  Four devices sit on a 2 x 2 mesh, device c at column c / 2 and row c % 2. Each holds an 8192 x 2048 block of the
  whole array, cut by rows along the column coordinate, and must end with the 16384 x 1024 column block of the
  whole array that its column coordinate names. Its own 8192 rows of that block it has itself; the other 8192 rows
  live on the devices of the other column. Its column mate (same row, other column) sends it the 4096 of those rows
  that the shared row coordinate names, in 32 chunks of 128 rows; it writes each chunk to its result and forwards it
  to its row mate (same column, other row), which in turn forwards the other 4096 rows.
-/
import proofs.«900022_g7700000000000023_dist_a2a_v7x_xy2x2_x_m8192_n1024_bf16_1_alg».proof.Proof.Gen.KernelIdeal.Frame
import Idealize.ShloMosaic.Lib.Pipeline.Launch
import Idealize.ShloMosaic.Lib.Pipeline.Kit
import Idealize.ShloMosaic.Lib.Tactic
import Idealize.ShloMosaic.Lib.ValueIdx

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

/-! ## The resource algebra: the pipeline library's copy, the exchange's rounds (duties named by a Boolean), and the
    counters of the device's own copies -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev 𝒱₀ : Variants := Variants.none

/-! ## The mesh -/

/-- The column coordinate and the row coordinate of a device. -/
def cx (c : Dev nD) : Nat := c.val / 2
def cy (c : Dev nD) : Nat := c.val % 2
/-- The column mate: same row, other column. -/
def xp (c : Dev nD) : Dev nD := ⟨(c.val % 2 + 2) - 2 * (c.val / 2), by revert c; decide⟩
/-- The row mate: same column, other row. -/
def yp (c : Dev nD) : Dev nD := ⟨(2 * (c.val / 2) + 1) - c.val % 2, by revert c; decide⟩

theorem xp_xp (c : Dev nD) : xp (xp c) = c := by revert c; decide
theorem yp_yp (c : Dev nD) : yp (yp c) = c := by revert c; decide
theorem xp_yp (c : Dev nD) : xp (yp c) = yp (xp c) := by revert c; decide
theorem cx_xp (c : Dev nD) : cx (xp c) = 1 - cx c := by revert c; decide
theorem cy_xp (c : Dev nD) : cy (xp c) = cy c := by revert c; decide
theorem cx_yp (c : Dev nD) : cx (yp c) = cx c := by revert c; decide
theorem cy_yp (c : Dev nD) : cy (yp c) = 1 - cy c := by revert c; decide
theorem cx_lt (c : Dev nD) : cx c < 2 := by revert c; decide
theorem cy_lt (c : Dev nD) : cy c < 2 := by revert c; decide

def xSwap : Dev nD ≃ Dev nD := ⟨xp, xp, xp_xp, xp_xp⟩
def ySwap : Dev nD ≃ Dev nD := ⟨yp, yp, yp_yp, yp_yp⟩

/-! ## The buffers and their pieces -/

abbrev xM : Memref sig .tc .hbm S8192x2048 .f32 := Memref.whole main_arg0
abbrev oM : Memref sig .tc .hbm S16384x1024 .bf16 := Memref.whole main_v1
abbrev slM : Memref sig .tc .vmem S32x128x1024 .f32 := Memref.whole cc0_scratch0
abbrev sbM : Memref sig .tc .vmem S32x128x1024 .bf16 := Memref.whole cc0_scratch1
abbrev rbM : Memref sig .tc .vmem S32x128x1024 .bf16 := Memref.whole cc0_scratch2
abbrev elM : Memref sig .tc .vmem S2x1024x1024 .f32 := Memref.whole cc0_scratch3
abbrev lvM : Memref sig .tc .vmem S8192x1024 .bf16 := Memref.whole cc0_scratch4

theorem inb3 (k : Fin 32) : ∀ a, (![k.val, 0, 0] : Fin 3 → Nat) a + S1x128x1024.size a ≤ S32x128x1024.size a := by
  revert k; decide

/-- Chunk k of a 32 x 128 x 1024 buffer, as a 128 x 1024 piece. -/
abbrev sl3 {e : EltTy} (M : Memref sig .tc .vmem S32x128x1024 e) (k : Fin 32) : Memref sig .tc .vmem S128x1024 e :=
  (M.slice (Rect.unit (s := S32x128x1024) ![k.val, 0, 0] S1x128x1024.size (inb3 k)) (fun _ => rfl)).squeeze S128x1024 squeezes_S1x128x1024_S128x1024

/-- The 128 rows of the result that chunk k received from the column mate goes to; -/
abbrev oX (c : Dev nD) (k : Fin 32) : Memref sig .tc .hbm S128x1024 .bf16 :=
  oM.slice (Rect.unit (s := S16384x1024) (k0_off3 c (BitVec.ofNat 32 (128 * k.val))) S128x1024.size (k0_off3_inb c k)) (fun _ => rfl)
/-- the 128 rows chunk k forwarded by the row mate lands in; -/
abbrev oY (c : Dev nD) (k : Fin 32) : Memref sig .tc .hbm S128x1024 .bf16 :=
  oM.slice (Rect.unit (s := S16384x1024) (k0_off12 c (BitVec.ofNat 32 (128 * k.val))) S128x1024.size (k0_off12_inb c k)) (fun _ => rfl)
/-- the device's own 8192 rows. -/
abbrev oOwn (c : Dev nD) : Memref sig .tc .hbm S8192x1024 .bf16 :=
  oM.slice (Rect.unit (s := S16384x1024) (k0_off11 c) S8192x1024.size (k0_off11_inb c)) (fun _ => rfl)

/-! ## The cells -/

abbrev barS : Sem sig := (SemArray.scalar (sig.barrier 0 rfl) : Sems sig S_).sem
abbrev barCell (c : Dev nD) : GSem nD τ sig := ((c : Thread nD τ), .reg barS)
/-- DMA semaphore number i of device c. -/
abbrev dcell (c : Dev nD) (i : Nat) (h : i < 195) : GSem nD τ sig := ((c : Thread nD τ), .dma (⟨i, h⟩ : DmaSem sig))
/-- Per chunk: the departure cell of the send to the column mate, its arrival cell, and the same two for the
    forward to the row mate. -/
abbrev sXc (c : Dev nD) (k : Fin 32) : GSem nD τ sig := dcell c (67 + k.val) (by omega)
abbrev rXc (c : Dev nD) (k : Fin 32) : GSem nD τ sig := dcell c (99 + k.val) (by omega)
abbrev sYc (c : Dev nD) (k : Fin 32) : GSem nD τ sig := dcell c (131 + k.val) (by omega)
abbrev rYc (c : Dev nD) (k : Fin 32) : GSem nD τ sig := dcell c (163 + k.val) (by omega)

/-- The credit of one chunk's transfer. -/
abbrev NC : ℕ := 8192

/-! ## What the buffers are to hold -/

variable (m : (ℓ : Loc nD τ sig) → Buf (Elt F) ℓ)

/-- Device c's block of the whole array, as launched. -/
abbrev X (c : Dev nD) : Buf (Elt F) ((c : Thread nD τ).loc main_arg0) := m ((c : Thread nD τ).loc main_arg0)

/-- The change of format, on one element. -/
def tr (x : Elt F .f32) : Elt F .bf16 := FloatOps.truncf .bf16 bitsLt_bf16_f32 x

/-- Row r, column j of device d's block. -/
def xAt (d : Dev nD) (r j : Nat) : Elt F .f32 :=
  X m d (ix2 ⟨r % 8192, Nat.mod_lt _ (by decide)⟩ ⟨j % 2048, Nat.mod_lt _ (by decide)⟩)

/-- What device c stages for its column mate: chunk k, row i, column j is the element of its block at
    row 4096 * (its row) + 128 k + i, column 1024 * (the mate's column) + j, in the narrow format. -/
def sendC (c : Dev nD) : Buf (Elt F) (sbM.view.loc (c : Thread nD τ)) := fun i =>
  tr (xAt m c (4096 * cy c + 128 * (i 0).val + (i 1).val) (1024 * (1 - cx c) + (i 2).val))

/-- What lands in device c's receive buffer: the column mate's staged chunks. -/
def recvC (c : Dev nD) : Buf (Elt F) (rbM.view.loc (c : Thread nD τ)) := fun i =>
  tr (xAt m (xp c) (4096 * cy c + 128 * (i 0).val + (i 1).val) (1024 * cx c + (i 2).val))

/-- Whose block row r of device c's result comes from: its own for the rows of its column, the column mate's for
    the rows of the other column that its row coordinate names, the row mate's column mate's for the rest. -/
def srcDev (c : Dev nD) (r : Nat) : Dev nD :=
  if r / 8192 = cx c then c else if (r % 8192) / 4096 = cy c then xp c else xp (yp c)

/-- What device c's result is to hold: row r, column j is row r % 8192, column 1024 * (its column) + j of the
    block of the device that row comes from, in the narrow format. -/
def outC (c : Dev nD) : Buf (Elt F) (oM.view.loc (c : Thread nD τ)) := fun i =>
  tr (xAt m (srcDev c (i 0).val) (i 0).val (1024 * cx c + (i 1).val))

end Cert.KernelIdeal.Hand

end
-- ==== Proof.Value.lean ====
/-
  The value side: what the exchange leaves in each device's result is that device's block of the converted whole array.

  The whole array has 16384 rows and 2048 columns. Device c, at column cx c and row cy c of the mesh, starts with rows
  [8192 * cx c, 8192 * cx c + 8192) of it (all columns), and is to end with columns [1024 * cx c, 1024 * cx c + 1024) of the
  converted array (all rows). Row r of that result is taken from the block of a device whose column coordinate is r / 8192,
  at row r % 8192: that is row r of the whole array.
-/
import proofs.«900022_g7700000000000023_dist_a2a_v7x_xy2x2_x_m8192_n1024_bf16_1_alg».proof.Proof.Mesh
import proofs.«900022_g7700000000000023_dist_a2a_v7x_xy2x2_x_m8192_n1024_bf16_1_alg».proof.Defs
import proofs.«900022_g7700000000000023_dist_a2a_v7x_xy2x2_x_m8192_n1024_bf16_1_alg».proof.Proof.Gen.ReferenceIdeal.Run
import proofs.«900022_g7700000000000023_dist_a2a_v7x_xy2x2_x_m8192_n1024_bf16_1_alg».proof.Proof.Gen.ReferenceIdeal.Read
import proofs.«900022_g7700000000000023_dist_a2a_v7x_xy2x2_x_m8192_n1024_bf16_1_alg».proof.Proof.Gen.Pre_finite_inputs_Kernel
import proofs.«900022_g7700000000000023_dist_a2a_v7x_xy2x2_x_m8192_n1024_bf16_1_alg».proof.Proof.Gen.Pre_finite_inputs_ReferenceIdeal
import Idealize.ShloMosaic.Lib.Layout
import Idealize.ShloMosaic.Lib.ValueIdx

noncomputable section

namespace Cert.KernelIdeal.Value

open Cert.KernelIdeal Cert.KernelIdeal.Gen Cert.KernelIdeal.Hand
open Idealize.ShloMosaic Idealize.ShloMosaic.TcCoe Idealize.SL.Sem
open Idealize.ShloMosaic.ValueIdx (ix2)

/-- The reference runs and leaves its argument as it was. -/
theorem frame_ref : Cert.frame_ReferenceIdeal :=
  fun m ρ _ => (θ_run Cert.ReferenceIdeal.defs _ _).mono (fun _ h c => (h c).2)
    (Cert.ReferenceIdeal.Value.run (F := Ideal) m ρ)

/-- What the exchange is proved to leave: every device's result is `outC`, its argument unchanged. -/
def kernelPost (m : (ℓ : Loc nD τ sig) → Buf (Elt Ideal) ℓ) : PUnit × MemSt nD τ sig (Elt Ideal) → Prop := fun r => ∀ c : Dev nD,
  r.2.mem ((c.tc : Thread nD τ).loc main_v1) = outC (F := Ideal) m c
  ∧ r.2.mem ((c.tc : Thread nD τ).loc main_arg0) = m ((c.tc : Thread nD τ).loc main_arg0)

/-! ## The mesh coordinates of the blocks -/

/-- Along a dimension cut by the first mesh axis a device's block is numbered by its column coordinate. -/
theorem lin_col (c : Dev nD) : Layout.meshLin [2, 2] c.val [0] = cx c := by revert c; decide

/-- Row r of a device's result is taken from a device of column r / 8192. -/
theorem cx_srcDev (c : Dev nD) (r : Nat) (hr : r < 16384) : cx (srcDev c r) = r / 8192 := by
  unfold srcDev
  have h1 := cx_lt c
  split_ifs with h h'
  · exact h.symm
  · rw [cx_xp]; omega
  · rw [cx_xp, cx_yp]; omega

/-! ## The blocks of the whole array -/

section Blocks

variable (m : (ℓ : Loc nD τ sig) → Buf (Elt Ideal) ℓ)
  (m' : (ℓ : Loc Cert.ReferenceIdeal.nD Cert.ReferenceIdeal.τ Cert.ReferenceIdeal.sig) → Buf (Elt Ideal) ℓ)

/-- The whole array: the reference's argument. -/
abbrev whole : Buf (Elt Ideal) (((0 : Dev Cert.ReferenceIdeal.nD).tc : Thread Cert.ReferenceIdeal.nD Cert.ReferenceIdeal.τ).loc Cert.ReferenceIdeal.main_arg0) :=
  m' (((0 : Dev Cert.ReferenceIdeal.nD).tc : Thread Cert.ReferenceIdeal.nD Cert.ReferenceIdeal.τ).loc Cert.ReferenceIdeal.main_arg0)

/-- Row r % 8192, column j % 2048 of device d's block is row 8192 * cx d + r % 8192, column j % 2048 of the whole array. -/
theorem xAt_eq
    (hagree : ∀ c : Dev nD, m ((c.tc : Thread nD τ).loc main_arg0)
      = Layout.blockN ⟨2, ![8192, 2048]⟩ ⟨2, ![16384, 2048]⟩ (Layout.meshBlock [2, 2] ![[0], []] c) (whole m'))
    (d : Dev nD) (r j : Nat) (i' : (⟨2, ![16384, 2048]⟩ : Shape).Idx)
    (h0 : (i' 0).val = 8192 * cx d + r % 8192) (h1 : (i' 1).val = j % 2048) :
    xAt m d r j = whole m' i' := by
  unfold xAt X
  rw [hagree d, Layout.blockN_apply]
  congr 1
  funext b
  apply Fin.ext
  match b with
  | ⟨0, _⟩ =>
    show Layout.meshLin [2, 2] d.val [0] * 8192 + r % 8192 = (i' 0).val
    rw [lin_col, h0]; omega
  | ⟨1, _⟩ =>
    show 0 * 2048 + j % 2048 = (i' 1).val
    rw [h1]; omega

/-- Every device's result is to be its block of the converted whole array. -/
theorem outC_eq
    (hagree : ∀ c : Dev nD, m ((c.tc : Thread nD τ).loc main_arg0)
      = Layout.blockN ⟨2, ![8192, 2048]⟩ ⟨2, ![16384, 2048]⟩ (Layout.meshBlock [2, 2] ![[0], []] c) (whole m'))
    (c : Dev nD) :
    outC (F := Ideal) m c
      = Layout.blockN ⟨2, ![16384, 1024]⟩ ⟨2, ![16384, 2048]⟩ (Layout.meshBlock [2, 2] ![[], [0]] c)
          (truncf (F := Ideal) .bf16 (whole m') Cert.ReferenceIdeal.Gen.bitsLt_bf16_f32) := by
  funext i
  rw [Layout.blockN_apply]
  unfold outC tr
  show FloatOps.truncf (F := Ideal) (φ := .f32) .bf16 _ _ = FloatOps.truncf (F := Ideal) (φ := .f32) .bf16 _ (whole m' _)
  congr 1
  have hr : (i 0).val < 16384 := (i 0).isLt
  have hj : (i 1).val < 1024 := (i 1).isLt
  have hc := cx_lt c
  refine xAt_eq m m' hagree _ _ _ _ ?_ ?_
  · show 0 * 16384 + (i 0).val = _
    rw [cx_srcDev c _ hr]; omega
  · show Layout.meshLin [2, 2] c.val [0] * 1024 + (i 1).val = _
    rw [lin_col]; omega

end Blocks

/-! ## The assembly -/

/-- From the run of the exchange with every result named: each device's result is its block of the reference's
    result, and both programs leave their arguments as they were. -/
theorem algebraic_of_run
    (hrun : ∀ (m : (ℓ : Loc nD τ sig) → Buf (Elt Ideal) ℓ) (ρ : Dev nD → PrngReg),
        θ_run (Cert.KernelIdeal.defs (F := Ideal)) (onTc (τ := τ) (Cert.KernelIdeal.main (F := Ideal))) ⟨m, fun _ => 0, ρ⟩ (kernelPost m)) :
    Cert.algebraic_KernelIdeal_ReferenceIdeal := by
  intro m ρ m' ρ' _ hagree
  refine ⟨truncf (F := Ideal) .bf16 (whole m') Cert.ReferenceIdeal.Gen.bitsLt_bf16_f32, ?_, ?_⟩
  · exact (θ_run _ _ _).mono (fun _ h c => ⟨(h c).1.trans (outC_eq m m' hagree c), (h c).2⟩) (hrun m ρ)
  · exact (θ_run _ _ _).mono (fun _ h => h 0) (Cert.ReferenceIdeal.Value.run (F := Ideal) m' ρ')

/-- info: 'Cert.KernelIdeal.Value.algebraic_of_run' depends on axioms: [propext, Classical.choice, Quot.sound] -/
#guard_msgs in #print axioms algebraic_of_run

end Cert.KernelIdeal.Value

end
-- ==== Proof.Sched.lean ====
/-
  The schedule of the exchange: which cell expects what from whom, and what each arrival tells its owner.

  Every cell has one round. A device's barrier cell expects one unit from its column mate and one from its row mate;
  the column mate's unit says "my receive buffer is yours to write, chunk by chunk", the row mate's "the rows of my
  result that you forward into are yours to write". Each of the 4 x 32 transfer cells expects one chunk's credit: an
  arrival cell hands its owner the piece that landed, holding what the protocol says it holds; a departure cell
  hands back the piece that was read.
-/
import proofs.«900022_g7700000000000023_dist_a2a_v7x_xy2x2_x_m8192_n1024_bf16_1_alg».proof.Proof.Mesh

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ)

/-! ## Which cell is which -/

/-- The chunk a DMA semaphore number serves, and the kind of its cell: 0 the departure of the send to the column
    mate, 1 its arrival, 2 the departure of the forward to the row mate, 3 its arrival. -/
def kindOf (i : Nat) : Nat := (i - 67) / 32
def chunkOf (i : Nat) : Fin 32 := ⟨(i - 67) % 32, Nat.mod_lt _ (by decide)⟩

/-! ## What the arrivals hand over -/

/-- The column mate's entry signal hands device c the mate's receive buffer, piece by piece, with the word that
    round 0 of each of the mate's arrival cells is reached. -/
def barPayX (c : Dev nD) : sProp 𝕄 :=
  bigSep Finset.univ fun k : Fin 32 =>
    iprop((∃ f, (sl3 rbM k).view.loc (xp c : Thread nD τ) ↦[(sl3 rbM k).view.set]{fullShare} f) ∗ reached ER (rXc (xp c) k) 0)
/-- The row mate's entry signal hands device c the rows of the mate's result that c forwards into. -/
def barPayY (c : Dev nD) : sProp 𝕄 :=
  bigSep Finset.univ fun k : Fin 32 =>
    iprop((∃ f, (oY (yp c) k).view.loc (yp c : Thread nD τ) ↦[(oY (yp c) k).view.set]{fullShare} f) ∗ reached ER (rYc (yp c) k) 0)

/-- Departure of chunk k to the column mate: the staged piece comes back. -/
def sXPay (c : Dev nD) (k : Fin 32) : sProp 𝕄 :=
  iprop(∃ f, (sl3 sbM k).view.loc (c : Thread nD τ) ↦[(sl3 sbM k).view.set]{fullShare} f)
/-- Arrival of chunk k from the column mate: the piece of the receive buffer, holding the mate's staged chunk. -/
def rXPay (c : Dev nD) (k : Fin 32) : sProp 𝕄 :=
  (sl3 rbM k).view.loc (c : Thread nD τ) ↦[(sl3 rbM k).view.set]{fullShare} recvC m c
/-- Departure of chunk k to the row mate: the half of the received piece that was lent comes back. -/
def sYPay (c : Dev nD) (k : Fin 32) : sProp 𝕄 :=
  (sl3 rbM k).view.loc (c : Thread nD τ) ↦[(sl3 rbM k).view.set]{fullShare.left} recvC m c
/-- Arrival of chunk k from the row mate: 128 rows of the result, holding what the result is to hold there. -/
def rYPay (c : Dev nD) (k : Fin 32) : sProp 𝕄 :=
  (oY c k).view.loc (c : Thread nD τ) ↦[(oY c k).view.set]{fullShare} outC m c

/-! ## The schedule -/

def sched : Rounds.Schedule (GSem nD τ sig) Bool 𝕄 where
  duties g r := if r = 0 ∧ g.1.2 = .tc then
      (match g.2 with
        | .reg _ => Finset.univ
        | .dma s => if 67 ≤ s.val then {false} else ∅)
    else ∅
  unitless _ := False
  amount g _ _ := match g.2 with | .reg _ => 1 | .dma _ => NC
  payload g _ d := match g.2 with
    | .reg _ => if d then barPayY g.1.1 else barPayX g.1.1
    | .dma s =>
      if kindOf s.val = 0 then sXPay g.1.1 (chunkOf s.val)
      else if kindOf s.val = 1 then rXPay m g.1.1 (chunkOf s.val)
      else if kindOf s.val = 2 then sYPay m g.1.1 (chunkOf s.val)
      else rYPay m g.1.1 (chunkOf s.val)
  amount_pos g _ _ _ := by
    cases g.2 <;> simp [NC]

section Tables
variable (c : Dev nD) (k : Fin 32)

theorem duties_bar : (sched (F := F) m).duties (barCell c) 0 = Finset.univ := by
  dsimp only [sched]; rw [if_pos ⟨rfl, rfl⟩]
theorem duties_dma (i : Nat) (h : i < 195) (hi : 67 ≤ i) : (sched (F := F) m).duties (dcell c i h) 0 = {false} := by
  dsimp only [sched]; rw [if_pos ⟨rfl, rfl⟩]; exact if_pos hi
theorem duties_later (g : GSem nD τ sig) : ∀ r, 1 ≤ r → (sched (F := F) m).duties g r = ∅ :=
  fun r hr => by dsimp only [sched]; rw [if_neg fun h => by omega]
theorem amount_bar (d : Bool) : (sched (F := F) m).amount (barCell c) 0 d = 1 := rfl
theorem amount_dma (i : Nat) (h : i < 195) (d : Bool) : (sched (F := F) m).amount (dcell c i h) 0 d = NC := rfl
theorem expect_bar : (sched (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_dma (i : Nat) (h : i < 195) (hi : 67 ≤ i) : (sched (F := F) m).expect (dcell c i h) 0 = NC := by
  unfold Schedule.expect Schedule.amountOf; rw [duties_dma m c i h hi, Finset.sum_singleton, amount_dma]

theorem payload_bar_x : (sched (F := F) m).payload (barCell c) 0 false = barPayX c := by
  dsimp only [sched]; exact if_neg Bool.false_ne_true
theorem payload_bar_y : (sched (F := F) m).payload (barCell c) 0 true = barPayY c := by
  dsimp only [sched]; exact if_pos rfl

theorem kind_sX : kindOf (67 + k.val) = 0 := by unfold kindOf; omega
theorem kind_rX : kindOf (99 + k.val) = 1 := by unfold kindOf; omega
theorem kind_sY : kindOf (131 + k.val) = 2 := by unfold kindOf; omega
theorem kind_rY : kindOf (163 + k.val) = 3 := by unfold kindOf; omega
theorem chunk_sX : chunkOf (67 + k.val) = k := Fin.ext (by unfold chunkOf; simp only; omega)
theorem chunk_rX : chunkOf (99 + k.val) = k := Fin.ext (by unfold chunkOf; simp only; omega)
theorem chunk_sY : chunkOf (131 + k.val) = k := Fin.ext (by unfold chunkOf; simp only; omega)
theorem chunk_rY : chunkOf (163 + k.val) = k := Fin.ext (by unfold chunkOf; simp only; omega)

theorem payload_sX (d : Bool) : (sched (F := F) m).payload (sXc c k) 0 d = sXPay c k := by
  dsimp only [sched]; rw [if_pos (kind_sX k), chunk_sX]
theorem payload_rX (d : Bool) : (sched (F := F) m).payload (rXc c k) 0 d = rXPay m c k := by
  dsimp only [sched]; rw [if_neg (by rw [kind_rX]; decide), if_pos (kind_rX k), chunk_rX]
theorem payload_sY (d : Bool) : (sched (F := F) m).payload (sYc c k) 0 d = sYPay m c k := by
  dsimp only [sched]; rw [if_neg (by rw [kind_sY]; decide), if_neg (by rw [kind_sY]; decide), if_pos (kind_sY k), chunk_sY]
theorem payload_rY (d : Bool) : (sched (F := F) m).payload (rYc c k) 0 d = rYPay m c k := by
  dsimp only [sched]; rw [if_neg (by rw [kind_rY]; decide), if_neg (by rw [kind_rY]; decide), if_neg (by rw [kind_rY]; decide), chunk_rY]

end Tables

end Cert.KernelIdeal.Hand

end
-- ==== Proof.Levels.lean ====
/-
  What each device owes, and why no wait can deadlock.

  A device pays, in this order: one unit to its column mate's barrier cell, one to its row mate's, then chunk by
  chunk the credit of its 32 sends into the column mate's arrival cells, then of its 32 forwards into the row mate's.
  What it still owes is written as a sum whose LAST summand is the next payment, so that each payment peels one.
  Levels: the device's own copy cells and departure cells 0, barrier cells 1, arrival cells of the first exchange 2,
  of the second 3. Every wait happens at a level below everything its device still owes: the barrier wait owes only
  sends (2, 3); a wait on a copy owes at most sends; a wait on a first-exchange arrival owes only forwards (3); the
  waits on second-exchange arrivals and on departures owe nothing.
-/
import proofs.«900022_g7700000000000023_dist_a2a_v7x_xy2x2_x_m8192_n1024_bf16_1_alg».proof.Proof.Sched

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig Unit (Elt F) ℕ UU ℕ

/-- The credit device c owes for chunk k of its send to the column mate, and of its forward to the row mate. -/
def tX (c : Dev nD) (k : Fin 32) : CellTallies nD τ sig Unit := tallyAt (rXc (xp c) k) () NC
def tY (c : Dev nD) (k : Fin 32) : CellTallies nD τ sig Unit := tallyAt (rYc (yp c) k) () NC

/-- What is owed with j forwards still to go: chunks 32 - j, …, 31, the next one (chunk 32 - j) last. -/
def remY (c : Dev nD) : ℕ → CellTallies nD τ sig Unit
  | 0 => 0
  | j + 1 => remY c j + tY c ⟨(31 - j) % 32, Nat.mod_lt _ (by decide)⟩
/-- What is owed with j sends still to go (and every forward). -/
def remX (c : Dev nD) : ℕ → CellTallies nD τ sig Unit
  | 0 => remY c 32
  | j + 1 => remX c j + tX c ⟨(31 - j) % 32, Nat.mod_lt _ (by decide)⟩

/-- After the first entry signal, and at launch. -/
def O₁ (c : Dev nD) : CellTallies nD τ sig Unit := remX c 32 + tallyAt (barCell (yp c)) () 1
def O₀ (c : Dev nD) : CellTallies nD τ sig Unit := O₁ c + tallyAt (barCell (xp c)) () 1

def L (g : GSem nD τ sig) : Finset Unit := if g.1.2 = .tc then {()} else ∅
def lv (g : GSem nD τ sig) (_ : Unit) : ℕ := match g.2 with
  | .reg _ => 1
  | .dma s => if 163 ≤ s.val then 3 else if 99 ≤ s.val ∧ s.val < 131 then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_rX (c : Dev nD) (k : Fin 32) : lv (rXc c k) () = 2 := by
  have := k.isLt
  show (if 163 ≤ 99 + k.val then 3 else if 99 ≤ 99 + k.val ∧ 99 + k.val < 131 then 2 else 0) = 2
  rw [if_neg (by omega), if_pos (by omega)]
theorem lv_rY (c : Dev nD) (k : Fin 32) : lv (rYc c k) () = 3 := by
  show (if 163 ≤ 163 + k.val then 3 else _) = 3
  rw [if_pos (by omega)]

theorem remY_pos {c : Dev nD} {j : ℕ} {g : GSem nD τ sig} {u : Unit} (h : 0 < remY c j g u) : ∃ k : Fin 32, g = rYc (yp c) k := by
  induction j with
  | zero => exact absurd h (Nat.lt_irrefl 0)
  | succ j ih =>
    rcases Pipeline.add_pos_cases h with h | h
    · exact ih h
    · exact ⟨_, (Pipeline.tallyAt_pos h).1⟩

theorem remX_pos {c : Dev nD} {j : ℕ} {g : GSem nD τ sig} {u : Unit} (h : 0 < remX c j g u) :
    (∃ k : Fin 32, g = rXc (xp c) k) ∨ (∃ k : Fin 32, g = rYc (yp c) k) := by
  induction j with
  | zero => exact Or.inr (remY_pos h)
  | succ j ih =>
    rcases Pipeline.add_pos_cases h with h | h
    · exact ih h
    · exact Or.inl ⟨_, (Pipeline.tallyAt_pos h).1⟩

/-- A wait on one of the device's own copy or departure cells (semaphore numbers below 99), owing only sends. -/
theorem mw_low_X (c : Dev nD) (s : DmaSem sig) (hs : s.val < 99) (j : ℕ) :
    (levAts L lv : sProp 𝕄) ⊢ MayWait (c : Thread nD τ) (.dma s) () (remX c j) :=
  Pipeline.mayWait_of_levAts (by rw [L_tc]; exact Finset.mem_singleton_self _) fun g u hg => by
    have hl : lv ((c : Thread nD τ), .dma s) () = 0 := by
      show (if 163 ≤ s.val then 3 else if 99 ≤ s.val ∧ s.val < 131 then 2 else 0) = 0
      rw [if_neg (by omega), if_neg (by omega)]
    rcases remX_pos hg with ⟨k, rfl⟩ | ⟨k, rfl⟩
    · exact ⟨by rw [L_tc]; exact Finset.mem_singleton_self _, by rw [hl, lv_rX]; decide⟩
    · exact ⟨by rw [L_tc]; exact Finset.mem_singleton_self _, by rw [hl, lv_rY]; decide⟩

theorem mw_low_Y (c : Dev nD) (s : DmaSem sig) (hs : s.val < 99) (j : ℕ) :
    (levAts L lv : sProp 𝕄) ⊢ MayWait (c : Thread nD τ) (.dma s) () (remY c j) :=
  Pipeline.mayWait_of_levAts (by rw [L_tc]; exact Finset.mem_singleton_self _) fun g u hg => by
    have hl : lv ((c : Thread nD τ), .dma s) () = 0 := by
      show (if 163 ≤ s.val then 3 else if 99 ≤ s.val ∧ s.val < 131 then 2 else 0) = 0
      rw [if_neg (by omega), if_neg (by omega)]
    obtain ⟨k, rfl⟩ := remY_pos hg
    exact ⟨by rw [L_tc]; exact Finset.mem_singleton_self _, by rw [hl, lv_rY]; decide⟩

/-- The barrier wait, owing every send. -/
theorem mw_bar (c : Dev nD) : (levAts L lv : sProp 𝕄) ⊢ MayWait (c : Thread nD τ) (.reg barS) () (remX c 32) :=
  Pipeline.mayWait_of_levAts (by rw [L_tc]; exact Finset.mem_singleton_self _) fun g u hg => by
    have hl : lv ((c : Thread nD τ), .reg barS) () = 1 := rfl
    rcases remX_pos hg with ⟨k, rfl⟩ | ⟨k, rfl⟩
    · exact ⟨by rw [L_tc]; exact Finset.mem_singleton_self _, by rw [hl, lv_rX]; decide⟩
    · exact ⟨by rw [L_tc]; exact Finset.mem_singleton_self _, by rw [hl, lv_rY]; decide⟩

/-- A wait on a first-exchange arrival cell, owing only forwards. -/
theorem mw_rX (c : Dev nD) (k : Fin 32) (j : ℕ) :
    (levAts L lv : sProp 𝕄) ⊢ MayWait (c : Thread nD τ) (.dma (⟨99 + k.val, (show 99 + k.val < 195 by omega)⟩ : DmaSem sig)) () (remY c j) :=
  Pipeline.mayWait_of_levAts (by rw [L_tc]; exact Finset.mem_singleton_self _) fun g u hg => by
    obtain ⟨k', rfl⟩ := remY_pos hg
    exact ⟨by rw [L_tc]; exact Finset.mem_singleton_self _, by rw [show lv ((c : Thread nD τ), SemLoc.dma (⟨99 + k.val, (show 99 + k.val < 195 by omega)⟩ : DmaSem sig)) () = 2 from lv_rX c k, lv_rY]; decide⟩

end Cert.KernelIdeal.Hand

end
-- ==== Proof.Ghost.lean ====
/-
  The ghost state of the exchange and the assertions a device's kernel starts from and ends with.

  Each device has 129 protocol cells: its barrier cell and, per chunk, the departure and arrival cells of the two
  exchanges. At launch every cell gets an invariant under the schedule; every device learns all of them, and that
  round 0 of every cell is reached. A device keeps its own cells' positions, the tokens of the 130 duties IT pays
  (one unit to each mate's barrier cell, and per chunk its two departures and the two arrivals it causes on its
  mates), and the credit its own waits consume on cells others pay (2 on its barrier cell, one chunk's credit on
  each of its 64 arrival cells).
-/
import proofs.«900022_g7700000000000023_dist_a2a_v7x_xy2x2_x_m8192_n1024_bf16_1_alg».proof.Proof.Levels

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ)

/-! ## The cells, indexed -/

/-- Cell 0 is the barrier cell; cell 1 + 32 * kind + k is the transfer cell of that kind for chunk k
    (kind 0 departure to the column mate, 1 its arrival, 2 departure to the row mate, 3 its arrival). -/
abbrev csem (j : Fin 129) : SemLoc sig :=
  if j.val = 0 then .reg barS else .dma (⟨66 + j.val, (show 66 + j.val < 195 by have := j.isLt; omega)⟩ : DmaSem sig)
abbrev kcell (ck : Dev nD × Fin 129) : GSem nD τ sig := ((ck.1 : Thread nD τ), csem ck.2)

abbrev jB : Fin 129 := ⟨0, by decide⟩
abbrev jsX (k : Fin 32) : Fin 129 := ⟨1 + k.val, by omega⟩
abbrev jrX (k : Fin 32) : Fin 129 := ⟨33 + k.val, by omega⟩
abbrev jsY (k : Fin 32) : Fin 129 := ⟨65 + k.val, by omega⟩
abbrev jrY (k : Fin 32) : Fin 129 := ⟨97 + k.val, by omega⟩

theorem kcell_B (c : Dev nD) : kcell (c, jB) = barCell c := rfl
theorem kcell_sX (c : Dev nD) (k : Fin 32) : kcell (c, jsX k) = sXc c k := by
  unfold kcell csem; rw [if_neg (by show ¬ (1 + k.val = 0); omega)]; exact Prod.ext rfl (congrArg SemLoc.dma (Fin.ext (by show 66 + (1 + k.val) = 67 + k.val; omega)))
theorem kcell_rX (c : Dev nD) (k : Fin 32) : kcell (c, jrX k) = rXc c k := by
  unfold kcell csem; rw [if_neg (by show ¬ (33 + k.val = 0); omega)]; exact Prod.ext rfl (congrArg SemLoc.dma (Fin.ext (by show 66 + (33 + k.val) = 99 + k.val; omega)))
theorem kcell_sY (c : Dev nD) (k : Fin 32) : kcell (c, jsY k) = sYc c k := by
  unfold kcell csem; rw [if_neg (by show ¬ (65 + k.val = 0); omega)]; exact Prod.ext rfl (congrArg SemLoc.dma (Fin.ext (by show 66 + (65 + k.val) = 131 + k.val; omega)))
theorem kcell_rY (c : Dev nD) (k : Fin 32) : kcell (c, jrY k) = rYc c k := by
  unfold kcell csem; rw [if_neg (by show ¬ (97 + k.val = 0); omega)]; exact Prod.ext rfl (congrArg SemLoc.dma (Fin.ext (by show 66 + (97 + k.val) = 163 + k.val; omega)))

/-! ## What every device knows -/

/-- Every cell's invariant, under the names K, and that round 0 of every cell is reached. Persistent. -/
def records (K : Dev nD × Fin 129 → ℕ) : sProp 𝕄 :=
  iprop((bigSep Finset.univ fun ck : Dev nD × Fin 129 => cellInv ER (sched m) (K ck) (kcell ck))
    ∗ bigSep Finset.univ fun ck : Dev nD × Fin 129 => reached ER (kcell ck) 0)

instance records_persistent (K : Dev nD × Fin 129 → ℕ) : BI.Persistent (records m K) := by unfold records; infer_instance

/-! ## What stays with device c -/

def positions (c : Dev nD) : sProp 𝕄 := bigSep Finset.univ fun j : Fin 129 => atPos ER (kcell (c, j)) 0 ∅ 0

/-- The tokens of the duties device c pays. -/
def payToks (c : Dev nD) : sProp 𝕄 :=
  iprop(dutyTok ER (barCell (xp c)) 0 false ∗ dutyTok ER (barCell (yp c)) 0 true
    ∗ bigSep Finset.univ fun k : Fin 32 =>
        iprop(dutyTok ER (sXc c k) 0 false ∗ dutyTok ER (rXc (xp c) k) 0 false ∗ dutyTok ER (sYc c k) 0 false ∗ dutyTok ER (rYc (yp c) k) 0 false))

/-- The credit of the waits on cells that others pay. -/
def creds (c : Dev nD) : sProp 𝕄 :=
  iprop(cred (tallyAt (barCell c) () 2)
    ∗ bigSep Finset.univ fun k : Fin 32 => iprop(cred (tallyAt (rXc c k) () NC) ∗ cred (tallyAt (rYc c k) () NC)))

/-- The counters of the device's own copy semaphores (numbers 0 to 66), at zero. -/
def locals (c : Dev nD) : sProp 𝕄 :=
  bigSep Finset.univ fun i : Fin 67 => semVal (dcell c i.val (by have := i.isLt; omega)) 0

/-- All 195 DMA semaphore counters of the kernel, at zero. -/
def allSems0 (c : Dev nD) : sProp 𝕄 :=
  bigSep Finset.univ fun i : Fin 195 => semVal (dcell c i.val i.isLt) 0

/-- A whole buffer over some contents, held through its memref. -/
abbrev someBuf {sp : Space} {s : Shape} {e : EltTy} (M : Memref sig .tc sp s e) (c : Dev nD) : sProp 𝕄 :=
  iprop(∃ f, M.view.loc (c : Thread nD τ) ↦[M.view.set]{fullShare} f)

/-- What device c's kernel starts from, apart from its scratch buffers. -/
def start (c : Dev nD) : sProp 𝕄 :=
  iprop((∃ K, records m K ∗ positions c ∗ payToks c) ∗ creds c ∗ levAts L lv ∗ locals c
    ∗ (xM.view.loc (c : Thread nD τ) ↦[xM.view.set]{fullShare} X m c) ∗ someBuf oM c)

def Φ₀ (c : Dev nD) : sProp 𝕄 :=
  iprop(start m c ∗ someBuf slM c ∗ someBuf sbM c ∗ someBuf rbM c ∗ someBuf elM c ∗ someBuf lvM c)

/-- What it ends with: its block unchanged (half of it is enough to read it back; the other half was lent piecewise
    to the copies), its result holding what it is to hold, every counter back at zero,
    the scratch buffers over whatever they hold. -/
def Φ₁ (c : Dev nD) : sProp 𝕄 :=
  iprop((xM.view.loc (c : Thread nD τ) ↦[xM.view.set]{fullShare.left} X m c)
    ∗ (oM.view.loc (c : Thread nD τ) ↦[oM.view.set]{fullShare} outC m c)
    ∗ allSems0 c
    ∗ someBuf slM c ∗ someBuf sbM c ∗ someBuf rbM c ∗ someBuf elM c ∗ someBuf lvM c)

/-- The pipeline's proof data: no window, one point; the device owes its launch tallies before the point and nothing after. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.KernelIdeal.Hand

end
-- ==== Proof.Launch.lean ====
/-
  The launch: from the proof of every device's kernel body to the run of the whole program.

  At launch the ghost state of the 4 x 129 protocol cells is created and dealt: every device gets the invariants of
  all cells, its own cells' positions, and the tokens of the duties it pays on its mates' cells; the credit that the
  mates owe its cells; its two arrays; and the counters of its own copy semaphores. At the end its two arrays are read
  against the final memory.
-/
import proofs.«900022_g7700000000000023_dist_a2a_v7x_xy2x2_x_m8192_n1024_bf16_1_alg».proof.Proof.Ghost
import Idealize.ShloMosaic.Lib.Pipeline.Launch
import Idealize.ShloMosaic.Lib.Pipeline.Kit

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- All 195 DMA semaphores are the kernel's own. -/
abbrev osem : Fin 195 → SemLoc sig := fun i => .dma (⟨i.val, i.isLt⟩ : DmaSem sig)

theorem ownSemFacts : Pipeline.OwnSemFacts cfg0.spec osem :=
  ⟨by decide, fun a b h => Fin.ext (by injection h with h; exact congrArg Fin.val h), fun k w => w.elim0⟩

/-! ## The cells and the tokens as minted -/

omit [FloatOps F] in
private theorem dcell_congr (c : Dev nD) {i i' : Nat} (e : i = i') (h : i < 195) (h' : i' < 195) : dcell c i h = dcell c i' h' := by
  subst e; rfl

theorem kcell_injective : Function.Injective (kcell : Dev nD × Fin 129 → GSem nD τ sig) := by
  rintro ⟨c, j⟩ ⟨c', j'⟩ h
  have h1 : c = c' := congrArg (fun g : GSem nD τ sig => g.1.1) h
  subst h1
  have h2 : csem j = csem j' := congrArg Prod.snd h
  have : j = j' := by
    unfold csem at h2
    by_cases hj : j.val = 0 <;> by_cases hj' : j'.val = 0
    · exact Fin.ext (hj.trans hj'.symm)
    · rw [if_pos hj, if_neg hj'] at h2; cases h2
    · rw [if_neg hj, if_pos hj'] at h2; cases h2
    · rw [if_neg hj, if_neg hj'] at h2
      injection h2 with h2
      have := congrArg Fin.val h2
      exact Fin.ext (by simp only at this; omega)
  subst this; rfl

def cellsF : Finset (GSem nD τ sig) := Finset.univ.map ⟨kcell, kcell_injective⟩

/-- A device's own cells' duty tokens as minted: the two of its barrier cell, and one per transfer cell (kind q, chunk k). -/
abbrev tokOf (cj : Dev nD × (Bool ⊕ (Fin 4 × Fin 32))) : GSem nD τ sig × ℕ × Bool := match cj.2 with
  | .inl d => (barCell cj.1, 0, d)
  | .inr qk => (dcell cj.1 (67 + 32 * qk.1.val + qk.2.val) (by have := qk.1.isLt; have := qk.2.isLt; omega), 0, false)

theorem tokOf_injective : Function.Injective (tokOf : Dev nD × (Bool ⊕ (Fin 4 × Fin 32)) → GSem nD τ sig × ℕ × Bool) := by
  rintro ⟨c, x⟩ ⟨c', x'⟩ h
  rcases x with d | ⟨q, k⟩ <;> rcases x' with d' | ⟨q', k'⟩
  · have h1 : c = c' := congrArg (fun x : GSem nD τ sig × ℕ × Bool => x.1.1.1) h
    have h2 : d = d' := congrArg (fun x : GSem nD τ sig × ℕ × Bool => x.2.2) h
    subst h1; subst h2; rfl
  · exact absurd (congrArg (fun x : GSem nD τ sig × ℕ × Bool => x.1.2) h) (fun h' => by cases h')
  · exact absurd (congrArg (fun x : GSem nD τ sig × ℕ × Bool => x.1.2) h) (fun h' => by cases h')
  · have h1 : c = c' := congrArg (fun x : GSem nD τ sig × ℕ × Bool => x.1.1.1) h
    subst h1
    have h2 := congrArg (fun x : GSem nD τ sig × ℕ × Bool => x.1.2) h
    injection h2 with h2
    have h3 : 67 + 32 * q.val + k.val = 67 + 32 * q'.val + k'.val := congrArg Fin.val h2
    have hq : q = q' := Fin.ext (by have := k.isLt; have := k'.isLt; omega)
    have hk : k = k' := Fin.ext (by have := congrArg Fin.val hq; omega)
    subst hq; subst hk; rfl

def toksF : Finset (GSem nD τ sig × ℕ × Bool) := Finset.univ.map ⟨tokOf, tokOf_injective⟩

def u₀ : UU :=
  (initOf (Pipeline.cells cfgs cellOf_inj) (Pipeline.launchToks cfgs cellOf_inj), (initOf cellsF toksF, 1))

/-- The duty tokens of device c's own cells. -/
def toks (c : Dev nD) : sProp 𝕄 :=
  iprop((dutyTok ER (barCell c) 0 false ∗ dutyTok ER (barCell c) 0 true)
    ∗ (bigSep Finset.univ fun k : Fin 32 => dutyTok ER (sXc c k) 0 false)
    ∗ (bigSep Finset.univ fun k : Fin 32 => dutyTok ER (rXc c k) 0 false)
    ∗ (bigSep Finset.univ fun k : Fin 32 => dutyTok ER (sYc c k) 0 false)
    ∗ (bigSep Finset.univ fun k : Fin 32 => dutyTok ER (rYc c k) 0 false))

/-- What the launch element deals device c. -/
def G (c : Dev nD) : sProp 𝕄 :=
  iprop((bigSep Finset.univ fun j : Fin 129 => roundState ER (sched m) (kcell (c, j)) 0)
    ∗ (bigSep Finset.univ fun j : Fin 129 => iprop(atPos ER (kcell (c, j)) 0 ∅ 0 ∗ reached ER (kcell (c, j)) 0)) ∗ toks c)

/-- What the global step makes of it. -/
def G' (c : Dev nD) : sProp 𝕄 := iprop((∃ K, records m K ∗ positions c ∗ payToks c) ∗ locals c)

omit [FloatOps F] in
private theorem bigSep_bool (Φ : Bool → sProp 𝕄) : bigSep Finset.univ Φ = iprop(Φ false ∗ Φ true) :=
  bigSep_univ_eq_bigSepL [false, true] (by decide) (by decide) Φ
omit [FloatOps F] in
private theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem fund_cells : BI.own (ER (initOf cellsF toksF)) ⊢ (|==> bigSep Finset.univ (G m) : sProp 𝕄) := by
  have hX (Φ : GSem nD τ sig → sProp 𝕄) : bigSep cellsF Φ = bigSep Finset.univ fun c : Dev nD => bigSep Finset.univ fun j : Fin 129 => Φ (kcell (c, j)) := by
    unfold cellsF; rw [bigSep_map, bigSep_univ_prod]; rfl
  have hT : bigSep toksF (fun x => (dutyTok ER x.1 x.2.1 x.2.2 : sProp 𝕄)) = bigSep Finset.univ fun c : Dev nD => toks c := by
    unfold toksF; rw [bigSep_map, bigSep_univ_prod]
    exact bigSep_congr fun c _ => by
      unfold toks; rw [bigSep_univ_sum, bigSep_bool, bigSep_univ_prod, bigSep_fin4]; rfl
  iintro HX
  imod (Rounds.fund ER (sched m) cellsF toksF) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem hu0 : (ownU (u₀ : UU) : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave H2 := (own_pair_emb embR _ _) $$ HX
  icases H2 with ⟨HB, -⟩
  imod (fund_cells m) $$ HB with HG
  imodintro
  isplitl [HP] <;> iassumption

/-! ## The payloads can be stored in invariants -/

instance sched_payload_storable (g : GSem nD τ sig) (r : ℕ) (d : Bool) :
    BI.Storable (upEmb : UEmb _ 𝕄) ((sched (F := F) m).payload g r d) := by
  dsimp only [sched]
  unfold barPayX barPayY sXPay rXPay sYPay rYPay
  (repeat' split) <;> infer_instance

/-! ## The counters, sorted into the cells' and the rest -/

omit [FloatOps F] in
private theorem bigSep_fin_add (a b : ℕ) (Φ : Fin (a + b) → sProp 𝕄) :
    bigSep Finset.univ Φ
      = iprop((bigSep Finset.univ fun i : Fin a => Φ (Fin.castAdd b i)) ∗ bigSep Finset.univ fun j : Fin b => Φ (Fin.natAdd a j)) := by
  rw [bigSep_univ_equiv finSumFinEquiv Φ, bigSep_univ_sum]
  rfl

omit [FloatOps F] in
private theorem bigSep_fin195 (Φ : Fin 195 → sProp 𝕄) :
    bigSep Finset.univ Φ
      = iprop((bigSep Finset.univ fun i : Fin 67 => Φ ⟨i.val, by have := i.isLt; omega⟩)
          ∗ bigSep Finset.univ fun j : Fin 128 => Φ ⟨67 + j.val, by have := j.isLt; omega⟩) :=
  bigSep_fin_add 67 128 Φ

omit [FloatOps F] in
private theorem bigSep_fin129 (Φ : Fin 129 → sProp 𝕄) :
    bigSep Finset.univ Φ = iprop(Φ ⟨0, by decide⟩ ∗ bigSep Finset.univ fun j : Fin 128 => Φ ⟨1 + j.val, by have := j.isLt; omega⟩) := by
  rw [bigSep_fin_add 1 128 Φ, bigSep_univ_of_subsingleton (0 : Fin 1)]
  rfl

omit [FloatOps F] in
private theorem kcell_dma (c : Dev nD) (j : Fin 128) :
    kcell (c, (⟨1 + j.val, by have := j.isLt; omega⟩ : Fin 129)) = dcell c (67 + j.val) (by have := j.isLt; omega) := by
  unfold kcell csem
  rw [if_neg (by show ¬ (1 + j.val = 0); omega)]
  exact Prod.ext rfl (congrArg SemLoc.dma (Fin.ext (by show 66 + (1 + j.val) = 67 + j.val; omega)))

omit [FloatOps F] in
/-- The runtime's barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun j : Fin 129 => semVal (kcell (c, j)) 0) ∗ locals c) : sProp 𝕄) := by
  have e1 : (Pipeline.ownSems0 (Ix := Unit) (Name := ℕ) (U := UU) (Lvl := ℕ) (Val := Elt F) (τ := τ) osem c : sProp 𝕄)
      = iprop(locals c ∗ bigSep Finset.univ fun j : Fin 128 => semVal (dcell c (67 + j.val) (by have := j.isLt; omega)) 0) :=
    bigSep_fin195 (fun i : Fin 195 => (semVal (dcell c i.val i.isLt) 0 : sProp 𝕄))
  have e2 : (bigSep Finset.univ fun j : Fin 129 => (semVal (kcell (c, j)) 0 : sProp 𝕄))
      = iprop(semVal (barCell c) 0 ∗ bigSep Finset.univ fun j : Fin 128 => semVal (dcell c (67 + j.val) (by have := j.isLt; omega)) 0) := by
    rw [bigSep_fin129]
    refine congrArg₂ _ rfl (bigSep_congr fun j _ => ?_)
    rw [kcell_dma]
  rw [e1, e2, unscopedSems0_eq]
  iintro ⟨⟨Hloc, Hcells⟩, HB⟩
  isplitr [Hloc]
  · isplitl [HB] <;> iassumption
  · iexact Hloc

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j : Fin 129 => iprop(∃ κ : ℕ, cellInv ER (sched m) κ (kcell (c, j))))
          ∗ (bigSep Finset.univ fun j : Fin 129 => iprop(atPos ER (kcell (c, j)) 0 ∅ 0 ∗ reached ER (kcell (c, j)) 0)) ∗ toks c ∗ locals c) := by
  unfold G
  iintro ⟨Hos, Hus, Hst, Hat, Htok⟩
  ihave Hv := (sems0_eq (F := F) c) $$ [Hos Hus]
  · isplitl [Hos] <;> iassumption
  icases Hv with ⟨Hv, Hloc⟩
  imod (show iprop((bigSep Finset.univ fun j : Fin 129 => semVal (kcell (c, j)) 0) ∗ bigSep Finset.univ fun j : Fin 129 => roundState ER (sched m) (kcell (c, j)) 0)
      ⊢ (|={Set.univ}=> bigSep Finset.univ fun j : Fin 129 => iprop(∃ κ : ℕ, cellInv ER (sched m) κ (kcell (c, j))) : sProp 𝕄) from by
        rw [← bigSep_sep']
        exact (bigSep_mono fun j _ => (Rounds.body_intro ER (sched m) (kcell (c, j))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-! ## The tokens dealt to the devices that pay -/

omit [FloatOps F] in
/-- A barrier cell's first token goes to the column mate, its second to the row mate; an arrival cell's token goes
    to the mate that sends into it; a departure cell's stays. -/
theorem toks_around : (bigSep Finset.univ fun c : Dev nD => (toks c : sProp 𝕄)) ⊢ bigSep Finset.univ fun c : Dev nD => payToks c := by
  unfold toks payToks
  simp only [bigSep_sep']
  rw [bigSep_univ_equiv xSwap (fun c : Dev nD => (dutyTok ER (barCell c) 0 false : sProp 𝕄)),
    bigSep_univ_equiv ySwap (fun c : Dev nD => (dutyTok ER (barCell c) 0 true : sProp 𝕄)),
    bigSep_univ_equiv xSwap (fun c : Dev nD => bigSep Finset.univ fun k : Fin 32 => (dutyTok ER (rXc c k) 0 false : sProp 𝕄)),
    bigSep_univ_equiv ySwap (fun c : Dev nD => bigSep Finset.univ fun k : Fin 32 => (dutyTok ER (rYc c k) 0 false : sProp 𝕄))]
  iintro ⟨⟨H1, H2⟩, H3, H4, H5, H6⟩
  isplitl [H1]; · iexact H1
  isplitl [H2]; · iexact H2
  isplitl [H3]; · iexact H3
  isplitl [H4]; · iexact H4
  isplitl [H5]; · iexact H5
  iexact H6

theorem regroup :
    (bigSep Finset.univ fun c : Dev nD => iprop((bigSep Finset.univ fun j : Fin 129 => iprop(∃ κ : ℕ, cellInv ER (sched m) κ (kcell (c, j))))
          ∗ (bigSep Finset.univ fun j : Fin 129 => iprop(atPos ER (kcell (c, j)) 0 ∅ 0 ∗ reached ER (kcell (c, j)) 0)) ∗ toks c ∗ locals c) : sProp 𝕄)
      ⊢ bigSep Finset.univ (G' m) := by
  rw [bigSep_sep', bigSep_sep', bigSep_sep', ← bigSep_univ_prod (fun ck : Dev nD × Fin 129 => iprop(∃ κ : ℕ, cellInv ER (sched m) κ (kcell ck))),
    bigSep_congr (s := Finset.univ) (fun (c : Dev nD) _ => bigSep_sep' Finset.univ (fun j : Fin 129 => (atPos ER (kcell (c, j)) 0 ∅ 0 : sProp 𝕄)) (fun j => reached ER (kcell (c, j)) 0)),
    bigSep_sep', ← bigSep_univ_prod (fun ck : Dev nD × Fin 129 => (reached ER (kcell ck) 0 : sProp 𝕄))]
  iintro ⟨HI, ⟨Hat, #HR⟩, Htok, Hloc⟩
  ihave HK := (BI.bigSep_exists_pi Finset.univ (fun (ck : Dev nD × Fin 129) (κ : ℕ) => (cellInv ER (sched m) κ (kcell ck) : sProp 𝕄))) $$ HI
  icases HK with ⟨%K, #HI⟩
  ihave Htk := (toks_around (F := F)) $$ Htok
  iapply (bigSep_with_persistent (R := records m K) (Φ := fun c : Dev nD => iprop(positions c ∗ payToks c ∗ locals c)) fun c _ => by
    unfold G'
    iintro ⟨#HR, Hp, Ht, Hl⟩
    isplitr [Hl]
    · iexists K
      isplitr; · iexact HR
      isplitl [Hp] <;> iassumption
    · iexact Hl)
  isplitr
  · unfold records; isplitl; · iexact HI
    iexact HR
  · simp only [bigSep_sep']
    unfold positions
    isplitl [Hat]; · iexact Hat
    isplitl [Htk] <;> iassumption

/-- The global step: every device's counters and ghost resources at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What is owed to device c's cells, in all: one chunk's credit on each of its 64 arrival cells, two units on its barrier cell. -/
def Tc (c : Dev nD) : CellTallies nD τ sig Unit :=
  (∑ k : Fin 32, tallyAt (rYc c k) () NC) + (∑ k : Fin 32, tallyAt (rXc c k) () NC) + tallyAt (barCell c) () 1 + tallyAt (barCell c) () 1

omit [FloatOps F] in
private theorem sum_rev32 {M : Type} [AddCommMonoid M] (f : Fin 32 → M) :
    (∑ j ∈ Finset.range 32, f ⟨(31 - j) % 32, Nat.mod_lt _ (by decide)⟩) = ∑ k, f k := by
  rw [Finset.sum_range fun j => f ⟨(31 - j) % 32, Nat.mod_lt _ (by decide)⟩]
  exact Fintype.sum_equiv Fin.revPerm _ _ fun i => congrArg f (Fin.ext (by
    have := i.isLt
    simp only [Fin.revPerm_apply, Fin.val_rev]; omega))

omit [FloatOps F] in
theorem remY_eq (c : Dev nD) (n : ℕ) : remY c n = ∑ j ∈ Finset.range n, tY c ⟨(31 - j) % 32, Nat.mod_lt _ (by decide)⟩ := by
  induction n with
  | zero => rfl
  | succ n ih => rw [Finset.sum_range_succ, ← ih]; rfl

omit [FloatOps F] in
theorem remX_eq (c : Dev nD) (n : ℕ) : remX c n = remY c 32 + ∑ j ∈ Finset.range n, tX c ⟨(31 - j) % 32, Nat.mod_lt _ (by decide)⟩ := by
  induction n with
  | zero => rw [Finset.sum_range_zero, add_zero]; rfl
  | succ n ih => rw [Finset.sum_range_succ, ← add_assoc, ← ih]; rfl

omit [FloatOps F] in
theorem O₀_eq (d : Dev nD) :
    O₀ d = (∑ k, tY d k) + (∑ k, tX d k) + tallyAt (barCell (yp d)) () 1 + tallyAt (barCell (xp d)) () 1 := by
  unfold O₀ O₁
  rw [remX_eq, remY_eq, sum_rev32 (tY d), sum_rev32 (tX d)]

omit [FloatOps F] in
/-- Summed over the devices, what they owe is what their cells are owed. -/
theorem owed_sum : (∑ d, O₀ d) = ∑ d, Tc d := by
  simp only [O₀_eq, Tc, Finset.sum_add_distrib]
  refine congrArg₂ (· + ·) (congrArg₂ (· + ·) (congrArg₂ (· + ·) ?_ ?_) ?_) ?_
  · exact Equiv.sum_comp ySwap (fun d : Dev nD => ∑ k : Fin 32, (tallyAt (rYc d k) () NC : CellTallies nD τ sig Unit))
  · exact Equiv.sum_comp xSwap (fun d : Dev nD => ∑ k : Fin 32, (tallyAt (rXc d k) () NC : CellTallies nD τ sig Unit))
  · exact Equiv.sum_comp ySwap (fun d : Dev nD => (tallyAt (barCell d) () 1 : CellTallies nD τ sig Unit))
  · exact Equiv.sum_comp xSwap (fun d : Dev nD => (tallyAt (barCell d) () 1 : CellTallies nD τ sig Unit))

omit [FloatOps F] in
theorem Tc_on (d : Dev nD) (g : GSem nD τ sig) (h : Tc d g ≠ 0) : g.1 = (d.tc : Thread nD τ) := by
  by_contra hne
  apply h
  have hz : ∀ (sm : SemLoc sig) (n : ℕ), (tallyAt ((d.tc : Thread nD τ), sm) () n : CellTallies nD τ sig Unit) g = 0 :=
    fun sm n => tallyAt_ne_cell (fun e => hne (congrArg Prod.fst e)) () n
  unfold Tc
  simp only [Pi.add_apply, Finset.sum_apply, hz, Finset.sum_const_zero, add_zero]

omit [FloatOps F] in
theorem creds_of_launch (c : Dev nD) : (Pipeline.launchCred O₀ c : sProp 𝕄) ⊢ creds c := by
  rw [Pipeline.launchCred_of_sum O₀ Tc owed_sum Tc_on c]
  have hY : (cred (∑ k : Fin 32, tallyAt (rYc c k) () NC) : sProp 𝕄) = bigSep Finset.univ fun k : Fin 32 => cred (tallyAt (rYc c k) () NC) :=
    Pipeline.cred_finsetSum _ _
  have hX : (cred (∑ k : Fin 32, tallyAt (rXc c k) () NC) : sProp 𝕄) = bigSep Finset.univ fun k : Fin 32 => cred (tallyAt (rXc c k) () NC) :=
    Pipeline.cred_finsetSum _ _
  have h2 : (tallyAt (barCell c) () 1 + tallyAt (barCell c) () 1 : CellTallies nD τ sig Unit) = tallyAt (barCell c) () 2 := tallyAt_add _ _ 1 1
  have hB : iprop(cred (tallyAt (barCell c) () 1) ∗ cred (tallyAt (barCell c) () 1)) ⊢ (cred (tallyAt (barCell c) () 2) : sProp 𝕄) := by
    rw [← h2]; exact (cred_add _ _).2
  unfold Tc creds
  iintro H
  ihave H := (cred_add _ _).1 $$ H
  icases H with ⟨H, Hb2⟩
  ihave H := (cred_add _ _).1 $$ H
  icases H with ⟨H, Hb1⟩
  ihave H := (cred_add _ _).1 $$ H
  icases H with ⟨HY, HX⟩
  ihave HY' := (Entails.of_eq hY) $$ HY
  ihave HX' := (Entails.of_eq hX) $$ HX
  isplitl [Hb1 Hb2]
  · iapply hB; isplitl [Hb1] <;> iassumption
  · rw [bigSep_sep']; isplitl [HX'] <;> iassumption

/-! ## A whole buffer held through its memref is the buffer -/

section Whole
variable (c : Dev nD)
omit [FloatOps F]
private theorem x_eq (q : PosShare TreeShare) (f : Buf (Elt F) ((c : Thread nD τ).loc main_arg0)) :
    (xM.view.loc (c : Thread nD τ) ↦[xM.view.set]{q} f : sProp 𝕄) = (((c : Thread nD τ).loc main_arg0) ↦{q} f) := by rw [View.set_whole]
private theorem o_eq (f : Buf (Elt F) ((c : Thread nD τ).loc main_v1)) :
    (oM.view.loc (c : Thread nD τ) ↦[oM.view.set]{fullShare} f : sProp 𝕄) = (((c : Thread nD τ).loc main_v1) ↦{fullShare} f) := by rw [View.set_whole]
private theorem sl_eq (f : Buf (Elt F) ((c : Thread nD τ).loc cc0_scratch0)) :
    (slM.view.loc (c : Thread nD τ) ↦[slM.view.set]{fullShare} f : sProp 𝕄) = (((c : Thread nD τ).loc cc0_scratch0) ↦{fullShare} f) := by rw [View.set_whole]
private theorem sb_eq (f : Buf (Elt F) ((c : Thread nD τ).loc cc0_scratch1)) :
    (sbM.view.loc (c : Thread nD τ) ↦[sbM.view.set]{fullShare} f : sProp 𝕄) = (((c : Thread nD τ).loc cc0_scratch1) ↦{fullShare} f) := by rw [View.set_whole]
private theorem rb_eq (f : Buf (Elt F) ((c : Thread nD τ).loc cc0_scratch2)) :
    (rbM.view.loc (c : Thread nD τ) ↦[rbM.view.set]{fullShare} f : sProp 𝕄) = (((c : Thread nD τ).loc cc0_scratch2) ↦{fullShare} f) := by rw [View.set_whole]
private theorem el_eq (f : Buf (Elt F) ((c : Thread nD τ).loc cc0_scratch3)) :
    (elM.view.loc (c : Thread nD τ) ↦[elM.view.set]{fullShare} f : sProp 𝕄) = (((c : Thread nD τ).loc cc0_scratch3) ↦{fullShare} f) := by rw [View.set_whole]
private theorem lv_eq (f : Buf (Elt F) ((c : Thread nD τ).loc cc0_scratch4)) :
    (lvM.view.loc (c : Thread nD τ) ↦[lvM.view.set]{fullShare} f : sProp 𝕄) = (((c : Thread nD τ).loc cc0_scratch4) ↦{fullShare} f) := by rw [View.set_whole]
end Whole

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G' start
  iintro ⟨⟨Hx, Ho⟩, Hlev, Hcr, -, HG, Hloc⟩
  ihave Hc := (creds_of_launch (F := F) c) $$ Hcr
  ihave Hx' := (Entails.of_eq (x_eq c fullShare (m ((c : Thread nD τ).loc main_arg0))).symm) $$ Hx
  ihave Ho' := (Entails.of_eq (o_eq c (m ((c : Thread nD τ).loc main_v1))).symm) $$ Ho
  imodintro
  isplitl
  · isplitl [HG]; · iexact HG
    isplitl [Hc]; · iexact Hc
    isplitl [Hlev]; · iexact Hlev
    isplitl [Hloc]; · iexact Hloc
    isplitl [Hx']; · iexact Hx'
    iexists (m ((c : Thread nD τ).loc main_v1)); iexact Ho'
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f0, H0⟩, ⟨%f1, H1⟩, ⟨%f2, H2⟩, ⟨%f3, H3⟩, ⟨%f4, H4⟩⟩
  ihave H0' := (Entails.of_eq (sl_eq c f0).symm) $$ H0
  ihave H1' := (Entails.of_eq (sb_eq c f1).symm) $$ H1
  ihave H2' := (Entails.of_eq (rb_eq c f2).symm) $$ H2
  ihave H3' := (Entails.of_eq (el_eq c f3).symm) $$ H3
  ihave H4' := (Entails.of_eq (lv_eq c f4).symm) $$ H4
  isplitl [Hs]; · iexact Hs
  isplitl [H0']; · iexists f0; iexact H0'
  isplitl [H1']; · iexists f1; iexact H1'
  isplitl [H2']; · iexists f2; iexact H2'
  isplitl [H3']; · iexists f3; iexact H3'
  iexists f4; iexact H4'

/-- What is read at the end: the two arrays (of the argument, the half that never left the device's hands). -/
def Yend (c : Dev nD) : sProp 𝕄 :=
  iprop((xM.view.loc (c : Thread nD τ) ↦[xM.view.set]{fullShare.left} X m c)
    ∗ (oM.view.loc (c : Thread nD τ) ↦[oM.view.set]{fullShare} outC m c))

theorem phi1_exit (c : Dev nD) :
    (dats m 0 c).Φ (Fin.last cfg0.N) ⊢ iprop(Yend m c ∗ Pipeline.ownSems0 osem c ∗ Pipeline.scopedRest cfg0.spec c) := by
  rw [show (dats m 0 c).Φ (Fin.last cfg0.N) = Φ₁ m c from rfl, scopedRest0_eq,
    show (Pipeline.ownSems0 (Ix := Unit) (Name := ℕ) (U := UU) (Lvl := ℕ) (Val := Elt F) (τ := τ) osem c : sProp 𝕄) = allSems0 c from rfl]
  unfold Φ₁ Yend
  iintro ⟨Hx, Ho, Hz, ⟨%f0, H0⟩, ⟨%f1, H1⟩, ⟨%f2, H2⟩, ⟨%f3, H3⟩, ⟨%f4, H4⟩⟩
  ihave H0' := (Entails.of_eq (sl_eq c f0)) $$ H0
  ihave H1' := (Entails.of_eq (sb_eq c f1)) $$ H1
  ihave H2' := (Entails.of_eq (rb_eq c f2)) $$ H2
  ihave H3' := (Entails.of_eq (el_eq c f3)) $$ H3
  ihave H4' := (Entails.of_eq (lv_eq c f4)) $$ H4
  isplitl [Hx Ho]; · isplitl [Hx] <;> iassumption
  isplitl [Hz]; · iexact Hz
  isplitl [H0']; · iexists f0; iexact H0'
  isplitl [H1']; · iexists f1; iexact H1'
  isplitl [H2']; · iexists f2; iexact H2'
  isplitl [H3']; · iexists f3; iexact H3'
  iexists f4; iexact H4'

theorem waits (c : Dev nD) : (levAts L lv : sProp 𝕄) ⊢ Pipeline.cellsWaits cfgs (dats m) () 0 c :=
  Pipeline.cellsWaits_intro cfgs (dats m) () 0 c fun w s t => w.elim0

theorem read_final (c : Dev nD) (s' : Phys nD τ sig (Elt F)) :
    iprop(Yend m c ∗ emp ∗ SI s') ⊢ |={Set.univ}=> iprop(⌜s'.mem.mem ((c.tc : Thread nD τ).loc main_v1) = outC m c
        ∧ s'.mem.mem ((c.tc : Thread nD τ).loc main_arg0) = m ((c.tc : Thread nD τ).loc main_arg0)⌝ ∗ SI s') := by
  unfold Yend
  rw [x_eq c fullShare.left (X m c), o_eq c (outC m c)]
  iintro ⟨⟨Hx, Ho⟩, -, HSI⟩
  icombine HSI Hx gives %hx
  icombine HSI Ho gives %ho
  imodintro
  isplitr
  · ipureintro; exact ⟨Buf.eq_of_forall_mem_univ ho, Buf.eq_of_forall_mem_univ hx⟩
  iexact HSI

/-! ## The run -/

set_option maxRecDepth 100000 in
/-- On the four devices, for any float values, from any memory with zero counters: if every device's kernel body meets
    its obligation, every weakly fair execution terminates, every device's result holds what it is to hold, and its
    argument is unchanged. -/
theorem run_main (hbody : ∀ c : Dev nD, BodyObligation (dats (F := F) m 0 c) (defs₀ (F := F)) 𝒱₀ () Set.univ) :
    θ_run (defs (F := F)) (onTc (τ := τ) (main (F := F))) ⟨m, fun _ => 0, ρ⟩ (fun r => ∀ c : Dev nD,
      r.2.mem ((c.tc : Thread nD τ).loc main_v1) = outC m c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => w.elim0) (harr := arr_whole0) (hstage := stage_whole0) (hshare := fun c w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := hu0 m)
    (hglob := glob m)
    (hA := fun _ w => w.elim0) (hpf := fun _ k => k.elim0)
    (X := start m) (Y := Yend m) (Z := fun _ => iprop(emp))
    (hX := start_intro m ρ) (hin := phi0_intro m) (hout := phi1_exit m)
    (QY := fun c s => s.mem ((c.tc : Thread nD τ).loc main_v1) = outC m c
        ∧ s.mem ((c.tc : Thread nD τ).loc main_arg0) = m ((c.tc : Thread nD τ).loc main_arg0))
    (hY := read_final m)
    (hQ := fun _ h c => (h c).2.2)

/-- info: 'Cert.KernelIdeal.Hand.run_main' depends on axioms: [propext, Classical.choice, Quot.sound] -/
#guard_msgs in #print axioms run_main

end Cert.KernelIdeal.Hand

end
-- ==== Proof.Point.lean ====
/-
  The kernel's one point: it has no grid, so the pipeline visits exactly one point.
-/
import proofs.«900022_g7700000000000023_dist_a2a_v7x_xy2x2_x_m8192_n1024_bf16_1_alg».proof.Proof.Ghost

noncomputable section

namespace Cert.KernelIdeal.Hand

open Cert.KernelIdeal Cert.KernelIdeal.Gen
open Idealize.ShloMosaic

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

end Cert.KernelIdeal.Hand

end
-- ==== Proof.Oblig.lean ====
/-
  From the proof of a device's kernel body to the obligation the launch asks of it, and to the run.

  The kernel has one point and no window: the obligation at that point is the body's own statement, from what the
  device starts with and what it owes to what it ends with, owing nothing.
-/
import proofs.«900022_g7700000000000023_dist_a2a_v7x_xy2x2_x_m8192_n1024_bf16_1_alg».proof.Proof.Launch
import proofs.«900022_g7700000000000023_dist_a2a_v7x_xy2x2_x_m8192_n1024_bf16_1_alg».proof.Proof.Point

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig Unit (Elt F) ℕ UU ℕ

/-! ## The obligation and the run -/

set_option maxRecDepth 100000 in
/-- The body's statement at every device is the obligation at every device. -/
theorem body_obligation_of (m : (ℓ : Loc nD τ sig) → Buf (Elt F) ℓ)
    (hsound : ∀ (c : Dev nD) (Kt : PUnit → sProp 𝕄),
        iprop(Φ₀ m c ∗ (dats m 0 c).owesAt () (t₀ : Fin cfg0.N).castSucc ∗ ((Φ₁ m c ∗ (dats m 0 c).owesAt () (t₀ : Fin cfg0.N).succ) -∗ Kt ⟨⟩))
          ⊢ wp frame (wpE (defs₀ (F := F)) 𝒱₀ c none) Set.univ
              (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12) Kt)
    (c : Dev nD) : BodyObligation (dats (F := F) m 0 c) (defs₀ (F := F)) 𝒱₀ () Set.univ := fun t => by
  rw [fin_N t]
  have hW (Φ : Fin cfg0.W → sProp 𝕄) : bigSep Finset.univ Φ = iprop(emp) := by
    rw [Finset.univ_eq_empty, bigSep_empty]; rfl
  rw [hW, hW]
  show iprop(Φ₀ m c ∗ (dats m 0 c).owesAt () (t₀ : Fin cfg0.N).castSucc ∗ emp)
    ⊢ wp frame (wpE (defs₀ (F := F)) 𝒱₀ c none) Set.univ
        (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12)
        (fun _ => iprop(Φ₁ m c ∗ (dats m 0 c).owesAt () (t₀ : Fin cfg0.N).succ ∗ emp))
  iintro ⟨HΦ, HO, -⟩
  iapply (hsound c _)
  isplitl [HΦ]; · iexact HΦ
  isplitl [HO]; · iexact HO
  iintro ⟨H1, H2⟩
  isplitl [H1]; · iexact H1
  isplitl [H2]; · iexact H2
  iempintro

/-- On the four devices, for any float values, from any memory with zero counters: given the body's statement at every
    device, every weakly fair execution terminates, every device's result holds what it is to hold, and its argument is
    unchanged. -/
theorem run_of_sound (m : (ℓ : Loc nD τ sig) → Buf (Elt F) ℓ) (ρ : Dev nD → PrngReg)
    (hsound : ∀ (c : Dev nD) (Kt : PUnit → sProp 𝕄),
        iprop(Φ₀ m c ∗ (dats m 0 c).owesAt () (t₀ : Fin cfg0.N).castSucc ∗ ((Φ₁ m c ∗ (dats m 0 c).owesAt () (t₀ : Fin cfg0.N).succ) -∗ Kt ⟨⟩))
          ⊢ wp frame (wpE (defs₀ (F := F)) 𝒱₀ c none) Set.univ
              (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12) Kt) :
    θ_run (defs (F := F)) (onTc (τ := τ) (main (F := F))) ⟨m, fun _ => 0, ρ⟩ (fun r => ∀ c : Dev nD,
      r.2.mem ((c.tc : Thread nD τ).loc main_v1) = outC m c
      ∧ r.2.mem ((c.tc : Thread nD τ).loc main_arg0) = m ((c.tc : Thread nD τ).loc main_arg0)) :=
  run_main m ρ (body_obligation_of m hsound)

/-- info: 'Cert.KernelIdeal.Hand.run_of_sound' depends on axioms: [propext, Classical.choice, Quot.sound] -/
#guard_msgs in #print axioms run_of_sound

end Cert.KernelIdeal.Hand

end
-- ==== Proof.Rules.lean ====
/-
  The steps of the exchange, one rule each, in the form a device's kernel takes them.
-/
import proofs.«900022_g7700000000000023_dist_a2a_v7x_xy2x2_x_m8192_n1024_bf16_1_alg».proof.Proof.Ghost
import Idealize.ShloMosaic.Rules.PointsTo

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ)

/-! ## What is owed, peeled -/

theorem remX_peel (c : Dev nD) (k : Fin 32) : remX c (31 - k.val + 1) = remX c (31 - k.val) + tX c k := by
  show remX c (31 - k.val) + tX c ⟨(31 - (31 - k.val)) % 32, _⟩ = _
  congr 2; exact Fin.ext (by have := k.isLt; simp only; omega)
theorem remY_peel (c : Dev nD) (k : Fin 32) : remY c (31 - k.val + 1) = remY c (31 - k.val) + tY c k := by
  show remY c (31 - k.val) + tY c ⟨(31 - (31 - k.val)) % 32, _⟩ = _
  congr 2; exact Fin.ext (by have := k.isLt; simp only; omega)

/-! ## The rows a device forwards into are the rows its row mate waits on -/

set_option maxRecDepth 100000 in
theorem off3_eq_off12 (c : Dev nD) (k : Fin 32) :
    k0_off3 c (BitVec.ofNat 32 (128 * k.val)) = k0_off12 (yp c) (BitVec.ofNat 32 (128 * k.val)) := by
  rw [k0_off3_eq c k, k0_off12_eq (yp c) k]
  have hc : c.val < 4 := c.isLt
  have hk : k.val < 32 := k.isLt
  refine congrArg (fun a : ℕ => (![a, 0] : Fin 2 → ℕ)) ?_
  show (4096 * (c.val % 2) + 128 * k.val + 8192) - 8192 * (c.val / 2)
    = (128 * k.val + 12288) - (8192 * (((2 * (c.val / 2) + 1) - c.val % 2) / 2) + 4096 * (((2 * (c.val / 2) + 1) - c.val % 2) % 2))
  omega
theorem oSlice_congr {off off' : Fin 2 → ℕ} (h : off = off')
    (i1 : ∀ a, off a + S128x1024.size a ≤ S16384x1024.size a) (i2 : ∀ a, off' a + S128x1024.size a ≤ S16384x1024.size a) :
    oM.slice (Rect.unit (s := S16384x1024) off S128x1024.size i1) (fun _ => rfl)
      = oM.slice (Rect.unit (s := S16384x1024) off' S128x1024.size i2) (fun _ => rfl) := by
  subst h; rfl
theorem oX_eq_oY (c : Dev nD) (k : Fin 32) : oX c k = oY (yp c) k :=
  oSlice_congr (off3_eq_off12 c k) _ _

/-! ## The rest of a round no duty of which has been taken -/

theorem rest_bar (c : Dev nD) :
    bigSep ((sched (F := F) m).duties (barCell c) 0 \ ∅) (fun d => (sched (F := F) m).payload (barCell c) 0 d)
      = iprop(barPayX (F := F) c ∗ barPayY (F := F) c) := by
  rw [Finset.sdiff_empty, duties_bar, bigSep_univ_eq_bigSepL [false, true] (by decide) (by decide), bigSepL_cons_cons, bigSepL_singleton,
    payload_bar_x, payload_bar_y]
  rfl
theorem rest_dma (c : Dev nD) (i : ℕ) (h : i < 195) (hi : 67 ≤ i) :
    bigSep ((sched (F := F) m).duties (dcell c i h) 0 \ ∅) (fun d => (sched (F := F) m).payload (dcell c i h) 0 d)
      = (sched (F := F) m).payload (dcell c i h) 0 false := by
  rw [Finset.sdiff_empty, duties_dma m c i h hi, bigSep_singleton]

/-! ## The entry handshake -/

/-- The first signal: to the column mate's barrier cell, handing over this device's receive buffer. -/
theorem sigX (c n : Dev nD) (hn : n = xp c) {α : Type} {Q : α → sProp 𝕄} {k : PUnit → Prog (TpuEff nD τ sig (Elt F) Λ₀ .tc) α}
    (κ : ℕ) (W : Waits sig Unit) :
    iprop(cellInv ER (sched m) κ (barCell (xp c)) ∗ owes (c : Thread nD τ) (O₀ c) W ∗ dutyTok ER (barCell (xp c)) 0 false
        ∗ barPayX (F := F) (xp c) ∗ reached ER (barCell (xp c)) 0)
      ⊢ iprop((owes (c : Thread nD τ) (O₁ c) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS 1) k) Q) := by
  subst hn
  iintro ⟨#HI, HO, Ht, Hp, #Hr⟩
  iapply (Rounds.wp_signal 𝒱₀ ER (sched m) (c : Thread nD τ) none (dst := (xp c : Thread nD τ)) (κ := κ) (d := false)
      (by rw [duties_bar]; exact Finset.mem_univ _) (amount_bar m (xp c) false) () (O₁ c) rfl) $$ [HO Ht Hp]
  · isplitr; · iexact HI
    isplitl [HO]; · iexact HO
    isplitl [Ht]; · iexact Ht
    isplitl [Hp]; · rw [payload_bar_x]; iexact Hp
    iexact Hr

/-- The second: to the row mate's, handing over the rows of this device's result that the mate forwards into. -/
theorem sigY (c n : Dev nD) (hn : n = yp c) {α : Type} {Q : α → sProp 𝕄} {k : PUnit → Prog (TpuEff nD τ sig (Elt F) Λ₀ .tc) α}
    (κ : ℕ) (W : Waits sig Unit) :
    iprop(cellInv ER (sched m) κ (barCell (yp c)) ∗ owes (c : Thread nD τ) (O₁ c) W ∗ dutyTok ER (barCell (yp c)) 0 true
        ∗ barPayY (F := F) (yp c) ∗ reached ER (barCell (yp c)) 0)
      ⊢ iprop((owes (c : Thread nD τ) (remX c 32) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS 1) k) Q) := by
  subst hn
  iintro ⟨#HI, HO, Ht, Hp, #Hr⟩
  iapply (Rounds.wp_signal 𝒱₀ ER (sched m) (c : Thread nD τ) none (dst := (yp c : Thread nD τ)) (κ := κ) (d := true)
      (by rw [duties_bar]; exact Finset.mem_univ _) (amount_bar m (yp c) true) () (remX c 32) rfl) $$ [HO Ht Hp]
  · isplitr; · iexact HI
    isplitl [HO]; · iexact HO
    isplitl [Ht]; · iexact Ht
    isplitl [Hp]; · rw [payload_bar_y]; iexact Hp
    iexact Hr

/-- The wait for both mates' signals: with it come the column mate's receive buffer and the row mate's rows. -/
theorem waitBar (c : Dev nD) {α : Type} {Q : α → sProp 𝕄} {k : PUnit → Prog (TpuEff nD τ sig (Elt F) Λ₀ .tc) α}
    (κ : ℕ) (W : Waits sig Unit) :
    iprop(cellInv ER (sched m) κ (barCell c) ∗ cred (tallyAt (barCell c) () 2) ∗ owes (c : Thread nD τ) (remX c 32) W
        ∗ levAts L lv ∗ atPos ER (barCell c) 0 ∅ 0)
      ⊢ iprop(((owes (c : Thread nD τ) (remX c 32) (insert (SemLoc.reg barS, ()) W) ∗ atPos ER (barCell c) 1 ∅ 0
              ∗ barPayX (F := F) c ∗ barPayY (F := F) c)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 2) k) Q) := by
  iintro ⟨#HI, Hc, HO, #Hlev, Hat⟩ Hk
  iapply (Rounds.wp_wait_rest_token 𝒱₀ ER (sched m) (c : Thread nD τ) none (κ := κ)
      (wpE_semWait_eq 𝒱₀ (c : Thread nD τ) none Set.univ) (Set.mem_univ _) () (O := remX c 32) (W := W) (R := 0) (m := 0) (T := ∅)
      (by rw [expect_bar])) $$ [Hc HO Hat]
  · isplitr; · iexact HI
    isplitl [Hc]; · iexact Hc
    isplitl [HO]; · iexact HO
    isplitr; · iapply (mw_bar c); iexact Hlev
    iexact Hat
  iintro ⟨HO, Hat, -, Hpay⟩
  ihave Hp := (Entails.of_eq (rest_bar m c)) $$ Hpay
  icases Hp with ⟨HpX, HpY⟩
  iapply Hk
  isplitl [HO]; · iexact HO
  isplitl [Hat]; · iexact Hat
  isplitl [HpX]; · iexact HpX
  iexact HpY

/-! ## A wait on a transfer cell -/

/-- A wait for the one chunk's credit of transfer cell number i (67 or more) of the device, at what it owes. -/
theorem waitCell (c : Dev nD) (i : ℕ) (h : i < 195) (hi : 67 ≤ i) {α : Type} {Q : α → sProp 𝕄}
    {k : PUnit → Prog (TpuEff nD τ sig (Elt F) Λ₀ .tc) α} {w : TpuEff nD τ sig (Elt F) Λ₀ .tc PUnit}
    (hw : ∀ Kp : PUnit → sProp 𝕄, wpE (defs₀ (F := F)) 𝒱₀ (c : Thread nD τ) none Set.univ w Kp
        = waitSpec (c : Thread nD τ) Set.univ (.dma (⟨i, h⟩ : DmaSem sig)) NC Kp)
    (κ : ℕ) (O : CellTallies nD τ sig Unit) (W : Waits sig Unit) :
    iprop(cellInv ER (sched m) κ (dcell c i h) ∗ cred (tallyAt (dcell c i h) () NC) ∗ owes (c : Thread nD τ) O W
        ∗ MayWait (c : Thread nD τ) (.dma (⟨i, h⟩ : DmaSem sig)) () O ∗ atPos ER (dcell c i h) 0 ∅ 0)
      ⊢ iprop(((owes (c : Thread nD τ) O (insert (SemLoc.dma (⟨i, h⟩ : DmaSem sig), ()) W) ∗ atPos ER (dcell c i h) 1 ∅ 0
              ∗ (sched m).payload (dcell c i h) 0 false)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  iintro ⟨#HI, Hc, HO, HM, Hat⟩ Hk
  iapply (Rounds.wp_wait_rest_token 𝒱₀ ER (sched m) (c : Thread nD τ) none (κ := κ) hw (Set.mem_univ _) () (O := O) (W := W) (R := 0) (m := 0) (T := ∅)
      (by rw [Nat.zero_add]; exact (expect_dma m c i h hi).symm)) $$ [Hc HO HM Hat]
  · isplitr; · iexact HI
    isplitl [Hc]; · iexact Hc
    isplitl [HO]; · iexact HO
    isplitl [HM]; · iexact HM
    iexact Hat
  iintro ⟨HO, Hat, -, Hpay⟩
  ihave Hp := (Entails.of_eq (rest_dma m c i h hi)) $$ Hpay
  iapply Hk
  isplitl [HO]; · iexact HO
  isplitl [Hat]; · iexact Hat
  iexact Hp

/-! ## The sends -/

/-- Chunk k to the column mate: the staged piece is lent until the departure is waited for; the mate's piece of
    receive buffer is written and handed to the mate with the arrival; one chunk's credit comes off what is owed. -/
theorem sendX (c n : Dev nD) (hn : n = xp c) (k : Fin 32)
    {hsc : ((sl3 rbM k : Memref sig .tc .vmem S128x1024 .bf16)).view.ref.isScScratch = false}
    {hsrc : (sl3 sbM k).view.WordExact} {hdst : (sl3 rbM k).view.WordExact}
    {hsem : DmaTarget.Typed .vmem (.dma (⟨99 + k.val, (show 99 + k.val < 195 by omega)⟩ : DmaSem sig))
      (.remote (Dev.tc n : Thread nD τ) (sl3 rbM k) (.dma (⟨67 + k.val, (show 67 + k.val < 195 by omega)⟩ : DmaSem sig)) hsc)}
    {α : Type} {Q : α → sProp 𝕄} {kk : PUnit → Prog (TpuEff nD τ sig (Elt F) Λ₀ .tc) α}
    (κ₁ κ₂ : ℕ) (W : Waits sig Unit)
    (fs : Buf (Elt F) ((sl3 sbM k).view.loc (c : Thread nD τ))) (fd : Buf (Elt F) ((sl3 rbM k).view.loc (xp c : Thread nD τ)))
    (hval : ∀ i ∈ (sl3 rbM k).view.set,
      (sl3 rbM k).view.write (Elt F) fd ((sl3 sbM k).view.read (Elt F) fs) Finset.univ i = recvC m (xp c) i) :
    iprop(cellInv ER (sched m) κ₁ (sXc c k) ∗ cellInv ER (sched m) κ₂ (rXc (xp c) k)
        ∗ ((sl3 sbM k).view.loc (c : Thread nD τ) ↦[(sl3 sbM k).view.set]{fullShare} fs)
        ∗ ((sl3 rbM k).view.loc (xp c : Thread nD τ) ↦[(sl3 rbM k).view.set]{fullShare} fd)
        ∗ owes (c : Thread nD τ) (remX c (31 - k.val + 1)) W
        ∗ dutyTok ER (sXc c k) 0 false ∗ reached ER (sXc c k) 0
        ∗ dutyTok ER (rXc (xp c) k) 0 false ∗ reached ER (rXc (xp c) k) 0)
      ⊢ iprop(((cred (tallyAt (sXc c k) () NC) ∗ owes (c : Thread nD τ) (remX c (31 - k.val)) W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (sl3 sbM k) (.remote (Dev.tc n : Thread nD τ) (sl3 rbM k) (.dma (⟨67 + k.val, (show 67 + k.val < 195 by omega)⟩ : DmaSem sig)) hsc)
                (.dma (⟨99 + k.val, (show 99 + k.val < 195 by omega)⟩ : DmaSem sig)) hsrc hdst hsem) kk) Q) := by
  subst hn
  exact Rounds.wp_send_pointsTo 𝒱₀ ER (sched m) (c : Thread nD τ) none (κ₁ := κ₁) (κ₂ := κ₂)
    (r₁ := 0) (r₂ := 0) (d₁ := false) (d₂ := false) (fs := fs) (fd := fd)
    (by rw [show ((c : Thread nD τ), SemLoc.dma (⟨67 + k.val, (show 67 + k.val < 195 by omega)⟩ : DmaSem sig)) = dcell c (67 + k.val) (by omega) from rfl,
          duties_dma m c _ _ (by omega)]; exact Finset.mem_singleton_self _)
    (by rw [show ((xp c : Thread nD τ), SemLoc.dma (⟨99 + k.val, (show 99 + k.val < 195 by omega)⟩ : DmaSem sig)) = dcell (xp c) (99 + k.val) (by omega) from rfl,
          duties_dma m (xp c) _ _ (by omega)]; exact Finset.mem_singleton_self _)
    () () NC rfl rfl rfl (remX c (31 - k.val)) (remX_peel c k) (W := W)
    (by rw [show ((c : Thread nD τ), SemLoc.dma (⟨67 + k.val, (show 67 + k.val < 195 by omega)⟩ : DmaSem sig)) = sXc c k from rfl, payload_sX]
        unfold sXPay; iintro H; iexists fs; iexact H)
    (by rw [show ((xp c : Thread nD τ), SemLoc.dma (⟨99 + k.val, (show 99 + k.val < 195 by omega)⟩ : DmaSem sig)) = rXc (xp c) k from rfl, payload_rX]
        unfold rXPay; exact Entails.of_eq (pointsTo_congr hval))

/-- A piece of the result addressed by equal offsets is the same piece. -/
theorem outPiece_congr {off off' : Fin 2 → ℕ} (h : off = off')
    (i1 : ∀ a, off a + S128x1024.size a ≤ S16384x1024.size a) (i2 : ∀ a, off' a + S128x1024.size a ≤ S16384x1024.size a)
    (d : Dev nD) (q : PosShare TreeShare) (g : Buf (Elt F) (oM.view.loc (d : Thread nD τ))) :
    (((oM.slice (Rect.unit (s := S16384x1024) off S128x1024.size i1) (fun _ => rfl)).view.loc (d : Thread nD τ)
        ↦[(oM.slice (Rect.unit (s := S16384x1024) off S128x1024.size i1) (fun _ => rfl)).view.set]{q} g : sProp 𝕄))
      = ((oM.slice (Rect.unit (s := S16384x1024) off' S128x1024.size i2) (fun _ => rfl)).view.loc (d : Thread nD τ)
        ↦[(oM.slice (Rect.unit (s := S16384x1024) off' S128x1024.size i2) (fun _ => rfl)).view.set]{q} g) := by
  subst h; rfl

/-- The rows device c forwards chunk k into, on its row mate: spelt as c addresses them, and as the mate does. -/
theorem oX_as_oY (c : Dev nD) (k : Fin 32) (q : PosShare TreeShare) (g : Buf (Elt F) (oM.view.loc (yp c : Thread nD τ))) :
    ((oX c k).view.loc (yp c : Thread nD τ) ↦[(oX c k).view.set]{q} g : sProp 𝕄)
      = ((oY (yp c) k).view.loc (yp c : Thread nD τ) ↦[(oY (yp c) k).view.set]{q} g) :=
  outPiece_congr (off3_eq_off12 c k) (k0_off3_inb c k) (k0_off12_inb (yp c) k) (yp c) q g

/-- Chunk k forwarded to the row mate: half of the received piece is lent until the departure is waited for; 128 rows
    of the mate's result are written and handed to the mate with the arrival. -/
theorem sendY (c n : Dev nD) (hn : n = yp c) (k : Fin 32)
    {hsc : (oX c k).view.ref.isScScratch = false}
    {hsrc : (sl3 rbM k).view.WordExact} {hdst : (oX c k).view.WordExact}
    {hsem : DmaTarget.Typed .vmem (.dma (⟨163 + k.val, (show 163 + k.val < 195 by omega)⟩ : DmaSem sig))
      (.remote (Dev.tc n : Thread nD τ) (oX c k) (.dma (⟨131 + k.val, (show 131 + k.val < 195 by omega)⟩ : DmaSem sig)) hsc)}
    {α : Type} {Q : α → sProp 𝕄} {kk : PUnit → Prog (TpuEff nD τ sig (Elt F) Λ₀ .tc) α}
    (κ₁ κ₂ : ℕ) (W : Waits sig Unit)
    (fd : Buf (Elt F) (oM.view.loc (yp c : Thread nD τ)))
    (hval : ∀ i ∈ (oX c k).view.set,
      (oX c k).view.write (Elt F) fd ((sl3 rbM k).view.read (Elt F) (recvC m c)) Finset.univ i = outC m (yp c) i) :
    iprop(cellInv ER (sched m) κ₁ (sYc c k) ∗ cellInv ER (sched m) κ₂ (rYc (yp c) k)
        ∗ ((sl3 rbM k).view.loc (c : Thread nD τ) ↦[(sl3 rbM k).view.set]{fullShare.left} recvC m c)
        ∗ ((oY (yp c) k).view.loc (yp c : Thread nD τ) ↦[(oY (yp c) k).view.set]{fullShare} fd)
        ∗ owes (c : Thread nD τ) (remY c (31 - k.val + 1)) W
        ∗ dutyTok ER (sYc c k) 0 false ∗ reached ER (sYc c k) 0
        ∗ dutyTok ER (rYc (yp c) k) 0 false ∗ reached ER (rYc (yp c) k) 0)
      ⊢ iprop(((cred (tallyAt (sYc c k) () NC) ∗ owes (c : Thread nD τ) (remY c (31 - k.val)) W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (sl3 rbM k) (.remote (Dev.tc n : Thread nD τ) (oX c k) (.dma (⟨131 + k.val, (show 131 + k.val < 195 by omega)⟩ : DmaSem sig)) hsc)
                (.dma (⟨163 + k.val, (show 163 + k.val < 195 by omega)⟩ : DmaSem sig)) hsrc hdst hsem) kk) Q) := by
  subst hn
  rw [← oX_as_oY c k fullShare fd]
  exact Rounds.wp_send_pointsTo 𝒱₀ ER (sched m) (c : Thread nD τ) none (c' := (yp c : Thread nD τ)) (src := sl3 rbM k) (dst := oX c k)
    (sS := .dma (⟨131 + k.val, (show 131 + k.val < 195 by omega)⟩ : DmaSem sig)) (sem := .dma (⟨163 + k.val, (show 163 + k.val < 195 by omega)⟩ : DmaSem sig))
    (q := fullShare.left) (κ₁ := κ₁) (κ₂ := κ₂)
    (r₁ := 0) (r₂ := 0) (d₁ := false) (d₂ := false) (fs := recvC m c) (fd := fd)
    (by rw [show ((c : Thread nD τ), SemLoc.dma (⟨131 + k.val, (show 131 + k.val < 195 by omega)⟩ : DmaSem sig)) = dcell c (131 + k.val) (by omega) from rfl,
          duties_dma m c _ _ (by omega)]; exact Finset.mem_singleton_self _)
    (by rw [show ((yp c : Thread nD τ), SemLoc.dma (⟨163 + k.val, (show 163 + k.val < 195 by omega)⟩ : DmaSem sig)) = dcell (yp c) (163 + k.val) (by omega) from rfl,
          duties_dma m (yp c) _ _ (by omega)]; exact Finset.mem_singleton_self _)
    () () NC rfl rfl rfl (remY c (31 - k.val)) (remY_peel c k) (W := W)
    (by rw [show ((c : Thread nD τ), SemLoc.dma (⟨131 + k.val, (show 131 + k.val < 195 by omega)⟩ : DmaSem sig)) = sYc c k from rfl, payload_sY]
        exact BI.Entails.refl _)
    (by rw [show ((yp c : Thread nD τ), SemLoc.dma (⟨163 + k.val, (show 163 + k.val < 195 by omega)⟩ : DmaSem sig)) = rYc (yp c) k from rfl, payload_rY]
        exact (Entails.of_eq (pointsTo_congr hval)).trans (Entails.of_eq (oX_as_oY c k fullShare (outC m (yp c)))))

end Cert.KernelIdeal.Hand

end
-- ==== Proof.Geometry.lean ====
/-
  How the buffers split into the pieces the transfers move.

  A 32 x 128 x 1024 buffer is the disjoint union of its 32 chunks (leading index k); the 2 x 1024 x 1024 buffer of
  its 2 halves. The 16384 rows of a device's result are the disjoint union of 65 row ranges: on the device at column
  x and row y, the 32 ranges [8192 (1 - x) + 4096 y + 128 k, + 128) written from the column mate's chunks, the 32
  ranges [8192 (1 - x) + 4096 (1 - y) + 128 k, + 128) written from the row mate's forwards, and the device's own
  range [8192 x, + 8192). Each statement is an equation between the assertion that holds the whole buffer and the
  separating conjunction of the assertions that hold the pieces, each piece through its own view.
-/
import proofs.«900022_g7700000000000023_dist_a2a_v7x_xy2x2_x_m8192_n1024_bf16_1_alg».proof.Proof.Mesh
import Idealize.ShloMosaic.Rules.PointsTo
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig Unit (Elt F) ℕ UU ℕ

/-! ## A separating conjunction over 32 indices, written out -/

omit [FloatOps F] in
theorem bigSep_fin32 (Φ : Fin 32 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31) :=
  bigSep_univ_eq_bigSepL [0, 1, 2, 3, 4, 5, 6, 7, 8, 9, 10, 11, 12, 13, 14, 15, 16, 17, 18, 19, 20, 21, 22, 23, 24, 25, 26, 27, 28, 29, 30, 31] (by decide) (by decide) Φ

/-! ## The 32 chunks of a 32 x 128 x 1024 buffer -/

/-- The index rectangle of chunk k: leading index k, everything else. -/
abbrev r3 (k : Fin 32) : Rect S32x128x1024 := Rect.unit (s := S32x128x1024) ![k.val, 0, 0] S1x128x1024.size (inb3 k)

/-- An index lies in chunk k's rectangle exactly when its leading coordinate is k. -/
theorem mem_r3 (k : Fin 32) (y : S32x128x1024.Idx) : y ∈ (r3 k).set ↔ (y 0).val = k.val := by
  rw [Rect.mem_set_unit]
  have h1 : (y 1).val < 128 := (y 1).isLt
  have h2 : (y 2).val < 1024 := (y 2).isLt
  constructor
  · intro H; have a0 : k.val ≤ (y 0).val ∧ (y 0).val < k.val + 1 := H 0; omega
  · intro H a; fin_cases a
    · show k.val ≤ (y 0).val ∧ (y 0).val < k.val + 1; omega
    · show 0 ≤ (y 1).val ∧ (y 1).val < 0 + 128; omega
    · show 0 ≤ (y 2).val ∧ (y 2).val < 0 + 1024; omega

/-- The elements of chunk k: the buffer's elements under the rectangle. -/
theorem sl3_set {e : EltTy} (M : Memref sig .tc .vmem S32x128x1024 e) (k : Fin 32) :
    (sl3 M k).view.set = (r3 k).set.map M.view.emb :=
  (View.set_reshape _ _).trans (View.set_slice _ _)

theorem sl3_subset {e : EltTy} (M : Memref sig .tc .vmem S32x128x1024 e) (k : Fin 32) :
    (sl3 M k).view.set ⊆ M.view.set := by
  rw [sl3_set]; exact Finset.map_subset_map.mpr (Finset.subset_univ _)

theorem sl3_disjoint {e : EltTy} (M : Memref sig .tc .vmem S32x128x1024 e) (k k' : Fin 32) (h : k ≠ k') :
    Disjoint (sl3 M k).view.set (sl3 M k').view.set := by
  rw [sl3_set, sl3_set, Finset.disjoint_map, Finset.disjoint_left]
  intro y hy hy'
  rw [mem_r3] at hy hy'
  exact h (Fin.ext (by omega))

theorem sl3_cover {e : EltTy} (M : Memref sig .tc .vmem S32x128x1024 e) :
    M.view.set = Finset.univ.biUnion fun k : Fin 32 => (sl3 M k).view.set := by
  ext i
  constructor
  · intro hi
    obtain ⟨y, -, rfl⟩ := Finset.mem_map.mp hi
    have hk : (y 0).val < 32 := (y 0).isLt
    refine Finset.mem_biUnion.mpr ⟨⟨(y 0).val, hk⟩, Finset.mem_univ _, ?_⟩
    rw [sl3_set M ⟨(y 0).val, hk⟩]
    exact Finset.mem_map.mpr ⟨y, (mem_r3 _ _).mpr rfl, rfl⟩
  · intro hi
    obtain ⟨k, -, hk⟩ := Finset.mem_biUnion.mp hi
    exact (sl3_subset M k) hk

/-- A buffer's elements S, the disjoint union of finitely many pieces K k: S held is the pieces held. -/
theorem pointsTo_pieces {n : Nat} (ℓ : Loc nD τ sig) (f : Buf (Elt F) ℓ) (S : Finset (Idx ℓ)) (K : Fin n → Finset (Idx ℓ))
    (hS : S = Finset.univ.biUnion K) (hK : ∀ t t', t ≠ t' → Disjoint (K t) (K t')) :
    (ℓ ↦[S]{fullShare} f : sProp 𝕄) = bigSep Finset.univ fun k : Fin n => (ℓ ↦[K k]{fullShare} f) := by
  rw [hS]
  exact pointsTo_biUnion Finset.univ K (fun t _ t' _ h => hK t t' h)

/-- The whole buffer held is its 32 chunks held, each through its own view. -/
theorem split32 {e : EltTy} (M : Memref sig .tc .vmem S32x128x1024 e) (c : Dev nD)
    (f : Buf (Elt F) (M.view.loc (c : Thread nD τ))) :
    (M.view.loc (c : Thread nD τ) ↦[M.view.set]{fullShare} f : sProp 𝕄)
      = bigSep Finset.univ fun k : Fin 32 =>
          ((sl3 M k).view.loc (c : Thread nD τ) ↦[(sl3 M k).view.set]{fullShare} f) :=
  pointsTo_pieces (M.view.loc (c : Thread nD τ)) f M.view.set (fun k : Fin 32 => (sl3 M k).view.set)
    (sl3_cover M) (sl3_disjoint M)

/-! ## The 2 halves of the 2 x 1024 x 1024 buffer -/

theorem inb2 (k : Fin 2) : ∀ a, (![k.val, 0, 0] : Fin 3 → Nat) a + S1x1024x1024.size a ≤ S2x1024x1024.size a := by
  revert k; decide

/-- The index rectangle of half k: leading index k, everything else. -/
abbrev r2 (k : Fin 2) : Rect S2x1024x1024 := Rect.unit (s := S2x1024x1024) ![k.val, 0, 0] S1x1024x1024.size (inb2 k)

/-- Half k of the 2 x 1024 x 1024 buffer, as a 1024 x 1024 piece. -/
abbrev el2 (k : Fin 2) : Memref sig .tc .vmem S1024x1024 .f32 :=
  (elM.slice (Rect.unit (s := S2x1024x1024) ![k.val, 0, 0] S1x1024x1024.size (inb2 k)) (fun _ => rfl)).squeeze S1024x1024 squeezes_S1x1024x1024_S1024x1024

/-- An index lies in half k's rectangle exactly when its leading coordinate is k. -/
theorem mem_r2 (k : Fin 2) (y : S2x1024x1024.Idx) : y ∈ (r2 k).set ↔ (y 0).val = k.val := by
  rw [Rect.mem_set_unit]
  have h1 : (y 1).val < 1024 := (y 1).isLt
  have h2 : (y 2).val < 1024 := (y 2).isLt
  constructor
  · intro H; have a0 : k.val ≤ (y 0).val ∧ (y 0).val < k.val + 1 := H 0; omega
  · intro H a; fin_cases a
    · show k.val ≤ (y 0).val ∧ (y 0).val < k.val + 1; omega
    · show 0 ≤ (y 1).val ∧ (y 1).val < 0 + 1024; omega
    · show 0 ≤ (y 2).val ∧ (y 2).val < 0 + 1024; omega

theorem el2_set (k : Fin 2) : (el2 k).view.set = (r2 k).set.map elM.view.emb :=
  (View.set_reshape _ _).trans (View.set_slice _ _)

theorem el2_subset (k : Fin 2) : (el2 k).view.set ⊆ elM.view.set := by
  rw [el2_set]; exact Finset.map_subset_map.mpr (Finset.subset_univ _)

theorem el2_disjoint (k k' : Fin 2) (h : k ≠ k') : Disjoint (el2 k).view.set (el2 k').view.set := by
  rw [el2_set, el2_set, Finset.disjoint_map, Finset.disjoint_left]
  intro y hy hy'
  rw [mem_r2] at hy hy'
  exact h (Fin.ext (by omega))

theorem el2_cover : elM.view.set = Finset.univ.biUnion fun k : Fin 2 => (el2 k).view.set := by
  ext i
  constructor
  · intro hi
    obtain ⟨y, -, rfl⟩ := Finset.mem_map.mp hi
    have hk : (y 0).val < 2 := (y 0).isLt
    refine Finset.mem_biUnion.mpr ⟨⟨(y 0).val, hk⟩, Finset.mem_univ _, ?_⟩
    rw [el2_set ⟨(y 0).val, hk⟩]
    exact Finset.mem_map.mpr ⟨y, (mem_r2 _ _).mpr rfl, rfl⟩
  · intro hi
    obtain ⟨k, -, hk⟩ := Finset.mem_biUnion.mp hi
    exact (el2_subset k) hk

/-- The 2 x 1024 x 1024 buffer held is its 2 halves held, each through its own view. -/
theorem split2 (c : Dev nD) (f : Buf (Elt F) (elM.view.loc (c : Thread nD τ))) :
    (elM.view.loc (c : Thread nD τ) ↦[elM.view.set]{fullShare} f : sProp 𝕄)
      = bigSep Finset.univ fun k : Fin 2 =>
          ((el2 k).view.loc (c : Thread nD τ) ↦[(el2 k).view.set]{fullShare} f) :=
  pointsTo_pieces (elM.view.loc (c : Thread nD τ)) f elM.view.set (fun k : Fin 2 => (el2 k).view.set)
    el2_cover el2_disjoint

omit [FloatOps F] in
theorem bigSep_fin2 (Φ : Fin 2 → sProp 𝕄) : bigSep Finset.univ Φ = iprop(Φ 0 ∗ Φ 1) :=
  bigSep_univ_eq_bigSepL [0, 1] (by decide) (by decide) Φ

/-! ## The 65 row ranges of the result -/

/-- The rows written from the column mate's chunk k; -/
theorem mem_oX (c : Dev nD) (k : Fin 32) (y : S16384x1024.Idx) :
    y ∈ (oX c k).view.set ↔
      (4096 * (c.val % 2) + 128 * k.val + 8192) - 8192 * (c.val / 2) ≤ (y 0).val
        ∧ (y 0).val < (4096 * (c.val % 2) + 128 * k.val + 8192) - 8192 * (c.val / 2) + 128 := by
  have hs : (oX c k).view.set
      = (Rect.unit (s := S16384x1024) (k0_off3 c (BitVec.ofNat 32 (128 * k.val))) S128x1024.size (k0_off3_inb c k)).set :=
    View.set_slice_whole _ _
  rw [hs, Rect.mem_set_unit, k0_off3_eq]
  have h1 : (y 1).val < 1024 := (y 1).isLt
  constructor
  · intro H; exact H 0
  · intro H a; fin_cases a
    · exact H
    · show 0 ≤ (y 1).val ∧ (y 1).val < 0 + 1024; omega

/-- the rows written from the row mate's forward k; -/
theorem mem_oY (c : Dev nD) (k : Fin 32) (y : S16384x1024.Idx) :
    y ∈ (oY c k).view.set ↔
      (128 * k.val + 12288) - (8192 * (c.val / 2) + 4096 * (c.val % 2)) ≤ (y 0).val
        ∧ (y 0).val < (128 * k.val + 12288) - (8192 * (c.val / 2) + 4096 * (c.val % 2)) + 128 := by
  have hs : (oY c k).view.set
      = (Rect.unit (s := S16384x1024) (k0_off12 c (BitVec.ofNat 32 (128 * k.val))) S128x1024.size (k0_off12_inb c k)).set :=
    View.set_slice_whole _ _
  rw [hs, Rect.mem_set_unit, k0_off12_eq]
  have h1 : (y 1).val < 1024 := (y 1).isLt
  constructor
  · intro H; exact H 0
  · intro H a; fin_cases a
    · exact H
    · show 0 ≤ (y 1).val ∧ (y 1).val < 0 + 1024; omega

/-- the device's own rows. -/
theorem mem_oOwn (c : Dev nD) (y : S16384x1024.Idx) :
    y ∈ (oOwn c).view.set ↔ 8192 * (c.val / 2) ≤ (y 0).val ∧ (y 0).val < 8192 * (c.val / 2) + 8192 := by
  have hs : (oOwn c).view.set
      = (Rect.unit (s := S16384x1024) (k0_off11 c) S8192x1024.size (k0_off11_inb c)).set :=
    View.set_slice_whole _ _
  rw [hs, Rect.mem_set_unit, k0_off11_eq]
  have h1 : (y 1).val < 1024 := (y 1).isLt
  constructor
  · intro H; exact H 0
  · intro H a; fin_cases a
    · exact H
    · show 0 ≤ (y 1).val ∧ (y 1).val < 0 + 1024; omega

theorem oX_disjoint (c : Dev nD) (k k' : Fin 32) (h : k ≠ k') : Disjoint (oX c k).view.set (oX c k').view.set := by
  rw [Finset.disjoint_left]; intro y hy hy'
  rw [mem_oX] at hy hy'
  have hc : c.val < 4 := c.isLt
  exact h (Fin.ext (by omega))

theorem oY_disjoint (c : Dev nD) (k k' : Fin 32) (h : k ≠ k') : Disjoint (oY c k).view.set (oY c k').view.set := by
  rw [Finset.disjoint_left]; intro y hy hy'
  rw [mem_oY] at hy hy'
  have hc : c.val < 4 := c.isLt
  exact h (Fin.ext (by omega))

theorem oX_oY_disjoint (c : Dev nD) (k k' : Fin 32) : Disjoint (oX c k).view.set (oY c k').view.set := by
  rw [Finset.disjoint_left]; intro y hy hy'
  rw [mem_oX] at hy; rw [mem_oY] at hy'
  have hc : c.val < 4 := c.isLt
  have hk : k.val < 32 := k.isLt
  have hk' : k'.val < 32 := k'.isLt
  omega

theorem oX_oOwn_disjoint (c : Dev nD) (k : Fin 32) : Disjoint (oX c k).view.set (oOwn c).view.set := by
  rw [Finset.disjoint_left]; intro y hy hy'
  rw [mem_oX] at hy; rw [mem_oOwn] at hy'
  have hc : c.val < 4 := c.isLt
  have hk : k.val < 32 := k.isLt
  omega

theorem oY_oOwn_disjoint (c : Dev nD) (k : Fin 32) : Disjoint (oY c k).view.set (oOwn c).view.set := by
  rw [Finset.disjoint_left]; intro y hy hy'
  rw [mem_oY] at hy; rw [mem_oOwn] at hy'
  have hc : c.val < 4 := c.isLt
  have hk : k.val < 32 := k.isLt
  omega

/-- The three families of row ranges together are all 16384 rows. -/
theorem out_cover (c : Dev nD) :
    oM.view.set = (Finset.univ.biUnion fun k : Fin 32 => (oX c k).view.set)
      ∪ ((Finset.univ.biUnion fun k : Fin 32 => (oY c k).view.set) ∪ (oOwn c).view.set) := by
  have hu : oM.view.set = Finset.univ := View.set_whole _
  rw [hu]
  ext y
  refine ⟨fun _ => ?_, fun _ => Finset.mem_univ _⟩
  have h0 : (y 0).val < 16384 := (y 0).isLt
  have hc : c.val < 4 := c.isLt
  obtain ⟨k, hk⟩ : ∃ k : Fin 32, k.val = ((y 0).val % 4096) / 128 := ⟨⟨((y 0).val % 4096) / 128, by omega⟩, rfl⟩
  by_cases hown : 8192 * (c.val / 2) ≤ (y 0).val ∧ (y 0).val < 8192 * (c.val / 2) + 8192
  · exact Finset.mem_union_right _ (Finset.mem_union_right _ ((mem_oOwn c y).mpr hown))
  · by_cases hx : ((y 0).val % 8192) / 4096 = c.val % 2
    · refine Finset.mem_union_left _ (Finset.mem_biUnion.mpr ⟨k, Finset.mem_univ _, (mem_oX c k y).mpr ?_⟩)
      omega
    · refine Finset.mem_union_right _ (Finset.mem_union_left _ (Finset.mem_biUnion.mpr ⟨k, Finset.mem_univ _, (mem_oY c k y).mpr ?_⟩))
      omega

/-- The result held is its 65 pieces held, each through its own view. -/
theorem splitOut (c : Dev nD) (f : Buf (Elt F) (oM.view.loc (c : Thread nD τ))) :
    (oM.view.loc (c : Thread nD τ) ↦[oM.view.set]{fullShare} f : sProp 𝕄)
      = iprop((bigSep Finset.univ fun k : Fin 32 => ((oX c k).view.loc (c : Thread nD τ) ↦[(oX c k).view.set]{fullShare} f))
            ∗ (bigSep Finset.univ fun k : Fin 32 => ((oY c k).view.loc (c : Thread nD τ) ↦[(oY c k).view.set]{fullShare} f))
            ∗ ((oOwn c).view.loc (c : Thread nD τ) ↦[(oOwn c).view.set]{fullShare} f)) := by
  let ℓ : Loc nD τ sig := oM.view.loc (c : Thread nD τ)
  let KX : Fin 32 → Finset (Idx ℓ) := fun k => (oX c k).view.set
  let KY : Fin 32 → Finset (Idx ℓ) := fun k => (oY c k).view.set
  let SO : Finset (Idx ℓ) := (oOwn c).view.set
  have hYO : Disjoint (Finset.univ.biUnion KY) SO :=
    (Finset.disjoint_biUnion_left _ _ _).mpr fun k _ => oY_oOwn_disjoint c k
  have hX : Disjoint (Finset.univ.biUnion KX) (Finset.univ.biUnion KY ∪ SO) :=
    Finset.disjoint_union_right.mpr
      ⟨(Finset.disjoint_biUnion_left _ _ _).mpr fun k _ =>
          (Finset.disjoint_biUnion_right _ _ _).mpr fun k' _ => oX_oY_disjoint c k k',
       (Finset.disjoint_biUnion_left _ _ _).mpr fun k _ => oX_oOwn_disjoint c k⟩
  have e0 : (ℓ ↦[oM.view.set]{fullShare} f : sProp 𝕄)
      = (ℓ ↦[Finset.univ.biUnion KX ∪ (Finset.univ.biUnion KY ∪ SO)]{fullShare} f) := by rw [out_cover c]
  have e1 : (ℓ ↦[Finset.univ.biUnion KX ∪ (Finset.univ.biUnion KY ∪ SO)]{fullShare} f : sProp 𝕄)
      = iprop((ℓ ↦[Finset.univ.biUnion KX]{fullShare} f) ∗ (ℓ ↦[Finset.univ.biUnion KY ∪ SO]{fullShare} f)) :=
    BI.equiv_iff.mp ⟨(pointsTo_union hX).1, (pointsTo_union hX).2⟩
  have e2 : (ℓ ↦[Finset.univ.biUnion KY ∪ SO]{fullShare} f : sProp 𝕄)
      = iprop((ℓ ↦[Finset.univ.biUnion KY]{fullShare} f) ∗ (ℓ ↦[SO]{fullShare} f)) :=
    BI.equiv_iff.mp ⟨(pointsTo_union hYO).1, (pointsTo_union hYO).2⟩
  have e3 : (ℓ ↦[Finset.univ.biUnion KX]{fullShare} f : sProp 𝕄) = bigSep Finset.univ fun k : Fin 32 => (ℓ ↦[KX k]{fullShare} f) :=
    pointsTo_biUnion Finset.univ KX fun k _ k' _ h => oX_disjoint c k k' h
  have e4 : (ℓ ↦[Finset.univ.biUnion KY]{fullShare} f : sProp 𝕄) = bigSep Finset.univ fun k : Fin 32 => (ℓ ↦[KY k]{fullShare} f) :=
    pointsTo_biUnion Finset.univ KY fun k _ k' _ h => oY_disjoint c k k' h
  exact e0.trans (e1.trans (by rw [e2, e3, e4]))

/-- info: 'Cert.KernelIdeal.Hand.split32' depends on axioms: [propext, Classical.choice, Quot.sound] -/
#guard_msgs in #print axioms split32

/-- info: 'Cert.KernelIdeal.Hand.split2' depends on axioms: [propext, Classical.choice, Quot.sound] -/
#guard_msgs in #print axioms split2

/-- info: 'Cert.KernelIdeal.Hand.splitOut' depends on axioms: [propext, Classical.choice, Quot.sound] -/
#guard_msgs in #print axioms splitOut

/-- info: 'Cert.KernelIdeal.Hand.bigSep_fin32' depends on axioms: [propext, Classical.choice, Quot.sound] -/
#guard_msgs in #print axioms bigSep_fin32

end Cert.KernelIdeal.Hand

end
-- ==== Proof.CopyVal.lean ====
/-
  What a copy of one chunk lands, as equations at one element.

  An element of chunk k of a 32 x 128 x 1024 buffer is the element (k, a, b) of the buffer for a 128 x 1024 index
  (a, b); an element of a 128-row piece of the result at first row R is the element (R + a, b). A copy writes, at
  the destination's element under (a, b), what the source holds under (a, b). So the chunk a device stages for its
  column mate lands there as the mate's received chunk, and a received chunk written to the result is the result's
  rows there: row 8192 (1 - x) + 4096 y + 128 k + a of the result of the device at column x, row y, and of its row
  mate's, is row 4096 y + 128 k + a of the column mate's block, columns 1024 x onwards.
-/
import proofs.«900022_g7700000000000023_dist_a2a_v7x_xy2x2_x_m8192_n1024_bf16_1_alg».proof.Proof.Geometry
import Idealize.ShloMosaic.Lib.Pipeline.Value
import Idealize.ShloMosaic.Lib.ValueLayout
import proofs.«900022_g7700000000000023_dist_a2a_v7x_xy2x2_x_m8192_n1024_bf16_1_alg».proof.Proof.Gen.KernelIdeal.Skeleton

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ)

/-! ## A chunk copied between two 32 x 128 x 1024 buffers -/

/-- The staging buffer's chunk k and the receive buffer's chunk k sit at the same elements. -/
theorem sl3_rb_sb_set (k : Fin 32) : (sl3 rbM k).view.set = (sl3 sbM k).view.set :=
  (sl3_set rbM k).trans (sl3_set sbM k).symm

omit [FloatOps F] in
/-- Chunk k of the staging buffer copied onto chunk k of the receive buffer: each element of the chunk takes the
    source's element at the same place. -/
theorem sl3_copy_apply (k : Fin 32) (c c' : Dev nD)
    (fd : Buf (Elt F) ((sl3 rbM k).view.loc (c' : Thread nD τ))) (fs : Buf (Elt F) ((sl3 sbM k).view.loc (c : Thread nD τ))) :
    ∀ i ∈ (sl3 rbM k).view.set,
      (sl3 rbM k).view.write (Elt F) fd ((sl3 sbM k).view.read (Elt F) fs) Finset.univ i = fs i := by
  intro i hi
  obtain ⟨y, rfl⟩ := View.exists_emb_of_mem_set _ hi
  rw [View.write_emb_of_mem _ _ (Finset.mem_univ y), View.read_apply]
  rfl

/-- What a device stages for its column mate is what the mate is to receive. -/
theorem recvC_xp (c : Dev nD) (i : S32x128x1024.Idx) : recvC m (xp c) i = sendC m c i := by
  simp only [recvC, sendC, xp_xp, cy_xp, cx_xp]

theorem send_val (c : Dev nD) (k : Fin 32) (fd : Buf (Elt F) ((sl3 rbM k).view.loc (xp c : Thread nD τ)))
    (fs : Buf (Elt F) ((sl3 sbM k).view.loc (c : Thread nD τ)))
    (hfs : ∀ i ∈ (sl3 sbM k).view.set, fs i = sendC m c i) :
    ∀ i ∈ (sl3 rbM k).view.set,
      (sl3 rbM k).view.write (Elt F) fd ((sl3 sbM k).view.read (Elt F) fs) Finset.univ i = recvC m (xp c) i := by
  intro i hi
  rw [sl3_copy_apply k c (xp c) fd fs i hi, hfs i ((sl3_rb_sb_set k) ▸ hi)]
  exact (recvC_xp m c i).symm

/-! ## Coordinates of the elements of a piece -/

omit [FloatOps F] in
/-- A 128 x 1024 index (a, b), read as an index of the 1 x 128 x 1024 shape with the same elements in the same
    order, is (0, a, b). -/
theorem squeeze_idx (h : S128x1024.numel = S1x128x1024.numel) (y : S128x1024.Idx) :
    Shape.reshapeEquiv (s := S1x128x1024) (s' := S128x1024) h y
      = (ix3 (0 : Fin 1) (y 0 : Fin 128) (y 1 : Fin 1024) : S1x128x1024.Idx) :=
  Shape.reshapeEquiv_eq_of_rowMajor h (by
    have e3 := Shape.rowMajor_val_three (d := ![1, 128, 1024]) (ix3 (0 : Fin 1) (y 0 : Fin 128) (y 1 : Fin 1024))
    have e2 := Shape.rowMajor_val_two (d := ![128, 1024]) y
    refine e3.trans (Eq.trans ?_ e2.symm)
    show (0 * 128 + (y 0).val) * 1024 + (y 1).val = (y 0).val * 1024 + (y 1).val
    omega)

omit [FloatOps F] in
/-- The element of chunk k of the receive buffer under (a, b) is (k, a, b). -/
theorem sl3_rb_val (k : Fin 32) (y : S128x1024.Idx) :
    (((sl3 rbM k).view.emb y : S32x128x1024.Idx) 0).val = k.val
      ∧ (((sl3 rbM k).view.emb y : S32x128x1024.Idx) 1).val = (y 0).val
      ∧ (((sl3 rbM k).view.emb y : S32x128x1024.Idx) 2).val = (y 1).val := by
  have e : ((sl3 rbM k).view.emb y : S32x128x1024.Idx)
      = (r3 k).emb (Shape.reshapeEquiv (s := S1x128x1024) (s' := S128x1024) squeezes_S1x128x1024_S128x1024.numel_eq y) := rfl
  rw [e, squeeze_idx]
  refine ⟨?_, ?_, ?_⟩
  · show k.val + 1 * 0 = k.val; omega
  · show 0 + 1 * (y 0).val = (y 0).val; omega
  · show 0 + 1 * (y 1).val = (y 1).val; omega

omit [FloatOps F] in
/-- The element of the result's piece for chunk k under (a, b) is (first row + a, b). -/
theorem oX_val (c : Dev nD) (k : Fin 32) (y : S128x1024.Idx) :
    (((oX c k).view.emb y : S16384x1024.Idx) 0).val
        = (4096 * (c.val % 2) + 128 * k.val + 8192) - 8192 * (c.val / 2) + (y 0).val
      ∧ (((oX c k).view.emb y : S16384x1024.Idx) 1).val = (y 1).val := by
  have e : ∀ a : Fin 2, (((oX c k).view.emb y : S16384x1024.Idx) a).val
      = (k0_off3 c (BitVec.ofNat 32 (128 * k.val))) a + 1 * (y a).val := fun a => rfl
  rw [k0_off3_eq] at e
  refine ⟨(e 0).trans ?_, (e 1).trans ?_⟩
  · show (4096 * (c.val % 2) + 128 * k.val + 8192) - 8192 * (c.val / 2) + 1 * (y 0).val = _; omega
  · show 0 + 1 * (y 1).val = _; omega

/-! ## The contents by coordinates -/

theorem recvC_val (c : Dev nD) (i : S32x128x1024.Idx) (a b d : Nat)
    (h0 : (i 0).val = a) (h1 : (i 1).val = b) (h2 : (i 2).val = d) :
    recvC m c i = tr (xAt m (xp c) (4096 * cy c + 128 * a + b) (1024 * cx c + d)) := by
  subst h0 h1 h2; rfl

theorem outC_val (c : Dev nD) (i : S16384x1024.Idx) (r j : Nat) (h0 : (i 0).val = r) (h1 : (i 1).val = j) :
    outC m c i = tr (xAt m (srcDev c r) r (1024 * cx c + j)) := by
  subst h0 h1; rfl

/-- An element of a block depends on its row only through the row's residue mod 8192, on its column only through
    the column's residue mod 2048. -/
theorem xAt_congr (d : Dev nD) {r r' j j' : Nat} (hr : r % 8192 = r' % 8192) (hj : j % 2048 = j' % 2048) :
    xAt m d r j = xAt m d r' j' := by
  unfold xAt
  congr 2 <;> exact Fin.ext (by assumption)

/-! ## A received chunk written to the result -/

/-- Rows 8192 (1 - x) + 4096 y + 128 k + a of the result of the device at column x, row y come from its column mate. -/
theorem srcDev_oX (c : Dev nD) (k : Fin 32) (a : Nat) (ha : a < 128) :
    srcDev c ((4096 * (c.val % 2) + 128 * k.val + 8192) - 8192 * (c.val / 2) + a) = xp c := by
  have hc : c.val < 4 := c.isLt
  have hk : k.val < 32 := k.isLt
  unfold srcDev
  rw [if_neg (by unfold cx; omega), if_pos (by unfold cy; omega)]

/-- The same rows of the row mate's result come from the same device. -/
theorem srcDev_yp_oX (c : Dev nD) (k : Fin 32) (a : Nat) (ha : a < 128) :
    srcDev (yp c) ((4096 * (c.val % 2) + 128 * k.val + 8192) - 8192 * (c.val / 2) + a) = xp c := by
  have hc : c.val < 4 := c.isLt
  have hk : k.val < 32 := k.isLt
  unfold srcDev
  rw [cx_yp, cy_yp, yp_yp, if_neg (by unfold cx; omega), if_neg (by unfold cy; omega)]

theorem fst_val (c : Dev nD) (k : Fin 32) (fd : Buf (Elt F) ((oX c k).view.loc (c : Thread nD τ))) :
    ∀ i ∈ (oX c k).view.set,
      (oX c k).view.write (Elt F) fd ((sl3 rbM k).view.read (Elt F) (recvC m c)) Finset.univ i = outC m c i := by
  intro i hi
  obtain ⟨y, rfl⟩ := View.exists_emb_of_mem_set _ hi
  rw [View.write_emb_of_mem _ _ (Finset.mem_univ y), View.read_apply]
  obtain ⟨h0, h1, h2⟩ := sl3_rb_val k y
  obtain ⟨g0, g1⟩ := oX_val c k y
  have hy0 : (y 0).val < 128 := (y 0).isLt
  have hc : c.val < 4 := c.isLt
  have hk : k.val < 32 := k.isLt
  rw [outC_val m c _ _ _ g0 g1, srcDev_oX c k _ hy0]
  refine Eq.trans (b := recvC m c ((sl3 rbM k).view.emb y)) rfl ?_
  rw [recvC_val m c _ _ _ _ h0 h1 h2]
  congr 1
  exact xAt_congr m (xp c) (by unfold cy; omega) rfl

theorem fwd_val (c : Dev nD) (k : Fin 32) (fd : Buf (Elt F) ((oX c k).view.loc (yp c : Thread nD τ))) :
    ∀ i ∈ (oX c k).view.set,
      (oX c k).view.write (Elt F) fd ((sl3 rbM k).view.read (Elt F) (recvC m c)) Finset.univ i = outC m (yp c) i := by
  intro i hi
  obtain ⟨y, rfl⟩ := View.exists_emb_of_mem_set _ hi
  rw [View.write_emb_of_mem _ _ (Finset.mem_univ y), View.read_apply]
  obtain ⟨h0, h1, h2⟩ := sl3_rb_val k y
  obtain ⟨g0, g1⟩ := oX_val c k y
  have hy0 : (y 0).val < 128 := (y 0).isLt
  have hc : c.val < 4 := c.isLt
  have hk : k.val < 32 := k.isLt
  rw [outC_val m (yp c) _ _ _ g0 g1, srcDev_yp_oX c k _ hy0, cx_yp]
  refine Eq.trans (b := recvC m c ((sl3 rbM k).view.emb y)) rfl ?_
  rw [recvC_val m c _ _ _ _ h0 h1 h2]
  congr 1
  exact xAt_congr m (xp c) (by unfold cy; omega) rfl

/-! ## A chunk loaded from the device's block -/

/-- The 128 x 1024 piece of the device's block that chunk k is loaded from. -/
abbrev xSl (c : Dev nD) (k : Fin 32) : Memref sig .tc .hbm S128x1024 .f32 :=
  xM.slice (Rect.unit (s := S8192x2048) (k0_off1 c (BitVec.ofNat 32 (128 * k.val))) S128x1024.size (k0_off1_inb c k)) (fun _ => rfl)

omit [FloatOps F] in
/-- The element of that piece under (a, b) is (4096 y + 128 k + a, 1024 (1 - x) + b) on the device at column x, row y. -/
theorem xSl_val (c : Dev nD) (k : Fin 32) (y : S128x1024.Idx) :
    (((xSl c k).view.emb y : S8192x2048.Idx) 0).val = 4096 * (c.val % 2) + 128 * k.val + (y 0).val
      ∧ (((xSl c k).view.emb y : S8192x2048.Idx) 1).val = 1024 - 1024 * (c.val / 2) + (y 1).val := by
  have e : ∀ a : Fin 2, (((xSl c k).view.emb y : S8192x2048.Idx) a).val
      = (k0_off1 c (BitVec.ofNat 32 (128 * k.val))) a + 1 * (y a).val := fun a => rfl
  rw [k0_off1_eq] at e
  refine ⟨(e 0).trans ?_, (e 1).trans ?_⟩
  · show 4096 * (c.val % 2) + 128 * k.val + 1 * (y 0).val = _; omega
  · show 1024 - 1024 * (c.val / 2) + 1 * (y 1).val = _; omega

omit [FloatOps F] in
/-- The element of chunk k of the load buffer under (a, b) is (k, a, b). -/
theorem sl3_sl_val (k : Fin 32) (y : S128x1024.Idx) :
    (((sl3 slM k).view.emb y : S32x128x1024.Idx) 0).val = k.val
      ∧ (((sl3 slM k).view.emb y : S32x128x1024.Idx) 1).val = (y 0).val
      ∧ (((sl3 slM k).view.emb y : S32x128x1024.Idx) 2).val = (y 1).val := by
  have e : ((sl3 slM k).view.emb y : S32x128x1024.Idx)
      = (r3 k).emb (Shape.reshapeEquiv (s := S1x128x1024) (s' := S128x1024) squeezes_S1x128x1024_S128x1024.numel_eq y) := rfl
  rw [e, squeeze_idx]
  refine ⟨?_, ?_, ?_⟩
  · show k.val + 1 * 0 = k.val; omega
  · show 0 + 1 * (y 0).val = (y 0).val; omega
  · show 0 + 1 * (y 1).val = (y 1).val; omega

/-- An element of the device's block, by the coordinates of its index. -/
theorem X_eq_xAt (c : Dev nD) (J : S8192x2048.Idx) (r j : Nat) (h0 : (J 0).val = r) (h1 : (J 1).val = j) :
    X m c J = xAt m c r j := by
  subst h0 h1
  have l0 : (J 0).val < 8192 := (J 0).isLt
  have l1 : (J 1).val < 2048 := (J 1).isLt
  unfold xAt
  congr 1
  funext a
  match a with
  | ⟨0, _⟩ => exact Fin.ext (show (J 0).val = (J 0).val % 8192 by omega)
  | ⟨1, _⟩ => exact Fin.ext (show (J 1).val = (J 1).val % 2048 by omega)

theorem sload_rhs (c : Dev nD) (i : S32x128x1024.Idx) (a b d : Nat)
    (h0 : (i 0).val = a) (h1 : (i 1).val = b) (h2 : (i 2).val = d) :
    xAt m c (4096 * cy c + 128 * (i 0).val + (i 1).val) (1024 * (1 - cx c) + (i 2).val)
      = xAt m c (4096 * cy c + 128 * a + b) (1024 * (1 - cx c) + d) := by
  subst h0 h1 h2; rfl

theorem sload_val (c : Dev nD) (k : Fin 32) (g0 : Buf (Elt F) ((sl3 slM k).view.loc (c : Thread nD τ))) :
    ∀ i ∈ (sl3 slM k).view.set,
      (sl3 slM k).view.write (Elt F) g0 ((xSl c k).view.read (Elt F) (X m c)) Finset.univ i
        = xAt m c (4096 * cy c + 128 * (i 0).val + (i 1).val) (1024 * (1 - cx c) + (i 2).val) := by
  intro i hi
  obtain ⟨y, rfl⟩ := View.exists_emb_of_mem_set _ hi
  rw [View.write_emb_of_mem _ _ (Finset.mem_univ y), View.read_apply]
  obtain ⟨h0, h1, h2⟩ := sl3_sl_val k y
  obtain ⟨e0, e1⟩ := xSl_val c k y
  have hc : c.val < 4 := c.isLt
  refine Eq.trans (b := X m c ((xSl c k).view.emb y)) rfl ?_
  refine Eq.trans (X_eq_xAt m c _ _ _ e0 e1) (Eq.trans ?_ (sload_rhs m c _ _ _ _ h0 h1 h2).symm)
  exact xAt_congr m c (by unfold cy; omega) (by unfold cx; omega)

/-! ## The change of format of one chunk -/

/-- A 1 x 128 x 1024 chunk changed to the narrow format: the leading unit axis dropped, each element changed, the
    unit axis put back. -/
def stageG (v : Vec F S1x128x1024 .f32) : FVec F S1x128x1024 .bf16 :=
  shapeCast S1x128x1024 (truncf .bf16 (shapeCast S128x1024 v shapeCasts_S1x128x1024_S128x1024) bitsLt_bf16_f32)
    shapeCasts_S128x1024_S1x128x1024

/-- Dropping the unit axis and putting it back is the identity, so the chunk is changed element by element. -/
theorem stageG_apply (v : Vec F S1x128x1024 .f32) (i : S1x128x1024.Idx) : stageG v i = tr (v i) := by
  have e : shapeCast S1x128x1024 (shapeCast S128x1024 v shapeCasts_S1x128x1024_S128x1024)
      shapeCasts_S128x1024_S1x128x1024 = v := shapeCast_shapeCast v _ _
  exact congrArg tr (congrFun e i)

/-- The program's payloads of the staging stores are this function (some of them cut in two). -/
theorem k0_pay1_eq : k0_pay1 (F := F) = stageG := rfl
theorem k0_pay2_eq : k0_pay2 (F := F) = stageG := rfl
theorem k0_pay3_eq : k0_pay3 (F := F) = stageG := rfl
theorem k0_pay4_eq : k0_pay4 (F := F) = stageG := rfl
theorem k0_pay5_eq : k0_pay5 (F := F) = stageG := rfl
theorem k0_pay6_eq : k0_pay6 (F := F) = stageG := rfl
theorem k0_pay7_eq : k0_pay7 (F := F) = stageG := rfl
theorem k0_pay8_eq : k0_pay8 (F := F) = stageG := rfl
theorem k0_pay11_eq : k0_pay11 (F := F) = stageG := rfl
theorem k0_pay12_eq : k0_pay12 (F := F) = stageG := rfl
theorem k0_pay13_eq : k0_pay13 (F := F) = stageG := rfl
theorem k0_pay14_eq : k0_pay14 (F := F) = stageG := rfl
theorem k0_pay15_eq : k0_pay15 (F := F) = stageG := rfl
theorem k0_pay16_eq : k0_pay16 (F := F) = stageG := rfl
theorem k0_pay17_eq : k0_pay17 (F := F) = stageG := rfl
theorem k0_pay18_eq : k0_pay18 (F := F) = stageG := rfl
theorem k0_pay21_eq : k0_pay21 (F := F) = stageG := rfl
theorem k0_pay22_eq : k0_pay22 (F := F) = stageG := rfl
theorem k0_pay23_eq : k0_pay23 (F := F) = stageG := rfl
theorem k0_pay24_eq : k0_pay24 (F := F) = stageG := rfl
theorem k0_pay27_eq : k0_pay27 (F := F) = stageG := rfl
theorem k0_pay28_eq : k0_pay28 (F := F) = stageG := rfl
theorem k0_pay29_eq : k0_pay29 (F := F) = stageG := rfl
theorem k0_pay30_eq : k0_pay30 (F := F) = stageG := rfl
theorem k0_pay31_eq : k0_pay31 (F := F) = stageG := rfl
theorem k0_pay32_eq : k0_pay32 (F := F) = stageG := rfl
theorem k0_pay33_eq : k0_pay33 (F := F) = stageG := rfl
theorem k0_pay34_eq : k0_pay34 (F := F) = stageG := rfl
theorem k0_pay10_9_eq (v : Vec F S1x128x1024 .f32) : k0_pay10 (k0_pay9 v) = stageG v := rfl
theorem k0_pay20_19_eq (v : Vec F S1x128x1024 .f32) : k0_pay20 (k0_pay19 v) = stageG v := rfl
theorem k0_pay26_25_eq (v : Vec F S1x128x1024 .f32) : k0_pay26 (k0_pay25 v) = stageG v := rfl
theorem k0_pay36_35_eq (v : Vec F S1x128x1024 .f32) : k0_pay36 (k0_pay35 v) = stageG v := rfl

/-! ## The device's own rows -/

/-- A 1 x 1024 x 1024 half changed to the narrow format, as a 1024 x 1024 array. -/
def stageE (v : Vec F S1x1024x1024 .f32) : FVec F S1024x1024 .bf16 :=
  shapeCast S1024x1024 (truncf .bf16 (shapeCast S1024x1024 v shapeCasts_S1x1024x1024_S1024x1024) bitsLt_bf16_f32)
    shapeCasts_S1024x1024_S1024x1024

/-- Its element (a, b) is the change of format of the half's element (0, a, b). -/
theorem stageE_apply (v : Vec F S1x1024x1024 .f32) (i : S1024x1024.Idx) :
    stageE v i = tr (v (ix3 (0 : Fin 1) (i 0 : Fin 1024) (i 1 : Fin 1024))) := by
  have e1 : stageE v = truncf .bf16 (shapeCast S1024x1024 v shapeCasts_S1x1024x1024_S1024x1024) bitsLt_bf16_f32 :=
    shapeCast_self _ _
  have e2 : shapeCast S1024x1024 v shapeCasts_S1x1024x1024_S1024x1024 (ix2 (i 0 : Fin 1024) (i 1 : Fin 1024))
      = v (ix3 (0 : Fin 1) (i 0 : Fin 1024) (i 1 : Fin 1024)) :=
    ValueIdx.shapeCast_1ab_ab_apply v _ _ _
  rw [e1, ValueIdx.eq_ix2 i]
  exact congrArg tr e2

/-- The program's payloads of the stores of the own rows are this function (two of them cut in two). -/
theorem k0_pay37_eq : k0_pay37 (F := F) = stageE := rfl
theorem k0_pay38_eq : k0_pay38 (F := F) = stageE := rfl
theorem k0_pay39_eq : k0_pay39 (F := F) = stageE := rfl
theorem k0_pay42_eq : k0_pay42 (F := F) = stageE := rfl
theorem k0_pay43_eq : k0_pay43 (F := F) = stageE := rfl
theorem k0_pay44_eq : k0_pay44 (F := F) = stageE := rfl
theorem k0_pay41_40_eq (v : Vec F S1x1024x1024 .f32) : k0_pay41 (k0_pay40 v) = stageE v := rfl
theorem k0_pay46_45_eq (v : Vec F S1x1024x1024 .f32) : k0_pay46 (k0_pay45 v) = stageE v := rfl

omit [FloatOps F] in
/-- The element of the own rows under (a, b) is (8192 x + a, b) on a device at column x. -/
theorem oOwn_val (c : Dev nD) (y : S8192x1024.Idx) :
    (((oOwn c).view.emb y : S16384x1024.Idx) 0).val = 8192 * (c.val / 2) + (y 0).val
      ∧ (((oOwn c).view.emb y : S16384x1024.Idx) 1).val = (y 1).val := by
  have e : ∀ a : Fin 2, (((oOwn c).view.emb y : S16384x1024.Idx) a).val = (k0_off11 c) a + 1 * (y a).val := fun a => rfl
  rw [k0_off11_eq] at e
  refine ⟨(e 0).trans ?_, (e 1).trans ?_⟩
  · show 8192 * (c.val / 2) + 1 * (y 0).val = _; omega
  · show 0 + 1 * (y 1).val = _; omega

/-- The rows 8192 x + a of the result of a device at column x are its own. -/
theorem srcDev_own (c : Dev nD) (a : Nat) (ha : a < 8192) : srcDev c (8192 * (c.val / 2) + a) = c := by
  have hc : c.val < 4 := c.isLt
  unfold srcDev
  rw [if_pos (by unfold cx; omega)]

/-- The narrow copy of the device's own columns, written to its own rows of the result, is the result there. -/
theorem own_val (c : Dev nD) (fd : Buf (Elt F) ((oOwn c).view.loc (c : Thread nD τ)))
    (L : Buf (Elt F) (lvM.view.loc (c : Thread nD τ)))
    (hL : ∀ y : S8192x1024.Idx, L y = tr (xAt m c (y 0).val (1024 * cx c + (y 1).val))) :
    ∀ i ∈ (oOwn c).view.set,
      (oOwn c).view.write (Elt F) fd (lvM.view.read (Elt F) L) Finset.univ i = outC m c i := by
  intro i hi
  obtain ⟨y, rfl⟩ := View.exists_emb_of_mem_set _ hi
  rw [View.write_emb_of_mem _ _ (Finset.mem_univ y), View.read_apply]
  obtain ⟨g0, g1⟩ := oOwn_val c y
  have hy0 : (y 0).val < 8192 := (y 0).isLt
  rw [outC_val m c _ _ _ g0 g1, srcDev_own c _ hy0]
  refine Eq.trans (b := L y) rfl ?_
  rw [hL y]
  congr 1
  exact xAt_congr m c (by omega) rfl

/-- info: 'Cert.KernelIdeal.Hand.sl3_copy_apply' depends on axioms: [propext, Classical.choice, Quot.sound] -/
#guard_msgs in #print axioms sl3_copy_apply

/-- info: 'Cert.KernelIdeal.Hand.send_val' depends on axioms: [propext, Classical.choice, Quot.sound] -/
#guard_msgs in #print axioms send_val

/-- info: 'Cert.KernelIdeal.Hand.fst_val' depends on axioms: [propext, Classical.choice, Quot.sound] -/
#guard_msgs in #print axioms fst_val

/-- info: 'Cert.KernelIdeal.Hand.fwd_val' depends on axioms: [propext, Classical.choice, Quot.sound] -/
#guard_msgs in #print axioms fwd_val

/-- info: 'Cert.KernelIdeal.Hand.sload_val' depends on axioms: [propext, Classical.choice, Quot.sound] -/
#guard_msgs in #print axioms sload_val

/-- info: 'Cert.KernelIdeal.Hand.stageG_apply' depends on axioms: [propext, Classical.choice, Quot.sound] -/
#guard_msgs in #print axioms stageG_apply

/-- info: 'Cert.KernelIdeal.Hand.stageE_apply' depends on axioms: [propext, Classical.choice, Quot.sound] -/
#guard_msgs in #print axioms stageE_apply

/-- info: 'Cert.KernelIdeal.Hand.own_val' depends on axioms: [propext, Classical.choice, Quot.sound] -/
#guard_msgs in #print axioms own_val

end Cert.KernelIdeal.Hand

end
-- ==== Proof.Steps.lean ====
/-
  The steps of the exchange as a device's kernel takes them, each from what every device knows (the cells'
  invariants and that round 0 of each is reached) and what the step consumes.
-/
import proofs.«900022_g7700000000000023_dist_a2a_v7x_xy2x2_x_m8192_n1024_bf16_1_alg».proof.Proof.Rules
import proofs.«900022_g7700000000000023_dist_a2a_v7x_xy2x2_x_m8192_n1024_bf16_1_alg».proof.Proof.Geometry
import proofs.«900022_g7700000000000023_dist_a2a_v7x_xy2x2_x_m8192_n1024_bf16_1_alg».proof.Proof.CopyVal

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ)

/-! ## Reading the records -/

theorem inv_at (K : Dev nD × Fin 129 → ℕ) (ck : Dev nD × Fin 129) :
    records m K ⊢ cellInv ER (sched m) (K ck) (kcell ck) := by
  unfold records; exact sep_elim_left.trans (bigSep_elim (Finset.mem_univ ck))
theorem reached_at (K : Dev nD × Fin 129 → ℕ) (ck : Dev nD × Fin 129) :
    records m K ⊢ reached ER (kcell ck) 0 := by
  unfold records; exact sep_elim_right.trans (bigSep_elim (Finset.mem_univ ck))

/-- Bounds on the semaphore numbers of the transfer cells. -/
theorem lt195 (k : Fin 32) (n : ℕ) (hn : n ≤ 163) : n + k.val < 195 := by have := k.isLt; omega
theorem ge67 (k : Fin 32) (n : ℕ) (hn : 67 ≤ n) : 67 ≤ n + k.val := by omega

/-- Transfer cell number i (67 or more) of a device is its cell number i - 66 of the 129. -/
theorem kcell_dcell (c : Dev nD) (i : ℕ) (h : i < 195) (hi : 67 ≤ i) :
    kcell (c, (⟨i - 66, by omega⟩ : Fin 129)) = dcell c i h := by
  unfold kcell csem
  rw [if_neg (by show ¬ (i - 66 = 0); omega)]
  exact Prod.ext rfl (congrArg SemLoc.dma (Fin.ext (by show 66 + (i - 66) = i; omega)))

theorem inv_dcell (K : Dev nD × Fin 129 → ℕ) (c : Dev nD) (i : ℕ) (h : i < 195) (hi : 67 ≤ i) :
    records m K ⊢ cellInv ER (sched m) (K (c, (⟨i - 66, by omega⟩ : Fin 129))) (dcell c i h) := by
  rw [← kcell_dcell c i h hi]; exact inv_at m K _
theorem reached_dcell (K : Dev nD × Fin 129 → ℕ) (c : Dev nD) (i : ℕ) (h : i < 195) (hi : 67 ≤ i) :
    records m K ⊢ reached ER (dcell c i h) 0 := by
  rw [← kcell_dcell c i h hi]; exact reached_at m K _
theorem inv_bar (K : Dev nD × Fin 129 → ℕ) (c : Dev nD) : records m K ⊢ cellInv ER (sched m) (K (c, jB)) (barCell c) :=
  inv_at m K (c, jB)
theorem reached_bar (K : Dev nD × Fin 129 → ℕ) (c : Dev nD) : records m K ⊢ reached ER (barCell c) 0 :=
  reached_at m K (c, jB)

/-- The receive buffer of device c, piece by piece, is what its column mate d is handed at entry. -/
theorem barPayX_intro (K : Dev nD × Fin 129 → ℕ) (c d : Dev nD) (hd : xp d = c) (fr : Buf (Elt F) (rbM.view.loc (c : Thread nD τ))) :
    iprop(records m K ∗ bigSep Finset.univ fun k : Fin 32 => ((sl3 rbM k).view.loc (c : Thread nD τ) ↦[(sl3 rbM k).view.set]{fullShare} fr))
      ⊢ barPayX (F := F) d := by
  subst hd
  unfold barPayX
  refine bigSep_with_persistent (R := records m K) fun k _ => ?_
  iintro ⟨#HR, Hp⟩
  isplitl [Hp]
  · iexists fr; iexact Hp
  · iapply (reached_dcell m K (xp d) (99 + k.val) (lt195 k 99 (by decide)) (ge67 k 99 (by decide))); iexact HR

/-- The rows of device c's result that its row mate d forwards into are what d is handed at entry. -/
theorem barPayY_intro (K : Dev nD × Fin 129 → ℕ) (c d : Dev nD) (hd : yp d = c) (fo : Buf (Elt F) (oM.view.loc (c : Thread nD τ))) :
    iprop(records m K ∗ bigSep Finset.univ fun k : Fin 32 => ((oY c k).view.loc (c : Thread nD τ) ↦[(oY c k).view.set]{fullShare} fo))
      ⊢ barPayY (F := F) d := by
  subst hd
  unfold barPayY
  refine bigSep_with_persistent (R := records m K) fun k _ => ?_
  iintro ⟨#HR, Hp⟩
  isplitl [Hp]
  · iexists fo; iexact Hp
  · iapply (reached_dcell m K (yp d) (163 + k.val) (lt195 k 163 (by decide)) (ge67 k 163 (by decide))); iexact HR

/-- With no send left, what is owed is the 32 forwards; with no forward left, nothing. -/
theorem owes_remX0 (c : Dev nD) (W : Waits sig Unit) :
    (owes (c : Thread nD τ) (remX c 0) W : sProp 𝕄) ⊢ owes (c : Thread nD τ) (remY c 32) W := Entails.of_eq rfl
theorem owes_remY0 (c : Dev nD) (W : Waits sig Unit) :
    (owes (c : Thread nD τ) (remY c 0) W : sProp 𝕄) ⊢ owes (c : Thread nD τ) 0 W := Entails.of_eq rfl

section Steps
variable (K : Dev nD × Fin 129 → ℕ) (c : Dev nD)

/-- The first entry signal, handing over the device's receive buffer (all 32 pieces, over contents fr). -/
theorem stepSigX {α : Type} {Q : α → sProp 𝕄} {kk : PUnit → Prog (TpuEff nD τ sig (Elt F) Λ₀ .tc) α}
    (n : Dev nD) (hn : n = xp c) (W : Waits sig Unit) (fr : Buf (Elt F) (rbM.view.loc (c : Thread nD τ))) :
    records m K ⊢ iprop(owes (c : Thread nD τ) (O₀ c) W -∗ dutyTok ER (barCell (xp c)) 0 false
      -∗ (bigSep Finset.univ fun k : Fin 32 => ((sl3 rbM k).view.loc (c : Thread nD τ) ↦[(sl3 rbM k).view.set]{fullShare} fr))
      -∗ (owes (c : Thread nD τ) (O₁ c) W -∗ wp frame (wpE (defs₀ (F := F)) 𝒱₀ (c : Thread nD τ) none) Set.univ (kk ⟨⟩) Q)
      -∗ wp frame (wpE (defs₀ (F := F)) 𝒱₀ (c : Thread nD τ) none) Set.univ (.op (.semSignal (n : Thread nD τ) barS 1) kk) Q) := by
  iintro #HR HO Ht Hp
  iapply (sigX m c n hn (K (xp c, jB)) W) $$ [HO Ht Hp]
  isplitr; · iapply (inv_bar m K (xp c)); iexact HR
  isplitl [HO]; · iexact HO
  isplitl [Ht]; · iexact Ht
  isplitl [Hp]
  · iapply (barPayX_intro m K c (xp c) (xp_xp c) fr)
    isplitr; · iexact HR
    iexact Hp
  · iapply (reached_bar m K (xp c)); iexact HR

/-- The second, handing over the rows of the result the row mate forwards into (over contents fo). -/
theorem stepSigY {α : Type} {Q : α → sProp 𝕄} {kk : PUnit → Prog (TpuEff nD τ sig (Elt F) Λ₀ .tc) α}
    (n : Dev nD) (hn : n = yp c) (W : Waits sig Unit) (fo : Buf (Elt F) (oM.view.loc (c : Thread nD τ))) :
    records m K ⊢ iprop(owes (c : Thread nD τ) (O₁ c) W -∗ dutyTok ER (barCell (yp c)) 0 true
      -∗ (bigSep Finset.univ fun k : Fin 32 => ((oY c k).view.loc (c : Thread nD τ) ↦[(oY c k).view.set]{fullShare} fo))
      -∗ (owes (c : Thread nD τ) (remX c 32) W -∗ wp frame (wpE (defs₀ (F := F)) 𝒱₀ (c : Thread nD τ) none) Set.univ (kk ⟨⟩) Q)
      -∗ wp frame (wpE (defs₀ (F := F)) 𝒱₀ (c : Thread nD τ) none) Set.univ (.op (.semSignal (n : Thread nD τ) barS 1) kk) Q) := by
  iintro #HR HO Ht Hp
  iapply (sigY m c n hn (K (yp c, jB)) W) $$ [HO Ht Hp]
  isplitr; · iapply (inv_bar m K (yp c)); iexact HR
  isplitl [HO]; · iexact HO
  isplitl [Ht]; · iexact Ht
  isplitl [Hp]
  · iapply (barPayY_intro m K c (yp c) (yp_yp c) fo)
    isplitr; · iexact HR
    iexact Hp
  · iapply (reached_bar m K (yp c)); iexact HR

/-- The barrier wait. -/
theorem stepWaitBar {α : Type} {Q : α → sProp 𝕄} {kk : PUnit → Prog (TpuEff nD τ sig (Elt F) Λ₀ .tc) α}
    (W : Waits sig Unit) :
    records m K ⊢ iprop(cred (tallyAt (barCell c) () 2) -∗ owes (c : Thread nD τ) (remX c 32) W -∗ levAts L lv -∗ atPos ER (barCell c) 0 ∅ 0
      -∗ ((owes (c : Thread nD τ) (remX c 32) (insert (SemLoc.reg barS, ()) W) ∗ atPos ER (barCell c) 1 ∅ 0
            ∗ barPayX (F := F) c ∗ barPayY (F := F) c) -∗ wp frame (wpE (defs₀ (F := F)) 𝒱₀ (c : Thread nD τ) none) Set.univ (kk ⟨⟩) Q)
      -∗ wp frame (wpE (defs₀ (F := F)) 𝒱₀ (c : Thread nD τ) none) Set.univ (.op (.semWait barS 2) kk) Q) := by
  iintro #HR Hc HO Hlev Hat
  iapply (waitBar m c (K (c, jB)) W) $$ [Hc HO Hlev Hat]
  isplitr; · iapply (inv_bar m K c); iexact HR
  isplitl [Hc]; · iexact Hc
  isplitl [HO]; · iexact HO
  isplitl [Hlev]; · iexact Hlev
  iexact Hat

/-- Chunk k to the column mate, from a staged piece that holds what it is to hold. -/
theorem stepSendX {α : Type} {Q : α → sProp 𝕄} {kk : PUnit → Prog (TpuEff nD τ sig (Elt F) Λ₀ .tc) α}
    (n : Dev nD) (hn : n = xp c) (k : Fin 32) (j j' : ℕ) (hj : j' = j + 1) (hk : j + k.val = 31)
    {hsc : ((sl3 rbM k : Memref sig .tc .vmem S128x1024 .bf16)).view.ref.isScScratch = false}
    {hsrc : (sl3 sbM k).view.WordExact} {hdst : (sl3 rbM k).view.WordExact}
    {hsem : DmaTarget.Typed .vmem (.dma (⟨99 + k.val, (show 99 + k.val < 195 by omega)⟩ : DmaSem sig))
      (.remote (Dev.tc n : Thread nD τ) (sl3 rbM k) (.dma (⟨67 + k.val, (show 67 + k.val < 195 by omega)⟩ : DmaSem sig)) hsc)}
    (W : Waits sig Unit)
    (fs : Buf (Elt F) ((sl3 sbM k).view.loc (c : Thread nD τ))) (fd : Buf (Elt F) ((sl3 rbM k).view.loc (xp c : Thread nD τ)))
    (hfs : ∀ i ∈ (sl3 sbM k).view.set, fs i = sendC m c i) :
    records m K ⊢ iprop(((sl3 sbM k).view.loc (c : Thread nD τ) ↦[(sl3 sbM k).view.set]{fullShare} fs) -∗ ((sl3 rbM k).view.loc (xp c : Thread nD τ) ↦[(sl3 rbM k).view.set]{fullShare} fd)
      -∗ owes (c : Thread nD τ) (remX c j') W -∗ dutyTok ER (sXc c k) 0 false -∗ dutyTok ER (rXc (xp c) k) 0 false
      -∗ ((cred (tallyAt (sXc c k) () NC) ∗ owes (c : Thread nD τ) (remX c j) W) -∗ wp frame (wpE (defs₀ (F := F)) 𝒱₀ (c : Thread nD τ) none) Set.univ (kk ⟨⟩) Q)
      -∗ wp frame (wpE (defs₀ (F := F)) 𝒱₀ (c : Thread nD τ) none) Set.univ
          (.op (.enqueueDma (sl3 sbM k) (.remote (Dev.tc n : Thread nD τ) (sl3 rbM k) (.dma (⟨67 + k.val, (show 67 + k.val < 195 by omega)⟩ : DmaSem sig)) hsc)
            (.dma (⟨99 + k.val, (show 99 + k.val < 195 by omega)⟩ : DmaSem sig)) hsrc hdst hsem) kk) Q) := by
  obtain rfl : j = 31 - k.val := by omega
  subst hj
  iintro #HR Hs Hd HO Ht1 Ht2
  iapply (sendX m c n hn k (hsc := hsc) (hsrc := hsrc) (hdst := hdst) (hsem := hsem)
    (K (c, (⟨67 + k.val - 66, by have := k.isLt; omega⟩ : Fin 129))) (K (xp c, (⟨99 + k.val - 66, by have := k.isLt; omega⟩ : Fin 129))) W fs fd
    (send_val m c k fd fs hfs)) $$ [Hs Hd HO Ht1 Ht2]
  isplitr; · iapply (inv_dcell m K c (67 + k.val) (lt195 k 67 (by decide)) (ge67 k 67 (by decide))); iexact HR
  isplitr; · iapply (inv_dcell m K (xp c) (99 + k.val) (lt195 k 99 (by decide)) (ge67 k 99 (by decide))); iexact HR
  isplitl [Hs]; · iexact Hs
  isplitl [Hd]; · iexact Hd
  isplitl [HO]; · iexact HO
  isplitl [Ht1]; · iexact Ht1
  isplitr; · iapply (reached_dcell m K c (67 + k.val) (lt195 k 67 (by decide)) (ge67 k 67 (by decide))); iexact HR
  isplitl [Ht2]; · iexact Ht2
  iapply (reached_dcell m K (xp c) (99 + k.val) (lt195 k 99 (by decide)) (ge67 k 99 (by decide))); iexact HR

/-- Chunk k forwarded to the row mate, from the left half of the received piece. -/
theorem stepSendY {α : Type} {Q : α → sProp 𝕄} {kk : PUnit → Prog (TpuEff nD τ sig (Elt F) Λ₀ .tc) α}
    (n : Dev nD) (hn : n = yp c) (k : Fin 32) (j j' : ℕ) (hj : j' = j + 1) (hk : j + k.val = 31)
    {hsc : (oX c k).view.ref.isScScratch = false}
    {hsrc : (sl3 rbM k).view.WordExact} {hdst : (oX c k).view.WordExact}
    {hsem : DmaTarget.Typed .vmem (.dma (⟨163 + k.val, (show 163 + k.val < 195 by omega)⟩ : DmaSem sig))
      (.remote (Dev.tc n : Thread nD τ) (oX c k) (.dma (⟨131 + k.val, (show 131 + k.val < 195 by omega)⟩ : DmaSem sig)) hsc)}
    (W : Waits sig Unit) (fd : Buf (Elt F) (oM.view.loc (yp c : Thread nD τ))) :
    records m K ⊢ iprop(((sl3 rbM k).view.loc (c : Thread nD τ) ↦[(sl3 rbM k).view.set]{fullShare.left} recvC m c)
      -∗ ((oY (yp c) k).view.loc (yp c : Thread nD τ) ↦[(oY (yp c) k).view.set]{fullShare} fd)
      -∗ owes (c : Thread nD τ) (remY c j') W -∗ dutyTok ER (sYc c k) 0 false -∗ dutyTok ER (rYc (yp c) k) 0 false
      -∗ ((cred (tallyAt (sYc c k) () NC) ∗ owes (c : Thread nD τ) (remY c j) W) -∗ wp frame (wpE (defs₀ (F := F)) 𝒱₀ (c : Thread nD τ) none) Set.univ (kk ⟨⟩) Q)
      -∗ wp frame (wpE (defs₀ (F := F)) 𝒱₀ (c : Thread nD τ) none) Set.univ
          (.op (.enqueueDma (sl3 rbM k) (.remote (Dev.tc n : Thread nD τ) (oX c k) (.dma (⟨131 + k.val, (show 131 + k.val < 195 by omega)⟩ : DmaSem sig)) hsc)
            (.dma (⟨163 + k.val, (show 163 + k.val < 195 by omega)⟩ : DmaSem sig)) hsrc hdst hsem) kk) Q) := by
  obtain rfl : j = 31 - k.val := by omega
  subst hj
  iintro #HR Hs Hd HO Ht1 Ht2
  iapply (sendY m c n hn k (hsc := hsc) (hsrc := hsrc) (hdst := hdst) (hsem := hsem)
    (K (c, (⟨131 + k.val - 66, by have := k.isLt; omega⟩ : Fin 129))) (K (yp c, (⟨163 + k.val - 66, by have := k.isLt; omega⟩ : Fin 129))) W fd
    (fwd_val m c k fd)) $$ [Hs Hd HO Ht1 Ht2]
  isplitr; · iapply (inv_dcell m K c (131 + k.val) (lt195 k 131 (by decide)) (ge67 k 131 (by decide))); iexact HR
  isplitr; · iapply (inv_dcell m K (yp c) (163 + k.val) (lt195 k 163 (by decide)) (ge67 k 163 (by decide))); iexact HR
  isplitl [Hs]; · iexact Hs
  isplitl [Hd]; · iexact Hd
  isplitl [HO]; · iexact HO
  isplitl [Ht1]; · iexact Ht1
  isplitr; · iapply (reached_dcell m K c (131 + k.val) (lt195 k 131 (by decide)) (ge67 k 131 (by decide))); iexact HR
  isplitl [Ht2]; · iexact Ht2
  iapply (reached_dcell m K (yp c) (163 + k.val) (lt195 k 163 (by decide)) (ge67 k 163 (by decide))); iexact HR

/-- A wait on transfer cell j (of the 129) of the device: the arrival from the column mate while forwards are still owed, -/
theorem stepWaitRX {α : Type} {Q : α → sProp 𝕄} {kk : PUnit → Prog (TpuEff nD τ sig (Elt F) Λ₀ .tc) α}
    (k : Fin 32) (j : ℕ) {w : TpuEff nD τ sig (Elt F) Λ₀ .tc PUnit}
    (hw : ∀ Kp : PUnit → sProp 𝕄, wpE (defs₀ (F := F)) 𝒱₀ (c : Thread nD τ) none Set.univ w Kp
        = waitSpec (c : Thread nD τ) Set.univ (.dma (⟨99 + k.val, (show 99 + k.val < 195 by omega)⟩ : DmaSem sig)) NC Kp)
    (W : Waits sig Unit) :
    records m K ⊢ iprop(cred (tallyAt (rXc c k) () NC) -∗ owes (c : Thread nD τ) (remY c j) W -∗ levAts L lv -∗ atPos ER (rXc c k) 0 ∅ 0
      -∗ ((owes (c : Thread nD τ) (remY c j) (insert (SemLoc.dma (⟨99 + k.val, (show 99 + k.val < 195 by omega)⟩ : DmaSem sig), ()) W)
            ∗ atPos ER (rXc c k) 1 ∅ 0 ∗ (((sl3 rbM k).view.loc (c : Thread nD τ) ↦[(sl3 rbM k).view.set]{fullShare} recvC m c))) -∗ wp frame (wpE (defs₀ (F := F)) 𝒱₀ (c : Thread nD τ) none) Set.univ (kk ⟨⟩) Q)
      -∗ wp frame (wpE (defs₀ (F := F)) 𝒱₀ (c : Thread nD τ) none) Set.univ (.op w kk) Q) := by
  have e : (sched (F := F) m).payload (rXc c k) 0 false
      = ((sl3 rbM k).view.loc (c : Thread nD τ) ↦[(sl3 rbM k).view.set]{fullShare} recvC m c) := payload_rX m c k false
  rw [← e]
  iintro #HR Hc HO Hlev Hat
  iapply (waitCell m c (99 + k.val) (lt195 k 99 (by decide)) (ge67 k 99 (by decide)) hw
    (K (c, (⟨99 + k.val - 66, by have := k.isLt; omega⟩ : Fin 129))) (remY c j) W) $$ [Hc HO Hlev Hat]
  isplitr; · iapply (inv_dcell m K c (99 + k.val) (lt195 k 99 (by decide)) (ge67 k 99 (by decide))); iexact HR
  isplitl [Hc]; · iexact Hc
  isplitl [HO]; · iexact HO
  isplitl [Hlev]; · iapply (mw_rX c k j); iexact Hlev
  iexact Hat

/-- and a wait owing nothing: an arrival from the row mate, or a departure (cell number i from 67 on). -/
theorem stepWait0 {α : Type} {Q : α → sProp 𝕄} {kk : PUnit → Prog (TpuEff nD τ sig (Elt F) Λ₀ .tc) α}
    (i : ℕ) (h : i < 195) (hi : 67 ≤ i) {w : TpuEff nD τ sig (Elt F) Λ₀ .tc PUnit}
    (hw : ∀ Kp : PUnit → sProp 𝕄, wpE (defs₀ (F := F)) 𝒱₀ (c : Thread nD τ) none Set.univ w Kp
        = waitSpec (c : Thread nD τ) Set.univ (.dma (⟨i, h⟩ : DmaSem sig)) NC Kp)
    (W : Waits sig Unit) :
    records m K ⊢ iprop(cred (tallyAt (dcell c i h) () NC) -∗ owes (c : Thread nD τ) 0 W -∗ atPos ER (dcell c i h) 0 ∅ 0
      -∗ ((owes (c : Thread nD τ) 0 (insert (SemLoc.dma (⟨i, h⟩ : DmaSem sig), ()) W)
            ∗ atPos ER (dcell c i h) 1 ∅ 0 ∗ (sched m).payload (dcell c i h) 0 false) -∗ wp frame (wpE (defs₀ (F := F)) 𝒱₀ (c : Thread nD τ) none) Set.univ (kk ⟨⟩) Q)
      -∗ wp frame (wpE (defs₀ (F := F)) 𝒱₀ (c : Thread nD τ) none) Set.univ (.op w kk) Q) := by
  iintro #HR Hc HO Hat
  iapply (waitCell m c i h hi hw (K (c, (⟨i - 66, by omega⟩ : Fin 129))) 0 W) $$ [Hc HO Hat]
  isplitr; · iapply (inv_dcell m K c i h hi); iexact HR
  isplitl [Hc]; · iexact Hc
  isplitl [HO]; · iexact HO
  isplitr; · rw [MayWait_zero]; iempintro
  iexact Hat

/-- The arrival of chunk k from the row mate, owing nothing: 128 rows of the result, holding what the result is to hold. -/
theorem stepWaitRY {α : Type} {Q : α → sProp 𝕄} {kk : PUnit → Prog (TpuEff nD τ sig (Elt F) Λ₀ .tc) α}
    (k : Fin 32) {w : TpuEff nD τ sig (Elt F) Λ₀ .tc PUnit}
    (hw : ∀ Kp : PUnit → sProp 𝕄, wpE (defs₀ (F := F)) 𝒱₀ (c : Thread nD τ) none Set.univ w Kp
        = waitSpec (c : Thread nD τ) Set.univ (.dma (⟨163 + k.val, (show 163 + k.val < 195 by omega)⟩ : DmaSem sig)) NC Kp)
    (W : Waits sig Unit) :
    records m K ⊢ iprop(cred (tallyAt (rYc c k) () NC) -∗ owes (c : Thread nD τ) 0 W -∗ atPos ER (rYc c k) 0 ∅ 0
      -∗ ((owes (c : Thread nD τ) 0 (insert (SemLoc.dma (⟨163 + k.val, (show 163 + k.val < 195 by omega)⟩ : DmaSem sig), ()) W)
            ∗ atPos ER (rYc c k) 1 ∅ 0 ∗ (((oY c k).view.loc (c : Thread nD τ) ↦[(oY c k).view.set]{fullShare} outC m c))) -∗ wp frame (wpE (defs₀ (F := F)) 𝒱₀ (c : Thread nD τ) none) Set.univ (kk ⟨⟩) Q)
      -∗ wp frame (wpE (defs₀ (F := F)) 𝒱₀ (c : Thread nD τ) none) Set.univ (.op w kk) Q) := by
  have e : (sched (F := F) m).payload (rYc c k) 0 false
      = ((oY c k).view.loc (c : Thread nD τ) ↦[(oY c k).view.set]{fullShare} outC m c) := payload_rY m c k false
  rw [← e]
  exact stepWait0 m K c (163 + k.val) (lt195 k 163 (by decide)) (ge67 k 163 (by decide)) hw W

/-- The departure of chunk k to the column mate, owing nothing: the staged piece back, over some contents. -/
theorem stepWaitSX {α : Type} {Q : α → sProp 𝕄} {kk : PUnit → Prog (TpuEff nD τ sig (Elt F) Λ₀ .tc) α}
    (k : Fin 32) {w : TpuEff nD τ sig (Elt F) Λ₀ .tc PUnit}
    (hw : ∀ Kp : PUnit → sProp 𝕄, wpE (defs₀ (F := F)) 𝒱₀ (c : Thread nD τ) none Set.univ w Kp
        = waitSpec (c : Thread nD τ) Set.univ (.dma (⟨67 + k.val, (show 67 + k.val < 195 by omega)⟩ : DmaSem sig)) NC Kp)
    (W : Waits sig Unit) :
    records m K ⊢ iprop(cred (tallyAt (sXc c k) () NC) -∗ owes (c : Thread nD τ) 0 W -∗ atPos ER (sXc c k) 0 ∅ 0
      -∗ ((owes (c : Thread nD τ) 0 (insert (SemLoc.dma (⟨67 + k.val, (show 67 + k.val < 195 by omega)⟩ : DmaSem sig), ()) W)
            ∗ atPos ER (sXc c k) 1 ∅ 0 ∗ (∃ f, ((sl3 sbM k).view.loc (c : Thread nD τ) ↦[(sl3 sbM k).view.set]{fullShare} f))) -∗ wp frame (wpE (defs₀ (F := F)) 𝒱₀ (c : Thread nD τ) none) Set.univ (kk ⟨⟩) Q)
      -∗ wp frame (wpE (defs₀ (F := F)) 𝒱₀ (c : Thread nD τ) none) Set.univ (.op w kk) Q) := by
  have e : (sched (F := F) m).payload (sXc c k) 0 false
      = iprop(∃ f, ((sl3 sbM k).view.loc (c : Thread nD τ) ↦[(sl3 sbM k).view.set]{fullShare} f)) := payload_sX m c k false
  rw [← e]
  exact stepWait0 m K c (67 + k.val) (lt195 k 67 (by decide)) (ge67 k 67 (by decide)) hw W

/-- The departure of chunk k to the row mate, owing nothing: the lent half of the received piece back. -/
theorem stepWaitSY {α : Type} {Q : α → sProp 𝕄} {kk : PUnit → Prog (TpuEff nD τ sig (Elt F) Λ₀ .tc) α}
    (k : Fin 32) {w : TpuEff nD τ sig (Elt F) Λ₀ .tc PUnit}
    (hw : ∀ Kp : PUnit → sProp 𝕄, wpE (defs₀ (F := F)) 𝒱₀ (c : Thread nD τ) none Set.univ w Kp
        = waitSpec (c : Thread nD τ) Set.univ (.dma (⟨131 + k.val, (show 131 + k.val < 195 by omega)⟩ : DmaSem sig)) NC Kp)
    (W : Waits sig Unit) :
    records m K ⊢ iprop(cred (tallyAt (sYc c k) () NC) -∗ owes (c : Thread nD τ) 0 W -∗ atPos ER (sYc c k) 0 ∅ 0
      -∗ ((owes (c : Thread nD τ) 0 (insert (SemLoc.dma (⟨131 + k.val, (show 131 + k.val < 195 by omega)⟩ : DmaSem sig), ()) W)
            ∗ atPos ER (sYc c k) 1 ∅ 0 ∗ (((sl3 rbM k).view.loc (c : Thread nD τ) ↦[(sl3 rbM k).view.set]{fullShare.left} recvC m c))) -∗ wp frame (wpE (defs₀ (F := F)) 𝒱₀ (c : Thread nD τ) none) Set.univ (kk ⟨⟩) Q)
      -∗ wp frame (wpE (defs₀ (F := F)) 𝒱₀ (c : Thread nD τ) none) Set.univ (.op w kk) Q) := by
  have e : (sched (F := F) m).payload (sYc c k) 0 false
      = ((sl3 rbM k).view.loc (c : Thread nD τ) ↦[(sl3 rbM k).view.set]{fullShare.left} recvC m c) := payload_sY m c k false
  rw [← e]
  exact stepWait0 m K c (131 + k.val) (lt195 k 131 (by decide)) (ge67 k 131 (by decide)) hw W

/-- A transfer cell whose one round is over closes: its counter is the kernel's again, at zero. -/
theorem stepClose (i : ℕ) (h : i < 195) (hi : 67 ≤ i) :
    records m K ⊢ iprop(atPos ER (dcell c i h) 1 ∅ 0 -∗ |={Set.univ}=> semVal (dcell c i h) 0) := by
  iintro #HR Hat
  iapply (Rounds.cell_close ER (sched m) (κ := K (c, (⟨i - 66, by omega⟩ : Fin 129))) (Set.mem_univ _) (fun h => h) (R := 0 + 1) (duties_later m _))
  isplitr; · iapply (inv_dcell m K c i h hi); iexact HR
  iexact Hat

/-- info: 'Cert.KernelIdeal.Hand.stepSendX' depends on axioms: [propext, Classical.choice, Quot.sound] -/
#guard_msgs in #print axioms stepSendX
/-- info: 'Cert.KernelIdeal.Hand.stepWaitSY' depends on axioms: [propext, Classical.choice, Quot.sound] -/
#guard_msgs in #print axioms stepWaitSY

end Steps

end Cert.KernelIdeal.Hand

end
-- ==== Proof.Chains.lean ====
/-
  A separating conjunction over all of a finite index type, written out as the chain of its terms in order, for
  the index types of 67, 129 and 195 elements.
-/
import proofs.«900022_g7700000000000023_dist_a2a_v7x_xy2x2_x_m8192_n1024_bf16_1_alg».proof.Proof.Geometry

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

omit [FloatOps F] in
theorem bigSep_fin67 (Φ : Fin 67 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36 ∗ Φ 37 ∗ Φ 38 ∗ Φ 39 ∗ Φ 40 ∗ Φ 41 ∗ Φ 42 ∗ Φ 43 ∗ Φ 44 ∗ Φ 45 ∗ Φ 46 ∗ Φ 47 ∗ Φ 48 ∗ Φ 49 ∗ Φ 50 ∗ Φ 51 ∗ Φ 52 ∗ Φ 53 ∗ Φ 54 ∗ Φ 55 ∗ Φ 56 ∗ Φ 57 ∗ Φ 58 ∗ Φ 59 ∗ Φ 60 ∗ Φ 61 ∗ Φ 62 ∗ Φ 63 ∗ Φ 64 ∗ Φ 65 ∗ Φ 66) :=
  bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66] (by decide) (by decide) Φ

omit [FloatOps F] in
theorem bigSep_fin129 (Φ : Fin 129 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36 ∗ Φ 37 ∗ Φ 38 ∗ Φ 39 ∗ Φ 40 ∗ Φ 41 ∗ Φ 42 ∗ Φ 43 ∗ Φ 44 ∗ Φ 45 ∗ Φ 46 ∗ Φ 47 ∗ Φ 48 ∗ Φ 49 ∗ Φ 50 ∗ Φ 51 ∗ Φ 52 ∗ Φ 53 ∗ Φ 54 ∗ Φ 55 ∗ Φ 56 ∗ Φ 57 ∗ Φ 58 ∗ Φ 59 ∗ Φ 60 ∗ Φ 61 ∗ Φ 62 ∗ Φ 63 ∗ Φ 64 ∗ Φ 65 ∗ Φ 66 ∗ Φ 67 ∗ Φ 68 ∗ Φ 69 ∗ Φ 70 ∗ Φ 71 ∗ Φ 72 ∗ Φ 73 ∗ Φ 74 ∗ Φ 75 ∗ Φ 76 ∗ Φ 77 ∗ Φ 78 ∗ Φ 79 ∗ Φ 80 ∗ Φ 81 ∗ Φ 82 ∗ Φ 83 ∗ Φ 84 ∗ Φ 85 ∗ Φ 86 ∗ Φ 87 ∗ Φ 88 ∗ Φ 89 ∗ Φ 90 ∗ Φ 91 ∗ Φ 92 ∗ Φ 93 ∗ Φ 94 ∗ Φ 95 ∗ Φ 96 ∗ Φ 97 ∗ Φ 98 ∗ Φ 99 ∗ Φ 100 ∗ Φ 101 ∗ Φ 102 ∗ Φ 103 ∗ Φ 104 ∗ Φ 105 ∗ Φ 106 ∗ Φ 107 ∗ Φ 108 ∗ Φ 109 ∗ Φ 110 ∗ Φ 111 ∗ Φ 112 ∗ Φ 113 ∗ Φ 114 ∗ Φ 115 ∗ Φ 116 ∗ Φ 117 ∗ Φ 118 ∗ Φ 119 ∗ Φ 120 ∗ Φ 121 ∗ Φ 122 ∗ Φ 123 ∗ Φ 124 ∗ Φ 125 ∗ Φ 126 ∗ Φ 127 ∗ Φ 128) :=
  bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125, 126, 127, 128] (by decide) (by decide) Φ

omit [FloatOps F] in
theorem bigSep_fin195 (Φ : Fin 195 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36 ∗ Φ 37 ∗ Φ 38 ∗ Φ 39 ∗ Φ 40 ∗ Φ 41 ∗ Φ 42 ∗ Φ 43 ∗ Φ 44 ∗ Φ 45 ∗ Φ 46 ∗ Φ 47 ∗ Φ 48 ∗ Φ 49 ∗ Φ 50 ∗ Φ 51 ∗ Φ 52 ∗ Φ 53 ∗ Φ 54 ∗ Φ 55 ∗ Φ 56 ∗ Φ 57 ∗ Φ 58 ∗ Φ 59 ∗ Φ 60 ∗ Φ 61 ∗ Φ 62 ∗ Φ 63 ∗ Φ 64 ∗ Φ 65 ∗ Φ 66 ∗ Φ 67 ∗ Φ 68 ∗ Φ 69 ∗ Φ 70 ∗ Φ 71 ∗ Φ 72 ∗ Φ 73 ∗ Φ 74 ∗ Φ 75 ∗ Φ 76 ∗ Φ 77 ∗ Φ 78 ∗ Φ 79 ∗ Φ 80 ∗ Φ 81 ∗ Φ 82 ∗ Φ 83 ∗ Φ 84 ∗ Φ 85 ∗ Φ 86 ∗ Φ 87 ∗ Φ 88 ∗ Φ 89 ∗ Φ 90 ∗ Φ 91 ∗ Φ 92 ∗ Φ 93 ∗ Φ 94 ∗ Φ 95 ∗ Φ 96 ∗ Φ 97 ∗ Φ 98 ∗ Φ 99 ∗ Φ 100 ∗ Φ 101 ∗ Φ 102 ∗ Φ 103 ∗ Φ 104 ∗ Φ 105 ∗ Φ 106 ∗ Φ 107 ∗ Φ 108 ∗ Φ 109 ∗ Φ 110 ∗ Φ 111 ∗ Φ 112 ∗ Φ 113 ∗ Φ 114 ∗ Φ 115 ∗ Φ 116 ∗ Φ 117 ∗ Φ 118 ∗ Φ 119 ∗ Φ 120 ∗ Φ 121 ∗ Φ 122 ∗ Φ 123 ∗ Φ 124 ∗ Φ 125 ∗ Φ 126 ∗ Φ 127 ∗ Φ 128 ∗ Φ 129 ∗ Φ 130 ∗ Φ 131 ∗ Φ 132 ∗ Φ 133 ∗ Φ 134 ∗ Φ 135 ∗ Φ 136 ∗ Φ 137 ∗ Φ 138 ∗ Φ 139 ∗ Φ 140 ∗ Φ 141 ∗ Φ 142 ∗ Φ 143 ∗ Φ 144 ∗ Φ 145 ∗ Φ 146 ∗ Φ 147 ∗ Φ 148 ∗ Φ 149 ∗ Φ 150 ∗ Φ 151 ∗ Φ 152 ∗ Φ 153 ∗ Φ 154 ∗ Φ 155 ∗ Φ 156 ∗ Φ 157 ∗ Φ 158 ∗ Φ 159 ∗ Φ 160 ∗ Φ 161 ∗ Φ 162 ∗ Φ 163 ∗ Φ 164 ∗ Φ 165 ∗ Φ 166 ∗ Φ 167 ∗ Φ 168 ∗ Φ 169 ∗ Φ 170 ∗ Φ 171 ∗ Φ 172 ∗ Φ 173 ∗ Φ 174 ∗ Φ 175 ∗ Φ 176 ∗ Φ 177 ∗ Φ 178 ∗ Φ 179 ∗ Φ 180 ∗ Φ 181 ∗ Φ 182 ∗ Φ 183 ∗ Φ 184 ∗ Φ 185 ∗ Φ 186 ∗ Φ 187 ∗ Φ 188 ∗ Φ 189 ∗ Φ 190 ∗ Φ 191 ∗ Φ 192 ∗ Φ 193 ∗ Φ 194) :=
  bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125, 126, 127, 128, 129, 130, 131, 132, 133, 134, 135, 136, 137, 138, 139, 140, 141, 142, 143, 144, 145, 146, 147, 148, 149, 150, 151, 152, 153, 154, 155, 156, 157, 158, 159, 160, 161, 162, 163, 164, 165, 166, 167, 168, 169, 170, 171, 172, 173, 174, 175, 176, 177, 178, 179, 180, 181, 182, 183, 184, 185, 186, 187, 188, 189, 190, 191, 192, 193, 194] (by decide) (by decide) Φ

/-- info: 'Cert.KernelIdeal.Hand.bigSep_fin67' depends on axioms: [propext, Classical.choice, Quot.sound] -/
#guard_msgs in #print axioms bigSep_fin67

/-- info: 'Cert.KernelIdeal.Hand.bigSep_fin129' depends on axioms: [propext, Classical.choice, Quot.sound] -/
#guard_msgs in #print axioms bigSep_fin129

/-- info: 'Cert.KernelIdeal.Hand.bigSep_fin195' depends on axioms: [propext, Classical.choice, Quot.sound] -/
#guard_msgs in #print axioms bigSep_fin195

end Cert.KernelIdeal.Hand

end
-- ==== Proof.Joins.lean ====
/-
  Gluing the pieces of a buffer back together when each piece holds contents of its own.

  Two halves of the full share of the same elements at the same contents are the full share. Pieces that are
  pairwise disjoint and cover a buffer, each held at some contents, are the buffer held at some contents: the glued
  contents take each piece's values on that piece. Pieces of the result whose contents agree, each on its own
  elements, with one function g are the result held at g.
-/
import proofs.«900022_g7700000000000023_dist_a2a_v7x_xy2x2_x_m8192_n1024_bf16_1_alg».proof.Proof.Geometry
import proofs.«900022_g7700000000000023_dist_a2a_v7x_xy2x2_x_m8192_n1024_bf16_1_alg».proof.Proof.Ghost
import Idealize.ShloMosaic.Rules.PointsTo
import Idealize.SL.ProofMode.BigOp

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig Unit (Elt F) ℕ UU ℕ

/-! ## The two halves of the full share -/

omit [FloatOps F] in
theorem halves_join {ℓ : Loc nD τ sig} {S : Finset (Idx ℓ)} (f : Buf (Elt F) ℓ) :
    iprop((ℓ ↦[S]{fullShare.left} f) ∗ (ℓ ↦[S]{fullShare.right} f)) ⊢ (ℓ ↦[S]{fullShare} f : sProp 𝕄) :=
  (pointsTo_share (PosShare.mem_left_op_right fullShare)).2

omit [FloatOps F] in
theorem halves_split {ℓ : Loc nD τ sig} {S : Finset (Idx ℓ)} (f : Buf (Elt F) ℓ) :
    (ℓ ↦[S]{fullShare} f : sProp 𝕄) ⊢ iprop((ℓ ↦[S]{fullShare.left} f) ∗ (ℓ ↦[S]{fullShare.right} f)) :=
  (pointsTo_share (PosShare.mem_left_op_right fullShare)).1

omit [FloatOps F] in
/-- The same for the two halves of any share q. -/
theorem share_split {ℓ : Loc nD τ sig} {S : Finset (Idx ℓ)} (q : PosShare TreeShare) (f : Buf (Elt F) ℓ) :
    (ℓ ↦[S]{q} f : sProp 𝕄) ⊢ iprop((ℓ ↦[S]{q.left} f) ∗ (ℓ ↦[S]{q.right} f)) :=
  (pointsTo_share (PosShare.mem_left_op_right q)).1

omit [FloatOps F] in
theorem share_join {ℓ : Loc nD τ sig} {S : Finset (Idx ℓ)} (q : PosShare TreeShare) (f : Buf (Elt F) ℓ) :
    iprop((ℓ ↦[S]{q.left} f) ∗ (ℓ ↦[S]{q.right} f)) ⊢ (ℓ ↦[S]{q} f : sProp 𝕄) :=
  (pointsTo_share (PosShare.mem_left_op_right q)).2

/-! ## Pieces at contents of their own -/

/-- Finitely many pairwise disjoint pieces K k with union S, each held at some contents: S held at some contents. -/
theorem pieces_join_some {n : Nat} (ℓ : Loc nD τ sig) (S : Finset (Idx ℓ)) (K : Fin n → Finset (Idx ℓ))
    (hS : S = Finset.univ.biUnion K) (hK : ∀ t t', t ≠ t' → Disjoint (K t) (K t')) :
    (bigSep Finset.univ fun k : Fin n => iprop(∃ f, ℓ ↦[K k]{fullShare} f) : sProp 𝕄)
      ⊢ iprop(∃ g, ℓ ↦[S]{fullShare} g) := by
  subst hS
  have f₀ : Buf (Elt F) ℓ := fun _ => default
  have hne : ∀ _ : Fin n, Nonempty (Buf (Elt F) ℓ) := fun _ => ⟨f₀⟩
  refine (bigSep_exists_pi (Y := fun _ : Fin n => Buf (Elt F) ℓ) Finset.univ
    (fun (k : Fin n) (f : Buf (Elt F) ℓ) => (ℓ ↦[K k]{fullShare} f : sProp 𝕄))).trans ?_
  iintro ⟨%fs, H⟩
  ihave H' := (pointsTo_biUnion_join Finset.univ K fs f₀ (fun t _ t' _ h => hK t t' h)) $$ H
  icases H' with ⟨%g, -, H'⟩
  iexists g
  iexact H'

/-- The 32 chunks of a 32 x 128 x 1024 buffer, each over some contents, are the buffer over some contents. -/
theorem join32_some {e : EltTy} (M : Memref sig .tc .vmem S32x128x1024 e) (c : Dev nD) :
    (bigSep Finset.univ fun k : Fin 32 =>
        iprop(∃ f, (sl3 M k).view.loc (c : Thread nD τ) ↦[(sl3 M k).view.set]{fullShare} f) : sProp 𝕄)
      ⊢ someBuf M c :=
  pieces_join_some (M.view.loc (c : Thread nD τ)) M.view.set (fun k : Fin 32 => (sl3 M k).view.set)
    (sl3_cover M) (sl3_disjoint M)

/-- The 2 halves of the 2 x 1024 x 1024 buffer, each over some contents, are the buffer over some contents. -/
theorem join2_some (c : Dev nD) :
    (bigSep Finset.univ fun k : Fin 2 =>
        iprop(∃ f, (el2 k).view.loc (c : Thread nD τ) ↦[(el2 k).view.set]{fullShare} f) : sProp 𝕄)
      ⊢ someBuf elM c :=
  pieces_join_some (elM.view.loc (c : Thread nD τ)) elM.view.set (fun k : Fin 2 => (el2 k).view.set)
    el2_cover el2_disjoint

/-! ## The result from its 65 pieces -/

/-- The 65 pieces of the result at the same contents are the result. -/
theorem outJoin (c : Dev nD) (f : Buf (Elt F) (oM.view.loc (c : Thread nD τ))) :
    iprop((bigSep Finset.univ fun k : Fin 32 => ((oX c k).view.loc (c : Thread nD τ) ↦[(oX c k).view.set]{fullShare} f))
          ∗ (bigSep Finset.univ fun k : Fin 32 => ((oY c k).view.loc (c : Thread nD τ) ↦[(oY c k).view.set]{fullShare} f))
          ∗ ((oOwn c).view.loc (c : Thread nD τ) ↦[(oOwn c).view.set]{fullShare} f))
      ⊢ (oM.view.loc (c : Thread nD τ) ↦[oM.view.set]{fullShare} f : sProp 𝕄) :=
  Entails.of_eq (splitOut c f).symm

/-- The 65 pieces of the result, each at contents that agree with g on the piece, are the result at g. -/
theorem outJoin_of (c : Dev nD) (g : Buf (Elt F) (oM.view.loc (c : Thread nD τ)))
    (fX fY : Fin 32 → Buf (Elt F) (oM.view.loc (c : Thread nD τ))) (fO : Buf (Elt F) (oM.view.loc (c : Thread nD τ)))
    (hX : ∀ k, ∀ i ∈ (oX c k).view.set, fX k i = g i) (hY : ∀ k, ∀ i ∈ (oY c k).view.set, fY k i = g i)
    (hO : ∀ i ∈ (oOwn c).view.set, fO i = g i) :
    iprop((bigSep Finset.univ fun k : Fin 32 => ((oX c k).view.loc (c : Thread nD τ) ↦[(oX c k).view.set]{fullShare} fX k))
          ∗ (bigSep Finset.univ fun k : Fin 32 => ((oY c k).view.loc (c : Thread nD τ) ↦[(oY c k).view.set]{fullShare} fY k))
          ∗ ((oOwn c).view.loc (c : Thread nD τ) ↦[(oOwn c).view.set]{fullShare} fO))
      ⊢ (oM.view.loc (c : Thread nD τ) ↦[oM.view.set]{fullShare} g : sProp 𝕄) := by
  have eX : (bigSep Finset.univ fun k : Fin 32 => ((oX c k).view.loc (c : Thread nD τ) ↦[(oX c k).view.set]{fullShare} fX k) : sProp 𝕄)
      = bigSep Finset.univ fun k : Fin 32 => ((oX c k).view.loc (c : Thread nD τ) ↦[(oX c k).view.set]{fullShare} g) :=
    bigSep_congr fun k _ => pointsTo_congr (hX k)
  have eY : (bigSep Finset.univ fun k : Fin 32 => ((oY c k).view.loc (c : Thread nD τ) ↦[(oY c k).view.set]{fullShare} fY k) : sProp 𝕄)
      = bigSep Finset.univ fun k : Fin 32 => ((oY c k).view.loc (c : Thread nD τ) ↦[(oY c k).view.set]{fullShare} g) :=
    bigSep_congr fun k _ => pointsTo_congr (hY k)
  have eO : ((oOwn c).view.loc (c : Thread nD τ) ↦[(oOwn c).view.set]{fullShare} fO : sProp 𝕄)
      = ((oOwn c).view.loc (c : Thread nD τ) ↦[(oOwn c).view.set]{fullShare} g) := pointsTo_congr hO
  rw [eX, eY, eO]
  exact outJoin c g

/-- info: 'Cert.KernelIdeal.Hand.join32_some' depends on axioms: [propext, Classical.choice, Quot.sound] -/
#guard_msgs in #print axioms join32_some

/-- info: 'Cert.KernelIdeal.Hand.join2_some' depends on axioms: [propext, Classical.choice, Quot.sound] -/
#guard_msgs in #print axioms join2_some

/-- info: 'Cert.KernelIdeal.Hand.outJoin_of' depends on axioms: [propext, Classical.choice, Quot.sound] -/
#guard_msgs in #print axioms outJoin_of

/-- info: 'Cert.KernelIdeal.Hand.halves_join' depends on axioms: [propext, Classical.choice, Quot.sound] -/
#guard_msgs in #print axioms halves_join

end Cert.KernelIdeal.Hand

end
-- ==== Proof.RunVal.lean ====
/-
  The values the copies and stores leave, stated over the terms a step-by-step run of the body produces.

  A buffer written once through the whole of a view holds the payload under the view; a transfer that moves its
  source as it is moves what the source's view reads. So chunk k of the staging buffer, after chunk k of the load
  buffer has received rows 4096 y + 128 k .. of the device's block (columns 1024 (1 - x) ..), been read back, changed
  to the narrow format and stored, holds what the device stages for its column mate; and a piece of the result
  written from the received chunk holds the result's rows there.
-/
import proofs.«900022_g7700000000000023_dist_a2a_v7x_xy2x2_x_m8192_n1024_bf16_1_alg».proof.Proof.CopyVal
import Idealize.ShloMosaic.Lib.Writes
import Idealize.ShloMosaic.Lib.Exec.Geometry

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ)

/-! ## One write through the whole of a view -/

omit [FloatOps F] in
/-- A transfer that moves its source as it is moves what is read. -/
theorem readAs_same_apply {s : Shape} {e : EltTy} (x : s.Idx → Elt F e) :
    (ReadAs.same : ReadAs (Elt F) s e s e).apply x = x := rfl

omit [FloatOps F] in
/-- One write of p through the whole rectangle of a view is p written through the view. -/
theorem writes_whole {κ : Kind} {sp : Space} {s : Shape} {e : EltTy} (v : View sig κ sp s e)
    (f : v.ty.Contents (Elt F)) (p : s.Idx → Elt F e) :
    v.writes (Elt F) f [⟨Rect.whole s, p⟩] = v.write (Elt F) f p Finset.univ := by
  funext i
  show (v.slice (Rect.whole s)).write (Elt F) f p Finset.univ i = v.write (Elt F) f p Finset.univ i
  have hset : (v.slice (Rect.whole s)).set = v.set := by rw [View.set_slice, Rect.set_whole]; rfl
  by_cases hi : i ∈ v.set
  · obtain ⟨y, rfl⟩ := View.exists_emb_of_mem_set v hi
    have e1 : (v.slice (Rect.whole s)).emb y = v.emb y := by
      show v.emb ((Rect.whole s).emb y) = v.emb y
      rw [Rect.emb_whole_apply]
    rw [View.write_emb_of_mem _ _ (Finset.mem_univ y), ← e1, View.write_emb_of_mem _ _ (Finset.mem_univ y)]
  · rw [View.write_of_not_mem _ _ _ (by rw [View.setOn_univ, hset]; exact hi),
      View.write_of_not_mem _ _ _ (by rw [View.setOn_univ]; exact hi)]

omit [FloatOps F] in
/-- On the view's own elements: the element under y holds p y. -/
theorem writes_whole_emb {κ : Kind} {sp : Space} {s : Shape} {e : EltTy} (v : View sig κ sp s e)
    (f : v.ty.Contents (Elt F)) (p : s.Idx → Elt F e) (y : s.Idx) :
    v.read (Elt F) (v.writes (Elt F) f [⟨Rect.whole s, p⟩]) y = p y :=
  congrFun (View.read_writes_whole v f p) y

/-! ## The staged chunk -/

theorem sendC_val (c : Dev nD) (i : S32x128x1024.Idx) (a b d : Nat)
    (h0 : (i 0).val = a) (h1 : (i 1).val = b) (h2 : (i 2).val = d) :
    sendC m c i = tr (xAt m c (4096 * cy c + 128 * a + b) (1024 * (1 - cx c) + d)) := by
  subst h0 h1 h2; rfl

omit [FloatOps F] in
/-- A 1 x 128 x 1024 index (0, a, b) is the 128 x 1024 index (a, b) with the unit axis put back. -/
theorem squeeze_idx_symm (h : S128x1024.numel = S1x128x1024.numel) (j : S1x128x1024.Idx) :
    Shape.reshapeEquiv (s := S1x128x1024) (s' := S128x1024) h (ix2 (j 1 : Fin 128) (j 2 : Fin 1024)) = j := by
  rw [squeeze_idx]
  have h0 : (j 0).val < 1 := (j 0).isLt
  funext a
  match a with
  | ⟨0, _⟩ => exact Fin.ext (show 0 = (j 0).val by omega)
  | ⟨1, _⟩ => rfl
  | ⟨2, _⟩ => rfl

/-- Chunk k of the load buffer, written once with rows 4096 y + 128 k .. of the device's block, read back through
    the whole buffer's rectangle k: element (0, a, b) is the block's element (4096 y + 128 k + a, 1024 (1 - x) + b). -/
theorem loaded_val (c : Dev nD) (k : Fin 32) (j : S1x128x1024.Idx) :
    View.readAt (Elt F) slM.view (Rect.unit (s := S32x128x1024) ![k.val, 0, 0] S1x128x1024.size (inb3 k)).toLoadRect
        ((sl3 slM k).view.writes (Elt F) (sl3 slM k).view.junk
          [⟨Rect.whole S128x1024, ReadAs.same.apply (View.read (Elt F) (xSl c k).view (X m c))⟩]) j
      = xAt m c (4096 * cy c + 128 * k.val + (j 1).val) (1024 * (1 - cx c) + (j 2).val) := by
  have hy := squeeze_idx_symm squeezes_S1x128x1024_S128x1024.numel_eq j
  have h1 : ∀ G : (sl3 slM k).view.ty.Contents (Elt F),
      View.readAt (Elt F) slM.view (Rect.unit (s := S32x128x1024) ![k.val, 0, 0] S1x128x1024.size (inb3 k)).toLoadRect G j
        = (sl3 slM k).view.read (Elt F) G (ix2 (j 1 : Fin 128) (j 2 : Fin 1024)) := by
    intro G
    show (slM.view.slice (r3 k)).read (Elt F) G j
      = (slM.view.slice (r3 k)).read (Elt F) G (Shape.reshapeEquiv squeezes_S1x128x1024_S128x1024.numel_eq (ix2 (j 1 : Fin 128) (j 2 : Fin 1024)))
    rw [hy]
  rw [h1, writes_whole_emb]
  obtain ⟨e0, e1⟩ := xSl_val c k (ix2 (j 1 : Fin 128) (j 2 : Fin 1024))
  have e0' : (((xSl c k).view.emb (ix2 (j 1 : Fin 128) (j 2 : Fin 1024)) : S8192x2048.Idx) 0).val
      = 4096 * (c.val % 2) + 128 * k.val + (j 1).val := e0
  have e1' : (((xSl c k).view.emb (ix2 (j 1 : Fin 128) (j 2 : Fin 1024)) : S8192x2048.Idx) 1).val
      = 1024 - 1024 * (c.val / 2) + (j 2).val := e1
  have hc : c.val < 4 := c.isLt
  refine Eq.trans (b := X m c ((xSl c k).view.emb (ix2 (j 1 : Fin 128) (j 2 : Fin 1024)))) rfl ?_
  refine Eq.trans (X_eq_xAt m c _ _ _ e0' e1') ?_
  exact xAt_congr m c (by unfold cy; omega) (by unfold cx; omega)

omit [FloatOps F] in
/-- The element of rectangle k of a whole 32 x 128 x 1024 buffer under (u, a, b) is (k, a, b). -/
theorem sb_access_val (k : Fin 32) (j : S1x128x1024.Idx) :
    (((sbM.access (Rect.unit (s := S32x128x1024) ![k.val, 0, 0] S1x128x1024.size (inb3 k))).emb j : S32x128x1024.Idx) 0).val = k.val
      ∧ (((sbM.access (Rect.unit (s := S32x128x1024) ![k.val, 0, 0] S1x128x1024.size (inb3 k))).emb j : S32x128x1024.Idx) 1).val = (j 1).val
      ∧ (((sbM.access (Rect.unit (s := S32x128x1024) ![k.val, 0, 0] S1x128x1024.size (inb3 k))).emb j : S32x128x1024.Idx) 2).val = (j 2).val := by
  have h0 : (j 0).val < 1 := (j 0).isLt
  refine ⟨?_, ?_, ?_⟩
  · show k.val + 1 * (j 0).val = k.val; omega
  · show 0 + 1 * (j 1).val = (j 1).val; omega
  · show 0 + 1 * (j 2).val = (j 2).val; omega

/-- Chunk k of the staging buffer after the load, the change of format and the store: what the device stages for
    its column mate. -/
theorem staged_val (c : Dev nD) (k : Fin 32) (h0 : Buf (Elt F) (sbM.view.loc (c : Thread nD τ))) :
    ∀ i ∈ (sl3 sbM k).view.set,
      View.write (Elt F) (sbM.access (Rect.unit (s := S32x128x1024) ![k.val, 0, 0] S1x128x1024.size (inb3 k))) h0
        (stageG (View.readAt (Elt F) slM.view (Rect.unit (s := S32x128x1024) ![k.val, 0, 0] S1x128x1024.size (inb3 k)).toLoadRect
          ((sl3 slM k).view.writes (Elt F) (sl3 slM k).view.junk
            [⟨Rect.whole S128x1024, ReadAs.same.apply (View.read (Elt F) (xSl c k).view (X m c))⟩])))
        Finset.univ i = sendC m c i := by
  intro i hi
  have hs : (sl3 sbM k).view.set
      = (sbM.access (Rect.unit (s := S32x128x1024) ![k.val, 0, 0] S1x128x1024.size (inb3 k))).set := View.set_reshape _ _
  rw [hs] at hi
  obtain ⟨j, rfl⟩ := View.exists_emb_of_mem_set _ hi
  rw [View.write_emb_of_mem _ _ (Finset.mem_univ j)]
  obtain ⟨c0, c1, c2⟩ := sb_access_val k j
  refine Eq.trans ?_ (sendC_val m c _ _ _ _ c0 c1 c2).symm
  refine Eq.trans (b := tr (View.readAt (Elt F) slM.view (Rect.unit (s := S32x128x1024) ![k.val, 0, 0] S1x128x1024.size (inb3 k)).toLoadRect
          ((sl3 slM k).view.writes (Elt F) (sl3 slM k).view.junk
            [⟨Rect.whole S128x1024, ReadAs.same.apply (View.read (Elt F) (xSl c k).view (X m c))⟩]) j)) (stageG_apply _ j) ?_
  rw [loaded_val]

/-! ## A piece of the result written from the received chunk -/

/-- Over any earlier contents f: the piece holds the device's result there; -/
theorem fstored_val (c : Dev nD) (k : Fin 32) (f : Buf (Elt F) ((oX c k).view.loc (c : Thread nD τ))) :
    ∀ i ∈ (oX c k).view.set,
      (oX c k).view.writes (Elt F) f
        [⟨Rect.whole S128x1024, ReadAs.same.apply (View.read (Elt F) (sl3 rbM k).view (recvC m c))⟩] i = outC m c i := by
  intro i hi
  rw [writes_whole]
  exact fst_val m c k f i hi

/-- the same piece of the row mate's result holds the row mate's result there. -/
theorem fwdstored_val (c : Dev nD) (k : Fin 32) (f : Buf (Elt F) ((oX c k).view.loc (yp c : Thread nD τ))) :
    ∀ i ∈ (oX c k).view.set,
      (oX c k).view.writes (Elt F) f
        [⟨Rect.whole S128x1024, ReadAs.same.apply (View.read (Elt F) (sl3 rbM k).view (recvC m c))⟩] i = outC m (yp c) i := by
  intro i hi
  rw [writes_whole]
  exact fwd_val m c k f i hi

/-- Over junk. -/
theorem fstored_val_junk (c : Dev nD) (k : Fin 32) :
    ∀ i ∈ (oX c k).view.set,
      (oX c k).view.writes (Elt F) (oX c k).view.junk
        [⟨Rect.whole S128x1024, ReadAs.same.apply (View.read (Elt F) (sl3 rbM k).view (recvC m c))⟩] i = outC m c i :=
  fstored_val m c k _

/-- info: 'Cert.KernelIdeal.Hand.staged_val' depends on axioms: [propext, Classical.choice, Quot.sound] -/
#guard_msgs in #print axioms staged_val

/-- info: 'Cert.KernelIdeal.Hand.fstored_val' depends on axioms: [propext, Classical.choice, Quot.sound] -/
#guard_msgs in #print axioms fstored_val

/-- info: 'Cert.KernelIdeal.Hand.fwdstored_val' depends on axioms: [propext, Classical.choice, Quot.sound] -/
#guard_msgs in #print axioms fwdstored_val

end Cert.KernelIdeal.Hand

end
-- ==== Proof.OwnVal.lean ====
/-
  The device's own rows.

  For t = 0, ..., 7 the rows 1024 t .. 1024 t + 1023 of the device's block, columns 1024 x .. (x the device's column),
  are copied into half t % 2 of the 2 x 1024 x 1024 buffer, read back, changed to the narrow format and stored at
  rows 1024 t .. of the 8192 x 1024 buffer; that buffer is then copied to the device's own rows of the result. Each
  read of a half sees the copy made last into it, whatever was copied there before. So the 8192 x 1024 buffer ends
  holding, at (r, j), the narrow format of the block's element (r, 1024 x + j), and the own rows of the result are
  the result there.
-/
import proofs.«900022_g7700000000000023_dist_a2a_v7x_xy2x2_x_m8192_n1024_bf16_1_alg».proof.Proof.RunVal

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ)

/-! ## The terms -/

/-- What a copy from the 1024 x 1024 piece of the device's block at offsets off moves. -/
abbrev ownSrc (c : Dev nD) (off : Fin 2 → Nat) (hoff : ∀ a, off a + S1024x1024.size a ≤ S8192x2048.size a) :
    S1024x1024.Idx → Elt F .f32 :=
  ReadAs.same.apply (View.read (Elt F) (xM.slice (Rect.unit (s := S8192x2048) off S1024x1024.size hoff) (fun _ => rfl)).view (X m c))

/-- What is read back from half 0, and from half 1, after the copies T into it (the last copy first). -/
abbrev ownLd0 (T : List (View.Piece (Elt F) S1024x1024 .f32)) : Vec F S1x1024x1024 .f32 :=
  View.readAt (Elt F) elM.view (Rect.unit (s := S2x1024x1024) ![0, 0, 0] S1x1024x1024.size inb_S2x1024x1024_S1x1024x1024_0_0_0).toLoadRect
    ((el2 0).view.writes (Elt F) (el2 0).view.junk T)
abbrev ownLd1 (T : List (View.Piece (Elt F) S1024x1024 .f32)) : Vec F S1x1024x1024 .f32 :=
  View.readAt (Elt F) elM.view (Rect.unit (s := S2x1024x1024) ![1, 0, 0] S1x1024x1024.size inb_S2x1024x1024_S1x1024x1024_1_0_0).toLoadRect
    ((el2 1).view.writes (Elt F) (el2 1).view.junk T)

/-- The eight stores into the 8192 x 1024 buffer, the last first. -/
def ownStores (c : Dev nD) : List (View.Piece (Elt F) S8192x1024 .bf16) :=
  [⟨Rect.unit (s := S8192x1024) ![7168, 0] S1024x1024.size inb_S8192x1024_S1024x1024_7168_0, k0_pay46 (k0_pay45 (ownLd1 (F := F) [⟨Rect.whole S1024x1024, ownSrc m c (k0_off10 c) (k0_off10_inb c)⟩, ⟨Rect.whole S1024x1024, ownSrc m c (k0_off8 c) (k0_off8_inb c)⟩, ⟨Rect.whole S1024x1024, ownSrc m c (k0_off6 c) (k0_off6_inb c)⟩, ⟨Rect.whole S1024x1024, ownSrc m c (k0_off4 c) (k0_off4_inb c)⟩]))⟩,
   ⟨Rect.unit (s := S8192x1024) ![6144, 0] S1024x1024.size inb_S8192x1024_S1024x1024_6144_0, k0_pay44 (ownLd0 (F := F) [⟨Rect.whole S1024x1024, ownSrc m c (k0_off9 c) (k0_off9_inb c)⟩, ⟨Rect.whole S1024x1024, ownSrc m c (k0_off7 c) (k0_off7_inb c)⟩, ⟨Rect.whole S1024x1024, ownSrc m c (k0_off5 c) (k0_off5_inb c)⟩, ⟨Rect.whole S1024x1024, ownSrc m c (k0_off2 c) (k0_off2_inb c)⟩])⟩,
   ⟨Rect.unit (s := S8192x1024) ![5120, 0] S1024x1024.size inb_S8192x1024_S1024x1024_5120_0, k0_pay43 (ownLd1 (F := F) [⟨Rect.whole S1024x1024, ownSrc m c (k0_off8 c) (k0_off8_inb c)⟩, ⟨Rect.whole S1024x1024, ownSrc m c (k0_off6 c) (k0_off6_inb c)⟩, ⟨Rect.whole S1024x1024, ownSrc m c (k0_off4 c) (k0_off4_inb c)⟩])⟩,
   ⟨Rect.unit (s := S8192x1024) ![4096, 0] S1024x1024.size inb_S8192x1024_S1024x1024_4096_0, k0_pay42 (ownLd0 (F := F) [⟨Rect.whole S1024x1024, ownSrc m c (k0_off7 c) (k0_off7_inb c)⟩, ⟨Rect.whole S1024x1024, ownSrc m c (k0_off5 c) (k0_off5_inb c)⟩, ⟨Rect.whole S1024x1024, ownSrc m c (k0_off2 c) (k0_off2_inb c)⟩])⟩,
   ⟨Rect.unit (s := S8192x1024) ![3072, 0] S1024x1024.size inb_S8192x1024_S1024x1024_3072_0, k0_pay41 (k0_pay40 (ownLd1 (F := F) [⟨Rect.whole S1024x1024, ownSrc m c (k0_off6 c) (k0_off6_inb c)⟩, ⟨Rect.whole S1024x1024, ownSrc m c (k0_off4 c) (k0_off4_inb c)⟩]))⟩,
   ⟨Rect.unit (s := S8192x1024) ![2048, 0] S1024x1024.size inb_S8192x1024_S1024x1024_2048_0, k0_pay39 (ownLd0 (F := F) [⟨Rect.whole S1024x1024, ownSrc m c (k0_off5 c) (k0_off5_inb c)⟩, ⟨Rect.whole S1024x1024, ownSrc m c (k0_off2 c) (k0_off2_inb c)⟩])⟩,
   ⟨Rect.unit (s := S8192x1024) ![1024, 0] S1024x1024.size inb_S8192x1024_S1024x1024_1024_0, k0_pay38 (ownLd1 (F := F) [⟨Rect.whole S1024x1024, ownSrc m c (k0_off4 c) (k0_off4_inb c)⟩])⟩,
   ⟨Rect.unit (s := S8192x1024) ![0, 0] S1024x1024.size inb_S8192x1024_S1024x1024_0_0, k0_pay37 (ownLd0 (F := F) [⟨Rect.whole S1024x1024, ownSrc m c (k0_off2 c) (k0_off2_inb c)⟩])⟩]

/-- The 8192 x 1024 buffer after the eight stores, over earlier contents flv. -/
def ownL (c : Dev nD) (flv : Buf (Elt F) (lvM.view.loc (c : Thread nD τ))) : Buf (Elt F) (lvM.view.loc (c : Thread nD τ)) :=
  lvM.view.writes (Elt F) flv (ownStores m c)

/-! ## One step -/

omit [FloatOps F] in
/-- A 1024 x 1024 index (a, b), read as an index of the 1 x 1024 x 1024 shape, is (0, a, b). -/
theorem el_idx (h : S1024x1024.numel = S1x1024x1024.numel) (x : S1024x1024.Idx) :
    Shape.reshapeEquiv (s := S1x1024x1024) (s' := S1024x1024) h x
      = (ix3 (0 : Fin 1) (x 0 : Fin 1024) (x 1 : Fin 1024) : S1x1024x1024.Idx) :=
  Shape.reshapeEquiv_eq_of_rowMajor h (by
    have e3 := Shape.rowMajor_val_three (d := ![1, 1024, 1024]) (ix3 (0 : Fin 1) (x 0 : Fin 1024) (x 1 : Fin 1024))
    have e2 := Shape.rowMajor_val_two (d := ![1024, 1024]) x
    refine e3.trans (Eq.trans ?_ e2.symm)
    show (0 * 1024 + (x 0).val) * 1024 + (x 1).val = (x 0).val * 1024 + (x 1).val
    omega)

/-- Half h read back after a copy of the block's rows row .. row + 1023, columns 1024 x .., made last into it, and
    changed to the narrow format: element (a, b) is the narrow format of the block's element (row + a, 1024 x + b). -/
theorem eload_step (c : Dev nD) (h : Fin 2) (row : Nat) (off : Fin 2 → Nat)
    (hoff : ∀ a, off a + S1024x1024.size a ≤ S8192x2048.size a) (heq : off = ![row, 1024 * (c.val / 2)])
    (hrow : row + 1024 ≤ 8192) (T : List (View.Piece (Elt F) S1024x1024 .f32)) (x : S1024x1024.Idx) :
    stageE (View.readAt (Elt F) elM.view (Rect.unit (s := S2x1024x1024) ![h.val, 0, 0] S1x1024x1024.size (inb2 h)).toLoadRect
        ((el2 h).view.writes (Elt F) (el2 h).view.junk (⟨Rect.whole S1024x1024, ownSrc m c off hoff⟩ :: T))) x
      = tr (xAt m c (row + (x 0).val) (1024 * cx c + (x 1).val)) := by
  subst heq
  rw [stageE_apply]
  congr 1
  have hy := el_idx squeezes_S1x1024x1024_S1024x1024.numel_eq x
  have h1 : ∀ G : (el2 h).view.ty.Contents (Elt F),
      View.readAt (Elt F) elM.view (Rect.unit (s := S2x1024x1024) ![h.val, 0, 0] S1x1024x1024.size (inb2 h)).toLoadRect G
          (ix3 (0 : Fin 1) (x 0 : Fin 1024) (x 1 : Fin 1024))
        = (el2 h).view.read (Elt F) G x := by
    intro G
    show (elM.view.slice (r2 h)).read (Elt F) G (ix3 (0 : Fin 1) (x 0 : Fin 1024) (x 1 : Fin 1024))
      = (elM.view.slice (r2 h)).read (Elt F) G (Shape.reshapeEquiv squeezes_S1x1024x1024_S1024x1024.numel_eq x)
    rw [hy]
  have h2 := View.read_writes_cons_emb (el2 h).view ((el2 h).view.junk (Val := Elt F)) (Rect.whole S1024x1024)
    (ownSrc m c ![row, 1024 * (c.val / 2)] hoff) T x
  rw [Rect.emb_whole_apply] at h2
  rw [h1, h2]
  have e : ∀ a : Fin 2, (((xM.slice (Rect.unit (s := S8192x2048) ![row, 1024 * (c.val / 2)] S1024x1024.size hoff) (fun _ => rfl)).view.emb x
      : S8192x2048.Idx) a).val = (![row, 1024 * (c.val / 2)] : Fin 2 → Nat) a + 1 * (x a).val := fun a => rfl
  have e0 : (((xM.slice (Rect.unit (s := S8192x2048) ![row, 1024 * (c.val / 2)] S1024x1024.size hoff) (fun _ => rfl)).view.emb x
      : S8192x2048.Idx) 0).val = row + (x 0).val :=
    (e 0).trans (by show row + 1 * (x 0).val = _; omega)
  have e1 : (((xM.slice (Rect.unit (s := S8192x2048) ![row, 1024 * (c.val / 2)] S1024x1024.size hoff) (fun _ => rfl)).view.emb x
      : S8192x2048.Idx) 1).val = 1024 * (c.val / 2) + (x 1).val :=
    (e 1).trans (by show 1024 * (c.val / 2) + 1 * (x 1).val = _; omega)
  refine Eq.trans (b := X m c ((xM.slice (Rect.unit (s := S8192x2048) ![row, 1024 * (c.val / 2)] S1024x1024.size hoff) (fun _ => rfl)).view.emb x)) rfl ?_
  refine Eq.trans (X_eq_xAt m c _ _ _ e0 e1) ?_
  exact xAt_congr m c rfl (by unfold cx; rfl)

/-- What the 8192 x 1024 buffer is to hold. -/
def lvG (c : Dev nD) : S8192x1024.Idx → Elt F .bf16 := fun y => tr (xAt m c (y 0).val (1024 * cx c + (y 1).val))

/-- A store of such a half at rows row .. agrees with it. -/
theorem own_piece (c : Dev nD) (h : Fin 2) (row : Nat) (off : Fin 2 → Nat)
    (hoff : ∀ a, off a + S1024x1024.size a ≤ S8192x2048.size a) (heq : off = ![row, 1024 * (c.val / 2)])
    (hrow : row + 1024 ≤ 8192) (hinb : ∀ a, (![row, 0] : Fin 2 → Nat) a + S1024x1024.size a ≤ S8192x1024.size a)
    (T : List (View.Piece (Elt F) S1024x1024 .f32)) :
    ∀ x : (Rect.unit (s := S8192x1024) ![row, 0] S1024x1024.size hinb).shape.Idx,
      stageE (View.readAt (Elt F) elM.view (Rect.unit (s := S2x1024x1024) ![h.val, 0, 0] S1x1024x1024.size (inb2 h)).toLoadRect
          ((el2 h).view.writes (Elt F) (el2 h).view.junk (⟨Rect.whole S1024x1024, ownSrc m c off hoff⟩ :: T))) x
        = lvG m c ((Rect.unit (s := S8192x1024) ![row, 0] S1024x1024.size hinb).emb x) := by
  intro x
  refine (eload_step m c h row off hoff heq hrow T x).trans ?_
  show tr (xAt m c (row + (x 0).val) (1024 * cx c + (x 1).val))
    = tr (xAt m c (row + 1 * (x 0).val) (1024 * cx c + (0 + 1 * (x 1).val)))
  congr 1
  exact xAt_congr m c (by omega) (by omega)

omit [FloatOps F] in
theorem mem_lvrect (row : Nat) (hinb : ∀ a, (![row, 0] : Fin 2 → Nat) a + S1024x1024.size a ≤ S8192x1024.size a)
    (y : S8192x1024.Idx) (hy : row ≤ (y 0).val ∧ (y 0).val < row + 1024) :
    y ∈ (Rect.unit (s := S8192x1024) ![row, 0] S1024x1024.size hinb).set := by
  rw [Rect.mem_set_unit]
  have h1 : (y 1).val < 1024 := (y 1).isLt
  intro a; fin_cases a
  · exact hy
  · show 0 ≤ (y 1).val ∧ (y 1).val < 0 + 1024; omega

/-! ## The eight steps -/

theorem own_piece0 (c : Dev nD) : ∀ x : S1024x1024.Idx,
    (k0_pay37 (ownLd0 (F := F) [⟨Rect.whole S1024x1024, ownSrc m c (k0_off2 c) (k0_off2_inb c)⟩])) x
      = lvG m c ((Rect.unit (s := S8192x1024) ![0, 0] S1024x1024.size inb_S8192x1024_S1024x1024_0_0).emb x) := by
  intro x
  rw [k0_pay37_eq]
  exact own_piece m c 0 0 (k0_off2 c) (k0_off2_inb c) (k0_off2_eq c) (by omega)
    inb_S8192x1024_S1024x1024_0_0 _ x

theorem own_piece1 (c : Dev nD) : ∀ x : S1024x1024.Idx,
    (k0_pay38 (ownLd1 (F := F) [⟨Rect.whole S1024x1024, ownSrc m c (k0_off4 c) (k0_off4_inb c)⟩])) x
      = lvG m c ((Rect.unit (s := S8192x1024) ![1024, 0] S1024x1024.size inb_S8192x1024_S1024x1024_1024_0).emb x) := by
  intro x
  rw [k0_pay38_eq]
  exact own_piece m c 1 1024 (k0_off4 c) (k0_off4_inb c) (k0_off4_eq c) (by omega)
    inb_S8192x1024_S1024x1024_1024_0 _ x

theorem own_piece2 (c : Dev nD) : ∀ x : S1024x1024.Idx,
    (k0_pay39 (ownLd0 (F := F) [⟨Rect.whole S1024x1024, ownSrc m c (k0_off5 c) (k0_off5_inb c)⟩, ⟨Rect.whole S1024x1024, ownSrc m c (k0_off2 c) (k0_off2_inb c)⟩])) x
      = lvG m c ((Rect.unit (s := S8192x1024) ![2048, 0] S1024x1024.size inb_S8192x1024_S1024x1024_2048_0).emb x) := by
  intro x
  rw [k0_pay39_eq]
  exact own_piece m c 0 2048 (k0_off5 c) (k0_off5_inb c) (k0_off5_eq c) (by omega)
    inb_S8192x1024_S1024x1024_2048_0 _ x

theorem own_piece3 (c : Dev nD) : ∀ x : S1024x1024.Idx,
    (k0_pay41 (k0_pay40 (ownLd1 (F := F) [⟨Rect.whole S1024x1024, ownSrc m c (k0_off6 c) (k0_off6_inb c)⟩, ⟨Rect.whole S1024x1024, ownSrc m c (k0_off4 c) (k0_off4_inb c)⟩]))) x
      = lvG m c ((Rect.unit (s := S8192x1024) ![3072, 0] S1024x1024.size inb_S8192x1024_S1024x1024_3072_0).emb x) := by
  intro x
  rw [k0_pay41_40_eq]
  exact own_piece m c 1 3072 (k0_off6 c) (k0_off6_inb c) (k0_off6_eq c) (by omega)
    inb_S8192x1024_S1024x1024_3072_0 _ x

theorem own_piece4 (c : Dev nD) : ∀ x : S1024x1024.Idx,
    (k0_pay42 (ownLd0 (F := F) [⟨Rect.whole S1024x1024, ownSrc m c (k0_off7 c) (k0_off7_inb c)⟩, ⟨Rect.whole S1024x1024, ownSrc m c (k0_off5 c) (k0_off5_inb c)⟩, ⟨Rect.whole S1024x1024, ownSrc m c (k0_off2 c) (k0_off2_inb c)⟩])) x
      = lvG m c ((Rect.unit (s := S8192x1024) ![4096, 0] S1024x1024.size inb_S8192x1024_S1024x1024_4096_0).emb x) := by
  intro x
  rw [k0_pay42_eq]
  exact own_piece m c 0 4096 (k0_off7 c) (k0_off7_inb c) (k0_off7_eq c) (by omega)
    inb_S8192x1024_S1024x1024_4096_0 _ x

theorem own_piece5 (c : Dev nD) : ∀ x : S1024x1024.Idx,
    (k0_pay43 (ownLd1 (F := F) [⟨Rect.whole S1024x1024, ownSrc m c (k0_off8 c) (k0_off8_inb c)⟩, ⟨Rect.whole S1024x1024, ownSrc m c (k0_off6 c) (k0_off6_inb c)⟩, ⟨Rect.whole S1024x1024, ownSrc m c (k0_off4 c) (k0_off4_inb c)⟩])) x
      = lvG m c ((Rect.unit (s := S8192x1024) ![5120, 0] S1024x1024.size inb_S8192x1024_S1024x1024_5120_0).emb x) := by
  intro x
  rw [k0_pay43_eq]
  exact own_piece m c 1 5120 (k0_off8 c) (k0_off8_inb c) (k0_off8_eq c) (by omega)
    inb_S8192x1024_S1024x1024_5120_0 _ x

theorem own_piece6 (c : Dev nD) : ∀ x : S1024x1024.Idx,
    (k0_pay44 (ownLd0 (F := F) [⟨Rect.whole S1024x1024, ownSrc m c (k0_off9 c) (k0_off9_inb c)⟩, ⟨Rect.whole S1024x1024, ownSrc m c (k0_off7 c) (k0_off7_inb c)⟩, ⟨Rect.whole S1024x1024, ownSrc m c (k0_off5 c) (k0_off5_inb c)⟩, ⟨Rect.whole S1024x1024, ownSrc m c (k0_off2 c) (k0_off2_inb c)⟩])) x
      = lvG m c ((Rect.unit (s := S8192x1024) ![6144, 0] S1024x1024.size inb_S8192x1024_S1024x1024_6144_0).emb x) := by
  intro x
  rw [k0_pay44_eq]
  exact own_piece m c 0 6144 (k0_off9 c) (k0_off9_inb c) (k0_off9_eq c) (by omega)
    inb_S8192x1024_S1024x1024_6144_0 _ x

theorem own_piece7 (c : Dev nD) : ∀ x : S1024x1024.Idx,
    (k0_pay46 (k0_pay45 (ownLd1 (F := F) [⟨Rect.whole S1024x1024, ownSrc m c (k0_off10 c) (k0_off10_inb c)⟩, ⟨Rect.whole S1024x1024, ownSrc m c (k0_off8 c) (k0_off8_inb c)⟩, ⟨Rect.whole S1024x1024, ownSrc m c (k0_off6 c) (k0_off6_inb c)⟩, ⟨Rect.whole S1024x1024, ownSrc m c (k0_off4 c) (k0_off4_inb c)⟩]))) x
      = lvG m c ((Rect.unit (s := S8192x1024) ![7168, 0] S1024x1024.size inb_S8192x1024_S1024x1024_7168_0).emb x) := by
  intro x
  rw [k0_pay46_45_eq]
  exact own_piece m c 1 7168 (k0_off10 c) (k0_off10_inb c) (k0_off10_eq c) (by omega)
    inb_S8192x1024_S1024x1024_7168_0 _ x

theorem ownL_val (c : Dev nD) (flv : Buf (Elt F) (lvM.view.loc (c : Thread nD τ))) (y : S8192x1024.Idx) :
    ownL m c flv y = tr (xAt m c (y 0).val (1024 * cx c + (y 1).val)) := by
  show lvM.view.writes (Elt F) flv (ownStores m c) y = lvG m c y
  have hG : ∀ p ∈ ownStores m c, ∀ x : p.1.shape.Idx, p.2 x = lvG m c (p.1.emb x) :=
    List.forall_mem_cons.mpr ⟨own_piece7 m c,
      List.forall_mem_cons.mpr ⟨own_piece6 m c,
      List.forall_mem_cons.mpr ⟨own_piece5 m c,
      List.forall_mem_cons.mpr ⟨own_piece4 m c,
      List.forall_mem_cons.mpr ⟨own_piece3 m c,
      List.forall_mem_cons.mpr ⟨own_piece2 m c,
      List.forall_mem_cons.mpr ⟨own_piece1 m c,
      List.forall_mem_cons.mpr ⟨own_piece0 m c,
      fun _ h => absurd h List.not_mem_nil⟩⟩⟩⟩⟩⟩⟩⟩
  have hcov : ∃ p ∈ ownStores m c, y ∈ p.1.set := by
    have h0 : (y 0).val < 8192 := (y 0).isLt
    have hc : (y 0).val < 1024 ∨ (1024 ≤ (y 0).val ∧ (y 0).val < 2048) ∨ (2048 ≤ (y 0).val ∧ (y 0).val < 3072)
        ∨ (3072 ≤ (y 0).val ∧ (y 0).val < 4096) ∨ (4096 ≤ (y 0).val ∧ (y 0).val < 5120) ∨ (5120 ≤ (y 0).val ∧ (y 0).val < 6144)
        ∨ (6144 ≤ (y 0).val ∧ (y 0).val < 7168) ∨ (7168 ≤ (y 0).val ∧ (y 0).val < 8192) := by omega
    rcases hc with hc | hc | hc | hc | hc | hc | hc | hc
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem_lvrect 0 inb_S8192x1024_S1024x1024_0_0 y (by omega)⟩
    · exact ⟨_, (List.mem_cons_of_mem _ (List.mem_cons_of_mem _ (List.mem_cons_of_mem _ (List.mem_cons_of_mem _ (List.mem_cons_of_mem _ (List.mem_cons_of_mem _ List.mem_cons_self)))))), mem_lvrect 1024 inb_S8192x1024_S1024x1024_1024_0 y (by omega)⟩
    · exact ⟨_, (List.mem_cons_of_mem _ (List.mem_cons_of_mem _ (List.mem_cons_of_mem _ (List.mem_cons_of_mem _ (List.mem_cons_of_mem _ List.mem_cons_self))))), mem_lvrect 2048 inb_S8192x1024_S1024x1024_2048_0 y (by omega)⟩
    · exact ⟨_, (List.mem_cons_of_mem _ (List.mem_cons_of_mem _ (List.mem_cons_of_mem _ (List.mem_cons_of_mem _ List.mem_cons_self)))), mem_lvrect 3072 inb_S8192x1024_S1024x1024_3072_0 y (by omega)⟩
    · exact ⟨_, (List.mem_cons_of_mem _ (List.mem_cons_of_mem _ (List.mem_cons_of_mem _ List.mem_cons_self))), mem_lvrect 4096 inb_S8192x1024_S1024x1024_4096_0 y (by omega)⟩
    · exact ⟨_, (List.mem_cons_of_mem _ (List.mem_cons_of_mem _ List.mem_cons_self)), mem_lvrect 5120 inb_S8192x1024_S1024x1024_5120_0 y (by omega)⟩
    · exact ⟨_, (List.mem_cons_of_mem _ List.mem_cons_self), mem_lvrect 6144 inb_S8192x1024_S1024x1024_6144_0 y (by omega)⟩
    · exact ⟨_, List.mem_cons_self, mem_lvrect 7168 inb_S8192x1024_S1024x1024_7168_0 y (by omega)⟩
  have key := View.read_writes_apply_of_pieces lvM.view flv (lvG m c) (ownStores m c) hG y hcov
  rw [View.read_whole] at key
  exact key

/-- The own rows of the result, written from the 8192 x 1024 buffer after the eight stores (over any earlier
    contents flv of that buffer and f of the result), are the result there. -/
theorem ownstored_val (c : Dev nD) (flv : Buf (Elt F) (lvM.view.loc (c : Thread nD τ)))
    (f : Buf (Elt F) ((oOwn c).view.loc (c : Thread nD τ))) :
    ∀ i ∈ (oOwn c).view.set,
      (oOwn c).view.writes (Elt F) f
        [⟨Rect.whole S8192x1024, ReadAs.same.apply (View.read (Elt F) lvM.view (ownL m c flv))⟩] i = outC m c i := by
  intro i hi
  rw [writes_whole]
  exact own_val m c f (ownL m c flv) (ownL_val m c flv) i hi

/-- info: 'Cert.KernelIdeal.Hand.ownstored_val' depends on axioms: [propext, Classical.choice, Quot.sound] -/
#guard_msgs in #print axioms ownstored_val

end Cert.KernelIdeal.Hand

end
-- ==== Proof.Finish.lean ====
/-
  The end of a device's kernel: from what the body holds after its last wait to what the kernel is to end with.

  The 128 transfer cells have finished their one round, so each closes and its counter is the kernel's again, at zero;
  with the 67 counters of the device's own copies these are all 195. Each scratch buffer is glued from its pieces, the
  receive buffer's pieces first from their two half shares. The result is glued from its 65 row ranges, each holding what
  the result is to hold there.
-/
import proofs.«900022_g7700000000000023_dist_a2a_v7x_xy2x2_x_m8192_n1024_bf16_1_alg».proof.Proof.Steps
import proofs.«900022_g7700000000000023_dist_a2a_v7x_xy2x2_x_m8192_n1024_bf16_1_alg».proof.Proof.Chains
import proofs.«900022_g7700000000000023_dist_a2a_v7x_xy2x2_x_m8192_n1024_bf16_1_alg».proof.Proof.Joins

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ)

/-! ## The 195 counters: 67 of the device's own copies, then 32 of each of the four kinds of transfer cell -/

omit [FloatOps F] in
private theorem bigSep_fin_add (a b : ℕ) (Φ : Fin (a + b) → sProp 𝕄) :
    bigSep Finset.univ Φ
      = iprop((bigSep Finset.univ fun i : Fin a => Φ (Fin.castAdd b i)) ∗ bigSep Finset.univ fun j : Fin b => Φ (Fin.natAdd a j)) := by
  rw [bigSep_univ_equiv finSumFinEquiv Φ, bigSep_univ_sum]
  rfl

omit [FloatOps F] in
private theorem bigSep_fin_addN (a b : ℕ) (Φ : ℕ → sProp 𝕄) :
    (bigSep Finset.univ fun i : Fin (a + b) => Φ i.val)
      = iprop((bigSep Finset.univ fun i : Fin a => Φ i.val) ∗ bigSep Finset.univ fun j : Fin b => Φ (a + j.val)) :=
  bigSep_fin_add a b (fun i => Φ i.val)

omit [FloatOps F] in
private theorem split195 (Φ : ℕ → sProp 𝕄) :
    (bigSep Finset.univ fun i : Fin 195 => Φ i.val)
      = iprop((bigSep Finset.univ fun i : Fin 67 => Φ i.val) ∗ (bigSep Finset.univ fun k : Fin 32 => Φ (67 + k.val))
          ∗ (bigSep Finset.univ fun k : Fin 32 => Φ (99 + k.val)) ∗ (bigSep Finset.univ fun k : Fin 32 => Φ (131 + k.val))
          ∗ (bigSep Finset.univ fun k : Fin 32 => Φ (163 + k.val))) := by
  have h1 : (bigSep Finset.univ fun i : Fin 195 => Φ i.val)
      = iprop((bigSep Finset.univ fun i : Fin 67 => Φ i.val) ∗ bigSep Finset.univ fun j : Fin 128 => Φ (67 + j.val)) :=
    bigSep_fin_addN 67 128 Φ
  have h2 : (bigSep Finset.univ fun j : Fin 128 => Φ (67 + j.val))
      = iprop((bigSep Finset.univ fun k : Fin 32 => Φ (67 + k.val)) ∗ bigSep Finset.univ fun j : Fin 96 => Φ (67 + (32 + j.val))) :=
    bigSep_fin_addN 32 96 (fun n => Φ (67 + n))
  have h3 : (bigSep Finset.univ fun j : Fin 96 => Φ (67 + (32 + j.val)))
      = iprop((bigSep Finset.univ fun k : Fin 32 => Φ (67 + (32 + k.val))) ∗ bigSep Finset.univ fun j : Fin 64 => Φ (67 + (32 + (32 + j.val)))) :=
    bigSep_fin_addN 32 64 (fun n => Φ (67 + (32 + n)))
  have h4 : (bigSep Finset.univ fun j : Fin 64 => Φ (67 + (32 + (32 + j.val))))
      = iprop((bigSep Finset.univ fun k : Fin 32 => Φ (67 + (32 + (32 + k.val)))) ∗ bigSep Finset.univ fun k : Fin 32 => Φ (67 + (32 + (32 + (32 + k.val))))) :=
    bigSep_fin_addN 32 32 (fun n => Φ (67 + (32 + (32 + n))))
  rw [h1, h2, h3, h4]
  simp only [show ∀ n : ℕ, 67 + (32 + n) = 99 + n from fun n => by omega, show ∀ n : ℕ, 99 + (32 + n) = 131 + n from fun n => by omega,
    show ∀ n : ℕ, 131 + (32 + n) = 163 + n from fun n => by omega]

/-- The counter of DMA semaphore number n of device c at zero (nothing for a number that names no semaphore). -/
private def sv (c : Dev nD) (n : ℕ) : sProp 𝕄 := if h : n < 195 then semVal (dcell c n h) 0 else iprop(emp)
omit [FloatOps F] in
private theorem sv_eq (c : Dev nD) (n : ℕ) (h : n < 195) : (sv c n : sProp 𝕄) = semVal (dcell c n h) 0 := dif_pos h

omit [FloatOps F] in
/-- All the counters at zero: the 67 of the device's own copies, and the 32 of each kind of transfer cell. -/
theorem allSems0_split (c : Dev nD) :
    (allSems0 c : sProp 𝕄) = iprop(locals c ∗ (bigSep Finset.univ fun k : Fin 32 => semVal (sXc c k) 0) ∗ (bigSep Finset.univ fun k : Fin 32 => semVal (rXc c k) 0)
      ∗ (bigSep Finset.univ fun k : Fin 32 => semVal (sYc c k) 0) ∗ (bigSep Finset.univ fun k : Fin 32 => semVal (rYc c k) 0)) := by
  have e195 : (allSems0 c : sProp 𝕄) = bigSep Finset.univ fun i : Fin 195 => sv c i.val := by
    unfold allSems0; exact bigSep_congr fun i _ => (sv_eq c i.val i.isLt).symm
  have e67 : (locals c : sProp 𝕄) = bigSep Finset.univ fun i : Fin 67 => sv c i.val := by
    unfold locals; exact bigSep_congr fun i _ => (sv_eq c i.val _).symm
  have eK (n0 : ℕ) (hn : n0 ≤ 163) : (bigSep Finset.univ fun k : Fin 32 => (semVal (dcell c (n0 + k.val) (lt195 k n0 hn)) 0 : sProp 𝕄))
      = bigSep Finset.univ fun k : Fin 32 => sv c (n0 + k.val) :=
    bigSep_congr fun k _ => (sv_eq c (n0 + k.val) _).symm
  rw [e195, split195 (sv c), e67]
  exact congrArg₂ (fun A B : sProp 𝕄 => iprop(A ∗ B)) rfl (congrArg₂ (fun A B : sProp 𝕄 => iprop(A ∗ B)) (eK 67 (by decide)).symm
    (congrArg₂ (fun A B : sProp 𝕄 => iprop(A ∗ B)) (eK 99 (by decide)).symm (congrArg₂ (fun A B : sProp 𝕄 => iprop(A ∗ B)) (eK 131 (by decide)).symm (eK 163 (by decide)).symm)))

/-! ## The transfer cells close -/

section Close
variable (K : Dev nD × Fin 129 → ℕ) (c : Dev nD)

theorem close1 (i : ℕ) (h : i < 195) (hi : 67 ≤ i) :
    iprop(records m K ∗ atPos ER (dcell c i h) 1 ∅ 0) ⊢ |={Set.univ}=> semVal (dcell c i h) 0 := by
  iintro ⟨#HR, Hat⟩
  ihave Hw := (stepClose m K c i h hi) $$ HR
  iapply Hw; iexact Hat

/-- The 32 cells of one kind (semaphore numbers n0 to n0 + 31), their one round over, give their counters back at zero. -/
theorem closeKind (n0 : ℕ) (h0 : 67 ≤ n0) (h1 : n0 ≤ 163) :
    iprop(records m K ∗ bigSep Finset.univ fun k : Fin 32 => atPos ER (dcell c (n0 + k.val) (lt195 k n0 h1)) 1 ∅ 0)
      ⊢ |={Set.univ}=> bigSep Finset.univ fun k : Fin 32 => (semVal (dcell c (n0 + k.val) (lt195 k n0 h1)) 0 : sProp 𝕄) :=
  (bigSep_with_persistent (R := records m K) fun k _ => close1 m K c (n0 + k.val) (lt195 k n0 h1) (ge67 k n0 h0)).trans (bigSep_fupd _ _)

end Close

/-! ## The end of the kernel -/

/-- From what the body holds after its last wait: the scratch buffers glued from their pieces, the result from its 65
    pieces, and every counter back at zero. -/
theorem finish (K : Dev nD × Fin 129 → ℕ) (c : Dev nD) :
    records m K ⊢ iprop(
      (xM.view.loc (c : Thread nD τ) ↦[xM.view.set]{fullShare.left} X m c)
      -∗ (bigSep Finset.univ fun k : Fin 32 => iprop(∃ f, ((sl3 slM k).view.loc (c : Thread nD τ) ↦[(sl3 slM k).view.set]{fullShare} f)))
      -∗ (bigSep Finset.univ fun k : Fin 32 => iprop(∃ f, ((sl3 sbM k).view.loc (c : Thread nD τ) ↦[(sl3 sbM k).view.set]{fullShare} f)))
      -∗ (bigSep Finset.univ fun k : Fin 32 => iprop(((sl3 rbM k).view.loc (c : Thread nD τ) ↦[(sl3 rbM k).view.set]{fullShare.left} recvC m c) ∗ ((sl3 rbM k).view.loc (c : Thread nD τ) ↦[(sl3 rbM k).view.set]{fullShare.right} recvC m c)))
      -∗ (bigSep Finset.univ fun j : Fin 2 => iprop(∃ f, ((el2 j).view.loc (c : Thread nD τ) ↦[(el2 j).view.set]{fullShare} f)))
      -∗ someBuf lvM c
      -∗ (bigSep Finset.univ fun k : Fin 32 => ((oX c k).view.loc (c : Thread nD τ) ↦[(oX c k).view.set]{fullShare} outC m c))
      -∗ (bigSep Finset.univ fun k : Fin 32 => ((oY c k).view.loc (c : Thread nD τ) ↦[(oY c k).view.set]{fullShare} outC m c))
      -∗ ((oOwn c).view.loc (c : Thread nD τ) ↦[(oOwn c).view.set]{fullShare} outC m c)
      -∗ locals c
      -∗ (bigSep Finset.univ fun k : Fin 32 => iprop(atPos ER (sXc c k) 1 ∅ 0 ∗ atPos ER (rXc c k) 1 ∅ 0 ∗ atPos ER (sYc c k) 1 ∅ 0 ∗ atPos ER (rYc c k) 1 ∅ 0))
      -∗ |={Set.univ}=> Φ₁ m c) := by
  have hrb : (bigSep Finset.univ fun k : Fin 32 => iprop(((sl3 rbM k).view.loc (c : Thread nD τ) ↦[(sl3 rbM k).view.set]{fullShare.left} recvC m c)
        ∗ ((sl3 rbM k).view.loc (c : Thread nD τ) ↦[(sl3 rbM k).view.set]{fullShare.right} recvC m c)) : sProp 𝕄)
      ⊢ someBuf rbM c :=
    (bigSep_mono fun k _ => (halves_join (recvC m c)).trans (by iintro H; iexists (recvC m c); iexact H)).trans (join32_some rbM c)
  iintro #HR Hx Hsl Hsb Hrb Hel Hlv HoX HoY HoO Hloc Hat
  ihave Hsl' := (join32_some slM c) $$ Hsl
  ihave Hsb' := (join32_some sbM c) $$ Hsb
  ihave Hrb' := hrb $$ Hrb
  ihave Hel' := (join2_some c) $$ Hel
  ihave Ho := (outJoin c (outC m c)) $$ [HoX HoY HoO]
  · isplitl [HoX]; · iexact HoX
    isplitl [HoY] <;> iassumption
  ihave Hat' := (Entails.of_eq (by simp only [bigSep_sep'] :
      (bigSep Finset.univ fun k : Fin 32 => iprop(atPos ER (sXc c k) 1 ∅ 0 ∗ atPos ER (rXc c k) 1 ∅ 0 ∗ atPos ER (sYc c k) 1 ∅ 0 ∗ atPos ER (rYc c k) 1 ∅ 0) : sProp 𝕄)
        = iprop((bigSep Finset.univ fun k : Fin 32 => atPos ER (sXc c k) 1 ∅ 0) ∗ (bigSep Finset.univ fun k : Fin 32 => atPos ER (rXc c k) 1 ∅ 0)
            ∗ (bigSep Finset.univ fun k : Fin 32 => atPos ER (sYc c k) 1 ∅ 0) ∗ (bigSep Finset.univ fun k : Fin 32 => atPos ER (rYc c k) 1 ∅ 0)))) $$ Hat
  icases Hat' with ⟨A1, A2, A3, A4⟩
  imod (closeKind m K c 67 (by decide) (by decide)) $$ [A1] with V1
  · isplitr; · iexact HR
    iexact A1
  imod (closeKind m K c 99 (by decide) (by decide)) $$ [A2] with V2
  · isplitr; · iexact HR
    iexact A2
  imod (closeKind m K c 131 (by decide) (by decide)) $$ [A3] with V3
  · isplitr; · iexact HR
    iexact A3
  imod (closeKind m K c 163 (by decide) (by decide)) $$ [A4] with V4
  · isplitr; · iexact HR
    iexact A4
  imodintro
  unfold Φ₁
  rw [allSems0_split]
  isplitl [Hx]; · iexact Hx
  isplitl [Ho]; · iexact Ho
  isplitl [Hloc V1 V2 V3 V4]
  · isplitl [Hloc]; · iexact Hloc
    isplitl [V1]; · iexact V1
    isplitl [V2]; · iexact V2
    isplitl [V3] <;> iassumption
  isplitl [Hsl']; · iexact Hsl'
  isplitl [Hsb']; · iexact Hsb'
  isplitl [Hrb']; · iexact Hrb'
  isplitl [Hel'] <;> iassumption

/-- info: 'Cert.KernelIdeal.Hand.finish' depends on axioms: [propext, Classical.choice, Quot.sound] -/
#guard_msgs in #print axioms finish

end Cert.KernelIdeal.Hand

end
-- ==== Proof.Body.lean ====
/-
  One device's kernel, from what the launch deals it to what it must leave.

  The device signals both mates and waits for both; starts 32 copies of 128 rows of its block into its load buffer;
  per chunk waits for the copy, converts it into the staging buffer and sends it to the column mate; per chunk waits
  for the column mate's chunk, forwards half of its share to the row mate and copies the other half into its own
  result (and, every fourth chunk, moves 1024 of its own rows through a two-slot buffer into a local block); copies
  the local block into its result; waits for the row mate's 32 forwards, its 64 departures and its 33 copies.
  Its own copies, loads and stores are stepped mechanically; each signal, send and wait on a cell another device
  pays is applied by its rule. Every piece is held through the view that addresses it, so that the 32 concurrent
  copies into one buffer each hold their own piece. The argument array's left half-share stays aside, whole.
-/
import proofs.«900022_g7700000000000023_dist_a2a_v7x_xy2x2_x_m8192_n1024_bf16_1_alg».proof.Proof.Steps
import proofs.«900022_g7700000000000023_dist_a2a_v7x_xy2x2_x_m8192_n1024_bf16_1_alg».proof.Proof.Chains
import proofs.«900022_g7700000000000023_dist_a2a_v7x_xy2x2_x_m8192_n1024_bf16_1_alg».proof.Proof.Joins
import proofs.«900022_g7700000000000023_dist_a2a_v7x_xy2x2_x_m8192_n1024_bf16_1_alg».proof.Proof.Point
import proofs.«900022_g7700000000000023_dist_a2a_v7x_xy2x2_x_m8192_n1024_bf16_1_alg».proof.Proof.RunVal
import proofs.«900022_g7700000000000023_dist_a2a_v7x_xy2x2_x_m8192_n1024_bf16_1_alg».proof.Proof.OwnVal
import proofs.«900022_g7700000000000023_dist_a2a_v7x_xy2x2_x_m8192_n1024_bf16_1_alg».proof.Proof.Finish
import proofs.«900022_g7700000000000023_dist_a2a_v7x_xy2x2_x_m8192_n1024_bf16_1_alg».proof.Proof.Gen.KernelIdeal.Skeleton

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig Unit (Elt F) ℕ UU ℕ
set_option maxRecDepth 100000
variable (m : (ℓ : Loc nD τ sig) → Buf (Elt F) ℓ)

/-- The device's 129 positions, cell by cell. -/
theorem positions_chain (c : Dev nD) :
    (positions (F := F) c : sProp 𝕄) = iprop(atPos ER (barCell c) 0 ∅ 0
      ∗ atPos ER (sXc c 0) 0 ∅ 0 ∗ atPos ER (sXc c 1) 0 ∅ 0 ∗ atPos ER (sXc c 2) 0 ∅ 0 ∗ atPos ER (sXc c 3) 0 ∅ 0 ∗ atPos ER (sXc c 4) 0 ∅ 0 ∗ atPos ER (sXc c 5) 0 ∅ 0 ∗ atPos ER (sXc c 6) 0 ∅ 0 ∗ atPos ER (sXc c 7) 0 ∅ 0 ∗ atPos ER (sXc c 8) 0 ∅ 0 ∗ atPos ER (sXc c 9) 0 ∅ 0 ∗ atPos ER (sXc c 10) 0 ∅ 0 ∗ atPos ER (sXc c 11) 0 ∅ 0 ∗ atPos ER (sXc c 12) 0 ∅ 0 ∗ atPos ER (sXc c 13) 0 ∅ 0 ∗ atPos ER (sXc c 14) 0 ∅ 0 ∗ atPos ER (sXc c 15) 0 ∅ 0 ∗ atPos ER (sXc c 16) 0 ∅ 0 ∗ atPos ER (sXc c 17) 0 ∅ 0 ∗ atPos ER (sXc c 18) 0 ∅ 0 ∗ atPos ER (sXc c 19) 0 ∅ 0 ∗ atPos ER (sXc c 20) 0 ∅ 0 ∗ atPos ER (sXc c 21) 0 ∅ 0 ∗ atPos ER (sXc c 22) 0 ∅ 0 ∗ atPos ER (sXc c 23) 0 ∅ 0 ∗ atPos ER (sXc c 24) 0 ∅ 0 ∗ atPos ER (sXc c 25) 0 ∅ 0 ∗ atPos ER (sXc c 26) 0 ∅ 0 ∗ atPos ER (sXc c 27) 0 ∅ 0 ∗ atPos ER (sXc c 28) 0 ∅ 0 ∗ atPos ER (sXc c 29) 0 ∅ 0 ∗ atPos ER (sXc c 30) 0 ∅ 0 ∗ atPos ER (sXc c 31) 0 ∅ 0
      ∗ atPos ER (rXc c 0) 0 ∅ 0 ∗ atPos ER (rXc c 1) 0 ∅ 0 ∗ atPos ER (rXc c 2) 0 ∅ 0 ∗ atPos ER (rXc c 3) 0 ∅ 0 ∗ atPos ER (rXc c 4) 0 ∅ 0 ∗ atPos ER (rXc c 5) 0 ∅ 0 ∗ atPos ER (rXc c 6) 0 ∅ 0 ∗ atPos ER (rXc c 7) 0 ∅ 0 ∗ atPos ER (rXc c 8) 0 ∅ 0 ∗ atPos ER (rXc c 9) 0 ∅ 0 ∗ atPos ER (rXc c 10) 0 ∅ 0 ∗ atPos ER (rXc c 11) 0 ∅ 0 ∗ atPos ER (rXc c 12) 0 ∅ 0 ∗ atPos ER (rXc c 13) 0 ∅ 0 ∗ atPos ER (rXc c 14) 0 ∅ 0 ∗ atPos ER (rXc c 15) 0 ∅ 0 ∗ atPos ER (rXc c 16) 0 ∅ 0 ∗ atPos ER (rXc c 17) 0 ∅ 0 ∗ atPos ER (rXc c 18) 0 ∅ 0 ∗ atPos ER (rXc c 19) 0 ∅ 0 ∗ atPos ER (rXc c 20) 0 ∅ 0 ∗ atPos ER (rXc c 21) 0 ∅ 0 ∗ atPos ER (rXc c 22) 0 ∅ 0 ∗ atPos ER (rXc c 23) 0 ∅ 0 ∗ atPos ER (rXc c 24) 0 ∅ 0 ∗ atPos ER (rXc c 25) 0 ∅ 0 ∗ atPos ER (rXc c 26) 0 ∅ 0 ∗ atPos ER (rXc c 27) 0 ∅ 0 ∗ atPos ER (rXc c 28) 0 ∅ 0 ∗ atPos ER (rXc c 29) 0 ∅ 0 ∗ atPos ER (rXc c 30) 0 ∅ 0 ∗ atPos ER (rXc c 31) 0 ∅ 0
      ∗ atPos ER (sYc c 0) 0 ∅ 0 ∗ atPos ER (sYc c 1) 0 ∅ 0 ∗ atPos ER (sYc c 2) 0 ∅ 0 ∗ atPos ER (sYc c 3) 0 ∅ 0 ∗ atPos ER (sYc c 4) 0 ∅ 0 ∗ atPos ER (sYc c 5) 0 ∅ 0 ∗ atPos ER (sYc c 6) 0 ∅ 0 ∗ atPos ER (sYc c 7) 0 ∅ 0 ∗ atPos ER (sYc c 8) 0 ∅ 0 ∗ atPos ER (sYc c 9) 0 ∅ 0 ∗ atPos ER (sYc c 10) 0 ∅ 0 ∗ atPos ER (sYc c 11) 0 ∅ 0 ∗ atPos ER (sYc c 12) 0 ∅ 0 ∗ atPos ER (sYc c 13) 0 ∅ 0 ∗ atPos ER (sYc c 14) 0 ∅ 0 ∗ atPos ER (sYc c 15) 0 ∅ 0 ∗ atPos ER (sYc c 16) 0 ∅ 0 ∗ atPos ER (sYc c 17) 0 ∅ 0 ∗ atPos ER (sYc c 18) 0 ∅ 0 ∗ atPos ER (sYc c 19) 0 ∅ 0 ∗ atPos ER (sYc c 20) 0 ∅ 0 ∗ atPos ER (sYc c 21) 0 ∅ 0 ∗ atPos ER (sYc c 22) 0 ∅ 0 ∗ atPos ER (sYc c 23) 0 ∅ 0 ∗ atPos ER (sYc c 24) 0 ∅ 0 ∗ atPos ER (sYc c 25) 0 ∅ 0 ∗ atPos ER (sYc c 26) 0 ∅ 0 ∗ atPos ER (sYc c 27) 0 ∅ 0 ∗ atPos ER (sYc c 28) 0 ∅ 0 ∗ atPos ER (sYc c 29) 0 ∅ 0 ∗ atPos ER (sYc c 30) 0 ∅ 0 ∗ atPos ER (sYc c 31) 0 ∅ 0
      ∗ atPos ER (rYc c 0) 0 ∅ 0 ∗ atPos ER (rYc c 1) 0 ∅ 0 ∗ atPos ER (rYc c 2) 0 ∅ 0 ∗ atPos ER (rYc c 3) 0 ∅ 0 ∗ atPos ER (rYc c 4) 0 ∅ 0 ∗ atPos ER (rYc c 5) 0 ∅ 0 ∗ atPos ER (rYc c 6) 0 ∅ 0 ∗ atPos ER (rYc c 7) 0 ∅ 0 ∗ atPos ER (rYc c 8) 0 ∅ 0 ∗ atPos ER (rYc c 9) 0 ∅ 0 ∗ atPos ER (rYc c 10) 0 ∅ 0 ∗ atPos ER (rYc c 11) 0 ∅ 0 ∗ atPos ER (rYc c 12) 0 ∅ 0 ∗ atPos ER (rYc c 13) 0 ∅ 0 ∗ atPos ER (rYc c 14) 0 ∅ 0 ∗ atPos ER (rYc c 15) 0 ∅ 0 ∗ atPos ER (rYc c 16) 0 ∅ 0 ∗ atPos ER (rYc c 17) 0 ∅ 0 ∗ atPos ER (rYc c 18) 0 ∅ 0 ∗ atPos ER (rYc c 19) 0 ∅ 0 ∗ atPos ER (rYc c 20) 0 ∅ 0 ∗ atPos ER (rYc c 21) 0 ∅ 0 ∗ atPos ER (rYc c 22) 0 ∅ 0 ∗ atPos ER (rYc c 23) 0 ∅ 0 ∗ atPos ER (rYc c 24) 0 ∅ 0 ∗ atPos ER (rYc c 25) 0 ∅ 0 ∗ atPos ER (rYc c 26) 0 ∅ 0 ∗ atPos ER (rYc c 27) 0 ∅ 0 ∗ atPos ER (rYc c 28) 0 ∅ 0 ∗ atPos ER (rYc c 29) 0 ∅ 0 ∗ atPos ER (rYc c 30) 0 ∅ 0 ∗ atPos ER (rYc c 31) 0 ∅ 0) := by
  refine (bigSep_fin129 (fun j : Fin 129 => (atPos ER (kcell (c, j)) 0 ∅ 0 : sProp 𝕄))).trans ?_
  iterate 128 (refine congrArg₂ _ rfl ?_)
  rfl

/-- An assertion put aside: held, but not offered to the mechanical stepping. -/
def Aside (P : sProp 𝕄) : sProp 𝕄 := P
theorem aside_in (P : sProp 𝕄) : P ⊢ Aside P := by unfold Aside; exact BI.Entails.refl _
theorem aside_out (P : sProp 𝕄) : Aside P ⊢ P := by unfold Aside; exact BI.Entails.refl _

set_option maxHeartbeats 0 in
theorem sound_body (c : Dev nD) (Kt : PUnit → sProp 𝕄) :
    iprop(Φ₀ m c ∗ (dats m 0 c).owesAt () (t₀ : Fin cfg0.N).castSucc
        ∗ ((Φ₁ m c ∗ (dats m 0 c).owesAt () (t₀ : Fin cfg0.N).succ) -∗ Kt ⟨⟩))
      ⊢ wp frame (wpE (defs₀ (F := F)) 𝒱₀ c none) Set.univ (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12) Kt := by
  have hc4 : c.val < 4 := c.isLt
  have hcx : c.val / 2 < 2 := by omega
  have hcy : c.val % 2 < 2 := by omega
  unfold Φ₀ start someBuf payToks creds locals
  iintro ⟨⟨⟨⟨%K, #HR, Hpos, TbX, TbY, Htk⟩, ⟨CB, Hcrk⟩, #Hlev, Hloc, Hx, ⟨%fo, Ho⟩⟩, ⟨%fsl, Hsl⟩, ⟨%fsb, Hsb⟩, ⟨%frb, Hrb⟩, ⟨%fel, Hel⟩, ⟨%flv, Hlv⟩⟩, Howes, Hk⟩
  unfold Dat.owesAt Pipeline.owesWithin
  icases Howes with ⟨%W, %hW, HO⟩
  rw [show (dats m 0 c).owed (t₀ : Fin cfg0.N).castSucc = O₀ c from rfl]
  -- the positions, tokens, credits and counters, one by one
  ihave Hp := (Entails.of_eq (positions_chain c)) $$ Hpos
  icases Hp with ⟨PB, PsX0, PsX1, PsX2, PsX3, PsX4, PsX5, PsX6, PsX7, PsX8, PsX9, PsX10, PsX11, PsX12, PsX13, PsX14, PsX15, PsX16, PsX17, PsX18, PsX19, PsX20, PsX21, PsX22, PsX23, PsX24, PsX25, PsX26, PsX27, PsX28, PsX29, PsX30, PsX31, PrX0, PrX1, PrX2, PrX3, PrX4, PrX5, PrX6, PrX7, PrX8, PrX9, PrX10, PrX11, PrX12, PrX13, PrX14, PrX15, PrX16, PrX17, PrX18, PrX19, PrX20, PrX21, PrX22, PrX23, PrX24, PrX25, PrX26, PrX27, PrX28, PrX29, PrX30, PrX31, PsY0, PsY1, PsY2, PsY3, PsY4, PsY5, PsY6, PsY7, PsY8, PsY9, PsY10, PsY11, PsY12, PsY13, PsY14, PsY15, PsY16, PsY17, PsY18, PsY19, PsY20, PsY21, PsY22, PsY23, PsY24, PsY25, PsY26, PsY27, PsY28, PsY29, PsY30, PsY31, PrY0, PrY1, PrY2, PrY3, PrY4, PrY5, PrY6, PrY7, PrY8, PrY9, PrY10, PrY11, PrY12, PrY13, PrY14, PrY15, PrY16, PrY17, PrY18, PrY19, PrY20, PrY21, PrY22, PrY23, PrY24, PrY25, PrY26, PrY27, PrY28, PrY29, PrY30, PrY31⟩
  ihave Ht := (Entails.of_eq (bigSep_fin32 (fun k : Fin 32 => (iprop(dutyTok ER (sXc c k) 0 false ∗ dutyTok ER (rXc (xp c) k) 0 false ∗ dutyTok ER (sYc c k) 0 false ∗ dutyTok ER (rYc (yp c) k) 0 false) : sProp 𝕄)))) $$ Htk
  icases Ht with ⟨⟨TsX0, TrX0, TsY0, TrY0⟩, ⟨TsX1, TrX1, TsY1, TrY1⟩, ⟨TsX2, TrX2, TsY2, TrY2⟩, ⟨TsX3, TrX3, TsY3, TrY3⟩, ⟨TsX4, TrX4, TsY4, TrY4⟩, ⟨TsX5, TrX5, TsY5, TrY5⟩, ⟨TsX6, TrX6, TsY6, TrY6⟩, ⟨TsX7, TrX7, TsY7, TrY7⟩, ⟨TsX8, TrX8, TsY8, TrY8⟩, ⟨TsX9, TrX9, TsY9, TrY9⟩, ⟨TsX10, TrX10, TsY10, TrY10⟩, ⟨TsX11, TrX11, TsY11, TrY11⟩, ⟨TsX12, TrX12, TsY12, TrY12⟩, ⟨TsX13, TrX13, TsY13, TrY13⟩, ⟨TsX14, TrX14, TsY14, TrY14⟩, ⟨TsX15, TrX15, TsY15, TrY15⟩, ⟨TsX16, TrX16, TsY16, TrY16⟩, ⟨TsX17, TrX17, TsY17, TrY17⟩, ⟨TsX18, TrX18, TsY18, TrY18⟩, ⟨TsX19, TrX19, TsY19, TrY19⟩, ⟨TsX20, TrX20, TsY20, TrY20⟩, ⟨TsX21, TrX21, TsY21, TrY21⟩, ⟨TsX22, TrX22, TsY22, TrY22⟩, ⟨TsX23, TrX23, TsY23, TrY23⟩, ⟨TsX24, TrX24, TsY24, TrY24⟩, ⟨TsX25, TrX25, TsY25, TrY25⟩, ⟨TsX26, TrX26, TsY26, TrY26⟩, ⟨TsX27, TrX27, TsY27, TrY27⟩, ⟨TsX28, TrX28, TsY28, TrY28⟩, ⟨TsX29, TrX29, TsY29, TrY29⟩, ⟨TsX30, TrX30, TsY30, TrY30⟩, ⟨TsX31, TrX31, TsY31, TrY31⟩⟩
  ihave Hc := (Entails.of_eq (bigSep_fin32 (fun k : Fin 32 => (iprop(cred (tallyAt (rXc c k) () NC) ∗ cred (tallyAt (rYc c k) () NC)) : sProp 𝕄)))) $$ Hcrk
  icases Hc with ⟨⟨CrX0, CrY0⟩, ⟨CrX1, CrY1⟩, ⟨CrX2, CrY2⟩, ⟨CrX3, CrY3⟩, ⟨CrX4, CrY4⟩, ⟨CrX5, CrY5⟩, ⟨CrX6, CrY6⟩, ⟨CrX7, CrY7⟩, ⟨CrX8, CrY8⟩, ⟨CrX9, CrY9⟩, ⟨CrX10, CrY10⟩, ⟨CrX11, CrY11⟩, ⟨CrX12, CrY12⟩, ⟨CrX13, CrY13⟩, ⟨CrX14, CrY14⟩, ⟨CrX15, CrY15⟩, ⟨CrX16, CrY16⟩, ⟨CrX17, CrY17⟩, ⟨CrX18, CrY18⟩, ⟨CrX19, CrY19⟩, ⟨CrX20, CrY20⟩, ⟨CrX21, CrY21⟩, ⟨CrX22, CrY22⟩, ⟨CrX23, CrY23⟩, ⟨CrX24, CrY24⟩, ⟨CrX25, CrY25⟩, ⟨CrX26, CrY26⟩, ⟨CrX27, CrY27⟩, ⟨CrX28, CrY28⟩, ⟨CrX29, CrY29⟩, ⟨CrX30, CrY30⟩, ⟨CrX31, CrY31⟩⟩
  ihave Hv := (Entails.of_eq (bigSep_fin67 _)) $$ Hloc
  icases Hv with ⟨V0, V1, V2, V3, V4, V5, V6, V7, V8, V9, V10, V11, V12, V13, V14, V15, V16, V17, V18, V19, V20, V21, V22, V23, V24, V25, V26, V27, V28, V29, V30, V31, V32, V33, V34, V35, V36, V37, V38, V39, V40, V41, V42, V43, V44, V45, V46, V47, V48, V49, V50, V51, V52, V53, V54, V55, V56, V57, V58, V59, V60, V61, V62, V63, V64, V65, V66⟩
  -- the buffers, piece by piece
  ihave Hs1 := (Entails.of_eq ((split32 slM c fsl).trans (bigSep_fin32 _))) $$ Hsl
  icases Hs1 with ⟨Sl0, Sl1, Sl2, Sl3, Sl4, Sl5, Sl6, Sl7, Sl8, Sl9, Sl10, Sl11, Sl12, Sl13, Sl14, Sl15, Sl16, Sl17, Sl18, Sl19, Sl20, Sl21, Sl22, Sl23, Sl24, Sl25, Sl26, Sl27, Sl28, Sl29, Sl30, Sl31⟩
  ihave Hs2 := (Entails.of_eq ((split32 sbM c fsb).trans (bigSep_fin32 _))) $$ Hsb
  icases Hs2 with ⟨Sb0, Sb1, Sb2, Sb3, Sb4, Sb5, Sb6, Sb7, Sb8, Sb9, Sb10, Sb11, Sb12, Sb13, Sb14, Sb15, Sb16, Sb17, Sb18, Sb19, Sb20, Sb21, Sb22, Sb23, Sb24, Sb25, Sb26, Sb27, Sb28, Sb29, Sb30, Sb31⟩
  ihave Hrbs := (Entails.of_eq (split32 rbM c frb)) $$ Hrb
  ihave Hs3 := (Entails.of_eq ((split2 c fel).trans (bigSep_fin2 _))) $$ Hel
  icases Hs3 with ⟨El0, El1⟩
  ihave Hos := (Entails.of_eq (splitOut c fo)) $$ Ho
  icases Hos with ⟨HoX, HoY, HoOwn⟩
  ihave Hs4 := (Entails.of_eq (bigSep_fin32 _)) $$ HoX
  icases Hs4 with ⟨Ox0, Ox1, Ox2, Ox3, Ox4, Ox5, Ox6, Ox7, Ox8, Ox9, Ox10, Ox11, Ox12, Ox13, Ox14, Ox15, Ox16, Ox17, Ox18, Ox19, Ox20, Ox21, Ox22, Ox23, Ox24, Ox25, Ox26, Ox27, Ox28, Ox29, Ox30, Ox31⟩
  ihave Ox0 : (((oM.slice (Rect.unit (s := S16384x1024) (k0_off3 c 0#32) S128x1024.size (k0_off3_inb c 0)) (fun _ => rfl)).view.loc (c : Thread nD τ) ↦[(oM.slice (Rect.unit (s := S16384x1024) (k0_off3 c 0#32) S128x1024.size (k0_off3_inb c 0)) (fun _ => rfl)).view.set]{fullShare} fo)) $$ [Ox0]
  · iexact Ox0
  ihave Ox1 : (((oM.slice (Rect.unit (s := S16384x1024) (k0_off3 c 128#32) S128x1024.size (k0_off3_inb c 1)) (fun _ => rfl)).view.loc (c : Thread nD τ) ↦[(oM.slice (Rect.unit (s := S16384x1024) (k0_off3 c 128#32) S128x1024.size (k0_off3_inb c 1)) (fun _ => rfl)).view.set]{fullShare} fo)) $$ [Ox1]
  · iexact Ox1
  ihave Ox2 : (((oM.slice (Rect.unit (s := S16384x1024) (k0_off3 c 256#32) S128x1024.size (k0_off3_inb c 2)) (fun _ => rfl)).view.loc (c : Thread nD τ) ↦[(oM.slice (Rect.unit (s := S16384x1024) (k0_off3 c 256#32) S128x1024.size (k0_off3_inb c 2)) (fun _ => rfl)).view.set]{fullShare} fo)) $$ [Ox2]
  · iexact Ox2
  ihave Ox3 : (((oM.slice (Rect.unit (s := S16384x1024) (k0_off3 c 384#32) S128x1024.size (k0_off3_inb c 3)) (fun _ => rfl)).view.loc (c : Thread nD τ) ↦[(oM.slice (Rect.unit (s := S16384x1024) (k0_off3 c 384#32) S128x1024.size (k0_off3_inb c 3)) (fun _ => rfl)).view.set]{fullShare} fo)) $$ [Ox3]
  · iexact Ox3
  ihave Ox4 : (((oM.slice (Rect.unit (s := S16384x1024) (k0_off3 c 512#32) S128x1024.size (k0_off3_inb c 4)) (fun _ => rfl)).view.loc (c : Thread nD τ) ↦[(oM.slice (Rect.unit (s := S16384x1024) (k0_off3 c 512#32) S128x1024.size (k0_off3_inb c 4)) (fun _ => rfl)).view.set]{fullShare} fo)) $$ [Ox4]
  · iexact Ox4
  ihave Ox5 : (((oM.slice (Rect.unit (s := S16384x1024) (k0_off3 c 640#32) S128x1024.size (k0_off3_inb c 5)) (fun _ => rfl)).view.loc (c : Thread nD τ) ↦[(oM.slice (Rect.unit (s := S16384x1024) (k0_off3 c 640#32) S128x1024.size (k0_off3_inb c 5)) (fun _ => rfl)).view.set]{fullShare} fo)) $$ [Ox5]
  · iexact Ox5
  ihave Ox6 : (((oM.slice (Rect.unit (s := S16384x1024) (k0_off3 c 768#32) S128x1024.size (k0_off3_inb c 6)) (fun _ => rfl)).view.loc (c : Thread nD τ) ↦[(oM.slice (Rect.unit (s := S16384x1024) (k0_off3 c 768#32) S128x1024.size (k0_off3_inb c 6)) (fun _ => rfl)).view.set]{fullShare} fo)) $$ [Ox6]
  · iexact Ox6
  ihave Ox7 : (((oM.slice (Rect.unit (s := S16384x1024) (k0_off3 c 896#32) S128x1024.size (k0_off3_inb c 7)) (fun _ => rfl)).view.loc (c : Thread nD τ) ↦[(oM.slice (Rect.unit (s := S16384x1024) (k0_off3 c 896#32) S128x1024.size (k0_off3_inb c 7)) (fun _ => rfl)).view.set]{fullShare} fo)) $$ [Ox7]
  · iexact Ox7
  ihave Ox8 : (((oM.slice (Rect.unit (s := S16384x1024) (k0_off3 c 1024#32) S128x1024.size (k0_off3_inb c 8)) (fun _ => rfl)).view.loc (c : Thread nD τ) ↦[(oM.slice (Rect.unit (s := S16384x1024) (k0_off3 c 1024#32) S128x1024.size (k0_off3_inb c 8)) (fun _ => rfl)).view.set]{fullShare} fo)) $$ [Ox8]
  · iexact Ox8
  ihave Ox9 : (((oM.slice (Rect.unit (s := S16384x1024) (k0_off3 c 1152#32) S128x1024.size (k0_off3_inb c 9)) (fun _ => rfl)).view.loc (c : Thread nD τ) ↦[(oM.slice (Rect.unit (s := S16384x1024) (k0_off3 c 1152#32) S128x1024.size (k0_off3_inb c 9)) (fun _ => rfl)).view.set]{fullShare} fo)) $$ [Ox9]
  · iexact Ox9
  ihave Ox10 : (((oM.slice (Rect.unit (s := S16384x1024) (k0_off3 c 1280#32) S128x1024.size (k0_off3_inb c 10)) (fun _ => rfl)).view.loc (c : Thread nD τ) ↦[(oM.slice (Rect.unit (s := S16384x1024) (k0_off3 c 1280#32) S128x1024.size (k0_off3_inb c 10)) (fun _ => rfl)).view.set]{fullShare} fo)) $$ [Ox10]
  · iexact Ox10
  ihave Ox11 : (((oM.slice (Rect.unit (s := S16384x1024) (k0_off3 c 1408#32) S128x1024.size (k0_off3_inb c 11)) (fun _ => rfl)).view.loc (c : Thread nD τ) ↦[(oM.slice (Rect.unit (s := S16384x1024) (k0_off3 c 1408#32) S128x1024.size (k0_off3_inb c 11)) (fun _ => rfl)).view.set]{fullShare} fo)) $$ [Ox11]
  · iexact Ox11
  ihave Ox12 : (((oM.slice (Rect.unit (s := S16384x1024) (k0_off3 c 1536#32) S128x1024.size (k0_off3_inb c 12)) (fun _ => rfl)).view.loc (c : Thread nD τ) ↦[(oM.slice (Rect.unit (s := S16384x1024) (k0_off3 c 1536#32) S128x1024.size (k0_off3_inb c 12)) (fun _ => rfl)).view.set]{fullShare} fo)) $$ [Ox12]
  · iexact Ox12
  ihave Ox13 : (((oM.slice (Rect.unit (s := S16384x1024) (k0_off3 c 1664#32) S128x1024.size (k0_off3_inb c 13)) (fun _ => rfl)).view.loc (c : Thread nD τ) ↦[(oM.slice (Rect.unit (s := S16384x1024) (k0_off3 c 1664#32) S128x1024.size (k0_off3_inb c 13)) (fun _ => rfl)).view.set]{fullShare} fo)) $$ [Ox13]
  · iexact Ox13
  ihave Ox14 : (((oM.slice (Rect.unit (s := S16384x1024) (k0_off3 c 1792#32) S128x1024.size (k0_off3_inb c 14)) (fun _ => rfl)).view.loc (c : Thread nD τ) ↦[(oM.slice (Rect.unit (s := S16384x1024) (k0_off3 c 1792#32) S128x1024.size (k0_off3_inb c 14)) (fun _ => rfl)).view.set]{fullShare} fo)) $$ [Ox14]
  · iexact Ox14
  ihave Ox15 : (((oM.slice (Rect.unit (s := S16384x1024) (k0_off3 c 1920#32) S128x1024.size (k0_off3_inb c 15)) (fun _ => rfl)).view.loc (c : Thread nD τ) ↦[(oM.slice (Rect.unit (s := S16384x1024) (k0_off3 c 1920#32) S128x1024.size (k0_off3_inb c 15)) (fun _ => rfl)).view.set]{fullShare} fo)) $$ [Ox15]
  · iexact Ox15
  ihave Ox16 : (((oM.slice (Rect.unit (s := S16384x1024) (k0_off3 c 2048#32) S128x1024.size (k0_off3_inb c 16)) (fun _ => rfl)).view.loc (c : Thread nD τ) ↦[(oM.slice (Rect.unit (s := S16384x1024) (k0_off3 c 2048#32) S128x1024.size (k0_off3_inb c 16)) (fun _ => rfl)).view.set]{fullShare} fo)) $$ [Ox16]
  · iexact Ox16
  ihave Ox17 : (((oM.slice (Rect.unit (s := S16384x1024) (k0_off3 c 2176#32) S128x1024.size (k0_off3_inb c 17)) (fun _ => rfl)).view.loc (c : Thread nD τ) ↦[(oM.slice (Rect.unit (s := S16384x1024) (k0_off3 c 2176#32) S128x1024.size (k0_off3_inb c 17)) (fun _ => rfl)).view.set]{fullShare} fo)) $$ [Ox17]
  · iexact Ox17
  ihave Ox18 : (((oM.slice (Rect.unit (s := S16384x1024) (k0_off3 c 2304#32) S128x1024.size (k0_off3_inb c 18)) (fun _ => rfl)).view.loc (c : Thread nD τ) ↦[(oM.slice (Rect.unit (s := S16384x1024) (k0_off3 c 2304#32) S128x1024.size (k0_off3_inb c 18)) (fun _ => rfl)).view.set]{fullShare} fo)) $$ [Ox18]
  · iexact Ox18
  ihave Ox19 : (((oM.slice (Rect.unit (s := S16384x1024) (k0_off3 c 2432#32) S128x1024.size (k0_off3_inb c 19)) (fun _ => rfl)).view.loc (c : Thread nD τ) ↦[(oM.slice (Rect.unit (s := S16384x1024) (k0_off3 c 2432#32) S128x1024.size (k0_off3_inb c 19)) (fun _ => rfl)).view.set]{fullShare} fo)) $$ [Ox19]
  · iexact Ox19
  ihave Ox20 : (((oM.slice (Rect.unit (s := S16384x1024) (k0_off3 c 2560#32) S128x1024.size (k0_off3_inb c 20)) (fun _ => rfl)).view.loc (c : Thread nD τ) ↦[(oM.slice (Rect.unit (s := S16384x1024) (k0_off3 c 2560#32) S128x1024.size (k0_off3_inb c 20)) (fun _ => rfl)).view.set]{fullShare} fo)) $$ [Ox20]
  · iexact Ox20
  ihave Ox21 : (((oM.slice (Rect.unit (s := S16384x1024) (k0_off3 c 2688#32) S128x1024.size (k0_off3_inb c 21)) (fun _ => rfl)).view.loc (c : Thread nD τ) ↦[(oM.slice (Rect.unit (s := S16384x1024) (k0_off3 c 2688#32) S128x1024.size (k0_off3_inb c 21)) (fun _ => rfl)).view.set]{fullShare} fo)) $$ [Ox21]
  · iexact Ox21
  ihave Ox22 : (((oM.slice (Rect.unit (s := S16384x1024) (k0_off3 c 2816#32) S128x1024.size (k0_off3_inb c 22)) (fun _ => rfl)).view.loc (c : Thread nD τ) ↦[(oM.slice (Rect.unit (s := S16384x1024) (k0_off3 c 2816#32) S128x1024.size (k0_off3_inb c 22)) (fun _ => rfl)).view.set]{fullShare} fo)) $$ [Ox22]
  · iexact Ox22
  ihave Ox23 : (((oM.slice (Rect.unit (s := S16384x1024) (k0_off3 c 2944#32) S128x1024.size (k0_off3_inb c 23)) (fun _ => rfl)).view.loc (c : Thread nD τ) ↦[(oM.slice (Rect.unit (s := S16384x1024) (k0_off3 c 2944#32) S128x1024.size (k0_off3_inb c 23)) (fun _ => rfl)).view.set]{fullShare} fo)) $$ [Ox23]
  · iexact Ox23
  ihave Ox24 : (((oM.slice (Rect.unit (s := S16384x1024) (k0_off3 c 3072#32) S128x1024.size (k0_off3_inb c 24)) (fun _ => rfl)).view.loc (c : Thread nD τ) ↦[(oM.slice (Rect.unit (s := S16384x1024) (k0_off3 c 3072#32) S128x1024.size (k0_off3_inb c 24)) (fun _ => rfl)).view.set]{fullShare} fo)) $$ [Ox24]
  · iexact Ox24
  ihave Ox25 : (((oM.slice (Rect.unit (s := S16384x1024) (k0_off3 c 3200#32) S128x1024.size (k0_off3_inb c 25)) (fun _ => rfl)).view.loc (c : Thread nD τ) ↦[(oM.slice (Rect.unit (s := S16384x1024) (k0_off3 c 3200#32) S128x1024.size (k0_off3_inb c 25)) (fun _ => rfl)).view.set]{fullShare} fo)) $$ [Ox25]
  · iexact Ox25
  ihave Ox26 : (((oM.slice (Rect.unit (s := S16384x1024) (k0_off3 c 3328#32) S128x1024.size (k0_off3_inb c 26)) (fun _ => rfl)).view.loc (c : Thread nD τ) ↦[(oM.slice (Rect.unit (s := S16384x1024) (k0_off3 c 3328#32) S128x1024.size (k0_off3_inb c 26)) (fun _ => rfl)).view.set]{fullShare} fo)) $$ [Ox26]
  · iexact Ox26
  ihave Ox27 : (((oM.slice (Rect.unit (s := S16384x1024) (k0_off3 c 3456#32) S128x1024.size (k0_off3_inb c 27)) (fun _ => rfl)).view.loc (c : Thread nD τ) ↦[(oM.slice (Rect.unit (s := S16384x1024) (k0_off3 c 3456#32) S128x1024.size (k0_off3_inb c 27)) (fun _ => rfl)).view.set]{fullShare} fo)) $$ [Ox27]
  · iexact Ox27
  ihave Ox28 : (((oM.slice (Rect.unit (s := S16384x1024) (k0_off3 c 3584#32) S128x1024.size (k0_off3_inb c 28)) (fun _ => rfl)).view.loc (c : Thread nD τ) ↦[(oM.slice (Rect.unit (s := S16384x1024) (k0_off3 c 3584#32) S128x1024.size (k0_off3_inb c 28)) (fun _ => rfl)).view.set]{fullShare} fo)) $$ [Ox28]
  · iexact Ox28
  ihave Ox29 : (((oM.slice (Rect.unit (s := S16384x1024) (k0_off3 c 3712#32) S128x1024.size (k0_off3_inb c 29)) (fun _ => rfl)).view.loc (c : Thread nD τ) ↦[(oM.slice (Rect.unit (s := S16384x1024) (k0_off3 c 3712#32) S128x1024.size (k0_off3_inb c 29)) (fun _ => rfl)).view.set]{fullShare} fo)) $$ [Ox29]
  · iexact Ox29
  ihave Ox30 : (((oM.slice (Rect.unit (s := S16384x1024) (k0_off3 c 3840#32) S128x1024.size (k0_off3_inb c 30)) (fun _ => rfl)).view.loc (c : Thread nD τ) ↦[(oM.slice (Rect.unit (s := S16384x1024) (k0_off3 c 3840#32) S128x1024.size (k0_off3_inb c 30)) (fun _ => rfl)).view.set]{fullShare} fo)) $$ [Ox30]
  · iexact Ox30
  ihave Ox31 : (((oM.slice (Rect.unit (s := S16384x1024) (k0_off3 c 3968#32) S128x1024.size (k0_off3_inb c 31)) (fun _ => rfl)).view.loc (c : Thread nD τ) ↦[(oM.slice (Rect.unit (s := S16384x1024) (k0_off3 c 3968#32) S128x1024.size (k0_off3_inb c 31)) (fun _ => rfl)).view.set]{fullShare} fo)) $$ [Ox31]
  · iexact Ox31
  ihave Hxs := (halves_split (ℓ := xM.view.loc (c : Thread nD τ)) (S := xM.view.set) (X m c)) $$ Hx
  icases Hxs with ⟨HxL, HxR⟩
  ihave Hxq := (share_split (ℓ := xM.view.loc (c : Thread nD τ)) (S := xM.view.set) fullShare.right (X m c)) $$ HxR
  icases Hxq with ⟨Hx, HxB⟩
  ihave AL := (aside_in _) $$ HxL
  ihave AB := (aside_in _) $$ HxB
  beta_reduce
  have ledgerX := fun (s : DmaSem sig) (hs : s.val < 99) (j : ℕ) => mw_low_X (F := F) c s hs j
  have ledgerY := fun (s : DmaSem sig) (hs : s.val < 99) (j : ℕ) => mw_low_Y (F := F) c s hs j
  rw [cc0_body_eq_skeleton]; unfold cc0_body_skel
  sl_exec
  -- the entry handshake
  iapply (stepSigX m K c _ (Fin.ext (k0_dev1_eq c)) W frb) $$ HR HO TbX Hrbs
  iintro HO
  sl_exec
  iapply (stepSigY m K c _ (Fin.ext (k0_dev2_eq c)) W fo) $$ HR HO TbY HoY
  iintro HO
  sl_exec
  iapply (stepWaitBar m K c W) $$ HR CB HO Hlev PB
  iintro ⟨HO, PB, PX, PY⟩
  unfold barPayX barPayY
  ihave PXc := (Entails.of_eq (bigSep_fin32 (fun k : Fin 32 => (iprop((∃ f, ((sl3 rbM k).view.loc (xp c : Thread nD τ) ↦[(sl3 rbM k).view.set]{fullShare} f)) ∗ reached ER (rXc (xp c) k) 0) : sProp 𝕄)))) $$ PX
  icases PXc with ⟨⟨⟨%fx0, Rx0⟩, -⟩, ⟨⟨%fx1, Rx1⟩, -⟩, ⟨⟨%fx2, Rx2⟩, -⟩, ⟨⟨%fx3, Rx3⟩, -⟩, ⟨⟨%fx4, Rx4⟩, -⟩, ⟨⟨%fx5, Rx5⟩, -⟩, ⟨⟨%fx6, Rx6⟩, -⟩, ⟨⟨%fx7, Rx7⟩, -⟩, ⟨⟨%fx8, Rx8⟩, -⟩, ⟨⟨%fx9, Rx9⟩, -⟩, ⟨⟨%fx10, Rx10⟩, -⟩, ⟨⟨%fx11, Rx11⟩, -⟩, ⟨⟨%fx12, Rx12⟩, -⟩, ⟨⟨%fx13, Rx13⟩, -⟩, ⟨⟨%fx14, Rx14⟩, -⟩, ⟨⟨%fx15, Rx15⟩, -⟩, ⟨⟨%fx16, Rx16⟩, -⟩, ⟨⟨%fx17, Rx17⟩, -⟩, ⟨⟨%fx18, Rx18⟩, -⟩, ⟨⟨%fx19, Rx19⟩, -⟩, ⟨⟨%fx20, Rx20⟩, -⟩, ⟨⟨%fx21, Rx21⟩, -⟩, ⟨⟨%fx22, Rx22⟩, -⟩, ⟨⟨%fx23, Rx23⟩, -⟩, ⟨⟨%fx24, Rx24⟩, -⟩, ⟨⟨%fx25, Rx25⟩, -⟩, ⟨⟨%fx26, Rx26⟩, -⟩, ⟨⟨%fx27, Rx27⟩, -⟩, ⟨⟨%fx28, Rx28⟩, -⟩, ⟨⟨%fx29, Rx29⟩, -⟩, ⟨⟨%fx30, Rx30⟩, -⟩, ⟨⟨%fx31, Rx31⟩, -⟩⟩
  ihave PYc := (Entails.of_eq (bigSep_fin32 (fun k : Fin 32 => (iprop((∃ f, ((oY (yp c) k).view.loc (yp c : Thread nD τ) ↦[(oY (yp c) k).view.set]{fullShare} f)) ∗ reached ER (rYc (yp c) k) 0) : sProp 𝕄)))) $$ PY
  icases PYc with ⟨⟨⟨%fy0, Ry0⟩, -⟩, ⟨⟨%fy1, Ry1⟩, -⟩, ⟨⟨%fy2, Ry2⟩, -⟩, ⟨⟨%fy3, Ry3⟩, -⟩, ⟨⟨%fy4, Ry4⟩, -⟩, ⟨⟨%fy5, Ry5⟩, -⟩, ⟨⟨%fy6, Ry6⟩, -⟩, ⟨⟨%fy7, Ry7⟩, -⟩, ⟨⟨%fy8, Ry8⟩, -⟩, ⟨⟨%fy9, Ry9⟩, -⟩, ⟨⟨%fy10, Ry10⟩, -⟩, ⟨⟨%fy11, Ry11⟩, -⟩, ⟨⟨%fy12, Ry12⟩, -⟩, ⟨⟨%fy13, Ry13⟩, -⟩, ⟨⟨%fy14, Ry14⟩, -⟩, ⟨⟨%fy15, Ry15⟩, -⟩, ⟨⟨%fy16, Ry16⟩, -⟩, ⟨⟨%fy17, Ry17⟩, -⟩, ⟨⟨%fy18, Ry18⟩, -⟩, ⟨⟨%fy19, Ry19⟩, -⟩, ⟨⟨%fy20, Ry20⟩, -⟩, ⟨⟨%fy21, Ry21⟩, -⟩, ⟨⟨%fy22, Ry22⟩, -⟩, ⟨⟨%fy23, Ry23⟩, -⟩, ⟨⟨%fy24, Ry24⟩, -⟩, ⟨⟨%fy25, Ry25⟩, -⟩, ⟨⟨%fy26, Ry26⟩, -⟩, ⟨⟨%fy27, Ry27⟩, -⟩, ⟨⟨%fy28, Ry28⟩, -⟩, ⟨⟨%fy29, Ry29⟩, -⟩, ⟨⟨%fy30, Ry30⟩, -⟩, ⟨⟨%fy31, Ry31⟩, -⟩⟩
  sl_exec
  -- the 32 sends to the column mate, each from the piece just staged
  iapply (stepSendX m K c _ (Fin.ext (k0_dev3_eq c)) 0 31 32 rfl (by decide) _ _ fx0 ?hv0) $$ HR Sb0 Rx0 HO TsX0 TrX0
  case hv0 => exact fun i hi => by sl_unfold_run_names; exact staged_val m c 0 _ i hi
  iintro ⟨CsX0, HO⟩
  sl_exec
  iapply (stepSendX m K c _ (Fin.ext (k0_dev4_eq c)) 1 30 31 rfl (by decide) _ _ fx1 ?hv1) $$ HR Sb1 Rx1 HO TsX1 TrX1
  case hv1 => exact fun i hi => by sl_unfold_run_names; exact staged_val m c 1 _ i hi
  iintro ⟨CsX1, HO⟩
  sl_exec
  iapply (stepSendX m K c _ (Fin.ext (k0_dev5_eq c)) 2 29 30 rfl (by decide) _ _ fx2 ?hv2) $$ HR Sb2 Rx2 HO TsX2 TrX2
  case hv2 => exact fun i hi => by sl_unfold_run_names; exact staged_val m c 2 _ i hi
  iintro ⟨CsX2, HO⟩
  sl_exec
  iapply (stepSendX m K c _ (Fin.ext (k0_dev6_eq c)) 3 28 29 rfl (by decide) _ _ fx3 ?hv3) $$ HR Sb3 Rx3 HO TsX3 TrX3
  case hv3 => exact fun i hi => by sl_unfold_run_names; exact staged_val m c 3 _ i hi
  iintro ⟨CsX3, HO⟩
  sl_exec
  iapply (stepSendX m K c _ (Fin.ext (k0_dev7_eq c)) 4 27 28 rfl (by decide) _ _ fx4 ?hv4) $$ HR Sb4 Rx4 HO TsX4 TrX4
  case hv4 => exact fun i hi => by sl_unfold_run_names; exact staged_val m c 4 _ i hi
  iintro ⟨CsX4, HO⟩
  sl_exec
  iapply (stepSendX m K c _ (Fin.ext (k0_dev8_eq c)) 5 26 27 rfl (by decide) _ _ fx5 ?hv5) $$ HR Sb5 Rx5 HO TsX5 TrX5
  case hv5 => exact fun i hi => by sl_unfold_run_names; exact staged_val m c 5 _ i hi
  iintro ⟨CsX5, HO⟩
  sl_exec
  iapply (stepSendX m K c _ (Fin.ext (k0_dev9_eq c)) 6 25 26 rfl (by decide) _ _ fx6 ?hv6) $$ HR Sb6 Rx6 HO TsX6 TrX6
  case hv6 => exact fun i hi => by sl_unfold_run_names; exact staged_val m c 6 _ i hi
  iintro ⟨CsX6, HO⟩
  sl_exec
  iapply (stepSendX m K c _ (Fin.ext (k0_dev10_eq c)) 7 24 25 rfl (by decide) _ _ fx7 ?hv7) $$ HR Sb7 Rx7 HO TsX7 TrX7
  case hv7 => exact fun i hi => by sl_unfold_run_names; exact staged_val m c 7 _ i hi
  iintro ⟨CsX7, HO⟩
  sl_exec
  iapply (stepSendX m K c _ (Fin.ext (k0_dev11_eq c)) 8 23 24 rfl (by decide) _ _ fx8 ?hv8) $$ HR Sb8 Rx8 HO TsX8 TrX8
  case hv8 => exact fun i hi => by sl_unfold_run_names; exact staged_val m c 8 _ i hi
  iintro ⟨CsX8, HO⟩
  sl_exec
  iapply (stepSendX m K c _ (Fin.ext (k0_dev12_eq c)) 9 22 23 rfl (by decide) _ _ fx9 ?hv9) $$ HR Sb9 Rx9 HO TsX9 TrX9
  case hv9 => exact fun i hi => by sl_unfold_run_names; exact staged_val m c 9 _ i hi
  iintro ⟨CsX9, HO⟩
  sl_exec
  iapply (stepSendX m K c _ (Fin.ext (k0_dev13_eq c)) 10 21 22 rfl (by decide) _ _ fx10 ?hv10) $$ HR Sb10 Rx10 HO TsX10 TrX10
  case hv10 => exact fun i hi => by sl_unfold_run_names; exact staged_val m c 10 _ i hi
  iintro ⟨CsX10, HO⟩
  sl_exec
  iapply (stepSendX m K c _ (Fin.ext (k0_dev14_eq c)) 11 20 21 rfl (by decide) _ _ fx11 ?hv11) $$ HR Sb11 Rx11 HO TsX11 TrX11
  case hv11 => exact fun i hi => by sl_unfold_run_names; exact staged_val m c 11 _ i hi
  iintro ⟨CsX11, HO⟩
  sl_exec
  iapply (stepSendX m K c _ (Fin.ext (k0_dev15_eq c)) 12 19 20 rfl (by decide) _ _ fx12 ?hv12) $$ HR Sb12 Rx12 HO TsX12 TrX12
  case hv12 => exact fun i hi => by sl_unfold_run_names; exact staged_val m c 12 _ i hi
  iintro ⟨CsX12, HO⟩
  sl_exec
  iapply (stepSendX m K c _ (Fin.ext (k0_dev16_eq c)) 13 18 19 rfl (by decide) _ _ fx13 ?hv13) $$ HR Sb13 Rx13 HO TsX13 TrX13
  case hv13 => exact fun i hi => by sl_unfold_run_names; exact staged_val m c 13 _ i hi
  iintro ⟨CsX13, HO⟩
  sl_exec
  iapply (stepSendX m K c _ (Fin.ext (k0_dev17_eq c)) 14 17 18 rfl (by decide) _ _ fx14 ?hv14) $$ HR Sb14 Rx14 HO TsX14 TrX14
  case hv14 => exact fun i hi => by sl_unfold_run_names; exact staged_val m c 14 _ i hi
  iintro ⟨CsX14, HO⟩
  sl_exec
  iapply (stepSendX m K c _ (Fin.ext (k0_dev18_eq c)) 15 16 17 rfl (by decide) _ _ fx15 ?hv15) $$ HR Sb15 Rx15 HO TsX15 TrX15
  case hv15 => exact fun i hi => by sl_unfold_run_names; exact staged_val m c 15 _ i hi
  iintro ⟨CsX15, HO⟩
  sl_exec
  iapply (stepSendX m K c _ (Fin.ext (k0_dev19_eq c)) 16 15 16 rfl (by decide) _ _ fx16 ?hv16) $$ HR Sb16 Rx16 HO TsX16 TrX16
  case hv16 => exact fun i hi => by sl_unfold_run_names; exact staged_val m c 16 _ i hi
  iintro ⟨CsX16, HO⟩
  sl_exec
  iapply (stepSendX m K c _ (Fin.ext (k0_dev20_eq c)) 17 14 15 rfl (by decide) _ _ fx17 ?hv17) $$ HR Sb17 Rx17 HO TsX17 TrX17
  case hv17 => exact fun i hi => by sl_unfold_run_names; exact staged_val m c 17 _ i hi
  iintro ⟨CsX17, HO⟩
  sl_exec
  iapply (stepSendX m K c _ (Fin.ext (k0_dev21_eq c)) 18 13 14 rfl (by decide) _ _ fx18 ?hv18) $$ HR Sb18 Rx18 HO TsX18 TrX18
  case hv18 => exact fun i hi => by sl_unfold_run_names; exact staged_val m c 18 _ i hi
  iintro ⟨CsX18, HO⟩
  sl_exec
  iapply (stepSendX m K c _ (Fin.ext (k0_dev22_eq c)) 19 12 13 rfl (by decide) _ _ fx19 ?hv19) $$ HR Sb19 Rx19 HO TsX19 TrX19
  case hv19 => exact fun i hi => by sl_unfold_run_names; exact staged_val m c 19 _ i hi
  iintro ⟨CsX19, HO⟩
  sl_exec
  iapply (stepSendX m K c _ (Fin.ext (k0_dev23_eq c)) 20 11 12 rfl (by decide) _ _ fx20 ?hv20) $$ HR Sb20 Rx20 HO TsX20 TrX20
  case hv20 => exact fun i hi => by sl_unfold_run_names; exact staged_val m c 20 _ i hi
  iintro ⟨CsX20, HO⟩
  sl_exec
  iapply (stepSendX m K c _ (Fin.ext (k0_dev24_eq c)) 21 10 11 rfl (by decide) _ _ fx21 ?hv21) $$ HR Sb21 Rx21 HO TsX21 TrX21
  case hv21 => exact fun i hi => by sl_unfold_run_names; exact staged_val m c 21 _ i hi
  iintro ⟨CsX21, HO⟩
  sl_exec
  iapply (stepSendX m K c _ (Fin.ext (k0_dev25_eq c)) 22 9 10 rfl (by decide) _ _ fx22 ?hv22) $$ HR Sb22 Rx22 HO TsX22 TrX22
  case hv22 => exact fun i hi => by sl_unfold_run_names; exact staged_val m c 22 _ i hi
  iintro ⟨CsX22, HO⟩
  sl_exec
  iapply (stepSendX m K c _ (Fin.ext (k0_dev26_eq c)) 23 8 9 rfl (by decide) _ _ fx23 ?hv23) $$ HR Sb23 Rx23 HO TsX23 TrX23
  case hv23 => exact fun i hi => by sl_unfold_run_names; exact staged_val m c 23 _ i hi
  iintro ⟨CsX23, HO⟩
  sl_exec
  iapply (stepSendX m K c _ (Fin.ext (k0_dev27_eq c)) 24 7 8 rfl (by decide) _ _ fx24 ?hv24) $$ HR Sb24 Rx24 HO TsX24 TrX24
  case hv24 => exact fun i hi => by sl_unfold_run_names; exact staged_val m c 24 _ i hi
  iintro ⟨CsX24, HO⟩
  sl_exec
  iapply (stepSendX m K c _ (Fin.ext (k0_dev28_eq c)) 25 6 7 rfl (by decide) _ _ fx25 ?hv25) $$ HR Sb25 Rx25 HO TsX25 TrX25
  case hv25 => exact fun i hi => by sl_unfold_run_names; exact staged_val m c 25 _ i hi
  iintro ⟨CsX25, HO⟩
  sl_exec
  iapply (stepSendX m K c _ (Fin.ext (k0_dev29_eq c)) 26 5 6 rfl (by decide) _ _ fx26 ?hv26) $$ HR Sb26 Rx26 HO TsX26 TrX26
  case hv26 => exact fun i hi => by sl_unfold_run_names; exact staged_val m c 26 _ i hi
  iintro ⟨CsX26, HO⟩
  sl_exec
  iapply (stepSendX m K c _ (Fin.ext (k0_dev30_eq c)) 27 4 5 rfl (by decide) _ _ fx27 ?hv27) $$ HR Sb27 Rx27 HO TsX27 TrX27
  case hv27 => exact fun i hi => by sl_unfold_run_names; exact staged_val m c 27 _ i hi
  iintro ⟨CsX27, HO⟩
  sl_exec
  iapply (stepSendX m K c _ (Fin.ext (k0_dev31_eq c)) 28 3 4 rfl (by decide) _ _ fx28 ?hv28) $$ HR Sb28 Rx28 HO TsX28 TrX28
  case hv28 => exact fun i hi => by sl_unfold_run_names; exact staged_val m c 28 _ i hi
  iintro ⟨CsX28, HO⟩
  sl_exec
  iapply (stepSendX m K c _ (Fin.ext (k0_dev32_eq c)) 29 2 3 rfl (by decide) _ _ fx29 ?hv29) $$ HR Sb29 Rx29 HO TsX29 TrX29
  case hv29 => exact fun i hi => by sl_unfold_run_names; exact staged_val m c 29 _ i hi
  iintro ⟨CsX29, HO⟩
  sl_exec
  iapply (stepSendX m K c _ (Fin.ext (k0_dev33_eq c)) 30 1 2 rfl (by decide) _ _ fx30 ?hv30) $$ HR Sb30 Rx30 HO TsX30 TrX30
  case hv30 => exact fun i hi => by sl_unfold_run_names; exact staged_val m c 30 _ i hi
  iintro ⟨CsX30, HO⟩
  sl_exec
  iapply (stepSendX m K c _ (Fin.ext (k0_dev34_eq c)) 31 0 1 rfl (by decide) _ _ fx31 ?hv31) $$ HR Sb31 Rx31 HO TsX31 TrX31
  case hv31 => exact fun i hi => by sl_unfold_run_names; exact staged_val m c 31 _ i hi
  iintro ⟨CsX31, HO⟩
  sl_exec
  ihave AA := (aside_in _) $$ Hx
  ihave Hx := (aside_out _) $$ AB
  sl_exec
  ihave HO := (owes_remX0 c _) $$ HO
  -- per chunk: the arrival from the column mate, the forward to the row mate, the copy into the result
  iapply (stepWaitRX m K c 0 32 (wpE_waitDma2_eq 𝒱₀ (c : Thread nD τ) none Set.univ (src := sl3 sbM 0) (dst := sl3 rbM 0)) _) $$ HR CrX0 HO Hlev PrX0
  iintro ⟨HO, PrX0, Rb0⟩
  ihave Hh0 := (halves_split (ℓ := (sl3 rbM 0).view.loc (c : Thread nD τ)) (S := (sl3 rbM 0).view.set) (recvC m c)) $$ Rb0
  icases Hh0 with ⟨RbL0, RbR0⟩
  first | sl_exec | (rw [wp_ret]; imodintro; beta_reduce) | skip
  iapply (stepSendY m K c _ (Fin.ext (k0_dev35_eq c)) 0 31 32 rfl (by decide) _ fy0) $$ HR RbL0 Ry0 HO TsY0 TrY0
  iintro ⟨CsY0, HO⟩
  sl_exec
  iapply (stepWaitRX m K c 1 31 (wpE_waitDma2_eq 𝒱₀ (c : Thread nD τ) none Set.univ (src := sl3 sbM 1) (dst := sl3 rbM 1)) _) $$ HR CrX1 HO Hlev PrX1
  iintro ⟨HO, PrX1, Rb1⟩
  ihave Hh1 := (halves_split (ℓ := (sl3 rbM 1).view.loc (c : Thread nD τ)) (S := (sl3 rbM 1).view.set) (recvC m c)) $$ Rb1
  icases Hh1 with ⟨RbL1, RbR1⟩
  first | sl_exec | (rw [wp_ret]; imodintro; beta_reduce) | skip
  iapply (stepSendY m K c _ (Fin.ext (k0_dev36_eq c)) 1 30 31 rfl (by decide) _ fy1) $$ HR RbL1 Ry1 HO TsY1 TrY1
  iintro ⟨CsY1, HO⟩
  sl_exec
  iapply (stepWaitRX m K c 2 30 (wpE_waitDma2_eq 𝒱₀ (c : Thread nD τ) none Set.univ (src := sl3 sbM 2) (dst := sl3 rbM 2)) _) $$ HR CrX2 HO Hlev PrX2
  iintro ⟨HO, PrX2, Rb2⟩
  ihave Hh2 := (halves_split (ℓ := (sl3 rbM 2).view.loc (c : Thread nD τ)) (S := (sl3 rbM 2).view.set) (recvC m c)) $$ Rb2
  icases Hh2 with ⟨RbL2, RbR2⟩
  first | sl_exec | (rw [wp_ret]; imodintro; beta_reduce) | skip
  iapply (stepSendY m K c _ (Fin.ext (k0_dev37_eq c)) 2 29 30 rfl (by decide) _ fy2) $$ HR RbL2 Ry2 HO TsY2 TrY2
  iintro ⟨CsY2, HO⟩
  sl_exec
  iapply (stepWaitRX m K c 3 29 (wpE_waitDma2_eq 𝒱₀ (c : Thread nD τ) none Set.univ (src := sl3 sbM 3) (dst := sl3 rbM 3)) _) $$ HR CrX3 HO Hlev PrX3
  iintro ⟨HO, PrX3, Rb3⟩
  ihave Hh3 := (halves_split (ℓ := (sl3 rbM 3).view.loc (c : Thread nD τ)) (S := (sl3 rbM 3).view.set) (recvC m c)) $$ Rb3
  icases Hh3 with ⟨RbL3, RbR3⟩
  first | sl_exec | (rw [wp_ret]; imodintro; beta_reduce) | skip
  iapply (stepSendY m K c _ (Fin.ext (k0_dev38_eq c)) 3 28 29 rfl (by decide) _ fy3) $$ HR RbL3 Ry3 HO TsY3 TrY3
  iintro ⟨CsY3, HO⟩
  sl_exec
  iapply (stepWaitRX m K c 4 28 (wpE_waitDma2_eq 𝒱₀ (c : Thread nD τ) none Set.univ (src := sl3 sbM 4) (dst := sl3 rbM 4)) _) $$ HR CrX4 HO Hlev PrX4
  iintro ⟨HO, PrX4, Rb4⟩
  ihave Hh4 := (halves_split (ℓ := (sl3 rbM 4).view.loc (c : Thread nD τ)) (S := (sl3 rbM 4).view.set) (recvC m c)) $$ Rb4
  icases Hh4 with ⟨RbL4, RbR4⟩
  first | sl_exec | (rw [wp_ret]; imodintro; beta_reduce) | skip
  iapply (stepSendY m K c _ (Fin.ext (k0_dev39_eq c)) 4 27 28 rfl (by decide) _ fy4) $$ HR RbL4 Ry4 HO TsY4 TrY4
  iintro ⟨CsY4, HO⟩
  sl_exec
  iapply (stepWaitRX m K c 5 27 (wpE_waitDma2_eq 𝒱₀ (c : Thread nD τ) none Set.univ (src := sl3 sbM 5) (dst := sl3 rbM 5)) _) $$ HR CrX5 HO Hlev PrX5
  iintro ⟨HO, PrX5, Rb5⟩
  ihave Hh5 := (halves_split (ℓ := (sl3 rbM 5).view.loc (c : Thread nD τ)) (S := (sl3 rbM 5).view.set) (recvC m c)) $$ Rb5
  icases Hh5 with ⟨RbL5, RbR5⟩
  first | sl_exec | (rw [wp_ret]; imodintro; beta_reduce) | skip
  iapply (stepSendY m K c _ (Fin.ext (k0_dev40_eq c)) 5 26 27 rfl (by decide) _ fy5) $$ HR RbL5 Ry5 HO TsY5 TrY5
  iintro ⟨CsY5, HO⟩
  sl_exec
  iapply (stepWaitRX m K c 6 26 (wpE_waitDma2_eq 𝒱₀ (c : Thread nD τ) none Set.univ (src := sl3 sbM 6) (dst := sl3 rbM 6)) _) $$ HR CrX6 HO Hlev PrX6
  iintro ⟨HO, PrX6, Rb6⟩
  ihave Hh6 := (halves_split (ℓ := (sl3 rbM 6).view.loc (c : Thread nD τ)) (S := (sl3 rbM 6).view.set) (recvC m c)) $$ Rb6
  icases Hh6 with ⟨RbL6, RbR6⟩
  first | sl_exec | (rw [wp_ret]; imodintro; beta_reduce) | skip
  iapply (stepSendY m K c _ (Fin.ext (k0_dev41_eq c)) 6 25 26 rfl (by decide) _ fy6) $$ HR RbL6 Ry6 HO TsY6 TrY6
  iintro ⟨CsY6, HO⟩
  sl_exec
  iapply (stepWaitRX m K c 7 25 (wpE_waitDma2_eq 𝒱₀ (c : Thread nD τ) none Set.univ (src := sl3 sbM 7) (dst := sl3 rbM 7)) _) $$ HR CrX7 HO Hlev PrX7
  iintro ⟨HO, PrX7, Rb7⟩
  ihave Hh7 := (halves_split (ℓ := (sl3 rbM 7).view.loc (c : Thread nD τ)) (S := (sl3 rbM 7).view.set) (recvC m c)) $$ Rb7
  icases Hh7 with ⟨RbL7, RbR7⟩
  first | sl_exec | (rw [wp_ret]; imodintro; beta_reduce) | skip
  iapply (stepSendY m K c _ (Fin.ext (k0_dev42_eq c)) 7 24 25 rfl (by decide) _ fy7) $$ HR RbL7 Ry7 HO TsY7 TrY7
  iintro ⟨CsY7, HO⟩
  sl_exec
  iapply (stepWaitRX m K c 8 24 (wpE_waitDma2_eq 𝒱₀ (c : Thread nD τ) none Set.univ (src := sl3 sbM 8) (dst := sl3 rbM 8)) _) $$ HR CrX8 HO Hlev PrX8
  iintro ⟨HO, PrX8, Rb8⟩
  ihave Hh8 := (halves_split (ℓ := (sl3 rbM 8).view.loc (c : Thread nD τ)) (S := (sl3 rbM 8).view.set) (recvC m c)) $$ Rb8
  icases Hh8 with ⟨RbL8, RbR8⟩
  first | sl_exec | (rw [wp_ret]; imodintro; beta_reduce) | skip
  iapply (stepSendY m K c _ (Fin.ext (k0_dev43_eq c)) 8 23 24 rfl (by decide) _ fy8) $$ HR RbL8 Ry8 HO TsY8 TrY8
  iintro ⟨CsY8, HO⟩
  sl_exec
  iapply (stepWaitRX m K c 9 23 (wpE_waitDma2_eq 𝒱₀ (c : Thread nD τ) none Set.univ (src := sl3 sbM 9) (dst := sl3 rbM 9)) _) $$ HR CrX9 HO Hlev PrX9
  iintro ⟨HO, PrX9, Rb9⟩
  ihave Hh9 := (halves_split (ℓ := (sl3 rbM 9).view.loc (c : Thread nD τ)) (S := (sl3 rbM 9).view.set) (recvC m c)) $$ Rb9
  icases Hh9 with ⟨RbL9, RbR9⟩
  first | sl_exec | (rw [wp_ret]; imodintro; beta_reduce) | skip
  iapply (stepSendY m K c _ (Fin.ext (k0_dev44_eq c)) 9 22 23 rfl (by decide) _ fy9) $$ HR RbL9 Ry9 HO TsY9 TrY9
  iintro ⟨CsY9, HO⟩
  sl_exec
  iapply (stepWaitRX m K c 10 22 (wpE_waitDma2_eq 𝒱₀ (c : Thread nD τ) none Set.univ (src := sl3 sbM 10) (dst := sl3 rbM 10)) _) $$ HR CrX10 HO Hlev PrX10
  iintro ⟨HO, PrX10, Rb10⟩
  ihave Hh10 := (halves_split (ℓ := (sl3 rbM 10).view.loc (c : Thread nD τ)) (S := (sl3 rbM 10).view.set) (recvC m c)) $$ Rb10
  icases Hh10 with ⟨RbL10, RbR10⟩
  first | sl_exec | (rw [wp_ret]; imodintro; beta_reduce) | skip
  iapply (stepSendY m K c _ (Fin.ext (k0_dev45_eq c)) 10 21 22 rfl (by decide) _ fy10) $$ HR RbL10 Ry10 HO TsY10 TrY10
  iintro ⟨CsY10, HO⟩
  sl_exec
  iapply (stepWaitRX m K c 11 21 (wpE_waitDma2_eq 𝒱₀ (c : Thread nD τ) none Set.univ (src := sl3 sbM 11) (dst := sl3 rbM 11)) _) $$ HR CrX11 HO Hlev PrX11
  iintro ⟨HO, PrX11, Rb11⟩
  ihave Hh11 := (halves_split (ℓ := (sl3 rbM 11).view.loc (c : Thread nD τ)) (S := (sl3 rbM 11).view.set) (recvC m c)) $$ Rb11
  icases Hh11 with ⟨RbL11, RbR11⟩
  first | sl_exec | (rw [wp_ret]; imodintro; beta_reduce) | skip
  iapply (stepSendY m K c _ (Fin.ext (k0_dev46_eq c)) 11 20 21 rfl (by decide) _ fy11) $$ HR RbL11 Ry11 HO TsY11 TrY11
  iintro ⟨CsY11, HO⟩
  sl_exec
  iapply (stepWaitRX m K c 12 20 (wpE_waitDma2_eq 𝒱₀ (c : Thread nD τ) none Set.univ (src := sl3 sbM 12) (dst := sl3 rbM 12)) _) $$ HR CrX12 HO Hlev PrX12
  iintro ⟨HO, PrX12, Rb12⟩
  ihave Hh12 := (halves_split (ℓ := (sl3 rbM 12).view.loc (c : Thread nD τ)) (S := (sl3 rbM 12).view.set) (recvC m c)) $$ Rb12
  icases Hh12 with ⟨RbL12, RbR12⟩
  first | sl_exec | (rw [wp_ret]; imodintro; beta_reduce) | skip
  iapply (stepSendY m K c _ (Fin.ext (k0_dev47_eq c)) 12 19 20 rfl (by decide) _ fy12) $$ HR RbL12 Ry12 HO TsY12 TrY12
  iintro ⟨CsY12, HO⟩
  sl_exec
  iapply (stepWaitRX m K c 13 19 (wpE_waitDma2_eq 𝒱₀ (c : Thread nD τ) none Set.univ (src := sl3 sbM 13) (dst := sl3 rbM 13)) _) $$ HR CrX13 HO Hlev PrX13
  iintro ⟨HO, PrX13, Rb13⟩
  ihave Hh13 := (halves_split (ℓ := (sl3 rbM 13).view.loc (c : Thread nD τ)) (S := (sl3 rbM 13).view.set) (recvC m c)) $$ Rb13
  icases Hh13 with ⟨RbL13, RbR13⟩
  first | sl_exec | (rw [wp_ret]; imodintro; beta_reduce) | skip
  iapply (stepSendY m K c _ (Fin.ext (k0_dev48_eq c)) 13 18 19 rfl (by decide) _ fy13) $$ HR RbL13 Ry13 HO TsY13 TrY13
  iintro ⟨CsY13, HO⟩
  sl_exec
  iapply (stepWaitRX m K c 14 18 (wpE_waitDma2_eq 𝒱₀ (c : Thread nD τ) none Set.univ (src := sl3 sbM 14) (dst := sl3 rbM 14)) _) $$ HR CrX14 HO Hlev PrX14
  iintro ⟨HO, PrX14, Rb14⟩
  ihave Hh14 := (halves_split (ℓ := (sl3 rbM 14).view.loc (c : Thread nD τ)) (S := (sl3 rbM 14).view.set) (recvC m c)) $$ Rb14
  icases Hh14 with ⟨RbL14, RbR14⟩
  first | sl_exec | (rw [wp_ret]; imodintro; beta_reduce) | skip
  iapply (stepSendY m K c _ (Fin.ext (k0_dev49_eq c)) 14 17 18 rfl (by decide) _ fy14) $$ HR RbL14 Ry14 HO TsY14 TrY14
  iintro ⟨CsY14, HO⟩
  sl_exec
  iapply (stepWaitRX m K c 15 17 (wpE_waitDma2_eq 𝒱₀ (c : Thread nD τ) none Set.univ (src := sl3 sbM 15) (dst := sl3 rbM 15)) _) $$ HR CrX15 HO Hlev PrX15
  iintro ⟨HO, PrX15, Rb15⟩
  ihave Hh15 := (halves_split (ℓ := (sl3 rbM 15).view.loc (c : Thread nD τ)) (S := (sl3 rbM 15).view.set) (recvC m c)) $$ Rb15
  icases Hh15 with ⟨RbL15, RbR15⟩
  first | sl_exec | (rw [wp_ret]; imodintro; beta_reduce) | skip
  iapply (stepSendY m K c _ (Fin.ext (k0_dev50_eq c)) 15 16 17 rfl (by decide) _ fy15) $$ HR RbL15 Ry15 HO TsY15 TrY15
  iintro ⟨CsY15, HO⟩
  sl_exec
  iapply (stepWaitRX m K c 16 16 (wpE_waitDma2_eq 𝒱₀ (c : Thread nD τ) none Set.univ (src := sl3 sbM 16) (dst := sl3 rbM 16)) _) $$ HR CrX16 HO Hlev PrX16
  iintro ⟨HO, PrX16, Rb16⟩
  ihave Hh16 := (halves_split (ℓ := (sl3 rbM 16).view.loc (c : Thread nD τ)) (S := (sl3 rbM 16).view.set) (recvC m c)) $$ Rb16
  icases Hh16 with ⟨RbL16, RbR16⟩
  first | sl_exec | (rw [wp_ret]; imodintro; beta_reduce) | skip
  iapply (stepSendY m K c _ (Fin.ext (k0_dev51_eq c)) 16 15 16 rfl (by decide) _ fy16) $$ HR RbL16 Ry16 HO TsY16 TrY16
  iintro ⟨CsY16, HO⟩
  sl_exec
  iapply (stepWaitRX m K c 17 15 (wpE_waitDma2_eq 𝒱₀ (c : Thread nD τ) none Set.univ (src := sl3 sbM 17) (dst := sl3 rbM 17)) _) $$ HR CrX17 HO Hlev PrX17
  iintro ⟨HO, PrX17, Rb17⟩
  ihave Hh17 := (halves_split (ℓ := (sl3 rbM 17).view.loc (c : Thread nD τ)) (S := (sl3 rbM 17).view.set) (recvC m c)) $$ Rb17
  icases Hh17 with ⟨RbL17, RbR17⟩
  first | sl_exec | (rw [wp_ret]; imodintro; beta_reduce) | skip
  iapply (stepSendY m K c _ (Fin.ext (k0_dev52_eq c)) 17 14 15 rfl (by decide) _ fy17) $$ HR RbL17 Ry17 HO TsY17 TrY17
  iintro ⟨CsY17, HO⟩
  sl_exec
  iapply (stepWaitRX m K c 18 14 (wpE_waitDma2_eq 𝒱₀ (c : Thread nD τ) none Set.univ (src := sl3 sbM 18) (dst := sl3 rbM 18)) _) $$ HR CrX18 HO Hlev PrX18
  iintro ⟨HO, PrX18, Rb18⟩
  ihave Hh18 := (halves_split (ℓ := (sl3 rbM 18).view.loc (c : Thread nD τ)) (S := (sl3 rbM 18).view.set) (recvC m c)) $$ Rb18
  icases Hh18 with ⟨RbL18, RbR18⟩
  first | sl_exec | (rw [wp_ret]; imodintro; beta_reduce) | skip
  iapply (stepSendY m K c _ (Fin.ext (k0_dev53_eq c)) 18 13 14 rfl (by decide) _ fy18) $$ HR RbL18 Ry18 HO TsY18 TrY18
  iintro ⟨CsY18, HO⟩
  sl_exec
  iapply (stepWaitRX m K c 19 13 (wpE_waitDma2_eq 𝒱₀ (c : Thread nD τ) none Set.univ (src := sl3 sbM 19) (dst := sl3 rbM 19)) _) $$ HR CrX19 HO Hlev PrX19
  iintro ⟨HO, PrX19, Rb19⟩
  ihave Hh19 := (halves_split (ℓ := (sl3 rbM 19).view.loc (c : Thread nD τ)) (S := (sl3 rbM 19).view.set) (recvC m c)) $$ Rb19
  icases Hh19 with ⟨RbL19, RbR19⟩
  first | sl_exec | (rw [wp_ret]; imodintro; beta_reduce) | skip
  iapply (stepSendY m K c _ (Fin.ext (k0_dev54_eq c)) 19 12 13 rfl (by decide) _ fy19) $$ HR RbL19 Ry19 HO TsY19 TrY19
  iintro ⟨CsY19, HO⟩
  sl_exec
  iapply (stepWaitRX m K c 20 12 (wpE_waitDma2_eq 𝒱₀ (c : Thread nD τ) none Set.univ (src := sl3 sbM 20) (dst := sl3 rbM 20)) _) $$ HR CrX20 HO Hlev PrX20
  iintro ⟨HO, PrX20, Rb20⟩
  ihave Hh20 := (halves_split (ℓ := (sl3 rbM 20).view.loc (c : Thread nD τ)) (S := (sl3 rbM 20).view.set) (recvC m c)) $$ Rb20
  icases Hh20 with ⟨RbL20, RbR20⟩
  first | sl_exec | (rw [wp_ret]; imodintro; beta_reduce) | skip
  iapply (stepSendY m K c _ (Fin.ext (k0_dev55_eq c)) 20 11 12 rfl (by decide) _ fy20) $$ HR RbL20 Ry20 HO TsY20 TrY20
  iintro ⟨CsY20, HO⟩
  sl_exec
  iapply (stepWaitRX m K c 21 11 (wpE_waitDma2_eq 𝒱₀ (c : Thread nD τ) none Set.univ (src := sl3 sbM 21) (dst := sl3 rbM 21)) _) $$ HR CrX21 HO Hlev PrX21
  iintro ⟨HO, PrX21, Rb21⟩
  ihave Hh21 := (halves_split (ℓ := (sl3 rbM 21).view.loc (c : Thread nD τ)) (S := (sl3 rbM 21).view.set) (recvC m c)) $$ Rb21
  icases Hh21 with ⟨RbL21, RbR21⟩
  first | sl_exec | (rw [wp_ret]; imodintro; beta_reduce) | skip
  iapply (stepSendY m K c _ (Fin.ext (k0_dev56_eq c)) 21 10 11 rfl (by decide) _ fy21) $$ HR RbL21 Ry21 HO TsY21 TrY21
  iintro ⟨CsY21, HO⟩
  sl_exec
  iapply (stepWaitRX m K c 22 10 (wpE_waitDma2_eq 𝒱₀ (c : Thread nD τ) none Set.univ (src := sl3 sbM 22) (dst := sl3 rbM 22)) _) $$ HR CrX22 HO Hlev PrX22
  iintro ⟨HO, PrX22, Rb22⟩
  ihave Hh22 := (halves_split (ℓ := (sl3 rbM 22).view.loc (c : Thread nD τ)) (S := (sl3 rbM 22).view.set) (recvC m c)) $$ Rb22
  icases Hh22 with ⟨RbL22, RbR22⟩
  first | sl_exec | (rw [wp_ret]; imodintro; beta_reduce) | skip
  iapply (stepSendY m K c _ (Fin.ext (k0_dev57_eq c)) 22 9 10 rfl (by decide) _ fy22) $$ HR RbL22 Ry22 HO TsY22 TrY22
  iintro ⟨CsY22, HO⟩
  sl_exec
  iapply (stepWaitRX m K c 23 9 (wpE_waitDma2_eq 𝒱₀ (c : Thread nD τ) none Set.univ (src := sl3 sbM 23) (dst := sl3 rbM 23)) _) $$ HR CrX23 HO Hlev PrX23
  iintro ⟨HO, PrX23, Rb23⟩
  ihave Hh23 := (halves_split (ℓ := (sl3 rbM 23).view.loc (c : Thread nD τ)) (S := (sl3 rbM 23).view.set) (recvC m c)) $$ Rb23
  icases Hh23 with ⟨RbL23, RbR23⟩
  first | sl_exec | (rw [wp_ret]; imodintro; beta_reduce) | skip
  iapply (stepSendY m K c _ (Fin.ext (k0_dev58_eq c)) 23 8 9 rfl (by decide) _ fy23) $$ HR RbL23 Ry23 HO TsY23 TrY23
  iintro ⟨CsY23, HO⟩
  sl_exec
  iapply (stepWaitRX m K c 24 8 (wpE_waitDma2_eq 𝒱₀ (c : Thread nD τ) none Set.univ (src := sl3 sbM 24) (dst := sl3 rbM 24)) _) $$ HR CrX24 HO Hlev PrX24
  iintro ⟨HO, PrX24, Rb24⟩
  ihave Hh24 := (halves_split (ℓ := (sl3 rbM 24).view.loc (c : Thread nD τ)) (S := (sl3 rbM 24).view.set) (recvC m c)) $$ Rb24
  icases Hh24 with ⟨RbL24, RbR24⟩
  first | sl_exec | (rw [wp_ret]; imodintro; beta_reduce) | skip
  iapply (stepSendY m K c _ (Fin.ext (k0_dev59_eq c)) 24 7 8 rfl (by decide) _ fy24) $$ HR RbL24 Ry24 HO TsY24 TrY24
  iintro ⟨CsY24, HO⟩
  sl_exec
  iapply (stepWaitRX m K c 25 7 (wpE_waitDma2_eq 𝒱₀ (c : Thread nD τ) none Set.univ (src := sl3 sbM 25) (dst := sl3 rbM 25)) _) $$ HR CrX25 HO Hlev PrX25
  iintro ⟨HO, PrX25, Rb25⟩
  ihave Hh25 := (halves_split (ℓ := (sl3 rbM 25).view.loc (c : Thread nD τ)) (S := (sl3 rbM 25).view.set) (recvC m c)) $$ Rb25
  icases Hh25 with ⟨RbL25, RbR25⟩
  first | sl_exec | (rw [wp_ret]; imodintro; beta_reduce) | skip
  iapply (stepSendY m K c _ (Fin.ext (k0_dev60_eq c)) 25 6 7 rfl (by decide) _ fy25) $$ HR RbL25 Ry25 HO TsY25 TrY25
  iintro ⟨CsY25, HO⟩
  sl_exec
  iapply (stepWaitRX m K c 26 6 (wpE_waitDma2_eq 𝒱₀ (c : Thread nD τ) none Set.univ (src := sl3 sbM 26) (dst := sl3 rbM 26)) _) $$ HR CrX26 HO Hlev PrX26
  iintro ⟨HO, PrX26, Rb26⟩
  ihave Hh26 := (halves_split (ℓ := (sl3 rbM 26).view.loc (c : Thread nD τ)) (S := (sl3 rbM 26).view.set) (recvC m c)) $$ Rb26
  icases Hh26 with ⟨RbL26, RbR26⟩
  first | sl_exec | (rw [wp_ret]; imodintro; beta_reduce) | skip
  iapply (stepSendY m K c _ (Fin.ext (k0_dev61_eq c)) 26 5 6 rfl (by decide) _ fy26) $$ HR RbL26 Ry26 HO TsY26 TrY26
  iintro ⟨CsY26, HO⟩
  sl_exec
  iapply (stepWaitRX m K c 27 5 (wpE_waitDma2_eq 𝒱₀ (c : Thread nD τ) none Set.univ (src := sl3 sbM 27) (dst := sl3 rbM 27)) _) $$ HR CrX27 HO Hlev PrX27
  iintro ⟨HO, PrX27, Rb27⟩
  ihave Hh27 := (halves_split (ℓ := (sl3 rbM 27).view.loc (c : Thread nD τ)) (S := (sl3 rbM 27).view.set) (recvC m c)) $$ Rb27
  icases Hh27 with ⟨RbL27, RbR27⟩
  first | sl_exec | (rw [wp_ret]; imodintro; beta_reduce) | skip
  iapply (stepSendY m K c _ (Fin.ext (k0_dev62_eq c)) 27 4 5 rfl (by decide) _ fy27) $$ HR RbL27 Ry27 HO TsY27 TrY27
  iintro ⟨CsY27, HO⟩
  sl_exec
  iapply (stepWaitRX m K c 28 4 (wpE_waitDma2_eq 𝒱₀ (c : Thread nD τ) none Set.univ (src := sl3 sbM 28) (dst := sl3 rbM 28)) _) $$ HR CrX28 HO Hlev PrX28
  iintro ⟨HO, PrX28, Rb28⟩
  ihave Hh28 := (halves_split (ℓ := (sl3 rbM 28).view.loc (c : Thread nD τ)) (S := (sl3 rbM 28).view.set) (recvC m c)) $$ Rb28
  icases Hh28 with ⟨RbL28, RbR28⟩
  first | sl_exec | (rw [wp_ret]; imodintro; beta_reduce) | skip
  iapply (stepSendY m K c _ (Fin.ext (k0_dev63_eq c)) 28 3 4 rfl (by decide) _ fy28) $$ HR RbL28 Ry28 HO TsY28 TrY28
  iintro ⟨CsY28, HO⟩
  sl_exec
  iapply (stepWaitRX m K c 29 3 (wpE_waitDma2_eq 𝒱₀ (c : Thread nD τ) none Set.univ (src := sl3 sbM 29) (dst := sl3 rbM 29)) _) $$ HR CrX29 HO Hlev PrX29
  iintro ⟨HO, PrX29, Rb29⟩
  ihave Hh29 := (halves_split (ℓ := (sl3 rbM 29).view.loc (c : Thread nD τ)) (S := (sl3 rbM 29).view.set) (recvC m c)) $$ Rb29
  icases Hh29 with ⟨RbL29, RbR29⟩
  first | sl_exec | (rw [wp_ret]; imodintro; beta_reduce) | skip
  iapply (stepSendY m K c _ (Fin.ext (k0_dev64_eq c)) 29 2 3 rfl (by decide) _ fy29) $$ HR RbL29 Ry29 HO TsY29 TrY29
  iintro ⟨CsY29, HO⟩
  sl_exec
  iapply (stepWaitRX m K c 30 2 (wpE_waitDma2_eq 𝒱₀ (c : Thread nD τ) none Set.univ (src := sl3 sbM 30) (dst := sl3 rbM 30)) _) $$ HR CrX30 HO Hlev PrX30
  iintro ⟨HO, PrX30, Rb30⟩
  ihave Hh30 := (halves_split (ℓ := (sl3 rbM 30).view.loc (c : Thread nD τ)) (S := (sl3 rbM 30).view.set) (recvC m c)) $$ Rb30
  icases Hh30 with ⟨RbL30, RbR30⟩
  first | sl_exec | (rw [wp_ret]; imodintro; beta_reduce) | skip
  iapply (stepSendY m K c _ (Fin.ext (k0_dev65_eq c)) 30 1 2 rfl (by decide) _ fy30) $$ HR RbL30 Ry30 HO TsY30 TrY30
  iintro ⟨CsY30, HO⟩
  sl_exec
  iapply (stepWaitRX m K c 31 1 (wpE_waitDma2_eq 𝒱₀ (c : Thread nD τ) none Set.univ (src := sl3 sbM 31) (dst := sl3 rbM 31)) _) $$ HR CrX31 HO Hlev PrX31
  iintro ⟨HO, PrX31, Rb31⟩
  ihave Hh31 := (halves_split (ℓ := (sl3 rbM 31).view.loc (c : Thread nD τ)) (S := (sl3 rbM 31).view.set) (recvC m c)) $$ Rb31
  icases Hh31 with ⟨RbL31, RbR31⟩
  first | sl_exec | (rw [wp_ret]; imodintro; beta_reduce) | skip
  iapply (stepSendY m K c _ (Fin.ext (k0_dev66_eq c)) 31 0 1 rfl (by decide) _ fy31) $$ HR RbL31 Ry31 HO TsY31 TrY31
  iintro ⟨CsY31, HO⟩
  sl_exec
  ihave HO := (owes_remY0 c _) $$ HO
  -- the arrivals from the row mate
  iapply (stepWaitRY m K c 0 (wpE_waitDma2_eq 𝒱₀ (c : Thread nD τ) none Set.univ (src := sl3 rbM 0) (dst := oY c 0)) _) $$ HR CrY0 HO PrY0
  iintro ⟨HO, PrY0, Oy0⟩
  first | sl_exec | (rw [wp_ret]; imodintro; beta_reduce) | skip
  iapply (stepWaitRY m K c 1 (wpE_waitDma2_eq 𝒱₀ (c : Thread nD τ) none Set.univ (src := sl3 rbM 1) (dst := oY c 1)) _) $$ HR CrY1 HO PrY1
  iintro ⟨HO, PrY1, Oy1⟩
  first | sl_exec | (rw [wp_ret]; imodintro; beta_reduce) | skip
  iapply (stepWaitRY m K c 2 (wpE_waitDma2_eq 𝒱₀ (c : Thread nD τ) none Set.univ (src := sl3 rbM 2) (dst := oY c 2)) _) $$ HR CrY2 HO PrY2
  iintro ⟨HO, PrY2, Oy2⟩
  first | sl_exec | (rw [wp_ret]; imodintro; beta_reduce) | skip
  iapply (stepWaitRY m K c 3 (wpE_waitDma2_eq 𝒱₀ (c : Thread nD τ) none Set.univ (src := sl3 rbM 3) (dst := oY c 3)) _) $$ HR CrY3 HO PrY3
  iintro ⟨HO, PrY3, Oy3⟩
  first | sl_exec | (rw [wp_ret]; imodintro; beta_reduce) | skip
  iapply (stepWaitRY m K c 4 (wpE_waitDma2_eq 𝒱₀ (c : Thread nD τ) none Set.univ (src := sl3 rbM 4) (dst := oY c 4)) _) $$ HR CrY4 HO PrY4
  iintro ⟨HO, PrY4, Oy4⟩
  first | sl_exec | (rw [wp_ret]; imodintro; beta_reduce) | skip
  iapply (stepWaitRY m K c 5 (wpE_waitDma2_eq 𝒱₀ (c : Thread nD τ) none Set.univ (src := sl3 rbM 5) (dst := oY c 5)) _) $$ HR CrY5 HO PrY5
  iintro ⟨HO, PrY5, Oy5⟩
  first | sl_exec | (rw [wp_ret]; imodintro; beta_reduce) | skip
  iapply (stepWaitRY m K c 6 (wpE_waitDma2_eq 𝒱₀ (c : Thread nD τ) none Set.univ (src := sl3 rbM 6) (dst := oY c 6)) _) $$ HR CrY6 HO PrY6
  iintro ⟨HO, PrY6, Oy6⟩
  first | sl_exec | (rw [wp_ret]; imodintro; beta_reduce) | skip
  iapply (stepWaitRY m K c 7 (wpE_waitDma2_eq 𝒱₀ (c : Thread nD τ) none Set.univ (src := sl3 rbM 7) (dst := oY c 7)) _) $$ HR CrY7 HO PrY7
  iintro ⟨HO, PrY7, Oy7⟩
  first | sl_exec | (rw [wp_ret]; imodintro; beta_reduce) | skip
  iapply (stepWaitRY m K c 8 (wpE_waitDma2_eq 𝒱₀ (c : Thread nD τ) none Set.univ (src := sl3 rbM 8) (dst := oY c 8)) _) $$ HR CrY8 HO PrY8
  iintro ⟨HO, PrY8, Oy8⟩
  first | sl_exec | (rw [wp_ret]; imodintro; beta_reduce) | skip
  iapply (stepWaitRY m K c 9 (wpE_waitDma2_eq 𝒱₀ (c : Thread nD τ) none Set.univ (src := sl3 rbM 9) (dst := oY c 9)) _) $$ HR CrY9 HO PrY9
  iintro ⟨HO, PrY9, Oy9⟩
  first | sl_exec | (rw [wp_ret]; imodintro; beta_reduce) | skip
  iapply (stepWaitRY m K c 10 (wpE_waitDma2_eq 𝒱₀ (c : Thread nD τ) none Set.univ (src := sl3 rbM 10) (dst := oY c 10)) _) $$ HR CrY10 HO PrY10
  iintro ⟨HO, PrY10, Oy10⟩
  first | sl_exec | (rw [wp_ret]; imodintro; beta_reduce) | skip
  iapply (stepWaitRY m K c 11 (wpE_waitDma2_eq 𝒱₀ (c : Thread nD τ) none Set.univ (src := sl3 rbM 11) (dst := oY c 11)) _) $$ HR CrY11 HO PrY11
  iintro ⟨HO, PrY11, Oy11⟩
  first | sl_exec | (rw [wp_ret]; imodintro; beta_reduce) | skip
  iapply (stepWaitRY m K c 12 (wpE_waitDma2_eq 𝒱₀ (c : Thread nD τ) none Set.univ (src := sl3 rbM 12) (dst := oY c 12)) _) $$ HR CrY12 HO PrY12
  iintro ⟨HO, PrY12, Oy12⟩
  first | sl_exec | (rw [wp_ret]; imodintro; beta_reduce) | skip
  iapply (stepWaitRY m K c 13 (wpE_waitDma2_eq 𝒱₀ (c : Thread nD τ) none Set.univ (src := sl3 rbM 13) (dst := oY c 13)) _) $$ HR CrY13 HO PrY13
  iintro ⟨HO, PrY13, Oy13⟩
  first | sl_exec | (rw [wp_ret]; imodintro; beta_reduce) | skip
  iapply (stepWaitRY m K c 14 (wpE_waitDma2_eq 𝒱₀ (c : Thread nD τ) none Set.univ (src := sl3 rbM 14) (dst := oY c 14)) _) $$ HR CrY14 HO PrY14
  iintro ⟨HO, PrY14, Oy14⟩
  first | sl_exec | (rw [wp_ret]; imodintro; beta_reduce) | skip
  iapply (stepWaitRY m K c 15 (wpE_waitDma2_eq 𝒱₀ (c : Thread nD τ) none Set.univ (src := sl3 rbM 15) (dst := oY c 15)) _) $$ HR CrY15 HO PrY15
  iintro ⟨HO, PrY15, Oy15⟩
  first | sl_exec | (rw [wp_ret]; imodintro; beta_reduce) | skip
  iapply (stepWaitRY m K c 16 (wpE_waitDma2_eq 𝒱₀ (c : Thread nD τ) none Set.univ (src := sl3 rbM 16) (dst := oY c 16)) _) $$ HR CrY16 HO PrY16
  iintro ⟨HO, PrY16, Oy16⟩
  first | sl_exec | (rw [wp_ret]; imodintro; beta_reduce) | skip
  iapply (stepWaitRY m K c 17 (wpE_waitDma2_eq 𝒱₀ (c : Thread nD τ) none Set.univ (src := sl3 rbM 17) (dst := oY c 17)) _) $$ HR CrY17 HO PrY17
  iintro ⟨HO, PrY17, Oy17⟩
  first | sl_exec | (rw [wp_ret]; imodintro; beta_reduce) | skip
  iapply (stepWaitRY m K c 18 (wpE_waitDma2_eq 𝒱₀ (c : Thread nD τ) none Set.univ (src := sl3 rbM 18) (dst := oY c 18)) _) $$ HR CrY18 HO PrY18
  iintro ⟨HO, PrY18, Oy18⟩
  first | sl_exec | (rw [wp_ret]; imodintro; beta_reduce) | skip
  iapply (stepWaitRY m K c 19 (wpE_waitDma2_eq 𝒱₀ (c : Thread nD τ) none Set.univ (src := sl3 rbM 19) (dst := oY c 19)) _) $$ HR CrY19 HO PrY19
  iintro ⟨HO, PrY19, Oy19⟩
  first | sl_exec | (rw [wp_ret]; imodintro; beta_reduce) | skip
  iapply (stepWaitRY m K c 20 (wpE_waitDma2_eq 𝒱₀ (c : Thread nD τ) none Set.univ (src := sl3 rbM 20) (dst := oY c 20)) _) $$ HR CrY20 HO PrY20
  iintro ⟨HO, PrY20, Oy20⟩
  first | sl_exec | (rw [wp_ret]; imodintro; beta_reduce) | skip
  iapply (stepWaitRY m K c 21 (wpE_waitDma2_eq 𝒱₀ (c : Thread nD τ) none Set.univ (src := sl3 rbM 21) (dst := oY c 21)) _) $$ HR CrY21 HO PrY21
  iintro ⟨HO, PrY21, Oy21⟩
  first | sl_exec | (rw [wp_ret]; imodintro; beta_reduce) | skip
  iapply (stepWaitRY m K c 22 (wpE_waitDma2_eq 𝒱₀ (c : Thread nD τ) none Set.univ (src := sl3 rbM 22) (dst := oY c 22)) _) $$ HR CrY22 HO PrY22
  iintro ⟨HO, PrY22, Oy22⟩
  first | sl_exec | (rw [wp_ret]; imodintro; beta_reduce) | skip
  iapply (stepWaitRY m K c 23 (wpE_waitDma2_eq 𝒱₀ (c : Thread nD τ) none Set.univ (src := sl3 rbM 23) (dst := oY c 23)) _) $$ HR CrY23 HO PrY23
  iintro ⟨HO, PrY23, Oy23⟩
  first | sl_exec | (rw [wp_ret]; imodintro; beta_reduce) | skip
  iapply (stepWaitRY m K c 24 (wpE_waitDma2_eq 𝒱₀ (c : Thread nD τ) none Set.univ (src := sl3 rbM 24) (dst := oY c 24)) _) $$ HR CrY24 HO PrY24
  iintro ⟨HO, PrY24, Oy24⟩
  first | sl_exec | (rw [wp_ret]; imodintro; beta_reduce) | skip
  iapply (stepWaitRY m K c 25 (wpE_waitDma2_eq 𝒱₀ (c : Thread nD τ) none Set.univ (src := sl3 rbM 25) (dst := oY c 25)) _) $$ HR CrY25 HO PrY25
  iintro ⟨HO, PrY25, Oy25⟩
  first | sl_exec | (rw [wp_ret]; imodintro; beta_reduce) | skip
  iapply (stepWaitRY m K c 26 (wpE_waitDma2_eq 𝒱₀ (c : Thread nD τ) none Set.univ (src := sl3 rbM 26) (dst := oY c 26)) _) $$ HR CrY26 HO PrY26
  iintro ⟨HO, PrY26, Oy26⟩
  first | sl_exec | (rw [wp_ret]; imodintro; beta_reduce) | skip
  iapply (stepWaitRY m K c 27 (wpE_waitDma2_eq 𝒱₀ (c : Thread nD τ) none Set.univ (src := sl3 rbM 27) (dst := oY c 27)) _) $$ HR CrY27 HO PrY27
  iintro ⟨HO, PrY27, Oy27⟩
  first | sl_exec | (rw [wp_ret]; imodintro; beta_reduce) | skip
  iapply (stepWaitRY m K c 28 (wpE_waitDma2_eq 𝒱₀ (c : Thread nD τ) none Set.univ (src := sl3 rbM 28) (dst := oY c 28)) _) $$ HR CrY28 HO PrY28
  iintro ⟨HO, PrY28, Oy28⟩
  first | sl_exec | (rw [wp_ret]; imodintro; beta_reduce) | skip
  iapply (stepWaitRY m K c 29 (wpE_waitDma2_eq 𝒱₀ (c : Thread nD τ) none Set.univ (src := sl3 rbM 29) (dst := oY c 29)) _) $$ HR CrY29 HO PrY29
  iintro ⟨HO, PrY29, Oy29⟩
  first | sl_exec | (rw [wp_ret]; imodintro; beta_reduce) | skip
  iapply (stepWaitRY m K c 30 (wpE_waitDma2_eq 𝒱₀ (c : Thread nD τ) none Set.univ (src := sl3 rbM 30) (dst := oY c 30)) _) $$ HR CrY30 HO PrY30
  iintro ⟨HO, PrY30, Oy30⟩
  first | sl_exec | (rw [wp_ret]; imodintro; beta_reduce) | skip
  iapply (stepWaitRY m K c 31 (wpE_waitDma2_eq 𝒱₀ (c : Thread nD τ) none Set.univ (src := sl3 rbM 31) (dst := oY c 31)) _) $$ HR CrY31 HO PrY31
  iintro ⟨HO, PrY31, Oy31⟩
  first | sl_exec | (rw [wp_ret]; imodintro; beta_reduce) | skip
  -- the departures
  iapply (stepWaitSX m K c 0 (wpE_waitDma2_eq 𝒱₀ (c : Thread nD τ) none Set.univ (src := sl3 rbM 0) (dst := sl3 sbM 0)) _) $$ HR CsX0 HO PsX0
  iintro ⟨HO, PsX0, ⟨%fb0, Sb0⟩⟩
  first | sl_exec | (rw [wp_ret]; imodintro; beta_reduce) | skip
  iapply (stepWaitSX m K c 1 (wpE_waitDma2_eq 𝒱₀ (c : Thread nD τ) none Set.univ (src := sl3 rbM 1) (dst := sl3 sbM 1)) _) $$ HR CsX1 HO PsX1
  iintro ⟨HO, PsX1, ⟨%fb1, Sb1⟩⟩
  first | sl_exec | (rw [wp_ret]; imodintro; beta_reduce) | skip
  iapply (stepWaitSX m K c 2 (wpE_waitDma2_eq 𝒱₀ (c : Thread nD τ) none Set.univ (src := sl3 rbM 2) (dst := sl3 sbM 2)) _) $$ HR CsX2 HO PsX2
  iintro ⟨HO, PsX2, ⟨%fb2, Sb2⟩⟩
  first | sl_exec | (rw [wp_ret]; imodintro; beta_reduce) | skip
  iapply (stepWaitSX m K c 3 (wpE_waitDma2_eq 𝒱₀ (c : Thread nD τ) none Set.univ (src := sl3 rbM 3) (dst := sl3 sbM 3)) _) $$ HR CsX3 HO PsX3
  iintro ⟨HO, PsX3, ⟨%fb3, Sb3⟩⟩
  first | sl_exec | (rw [wp_ret]; imodintro; beta_reduce) | skip
  iapply (stepWaitSX m K c 4 (wpE_waitDma2_eq 𝒱₀ (c : Thread nD τ) none Set.univ (src := sl3 rbM 4) (dst := sl3 sbM 4)) _) $$ HR CsX4 HO PsX4
  iintro ⟨HO, PsX4, ⟨%fb4, Sb4⟩⟩
  first | sl_exec | (rw [wp_ret]; imodintro; beta_reduce) | skip
  iapply (stepWaitSX m K c 5 (wpE_waitDma2_eq 𝒱₀ (c : Thread nD τ) none Set.univ (src := sl3 rbM 5) (dst := sl3 sbM 5)) _) $$ HR CsX5 HO PsX5
  iintro ⟨HO, PsX5, ⟨%fb5, Sb5⟩⟩
  first | sl_exec | (rw [wp_ret]; imodintro; beta_reduce) | skip
  iapply (stepWaitSX m K c 6 (wpE_waitDma2_eq 𝒱₀ (c : Thread nD τ) none Set.univ (src := sl3 rbM 6) (dst := sl3 sbM 6)) _) $$ HR CsX6 HO PsX6
  iintro ⟨HO, PsX6, ⟨%fb6, Sb6⟩⟩
  first | sl_exec | (rw [wp_ret]; imodintro; beta_reduce) | skip
  iapply (stepWaitSX m K c 7 (wpE_waitDma2_eq 𝒱₀ (c : Thread nD τ) none Set.univ (src := sl3 rbM 7) (dst := sl3 sbM 7)) _) $$ HR CsX7 HO PsX7
  iintro ⟨HO, PsX7, ⟨%fb7, Sb7⟩⟩
  first | sl_exec | (rw [wp_ret]; imodintro; beta_reduce) | skip
  iapply (stepWaitSX m K c 8 (wpE_waitDma2_eq 𝒱₀ (c : Thread nD τ) none Set.univ (src := sl3 rbM 8) (dst := sl3 sbM 8)) _) $$ HR CsX8 HO PsX8
  iintro ⟨HO, PsX8, ⟨%fb8, Sb8⟩⟩
  first | sl_exec | (rw [wp_ret]; imodintro; beta_reduce) | skip
  iapply (stepWaitSX m K c 9 (wpE_waitDma2_eq 𝒱₀ (c : Thread nD τ) none Set.univ (src := sl3 rbM 9) (dst := sl3 sbM 9)) _) $$ HR CsX9 HO PsX9
  iintro ⟨HO, PsX9, ⟨%fb9, Sb9⟩⟩
  first | sl_exec | (rw [wp_ret]; imodintro; beta_reduce) | skip
  iapply (stepWaitSX m K c 10 (wpE_waitDma2_eq 𝒱₀ (c : Thread nD τ) none Set.univ (src := sl3 rbM 10) (dst := sl3 sbM 10)) _) $$ HR CsX10 HO PsX10
  iintro ⟨HO, PsX10, ⟨%fb10, Sb10⟩⟩
  first | sl_exec | (rw [wp_ret]; imodintro; beta_reduce) | skip
  iapply (stepWaitSX m K c 11 (wpE_waitDma2_eq 𝒱₀ (c : Thread nD τ) none Set.univ (src := sl3 rbM 11) (dst := sl3 sbM 11)) _) $$ HR CsX11 HO PsX11
  iintro ⟨HO, PsX11, ⟨%fb11, Sb11⟩⟩
  first | sl_exec | (rw [wp_ret]; imodintro; beta_reduce) | skip
  iapply (stepWaitSX m K c 12 (wpE_waitDma2_eq 𝒱₀ (c : Thread nD τ) none Set.univ (src := sl3 rbM 12) (dst := sl3 sbM 12)) _) $$ HR CsX12 HO PsX12
  iintro ⟨HO, PsX12, ⟨%fb12, Sb12⟩⟩
  first | sl_exec | (rw [wp_ret]; imodintro; beta_reduce) | skip
  iapply (stepWaitSX m K c 13 (wpE_waitDma2_eq 𝒱₀ (c : Thread nD τ) none Set.univ (src := sl3 rbM 13) (dst := sl3 sbM 13)) _) $$ HR CsX13 HO PsX13
  iintro ⟨HO, PsX13, ⟨%fb13, Sb13⟩⟩
  first | sl_exec | (rw [wp_ret]; imodintro; beta_reduce) | skip
  iapply (stepWaitSX m K c 14 (wpE_waitDma2_eq 𝒱₀ (c : Thread nD τ) none Set.univ (src := sl3 rbM 14) (dst := sl3 sbM 14)) _) $$ HR CsX14 HO PsX14
  iintro ⟨HO, PsX14, ⟨%fb14, Sb14⟩⟩
  first | sl_exec | (rw [wp_ret]; imodintro; beta_reduce) | skip
  iapply (stepWaitSX m K c 15 (wpE_waitDma2_eq 𝒱₀ (c : Thread nD τ) none Set.univ (src := sl3 rbM 15) (dst := sl3 sbM 15)) _) $$ HR CsX15 HO PsX15
  iintro ⟨HO, PsX15, ⟨%fb15, Sb15⟩⟩
  first | sl_exec | (rw [wp_ret]; imodintro; beta_reduce) | skip
  iapply (stepWaitSX m K c 16 (wpE_waitDma2_eq 𝒱₀ (c : Thread nD τ) none Set.univ (src := sl3 rbM 16) (dst := sl3 sbM 16)) _) $$ HR CsX16 HO PsX16
  iintro ⟨HO, PsX16, ⟨%fb16, Sb16⟩⟩
  first | sl_exec | (rw [wp_ret]; imodintro; beta_reduce) | skip
  iapply (stepWaitSX m K c 17 (wpE_waitDma2_eq 𝒱₀ (c : Thread nD τ) none Set.univ (src := sl3 rbM 17) (dst := sl3 sbM 17)) _) $$ HR CsX17 HO PsX17
  iintro ⟨HO, PsX17, ⟨%fb17, Sb17⟩⟩
  first | sl_exec | (rw [wp_ret]; imodintro; beta_reduce) | skip
  iapply (stepWaitSX m K c 18 (wpE_waitDma2_eq 𝒱₀ (c : Thread nD τ) none Set.univ (src := sl3 rbM 18) (dst := sl3 sbM 18)) _) $$ HR CsX18 HO PsX18
  iintro ⟨HO, PsX18, ⟨%fb18, Sb18⟩⟩
  first | sl_exec | (rw [wp_ret]; imodintro; beta_reduce) | skip
  iapply (stepWaitSX m K c 19 (wpE_waitDma2_eq 𝒱₀ (c : Thread nD τ) none Set.univ (src := sl3 rbM 19) (dst := sl3 sbM 19)) _) $$ HR CsX19 HO PsX19
  iintro ⟨HO, PsX19, ⟨%fb19, Sb19⟩⟩
  first | sl_exec | (rw [wp_ret]; imodintro; beta_reduce) | skip
  iapply (stepWaitSX m K c 20 (wpE_waitDma2_eq 𝒱₀ (c : Thread nD τ) none Set.univ (src := sl3 rbM 20) (dst := sl3 sbM 20)) _) $$ HR CsX20 HO PsX20
  iintro ⟨HO, PsX20, ⟨%fb20, Sb20⟩⟩
  first | sl_exec | (rw [wp_ret]; imodintro; beta_reduce) | skip
  iapply (stepWaitSX m K c 21 (wpE_waitDma2_eq 𝒱₀ (c : Thread nD τ) none Set.univ (src := sl3 rbM 21) (dst := sl3 sbM 21)) _) $$ HR CsX21 HO PsX21
  iintro ⟨HO, PsX21, ⟨%fb21, Sb21⟩⟩
  first | sl_exec | (rw [wp_ret]; imodintro; beta_reduce) | skip
  iapply (stepWaitSX m K c 22 (wpE_waitDma2_eq 𝒱₀ (c : Thread nD τ) none Set.univ (src := sl3 rbM 22) (dst := sl3 sbM 22)) _) $$ HR CsX22 HO PsX22
  iintro ⟨HO, PsX22, ⟨%fb22, Sb22⟩⟩
  first | sl_exec | (rw [wp_ret]; imodintro; beta_reduce) | skip
  iapply (stepWaitSX m K c 23 (wpE_waitDma2_eq 𝒱₀ (c : Thread nD τ) none Set.univ (src := sl3 rbM 23) (dst := sl3 sbM 23)) _) $$ HR CsX23 HO PsX23
  iintro ⟨HO, PsX23, ⟨%fb23, Sb23⟩⟩
  first | sl_exec | (rw [wp_ret]; imodintro; beta_reduce) | skip
  iapply (stepWaitSX m K c 24 (wpE_waitDma2_eq 𝒱₀ (c : Thread nD τ) none Set.univ (src := sl3 rbM 24) (dst := sl3 sbM 24)) _) $$ HR CsX24 HO PsX24
  iintro ⟨HO, PsX24, ⟨%fb24, Sb24⟩⟩
  first | sl_exec | (rw [wp_ret]; imodintro; beta_reduce) | skip
  iapply (stepWaitSX m K c 25 (wpE_waitDma2_eq 𝒱₀ (c : Thread nD τ) none Set.univ (src := sl3 rbM 25) (dst := sl3 sbM 25)) _) $$ HR CsX25 HO PsX25
  iintro ⟨HO, PsX25, ⟨%fb25, Sb25⟩⟩
  first | sl_exec | (rw [wp_ret]; imodintro; beta_reduce) | skip
  iapply (stepWaitSX m K c 26 (wpE_waitDma2_eq 𝒱₀ (c : Thread nD τ) none Set.univ (src := sl3 rbM 26) (dst := sl3 sbM 26)) _) $$ HR CsX26 HO PsX26
  iintro ⟨HO, PsX26, ⟨%fb26, Sb26⟩⟩
  first | sl_exec | (rw [wp_ret]; imodintro; beta_reduce) | skip
  iapply (stepWaitSX m K c 27 (wpE_waitDma2_eq 𝒱₀ (c : Thread nD τ) none Set.univ (src := sl3 rbM 27) (dst := sl3 sbM 27)) _) $$ HR CsX27 HO PsX27
  iintro ⟨HO, PsX27, ⟨%fb27, Sb27⟩⟩
  first | sl_exec | (rw [wp_ret]; imodintro; beta_reduce) | skip
  iapply (stepWaitSX m K c 28 (wpE_waitDma2_eq 𝒱₀ (c : Thread nD τ) none Set.univ (src := sl3 rbM 28) (dst := sl3 sbM 28)) _) $$ HR CsX28 HO PsX28
  iintro ⟨HO, PsX28, ⟨%fb28, Sb28⟩⟩
  first | sl_exec | (rw [wp_ret]; imodintro; beta_reduce) | skip
  iapply (stepWaitSX m K c 29 (wpE_waitDma2_eq 𝒱₀ (c : Thread nD τ) none Set.univ (src := sl3 rbM 29) (dst := sl3 sbM 29)) _) $$ HR CsX29 HO PsX29
  iintro ⟨HO, PsX29, ⟨%fb29, Sb29⟩⟩
  first | sl_exec | (rw [wp_ret]; imodintro; beta_reduce) | skip
  iapply (stepWaitSX m K c 30 (wpE_waitDma2_eq 𝒱₀ (c : Thread nD τ) none Set.univ (src := sl3 rbM 30) (dst := sl3 sbM 30)) _) $$ HR CsX30 HO PsX30
  iintro ⟨HO, PsX30, ⟨%fb30, Sb30⟩⟩
  first | sl_exec | (rw [wp_ret]; imodintro; beta_reduce) | skip
  iapply (stepWaitSX m K c 31 (wpE_waitDma2_eq 𝒱₀ (c : Thread nD τ) none Set.univ (src := sl3 rbM 31) (dst := sl3 sbM 31)) _) $$ HR CsX31 HO PsX31
  iintro ⟨HO, PsX31, ⟨%fb31, Sb31⟩⟩
  first | sl_exec | (rw [wp_ret]; imodintro; beta_reduce) | skip
  iapply (stepWaitSY m K c 0 (wpE_waitDma2_eq 𝒱₀ (c : Thread nD τ) none Set.univ (src := oX c 0) (dst := sl3 rbM 0)) _) $$ HR CsY0 HO PsY0
  iintro ⟨HO, PsY0, RbL0⟩
  first | sl_exec | (rw [wp_ret]; imodintro; beta_reduce) | skip
  iapply (stepWaitSY m K c 1 (wpE_waitDma2_eq 𝒱₀ (c : Thread nD τ) none Set.univ (src := oX c 1) (dst := sl3 rbM 1)) _) $$ HR CsY1 HO PsY1
  iintro ⟨HO, PsY1, RbL1⟩
  first | sl_exec | (rw [wp_ret]; imodintro; beta_reduce) | skip
  iapply (stepWaitSY m K c 2 (wpE_waitDma2_eq 𝒱₀ (c : Thread nD τ) none Set.univ (src := oX c 2) (dst := sl3 rbM 2)) _) $$ HR CsY2 HO PsY2
  iintro ⟨HO, PsY2, RbL2⟩
  first | sl_exec | (rw [wp_ret]; imodintro; beta_reduce) | skip
  iapply (stepWaitSY m K c 3 (wpE_waitDma2_eq 𝒱₀ (c : Thread nD τ) none Set.univ (src := oX c 3) (dst := sl3 rbM 3)) _) $$ HR CsY3 HO PsY3
  iintro ⟨HO, PsY3, RbL3⟩
  first | sl_exec | (rw [wp_ret]; imodintro; beta_reduce) | skip
  iapply (stepWaitSY m K c 4 (wpE_waitDma2_eq 𝒱₀ (c : Thread nD τ) none Set.univ (src := oX c 4) (dst := sl3 rbM 4)) _) $$ HR CsY4 HO PsY4
  iintro ⟨HO, PsY4, RbL4⟩
  first | sl_exec | (rw [wp_ret]; imodintro; beta_reduce) | skip
  iapply (stepWaitSY m K c 5 (wpE_waitDma2_eq 𝒱₀ (c : Thread nD τ) none Set.univ (src := oX c 5) (dst := sl3 rbM 5)) _) $$ HR CsY5 HO PsY5
  iintro ⟨HO, PsY5, RbL5⟩
  first | sl_exec | (rw [wp_ret]; imodintro; beta_reduce) | skip
  iapply (stepWaitSY m K c 6 (wpE_waitDma2_eq 𝒱₀ (c : Thread nD τ) none Set.univ (src := oX c 6) (dst := sl3 rbM 6)) _) $$ HR CsY6 HO PsY6
  iintro ⟨HO, PsY6, RbL6⟩
  first | sl_exec | (rw [wp_ret]; imodintro; beta_reduce) | skip
  iapply (stepWaitSY m K c 7 (wpE_waitDma2_eq 𝒱₀ (c : Thread nD τ) none Set.univ (src := oX c 7) (dst := sl3 rbM 7)) _) $$ HR CsY7 HO PsY7
  iintro ⟨HO, PsY7, RbL7⟩
  first | sl_exec | (rw [wp_ret]; imodintro; beta_reduce) | skip
  iapply (stepWaitSY m K c 8 (wpE_waitDma2_eq 𝒱₀ (c : Thread nD τ) none Set.univ (src := oX c 8) (dst := sl3 rbM 8)) _) $$ HR CsY8 HO PsY8
  iintro ⟨HO, PsY8, RbL8⟩
  first | sl_exec | (rw [wp_ret]; imodintro; beta_reduce) | skip
  iapply (stepWaitSY m K c 9 (wpE_waitDma2_eq 𝒱₀ (c : Thread nD τ) none Set.univ (src := oX c 9) (dst := sl3 rbM 9)) _) $$ HR CsY9 HO PsY9
  iintro ⟨HO, PsY9, RbL9⟩
  first | sl_exec | (rw [wp_ret]; imodintro; beta_reduce) | skip
  iapply (stepWaitSY m K c 10 (wpE_waitDma2_eq 𝒱₀ (c : Thread nD τ) none Set.univ (src := oX c 10) (dst := sl3 rbM 10)) _) $$ HR CsY10 HO PsY10
  iintro ⟨HO, PsY10, RbL10⟩
  first | sl_exec | (rw [wp_ret]; imodintro; beta_reduce) | skip
  iapply (stepWaitSY m K c 11 (wpE_waitDma2_eq 𝒱₀ (c : Thread nD τ) none Set.univ (src := oX c 11) (dst := sl3 rbM 11)) _) $$ HR CsY11 HO PsY11
  iintro ⟨HO, PsY11, RbL11⟩
  first | sl_exec | (rw [wp_ret]; imodintro; beta_reduce) | skip
  iapply (stepWaitSY m K c 12 (wpE_waitDma2_eq 𝒱₀ (c : Thread nD τ) none Set.univ (src := oX c 12) (dst := sl3 rbM 12)) _) $$ HR CsY12 HO PsY12
  iintro ⟨HO, PsY12, RbL12⟩
  first | sl_exec | (rw [wp_ret]; imodintro; beta_reduce) | skip
  iapply (stepWaitSY m K c 13 (wpE_waitDma2_eq 𝒱₀ (c : Thread nD τ) none Set.univ (src := oX c 13) (dst := sl3 rbM 13)) _) $$ HR CsY13 HO PsY13
  iintro ⟨HO, PsY13, RbL13⟩
  first | sl_exec | (rw [wp_ret]; imodintro; beta_reduce) | skip
  iapply (stepWaitSY m K c 14 (wpE_waitDma2_eq 𝒱₀ (c : Thread nD τ) none Set.univ (src := oX c 14) (dst := sl3 rbM 14)) _) $$ HR CsY14 HO PsY14
  iintro ⟨HO, PsY14, RbL14⟩
  first | sl_exec | (rw [wp_ret]; imodintro; beta_reduce) | skip
  iapply (stepWaitSY m K c 15 (wpE_waitDma2_eq 𝒱₀ (c : Thread nD τ) none Set.univ (src := oX c 15) (dst := sl3 rbM 15)) _) $$ HR CsY15 HO PsY15
  iintro ⟨HO, PsY15, RbL15⟩
  first | sl_exec | (rw [wp_ret]; imodintro; beta_reduce) | skip
  iapply (stepWaitSY m K c 16 (wpE_waitDma2_eq 𝒱₀ (c : Thread nD τ) none Set.univ (src := oX c 16) (dst := sl3 rbM 16)) _) $$ HR CsY16 HO PsY16
  iintro ⟨HO, PsY16, RbL16⟩
  first | sl_exec | (rw [wp_ret]; imodintro; beta_reduce) | skip
  iapply (stepWaitSY m K c 17 (wpE_waitDma2_eq 𝒱₀ (c : Thread nD τ) none Set.univ (src := oX c 17) (dst := sl3 rbM 17)) _) $$ HR CsY17 HO PsY17
  iintro ⟨HO, PsY17, RbL17⟩
  first | sl_exec | (rw [wp_ret]; imodintro; beta_reduce) | skip
  iapply (stepWaitSY m K c 18 (wpE_waitDma2_eq 𝒱₀ (c : Thread nD τ) none Set.univ (src := oX c 18) (dst := sl3 rbM 18)) _) $$ HR CsY18 HO PsY18
  iintro ⟨HO, PsY18, RbL18⟩
  first | sl_exec | (rw [wp_ret]; imodintro; beta_reduce) | skip
  iapply (stepWaitSY m K c 19 (wpE_waitDma2_eq 𝒱₀ (c : Thread nD τ) none Set.univ (src := oX c 19) (dst := sl3 rbM 19)) _) $$ HR CsY19 HO PsY19
  iintro ⟨HO, PsY19, RbL19⟩
  first | sl_exec | (rw [wp_ret]; imodintro; beta_reduce) | skip
  iapply (stepWaitSY m K c 20 (wpE_waitDma2_eq 𝒱₀ (c : Thread nD τ) none Set.univ (src := oX c 20) (dst := sl3 rbM 20)) _) $$ HR CsY20 HO PsY20
  iintro ⟨HO, PsY20, RbL20⟩
  first | sl_exec | (rw [wp_ret]; imodintro; beta_reduce) | skip
  iapply (stepWaitSY m K c 21 (wpE_waitDma2_eq 𝒱₀ (c : Thread nD τ) none Set.univ (src := oX c 21) (dst := sl3 rbM 21)) _) $$ HR CsY21 HO PsY21
  iintro ⟨HO, PsY21, RbL21⟩
  first | sl_exec | (rw [wp_ret]; imodintro; beta_reduce) | skip
  iapply (stepWaitSY m K c 22 (wpE_waitDma2_eq 𝒱₀ (c : Thread nD τ) none Set.univ (src := oX c 22) (dst := sl3 rbM 22)) _) $$ HR CsY22 HO PsY22
  iintro ⟨HO, PsY22, RbL22⟩
  first | sl_exec | (rw [wp_ret]; imodintro; beta_reduce) | skip
  iapply (stepWaitSY m K c 23 (wpE_waitDma2_eq 𝒱₀ (c : Thread nD τ) none Set.univ (src := oX c 23) (dst := sl3 rbM 23)) _) $$ HR CsY23 HO PsY23
  iintro ⟨HO, PsY23, RbL23⟩
  first | sl_exec | (rw [wp_ret]; imodintro; beta_reduce) | skip
  iapply (stepWaitSY m K c 24 (wpE_waitDma2_eq 𝒱₀ (c : Thread nD τ) none Set.univ (src := oX c 24) (dst := sl3 rbM 24)) _) $$ HR CsY24 HO PsY24
  iintro ⟨HO, PsY24, RbL24⟩
  first | sl_exec | (rw [wp_ret]; imodintro; beta_reduce) | skip
  iapply (stepWaitSY m K c 25 (wpE_waitDma2_eq 𝒱₀ (c : Thread nD τ) none Set.univ (src := oX c 25) (dst := sl3 rbM 25)) _) $$ HR CsY25 HO PsY25
  iintro ⟨HO, PsY25, RbL25⟩
  first | sl_exec | (rw [wp_ret]; imodintro; beta_reduce) | skip
  iapply (stepWaitSY m K c 26 (wpE_waitDma2_eq 𝒱₀ (c : Thread nD τ) none Set.univ (src := oX c 26) (dst := sl3 rbM 26)) _) $$ HR CsY26 HO PsY26
  iintro ⟨HO, PsY26, RbL26⟩
  first | sl_exec | (rw [wp_ret]; imodintro; beta_reduce) | skip
  iapply (stepWaitSY m K c 27 (wpE_waitDma2_eq 𝒱₀ (c : Thread nD τ) none Set.univ (src := oX c 27) (dst := sl3 rbM 27)) _) $$ HR CsY27 HO PsY27
  iintro ⟨HO, PsY27, RbL27⟩
  first | sl_exec | (rw [wp_ret]; imodintro; beta_reduce) | skip
  iapply (stepWaitSY m K c 28 (wpE_waitDma2_eq 𝒱₀ (c : Thread nD τ) none Set.univ (src := oX c 28) (dst := sl3 rbM 28)) _) $$ HR CsY28 HO PsY28
  iintro ⟨HO, PsY28, RbL28⟩
  first | sl_exec | (rw [wp_ret]; imodintro; beta_reduce) | skip
  iapply (stepWaitSY m K c 29 (wpE_waitDma2_eq 𝒱₀ (c : Thread nD τ) none Set.univ (src := oX c 29) (dst := sl3 rbM 29)) _) $$ HR CsY29 HO PsY29
  iintro ⟨HO, PsY29, RbL29⟩
  first | sl_exec | (rw [wp_ret]; imodintro; beta_reduce) | skip
  iapply (stepWaitSY m K c 30 (wpE_waitDma2_eq 𝒱₀ (c : Thread nD τ) none Set.univ (src := oX c 30) (dst := sl3 rbM 30)) _) $$ HR CsY30 HO PsY30
  iintro ⟨HO, PsY30, RbL30⟩
  first | sl_exec | (rw [wp_ret]; imodintro; beta_reduce) | skip
  iapply (stepWaitSY m K c 31 (wpE_waitDma2_eq 𝒱₀ (c : Thread nD τ) none Set.univ (src := oX c 31) (dst := sl3 rbM 31)) _) $$ HR CsY31 HO PsY31
  iintro ⟨HO, PsY31, RbL31⟩
  first | sl_exec | (rw [wp_ret]; imodintro; beta_reduce) | skip
  -- what the result's pieces hold
  sl_unfold_run_names
  ihave Ox0 : (((oX c 0).view.loc (c : Thread nD τ) ↦[(oX c 0).view.set]{fullShare} outC m c)) $$ [Ox0]
  · iapply (Entails.of_eq (pointsTo_congr (fstored_val m c 0 _)))
    iexact Ox0
  ihave Ox1 : (((oX c 1).view.loc (c : Thread nD τ) ↦[(oX c 1).view.set]{fullShare} outC m c)) $$ [Ox1]
  · iapply (Entails.of_eq (pointsTo_congr (fstored_val m c 1 _)))
    iexact Ox1
  ihave Ox2 : (((oX c 2).view.loc (c : Thread nD τ) ↦[(oX c 2).view.set]{fullShare} outC m c)) $$ [Ox2]
  · iapply (Entails.of_eq (pointsTo_congr (fstored_val m c 2 _)))
    iexact Ox2
  ihave Ox3 : (((oX c 3).view.loc (c : Thread nD τ) ↦[(oX c 3).view.set]{fullShare} outC m c)) $$ [Ox3]
  · iapply (Entails.of_eq (pointsTo_congr (fstored_val m c 3 _)))
    iexact Ox3
  ihave Ox4 : (((oX c 4).view.loc (c : Thread nD τ) ↦[(oX c 4).view.set]{fullShare} outC m c)) $$ [Ox4]
  · iapply (Entails.of_eq (pointsTo_congr (fstored_val m c 4 _)))
    iexact Ox4
  ihave Ox5 : (((oX c 5).view.loc (c : Thread nD τ) ↦[(oX c 5).view.set]{fullShare} outC m c)) $$ [Ox5]
  · iapply (Entails.of_eq (pointsTo_congr (fstored_val m c 5 _)))
    iexact Ox5
  ihave Ox6 : (((oX c 6).view.loc (c : Thread nD τ) ↦[(oX c 6).view.set]{fullShare} outC m c)) $$ [Ox6]
  · iapply (Entails.of_eq (pointsTo_congr (fstored_val m c 6 _)))
    iexact Ox6
  ihave Ox7 : (((oX c 7).view.loc (c : Thread nD τ) ↦[(oX c 7).view.set]{fullShare} outC m c)) $$ [Ox7]
  · iapply (Entails.of_eq (pointsTo_congr (fstored_val m c 7 _)))
    iexact Ox7
  ihave Ox8 : (((oX c 8).view.loc (c : Thread nD τ) ↦[(oX c 8).view.set]{fullShare} outC m c)) $$ [Ox8]
  · iapply (Entails.of_eq (pointsTo_congr (fstored_val m c 8 _)))
    iexact Ox8
  ihave Ox9 : (((oX c 9).view.loc (c : Thread nD τ) ↦[(oX c 9).view.set]{fullShare} outC m c)) $$ [Ox9]
  · iapply (Entails.of_eq (pointsTo_congr (fstored_val m c 9 _)))
    iexact Ox9
  ihave Ox10 : (((oX c 10).view.loc (c : Thread nD τ) ↦[(oX c 10).view.set]{fullShare} outC m c)) $$ [Ox10]
  · iapply (Entails.of_eq (pointsTo_congr (fstored_val m c 10 _)))
    iexact Ox10
  ihave Ox11 : (((oX c 11).view.loc (c : Thread nD τ) ↦[(oX c 11).view.set]{fullShare} outC m c)) $$ [Ox11]
  · iapply (Entails.of_eq (pointsTo_congr (fstored_val m c 11 _)))
    iexact Ox11
  ihave Ox12 : (((oX c 12).view.loc (c : Thread nD τ) ↦[(oX c 12).view.set]{fullShare} outC m c)) $$ [Ox12]
  · iapply (Entails.of_eq (pointsTo_congr (fstored_val m c 12 _)))
    iexact Ox12
  ihave Ox13 : (((oX c 13).view.loc (c : Thread nD τ) ↦[(oX c 13).view.set]{fullShare} outC m c)) $$ [Ox13]
  · iapply (Entails.of_eq (pointsTo_congr (fstored_val m c 13 _)))
    iexact Ox13
  ihave Ox14 : (((oX c 14).view.loc (c : Thread nD τ) ↦[(oX c 14).view.set]{fullShare} outC m c)) $$ [Ox14]
  · iapply (Entails.of_eq (pointsTo_congr (fstored_val m c 14 _)))
    iexact Ox14
  ihave Ox15 : (((oX c 15).view.loc (c : Thread nD τ) ↦[(oX c 15).view.set]{fullShare} outC m c)) $$ [Ox15]
  · iapply (Entails.of_eq (pointsTo_congr (fstored_val m c 15 _)))
    iexact Ox15
  ihave Ox16 : (((oX c 16).view.loc (c : Thread nD τ) ↦[(oX c 16).view.set]{fullShare} outC m c)) $$ [Ox16]
  · iapply (Entails.of_eq (pointsTo_congr (fstored_val m c 16 _)))
    iexact Ox16
  ihave Ox17 : (((oX c 17).view.loc (c : Thread nD τ) ↦[(oX c 17).view.set]{fullShare} outC m c)) $$ [Ox17]
  · iapply (Entails.of_eq (pointsTo_congr (fstored_val m c 17 _)))
    iexact Ox17
  ihave Ox18 : (((oX c 18).view.loc (c : Thread nD τ) ↦[(oX c 18).view.set]{fullShare} outC m c)) $$ [Ox18]
  · iapply (Entails.of_eq (pointsTo_congr (fstored_val m c 18 _)))
    iexact Ox18
  ihave Ox19 : (((oX c 19).view.loc (c : Thread nD τ) ↦[(oX c 19).view.set]{fullShare} outC m c)) $$ [Ox19]
  · iapply (Entails.of_eq (pointsTo_congr (fstored_val m c 19 _)))
    iexact Ox19
  ihave Ox20 : (((oX c 20).view.loc (c : Thread nD τ) ↦[(oX c 20).view.set]{fullShare} outC m c)) $$ [Ox20]
  · iapply (Entails.of_eq (pointsTo_congr (fstored_val m c 20 _)))
    iexact Ox20
  ihave Ox21 : (((oX c 21).view.loc (c : Thread nD τ) ↦[(oX c 21).view.set]{fullShare} outC m c)) $$ [Ox21]
  · iapply (Entails.of_eq (pointsTo_congr (fstored_val m c 21 _)))
    iexact Ox21
  ihave Ox22 : (((oX c 22).view.loc (c : Thread nD τ) ↦[(oX c 22).view.set]{fullShare} outC m c)) $$ [Ox22]
  · iapply (Entails.of_eq (pointsTo_congr (fstored_val m c 22 _)))
    iexact Ox22
  ihave Ox23 : (((oX c 23).view.loc (c : Thread nD τ) ↦[(oX c 23).view.set]{fullShare} outC m c)) $$ [Ox23]
  · iapply (Entails.of_eq (pointsTo_congr (fstored_val m c 23 _)))
    iexact Ox23
  ihave Ox24 : (((oX c 24).view.loc (c : Thread nD τ) ↦[(oX c 24).view.set]{fullShare} outC m c)) $$ [Ox24]
  · iapply (Entails.of_eq (pointsTo_congr (fstored_val m c 24 _)))
    iexact Ox24
  ihave Ox25 : (((oX c 25).view.loc (c : Thread nD τ) ↦[(oX c 25).view.set]{fullShare} outC m c)) $$ [Ox25]
  · iapply (Entails.of_eq (pointsTo_congr (fstored_val m c 25 _)))
    iexact Ox25
  ihave Ox26 : (((oX c 26).view.loc (c : Thread nD τ) ↦[(oX c 26).view.set]{fullShare} outC m c)) $$ [Ox26]
  · iapply (Entails.of_eq (pointsTo_congr (fstored_val m c 26 _)))
    iexact Ox26
  ihave Ox27 : (((oX c 27).view.loc (c : Thread nD τ) ↦[(oX c 27).view.set]{fullShare} outC m c)) $$ [Ox27]
  · iapply (Entails.of_eq (pointsTo_congr (fstored_val m c 27 _)))
    iexact Ox27
  ihave Ox28 : (((oX c 28).view.loc (c : Thread nD τ) ↦[(oX c 28).view.set]{fullShare} outC m c)) $$ [Ox28]
  · iapply (Entails.of_eq (pointsTo_congr (fstored_val m c 28 _)))
    iexact Ox28
  ihave Ox29 : (((oX c 29).view.loc (c : Thread nD τ) ↦[(oX c 29).view.set]{fullShare} outC m c)) $$ [Ox29]
  · iapply (Entails.of_eq (pointsTo_congr (fstored_val m c 29 _)))
    iexact Ox29
  ihave Ox30 : (((oX c 30).view.loc (c : Thread nD τ) ↦[(oX c 30).view.set]{fullShare} outC m c)) $$ [Ox30]
  · iapply (Entails.of_eq (pointsTo_congr (fstored_val m c 30 _)))
    iexact Ox30
  ihave Ox31 : (((oX c 31).view.loc (c : Thread nD τ) ↦[(oX c 31).view.set]{fullShare} outC m c)) $$ [Ox31]
  · iapply (Entails.of_eq (pointsTo_congr (fstored_val m c 31 _)))
    iexact Ox31
  ihave HoOwn : (((oOwn c).view.loc (c : Thread nD τ) ↦[(oOwn c).view.set]{fullShare} outC m c)) $$ [HoOwn]
  · iapply (Entails.of_eq (pointsTo_congr (ownstored_val m c _ _)))
    iexact HoOwn
  ihave HxL := (aside_out _) $$ AL
  -- the end: every cell closed, every buffer whole again
  rw [wp_ret]
  imod (finish m K c) $$ HR HxL [Sl0 Sl1 Sl2 Sl3 Sl4 Sl5 Sl6 Sl7 Sl8 Sl9 Sl10 Sl11 Sl12 Sl13 Sl14 Sl15 Sl16 Sl17 Sl18 Sl19 Sl20 Sl21 Sl22 Sl23 Sl24 Sl25 Sl26 Sl27 Sl28 Sl29 Sl30 Sl31] [Sb0 Sb1 Sb2 Sb3 Sb4 Sb5 Sb6 Sb7 Sb8 Sb9 Sb10 Sb11 Sb12 Sb13 Sb14 Sb15 Sb16 Sb17 Sb18 Sb19 Sb20 Sb21 Sb22 Sb23 Sb24 Sb25 Sb26 Sb27 Sb28 Sb29 Sb30 Sb31] [RbL0 RbR0 RbL1 RbR1 RbL2 RbR2 RbL3 RbR3 RbL4 RbR4 RbL5 RbR5 RbL6 RbR6 RbL7 RbR7 RbL8 RbR8 RbL9 RbR9 RbL10 RbR10 RbL11 RbR11 RbL12 RbR12 RbL13 RbR13 RbL14 RbR14 RbL15 RbR15 RbL16 RbR16 RbL17 RbR17 RbL18 RbR18 RbL19 RbR19 RbL20 RbR20 RbL21 RbR21 RbL22 RbR22 RbL23 RbR23 RbL24 RbR24 RbL25 RbR25 RbL26 RbR26 RbL27 RbR27 RbL28 RbR28 RbL29 RbR29 RbL30 RbR30 RbL31 RbR31] [El0 El1] [Hlv] [Ox0 Ox1 Ox2 Ox3 Ox4 Ox5 Ox6 Ox7 Ox8 Ox9 Ox10 Ox11 Ox12 Ox13 Ox14 Ox15 Ox16 Ox17 Ox18 Ox19 Ox20 Ox21 Ox22 Ox23 Ox24 Ox25 Ox26 Ox27 Ox28 Ox29 Ox30 Ox31] [Oy0 Oy1 Oy2 Oy3 Oy4 Oy5 Oy6 Oy7 Oy8 Oy9 Oy10 Oy11 Oy12 Oy13 Oy14 Oy15 Oy16 Oy17 Oy18 Oy19 Oy20 Oy21 Oy22 Oy23 Oy24 Oy25 Oy26 Oy27 Oy28 Oy29 Oy30 Oy31] HoOwn [V0 V1 V2 V3 V4 V5 V6 V7 V8 V9 V10 V11 V12 V13 V14 V15 V16 V17 V18 V19 V20 V21 V22 V23 V24 V25 V26 V27 V28 V29 V30 V31 V32 V33 V34 V35 V36 V37 V38 V39 V40 V41 V42 V43 V44 V45 V46 V47 V48 V49 V50 V51 V52 V53 V54 V55 V56 V57 V58 V59 V60 V61 V62 V63 V64 V65 V66] [PsX0 PrX0 PsY0 PrY0 PsX1 PrX1 PsY1 PrY1 PsX2 PrX2 PsY2 PrY2 PsX3 PrX3 PsY3 PrY3 PsX4 PrX4 PsY4 PrY4 PsX5 PrX5 PsY5 PrY5 PsX6 PrX6 PsY6 PrY6 PsX7 PrX7 PsY7 PrY7 PsX8 PrX8 PsY8 PrY8 PsX9 PrX9 PsY9 PrY9 PsX10 PrX10 PsY10 PrY10 PsX11 PrX11 PsY11 PrY11 PsX12 PrX12 PsY12 PrY12 PsX13 PrX13 PsY13 PrY13 PsX14 PrX14 PsY14 PrY14 PsX15 PrX15 PsY15 PrY15 PsX16 PrX16 PsY16 PrY16 PsX17 PrX17 PsY17 PrY17 PsX18 PrX18 PsY18 PrY18 PsX19 PrX19 PsY19 PrY19 PsX20 PrX20 PsY20 PrY20 PsX21 PrX21 PsY21 PrY21 PsX22 PrX22 PsY22 PrY22 PsX23 PrX23 PsY23 PrY23 PsX24 PrX24 PsY24 PrY24 PsX25 PrX25 PsY25 PrY25 PsX26 PrX26 PsY26 PrY26 PsX27 PrX27 PsY27 PrY27 PsX28 PrX28 PsY28 PrY28 PsX29 PrX29 PsY29 PrY29 PsX30 PrX30 PsY30 PrY30 PsX31 PrX31 PsY31 PrY31] with HΦ
  · iapply (Entails.of_eq (bigSep_fin32 (fun k : Fin 32 => (iprop(∃ f, ((sl3 slM k).view.loc (c : Thread nD τ) ↦[(sl3 slM k).view.set]{fullShare} f)) : sProp 𝕄))).symm)
    isplitl [Sl0]; · iexists _; iexact Sl0
    isplitl [Sl1]; · iexists _; iexact Sl1
    isplitl [Sl2]; · iexists _; iexact Sl2
    isplitl [Sl3]; · iexists _; iexact Sl3
    isplitl [Sl4]; · iexists _; iexact Sl4
    isplitl [Sl5]; · iexists _; iexact Sl5
    isplitl [Sl6]; · iexists _; iexact Sl6
    isplitl [Sl7]; · iexists _; iexact Sl7
    isplitl [Sl8]; · iexists _; iexact Sl8
    isplitl [Sl9]; · iexists _; iexact Sl9
    isplitl [Sl10]; · iexists _; iexact Sl10
    isplitl [Sl11]; · iexists _; iexact Sl11
    isplitl [Sl12]; · iexists _; iexact Sl12
    isplitl [Sl13]; · iexists _; iexact Sl13
    isplitl [Sl14]; · iexists _; iexact Sl14
    isplitl [Sl15]; · iexists _; iexact Sl15
    isplitl [Sl16]; · iexists _; iexact Sl16
    isplitl [Sl17]; · iexists _; iexact Sl17
    isplitl [Sl18]; · iexists _; iexact Sl18
    isplitl [Sl19]; · iexists _; iexact Sl19
    isplitl [Sl20]; · iexists _; iexact Sl20
    isplitl [Sl21]; · iexists _; iexact Sl21
    isplitl [Sl22]; · iexists _; iexact Sl22
    isplitl [Sl23]; · iexists _; iexact Sl23
    isplitl [Sl24]; · iexists _; iexact Sl24
    isplitl [Sl25]; · iexists _; iexact Sl25
    isplitl [Sl26]; · iexists _; iexact Sl26
    isplitl [Sl27]; · iexists _; iexact Sl27
    isplitl [Sl28]; · iexists _; iexact Sl28
    isplitl [Sl29]; · iexists _; iexact Sl29
    isplitl [Sl30]; · iexists _; iexact Sl30
    iexists _; iexact Sl31
  · iapply (Entails.of_eq (bigSep_fin32 (fun k : Fin 32 => (iprop(∃ f, ((sl3 sbM k).view.loc (c : Thread nD τ) ↦[(sl3 sbM k).view.set]{fullShare} f)) : sProp 𝕄))).symm)
    isplitl [Sb0]; · iexists _; iexact Sb0
    isplitl [Sb1]; · iexists _; iexact Sb1
    isplitl [Sb2]; · iexists _; iexact Sb2
    isplitl [Sb3]; · iexists _; iexact Sb3
    isplitl [Sb4]; · iexists _; iexact Sb4
    isplitl [Sb5]; · iexists _; iexact Sb5
    isplitl [Sb6]; · iexists _; iexact Sb6
    isplitl [Sb7]; · iexists _; iexact Sb7
    isplitl [Sb8]; · iexists _; iexact Sb8
    isplitl [Sb9]; · iexists _; iexact Sb9
    isplitl [Sb10]; · iexists _; iexact Sb10
    isplitl [Sb11]; · iexists _; iexact Sb11
    isplitl [Sb12]; · iexists _; iexact Sb12
    isplitl [Sb13]; · iexists _; iexact Sb13
    isplitl [Sb14]; · iexists _; iexact Sb14
    isplitl [Sb15]; · iexists _; iexact Sb15
    isplitl [Sb16]; · iexists _; iexact Sb16
    isplitl [Sb17]; · iexists _; iexact Sb17
    isplitl [Sb18]; · iexists _; iexact Sb18
    isplitl [Sb19]; · iexists _; iexact Sb19
    isplitl [Sb20]; · iexists _; iexact Sb20
    isplitl [Sb21]; · iexists _; iexact Sb21
    isplitl [Sb22]; · iexists _; iexact Sb22
    isplitl [Sb23]; · iexists _; iexact Sb23
    isplitl [Sb24]; · iexists _; iexact Sb24
    isplitl [Sb25]; · iexists _; iexact Sb25
    isplitl [Sb26]; · iexists _; iexact Sb26
    isplitl [Sb27]; · iexists _; iexact Sb27
    isplitl [Sb28]; · iexists _; iexact Sb28
    isplitl [Sb29]; · iexists _; iexact Sb29
    isplitl [Sb30]; · iexists _; iexact Sb30
    iexists _; iexact Sb31
  · iapply (Entails.of_eq (bigSep_fin32 (fun k : Fin 32 => (iprop(((sl3 rbM k).view.loc (c : Thread nD τ) ↦[(sl3 rbM k).view.set]{fullShare.left} recvC m c) ∗ ((sl3 rbM k).view.loc (c : Thread nD τ) ↦[(sl3 rbM k).view.set]{fullShare.right} recvC m c)) : sProp 𝕄))).symm)
    isplitl [RbL0 RbR0]; · (isplitl [RbL0]; · iexact RbL0); iexact RbR0
    isplitl [RbL1 RbR1]; · (isplitl [RbL1]; · iexact RbL1); iexact RbR1
    isplitl [RbL2 RbR2]; · (isplitl [RbL2]; · iexact RbL2); iexact RbR2
    isplitl [RbL3 RbR3]; · (isplitl [RbL3]; · iexact RbL3); iexact RbR3
    isplitl [RbL4 RbR4]; · (isplitl [RbL4]; · iexact RbL4); iexact RbR4
    isplitl [RbL5 RbR5]; · (isplitl [RbL5]; · iexact RbL5); iexact RbR5
    isplitl [RbL6 RbR6]; · (isplitl [RbL6]; · iexact RbL6); iexact RbR6
    isplitl [RbL7 RbR7]; · (isplitl [RbL7]; · iexact RbL7); iexact RbR7
    isplitl [RbL8 RbR8]; · (isplitl [RbL8]; · iexact RbL8); iexact RbR8
    isplitl [RbL9 RbR9]; · (isplitl [RbL9]; · iexact RbL9); iexact RbR9
    isplitl [RbL10 RbR10]; · (isplitl [RbL10]; · iexact RbL10); iexact RbR10
    isplitl [RbL11 RbR11]; · (isplitl [RbL11]; · iexact RbL11); iexact RbR11
    isplitl [RbL12 RbR12]; · (isplitl [RbL12]; · iexact RbL12); iexact RbR12
    isplitl [RbL13 RbR13]; · (isplitl [RbL13]; · iexact RbL13); iexact RbR13
    isplitl [RbL14 RbR14]; · (isplitl [RbL14]; · iexact RbL14); iexact RbR14
    isplitl [RbL15 RbR15]; · (isplitl [RbL15]; · iexact RbL15); iexact RbR15
    isplitl [RbL16 RbR16]; · (isplitl [RbL16]; · iexact RbL16); iexact RbR16
    isplitl [RbL17 RbR17]; · (isplitl [RbL17]; · iexact RbL17); iexact RbR17
    isplitl [RbL18 RbR18]; · (isplitl [RbL18]; · iexact RbL18); iexact RbR18
    isplitl [RbL19 RbR19]; · (isplitl [RbL19]; · iexact RbL19); iexact RbR19
    isplitl [RbL20 RbR20]; · (isplitl [RbL20]; · iexact RbL20); iexact RbR20
    isplitl [RbL21 RbR21]; · (isplitl [RbL21]; · iexact RbL21); iexact RbR21
    isplitl [RbL22 RbR22]; · (isplitl [RbL22]; · iexact RbL22); iexact RbR22
    isplitl [RbL23 RbR23]; · (isplitl [RbL23]; · iexact RbL23); iexact RbR23
    isplitl [RbL24 RbR24]; · (isplitl [RbL24]; · iexact RbL24); iexact RbR24
    isplitl [RbL25 RbR25]; · (isplitl [RbL25]; · iexact RbL25); iexact RbR25
    isplitl [RbL26 RbR26]; · (isplitl [RbL26]; · iexact RbL26); iexact RbR26
    isplitl [RbL27 RbR27]; · (isplitl [RbL27]; · iexact RbL27); iexact RbR27
    isplitl [RbL28 RbR28]; · (isplitl [RbL28]; · iexact RbL28); iexact RbR28
    isplitl [RbL29 RbR29]; · (isplitl [RbL29]; · iexact RbL29); iexact RbR29
    isplitl [RbL30 RbR30]; · (isplitl [RbL30]; · iexact RbL30); iexact RbR30
    (isplitl [RbL31]; · iexact RbL31); iexact RbR31
  · iapply (Entails.of_eq (bigSep_fin2 (fun j : Fin 2 => (iprop(∃ f, ((el2 j).view.loc (c : Thread nD τ) ↦[(el2 j).view.set]{fullShare} f)) : sProp 𝕄))).symm)
    isplitl [El0]; · iexists _; iexact El0
    iexists _; iexact El1
  · iexists _; iexact Hlv
  · iapply (Entails.of_eq (bigSep_fin32 (fun k : Fin 32 => (((oX c k).view.loc (c : Thread nD τ) ↦[(oX c k).view.set]{fullShare} outC m c) : sProp 𝕄))).symm)
    isplitl [Ox0]; · iexact Ox0
    isplitl [Ox1]; · iexact Ox1
    isplitl [Ox2]; · iexact Ox2
    isplitl [Ox3]; · iexact Ox3
    isplitl [Ox4]; · iexact Ox4
    isplitl [Ox5]; · iexact Ox5
    isplitl [Ox6]; · iexact Ox6
    isplitl [Ox7]; · iexact Ox7
    isplitl [Ox8]; · iexact Ox8
    isplitl [Ox9]; · iexact Ox9
    isplitl [Ox10]; · iexact Ox10
    isplitl [Ox11]; · iexact Ox11
    isplitl [Ox12]; · iexact Ox12
    isplitl [Ox13]; · iexact Ox13
    isplitl [Ox14]; · iexact Ox14
    isplitl [Ox15]; · iexact Ox15
    isplitl [Ox16]; · iexact Ox16
    isplitl [Ox17]; · iexact Ox17
    isplitl [Ox18]; · iexact Ox18
    isplitl [Ox19]; · iexact Ox19
    isplitl [Ox20]; · iexact Ox20
    isplitl [Ox21]; · iexact Ox21
    isplitl [Ox22]; · iexact Ox22
    isplitl [Ox23]; · iexact Ox23
    isplitl [Ox24]; · iexact Ox24
    isplitl [Ox25]; · iexact Ox25
    isplitl [Ox26]; · iexact Ox26
    isplitl [Ox27]; · iexact Ox27
    isplitl [Ox28]; · iexact Ox28
    isplitl [Ox29]; · iexact Ox29
    isplitl [Ox30]; · iexact Ox30
    iexact Ox31
  · iapply (Entails.of_eq (bigSep_fin32 (fun k : Fin 32 => (((oY c k).view.loc (c : Thread nD τ) ↦[(oY c k).view.set]{fullShare} outC m c) : sProp 𝕄))).symm)
    isplitl [Oy0]; · iexact Oy0
    isplitl [Oy1]; · iexact Oy1
    isplitl [Oy2]; · iexact Oy2
    isplitl [Oy3]; · iexact Oy3
    isplitl [Oy4]; · iexact Oy4
    isplitl [Oy5]; · iexact Oy5
    isplitl [Oy6]; · iexact Oy6
    isplitl [Oy7]; · iexact Oy7
    isplitl [Oy8]; · iexact Oy8
    isplitl [Oy9]; · iexact Oy9
    isplitl [Oy10]; · iexact Oy10
    isplitl [Oy11]; · iexact Oy11
    isplitl [Oy12]; · iexact Oy12
    isplitl [Oy13]; · iexact Oy13
    isplitl [Oy14]; · iexact Oy14
    isplitl [Oy15]; · iexact Oy15
    isplitl [Oy16]; · iexact Oy16
    isplitl [Oy17]; · iexact Oy17
    isplitl [Oy18]; · iexact Oy18
    isplitl [Oy19]; · iexact Oy19
    isplitl [Oy20]; · iexact Oy20
    isplitl [Oy21]; · iexact Oy21
    isplitl [Oy22]; · iexact Oy22
    isplitl [Oy23]; · iexact Oy23
    isplitl [Oy24]; · iexact Oy24
    isplitl [Oy25]; · iexact Oy25
    isplitl [Oy26]; · iexact Oy26
    isplitl [Oy27]; · iexact Oy27
    isplitl [Oy28]; · iexact Oy28
    isplitl [Oy29]; · iexact Oy29
    isplitl [Oy30]; · iexact Oy30
    iexact Oy31
  · unfold locals
    iapply (Entails.of_eq (bigSep_fin67 _).symm)
    isplitl [V0]; · iexact V0
    isplitl [V1]; · iexact V1
    isplitl [V2]; · iexact V2
    isplitl [V3]; · iexact V3
    isplitl [V4]; · iexact V4
    isplitl [V5]; · iexact V5
    isplitl [V6]; · iexact V6
    isplitl [V7]; · iexact V7
    isplitl [V8]; · iexact V8
    isplitl [V9]; · iexact V9
    isplitl [V10]; · iexact V10
    isplitl [V11]; · iexact V11
    isplitl [V12]; · iexact V12
    isplitl [V13]; · iexact V13
    isplitl [V14]; · iexact V14
    isplitl [V15]; · iexact V15
    isplitl [V16]; · iexact V16
    isplitl [V17]; · iexact V17
    isplitl [V18]; · iexact V18
    isplitl [V19]; · iexact V19
    isplitl [V20]; · iexact V20
    isplitl [V21]; · iexact V21
    isplitl [V22]; · iexact V22
    isplitl [V23]; · iexact V23
    isplitl [V24]; · iexact V24
    isplitl [V25]; · iexact V25
    isplitl [V26]; · iexact V26
    isplitl [V27]; · iexact V27
    isplitl [V28]; · iexact V28
    isplitl [V29]; · iexact V29
    isplitl [V30]; · iexact V30
    isplitl [V31]; · iexact V31
    isplitl [V32]; · iexact V32
    isplitl [V33]; · iexact V33
    isplitl [V34]; · iexact V34
    isplitl [V35]; · iexact V35
    isplitl [V36]; · iexact V36
    isplitl [V37]; · iexact V37
    isplitl [V38]; · iexact V38
    isplitl [V39]; · iexact V39
    isplitl [V40]; · iexact V40
    isplitl [V41]; · iexact V41
    isplitl [V42]; · iexact V42
    isplitl [V43]; · iexact V43
    isplitl [V44]; · iexact V44
    isplitl [V45]; · iexact V45
    isplitl [V46]; · iexact V46
    isplitl [V47]; · iexact V47
    isplitl [V48]; · iexact V48
    isplitl [V49]; · iexact V49
    isplitl [V50]; · iexact V50
    isplitl [V51]; · iexact V51
    isplitl [V52]; · iexact V52
    isplitl [V53]; · iexact V53
    isplitl [V54]; · iexact V54
    isplitl [V55]; · iexact V55
    isplitl [V56]; · iexact V56
    isplitl [V57]; · iexact V57
    isplitl [V58]; · iexact V58
    isplitl [V59]; · iexact V59
    isplitl [V60]; · iexact V60
    isplitl [V61]; · iexact V61
    isplitl [V62]; · iexact V62
    isplitl [V63]; · iexact V63
    isplitl [V64]; · iexact V64
    isplitl [V65]; · iexact V65
    iexact V66
  · iapply (Entails.of_eq (bigSep_fin32 (fun k : Fin 32 => (iprop(atPos ER (sXc c k) 1 ∅ 0 ∗ atPos ER (rXc c k) 1 ∅ 0 ∗ atPos ER (sYc c k) 1 ∅ 0 ∗ atPos ER (rYc c k) 1 ∅ 0) : sProp 𝕄))).symm)
    isplitl [PsX0 PrX0 PsY0 PrY0]; · (isplitl [PsX0]; · iexact PsX0); (isplitl [PrX0]; · iexact PrX0); (isplitl [PsY0]; · iexact PsY0); iexact PrY0
    isplitl [PsX1 PrX1 PsY1 PrY1]; · (isplitl [PsX1]; · iexact PsX1); (isplitl [PrX1]; · iexact PrX1); (isplitl [PsY1]; · iexact PsY1); iexact PrY1
    isplitl [PsX2 PrX2 PsY2 PrY2]; · (isplitl [PsX2]; · iexact PsX2); (isplitl [PrX2]; · iexact PrX2); (isplitl [PsY2]; · iexact PsY2); iexact PrY2
    isplitl [PsX3 PrX3 PsY3 PrY3]; · (isplitl [PsX3]; · iexact PsX3); (isplitl [PrX3]; · iexact PrX3); (isplitl [PsY3]; · iexact PsY3); iexact PrY3
    isplitl [PsX4 PrX4 PsY4 PrY4]; · (isplitl [PsX4]; · iexact PsX4); (isplitl [PrX4]; · iexact PrX4); (isplitl [PsY4]; · iexact PsY4); iexact PrY4
    isplitl [PsX5 PrX5 PsY5 PrY5]; · (isplitl [PsX5]; · iexact PsX5); (isplitl [PrX5]; · iexact PrX5); (isplitl [PsY5]; · iexact PsY5); iexact PrY5
    isplitl [PsX6 PrX6 PsY6 PrY6]; · (isplitl [PsX6]; · iexact PsX6); (isplitl [PrX6]; · iexact PrX6); (isplitl [PsY6]; · iexact PsY6); iexact PrY6
    isplitl [PsX7 PrX7 PsY7 PrY7]; · (isplitl [PsX7]; · iexact PsX7); (isplitl [PrX7]; · iexact PrX7); (isplitl [PsY7]; · iexact PsY7); iexact PrY7
    isplitl [PsX8 PrX8 PsY8 PrY8]; · (isplitl [PsX8]; · iexact PsX8); (isplitl [PrX8]; · iexact PrX8); (isplitl [PsY8]; · iexact PsY8); iexact PrY8
    isplitl [PsX9 PrX9 PsY9 PrY9]; · (isplitl [PsX9]; · iexact PsX9); (isplitl [PrX9]; · iexact PrX9); (isplitl [PsY9]; · iexact PsY9); iexact PrY9
    isplitl [PsX10 PrX10 PsY10 PrY10]; · (isplitl [PsX10]; · iexact PsX10); (isplitl [PrX10]; · iexact PrX10); (isplitl [PsY10]; · iexact PsY10); iexact PrY10
    isplitl [PsX11 PrX11 PsY11 PrY11]; · (isplitl [PsX11]; · iexact PsX11); (isplitl [PrX11]; · iexact PrX11); (isplitl [PsY11]; · iexact PsY11); iexact PrY11
    isplitl [PsX12 PrX12 PsY12 PrY12]; · (isplitl [PsX12]; · iexact PsX12); (isplitl [PrX12]; · iexact PrX12); (isplitl [PsY12]; · iexact PsY12); iexact PrY12
    isplitl [PsX13 PrX13 PsY13 PrY13]; · (isplitl [PsX13]; · iexact PsX13); (isplitl [PrX13]; · iexact PrX13); (isplitl [PsY13]; · iexact PsY13); iexact PrY13
    isplitl [PsX14 PrX14 PsY14 PrY14]; · (isplitl [PsX14]; · iexact PsX14); (isplitl [PrX14]; · iexact PrX14); (isplitl [PsY14]; · iexact PsY14); iexact PrY14
    isplitl [PsX15 PrX15 PsY15 PrY15]; · (isplitl [PsX15]; · iexact PsX15); (isplitl [PrX15]; · iexact PrX15); (isplitl [PsY15]; · iexact PsY15); iexact PrY15
    isplitl [PsX16 PrX16 PsY16 PrY16]; · (isplitl [PsX16]; · iexact PsX16); (isplitl [PrX16]; · iexact PrX16); (isplitl [PsY16]; · iexact PsY16); iexact PrY16
    isplitl [PsX17 PrX17 PsY17 PrY17]; · (isplitl [PsX17]; · iexact PsX17); (isplitl [PrX17]; · iexact PrX17); (isplitl [PsY17]; · iexact PsY17); iexact PrY17
    isplitl [PsX18 PrX18 PsY18 PrY18]; · (isplitl [PsX18]; · iexact PsX18); (isplitl [PrX18]; · iexact PrX18); (isplitl [PsY18]; · iexact PsY18); iexact PrY18
    isplitl [PsX19 PrX19 PsY19 PrY19]; · (isplitl [PsX19]; · iexact PsX19); (isplitl [PrX19]; · iexact PrX19); (isplitl [PsY19]; · iexact PsY19); iexact PrY19
    isplitl [PsX20 PrX20 PsY20 PrY20]; · (isplitl [PsX20]; · iexact PsX20); (isplitl [PrX20]; · iexact PrX20); (isplitl [PsY20]; · iexact PsY20); iexact PrY20
    isplitl [PsX21 PrX21 PsY21 PrY21]; · (isplitl [PsX21]; · iexact PsX21); (isplitl [PrX21]; · iexact PrX21); (isplitl [PsY21]; · iexact PsY21); iexact PrY21
    isplitl [PsX22 PrX22 PsY22 PrY22]; · (isplitl [PsX22]; · iexact PsX22); (isplitl [PrX22]; · iexact PrX22); (isplitl [PsY22]; · iexact PsY22); iexact PrY22
    isplitl [PsX23 PrX23 PsY23 PrY23]; · (isplitl [PsX23]; · iexact PsX23); (isplitl [PrX23]; · iexact PrX23); (isplitl [PsY23]; · iexact PsY23); iexact PrY23
    isplitl [PsX24 PrX24 PsY24 PrY24]; · (isplitl [PsX24]; · iexact PsX24); (isplitl [PrX24]; · iexact PrX24); (isplitl [PsY24]; · iexact PsY24); iexact PrY24
    isplitl [PsX25 PrX25 PsY25 PrY25]; · (isplitl [PsX25]; · iexact PsX25); (isplitl [PrX25]; · iexact PrX25); (isplitl [PsY25]; · iexact PsY25); iexact PrY25
    isplitl [PsX26 PrX26 PsY26 PrY26]; · (isplitl [PsX26]; · iexact PsX26); (isplitl [PrX26]; · iexact PrX26); (isplitl [PsY26]; · iexact PsY26); iexact PrY26
    isplitl [PsX27 PrX27 PsY27 PrY27]; · (isplitl [PsX27]; · iexact PsX27); (isplitl [PrX27]; · iexact PrX27); (isplitl [PsY27]; · iexact PsY27); iexact PrY27
    isplitl [PsX28 PrX28 PsY28 PrY28]; · (isplitl [PsX28]; · iexact PsX28); (isplitl [PrX28]; · iexact PrX28); (isplitl [PsY28]; · iexact PsY28); iexact PrY28
    isplitl [PsX29 PrX29 PsY29 PrY29]; · (isplitl [PsX29]; · iexact PsX29); (isplitl [PrX29]; · iexact PrX29); (isplitl [PsY29]; · iexact PsY29); iexact PrY29
    isplitl [PsX30 PrX30 PsY30 PrY30]; · (isplitl [PsX30]; · iexact PsX30); (isplitl [PrX30]; · iexact PrX30); (isplitl [PsY30]; · iexact PsY30); iexact PrY30
    (isplitl [PsX31]; · iexact PsX31); (isplitl [PrX31]; · iexact PrX31); (isplitl [PsY31]; · iexact PsY31); iexact PrY31
  imodintro
  iapply Hk
  isplitl [HΦ]; · iexact HΦ
  iexists _
  isplitr
  rotate_left
  · first | iexact HO | (rw [show (dats m 0 c).owed (t₀ : Fin cfg0.N).succ = 0 from rfl]; iexact HO)
  · ipureintro
    first | exact fun _ _ => Or.inl trivial | (intro x hx; exact Or.inl trivial) | trivial

end Cert.KernelIdeal.Hand

end
-- ==== Proof.BMesh.lean ====
/-
  The mesh, the buffers and their pieces, the cells of the exchange, and what every buffer is to hold.

  Four devices sit on a 2 x 2 mesh, device c at column c / 2 and row c % 2. Each holds an 8192 x 2048 block of the
  whole array, cut by rows along the column coordinate, and must end with the 16384 x 1024 column block of the
  whole array that its column coordinate names. Its own 8192 rows of that block it has itself; the other 8192 rows
  live on the devices of the other column. Its column mate (same row, other column) sends it the 4096 of those rows
  that the shared row coordinate names, in 32 chunks of 128 rows; it writes each chunk to its result and forwards it
  to its row mate (same column, other row), which in turn forwards the other 4096 rows.
-/
import proofs.«900022_g7700000000000023_dist_a2a_v7x_xy2x2_x_m8192_n1024_bf16_1_alg».proof.Proof.Gen.Kernel.Frame
import Idealize.ShloMosaic.Lib.Pipeline.Launch
import Idealize.ShloMosaic.Lib.Pipeline.Kit
import Idealize.ShloMosaic.Lib.Tactic
import Idealize.ShloMosaic.Lib.ValueIdx

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

/-! ## The resource algebra: the pipeline library's copy, the exchange's rounds (duties named by a Boolean), and the
    counters of the device's own copies -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev 𝒱₀ : Variants := Variants.none

/-! ## The mesh -/

/-- The column coordinate and the row coordinate of a device. -/
def cx (c : Dev nD) : Nat := c.val / 2
def cy (c : Dev nD) : Nat := c.val % 2
/-- The column mate: same row, other column. -/
def xp (c : Dev nD) : Dev nD := ⟨(c.val % 2 + 2) - 2 * (c.val / 2), by revert c; decide⟩
/-- The row mate: same column, other row. -/
def yp (c : Dev nD) : Dev nD := ⟨(2 * (c.val / 2) + 1) - c.val % 2, by revert c; decide⟩

theorem xp_xp (c : Dev nD) : xp (xp c) = c := by revert c; decide
theorem yp_yp (c : Dev nD) : yp (yp c) = c := by revert c; decide
theorem xp_yp (c : Dev nD) : xp (yp c) = yp (xp c) := by revert c; decide
theorem cx_xp (c : Dev nD) : cx (xp c) = 1 - cx c := by revert c; decide
theorem cy_xp (c : Dev nD) : cy (xp c) = cy c := by revert c; decide
theorem cx_yp (c : Dev nD) : cx (yp c) = cx c := by revert c; decide
theorem cy_yp (c : Dev nD) : cy (yp c) = 1 - cy c := by revert c; decide
theorem cx_lt (c : Dev nD) : cx c < 2 := by revert c; decide
theorem cy_lt (c : Dev nD) : cy c < 2 := by revert c; decide

def xSwap : Dev nD ≃ Dev nD := ⟨xp, xp, xp_xp, xp_xp⟩
def ySwap : Dev nD ≃ Dev nD := ⟨yp, yp, yp_yp, yp_yp⟩

/-! ## The buffers and their pieces -/

abbrev xM : Memref sig .tc .hbm S8192x2048 .f32 := Memref.whole main_arg0
abbrev oM : Memref sig .tc .hbm S16384x1024 .bf16 := Memref.whole main_v1
abbrev slM : Memref sig .tc .vmem S32x128x1024 .f32 := Memref.whole cc0_scratch0
abbrev sbM : Memref sig .tc .vmem S32x128x1024 .bf16 := Memref.whole cc0_scratch1
abbrev rbM : Memref sig .tc .vmem S32x128x1024 .bf16 := Memref.whole cc0_scratch2
abbrev elM : Memref sig .tc .vmem S2x1024x1024 .f32 := Memref.whole cc0_scratch3
abbrev lvM : Memref sig .tc .vmem S8192x1024 .bf16 := Memref.whole cc0_scratch4

theorem inb3 (k : Fin 32) : ∀ a, (![k.val, 0, 0] : Fin 3 → Nat) a + S1x128x1024.size a ≤ S32x128x1024.size a := by
  revert k; decide

/-- Chunk k of a 32 x 128 x 1024 buffer, as a 128 x 1024 piece. -/
abbrev sl3 {e : EltTy} (M : Memref sig .tc .vmem S32x128x1024 e) (k : Fin 32) : Memref sig .tc .vmem S128x1024 e :=
  (M.slice (Rect.unit (s := S32x128x1024) ![k.val, 0, 0] S1x128x1024.size (inb3 k)) (fun _ => rfl)).squeeze S128x1024 squeezes_S1x128x1024_S128x1024

/-- The 128 rows of the result that chunk k received from the column mate goes to; -/
abbrev oX (c : Dev nD) (k : Fin 32) : Memref sig .tc .hbm S128x1024 .bf16 :=
  oM.slice (Rect.unit (s := S16384x1024) (k0_off3 c (BitVec.ofNat 32 (128 * k.val))) S128x1024.size (k0_off3_inb c k)) (fun _ => rfl)
/-- the 128 rows chunk k forwarded by the row mate lands in; -/
abbrev oY (c : Dev nD) (k : Fin 32) : Memref sig .tc .hbm S128x1024 .bf16 :=
  oM.slice (Rect.unit (s := S16384x1024) (k0_off12 c (BitVec.ofNat 32 (128 * k.val))) S128x1024.size (k0_off12_inb c k)) (fun _ => rfl)
/-- the device's own 8192 rows. -/
abbrev oOwn (c : Dev nD) : Memref sig .tc .hbm S8192x1024 .bf16 :=
  oM.slice (Rect.unit (s := S16384x1024) (k0_off11 c) S8192x1024.size (k0_off11_inb c)) (fun _ => rfl)

/-! ## The cells -/

abbrev barS : Sem sig := (SemArray.scalar (sig.barrier 0 rfl) : Sems sig S_).sem
abbrev barCell (c : Dev nD) : GSem nD τ sig := ((c : Thread nD τ), .reg barS)
/-- DMA semaphore number i of device c. -/
abbrev dcell (c : Dev nD) (i : Nat) (h : i < 195) : GSem nD τ sig := ((c : Thread nD τ), .dma (⟨i, h⟩ : DmaSem sig))
/-- Per chunk: the departure cell of the send to the column mate, its arrival cell, and the same two for the
    forward to the row mate. -/
abbrev sXc (c : Dev nD) (k : Fin 32) : GSem nD τ sig := dcell c (67 + k.val) (by omega)
abbrev rXc (c : Dev nD) (k : Fin 32) : GSem nD τ sig := dcell c (99 + k.val) (by omega)
abbrev sYc (c : Dev nD) (k : Fin 32) : GSem nD τ sig := dcell c (131 + k.val) (by omega)
abbrev rYc (c : Dev nD) (k : Fin 32) : GSem nD τ sig := dcell c (163 + k.val) (by omega)

/-- The credit of one chunk's transfer. -/
abbrev NC : ℕ := 8192

/-! ## What the buffers are to hold -/

variable (m : (ℓ : Loc nD τ sig) → Buf (Elt F) ℓ)

/-- Device c's block of the whole array, as launched. -/
abbrev X (c : Dev nD) : Buf (Elt F) ((c : Thread nD τ).loc main_arg0) := m ((c : Thread nD τ).loc main_arg0)

/-- The change of format, on one element. -/
def tr (x : Elt F .f32) : Elt F .bf16 := FloatOps.truncf .bf16 bitsLt_bf16_f32 x

/-- Row r, column j of device d's block. -/
def xAt (d : Dev nD) (r j : Nat) : Elt F .f32 :=
  X m d (ix2 ⟨r % 8192, Nat.mod_lt _ (by decide)⟩ ⟨j % 2048, Nat.mod_lt _ (by decide)⟩)

/-- What device c stages for its column mate: chunk k, row i, column j is the element of its block at
    row 4096 * (its row) + 128 k + i, column 1024 * (the mate's column) + j, in the narrow format. -/
def sendC (c : Dev nD) : Buf (Elt F) (sbM.view.loc (c : Thread nD τ)) := fun i =>
  tr (xAt m c (4096 * cy c + 128 * (i 0).val + (i 1).val) (1024 * (1 - cx c) + (i 2).val))

/-- What lands in device c's receive buffer: the column mate's staged chunks. -/
def recvC (c : Dev nD) : Buf (Elt F) (rbM.view.loc (c : Thread nD τ)) := fun i =>
  tr (xAt m (xp c) (4096 * cy c + 128 * (i 0).val + (i 1).val) (1024 * cx c + (i 2).val))

/-- Whose block row r of device c's result comes from: its own for the rows of its column, the column mate's for
    the rows of the other column that its row coordinate names, the row mate's column mate's for the rest. -/
def srcDev (c : Dev nD) (r : Nat) : Dev nD :=
  if r / 8192 = cx c then c else if (r % 8192) / 4096 = cy c then xp c else xp (yp c)

/-- What device c's result is to hold: row r, column j is row r % 8192, column 1024 * (its column) + j of the
    block of the device that row comes from, in the narrow format. -/
def outC (c : Dev nD) : Buf (Elt F) (oM.view.loc (c : Thread nD τ)) := fun i =>
  tr (xAt m (srcDev c (i 0).val) (i 0).val (1024 * cx c + (i 1).val))

end Cert.Kernel.Hand

end
-- ==== Proof.BSched.lean ====
/-
  The schedule of the exchange: which cell expects what from whom, and what each arrival tells its owner.

  Every cell has one round. A device's barrier cell expects one unit from its column mate and one from its row mate;
  the column mate's unit says "my receive buffer is yours to write, chunk by chunk", the row mate's "the rows of my
  result that you forward into are yours to write". Each of the 4 x 32 transfer cells expects one chunk's credit: an
  arrival cell hands its owner the piece that landed, holding what the protocol says it holds; a departure cell
  hands back the piece that was read.
-/
import proofs.«900022_g7700000000000023_dist_a2a_v7x_xy2x2_x_m8192_n1024_bf16_1_alg».proof.Proof.BMesh

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ)

/-! ## Which cell is which -/

/-- The chunk a DMA semaphore number serves, and the kind of its cell: 0 the departure of the send to the column
    mate, 1 its arrival, 2 the departure of the forward to the row mate, 3 its arrival. -/
def kindOf (i : Nat) : Nat := (i - 67) / 32
def chunkOf (i : Nat) : Fin 32 := ⟨(i - 67) % 32, Nat.mod_lt _ (by decide)⟩

/-! ## What the arrivals hand over -/

/-- The column mate's entry signal hands device c the mate's receive buffer, piece by piece, with the word that
    round 0 of each of the mate's arrival cells is reached. -/
def barPayX (c : Dev nD) : sProp 𝕄 :=
  bigSep Finset.univ fun k : Fin 32 =>
    iprop((∃ f, (sl3 rbM k).view.loc (xp c : Thread nD τ) ↦[(sl3 rbM k).view.set]{fullShare} f) ∗ reached ER (rXc (xp c) k) 0)
/-- The row mate's entry signal hands device c the rows of the mate's result that c forwards into. -/
def barPayY (c : Dev nD) : sProp 𝕄 :=
  bigSep Finset.univ fun k : Fin 32 =>
    iprop((∃ f, (oY (yp c) k).view.loc (yp c : Thread nD τ) ↦[(oY (yp c) k).view.set]{fullShare} f) ∗ reached ER (rYc (yp c) k) 0)

/-- Departure of chunk k to the column mate: the staged piece comes back. -/
def sXPay (c : Dev nD) (k : Fin 32) : sProp 𝕄 :=
  iprop(∃ f, (sl3 sbM k).view.loc (c : Thread nD τ) ↦[(sl3 sbM k).view.set]{fullShare} f)
/-- Arrival of chunk k from the column mate: the piece of the receive buffer, holding the mate's staged chunk. -/
def rXPay (c : Dev nD) (k : Fin 32) : sProp 𝕄 :=
  (sl3 rbM k).view.loc (c : Thread nD τ) ↦[(sl3 rbM k).view.set]{fullShare} recvC m c
/-- Departure of chunk k to the row mate: the half of the received piece that was lent comes back. -/
def sYPay (c : Dev nD) (k : Fin 32) : sProp 𝕄 :=
  (sl3 rbM k).view.loc (c : Thread nD τ) ↦[(sl3 rbM k).view.set]{fullShare.left} recvC m c
/-- Arrival of chunk k from the row mate: 128 rows of the result, holding what the result is to hold there. -/
def rYPay (c : Dev nD) (k : Fin 32) : sProp 𝕄 :=
  (oY c k).view.loc (c : Thread nD τ) ↦[(oY c k).view.set]{fullShare} outC m c

/-! ## The schedule -/

def sched : Rounds.Schedule (GSem nD τ sig) Bool 𝕄 where
  duties g r := if r = 0 ∧ g.1.2 = .tc then
      (match g.2 with
        | .reg _ => Finset.univ
        | .dma s => if 67 ≤ s.val then {false} else ∅)
    else ∅
  unitless _ := False
  amount g _ _ := match g.2 with | .reg _ => 1 | .dma _ => NC
  payload g _ d := match g.2 with
    | .reg _ => if d then barPayY g.1.1 else barPayX g.1.1
    | .dma s =>
      if kindOf s.val = 0 then sXPay g.1.1 (chunkOf s.val)
      else if kindOf s.val = 1 then rXPay m g.1.1 (chunkOf s.val)
      else if kindOf s.val = 2 then sYPay m g.1.1 (chunkOf s.val)
      else rYPay m g.1.1 (chunkOf s.val)
  amount_pos g _ _ _ := by
    cases g.2 <;> simp [NC]

section Tables
variable (c : Dev nD) (k : Fin 32)

theorem duties_bar : (sched (F := F) m).duties (barCell c) 0 = Finset.univ := by
  dsimp only [sched]; rw [if_pos ⟨rfl, rfl⟩]
theorem duties_dma (i : Nat) (h : i < 195) (hi : 67 ≤ i) : (sched (F := F) m).duties (dcell c i h) 0 = {false} := by
  dsimp only [sched]; rw [if_pos ⟨rfl, rfl⟩]; exact if_pos hi
theorem duties_later (g : GSem nD τ sig) : ∀ r, 1 ≤ r → (sched (F := F) m).duties g r = ∅ :=
  fun r hr => by dsimp only [sched]; rw [if_neg fun h => by omega]
theorem amount_bar (d : Bool) : (sched (F := F) m).amount (barCell c) 0 d = 1 := rfl
theorem amount_dma (i : Nat) (h : i < 195) (d : Bool) : (sched (F := F) m).amount (dcell c i h) 0 d = NC := rfl
theorem expect_bar : (sched (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_dma (i : Nat) (h : i < 195) (hi : 67 ≤ i) : (sched (F := F) m).expect (dcell c i h) 0 = NC := by
  unfold Schedule.expect Schedule.amountOf; rw [duties_dma m c i h hi, Finset.sum_singleton, amount_dma]

theorem payload_bar_x : (sched (F := F) m).payload (barCell c) 0 false = barPayX c := by
  dsimp only [sched]; exact if_neg Bool.false_ne_true
theorem payload_bar_y : (sched (F := F) m).payload (barCell c) 0 true = barPayY c := by
  dsimp only [sched]; exact if_pos rfl

theorem kind_sX : kindOf (67 + k.val) = 0 := by unfold kindOf; omega
theorem kind_rX : kindOf (99 + k.val) = 1 := by unfold kindOf; omega
theorem kind_sY : kindOf (131 + k.val) = 2 := by unfold kindOf; omega
theorem kind_rY : kindOf (163 + k.val) = 3 := by unfold kindOf; omega
theorem chunk_sX : chunkOf (67 + k.val) = k := Fin.ext (by unfold chunkOf; simp only; omega)
theorem chunk_rX : chunkOf (99 + k.val) = k := Fin.ext (by unfold chunkOf; simp only; omega)
theorem chunk_sY : chunkOf (131 + k.val) = k := Fin.ext (by unfold chunkOf; simp only; omega)
theorem chunk_rY : chunkOf (163 + k.val) = k := Fin.ext (by unfold chunkOf; simp only; omega)

theorem payload_sX (d : Bool) : (sched (F := F) m).payload (sXc c k) 0 d = sXPay c k := by
  dsimp only [sched]; rw [if_pos (kind_sX k), chunk_sX]
theorem payload_rX (d : Bool) : (sched (F := F) m).payload (rXc c k) 0 d = rXPay m c k := by
  dsimp only [sched]; rw [if_neg (by rw [kind_rX]; decide), if_pos (kind_rX k), chunk_rX]
theorem payload_sY (d : Bool) : (sched (F := F) m).payload (sYc c k) 0 d = sYPay m c k := by
  dsimp only [sched]; rw [if_neg (by rw [kind_sY]; decide), if_neg (by rw [kind_sY]; decide), if_pos (kind_sY k), chunk_sY]
theorem payload_rY (d : Bool) : (sched (F := F) m).payload (rYc c k) 0 d = rYPay m c k := by
  dsimp only [sched]; rw [if_neg (by rw [kind_rY]; decide), if_neg (by rw [kind_rY]; decide), if_neg (by rw [kind_rY]; decide), chunk_rY]

end Tables

end Cert.Kernel.Hand

end
-- ==== Proof.BLevels.lean ====
/-
  What each device owes, and why no wait can deadlock.

  A device pays, in this order: one unit to its column mate's barrier cell, one to its row mate's, then chunk by
  chunk the credit of its 32 sends into the column mate's arrival cells, then of its 32 forwards into the row mate's.
  What it still owes is written as a sum whose LAST summand is the next payment, so that each payment peels one.
  Levels: the device's own copy cells and departure cells 0, barrier cells 1, arrival cells of the first exchange 2,
  of the second 3. Every wait happens at a level below everything its device still owes: the barrier wait owes only
  sends (2, 3); a wait on a copy owes at most sends; a wait on a first-exchange arrival owes only forwards (3); the
  waits on second-exchange arrivals and on departures owe nothing.
-/
import proofs.«900022_g7700000000000023_dist_a2a_v7x_xy2x2_x_m8192_n1024_bf16_1_alg».proof.Proof.BSched

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig Unit (Elt F) ℕ UU ℕ

/-- The credit device c owes for chunk k of its send to the column mate, and of its forward to the row mate. -/
def tX (c : Dev nD) (k : Fin 32) : CellTallies nD τ sig Unit := tallyAt (rXc (xp c) k) () NC
def tY (c : Dev nD) (k : Fin 32) : CellTallies nD τ sig Unit := tallyAt (rYc (yp c) k) () NC

/-- What is owed with j forwards still to go: chunks 32 - j, …, 31, the next one (chunk 32 - j) last. -/
def remY (c : Dev nD) : ℕ → CellTallies nD τ sig Unit
  | 0 => 0
  | j + 1 => remY c j + tY c ⟨(31 - j) % 32, Nat.mod_lt _ (by decide)⟩
/-- What is owed with j sends still to go (and every forward). -/
def remX (c : Dev nD) : ℕ → CellTallies nD τ sig Unit
  | 0 => remY c 32
  | j + 1 => remX c j + tX c ⟨(31 - j) % 32, Nat.mod_lt _ (by decide)⟩

/-- After the first entry signal, and at launch. -/
def O₁ (c : Dev nD) : CellTallies nD τ sig Unit := remX c 32 + tallyAt (barCell (yp c)) () 1
def O₀ (c : Dev nD) : CellTallies nD τ sig Unit := O₁ c + tallyAt (barCell (xp c)) () 1

def L (g : GSem nD τ sig) : Finset Unit := if g.1.2 = .tc then {()} else ∅
def lv (g : GSem nD τ sig) (_ : Unit) : ℕ := match g.2 with
  | .reg _ => 1
  | .dma s => if 163 ≤ s.val then 3 else if 99 ≤ s.val ∧ s.val < 131 then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_rX (c : Dev nD) (k : Fin 32) : lv (rXc c k) () = 2 := by
  have := k.isLt
  show (if 163 ≤ 99 + k.val then 3 else if 99 ≤ 99 + k.val ∧ 99 + k.val < 131 then 2 else 0) = 2
  rw [if_neg (by omega), if_pos (by omega)]
theorem lv_rY (c : Dev nD) (k : Fin 32) : lv (rYc c k) () = 3 := by
  show (if 163 ≤ 163 + k.val then 3 else _) = 3
  rw [if_pos (by omega)]

theorem remY_pos {c : Dev nD} {j : ℕ} {g : GSem nD τ sig} {u : Unit} (h : 0 < remY c j g u) : ∃ k : Fin 32, g = rYc (yp c) k := by
  induction j with
  | zero => exact absurd h (Nat.lt_irrefl 0)
  | succ j ih =>
    rcases Pipeline.add_pos_cases h with h | h
    · exact ih h
    · exact ⟨_, (Pipeline.tallyAt_pos h).1⟩

theorem remX_pos {c : Dev nD} {j : ℕ} {g : GSem nD τ sig} {u : Unit} (h : 0 < remX c j g u) :
    (∃ k : Fin 32, g = rXc (xp c) k) ∨ (∃ k : Fin 32, g = rYc (yp c) k) := by
  induction j with
  | zero => exact Or.inr (remY_pos h)
  | succ j ih =>
    rcases Pipeline.add_pos_cases h with h | h
    · exact ih h
    · exact Or.inl ⟨_, (Pipeline.tallyAt_pos h).1⟩

/-- A wait on one of the device's own copy or departure cells (semaphore numbers below 99), owing only sends. -/
theorem mw_low_X (c : Dev nD) (s : DmaSem sig) (hs : s.val < 99) (j : ℕ) :
    (levAts L lv : sProp 𝕄) ⊢ MayWait (c : Thread nD τ) (.dma s) () (remX c j) :=
  Pipeline.mayWait_of_levAts (by rw [L_tc]; exact Finset.mem_singleton_self _) fun g u hg => by
    have hl : lv ((c : Thread nD τ), .dma s) () = 0 := by
      show (if 163 ≤ s.val then 3 else if 99 ≤ s.val ∧ s.val < 131 then 2 else 0) = 0
      rw [if_neg (by omega), if_neg (by omega)]
    rcases remX_pos hg with ⟨k, rfl⟩ | ⟨k, rfl⟩
    · exact ⟨by rw [L_tc]; exact Finset.mem_singleton_self _, by rw [hl, lv_rX]; decide⟩
    · exact ⟨by rw [L_tc]; exact Finset.mem_singleton_self _, by rw [hl, lv_rY]; decide⟩

theorem mw_low_Y (c : Dev nD) (s : DmaSem sig) (hs : s.val < 99) (j : ℕ) :
    (levAts L lv : sProp 𝕄) ⊢ MayWait (c : Thread nD τ) (.dma s) () (remY c j) :=
  Pipeline.mayWait_of_levAts (by rw [L_tc]; exact Finset.mem_singleton_self _) fun g u hg => by
    have hl : lv ((c : Thread nD τ), .dma s) () = 0 := by
      show (if 163 ≤ s.val then 3 else if 99 ≤ s.val ∧ s.val < 131 then 2 else 0) = 0
      rw [if_neg (by omega), if_neg (by omega)]
    obtain ⟨k, rfl⟩ := remY_pos hg
    exact ⟨by rw [L_tc]; exact Finset.mem_singleton_self _, by rw [hl, lv_rY]; decide⟩

/-- The barrier wait, owing every send. -/
theorem mw_bar (c : Dev nD) : (levAts L lv : sProp 𝕄) ⊢ MayWait (c : Thread nD τ) (.reg barS) () (remX c 32) :=
  Pipeline.mayWait_of_levAts (by rw [L_tc]; exact Finset.mem_singleton_self _) fun g u hg => by
    have hl : lv ((c : Thread nD τ), .reg barS) () = 1 := rfl
    rcases remX_pos hg with ⟨k, rfl⟩ | ⟨k, rfl⟩
    · exact ⟨by rw [L_tc]; exact Finset.mem_singleton_self _, by rw [hl, lv_rX]; decide⟩
    · exact ⟨by rw [L_tc]; exact Finset.mem_singleton_self _, by rw [hl, lv_rY]; decide⟩

/-- A wait on a first-exchange arrival cell, owing only forwards. -/
theorem mw_rX (c : Dev nD) (k : Fin 32) (j : ℕ) :
    (levAts L lv : sProp 𝕄) ⊢ MayWait (c : Thread nD τ) (.dma (⟨99 + k.val, (show 99 + k.val < 195 by omega)⟩ : DmaSem sig)) () (remY c j) :=
  Pipeline.mayWait_of_levAts (by rw [L_tc]; exact Finset.mem_singleton_self _) fun g u hg => by
    obtain ⟨k', rfl⟩ := remY_pos hg
    exact ⟨by rw [L_tc]; exact Finset.mem_singleton_self _, by rw [show lv ((c : Thread nD τ), SemLoc.dma (⟨99 + k.val, (show 99 + k.val < 195 by omega)⟩ : DmaSem sig)) () = 2 from lv_rX c k, lv_rY]; decide⟩

end Cert.Kernel.Hand

end
-- ==== Proof.BGhost.lean ====
/-
  The ghost state of the exchange and the assertions a device's kernel starts from and ends with.

  Each device has 129 protocol cells: its barrier cell and, per chunk, the departure and arrival cells of the two
  exchanges. At launch every cell gets an invariant under the schedule; every device learns all of them, and that
  round 0 of every cell is reached. A device keeps its own cells' positions, the tokens of the 130 duties IT pays
  (one unit to each mate's barrier cell, and per chunk its two departures and the two arrivals it causes on its
  mates), and the credit its own waits consume on cells others pay (2 on its barrier cell, one chunk's credit on
  each of its 64 arrival cells).
-/
import proofs.«900022_g7700000000000023_dist_a2a_v7x_xy2x2_x_m8192_n1024_bf16_1_alg».proof.Proof.BLevels

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ)

/-! ## The cells, indexed -/

/-- Cell 0 is the barrier cell; cell 1 + 32 * kind + k is the transfer cell of that kind for chunk k
    (kind 0 departure to the column mate, 1 its arrival, 2 departure to the row mate, 3 its arrival). -/
abbrev csem (j : Fin 129) : SemLoc sig :=
  if j.val = 0 then .reg barS else .dma (⟨66 + j.val, (show 66 + j.val < 195 by have := j.isLt; omega)⟩ : DmaSem sig)
abbrev kcell (ck : Dev nD × Fin 129) : GSem nD τ sig := ((ck.1 : Thread nD τ), csem ck.2)

abbrev jB : Fin 129 := ⟨0, by decide⟩
abbrev jsX (k : Fin 32) : Fin 129 := ⟨1 + k.val, by omega⟩
abbrev jrX (k : Fin 32) : Fin 129 := ⟨33 + k.val, by omega⟩
abbrev jsY (k : Fin 32) : Fin 129 := ⟨65 + k.val, by omega⟩
abbrev jrY (k : Fin 32) : Fin 129 := ⟨97 + k.val, by omega⟩

theorem kcell_B (c : Dev nD) : kcell (c, jB) = barCell c := rfl
theorem kcell_sX (c : Dev nD) (k : Fin 32) : kcell (c, jsX k) = sXc c k := by
  unfold kcell csem; rw [if_neg (by show ¬ (1 + k.val = 0); omega)]; exact Prod.ext rfl (congrArg SemLoc.dma (Fin.ext (by show 66 + (1 + k.val) = 67 + k.val; omega)))
theorem kcell_rX (c : Dev nD) (k : Fin 32) : kcell (c, jrX k) = rXc c k := by
  unfold kcell csem; rw [if_neg (by show ¬ (33 + k.val = 0); omega)]; exact Prod.ext rfl (congrArg SemLoc.dma (Fin.ext (by show 66 + (33 + k.val) = 99 + k.val; omega)))
theorem kcell_sY (c : Dev nD) (k : Fin 32) : kcell (c, jsY k) = sYc c k := by
  unfold kcell csem; rw [if_neg (by show ¬ (65 + k.val = 0); omega)]; exact Prod.ext rfl (congrArg SemLoc.dma (Fin.ext (by show 66 + (65 + k.val) = 131 + k.val; omega)))
theorem kcell_rY (c : Dev nD) (k : Fin 32) : kcell (c, jrY k) = rYc c k := by
  unfold kcell csem; rw [if_neg (by show ¬ (97 + k.val = 0); omega)]; exact Prod.ext rfl (congrArg SemLoc.dma (Fin.ext (by show 66 + (97 + k.val) = 163 + k.val; omega)))

/-! ## What every device knows -/

/-- Every cell's invariant, under the names K, and that round 0 of every cell is reached. Persistent. -/
def records (K : Dev nD × Fin 129 → ℕ) : sProp 𝕄 :=
  iprop((bigSep Finset.univ fun ck : Dev nD × Fin 129 => cellInv ER (sched m) (K ck) (kcell ck))
    ∗ bigSep Finset.univ fun ck : Dev nD × Fin 129 => reached ER (kcell ck) 0)

instance records_persistent (K : Dev nD × Fin 129 → ℕ) : BI.Persistent (records m K) := by unfold records; infer_instance

/-! ## What stays with device c -/

def positions (c : Dev nD) : sProp 𝕄 := bigSep Finset.univ fun j : Fin 129 => atPos ER (kcell (c, j)) 0 ∅ 0

/-- The tokens of the duties device c pays. -/
def payToks (c : Dev nD) : sProp 𝕄 :=
  iprop(dutyTok ER (barCell (xp c)) 0 false ∗ dutyTok ER (barCell (yp c)) 0 true
    ∗ bigSep Finset.univ fun k : Fin 32 =>
        iprop(dutyTok ER (sXc c k) 0 false ∗ dutyTok ER (rXc (xp c) k) 0 false ∗ dutyTok ER (sYc c k) 0 false ∗ dutyTok ER (rYc (yp c) k) 0 false))

/-- The credit of the waits on cells that others pay. -/
def creds (c : Dev nD) : sProp 𝕄 :=
  iprop(cred (tallyAt (barCell c) () 2)
    ∗ bigSep Finset.univ fun k : Fin 32 => iprop(cred (tallyAt (rXc c k) () NC) ∗ cred (tallyAt (rYc c k) () NC)))

/-- The counters of the device's own copy semaphores (numbers 0 to 66), at zero. -/
def locals (c : Dev nD) : sProp 𝕄 :=
  bigSep Finset.univ fun i : Fin 67 => semVal (dcell c i.val (by have := i.isLt; omega)) 0

/-- All 195 DMA semaphore counters of the kernel, at zero. -/
def allSems0 (c : Dev nD) : sProp 𝕄 :=
  bigSep Finset.univ fun i : Fin 195 => semVal (dcell c i.val i.isLt) 0

/-- A whole buffer over some contents, held through its memref. -/
abbrev someBuf {sp : Space} {s : Shape} {e : EltTy} (M : Memref sig .tc sp s e) (c : Dev nD) : sProp 𝕄 :=
  iprop(∃ f, M.view.loc (c : Thread nD τ) ↦[M.view.set]{fullShare} f)

/-- What device c's kernel starts from, apart from its scratch buffers. -/
def start (c : Dev nD) : sProp 𝕄 :=
  iprop((∃ K, records m K ∗ positions c ∗ payToks c) ∗ creds c ∗ levAts L lv ∗ locals c
    ∗ (xM.view.loc (c : Thread nD τ) ↦[xM.view.set]{fullShare} X m c) ∗ someBuf oM c)

def Φ₀ (c : Dev nD) : sProp 𝕄 :=
  iprop(start m c ∗ someBuf slM c ∗ someBuf sbM c ∗ someBuf rbM c ∗ someBuf elM c ∗ someBuf lvM c)

/-- What it ends with: its block unchanged (half of it is enough to read it back; the other half was lent piecewise
    to the copies), its result holding what it is to hold, every counter back at zero,
    the scratch buffers over whatever they hold. -/
def Φ₁ (c : Dev nD) : sProp 𝕄 :=
  iprop((xM.view.loc (c : Thread nD τ) ↦[xM.view.set]{fullShare.left} X m c)
    ∗ (oM.view.loc (c : Thread nD τ) ↦[oM.view.set]{fullShare} outC m c)
    ∗ allSems0 c
    ∗ someBuf slM c ∗ someBuf sbM c ∗ someBuf rbM c ∗ someBuf elM c ∗ someBuf lvM c)

/-- The pipeline's proof data: no window, one point; the device owes its launch tallies before the point and nothing after. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.Kernel.Hand

end
-- ==== Proof.BLaunch.lean ====
/-
  The launch: from the proof of every device's kernel body to the run of the whole program.

  At launch the ghost state of the 4 x 129 protocol cells is created and dealt: every device gets the invariants of
  all cells, its own cells' positions, and the tokens of the duties it pays on its mates' cells; the credit that the
  mates owe its cells; its two arrays; and the counters of its own copy semaphores. At the end its two arrays are read
  against the final memory.
-/
import proofs.«900022_g7700000000000023_dist_a2a_v7x_xy2x2_x_m8192_n1024_bf16_1_alg».proof.Proof.BGhost
import Idealize.ShloMosaic.Lib.Pipeline.Launch
import Idealize.ShloMosaic.Lib.Pipeline.Kit

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- All 195 DMA semaphores are the kernel's own. -/
abbrev osem : Fin 195 → SemLoc sig := fun i => .dma (⟨i.val, i.isLt⟩ : DmaSem sig)

theorem ownSemFacts : Pipeline.OwnSemFacts cfg0.spec osem :=
  ⟨by decide, fun a b h => Fin.ext (by injection h with h; exact congrArg Fin.val h), fun k w => w.elim0⟩

/-! ## The cells and the tokens as minted -/

omit [FloatOps F] in
private theorem dcell_congr (c : Dev nD) {i i' : Nat} (e : i = i') (h : i < 195) (h' : i' < 195) : dcell c i h = dcell c i' h' := by
  subst e; rfl

theorem kcell_injective : Function.Injective (kcell : Dev nD × Fin 129 → GSem nD τ sig) := by
  rintro ⟨c, j⟩ ⟨c', j'⟩ h
  have h1 : c = c' := congrArg (fun g : GSem nD τ sig => g.1.1) h
  subst h1
  have h2 : csem j = csem j' := congrArg Prod.snd h
  have : j = j' := by
    unfold csem at h2
    by_cases hj : j.val = 0 <;> by_cases hj' : j'.val = 0
    · exact Fin.ext (hj.trans hj'.symm)
    · rw [if_pos hj, if_neg hj'] at h2; cases h2
    · rw [if_neg hj, if_pos hj'] at h2; cases h2
    · rw [if_neg hj, if_neg hj'] at h2
      injection h2 with h2
      have := congrArg Fin.val h2
      exact Fin.ext (by simp only at this; omega)
  subst this; rfl

def cellsF : Finset (GSem nD τ sig) := Finset.univ.map ⟨kcell, kcell_injective⟩

/-- A device's own cells' duty tokens as minted: the two of its barrier cell, and one per transfer cell (kind q, chunk k). -/
abbrev tokOf (cj : Dev nD × (Bool ⊕ (Fin 4 × Fin 32))) : GSem nD τ sig × ℕ × Bool := match cj.2 with
  | .inl d => (barCell cj.1, 0, d)
  | .inr qk => (dcell cj.1 (67 + 32 * qk.1.val + qk.2.val) (by have := qk.1.isLt; have := qk.2.isLt; omega), 0, false)

theorem tokOf_injective : Function.Injective (tokOf : Dev nD × (Bool ⊕ (Fin 4 × Fin 32)) → GSem nD τ sig × ℕ × Bool) := by
  rintro ⟨c, x⟩ ⟨c', x'⟩ h
  rcases x with d | ⟨q, k⟩ <;> rcases x' with d' | ⟨q', k'⟩
  · have h1 : c = c' := congrArg (fun x : GSem nD τ sig × ℕ × Bool => x.1.1.1) h
    have h2 : d = d' := congrArg (fun x : GSem nD τ sig × ℕ × Bool => x.2.2) h
    subst h1; subst h2; rfl
  · exact absurd (congrArg (fun x : GSem nD τ sig × ℕ × Bool => x.1.2) h) (fun h' => by cases h')
  · exact absurd (congrArg (fun x : GSem nD τ sig × ℕ × Bool => x.1.2) h) (fun h' => by cases h')
  · have h1 : c = c' := congrArg (fun x : GSem nD τ sig × ℕ × Bool => x.1.1.1) h
    subst h1
    have h2 := congrArg (fun x : GSem nD τ sig × ℕ × Bool => x.1.2) h
    injection h2 with h2
    have h3 : 67 + 32 * q.val + k.val = 67 + 32 * q'.val + k'.val := congrArg Fin.val h2
    have hq : q = q' := Fin.ext (by have := k.isLt; have := k'.isLt; omega)
    have hk : k = k' := Fin.ext (by have := congrArg Fin.val hq; omega)
    subst hq; subst hk; rfl

def toksF : Finset (GSem nD τ sig × ℕ × Bool) := Finset.univ.map ⟨tokOf, tokOf_injective⟩

def u₀ : UU :=
  (initOf (Pipeline.cells cfgs cellOf_inj) (Pipeline.launchToks cfgs cellOf_inj), (initOf cellsF toksF, 1))

/-- The duty tokens of device c's own cells. -/
def toks (c : Dev nD) : sProp 𝕄 :=
  iprop((dutyTok ER (barCell c) 0 false ∗ dutyTok ER (barCell c) 0 true)
    ∗ (bigSep Finset.univ fun k : Fin 32 => dutyTok ER (sXc c k) 0 false)
    ∗ (bigSep Finset.univ fun k : Fin 32 => dutyTok ER (rXc c k) 0 false)
    ∗ (bigSep Finset.univ fun k : Fin 32 => dutyTok ER (sYc c k) 0 false)
    ∗ (bigSep Finset.univ fun k : Fin 32 => dutyTok ER (rYc c k) 0 false))

/-- What the launch element deals device c. -/
def G (c : Dev nD) : sProp 𝕄 :=
  iprop((bigSep Finset.univ fun j : Fin 129 => roundState ER (sched m) (kcell (c, j)) 0)
    ∗ (bigSep Finset.univ fun j : Fin 129 => iprop(atPos ER (kcell (c, j)) 0 ∅ 0 ∗ reached ER (kcell (c, j)) 0)) ∗ toks c)

/-- What the global step makes of it. -/
def G' (c : Dev nD) : sProp 𝕄 := iprop((∃ K, records m K ∗ positions c ∗ payToks c) ∗ locals c)

omit [FloatOps F] in
private theorem bigSep_bool (Φ : Bool → sProp 𝕄) : bigSep Finset.univ Φ = iprop(Φ false ∗ Φ true) :=
  bigSep_univ_eq_bigSepL [false, true] (by decide) (by decide) Φ
omit [FloatOps F] in
private theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem fund_cells : BI.own (ER (initOf cellsF toksF)) ⊢ (|==> bigSep Finset.univ (G m) : sProp 𝕄) := by
  have hX (Φ : GSem nD τ sig → sProp 𝕄) : bigSep cellsF Φ = bigSep Finset.univ fun c : Dev nD => bigSep Finset.univ fun j : Fin 129 => Φ (kcell (c, j)) := by
    unfold cellsF; rw [bigSep_map, bigSep_univ_prod]; rfl
  have hT : bigSep toksF (fun x => (dutyTok ER x.1 x.2.1 x.2.2 : sProp 𝕄)) = bigSep Finset.univ fun c : Dev nD => toks c := by
    unfold toksF; rw [bigSep_map, bigSep_univ_prod]
    exact bigSep_congr fun c _ => by
      unfold toks; rw [bigSep_univ_sum, bigSep_bool, bigSep_univ_prod, bigSep_fin4]; rfl
  iintro HX
  imod (Rounds.fund ER (sched m) cellsF toksF) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem hu0 : (ownU (u₀ : UU) : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave H2 := (own_pair_emb embR _ _) $$ HX
  icases H2 with ⟨HB, -⟩
  imod (fund_cells m) $$ HB with HG
  imodintro
  isplitl [HP] <;> iassumption

/-! ## The payloads can be stored in invariants -/

instance sched_payload_storable (g : GSem nD τ sig) (r : ℕ) (d : Bool) :
    BI.Storable (upEmb : UEmb _ 𝕄) ((sched (F := F) m).payload g r d) := by
  dsimp only [sched]
  unfold barPayX barPayY sXPay rXPay sYPay rYPay
  (repeat' split) <;> infer_instance

/-! ## The counters, sorted into the cells' and the rest -/

omit [FloatOps F] in
private theorem bigSep_fin_add (a b : ℕ) (Φ : Fin (a + b) → sProp 𝕄) :
    bigSep Finset.univ Φ
      = iprop((bigSep Finset.univ fun i : Fin a => Φ (Fin.castAdd b i)) ∗ bigSep Finset.univ fun j : Fin b => Φ (Fin.natAdd a j)) := by
  rw [bigSep_univ_equiv finSumFinEquiv Φ, bigSep_univ_sum]
  rfl

omit [FloatOps F] in
private theorem bigSep_fin195 (Φ : Fin 195 → sProp 𝕄) :
    bigSep Finset.univ Φ
      = iprop((bigSep Finset.univ fun i : Fin 67 => Φ ⟨i.val, by have := i.isLt; omega⟩)
          ∗ bigSep Finset.univ fun j : Fin 128 => Φ ⟨67 + j.val, by have := j.isLt; omega⟩) :=
  bigSep_fin_add 67 128 Φ

omit [FloatOps F] in
private theorem bigSep_fin129 (Φ : Fin 129 → sProp 𝕄) :
    bigSep Finset.univ Φ = iprop(Φ ⟨0, by decide⟩ ∗ bigSep Finset.univ fun j : Fin 128 => Φ ⟨1 + j.val, by have := j.isLt; omega⟩) := by
  rw [bigSep_fin_add 1 128 Φ, bigSep_univ_of_subsingleton (0 : Fin 1)]
  rfl

omit [FloatOps F] in
private theorem kcell_dma (c : Dev nD) (j : Fin 128) :
    kcell (c, (⟨1 + j.val, by have := j.isLt; omega⟩ : Fin 129)) = dcell c (67 + j.val) (by have := j.isLt; omega) := by
  unfold kcell csem
  rw [if_neg (by show ¬ (1 + j.val = 0); omega)]
  exact Prod.ext rfl (congrArg SemLoc.dma (Fin.ext (by show 66 + (1 + j.val) = 67 + j.val; omega)))

omit [FloatOps F] in
/-- The runtime's barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun j : Fin 129 => semVal (kcell (c, j)) 0) ∗ locals c) : sProp 𝕄) := by
  have e1 : (Pipeline.ownSems0 (Ix := Unit) (Name := ℕ) (U := UU) (Lvl := ℕ) (Val := Elt F) (τ := τ) osem c : sProp 𝕄)
      = iprop(locals c ∗ bigSep Finset.univ fun j : Fin 128 => semVal (dcell c (67 + j.val) (by have := j.isLt; omega)) 0) :=
    bigSep_fin195 (fun i : Fin 195 => (semVal (dcell c i.val i.isLt) 0 : sProp 𝕄))
  have e2 : (bigSep Finset.univ fun j : Fin 129 => (semVal (kcell (c, j)) 0 : sProp 𝕄))
      = iprop(semVal (barCell c) 0 ∗ bigSep Finset.univ fun j : Fin 128 => semVal (dcell c (67 + j.val) (by have := j.isLt; omega)) 0) := by
    rw [bigSep_fin129]
    refine congrArg₂ _ rfl (bigSep_congr fun j _ => ?_)
    rw [kcell_dma]
  rw [e1, e2, unscopedSems0_eq]
  iintro ⟨⟨Hloc, Hcells⟩, HB⟩
  isplitr [Hloc]
  · isplitl [HB] <;> iassumption
  · iexact Hloc

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j : Fin 129 => iprop(∃ κ : ℕ, cellInv ER (sched m) κ (kcell (c, j))))
          ∗ (bigSep Finset.univ fun j : Fin 129 => iprop(atPos ER (kcell (c, j)) 0 ∅ 0 ∗ reached ER (kcell (c, j)) 0)) ∗ toks c ∗ locals c) := by
  unfold G
  iintro ⟨Hos, Hus, Hst, Hat, Htok⟩
  ihave Hv := (sems0_eq (F := F) c) $$ [Hos Hus]
  · isplitl [Hos] <;> iassumption
  icases Hv with ⟨Hv, Hloc⟩
  imod (show iprop((bigSep Finset.univ fun j : Fin 129 => semVal (kcell (c, j)) 0) ∗ bigSep Finset.univ fun j : Fin 129 => roundState ER (sched m) (kcell (c, j)) 0)
      ⊢ (|={Set.univ}=> bigSep Finset.univ fun j : Fin 129 => iprop(∃ κ : ℕ, cellInv ER (sched m) κ (kcell (c, j))) : sProp 𝕄) from by
        rw [← bigSep_sep']
        exact (bigSep_mono fun j _ => (Rounds.body_intro ER (sched m) (kcell (c, j))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-! ## The tokens dealt to the devices that pay -/

omit [FloatOps F] in
/-- A barrier cell's first token goes to the column mate, its second to the row mate; an arrival cell's token goes
    to the mate that sends into it; a departure cell's stays. -/
theorem toks_around : (bigSep Finset.univ fun c : Dev nD => (toks c : sProp 𝕄)) ⊢ bigSep Finset.univ fun c : Dev nD => payToks c := by
  unfold toks payToks
  simp only [bigSep_sep']
  rw [bigSep_univ_equiv xSwap (fun c : Dev nD => (dutyTok ER (barCell c) 0 false : sProp 𝕄)),
    bigSep_univ_equiv ySwap (fun c : Dev nD => (dutyTok ER (barCell c) 0 true : sProp 𝕄)),
    bigSep_univ_equiv xSwap (fun c : Dev nD => bigSep Finset.univ fun k : Fin 32 => (dutyTok ER (rXc c k) 0 false : sProp 𝕄)),
    bigSep_univ_equiv ySwap (fun c : Dev nD => bigSep Finset.univ fun k : Fin 32 => (dutyTok ER (rYc c k) 0 false : sProp 𝕄))]
  iintro ⟨⟨H1, H2⟩, H3, H4, H5, H6⟩
  isplitl [H1]; · iexact H1
  isplitl [H2]; · iexact H2
  isplitl [H3]; · iexact H3
  isplitl [H4]; · iexact H4
  isplitl [H5]; · iexact H5
  iexact H6

theorem regroup :
    (bigSep Finset.univ fun c : Dev nD => iprop((bigSep Finset.univ fun j : Fin 129 => iprop(∃ κ : ℕ, cellInv ER (sched m) κ (kcell (c, j))))
          ∗ (bigSep Finset.univ fun j : Fin 129 => iprop(atPos ER (kcell (c, j)) 0 ∅ 0 ∗ reached ER (kcell (c, j)) 0)) ∗ toks c ∗ locals c) : sProp 𝕄)
      ⊢ bigSep Finset.univ (G' m) := by
  rw [bigSep_sep', bigSep_sep', bigSep_sep', ← bigSep_univ_prod (fun ck : Dev nD × Fin 129 => iprop(∃ κ : ℕ, cellInv ER (sched m) κ (kcell ck))),
    bigSep_congr (s := Finset.univ) (fun (c : Dev nD) _ => bigSep_sep' Finset.univ (fun j : Fin 129 => (atPos ER (kcell (c, j)) 0 ∅ 0 : sProp 𝕄)) (fun j => reached ER (kcell (c, j)) 0)),
    bigSep_sep', ← bigSep_univ_prod (fun ck : Dev nD × Fin 129 => (reached ER (kcell ck) 0 : sProp 𝕄))]
  iintro ⟨HI, ⟨Hat, #HR⟩, Htok, Hloc⟩
  ihave HK := (BI.bigSep_exists_pi Finset.univ (fun (ck : Dev nD × Fin 129) (κ : ℕ) => (cellInv ER (sched m) κ (kcell ck) : sProp 𝕄))) $$ HI
  icases HK with ⟨%K, #HI⟩
  ihave Htk := (toks_around (F := F)) $$ Htok
  iapply (bigSep_with_persistent (R := records m K) (Φ := fun c : Dev nD => iprop(positions c ∗ payToks c ∗ locals c)) fun c _ => by
    unfold G'
    iintro ⟨#HR, Hp, Ht, Hl⟩
    isplitr [Hl]
    · iexists K
      isplitr; · iexact HR
      isplitl [Hp] <;> iassumption
    · iexact Hl)
  isplitr
  · unfold records; isplitl; · iexact HI
    iexact HR
  · simp only [bigSep_sep']
    unfold positions
    isplitl [Hat]; · iexact Hat
    isplitl [Htk] <;> iassumption

/-- The global step: every device's counters and ghost resources at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What is owed to device c's cells, in all: one chunk's credit on each of its 64 arrival cells, two units on its barrier cell. -/
def Tc (c : Dev nD) : CellTallies nD τ sig Unit :=
  (∑ k : Fin 32, tallyAt (rYc c k) () NC) + (∑ k : Fin 32, tallyAt (rXc c k) () NC) + tallyAt (barCell c) () 1 + tallyAt (barCell c) () 1

omit [FloatOps F] in
private theorem sum_rev32 {M : Type} [AddCommMonoid M] (f : Fin 32 → M) :
    (∑ j ∈ Finset.range 32, f ⟨(31 - j) % 32, Nat.mod_lt _ (by decide)⟩) = ∑ k, f k := by
  rw [Finset.sum_range fun j => f ⟨(31 - j) % 32, Nat.mod_lt _ (by decide)⟩]
  exact Fintype.sum_equiv Fin.revPerm _ _ fun i => congrArg f (Fin.ext (by
    have := i.isLt
    simp only [Fin.revPerm_apply, Fin.val_rev]; omega))

omit [FloatOps F] in
theorem remY_eq (c : Dev nD) (n : ℕ) : remY c n = ∑ j ∈ Finset.range n, tY c ⟨(31 - j) % 32, Nat.mod_lt _ (by decide)⟩ := by
  induction n with
  | zero => rfl
  | succ n ih => rw [Finset.sum_range_succ, ← ih]; rfl

omit [FloatOps F] in
theorem remX_eq (c : Dev nD) (n : ℕ) : remX c n = remY c 32 + ∑ j ∈ Finset.range n, tX c ⟨(31 - j) % 32, Nat.mod_lt _ (by decide)⟩ := by
  induction n with
  | zero => rw [Finset.sum_range_zero, add_zero]; rfl
  | succ n ih => rw [Finset.sum_range_succ, ← add_assoc, ← ih]; rfl

omit [FloatOps F] in
theorem O₀_eq (d : Dev nD) :
    O₀ d = (∑ k, tY d k) + (∑ k, tX d k) + tallyAt (barCell (yp d)) () 1 + tallyAt (barCell (xp d)) () 1 := by
  unfold O₀ O₁
  rw [remX_eq, remY_eq, sum_rev32 (tY d), sum_rev32 (tX d)]

omit [FloatOps F] in
/-- Summed over the devices, what they owe is what their cells are owed. -/
theorem owed_sum : (∑ d, O₀ d) = ∑ d, Tc d := by
  simp only [O₀_eq, Tc, Finset.sum_add_distrib]
  refine congrArg₂ (· + ·) (congrArg₂ (· + ·) (congrArg₂ (· + ·) ?_ ?_) ?_) ?_
  · exact Equiv.sum_comp ySwap (fun d : Dev nD => ∑ k : Fin 32, (tallyAt (rYc d k) () NC : CellTallies nD τ sig Unit))
  · exact Equiv.sum_comp xSwap (fun d : Dev nD => ∑ k : Fin 32, (tallyAt (rXc d k) () NC : CellTallies nD τ sig Unit))
  · exact Equiv.sum_comp ySwap (fun d : Dev nD => (tallyAt (barCell d) () 1 : CellTallies nD τ sig Unit))
  · exact Equiv.sum_comp xSwap (fun d : Dev nD => (tallyAt (barCell d) () 1 : CellTallies nD τ sig Unit))

omit [FloatOps F] in
theorem Tc_on (d : Dev nD) (g : GSem nD τ sig) (h : Tc d g ≠ 0) : g.1 = (d.tc : Thread nD τ) := by
  by_contra hne
  apply h
  have hz : ∀ (sm : SemLoc sig) (n : ℕ), (tallyAt ((d.tc : Thread nD τ), sm) () n : CellTallies nD τ sig Unit) g = 0 :=
    fun sm n => tallyAt_ne_cell (fun e => hne (congrArg Prod.fst e)) () n
  unfold Tc
  simp only [Pi.add_apply, Finset.sum_apply, hz, Finset.sum_const_zero, add_zero]

omit [FloatOps F] in
theorem creds_of_launch (c : Dev nD) : (Pipeline.launchCred O₀ c : sProp 𝕄) ⊢ creds c := by
  rw [Pipeline.launchCred_of_sum O₀ Tc owed_sum Tc_on c]
  have hY : (cred (∑ k : Fin 32, tallyAt (rYc c k) () NC) : sProp 𝕄) = bigSep Finset.univ fun k : Fin 32 => cred (tallyAt (rYc c k) () NC) :=
    Pipeline.cred_finsetSum _ _
  have hX : (cred (∑ k : Fin 32, tallyAt (rXc c k) () NC) : sProp 𝕄) = bigSep Finset.univ fun k : Fin 32 => cred (tallyAt (rXc c k) () NC) :=
    Pipeline.cred_finsetSum _ _
  have h2 : (tallyAt (barCell c) () 1 + tallyAt (barCell c) () 1 : CellTallies nD τ sig Unit) = tallyAt (barCell c) () 2 := tallyAt_add _ _ 1 1
  have hB : iprop(cred (tallyAt (barCell c) () 1) ∗ cred (tallyAt (barCell c) () 1)) ⊢ (cred (tallyAt (barCell c) () 2) : sProp 𝕄) := by
    rw [← h2]; exact (cred_add _ _).2
  unfold Tc creds
  iintro H
  ihave H := (cred_add _ _).1 $$ H
  icases H with ⟨H, Hb2⟩
  ihave H := (cred_add _ _).1 $$ H
  icases H with ⟨H, Hb1⟩
  ihave H := (cred_add _ _).1 $$ H
  icases H with ⟨HY, HX⟩
  ihave HY' := (Entails.of_eq hY) $$ HY
  ihave HX' := (Entails.of_eq hX) $$ HX
  isplitl [Hb1 Hb2]
  · iapply hB; isplitl [Hb1] <;> iassumption
  · rw [bigSep_sep']; isplitl [HX'] <;> iassumption

/-! ## A whole buffer held through its memref is the buffer -/

section Whole
variable (c : Dev nD)
omit [FloatOps F]
private theorem x_eq (q : PosShare TreeShare) (f : Buf (Elt F) ((c : Thread nD τ).loc main_arg0)) :
    (xM.view.loc (c : Thread nD τ) ↦[xM.view.set]{q} f : sProp 𝕄) = (((c : Thread nD τ).loc main_arg0) ↦{q} f) := by rw [View.set_whole]
private theorem o_eq (f : Buf (Elt F) ((c : Thread nD τ).loc main_v1)) :
    (oM.view.loc (c : Thread nD τ) ↦[oM.view.set]{fullShare} f : sProp 𝕄) = (((c : Thread nD τ).loc main_v1) ↦{fullShare} f) := by rw [View.set_whole]
private theorem sl_eq (f : Buf (Elt F) ((c : Thread nD τ).loc cc0_scratch0)) :
    (slM.view.loc (c : Thread nD τ) ↦[slM.view.set]{fullShare} f : sProp 𝕄) = (((c : Thread nD τ).loc cc0_scratch0) ↦{fullShare} f) := by rw [View.set_whole]
private theorem sb_eq (f : Buf (Elt F) ((c : Thread nD τ).loc cc0_scratch1)) :
    (sbM.view.loc (c : Thread nD τ) ↦[sbM.view.set]{fullShare} f : sProp 𝕄) = (((c : Thread nD τ).loc cc0_scratch1) ↦{fullShare} f) := by rw [View.set_whole]
private theorem rb_eq (f : Buf (Elt F) ((c : Thread nD τ).loc cc0_scratch2)) :
    (rbM.view.loc (c : Thread nD τ) ↦[rbM.view.set]{fullShare} f : sProp 𝕄) = (((c : Thread nD τ).loc cc0_scratch2) ↦{fullShare} f) := by rw [View.set_whole]
private theorem el_eq (f : Buf (Elt F) ((c : Thread nD τ).loc cc0_scratch3)) :
    (elM.view.loc (c : Thread nD τ) ↦[elM.view.set]{fullShare} f : sProp 𝕄) = (((c : Thread nD τ).loc cc0_scratch3) ↦{fullShare} f) := by rw [View.set_whole]
private theorem lv_eq (f : Buf (Elt F) ((c : Thread nD τ).loc cc0_scratch4)) :
    (lvM.view.loc (c : Thread nD τ) ↦[lvM.view.set]{fullShare} f : sProp 𝕄) = (((c : Thread nD τ).loc cc0_scratch4) ↦{fullShare} f) := by rw [View.set_whole]
end Whole

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G' start
  iintro ⟨⟨Hx, Ho⟩, Hlev, Hcr, -, HG, Hloc⟩
  ihave Hc := (creds_of_launch (F := F) c) $$ Hcr
  ihave Hx' := (Entails.of_eq (x_eq c fullShare (m ((c : Thread nD τ).loc main_arg0))).symm) $$ Hx
  ihave Ho' := (Entails.of_eq (o_eq c (m ((c : Thread nD τ).loc main_v1))).symm) $$ Ho
  imodintro
  isplitl
  · isplitl [HG]; · iexact HG
    isplitl [Hc]; · iexact Hc
    isplitl [Hlev]; · iexact Hlev
    isplitl [Hloc]; · iexact Hloc
    isplitl [Hx']; · iexact Hx'
    iexists (m ((c : Thread nD τ).loc main_v1)); iexact Ho'
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f0, H0⟩, ⟨%f1, H1⟩, ⟨%f2, H2⟩, ⟨%f3, H3⟩, ⟨%f4, H4⟩⟩
  ihave H0' := (Entails.of_eq (sl_eq c f0).symm) $$ H0
  ihave H1' := (Entails.of_eq (sb_eq c f1).symm) $$ H1
  ihave H2' := (Entails.of_eq (rb_eq c f2).symm) $$ H2
  ihave H3' := (Entails.of_eq (el_eq c f3).symm) $$ H3
  ihave H4' := (Entails.of_eq (lv_eq c f4).symm) $$ H4
  isplitl [Hs]; · iexact Hs
  isplitl [H0']; · iexists f0; iexact H0'
  isplitl [H1']; · iexists f1; iexact H1'
  isplitl [H2']; · iexists f2; iexact H2'
  isplitl [H3']; · iexists f3; iexact H3'
  iexists f4; iexact H4'

/-- What is read at the end: the two arrays (of the argument, the half that never left the device's hands). -/
def Yend (c : Dev nD) : sProp 𝕄 :=
  iprop((xM.view.loc (c : Thread nD τ) ↦[xM.view.set]{fullShare.left} X m c)
    ∗ (oM.view.loc (c : Thread nD τ) ↦[oM.view.set]{fullShare} outC m c))

theorem phi1_exit (c : Dev nD) :
    (dats m 0 c).Φ (Fin.last cfg0.N) ⊢ iprop(Yend m c ∗ Pipeline.ownSems0 osem c ∗ Pipeline.scopedRest cfg0.spec c) := by
  rw [show (dats m 0 c).Φ (Fin.last cfg0.N) = Φ₁ m c from rfl, scopedRest0_eq,
    show (Pipeline.ownSems0 (Ix := Unit) (Name := ℕ) (U := UU) (Lvl := ℕ) (Val := Elt F) (τ := τ) osem c : sProp 𝕄) = allSems0 c from rfl]
  unfold Φ₁ Yend
  iintro ⟨Hx, Ho, Hz, ⟨%f0, H0⟩, ⟨%f1, H1⟩, ⟨%f2, H2⟩, ⟨%f3, H3⟩, ⟨%f4, H4⟩⟩
  ihave H0' := (Entails.of_eq (sl_eq c f0)) $$ H0
  ihave H1' := (Entails.of_eq (sb_eq c f1)) $$ H1
  ihave H2' := (Entails.of_eq (rb_eq c f2)) $$ H2
  ihave H3' := (Entails.of_eq (el_eq c f3)) $$ H3
  ihave H4' := (Entails.of_eq (lv_eq c f4)) $$ H4
  isplitl [Hx Ho]; · isplitl [Hx] <;> iassumption
  isplitl [Hz]; · iexact Hz
  isplitl [H0']; · iexists f0; iexact H0'
  isplitl [H1']; · iexists f1; iexact H1'
  isplitl [H2']; · iexists f2; iexact H2'
  isplitl [H3']; · iexists f3; iexact H3'
  iexists f4; iexact H4'

theorem waits (c : Dev nD) : (levAts L lv : sProp 𝕄) ⊢ Pipeline.cellsWaits cfgs (dats m) () 0 c :=
  Pipeline.cellsWaits_intro cfgs (dats m) () 0 c fun w s t => w.elim0

theorem read_final (c : Dev nD) (s' : Phys nD τ sig (Elt F)) :
    iprop(Yend m c ∗ emp ∗ SI s') ⊢ |={Set.univ}=> iprop(⌜s'.mem.mem ((c.tc : Thread nD τ).loc main_v1) = outC m c
        ∧ s'.mem.mem ((c.tc : Thread nD τ).loc main_arg0) = m ((c.tc : Thread nD τ).loc main_arg0)⌝ ∗ SI s') := by
  unfold Yend
  rw [x_eq c fullShare.left (X m c), o_eq c (outC m c)]
  iintro ⟨⟨Hx, Ho⟩, -, HSI⟩
  icombine HSI Hx gives %hx
  icombine HSI Ho gives %ho
  imodintro
  isplitr
  · ipureintro; exact ⟨Buf.eq_of_forall_mem_univ ho, Buf.eq_of_forall_mem_univ hx⟩
  iexact HSI

/-! ## The run -/

set_option maxRecDepth 100000 in
/-- On the four devices, for any float values, from any memory with zero counters: if every device's kernel body meets
    its obligation, every weakly fair execution terminates, every device's result holds what it is to hold, and its
    argument is unchanged. -/
theorem run_main (hbody : ∀ c : Dev nD, BodyObligation (dats (F := F) m 0 c) (defs₀ (F := F)) 𝒱₀ () Set.univ) :
    θ_run (defs (F := F)) (onTc (τ := τ) (main (F := F))) ⟨m, fun _ => 0, ρ⟩ (fun r => ∀ c : Dev nD,
      r.2.mem ((c.tc : Thread nD τ).loc main_v1) = outC m c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => w.elim0) (harr := arr_whole0) (hstage := stage_whole0) (hshare := fun c w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := hu0 m)
    (hglob := glob m)
    (hA := fun _ w => w.elim0) (hpf := fun _ k => k.elim0)
    (X := start m) (Y := Yend m) (Z := fun _ => iprop(emp))
    (hX := start_intro m ρ) (hin := phi0_intro m) (hout := phi1_exit m)
    (QY := fun c s => s.mem ((c.tc : Thread nD τ).loc main_v1) = outC m c
        ∧ s.mem ((c.tc : Thread nD τ).loc main_arg0) = m ((c.tc : Thread nD τ).loc main_arg0))
    (hY := read_final m)
    (hQ := fun _ h c => (h c).2.2)

/-- info: 'Cert.Kernel.Hand.run_main' depends on axioms: [propext, Classical.choice, Quot.sound] -/
#guard_msgs in #print axioms run_main

end Cert.Kernel.Hand

end
-- ==== Proof.BPoint.lean ====
/-
  The kernel's one point: it has no grid, so the pipeline visits exactly one point.
-/
import proofs.«900022_g7700000000000023_dist_a2a_v7x_xy2x2_x_m8192_n1024_bf16_1_alg».proof.Proof.BGhost

noncomputable section

namespace Cert.Kernel.Hand

open Cert.Kernel Cert.Kernel.Gen
open Idealize.ShloMosaic

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

end Cert.Kernel.Hand

end
-- ==== Proof.BOblig.lean ====
/-
  From the proof of a device's kernel body to the obligation the launch asks of it, and to the run.

  The kernel has one point and no window: the obligation at that point is the body's own statement, from what the
  device starts with and what it owes to what it ends with, owing nothing.
-/
import proofs.«900022_g7700000000000023_dist_a2a_v7x_xy2x2_x_m8192_n1024_bf16_1_alg».proof.Proof.BLaunch
import proofs.«900022_g7700000000000023_dist_a2a_v7x_xy2x2_x_m8192_n1024_bf16_1_alg».proof.Proof.BPoint

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig Unit (Elt F) ℕ UU ℕ

/-! ## The obligation and the run -/

set_option maxRecDepth 100000 in
/-- The body's statement at every device is the obligation at every device. -/
theorem body_obligation_of (m : (ℓ : Loc nD τ sig) → Buf (Elt F) ℓ)
    (hsound : ∀ (c : Dev nD) (Kt : PUnit → sProp 𝕄),
        iprop(Φ₀ m c ∗ (dats m 0 c).owesAt () (t₀ : Fin cfg0.N).castSucc ∗ ((Φ₁ m c ∗ (dats m 0 c).owesAt () (t₀ : Fin cfg0.N).succ) -∗ Kt ⟨⟩))
          ⊢ wp frame (wpE (defs₀ (F := F)) 𝒱₀ c none) Set.univ
              (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12) Kt)
    (c : Dev nD) : BodyObligation (dats (F := F) m 0 c) (defs₀ (F := F)) 𝒱₀ () Set.univ := fun t => by
  rw [fin_N t]
  have hW (Φ : Fin cfg0.W → sProp 𝕄) : bigSep Finset.univ Φ = iprop(emp) := by
    rw [Finset.univ_eq_empty, bigSep_empty]; rfl
  rw [hW, hW]
  show iprop(Φ₀ m c ∗ (dats m 0 c).owesAt () (t₀ : Fin cfg0.N).castSucc ∗ emp)
    ⊢ wp frame (wpE (defs₀ (F := F)) 𝒱₀ c none) Set.univ
        (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12)
        (fun _ => iprop(Φ₁ m c ∗ (dats m 0 c).owesAt () (t₀ : Fin cfg0.N).succ ∗ emp))
  iintro ⟨HΦ, HO, -⟩
  iapply (hsound c _)
  isplitl [HΦ]; · iexact HΦ
  isplitl [HO]; · iexact HO
  iintro ⟨H1, H2⟩
  isplitl [H1]; · iexact H1
  isplitl [H2]; · iexact H2
  iempintro

/-- On the four devices, for any float values, from any memory with zero counters: given the body's statement at every
    device, every weakly fair execution terminates, every device's result holds what it is to hold, and its argument is
    unchanged. -/
theorem run_of_sound (m : (ℓ : Loc nD τ sig) → Buf (Elt F) ℓ) (ρ : Dev nD → PrngReg)
    (hsound : ∀ (c : Dev nD) (Kt : PUnit → sProp 𝕄),
        iprop(Φ₀ m c ∗ (dats m 0 c).owesAt () (t₀ : Fin cfg0.N).castSucc ∗ ((Φ₁ m c ∗ (dats m 0 c).owesAt () (t₀ : Fin cfg0.N).succ) -∗ Kt ⟨⟩))
          ⊢ wp frame (wpE (defs₀ (F := F)) 𝒱₀ c none) Set.univ
              (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12) Kt) :
    θ_run (defs (F := F)) (onTc (τ := τ) (main (F := F))) ⟨m, fun _ => 0, ρ⟩ (fun r => ∀ c : Dev nD,
      r.2.mem ((c.tc : Thread nD τ).loc main_v1) = outC m c
      ∧ r.2.mem ((c.tc : Thread nD τ).loc main_arg0) = m ((c.tc : Thread nD τ).loc main_arg0)) :=
  run_main m ρ (body_obligation_of m hsound)

/-- info: 'Cert.Kernel.Hand.run_of_sound' depends on axioms: [propext, Classical.choice, Quot.sound] -/
#guard_msgs in #print axioms run_of_sound

end Cert.Kernel.Hand

end
-- ==== Proof.BRules.lean ====
/-
  The steps of the exchange, one rule each, in the form a device's kernel takes them.
-/
import proofs.«900022_g7700000000000023_dist_a2a_v7x_xy2x2_x_m8192_n1024_bf16_1_alg».proof.Proof.BGhost
import Idealize.ShloMosaic.Rules.PointsTo

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ)

/-! ## What is owed, peeled -/

theorem remX_peel (c : Dev nD) (k : Fin 32) : remX c (31 - k.val + 1) = remX c (31 - k.val) + tX c k := by
  show remX c (31 - k.val) + tX c ⟨(31 - (31 - k.val)) % 32, _⟩ = _
  congr 2; exact Fin.ext (by have := k.isLt; simp only; omega)
theorem remY_peel (c : Dev nD) (k : Fin 32) : remY c (31 - k.val + 1) = remY c (31 - k.val) + tY c k := by
  show remY c (31 - k.val) + tY c ⟨(31 - (31 - k.val)) % 32, _⟩ = _
  congr 2; exact Fin.ext (by have := k.isLt; simp only; omega)

/-! ## The rows a device forwards into are the rows its row mate waits on -/

set_option maxRecDepth 100000 in
theorem off3_eq_off12 (c : Dev nD) (k : Fin 32) :
    k0_off3 c (BitVec.ofNat 32 (128 * k.val)) = k0_off12 (yp c) (BitVec.ofNat 32 (128 * k.val)) := by
  rw [k0_off3_eq c k, k0_off12_eq (yp c) k]
  have hc : c.val < 4 := c.isLt
  have hk : k.val < 32 := k.isLt
  refine congrArg (fun a : ℕ => (![a, 0] : Fin 2 → ℕ)) ?_
  show (4096 * (c.val % 2) + 128 * k.val + 8192) - 8192 * (c.val / 2)
    = (128 * k.val + 12288) - (8192 * (((2 * (c.val / 2) + 1) - c.val % 2) / 2) + 4096 * (((2 * (c.val / 2) + 1) - c.val % 2) % 2))
  omega
theorem oSlice_congr {off off' : Fin 2 → ℕ} (h : off = off')
    (i1 : ∀ a, off a + S128x1024.size a ≤ S16384x1024.size a) (i2 : ∀ a, off' a + S128x1024.size a ≤ S16384x1024.size a) :
    oM.slice (Rect.unit (s := S16384x1024) off S128x1024.size i1) (fun _ => rfl)
      = oM.slice (Rect.unit (s := S16384x1024) off' S128x1024.size i2) (fun _ => rfl) := by
  subst h; rfl
theorem oX_eq_oY (c : Dev nD) (k : Fin 32) : oX c k = oY (yp c) k :=
  oSlice_congr (off3_eq_off12 c k) _ _

/-! ## The rest of a round no duty of which has been taken -/

theorem rest_bar (c : Dev nD) :
    bigSep ((sched (F := F) m).duties (barCell c) 0 \ ∅) (fun d => (sched (F := F) m).payload (barCell c) 0 d)
      = iprop(barPayX (F := F) c ∗ barPayY (F := F) c) := by
  rw [Finset.sdiff_empty, duties_bar, bigSep_univ_eq_bigSepL [false, true] (by decide) (by decide), bigSepL_cons_cons, bigSepL_singleton,
    payload_bar_x, payload_bar_y]
  rfl
theorem rest_dma (c : Dev nD) (i : ℕ) (h : i < 195) (hi : 67 ≤ i) :
    bigSep ((sched (F := F) m).duties (dcell c i h) 0 \ ∅) (fun d => (sched (F := F) m).payload (dcell c i h) 0 d)
      = (sched (F := F) m).payload (dcell c i h) 0 false := by
  rw [Finset.sdiff_empty, duties_dma m c i h hi, bigSep_singleton]

/-! ## The entry handshake -/

/-- The first signal: to the column mate's barrier cell, handing over this device's receive buffer. -/
theorem sigX (c n : Dev nD) (hn : n = xp c) {α : Type} {Q : α → sProp 𝕄} {k : PUnit → Prog (TpuEff nD τ sig (Elt F) Λ₀ .tc) α}
    (κ : ℕ) (W : Waits sig Unit) :
    iprop(cellInv ER (sched m) κ (barCell (xp c)) ∗ owes (c : Thread nD τ) (O₀ c) W ∗ dutyTok ER (barCell (xp c)) 0 false
        ∗ barPayX (F := F) (xp c) ∗ reached ER (barCell (xp c)) 0)
      ⊢ iprop((owes (c : Thread nD τ) (O₁ c) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS 1) k) Q) := by
  subst hn
  iintro ⟨#HI, HO, Ht, Hp, #Hr⟩
  iapply (Rounds.wp_signal 𝒱₀ ER (sched m) (c : Thread nD τ) none (dst := (xp c : Thread nD τ)) (κ := κ) (d := false)
      (by rw [duties_bar]; exact Finset.mem_univ _) (amount_bar m (xp c) false) () (O₁ c) rfl) $$ [HO Ht Hp]
  · isplitr; · iexact HI
    isplitl [HO]; · iexact HO
    isplitl [Ht]; · iexact Ht
    isplitl [Hp]; · rw [payload_bar_x]; iexact Hp
    iexact Hr

/-- The second: to the row mate's, handing over the rows of this device's result that the mate forwards into. -/
theorem sigY (c n : Dev nD) (hn : n = yp c) {α : Type} {Q : α → sProp 𝕄} {k : PUnit → Prog (TpuEff nD τ sig (Elt F) Λ₀ .tc) α}
    (κ : ℕ) (W : Waits sig Unit) :
    iprop(cellInv ER (sched m) κ (barCell (yp c)) ∗ owes (c : Thread nD τ) (O₁ c) W ∗ dutyTok ER (barCell (yp c)) 0 true
        ∗ barPayY (F := F) (yp c) ∗ reached ER (barCell (yp c)) 0)
      ⊢ iprop((owes (c : Thread nD τ) (remX c 32) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS 1) k) Q) := by
  subst hn
  iintro ⟨#HI, HO, Ht, Hp, #Hr⟩
  iapply (Rounds.wp_signal 𝒱₀ ER (sched m) (c : Thread nD τ) none (dst := (yp c : Thread nD τ)) (κ := κ) (d := true)
      (by rw [duties_bar]; exact Finset.mem_univ _) (amount_bar m (yp c) true) () (remX c 32) rfl) $$ [HO Ht Hp]
  · isplitr; · iexact HI
    isplitl [HO]; · iexact HO
    isplitl [Ht]; · iexact Ht
    isplitl [Hp]; · rw [payload_bar_y]; iexact Hp
    iexact Hr

/-- The wait for both mates' signals: with it come the column mate's receive buffer and the row mate's rows. -/
theorem waitBar (c : Dev nD) {α : Type} {Q : α → sProp 𝕄} {k : PUnit → Prog (TpuEff nD τ sig (Elt F) Λ₀ .tc) α}
    (κ : ℕ) (W : Waits sig Unit) :
    iprop(cellInv ER (sched m) κ (barCell c) ∗ cred (tallyAt (barCell c) () 2) ∗ owes (c : Thread nD τ) (remX c 32) W
        ∗ levAts L lv ∗ atPos ER (barCell c) 0 ∅ 0)
      ⊢ iprop(((owes (c : Thread nD τ) (remX c 32) (insert (SemLoc.reg barS, ()) W) ∗ atPos ER (barCell c) 1 ∅ 0
              ∗ barPayX (F := F) c ∗ barPayY (F := F) c)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 2) k) Q) := by
  iintro ⟨#HI, Hc, HO, #Hlev, Hat⟩ Hk
  iapply (Rounds.wp_wait_rest_token 𝒱₀ ER (sched m) (c : Thread nD τ) none (κ := κ)
      (wpE_semWait_eq 𝒱₀ (c : Thread nD τ) none Set.univ) (Set.mem_univ _) () (O := remX c 32) (W := W) (R := 0) (m := 0) (T := ∅)
      (by rw [expect_bar])) $$ [Hc HO Hat]
  · isplitr; · iexact HI
    isplitl [Hc]; · iexact Hc
    isplitl [HO]; · iexact HO
    isplitr; · iapply (mw_bar c); iexact Hlev
    iexact Hat
  iintro ⟨HO, Hat, -, Hpay⟩
  ihave Hp := (Entails.of_eq (rest_bar m c)) $$ Hpay
  icases Hp with ⟨HpX, HpY⟩
  iapply Hk
  isplitl [HO]; · iexact HO
  isplitl [Hat]; · iexact Hat
  isplitl [HpX]; · iexact HpX
  iexact HpY

/-! ## A wait on a transfer cell -/

/-- A wait for the one chunk's credit of transfer cell number i (67 or more) of the device, at what it owes. -/
theorem waitCell (c : Dev nD) (i : ℕ) (h : i < 195) (hi : 67 ≤ i) {α : Type} {Q : α → sProp 𝕄}
    {k : PUnit → Prog (TpuEff nD τ sig (Elt F) Λ₀ .tc) α} {w : TpuEff nD τ sig (Elt F) Λ₀ .tc PUnit}
    (hw : ∀ Kp : PUnit → sProp 𝕄, wpE (defs₀ (F := F)) 𝒱₀ (c : Thread nD τ) none Set.univ w Kp
        = waitSpec (c : Thread nD τ) Set.univ (.dma (⟨i, h⟩ : DmaSem sig)) NC Kp)
    (κ : ℕ) (O : CellTallies nD τ sig Unit) (W : Waits sig Unit) :
    iprop(cellInv ER (sched m) κ (dcell c i h) ∗ cred (tallyAt (dcell c i h) () NC) ∗ owes (c : Thread nD τ) O W
        ∗ MayWait (c : Thread nD τ) (.dma (⟨i, h⟩ : DmaSem sig)) () O ∗ atPos ER (dcell c i h) 0 ∅ 0)
      ⊢ iprop(((owes (c : Thread nD τ) O (insert (SemLoc.dma (⟨i, h⟩ : DmaSem sig), ()) W) ∗ atPos ER (dcell c i h) 1 ∅ 0
              ∗ (sched m).payload (dcell c i h) 0 false)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  iintro ⟨#HI, Hc, HO, HM, Hat⟩ Hk
  iapply (Rounds.wp_wait_rest_token 𝒱₀ ER (sched m) (c : Thread nD τ) none (κ := κ) hw (Set.mem_univ _) () (O := O) (W := W) (R := 0) (m := 0) (T := ∅)
      (by rw [Nat.zero_add]; exact (expect_dma m c i h hi).symm)) $$ [Hc HO HM Hat]
  · isplitr; · iexact HI
    isplitl [Hc]; · iexact Hc
    isplitl [HO]; · iexact HO
    isplitl [HM]; · iexact HM
    iexact Hat
  iintro ⟨HO, Hat, -, Hpay⟩
  ihave Hp := (Entails.of_eq (rest_dma m c i h hi)) $$ Hpay
  iapply Hk
  isplitl [HO]; · iexact HO
  isplitl [Hat]; · iexact Hat
  iexact Hp

/-! ## The sends -/

/-- Chunk k to the column mate: the staged piece is lent until the departure is waited for; the mate's piece of
    receive buffer is written and handed to the mate with the arrival; one chunk's credit comes off what is owed. -/
theorem sendX (c n : Dev nD) (hn : n = xp c) (k : Fin 32)
    {hsc : ((sl3 rbM k : Memref sig .tc .vmem S128x1024 .bf16)).view.ref.isScScratch = false}
    {hsrc : (sl3 sbM k).view.WordExact} {hdst : (sl3 rbM k).view.WordExact}
    {hsem : DmaTarget.Typed .vmem (.dma (⟨99 + k.val, (show 99 + k.val < 195 by omega)⟩ : DmaSem sig))
      (.remote (Dev.tc n : Thread nD τ) (sl3 rbM k) (.dma (⟨67 + k.val, (show 67 + k.val < 195 by omega)⟩ : DmaSem sig)) hsc)}
    {α : Type} {Q : α → sProp 𝕄} {kk : PUnit → Prog (TpuEff nD τ sig (Elt F) Λ₀ .tc) α}
    (κ₁ κ₂ : ℕ) (W : Waits sig Unit)
    (fs : Buf (Elt F) ((sl3 sbM k).view.loc (c : Thread nD τ))) (fd : Buf (Elt F) ((sl3 rbM k).view.loc (xp c : Thread nD τ)))
    (hval : ∀ i ∈ (sl3 rbM k).view.set,
      (sl3 rbM k).view.write (Elt F) fd ((sl3 sbM k).view.read (Elt F) fs) Finset.univ i = recvC m (xp c) i) :
    iprop(cellInv ER (sched m) κ₁ (sXc c k) ∗ cellInv ER (sched m) κ₂ (rXc (xp c) k)
        ∗ ((sl3 sbM k).view.loc (c : Thread nD τ) ↦[(sl3 sbM k).view.set]{fullShare} fs)
        ∗ ((sl3 rbM k).view.loc (xp c : Thread nD τ) ↦[(sl3 rbM k).view.set]{fullShare} fd)
        ∗ owes (c : Thread nD τ) (remX c (31 - k.val + 1)) W
        ∗ dutyTok ER (sXc c k) 0 false ∗ reached ER (sXc c k) 0
        ∗ dutyTok ER (rXc (xp c) k) 0 false ∗ reached ER (rXc (xp c) k) 0)
      ⊢ iprop(((cred (tallyAt (sXc c k) () NC) ∗ owes (c : Thread nD τ) (remX c (31 - k.val)) W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (sl3 sbM k) (.remote (Dev.tc n : Thread nD τ) (sl3 rbM k) (.dma (⟨67 + k.val, (show 67 + k.val < 195 by omega)⟩ : DmaSem sig)) hsc)
                (.dma (⟨99 + k.val, (show 99 + k.val < 195 by omega)⟩ : DmaSem sig)) hsrc hdst hsem) kk) Q) := by
  subst hn
  exact Rounds.wp_send_pointsTo 𝒱₀ ER (sched m) (c : Thread nD τ) none (κ₁ := κ₁) (κ₂ := κ₂)
    (r₁ := 0) (r₂ := 0) (d₁ := false) (d₂ := false) (fs := fs) (fd := fd)
    (by rw [show ((c : Thread nD τ), SemLoc.dma (⟨67 + k.val, (show 67 + k.val < 195 by omega)⟩ : DmaSem sig)) = dcell c (67 + k.val) (by omega) from rfl,
          duties_dma m c _ _ (by omega)]; exact Finset.mem_singleton_self _)
    (by rw [show ((xp c : Thread nD τ), SemLoc.dma (⟨99 + k.val, (show 99 + k.val < 195 by omega)⟩ : DmaSem sig)) = dcell (xp c) (99 + k.val) (by omega) from rfl,
          duties_dma m (xp c) _ _ (by omega)]; exact Finset.mem_singleton_self _)
    () () NC rfl rfl rfl (remX c (31 - k.val)) (remX_peel c k) (W := W)
    (by rw [show ((c : Thread nD τ), SemLoc.dma (⟨67 + k.val, (show 67 + k.val < 195 by omega)⟩ : DmaSem sig)) = sXc c k from rfl, payload_sX]
        unfold sXPay; iintro H; iexists fs; iexact H)
    (by rw [show ((xp c : Thread nD τ), SemLoc.dma (⟨99 + k.val, (show 99 + k.val < 195 by omega)⟩ : DmaSem sig)) = rXc (xp c) k from rfl, payload_rX]
        unfold rXPay; exact Entails.of_eq (pointsTo_congr hval))

/-- A piece of the result addressed by equal offsets is the same piece. -/
theorem outPiece_congr {off off' : Fin 2 → ℕ} (h : off = off')
    (i1 : ∀ a, off a + S128x1024.size a ≤ S16384x1024.size a) (i2 : ∀ a, off' a + S128x1024.size a ≤ S16384x1024.size a)
    (d : Dev nD) (q : PosShare TreeShare) (g : Buf (Elt F) (oM.view.loc (d : Thread nD τ))) :
    (((oM.slice (Rect.unit (s := S16384x1024) off S128x1024.size i1) (fun _ => rfl)).view.loc (d : Thread nD τ)
        ↦[(oM.slice (Rect.unit (s := S16384x1024) off S128x1024.size i1) (fun _ => rfl)).view.set]{q} g : sProp 𝕄))
      = ((oM.slice (Rect.unit (s := S16384x1024) off' S128x1024.size i2) (fun _ => rfl)).view.loc (d : Thread nD τ)
        ↦[(oM.slice (Rect.unit (s := S16384x1024) off' S128x1024.size i2) (fun _ => rfl)).view.set]{q} g) := by
  subst h; rfl

/-- The rows device c forwards chunk k into, on its row mate: spelt as c addresses them, and as the mate does. -/
theorem oX_as_oY (c : Dev nD) (k : Fin 32) (q : PosShare TreeShare) (g : Buf (Elt F) (oM.view.loc (yp c : Thread nD τ))) :
    ((oX c k).view.loc (yp c : Thread nD τ) ↦[(oX c k).view.set]{q} g : sProp 𝕄)
      = ((oY (yp c) k).view.loc (yp c : Thread nD τ) ↦[(oY (yp c) k).view.set]{q} g) :=
  outPiece_congr (off3_eq_off12 c k) (k0_off3_inb c k) (k0_off12_inb (yp c) k) (yp c) q g

/-- Chunk k forwarded to the row mate: half of the received piece is lent until the departure is waited for; 128 rows
    of the mate's result are written and handed to the mate with the arrival. -/
theorem sendY (c n : Dev nD) (hn : n = yp c) (k : Fin 32)
    {hsc : (oX c k).view.ref.isScScratch = false}
    {hsrc : (sl3 rbM k).view.WordExact} {hdst : (oX c k).view.WordExact}
    {hsem : DmaTarget.Typed .vmem (.dma (⟨163 + k.val, (show 163 + k.val < 195 by omega)⟩ : DmaSem sig))
      (.remote (Dev.tc n : Thread nD τ) (oX c k) (.dma (⟨131 + k.val, (show 131 + k.val < 195 by omega)⟩ : DmaSem sig)) hsc)}
    {α : Type} {Q : α → sProp 𝕄} {kk : PUnit → Prog (TpuEff nD τ sig (Elt F) Λ₀ .tc) α}
    (κ₁ κ₂ : ℕ) (W : Waits sig Unit)
    (fd : Buf (Elt F) (oM.view.loc (yp c : Thread nD τ)))
    (hval : ∀ i ∈ (oX c k).view.set,
      (oX c k).view.write (Elt F) fd ((sl3 rbM k).view.read (Elt F) (recvC m c)) Finset.univ i = outC m (yp c) i) :
    iprop(cellInv ER (sched m) κ₁ (sYc c k) ∗ cellInv ER (sched m) κ₂ (rYc (yp c) k)
        ∗ ((sl3 rbM k).view.loc (c : Thread nD τ) ↦[(sl3 rbM k).view.set]{fullShare.left} recvC m c)
        ∗ ((oY (yp c) k).view.loc (yp c : Thread nD τ) ↦[(oY (yp c) k).view.set]{fullShare} fd)
        ∗ owes (c : Thread nD τ) (remY c (31 - k.val + 1)) W
        ∗ dutyTok ER (sYc c k) 0 false ∗ reached ER (sYc c k) 0
        ∗ dutyTok ER (rYc (yp c) k) 0 false ∗ reached ER (rYc (yp c) k) 0)
      ⊢ iprop(((cred (tallyAt (sYc c k) () NC) ∗ owes (c : Thread nD τ) (remY c (31 - k.val)) W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (sl3 rbM k) (.remote (Dev.tc n : Thread nD τ) (oX c k) (.dma (⟨131 + k.val, (show 131 + k.val < 195 by omega)⟩ : DmaSem sig)) hsc)
                (.dma (⟨163 + k.val, (show 163 + k.val < 195 by omega)⟩ : DmaSem sig)) hsrc hdst hsem) kk) Q) := by
  subst hn
  rw [← oX_as_oY c k fullShare fd]
  exact Rounds.wp_send_pointsTo 𝒱₀ ER (sched m) (c : Thread nD τ) none (c' := (yp c : Thread nD τ)) (src := sl3 rbM k) (dst := oX c k)
    (sS := .dma (⟨131 + k.val, (show 131 + k.val < 195 by omega)⟩ : DmaSem sig)) (sem := .dma (⟨163 + k.val, (show 163 + k.val < 195 by omega)⟩ : DmaSem sig))
    (q := fullShare.left) (κ₁ := κ₁) (κ₂ := κ₂)
    (r₁ := 0) (r₂ := 0) (d₁ := false) (d₂ := false) (fs := recvC m c) (fd := fd)
    (by rw [show ((c : Thread nD τ), SemLoc.dma (⟨131 + k.val, (show 131 + k.val < 195 by omega)⟩ : DmaSem sig)) = dcell c (131 + k.val) (by omega) from rfl,
          duties_dma m c _ _ (by omega)]; exact Finset.mem_singleton_self _)
    (by rw [show ((yp c : Thread nD τ), SemLoc.dma (⟨163 + k.val, (show 163 + k.val < 195 by omega)⟩ : DmaSem sig)) = dcell (yp c) (163 + k.val) (by omega) from rfl,
          duties_dma m (yp c) _ _ (by omega)]; exact Finset.mem_singleton_self _)
    () () NC rfl rfl rfl (remY c (31 - k.val)) (remY_peel c k) (W := W)
    (by rw [show ((c : Thread nD τ), SemLoc.dma (⟨131 + k.val, (show 131 + k.val < 195 by omega)⟩ : DmaSem sig)) = sYc c k from rfl, payload_sY]
        exact BI.Entails.refl _)
    (by rw [show ((yp c : Thread nD τ), SemLoc.dma (⟨163 + k.val, (show 163 + k.val < 195 by omega)⟩ : DmaSem sig)) = rYc (yp c) k from rfl, payload_rY]
        exact (Entails.of_eq (pointsTo_congr hval)).trans (Entails.of_eq (oX_as_oY c k fullShare (outC m (yp c)))))

end Cert.Kernel.Hand

end
-- ==== Proof.BGeometry.lean ====
/-
  How the buffers split into the pieces the transfers move.

  A 32 x 128 x 1024 buffer is the disjoint union of its 32 chunks (leading index k); the 2 x 1024 x 1024 buffer of
  its 2 halves. The 16384 rows of a device's result are the disjoint union of 65 row ranges: on the device at column
  x and row y, the 32 ranges [8192 (1 - x) + 4096 y + 128 k, + 128) written from the column mate's chunks, the 32
  ranges [8192 (1 - x) + 4096 (1 - y) + 128 k, + 128) written from the row mate's forwards, and the device's own
  range [8192 x, + 8192). Each statement is an equation between the assertion that holds the whole buffer and the
  separating conjunction of the assertions that hold the pieces, each piece through its own view.
-/
import proofs.«900022_g7700000000000023_dist_a2a_v7x_xy2x2_x_m8192_n1024_bf16_1_alg».proof.Proof.BMesh
import Idealize.ShloMosaic.Rules.PointsTo
import Idealize.ShloMosaic.Lib.Pipeline.Value

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig Unit (Elt F) ℕ UU ℕ

/-! ## A separating conjunction over 32 indices, written out -/

omit [FloatOps F] in
theorem bigSep_fin32 (Φ : Fin 32 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31) :=
  bigSep_univ_eq_bigSepL [0, 1, 2, 3, 4, 5, 6, 7, 8, 9, 10, 11, 12, 13, 14, 15, 16, 17, 18, 19, 20, 21, 22, 23, 24, 25, 26, 27, 28, 29, 30, 31] (by decide) (by decide) Φ

/-! ## The 32 chunks of a 32 x 128 x 1024 buffer -/

/-- The index rectangle of chunk k: leading index k, everything else. -/
abbrev r3 (k : Fin 32) : Rect S32x128x1024 := Rect.unit (s := S32x128x1024) ![k.val, 0, 0] S1x128x1024.size (inb3 k)

/-- An index lies in chunk k's rectangle exactly when its leading coordinate is k. -/
theorem mem_r3 (k : Fin 32) (y : S32x128x1024.Idx) : y ∈ (r3 k).set ↔ (y 0).val = k.val := by
  rw [Rect.mem_set_unit]
  have h1 : (y 1).val < 128 := (y 1).isLt
  have h2 : (y 2).val < 1024 := (y 2).isLt
  constructor
  · intro H; have a0 : k.val ≤ (y 0).val ∧ (y 0).val < k.val + 1 := H 0; omega
  · intro H a; fin_cases a
    · show k.val ≤ (y 0).val ∧ (y 0).val < k.val + 1; omega
    · show 0 ≤ (y 1).val ∧ (y 1).val < 0 + 128; omega
    · show 0 ≤ (y 2).val ∧ (y 2).val < 0 + 1024; omega

/-- The elements of chunk k: the buffer's elements under the rectangle. -/
theorem sl3_set {e : EltTy} (M : Memref sig .tc .vmem S32x128x1024 e) (k : Fin 32) :
    (sl3 M k).view.set = (r3 k).set.map M.view.emb :=
  (View.set_reshape _ _).trans (View.set_slice _ _)

theorem sl3_subset {e : EltTy} (M : Memref sig .tc .vmem S32x128x1024 e) (k : Fin 32) :
    (sl3 M k).view.set ⊆ M.view.set := by
  rw [sl3_set]; exact Finset.map_subset_map.mpr (Finset.subset_univ _)

theorem sl3_disjoint {e : EltTy} (M : Memref sig .tc .vmem S32x128x1024 e) (k k' : Fin 32) (h : k ≠ k') :
    Disjoint (sl3 M k).view.set (sl3 M k').view.set := by
  rw [sl3_set, sl3_set, Finset.disjoint_map, Finset.disjoint_left]
  intro y hy hy'
  rw [mem_r3] at hy hy'
  exact h (Fin.ext (by omega))

theorem sl3_cover {e : EltTy} (M : Memref sig .tc .vmem S32x128x1024 e) :
    M.view.set = Finset.univ.biUnion fun k : Fin 32 => (sl3 M k).view.set := by
  ext i
  constructor
  · intro hi
    obtain ⟨y, -, rfl⟩ := Finset.mem_map.mp hi
    have hk : (y 0).val < 32 := (y 0).isLt
    refine Finset.mem_biUnion.mpr ⟨⟨(y 0).val, hk⟩, Finset.mem_univ _, ?_⟩
    rw [sl3_set M ⟨(y 0).val, hk⟩]
    exact Finset.mem_map.mpr ⟨y, (mem_r3 _ _).mpr rfl, rfl⟩
  · intro hi
    obtain ⟨k, -, hk⟩ := Finset.mem_biUnion.mp hi
    exact (sl3_subset M k) hk

/-- A buffer's elements S, the disjoint union of finitely many pieces K k: S held is the pieces held. -/
theorem pointsTo_pieces {n : Nat} (ℓ : Loc nD τ sig) (f : Buf (Elt F) ℓ) (S : Finset (Idx ℓ)) (K : Fin n → Finset (Idx ℓ))
    (hS : S = Finset.univ.biUnion K) (hK : ∀ t t', t ≠ t' → Disjoint (K t) (K t')) :
    (ℓ ↦[S]{fullShare} f : sProp 𝕄) = bigSep Finset.univ fun k : Fin n => (ℓ ↦[K k]{fullShare} f) := by
  rw [hS]
  exact pointsTo_biUnion Finset.univ K (fun t _ t' _ h => hK t t' h)

/-- The whole buffer held is its 32 chunks held, each through its own view. -/
theorem split32 {e : EltTy} (M : Memref sig .tc .vmem S32x128x1024 e) (c : Dev nD)
    (f : Buf (Elt F) (M.view.loc (c : Thread nD τ))) :
    (M.view.loc (c : Thread nD τ) ↦[M.view.set]{fullShare} f : sProp 𝕄)
      = bigSep Finset.univ fun k : Fin 32 =>
          ((sl3 M k).view.loc (c : Thread nD τ) ↦[(sl3 M k).view.set]{fullShare} f) :=
  pointsTo_pieces (M.view.loc (c : Thread nD τ)) f M.view.set (fun k : Fin 32 => (sl3 M k).view.set)
    (sl3_cover M) (sl3_disjoint M)

/-! ## The 2 halves of the 2 x 1024 x 1024 buffer -/

theorem inb2 (k : Fin 2) : ∀ a, (![k.val, 0, 0] : Fin 3 → Nat) a + S1x1024x1024.size a ≤ S2x1024x1024.size a := by
  revert k; decide

/-- The index rectangle of half k: leading index k, everything else. -/
abbrev r2 (k : Fin 2) : Rect S2x1024x1024 := Rect.unit (s := S2x1024x1024) ![k.val, 0, 0] S1x1024x1024.size (inb2 k)

/-- Half k of the 2 x 1024 x 1024 buffer, as a 1024 x 1024 piece. -/
abbrev el2 (k : Fin 2) : Memref sig .tc .vmem S1024x1024 .f32 :=
  (elM.slice (Rect.unit (s := S2x1024x1024) ![k.val, 0, 0] S1x1024x1024.size (inb2 k)) (fun _ => rfl)).squeeze S1024x1024 squeezes_S1x1024x1024_S1024x1024

/-- An index lies in half k's rectangle exactly when its leading coordinate is k. -/
theorem mem_r2 (k : Fin 2) (y : S2x1024x1024.Idx) : y ∈ (r2 k).set ↔ (y 0).val = k.val := by
  rw [Rect.mem_set_unit]
  have h1 : (y 1).val < 1024 := (y 1).isLt
  have h2 : (y 2).val < 1024 := (y 2).isLt
  constructor
  · intro H; have a0 : k.val ≤ (y 0).val ∧ (y 0).val < k.val + 1 := H 0; omega
  · intro H a; fin_cases a
    · show k.val ≤ (y 0).val ∧ (y 0).val < k.val + 1; omega
    · show 0 ≤ (y 1).val ∧ (y 1).val < 0 + 1024; omega
    · show 0 ≤ (y 2).val ∧ (y 2).val < 0 + 1024; omega

theorem el2_set (k : Fin 2) : (el2 k).view.set = (r2 k).set.map elM.view.emb :=
  (View.set_reshape _ _).trans (View.set_slice _ _)

theorem el2_subset (k : Fin 2) : (el2 k).view.set ⊆ elM.view.set := by
  rw [el2_set]; exact Finset.map_subset_map.mpr (Finset.subset_univ _)

theorem el2_disjoint (k k' : Fin 2) (h : k ≠ k') : Disjoint (el2 k).view.set (el2 k').view.set := by
  rw [el2_set, el2_set, Finset.disjoint_map, Finset.disjoint_left]
  intro y hy hy'
  rw [mem_r2] at hy hy'
  exact h (Fin.ext (by omega))

theorem el2_cover : elM.view.set = Finset.univ.biUnion fun k : Fin 2 => (el2 k).view.set := by
  ext i
  constructor
  · intro hi
    obtain ⟨y, -, rfl⟩ := Finset.mem_map.mp hi
    have hk : (y 0).val < 2 := (y 0).isLt
    refine Finset.mem_biUnion.mpr ⟨⟨(y 0).val, hk⟩, Finset.mem_univ _, ?_⟩
    rw [el2_set ⟨(y 0).val, hk⟩]
    exact Finset.mem_map.mpr ⟨y, (mem_r2 _ _).mpr rfl, rfl⟩
  · intro hi
    obtain ⟨k, -, hk⟩ := Finset.mem_biUnion.mp hi
    exact (el2_subset k) hk

/-- The 2 x 1024 x 1024 buffer held is its 2 halves held, each through its own view. -/
theorem split2 (c : Dev nD) (f : Buf (Elt F) (elM.view.loc (c : Thread nD τ))) :
    (elM.view.loc (c : Thread nD τ) ↦[elM.view.set]{fullShare} f : sProp 𝕄)
      = bigSep Finset.univ fun k : Fin 2 =>
          ((el2 k).view.loc (c : Thread nD τ) ↦[(el2 k).view.set]{fullShare} f) :=
  pointsTo_pieces (elM.view.loc (c : Thread nD τ)) f elM.view.set (fun k : Fin 2 => (el2 k).view.set)
    el2_cover el2_disjoint

omit [FloatOps F] in
theorem bigSep_fin2 (Φ : Fin 2 → sProp 𝕄) : bigSep Finset.univ Φ = iprop(Φ 0 ∗ Φ 1) :=
  bigSep_univ_eq_bigSepL [0, 1] (by decide) (by decide) Φ

/-! ## The 65 row ranges of the result -/

/-- The rows written from the column mate's chunk k; -/
theorem mem_oX (c : Dev nD) (k : Fin 32) (y : S16384x1024.Idx) :
    y ∈ (oX c k).view.set ↔
      (4096 * (c.val % 2) + 128 * k.val + 8192) - 8192 * (c.val / 2) ≤ (y 0).val
        ∧ (y 0).val < (4096 * (c.val % 2) + 128 * k.val + 8192) - 8192 * (c.val / 2) + 128 := by
  have hs : (oX c k).view.set
      = (Rect.unit (s := S16384x1024) (k0_off3 c (BitVec.ofNat 32 (128 * k.val))) S128x1024.size (k0_off3_inb c k)).set :=
    View.set_slice_whole _ _
  rw [hs, Rect.mem_set_unit, k0_off3_eq]
  have h1 : (y 1).val < 1024 := (y 1).isLt
  constructor
  · intro H; exact H 0
  · intro H a; fin_cases a
    · exact H
    · show 0 ≤ (y 1).val ∧ (y 1).val < 0 + 1024; omega

/-- the rows written from the row mate's forward k; -/
theorem mem_oY (c : Dev nD) (k : Fin 32) (y : S16384x1024.Idx) :
    y ∈ (oY c k).view.set ↔
      (128 * k.val + 12288) - (8192 * (c.val / 2) + 4096 * (c.val % 2)) ≤ (y 0).val
        ∧ (y 0).val < (128 * k.val + 12288) - (8192 * (c.val / 2) + 4096 * (c.val % 2)) + 128 := by
  have hs : (oY c k).view.set
      = (Rect.unit (s := S16384x1024) (k0_off12 c (BitVec.ofNat 32 (128 * k.val))) S128x1024.size (k0_off12_inb c k)).set :=
    View.set_slice_whole _ _
  rw [hs, Rect.mem_set_unit, k0_off12_eq]
  have h1 : (y 1).val < 1024 := (y 1).isLt
  constructor
  · intro H; exact H 0
  · intro H a; fin_cases a
    · exact H
    · show 0 ≤ (y 1).val ∧ (y 1).val < 0 + 1024; omega

/-- the device's own rows. -/
theorem mem_oOwn (c : Dev nD) (y : S16384x1024.Idx) :
    y ∈ (oOwn c).view.set ↔ 8192 * (c.val / 2) ≤ (y 0).val ∧ (y 0).val < 8192 * (c.val / 2) + 8192 := by
  have hs : (oOwn c).view.set
      = (Rect.unit (s := S16384x1024) (k0_off11 c) S8192x1024.size (k0_off11_inb c)).set :=
    View.set_slice_whole _ _
  rw [hs, Rect.mem_set_unit, k0_off11_eq]
  have h1 : (y 1).val < 1024 := (y 1).isLt
  constructor
  · intro H; exact H 0
  · intro H a; fin_cases a
    · exact H
    · show 0 ≤ (y 1).val ∧ (y 1).val < 0 + 1024; omega

theorem oX_disjoint (c : Dev nD) (k k' : Fin 32) (h : k ≠ k') : Disjoint (oX c k).view.set (oX c k').view.set := by
  rw [Finset.disjoint_left]; intro y hy hy'
  rw [mem_oX] at hy hy'
  have hc : c.val < 4 := c.isLt
  exact h (Fin.ext (by omega))

theorem oY_disjoint (c : Dev nD) (k k' : Fin 32) (h : k ≠ k') : Disjoint (oY c k).view.set (oY c k').view.set := by
  rw [Finset.disjoint_left]; intro y hy hy'
  rw [mem_oY] at hy hy'
  have hc : c.val < 4 := c.isLt
  exact h (Fin.ext (by omega))

theorem oX_oY_disjoint (c : Dev nD) (k k' : Fin 32) : Disjoint (oX c k).view.set (oY c k').view.set := by
  rw [Finset.disjoint_left]; intro y hy hy'
  rw [mem_oX] at hy; rw [mem_oY] at hy'
  have hc : c.val < 4 := c.isLt
  have hk : k.val < 32 := k.isLt
  have hk' : k'.val < 32 := k'.isLt
  omega

theorem oX_oOwn_disjoint (c : Dev nD) (k : Fin 32) : Disjoint (oX c k).view.set (oOwn c).view.set := by
  rw [Finset.disjoint_left]; intro y hy hy'
  rw [mem_oX] at hy; rw [mem_oOwn] at hy'
  have hc : c.val < 4 := c.isLt
  have hk : k.val < 32 := k.isLt
  omega

theorem oY_oOwn_disjoint (c : Dev nD) (k : Fin 32) : Disjoint (oY c k).view.set (oOwn c).view.set := by
  rw [Finset.disjoint_left]; intro y hy hy'
  rw [mem_oY] at hy; rw [mem_oOwn] at hy'
  have hc : c.val < 4 := c.isLt
  have hk : k.val < 32 := k.isLt
  omega

/-- The three families of row ranges together are all 16384 rows. -/
theorem out_cover (c : Dev nD) :
    oM.view.set = (Finset.univ.biUnion fun k : Fin 32 => (oX c k).view.set)
      ∪ ((Finset.univ.biUnion fun k : Fin 32 => (oY c k).view.set) ∪ (oOwn c).view.set) := by
  have hu : oM.view.set = Finset.univ := View.set_whole _
  rw [hu]
  ext y
  refine ⟨fun _ => ?_, fun _ => Finset.mem_univ _⟩
  have h0 : (y 0).val < 16384 := (y 0).isLt
  have hc : c.val < 4 := c.isLt
  obtain ⟨k, hk⟩ : ∃ k : Fin 32, k.val = ((y 0).val % 4096) / 128 := ⟨⟨((y 0).val % 4096) / 128, by omega⟩, rfl⟩
  by_cases hown : 8192 * (c.val / 2) ≤ (y 0).val ∧ (y 0).val < 8192 * (c.val / 2) + 8192
  · exact Finset.mem_union_right _ (Finset.mem_union_right _ ((mem_oOwn c y).mpr hown))
  · by_cases hx : ((y 0).val % 8192) / 4096 = c.val % 2
    · refine Finset.mem_union_left _ (Finset.mem_biUnion.mpr ⟨k, Finset.mem_univ _, (mem_oX c k y).mpr ?_⟩)
      omega
    · refine Finset.mem_union_right _ (Finset.mem_union_left _ (Finset.mem_biUnion.mpr ⟨k, Finset.mem_univ _, (mem_oY c k y).mpr ?_⟩))
      omega

/-- The result held is its 65 pieces held, each through its own view. -/
theorem splitOut (c : Dev nD) (f : Buf (Elt F) (oM.view.loc (c : Thread nD τ))) :
    (oM.view.loc (c : Thread nD τ) ↦[oM.view.set]{fullShare} f : sProp 𝕄)
      = iprop((bigSep Finset.univ fun k : Fin 32 => ((oX c k).view.loc (c : Thread nD τ) ↦[(oX c k).view.set]{fullShare} f))
            ∗ (bigSep Finset.univ fun k : Fin 32 => ((oY c k).view.loc (c : Thread nD τ) ↦[(oY c k).view.set]{fullShare} f))
            ∗ ((oOwn c).view.loc (c : Thread nD τ) ↦[(oOwn c).view.set]{fullShare} f)) := by
  let ℓ : Loc nD τ sig := oM.view.loc (c : Thread nD τ)
  let KX : Fin 32 → Finset (Idx ℓ) := fun k => (oX c k).view.set
  let KY : Fin 32 → Finset (Idx ℓ) := fun k => (oY c k).view.set
  let SO : Finset (Idx ℓ) := (oOwn c).view.set
  have hYO : Disjoint (Finset.univ.biUnion KY) SO :=
    (Finset.disjoint_biUnion_left _ _ _).mpr fun k _ => oY_oOwn_disjoint c k
  have hX : Disjoint (Finset.univ.biUnion KX) (Finset.univ.biUnion KY ∪ SO) :=
    Finset.disjoint_union_right.mpr
      ⟨(Finset.disjoint_biUnion_left _ _ _).mpr fun k _ =>
          (Finset.disjoint_biUnion_right _ _ _).mpr fun k' _ => oX_oY_disjoint c k k',
       (Finset.disjoint_biUnion_left _ _ _).mpr fun k _ => oX_oOwn_disjoint c k⟩
  have e0 : (ℓ ↦[oM.view.set]{fullShare} f : sProp 𝕄)
      = (ℓ ↦[Finset.univ.biUnion KX ∪ (Finset.univ.biUnion KY ∪ SO)]{fullShare} f) := by rw [out_cover c]
  have e1 : (ℓ ↦[Finset.univ.biUnion KX ∪ (Finset.univ.biUnion KY ∪ SO)]{fullShare} f : sProp 𝕄)
      = iprop((ℓ ↦[Finset.univ.biUnion KX]{fullShare} f) ∗ (ℓ ↦[Finset.univ.biUnion KY ∪ SO]{fullShare} f)) :=
    BI.equiv_iff.mp ⟨(pointsTo_union hX).1, (pointsTo_union hX).2⟩
  have e2 : (ℓ ↦[Finset.univ.biUnion KY ∪ SO]{fullShare} f : sProp 𝕄)
      = iprop((ℓ ↦[Finset.univ.biUnion KY]{fullShare} f) ∗ (ℓ ↦[SO]{fullShare} f)) :=
    BI.equiv_iff.mp ⟨(pointsTo_union hYO).1, (pointsTo_union hYO).2⟩
  have e3 : (ℓ ↦[Finset.univ.biUnion KX]{fullShare} f : sProp 𝕄) = bigSep Finset.univ fun k : Fin 32 => (ℓ ↦[KX k]{fullShare} f) :=
    pointsTo_biUnion Finset.univ KX fun k _ k' _ h => oX_disjoint c k k' h
  have e4 : (ℓ ↦[Finset.univ.biUnion KY]{fullShare} f : sProp 𝕄) = bigSep Finset.univ fun k : Fin 32 => (ℓ ↦[KY k]{fullShare} f) :=
    pointsTo_biUnion Finset.univ KY fun k _ k' _ h => oY_disjoint c k k' h
  exact e0.trans (e1.trans (by rw [e2, e3, e4]))

/-- info: 'Cert.Kernel.Hand.split32' depends on axioms: [propext, Classical.choice, Quot.sound] -/
#guard_msgs in #print axioms split32

/-- info: 'Cert.Kernel.Hand.split2' depends on axioms: [propext, Classical.choice, Quot.sound] -/
#guard_msgs in #print axioms split2

/-- info: 'Cert.Kernel.Hand.splitOut' depends on axioms: [propext, Classical.choice, Quot.sound] -/
#guard_msgs in #print axioms splitOut

/-- info: 'Cert.Kernel.Hand.bigSep_fin32' depends on axioms: [propext, Classical.choice, Quot.sound] -/
#guard_msgs in #print axioms bigSep_fin32

end Cert.Kernel.Hand

end
-- ==== Proof.BCopyVal.lean ====
/-
  What a copy of one chunk lands, as equations at one element.

  An element of chunk k of a 32 x 128 x 1024 buffer is the element (k, a, b) of the buffer for a 128 x 1024 index
  (a, b); an element of a 128-row piece of the result at first row R is the element (R + a, b). A copy writes, at
  the destination's element under (a, b), what the source holds under (a, b). So the chunk a device stages for its
  column mate lands there as the mate's received chunk, and a received chunk written to the result is the result's
  rows there: row 8192 (1 - x) + 4096 y + 128 k + a of the result of the device at column x, row y, and of its row
  mate's, is row 4096 y + 128 k + a of the column mate's block, columns 1024 x onwards.
-/
import proofs.«900022_g7700000000000023_dist_a2a_v7x_xy2x2_x_m8192_n1024_bf16_1_alg».proof.Proof.BGeometry
import Idealize.ShloMosaic.Lib.Pipeline.Value
import Idealize.ShloMosaic.Lib.ValueLayout
import proofs.«900022_g7700000000000023_dist_a2a_v7x_xy2x2_x_m8192_n1024_bf16_1_alg».proof.Proof.Gen.Kernel.Skeleton

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ)

/-! ## A chunk copied between two 32 x 128 x 1024 buffers -/

/-- The staging buffer's chunk k and the receive buffer's chunk k sit at the same elements. -/
theorem sl3_rb_sb_set (k : Fin 32) : (sl3 rbM k).view.set = (sl3 sbM k).view.set :=
  (sl3_set rbM k).trans (sl3_set sbM k).symm

omit [FloatOps F] in
/-- Chunk k of the staging buffer copied onto chunk k of the receive buffer: each element of the chunk takes the
    source's element at the same place. -/
theorem sl3_copy_apply (k : Fin 32) (c c' : Dev nD)
    (fd : Buf (Elt F) ((sl3 rbM k).view.loc (c' : Thread nD τ))) (fs : Buf (Elt F) ((sl3 sbM k).view.loc (c : Thread nD τ))) :
    ∀ i ∈ (sl3 rbM k).view.set,
      (sl3 rbM k).view.write (Elt F) fd ((sl3 sbM k).view.read (Elt F) fs) Finset.univ i = fs i := by
  intro i hi
  obtain ⟨y, rfl⟩ := View.exists_emb_of_mem_set _ hi
  rw [View.write_emb_of_mem _ _ (Finset.mem_univ y), View.read_apply]
  rfl

/-- What a device stages for its column mate is what the mate is to receive. -/
theorem recvC_xp (c : Dev nD) (i : S32x128x1024.Idx) : recvC m (xp c) i = sendC m c i := by
  simp only [recvC, sendC, xp_xp, cy_xp, cx_xp]

theorem send_val (c : Dev nD) (k : Fin 32) (fd : Buf (Elt F) ((sl3 rbM k).view.loc (xp c : Thread nD τ)))
    (fs : Buf (Elt F) ((sl3 sbM k).view.loc (c : Thread nD τ)))
    (hfs : ∀ i ∈ (sl3 sbM k).view.set, fs i = sendC m c i) :
    ∀ i ∈ (sl3 rbM k).view.set,
      (sl3 rbM k).view.write (Elt F) fd ((sl3 sbM k).view.read (Elt F) fs) Finset.univ i = recvC m (xp c) i := by
  intro i hi
  rw [sl3_copy_apply k c (xp c) fd fs i hi, hfs i ((sl3_rb_sb_set k) ▸ hi)]
  exact (recvC_xp m c i).symm

/-! ## Coordinates of the elements of a piece -/

omit [FloatOps F] in
/-- A 128 x 1024 index (a, b), read as an index of the 1 x 128 x 1024 shape with the same elements in the same
    order, is (0, a, b). -/
theorem squeeze_idx (h : S128x1024.numel = S1x128x1024.numel) (y : S128x1024.Idx) :
    Shape.reshapeEquiv (s := S1x128x1024) (s' := S128x1024) h y
      = (ix3 (0 : Fin 1) (y 0 : Fin 128) (y 1 : Fin 1024) : S1x128x1024.Idx) :=
  Shape.reshapeEquiv_eq_of_rowMajor h (by
    have e3 := Shape.rowMajor_val_three (d := ![1, 128, 1024]) (ix3 (0 : Fin 1) (y 0 : Fin 128) (y 1 : Fin 1024))
    have e2 := Shape.rowMajor_val_two (d := ![128, 1024]) y
    refine e3.trans (Eq.trans ?_ e2.symm)
    show (0 * 128 + (y 0).val) * 1024 + (y 1).val = (y 0).val * 1024 + (y 1).val
    omega)

omit [FloatOps F] in
/-- The element of chunk k of the receive buffer under (a, b) is (k, a, b). -/
theorem sl3_rb_val (k : Fin 32) (y : S128x1024.Idx) :
    (((sl3 rbM k).view.emb y : S32x128x1024.Idx) 0).val = k.val
      ∧ (((sl3 rbM k).view.emb y : S32x128x1024.Idx) 1).val = (y 0).val
      ∧ (((sl3 rbM k).view.emb y : S32x128x1024.Idx) 2).val = (y 1).val := by
  have e : ((sl3 rbM k).view.emb y : S32x128x1024.Idx)
      = (r3 k).emb (Shape.reshapeEquiv (s := S1x128x1024) (s' := S128x1024) squeezes_S1x128x1024_S128x1024.numel_eq y) := rfl
  rw [e, squeeze_idx]
  refine ⟨?_, ?_, ?_⟩
  · show k.val + 1 * 0 = k.val; omega
  · show 0 + 1 * (y 0).val = (y 0).val; omega
  · show 0 + 1 * (y 1).val = (y 1).val; omega

omit [FloatOps F] in
/-- The element of the result's piece for chunk k under (a, b) is (first row + a, b). -/
theorem oX_val (c : Dev nD) (k : Fin 32) (y : S128x1024.Idx) :
    (((oX c k).view.emb y : S16384x1024.Idx) 0).val
        = (4096 * (c.val % 2) + 128 * k.val + 8192) - 8192 * (c.val / 2) + (y 0).val
      ∧ (((oX c k).view.emb y : S16384x1024.Idx) 1).val = (y 1).val := by
  have e : ∀ a : Fin 2, (((oX c k).view.emb y : S16384x1024.Idx) a).val
      = (k0_off3 c (BitVec.ofNat 32 (128 * k.val))) a + 1 * (y a).val := fun a => rfl
  rw [k0_off3_eq] at e
  refine ⟨(e 0).trans ?_, (e 1).trans ?_⟩
  · show (4096 * (c.val % 2) + 128 * k.val + 8192) - 8192 * (c.val / 2) + 1 * (y 0).val = _; omega
  · show 0 + 1 * (y 1).val = _; omega

/-! ## The contents by coordinates -/

theorem recvC_val (c : Dev nD) (i : S32x128x1024.Idx) (a b d : Nat)
    (h0 : (i 0).val = a) (h1 : (i 1).val = b) (h2 : (i 2).val = d) :
    recvC m c i = tr (xAt m (xp c) (4096 * cy c + 128 * a + b) (1024 * cx c + d)) := by
  subst h0 h1 h2; rfl

theorem outC_val (c : Dev nD) (i : S16384x1024.Idx) (r j : Nat) (h0 : (i 0).val = r) (h1 : (i 1).val = j) :
    outC m c i = tr (xAt m (srcDev c r) r (1024 * cx c + j)) := by
  subst h0 h1; rfl

/-- An element of a block depends on its row only through the row's residue mod 8192, on its column only through
    the column's residue mod 2048. -/
theorem xAt_congr (d : Dev nD) {r r' j j' : Nat} (hr : r % 8192 = r' % 8192) (hj : j % 2048 = j' % 2048) :
    xAt m d r j = xAt m d r' j' := by
  unfold xAt
  congr 2 <;> exact Fin.ext (by assumption)

/-! ## A received chunk written to the result -/

/-- Rows 8192 (1 - x) + 4096 y + 128 k + a of the result of the device at column x, row y come from its column mate. -/
theorem srcDev_oX (c : Dev nD) (k : Fin 32) (a : Nat) (ha : a < 128) :
    srcDev c ((4096 * (c.val % 2) + 128 * k.val + 8192) - 8192 * (c.val / 2) + a) = xp c := by
  have hc : c.val < 4 := c.isLt
  have hk : k.val < 32 := k.isLt
  unfold srcDev
  rw [if_neg (by unfold cx; omega), if_pos (by unfold cy; omega)]

/-- The same rows of the row mate's result come from the same device. -/
theorem srcDev_yp_oX (c : Dev nD) (k : Fin 32) (a : Nat) (ha : a < 128) :
    srcDev (yp c) ((4096 * (c.val % 2) + 128 * k.val + 8192) - 8192 * (c.val / 2) + a) = xp c := by
  have hc : c.val < 4 := c.isLt
  have hk : k.val < 32 := k.isLt
  unfold srcDev
  rw [cx_yp, cy_yp, yp_yp, if_neg (by unfold cx; omega), if_neg (by unfold cy; omega)]

theorem fst_val (c : Dev nD) (k : Fin 32) (fd : Buf (Elt F) ((oX c k).view.loc (c : Thread nD τ))) :
    ∀ i ∈ (oX c k).view.set,
      (oX c k).view.write (Elt F) fd ((sl3 rbM k).view.read (Elt F) (recvC m c)) Finset.univ i = outC m c i := by
  intro i hi
  obtain ⟨y, rfl⟩ := View.exists_emb_of_mem_set _ hi
  rw [View.write_emb_of_mem _ _ (Finset.mem_univ y), View.read_apply]
  obtain ⟨h0, h1, h2⟩ := sl3_rb_val k y
  obtain ⟨g0, g1⟩ := oX_val c k y
  have hy0 : (y 0).val < 128 := (y 0).isLt
  have hc : c.val < 4 := c.isLt
  have hk : k.val < 32 := k.isLt
  rw [outC_val m c _ _ _ g0 g1, srcDev_oX c k _ hy0]
  refine Eq.trans (b := recvC m c ((sl3 rbM k).view.emb y)) rfl ?_
  rw [recvC_val m c _ _ _ _ h0 h1 h2]
  congr 1
  exact xAt_congr m (xp c) (by unfold cy; omega) rfl

theorem fwd_val (c : Dev nD) (k : Fin 32) (fd : Buf (Elt F) ((oX c k).view.loc (yp c : Thread nD τ))) :
    ∀ i ∈ (oX c k).view.set,
      (oX c k).view.write (Elt F) fd ((sl3 rbM k).view.read (Elt F) (recvC m c)) Finset.univ i = outC m (yp c) i := by
  intro i hi
  obtain ⟨y, rfl⟩ := View.exists_emb_of_mem_set _ hi
  rw [View.write_emb_of_mem _ _ (Finset.mem_univ y), View.read_apply]
  obtain ⟨h0, h1, h2⟩ := sl3_rb_val k y
  obtain ⟨g0, g1⟩ := oX_val c k y
  have hy0 : (y 0).val < 128 := (y 0).isLt
  have hc : c.val < 4 := c.isLt
  have hk : k.val < 32 := k.isLt
  rw [outC_val m (yp c) _ _ _ g0 g1, srcDev_yp_oX c k _ hy0, cx_yp]
  refine Eq.trans (b := recvC m c ((sl3 rbM k).view.emb y)) rfl ?_
  rw [recvC_val m c _ _ _ _ h0 h1 h2]
  congr 1
  exact xAt_congr m (xp c) (by unfold cy; omega) rfl

/-! ## A chunk loaded from the device's block -/

/-- The 128 x 1024 piece of the device's block that chunk k is loaded from. -/
abbrev xSl (c : Dev nD) (k : Fin 32) : Memref sig .tc .hbm S128x1024 .f32 :=
  xM.slice (Rect.unit (s := S8192x2048) (k0_off1 c (BitVec.ofNat 32 (128 * k.val))) S128x1024.size (k0_off1_inb c k)) (fun _ => rfl)

omit [FloatOps F] in
/-- The element of that piece under (a, b) is (4096 y + 128 k + a, 1024 (1 - x) + b) on the device at column x, row y. -/
theorem xSl_val (c : Dev nD) (k : Fin 32) (y : S128x1024.Idx) :
    (((xSl c k).view.emb y : S8192x2048.Idx) 0).val = 4096 * (c.val % 2) + 128 * k.val + (y 0).val
      ∧ (((xSl c k).view.emb y : S8192x2048.Idx) 1).val = 1024 - 1024 * (c.val / 2) + (y 1).val := by
  have e : ∀ a : Fin 2, (((xSl c k).view.emb y : S8192x2048.Idx) a).val
      = (k0_off1 c (BitVec.ofNat 32 (128 * k.val))) a + 1 * (y a).val := fun a => rfl
  rw [k0_off1_eq] at e
  refine ⟨(e 0).trans ?_, (e 1).trans ?_⟩
  · show 4096 * (c.val % 2) + 128 * k.val + 1 * (y 0).val = _; omega
  · show 1024 - 1024 * (c.val / 2) + 1 * (y 1).val = _; omega

omit [FloatOps F] in
/-- The element of chunk k of the load buffer under (a, b) is (k, a, b). -/
theorem sl3_sl_val (k : Fin 32) (y : S128x1024.Idx) :
    (((sl3 slM k).view.emb y : S32x128x1024.Idx) 0).val = k.val
      ∧ (((sl3 slM k).view.emb y : S32x128x1024.Idx) 1).val = (y 0).val
      ∧ (((sl3 slM k).view.emb y : S32x128x1024.Idx) 2).val = (y 1).val := by
  have e : ((sl3 slM k).view.emb y : S32x128x1024.Idx)
      = (r3 k).emb (Shape.reshapeEquiv (s := S1x128x1024) (s' := S128x1024) squeezes_S1x128x1024_S128x1024.numel_eq y) := rfl
  rw [e, squeeze_idx]
  refine ⟨?_, ?_, ?_⟩
  · show k.val + 1 * 0 = k.val; omega
  · show 0 + 1 * (y 0).val = (y 0).val; omega
  · show 0 + 1 * (y 1).val = (y 1).val; omega

/-- An element of the device's block, by the coordinates of its index. -/
theorem X_eq_xAt (c : Dev nD) (J : S8192x2048.Idx) (r j : Nat) (h0 : (J 0).val = r) (h1 : (J 1).val = j) :
    X m c J = xAt m c r j := by
  subst h0 h1
  have l0 : (J 0).val < 8192 := (J 0).isLt
  have l1 : (J 1).val < 2048 := (J 1).isLt
  unfold xAt
  congr 1
  funext a
  match a with
  | ⟨0, _⟩ => exact Fin.ext (show (J 0).val = (J 0).val % 8192 by omega)
  | ⟨1, _⟩ => exact Fin.ext (show (J 1).val = (J 1).val % 2048 by omega)

theorem sload_rhs (c : Dev nD) (i : S32x128x1024.Idx) (a b d : Nat)
    (h0 : (i 0).val = a) (h1 : (i 1).val = b) (h2 : (i 2).val = d) :
    xAt m c (4096 * cy c + 128 * (i 0).val + (i 1).val) (1024 * (1 - cx c) + (i 2).val)
      = xAt m c (4096 * cy c + 128 * a + b) (1024 * (1 - cx c) + d) := by
  subst h0 h1 h2; rfl

theorem sload_val (c : Dev nD) (k : Fin 32) (g0 : Buf (Elt F) ((sl3 slM k).view.loc (c : Thread nD τ))) :
    ∀ i ∈ (sl3 slM k).view.set,
      (sl3 slM k).view.write (Elt F) g0 ((xSl c k).view.read (Elt F) (X m c)) Finset.univ i
        = xAt m c (4096 * cy c + 128 * (i 0).val + (i 1).val) (1024 * (1 - cx c) + (i 2).val) := by
  intro i hi
  obtain ⟨y, rfl⟩ := View.exists_emb_of_mem_set _ hi
  rw [View.write_emb_of_mem _ _ (Finset.mem_univ y), View.read_apply]
  obtain ⟨h0, h1, h2⟩ := sl3_sl_val k y
  obtain ⟨e0, e1⟩ := xSl_val c k y
  have hc : c.val < 4 := c.isLt
  refine Eq.trans (b := X m c ((xSl c k).view.emb y)) rfl ?_
  refine Eq.trans (X_eq_xAt m c _ _ _ e0 e1) (Eq.trans ?_ (sload_rhs m c _ _ _ _ h0 h1 h2).symm)
  exact xAt_congr m c (by unfold cy; omega) (by unfold cx; omega)

/-! ## The change of format of one chunk -/

/-- A 1 x 128 x 1024 chunk changed to the narrow format: the leading unit axis dropped, each element changed, the
    unit axis put back. -/
def stageG (v : Vec F S1x128x1024 .f32) : FVec F S1x128x1024 .bf16 :=
  shapeCast S1x128x1024 (truncf .bf16 (shapeCast S128x1024 v shapeCasts_S1x128x1024_S128x1024) bitsLt_bf16_f32)
    shapeCasts_S128x1024_S1x128x1024

/-- Dropping the unit axis and putting it back is the identity, so the chunk is changed element by element. -/
theorem stageG_apply (v : Vec F S1x128x1024 .f32) (i : S1x128x1024.Idx) : stageG v i = tr (v i) := by
  have e : shapeCast S1x128x1024 (shapeCast S128x1024 v shapeCasts_S1x128x1024_S128x1024)
      shapeCasts_S128x1024_S1x128x1024 = v := shapeCast_shapeCast v _ _
  exact congrArg tr (congrFun e i)

/-- The program's payloads of the staging stores are this function (some of them cut in two). -/
theorem k0_pay1_eq : k0_pay1 (F := F) = stageG := rfl
theorem k0_pay2_eq : k0_pay2 (F := F) = stageG := rfl
theorem k0_pay3_eq : k0_pay3 (F := F) = stageG := rfl
theorem k0_pay4_eq : k0_pay4 (F := F) = stageG := rfl
theorem k0_pay5_eq : k0_pay5 (F := F) = stageG := rfl
theorem k0_pay6_eq : k0_pay6 (F := F) = stageG := rfl
theorem k0_pay7_eq : k0_pay7 (F := F) = stageG := rfl
theorem k0_pay8_eq : k0_pay8 (F := F) = stageG := rfl
theorem k0_pay11_eq : k0_pay11 (F := F) = stageG := rfl
theorem k0_pay12_eq : k0_pay12 (F := F) = stageG := rfl
theorem k0_pay13_eq : k0_pay13 (F := F) = stageG := rfl
theorem k0_pay14_eq : k0_pay14 (F := F) = stageG := rfl
theorem k0_pay15_eq : k0_pay15 (F := F) = stageG := rfl
theorem k0_pay16_eq : k0_pay16 (F := F) = stageG := rfl
theorem k0_pay17_eq : k0_pay17 (F := F) = stageG := rfl
theorem k0_pay18_eq : k0_pay18 (F := F) = stageG := rfl
theorem k0_pay21_eq : k0_pay21 (F := F) = stageG := rfl
theorem k0_pay22_eq : k0_pay22 (F := F) = stageG := rfl
theorem k0_pay23_eq : k0_pay23 (F := F) = stageG := rfl
theorem k0_pay24_eq : k0_pay24 (F := F) = stageG := rfl
theorem k0_pay27_eq : k0_pay27 (F := F) = stageG := rfl
theorem k0_pay28_eq : k0_pay28 (F := F) = stageG := rfl
theorem k0_pay29_eq : k0_pay29 (F := F) = stageG := rfl
theorem k0_pay30_eq : k0_pay30 (F := F) = stageG := rfl
theorem k0_pay31_eq : k0_pay31 (F := F) = stageG := rfl
theorem k0_pay32_eq : k0_pay32 (F := F) = stageG := rfl
theorem k0_pay33_eq : k0_pay33 (F := F) = stageG := rfl
theorem k0_pay34_eq : k0_pay34 (F := F) = stageG := rfl
theorem k0_pay10_9_eq (v : Vec F S1x128x1024 .f32) : k0_pay10 (k0_pay9 v) = stageG v := rfl
theorem k0_pay20_19_eq (v : Vec F S1x128x1024 .f32) : k0_pay20 (k0_pay19 v) = stageG v := rfl
theorem k0_pay26_25_eq (v : Vec F S1x128x1024 .f32) : k0_pay26 (k0_pay25 v) = stageG v := rfl
theorem k0_pay36_35_eq (v : Vec F S1x128x1024 .f32) : k0_pay36 (k0_pay35 v) = stageG v := rfl

/-! ## The device's own rows -/

/-- A 1 x 1024 x 1024 half changed to the narrow format, as a 1024 x 1024 array. -/
def stageE (v : Vec F S1x1024x1024 .f32) : FVec F S1024x1024 .bf16 :=
  shapeCast S1024x1024 (truncf .bf16 (shapeCast S1024x1024 v shapeCasts_S1x1024x1024_S1024x1024) bitsLt_bf16_f32)
    shapeCasts_S1024x1024_S1024x1024

/-- Its element (a, b) is the change of format of the half's element (0, a, b). -/
theorem stageE_apply (v : Vec F S1x1024x1024 .f32) (i : S1024x1024.Idx) :
    stageE v i = tr (v (ix3 (0 : Fin 1) (i 0 : Fin 1024) (i 1 : Fin 1024))) := by
  have e1 : stageE v = truncf .bf16 (shapeCast S1024x1024 v shapeCasts_S1x1024x1024_S1024x1024) bitsLt_bf16_f32 :=
    shapeCast_self _ _
  have e2 : shapeCast S1024x1024 v shapeCasts_S1x1024x1024_S1024x1024 (ix2 (i 0 : Fin 1024) (i 1 : Fin 1024))
      = v (ix3 (0 : Fin 1) (i 0 : Fin 1024) (i 1 : Fin 1024)) :=
    ValueIdx.shapeCast_1ab_ab_apply v _ _ _
  rw [e1, ValueIdx.eq_ix2 i]
  exact congrArg tr e2

/-- The program's payloads of the stores of the own rows are this function (two of them cut in two). -/
theorem k0_pay37_eq : k0_pay37 (F := F) = stageE := rfl
theorem k0_pay38_eq : k0_pay38 (F := F) = stageE := rfl
theorem k0_pay39_eq : k0_pay39 (F := F) = stageE := rfl
theorem k0_pay42_eq : k0_pay42 (F := F) = stageE := rfl
theorem k0_pay43_eq : k0_pay43 (F := F) = stageE := rfl
theorem k0_pay44_eq : k0_pay44 (F := F) = stageE := rfl
theorem k0_pay41_40_eq (v : Vec F S1x1024x1024 .f32) : k0_pay41 (k0_pay40 v) = stageE v := rfl
theorem k0_pay46_45_eq (v : Vec F S1x1024x1024 .f32) : k0_pay46 (k0_pay45 v) = stageE v := rfl

omit [FloatOps F] in
/-- The element of the own rows under (a, b) is (8192 x + a, b) on a device at column x. -/
theorem oOwn_val (c : Dev nD) (y : S8192x1024.Idx) :
    (((oOwn c).view.emb y : S16384x1024.Idx) 0).val = 8192 * (c.val / 2) + (y 0).val
      ∧ (((oOwn c).view.emb y : S16384x1024.Idx) 1).val = (y 1).val := by
  have e : ∀ a : Fin 2, (((oOwn c).view.emb y : S16384x1024.Idx) a).val = (k0_off11 c) a + 1 * (y a).val := fun a => rfl
  rw [k0_off11_eq] at e
  refine ⟨(e 0).trans ?_, (e 1).trans ?_⟩
  · show 8192 * (c.val / 2) + 1 * (y 0).val = _; omega
  · show 0 + 1 * (y 1).val = _; omega

/-- The rows 8192 x + a of the result of a device at column x are its own. -/
theorem srcDev_own (c : Dev nD) (a : Nat) (ha : a < 8192) : srcDev c (8192 * (c.val / 2) + a) = c := by
  have hc : c.val < 4 := c.isLt
  unfold srcDev
  rw [if_pos (by unfold cx; omega)]

/-- The narrow copy of the device's own columns, written to its own rows of the result, is the result there. -/
theorem own_val (c : Dev nD) (fd : Buf (Elt F) ((oOwn c).view.loc (c : Thread nD τ)))
    (L : Buf (Elt F) (lvM.view.loc (c : Thread nD τ)))
    (hL : ∀ y : S8192x1024.Idx, L y = tr (xAt m c (y 0).val (1024 * cx c + (y 1).val))) :
    ∀ i ∈ (oOwn c).view.set,
      (oOwn c).view.write (Elt F) fd (lvM.view.read (Elt F) L) Finset.univ i = outC m c i := by
  intro i hi
  obtain ⟨y, rfl⟩ := View.exists_emb_of_mem_set _ hi
  rw [View.write_emb_of_mem _ _ (Finset.mem_univ y), View.read_apply]
  obtain ⟨g0, g1⟩ := oOwn_val c y
  have hy0 : (y 0).val < 8192 := (y 0).isLt
  rw [outC_val m c _ _ _ g0 g1, srcDev_own c _ hy0]
  refine Eq.trans (b := L y) rfl ?_
  rw [hL y]
  congr 1
  exact xAt_congr m c (by omega) rfl

/-- info: 'Cert.Kernel.Hand.sl3_copy_apply' depends on axioms: [propext, Classical.choice, Quot.sound] -/
#guard_msgs in #print axioms sl3_copy_apply

/-- info: 'Cert.Kernel.Hand.send_val' depends on axioms: [propext, Classical.choice, Quot.sound] -/
#guard_msgs in #print axioms send_val

/-- info: 'Cert.Kernel.Hand.fst_val' depends on axioms: [propext, Classical.choice, Quot.sound] -/
#guard_msgs in #print axioms fst_val

/-- info: 'Cert.Kernel.Hand.fwd_val' depends on axioms: [propext, Classical.choice, Quot.sound] -/
#guard_msgs in #print axioms fwd_val

/-- info: 'Cert.Kernel.Hand.sload_val' depends on axioms: [propext, Classical.choice, Quot.sound] -/
#guard_msgs in #print axioms sload_val

/-- info: 'Cert.Kernel.Hand.stageG_apply' depends on axioms: [propext, Classical.choice, Quot.sound] -/
#guard_msgs in #print axioms stageG_apply

/-- info: 'Cert.Kernel.Hand.stageE_apply' depends on axioms: [propext, Classical.choice, Quot.sound] -/
#guard_msgs in #print axioms stageE_apply

/-- info: 'Cert.Kernel.Hand.own_val' depends on axioms: [propext, Classical.choice, Quot.sound] -/
#guard_msgs in #print axioms own_val

end Cert.Kernel.Hand

end
-- ==== Proof.BSteps.lean ====
/-
  The steps of the exchange as a device's kernel takes them, each from what every device knows (the cells'
  invariants and that round 0 of each is reached) and what the step consumes.
-/
import proofs.«900022_g7700000000000023_dist_a2a_v7x_xy2x2_x_m8192_n1024_bf16_1_alg».proof.Proof.BRules
import proofs.«900022_g7700000000000023_dist_a2a_v7x_xy2x2_x_m8192_n1024_bf16_1_alg».proof.Proof.BGeometry
import proofs.«900022_g7700000000000023_dist_a2a_v7x_xy2x2_x_m8192_n1024_bf16_1_alg».proof.Proof.BCopyVal

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ)

/-! ## Reading the records -/

theorem inv_at (K : Dev nD × Fin 129 → ℕ) (ck : Dev nD × Fin 129) :
    records m K ⊢ cellInv ER (sched m) (K ck) (kcell ck) := by
  unfold records; exact sep_elim_left.trans (bigSep_elim (Finset.mem_univ ck))
theorem reached_at (K : Dev nD × Fin 129 → ℕ) (ck : Dev nD × Fin 129) :
    records m K ⊢ reached ER (kcell ck) 0 := by
  unfold records; exact sep_elim_right.trans (bigSep_elim (Finset.mem_univ ck))

/-- Bounds on the semaphore numbers of the transfer cells. -/
theorem lt195 (k : Fin 32) (n : ℕ) (hn : n ≤ 163) : n + k.val < 195 := by have := k.isLt; omega
theorem ge67 (k : Fin 32) (n : ℕ) (hn : 67 ≤ n) : 67 ≤ n + k.val := by omega

/-- Transfer cell number i (67 or more) of a device is its cell number i - 66 of the 129. -/
theorem kcell_dcell (c : Dev nD) (i : ℕ) (h : i < 195) (hi : 67 ≤ i) :
    kcell (c, (⟨i - 66, by omega⟩ : Fin 129)) = dcell c i h := by
  unfold kcell csem
  rw [if_neg (by show ¬ (i - 66 = 0); omega)]
  exact Prod.ext rfl (congrArg SemLoc.dma (Fin.ext (by show 66 + (i - 66) = i; omega)))

theorem inv_dcell (K : Dev nD × Fin 129 → ℕ) (c : Dev nD) (i : ℕ) (h : i < 195) (hi : 67 ≤ i) :
    records m K ⊢ cellInv ER (sched m) (K (c, (⟨i - 66, by omega⟩ : Fin 129))) (dcell c i h) := by
  rw [← kcell_dcell c i h hi]; exact inv_at m K _
theorem reached_dcell (K : Dev nD × Fin 129 → ℕ) (c : Dev nD) (i : ℕ) (h : i < 195) (hi : 67 ≤ i) :
    records m K ⊢ reached ER (dcell c i h) 0 := by
  rw [← kcell_dcell c i h hi]; exact reached_at m K _
theorem inv_bar (K : Dev nD × Fin 129 → ℕ) (c : Dev nD) : records m K ⊢ cellInv ER (sched m) (K (c, jB)) (barCell c) :=
  inv_at m K (c, jB)
theorem reached_bar (K : Dev nD × Fin 129 → ℕ) (c : Dev nD) : records m K ⊢ reached ER (barCell c) 0 :=
  reached_at m K (c, jB)

/-- The receive buffer of device c, piece by piece, is what its column mate d is handed at entry. -/
theorem barPayX_intro (K : Dev nD × Fin 129 → ℕ) (c d : Dev nD) (hd : xp d = c) (fr : Buf (Elt F) (rbM.view.loc (c : Thread nD τ))) :
    iprop(records m K ∗ bigSep Finset.univ fun k : Fin 32 => ((sl3 rbM k).view.loc (c : Thread nD τ) ↦[(sl3 rbM k).view.set]{fullShare} fr))
      ⊢ barPayX (F := F) d := by
  subst hd
  unfold barPayX
  refine bigSep_with_persistent (R := records m K) fun k _ => ?_
  iintro ⟨#HR, Hp⟩
  isplitl [Hp]
  · iexists fr; iexact Hp
  · iapply (reached_dcell m K (xp d) (99 + k.val) (lt195 k 99 (by decide)) (ge67 k 99 (by decide))); iexact HR

/-- The rows of device c's result that its row mate d forwards into are what d is handed at entry. -/
theorem barPayY_intro (K : Dev nD × Fin 129 → ℕ) (c d : Dev nD) (hd : yp d = c) (fo : Buf (Elt F) (oM.view.loc (c : Thread nD τ))) :
    iprop(records m K ∗ bigSep Finset.univ fun k : Fin 32 => ((oY c k).view.loc (c : Thread nD τ) ↦[(oY c k).view.set]{fullShare} fo))
      ⊢ barPayY (F := F) d := by
  subst hd
  unfold barPayY
  refine bigSep_with_persistent (R := records m K) fun k _ => ?_
  iintro ⟨#HR, Hp⟩
  isplitl [Hp]
  · iexists fo; iexact Hp
  · iapply (reached_dcell m K (yp d) (163 + k.val) (lt195 k 163 (by decide)) (ge67 k 163 (by decide))); iexact HR

/-- With no send left, what is owed is the 32 forwards; with no forward left, nothing. -/
theorem owes_remX0 (c : Dev nD) (W : Waits sig Unit) :
    (owes (c : Thread nD τ) (remX c 0) W : sProp 𝕄) ⊢ owes (c : Thread nD τ) (remY c 32) W := Entails.of_eq rfl
theorem owes_remY0 (c : Dev nD) (W : Waits sig Unit) :
    (owes (c : Thread nD τ) (remY c 0) W : sProp 𝕄) ⊢ owes (c : Thread nD τ) 0 W := Entails.of_eq rfl

section Steps
variable (K : Dev nD × Fin 129 → ℕ) (c : Dev nD)

/-- The first entry signal, handing over the device's receive buffer (all 32 pieces, over contents fr). -/
theorem stepSigX {α : Type} {Q : α → sProp 𝕄} {kk : PUnit → Prog (TpuEff nD τ sig (Elt F) Λ₀ .tc) α}
    (n : Dev nD) (hn : n = xp c) (W : Waits sig Unit) (fr : Buf (Elt F) (rbM.view.loc (c : Thread nD τ))) :
    records m K ⊢ iprop(owes (c : Thread nD τ) (O₀ c) W -∗ dutyTok ER (barCell (xp c)) 0 false
      -∗ (bigSep Finset.univ fun k : Fin 32 => ((sl3 rbM k).view.loc (c : Thread nD τ) ↦[(sl3 rbM k).view.set]{fullShare} fr))
      -∗ (owes (c : Thread nD τ) (O₁ c) W -∗ wp frame (wpE (defs₀ (F := F)) 𝒱₀ (c : Thread nD τ) none) Set.univ (kk ⟨⟩) Q)
      -∗ wp frame (wpE (defs₀ (F := F)) 𝒱₀ (c : Thread nD τ) none) Set.univ (.op (.semSignal (n : Thread nD τ) barS 1) kk) Q) := by
  iintro #HR HO Ht Hp
  iapply (sigX m c n hn (K (xp c, jB)) W) $$ [HO Ht Hp]
  isplitr; · iapply (inv_bar m K (xp c)); iexact HR
  isplitl [HO]; · iexact HO
  isplitl [Ht]; · iexact Ht
  isplitl [Hp]
  · iapply (barPayX_intro m K c (xp c) (xp_xp c) fr)
    isplitr; · iexact HR
    iexact Hp
  · iapply (reached_bar m K (xp c)); iexact HR

/-- The second, handing over the rows of the result the row mate forwards into (over contents fo). -/
theorem stepSigY {α : Type} {Q : α → sProp 𝕄} {kk : PUnit → Prog (TpuEff nD τ sig (Elt F) Λ₀ .tc) α}
    (n : Dev nD) (hn : n = yp c) (W : Waits sig Unit) (fo : Buf (Elt F) (oM.view.loc (c : Thread nD τ))) :
    records m K ⊢ iprop(owes (c : Thread nD τ) (O₁ c) W -∗ dutyTok ER (barCell (yp c)) 0 true
      -∗ (bigSep Finset.univ fun k : Fin 32 => ((oY c k).view.loc (c : Thread nD τ) ↦[(oY c k).view.set]{fullShare} fo))
      -∗ (owes (c : Thread nD τ) (remX c 32) W -∗ wp frame (wpE (defs₀ (F := F)) 𝒱₀ (c : Thread nD τ) none) Set.univ (kk ⟨⟩) Q)
      -∗ wp frame (wpE (defs₀ (F := F)) 𝒱₀ (c : Thread nD τ) none) Set.univ (.op (.semSignal (n : Thread nD τ) barS 1) kk) Q) := by
  iintro #HR HO Ht Hp
  iapply (sigY m c n hn (K (yp c, jB)) W) $$ [HO Ht Hp]
  isplitr; · iapply (inv_bar m K (yp c)); iexact HR
  isplitl [HO]; · iexact HO
  isplitl [Ht]; · iexact Ht
  isplitl [Hp]
  · iapply (barPayY_intro m K c (yp c) (yp_yp c) fo)
    isplitr; · iexact HR
    iexact Hp
  · iapply (reached_bar m K (yp c)); iexact HR

/-- The barrier wait. -/
theorem stepWaitBar {α : Type} {Q : α → sProp 𝕄} {kk : PUnit → Prog (TpuEff nD τ sig (Elt F) Λ₀ .tc) α}
    (W : Waits sig Unit) :
    records m K ⊢ iprop(cred (tallyAt (barCell c) () 2) -∗ owes (c : Thread nD τ) (remX c 32) W -∗ levAts L lv -∗ atPos ER (barCell c) 0 ∅ 0
      -∗ ((owes (c : Thread nD τ) (remX c 32) (insert (SemLoc.reg barS, ()) W) ∗ atPos ER (barCell c) 1 ∅ 0
            ∗ barPayX (F := F) c ∗ barPayY (F := F) c) -∗ wp frame (wpE (defs₀ (F := F)) 𝒱₀ (c : Thread nD τ) none) Set.univ (kk ⟨⟩) Q)
      -∗ wp frame (wpE (defs₀ (F := F)) 𝒱₀ (c : Thread nD τ) none) Set.univ (.op (.semWait barS 2) kk) Q) := by
  iintro #HR Hc HO Hlev Hat
  iapply (waitBar m c (K (c, jB)) W) $$ [Hc HO Hlev Hat]
  isplitr; · iapply (inv_bar m K c); iexact HR
  isplitl [Hc]; · iexact Hc
  isplitl [HO]; · iexact HO
  isplitl [Hlev]; · iexact Hlev
  iexact Hat

/-- Chunk k to the column mate, from a staged piece that holds what it is to hold. -/
theorem stepSendX {α : Type} {Q : α → sProp 𝕄} {kk : PUnit → Prog (TpuEff nD τ sig (Elt F) Λ₀ .tc) α}
    (n : Dev nD) (hn : n = xp c) (k : Fin 32) (j j' : ℕ) (hj : j' = j + 1) (hk : j + k.val = 31)
    {hsc : ((sl3 rbM k : Memref sig .tc .vmem S128x1024 .bf16)).view.ref.isScScratch = false}
    {hsrc : (sl3 sbM k).view.WordExact} {hdst : (sl3 rbM k).view.WordExact}
    {hsem : DmaTarget.Typed .vmem (.dma (⟨99 + k.val, (show 99 + k.val < 195 by omega)⟩ : DmaSem sig))
      (.remote (Dev.tc n : Thread nD τ) (sl3 rbM k) (.dma (⟨67 + k.val, (show 67 + k.val < 195 by omega)⟩ : DmaSem sig)) hsc)}
    (W : Waits sig Unit)
    (fs : Buf (Elt F) ((sl3 sbM k).view.loc (c : Thread nD τ))) (fd : Buf (Elt F) ((sl3 rbM k).view.loc (xp c : Thread nD τ)))
    (hfs : ∀ i ∈ (sl3 sbM k).view.set, fs i = sendC m c i) :
    records m K ⊢ iprop(((sl3 sbM k).view.loc (c : Thread nD τ) ↦[(sl3 sbM k).view.set]{fullShare} fs) -∗ ((sl3 rbM k).view.loc (xp c : Thread nD τ) ↦[(sl3 rbM k).view.set]{fullShare} fd)
      -∗ owes (c : Thread nD τ) (remX c j') W -∗ dutyTok ER (sXc c k) 0 false -∗ dutyTok ER (rXc (xp c) k) 0 false
      -∗ ((cred (tallyAt (sXc c k) () NC) ∗ owes (c : Thread nD τ) (remX c j) W) -∗ wp frame (wpE (defs₀ (F := F)) 𝒱₀ (c : Thread nD τ) none) Set.univ (kk ⟨⟩) Q)
      -∗ wp frame (wpE (defs₀ (F := F)) 𝒱₀ (c : Thread nD τ) none) Set.univ
          (.op (.enqueueDma (sl3 sbM k) (.remote (Dev.tc n : Thread nD τ) (sl3 rbM k) (.dma (⟨67 + k.val, (show 67 + k.val < 195 by omega)⟩ : DmaSem sig)) hsc)
            (.dma (⟨99 + k.val, (show 99 + k.val < 195 by omega)⟩ : DmaSem sig)) hsrc hdst hsem) kk) Q) := by
  obtain rfl : j = 31 - k.val := by omega
  subst hj
  iintro #HR Hs Hd HO Ht1 Ht2
  iapply (sendX m c n hn k (hsc := hsc) (hsrc := hsrc) (hdst := hdst) (hsem := hsem)
    (K (c, (⟨67 + k.val - 66, by have := k.isLt; omega⟩ : Fin 129))) (K (xp c, (⟨99 + k.val - 66, by have := k.isLt; omega⟩ : Fin 129))) W fs fd
    (send_val m c k fd fs hfs)) $$ [Hs Hd HO Ht1 Ht2]
  isplitr; · iapply (inv_dcell m K c (67 + k.val) (lt195 k 67 (by decide)) (ge67 k 67 (by decide))); iexact HR
  isplitr; · iapply (inv_dcell m K (xp c) (99 + k.val) (lt195 k 99 (by decide)) (ge67 k 99 (by decide))); iexact HR
  isplitl [Hs]; · iexact Hs
  isplitl [Hd]; · iexact Hd
  isplitl [HO]; · iexact HO
  isplitl [Ht1]; · iexact Ht1
  isplitr; · iapply (reached_dcell m K c (67 + k.val) (lt195 k 67 (by decide)) (ge67 k 67 (by decide))); iexact HR
  isplitl [Ht2]; · iexact Ht2
  iapply (reached_dcell m K (xp c) (99 + k.val) (lt195 k 99 (by decide)) (ge67 k 99 (by decide))); iexact HR

/-- Chunk k forwarded to the row mate, from the left half of the received piece. -/
theorem stepSendY {α : Type} {Q : α → sProp 𝕄} {kk : PUnit → Prog (TpuEff nD τ sig (Elt F) Λ₀ .tc) α}
    (n : Dev nD) (hn : n = yp c) (k : Fin 32) (j j' : ℕ) (hj : j' = j + 1) (hk : j + k.val = 31)
    {hsc : (oX c k).view.ref.isScScratch = false}
    {hsrc : (sl3 rbM k).view.WordExact} {hdst : (oX c k).view.WordExact}
    {hsem : DmaTarget.Typed .vmem (.dma (⟨163 + k.val, (show 163 + k.val < 195 by omega)⟩ : DmaSem sig))
      (.remote (Dev.tc n : Thread nD τ) (oX c k) (.dma (⟨131 + k.val, (show 131 + k.val < 195 by omega)⟩ : DmaSem sig)) hsc)}
    (W : Waits sig Unit) (fd : Buf (Elt F) (oM.view.loc (yp c : Thread nD τ))) :
    records m K ⊢ iprop(((sl3 rbM k).view.loc (c : Thread nD τ) ↦[(sl3 rbM k).view.set]{fullShare.left} recvC m c)
      -∗ ((oY (yp c) k).view.loc (yp c : Thread nD τ) ↦[(oY (yp c) k).view.set]{fullShare} fd)
      -∗ owes (c : Thread nD τ) (remY c j') W -∗ dutyTok ER (sYc c k) 0 false -∗ dutyTok ER (rYc (yp c) k) 0 false
      -∗ ((cred (tallyAt (sYc c k) () NC) ∗ owes (c : Thread nD τ) (remY c j) W) -∗ wp frame (wpE (defs₀ (F := F)) 𝒱₀ (c : Thread nD τ) none) Set.univ (kk ⟨⟩) Q)
      -∗ wp frame (wpE (defs₀ (F := F)) 𝒱₀ (c : Thread nD τ) none) Set.univ
          (.op (.enqueueDma (sl3 rbM k) (.remote (Dev.tc n : Thread nD τ) (oX c k) (.dma (⟨131 + k.val, (show 131 + k.val < 195 by omega)⟩ : DmaSem sig)) hsc)
            (.dma (⟨163 + k.val, (show 163 + k.val < 195 by omega)⟩ : DmaSem sig)) hsrc hdst hsem) kk) Q) := by
  obtain rfl : j = 31 - k.val := by omega
  subst hj
  iintro #HR Hs Hd HO Ht1 Ht2
  iapply (sendY m c n hn k (hsc := hsc) (hsrc := hsrc) (hdst := hdst) (hsem := hsem)
    (K (c, (⟨131 + k.val - 66, by have := k.isLt; omega⟩ : Fin 129))) (K (yp c, (⟨163 + k.val - 66, by have := k.isLt; omega⟩ : Fin 129))) W fd
    (fwd_val m c k fd)) $$ [Hs Hd HO Ht1 Ht2]
  isplitr; · iapply (inv_dcell m K c (131 + k.val) (lt195 k 131 (by decide)) (ge67 k 131 (by decide))); iexact HR
  isplitr; · iapply (inv_dcell m K (yp c) (163 + k.val) (lt195 k 163 (by decide)) (ge67 k 163 (by decide))); iexact HR
  isplitl [Hs]; · iexact Hs
  isplitl [Hd]; · iexact Hd
  isplitl [HO]; · iexact HO
  isplitl [Ht1]; · iexact Ht1
  isplitr; · iapply (reached_dcell m K c (131 + k.val) (lt195 k 131 (by decide)) (ge67 k 131 (by decide))); iexact HR
  isplitl [Ht2]; · iexact Ht2
  iapply (reached_dcell m K (yp c) (163 + k.val) (lt195 k 163 (by decide)) (ge67 k 163 (by decide))); iexact HR

/-- A wait on transfer cell j (of the 129) of the device: the arrival from the column mate while forwards are still owed, -/
theorem stepWaitRX {α : Type} {Q : α → sProp 𝕄} {kk : PUnit → Prog (TpuEff nD τ sig (Elt F) Λ₀ .tc) α}
    (k : Fin 32) (j : ℕ) {w : TpuEff nD τ sig (Elt F) Λ₀ .tc PUnit}
    (hw : ∀ Kp : PUnit → sProp 𝕄, wpE (defs₀ (F := F)) 𝒱₀ (c : Thread nD τ) none Set.univ w Kp
        = waitSpec (c : Thread nD τ) Set.univ (.dma (⟨99 + k.val, (show 99 + k.val < 195 by omega)⟩ : DmaSem sig)) NC Kp)
    (W : Waits sig Unit) :
    records m K ⊢ iprop(cred (tallyAt (rXc c k) () NC) -∗ owes (c : Thread nD τ) (remY c j) W -∗ levAts L lv -∗ atPos ER (rXc c k) 0 ∅ 0
      -∗ ((owes (c : Thread nD τ) (remY c j) (insert (SemLoc.dma (⟨99 + k.val, (show 99 + k.val < 195 by omega)⟩ : DmaSem sig), ()) W)
            ∗ atPos ER (rXc c k) 1 ∅ 0 ∗ (((sl3 rbM k).view.loc (c : Thread nD τ) ↦[(sl3 rbM k).view.set]{fullShare} recvC m c))) -∗ wp frame (wpE (defs₀ (F := F)) 𝒱₀ (c : Thread nD τ) none) Set.univ (kk ⟨⟩) Q)
      -∗ wp frame (wpE (defs₀ (F := F)) 𝒱₀ (c : Thread nD τ) none) Set.univ (.op w kk) Q) := by
  have e : (sched (F := F) m).payload (rXc c k) 0 false
      = ((sl3 rbM k).view.loc (c : Thread nD τ) ↦[(sl3 rbM k).view.set]{fullShare} recvC m c) := payload_rX m c k false
  rw [← e]
  iintro #HR Hc HO Hlev Hat
  iapply (waitCell m c (99 + k.val) (lt195 k 99 (by decide)) (ge67 k 99 (by decide)) hw
    (K (c, (⟨99 + k.val - 66, by have := k.isLt; omega⟩ : Fin 129))) (remY c j) W) $$ [Hc HO Hlev Hat]
  isplitr; · iapply (inv_dcell m K c (99 + k.val) (lt195 k 99 (by decide)) (ge67 k 99 (by decide))); iexact HR
  isplitl [Hc]; · iexact Hc
  isplitl [HO]; · iexact HO
  isplitl [Hlev]; · iapply (mw_rX c k j); iexact Hlev
  iexact Hat

/-- and a wait owing nothing: an arrival from the row mate, or a departure (cell number i from 67 on). -/
theorem stepWait0 {α : Type} {Q : α → sProp 𝕄} {kk : PUnit → Prog (TpuEff nD τ sig (Elt F) Λ₀ .tc) α}
    (i : ℕ) (h : i < 195) (hi : 67 ≤ i) {w : TpuEff nD τ sig (Elt F) Λ₀ .tc PUnit}
    (hw : ∀ Kp : PUnit → sProp 𝕄, wpE (defs₀ (F := F)) 𝒱₀ (c : Thread nD τ) none Set.univ w Kp
        = waitSpec (c : Thread nD τ) Set.univ (.dma (⟨i, h⟩ : DmaSem sig)) NC Kp)
    (W : Waits sig Unit) :
    records m K ⊢ iprop(cred (tallyAt (dcell c i h) () NC) -∗ owes (c : Thread nD τ) 0 W -∗ atPos ER (dcell c i h) 0 ∅ 0
      -∗ ((owes (c : Thread nD τ) 0 (insert (SemLoc.dma (⟨i, h⟩ : DmaSem sig), ()) W)
            ∗ atPos ER (dcell c i h) 1 ∅ 0 ∗ (sched m).payload (dcell c i h) 0 false) -∗ wp frame (wpE (defs₀ (F := F)) 𝒱₀ (c : Thread nD τ) none) Set.univ (kk ⟨⟩) Q)
      -∗ wp frame (wpE (defs₀ (F := F)) 𝒱₀ (c : Thread nD τ) none) Set.univ (.op w kk) Q) := by
  iintro #HR Hc HO Hat
  iapply (waitCell m c i h hi hw (K (c, (⟨i - 66, by omega⟩ : Fin 129))) 0 W) $$ [Hc HO Hat]
  isplitr; · iapply (inv_dcell m K c i h hi); iexact HR
  isplitl [Hc]; · iexact Hc
  isplitl [HO]; · iexact HO
  isplitr; · rw [MayWait_zero]; iempintro
  iexact Hat

/-- The arrival of chunk k from the row mate, owing nothing: 128 rows of the result, holding what the result is to hold. -/
theorem stepWaitRY {α : Type} {Q : α → sProp 𝕄} {kk : PUnit → Prog (TpuEff nD τ sig (Elt F) Λ₀ .tc) α}
    (k : Fin 32) {w : TpuEff nD τ sig (Elt F) Λ₀ .tc PUnit}
    (hw : ∀ Kp : PUnit → sProp 𝕄, wpE (defs₀ (F := F)) 𝒱₀ (c : Thread nD τ) none Set.univ w Kp
        = waitSpec (c : Thread nD τ) Set.univ (.dma (⟨163 + k.val, (show 163 + k.val < 195 by omega)⟩ : DmaSem sig)) NC Kp)
    (W : Waits sig Unit) :
    records m K ⊢ iprop(cred (tallyAt (rYc c k) () NC) -∗ owes (c : Thread nD τ) 0 W -∗ atPos ER (rYc c k) 0 ∅ 0
      -∗ ((owes (c : Thread nD τ) 0 (insert (SemLoc.dma (⟨163 + k.val, (show 163 + k.val < 195 by omega)⟩ : DmaSem sig), ()) W)
            ∗ atPos ER (rYc c k) 1 ∅ 0 ∗ (((oY c k).view.loc (c : Thread nD τ) ↦[(oY c k).view.set]{fullShare} outC m c))) -∗ wp frame (wpE (defs₀ (F := F)) 𝒱₀ (c : Thread nD τ) none) Set.univ (kk ⟨⟩) Q)
      -∗ wp frame (wpE (defs₀ (F := F)) 𝒱₀ (c : Thread nD τ) none) Set.univ (.op w kk) Q) := by
  have e : (sched (F := F) m).payload (rYc c k) 0 false
      = ((oY c k).view.loc (c : Thread nD τ) ↦[(oY c k).view.set]{fullShare} outC m c) := payload_rY m c k false
  rw [← e]
  exact stepWait0 m K c (163 + k.val) (lt195 k 163 (by decide)) (ge67 k 163 (by decide)) hw W

/-- The departure of chunk k to the column mate, owing nothing: the staged piece back, over some contents. -/
theorem stepWaitSX {α : Type} {Q : α → sProp 𝕄} {kk : PUnit → Prog (TpuEff nD τ sig (Elt F) Λ₀ .tc) α}
    (k : Fin 32) {w : TpuEff nD τ sig (Elt F) Λ₀ .tc PUnit}
    (hw : ∀ Kp : PUnit → sProp 𝕄, wpE (defs₀ (F := F)) 𝒱₀ (c : Thread nD τ) none Set.univ w Kp
        = waitSpec (c : Thread nD τ) Set.univ (.dma (⟨67 + k.val, (show 67 + k.val < 195 by omega)⟩ : DmaSem sig)) NC Kp)
    (W : Waits sig Unit) :
    records m K ⊢ iprop(cred (tallyAt (sXc c k) () NC) -∗ owes (c : Thread nD τ) 0 W -∗ atPos ER (sXc c k) 0 ∅ 0
      -∗ ((owes (c : Thread nD τ) 0 (insert (SemLoc.dma (⟨67 + k.val, (show 67 + k.val < 195 by omega)⟩ : DmaSem sig), ()) W)
            ∗ atPos ER (sXc c k) 1 ∅ 0 ∗ (∃ f, ((sl3 sbM k).view.loc (c : Thread nD τ) ↦[(sl3 sbM k).view.set]{fullShare} f))) -∗ wp frame (wpE (defs₀ (F := F)) 𝒱₀ (c : Thread nD τ) none) Set.univ (kk ⟨⟩) Q)
      -∗ wp frame (wpE (defs₀ (F := F)) 𝒱₀ (c : Thread nD τ) none) Set.univ (.op w kk) Q) := by
  have e : (sched (F := F) m).payload (sXc c k) 0 false
      = iprop(∃ f, ((sl3 sbM k).view.loc (c : Thread nD τ) ↦[(sl3 sbM k).view.set]{fullShare} f)) := payload_sX m c k false
  rw [← e]
  exact stepWait0 m K c (67 + k.val) (lt195 k 67 (by decide)) (ge67 k 67 (by decide)) hw W

/-- The departure of chunk k to the row mate, owing nothing: the lent half of the received piece back. -/
theorem stepWaitSY {α : Type} {Q : α → sProp 𝕄} {kk : PUnit → Prog (TpuEff nD τ sig (Elt F) Λ₀ .tc) α}
    (k : Fin 32) {w : TpuEff nD τ sig (Elt F) Λ₀ .tc PUnit}
    (hw : ∀ Kp : PUnit → sProp 𝕄, wpE (defs₀ (F := F)) 𝒱₀ (c : Thread nD τ) none Set.univ w Kp
        = waitSpec (c : Thread nD τ) Set.univ (.dma (⟨131 + k.val, (show 131 + k.val < 195 by omega)⟩ : DmaSem sig)) NC Kp)
    (W : Waits sig Unit) :
    records m K ⊢ iprop(cred (tallyAt (sYc c k) () NC) -∗ owes (c : Thread nD τ) 0 W -∗ atPos ER (sYc c k) 0 ∅ 0
      -∗ ((owes (c : Thread nD τ) 0 (insert (SemLoc.dma (⟨131 + k.val, (show 131 + k.val < 195 by omega)⟩ : DmaSem sig), ()) W)
            ∗ atPos ER (sYc c k) 1 ∅ 0 ∗ (((sl3 rbM k).view.loc (c : Thread nD τ) ↦[(sl3 rbM k).view.set]{fullShare.left} recvC m c))) -∗ wp frame (wpE (defs₀ (F := F)) 𝒱₀ (c : Thread nD τ) none) Set.univ (kk ⟨⟩) Q)
      -∗ wp frame (wpE (defs₀ (F := F)) 𝒱₀ (c : Thread nD τ) none) Set.univ (.op w kk) Q) := by
  have e : (sched (F := F) m).payload (sYc c k) 0 false
      = ((sl3 rbM k).view.loc (c : Thread nD τ) ↦[(sl3 rbM k).view.set]{fullShare.left} recvC m c) := payload_sY m c k false
  rw [← e]
  exact stepWait0 m K c (131 + k.val) (lt195 k 131 (by decide)) (ge67 k 131 (by decide)) hw W

/-- A transfer cell whose one round is over closes: its counter is the kernel's again, at zero. -/
theorem stepClose (i : ℕ) (h : i < 195) (hi : 67 ≤ i) :
    records m K ⊢ iprop(atPos ER (dcell c i h) 1 ∅ 0 -∗ |={Set.univ}=> semVal (dcell c i h) 0) := by
  iintro #HR Hat
  iapply (Rounds.cell_close ER (sched m) (κ := K (c, (⟨i - 66, by omega⟩ : Fin 129))) (Set.mem_univ _) (fun h => h) (R := 0 + 1) (duties_later m _))
  isplitr; · iapply (inv_dcell m K c i h hi); iexact HR
  iexact Hat

/-- info: 'Cert.Kernel.Hand.stepSendX' depends on axioms: [propext, Classical.choice, Quot.sound] -/
#guard_msgs in #print axioms stepSendX
/-- info: 'Cert.Kernel.Hand.stepWaitSY' depends on axioms: [propext, Classical.choice, Quot.sound] -/
#guard_msgs in #print axioms stepWaitSY

end Steps

end Cert.Kernel.Hand

end
-- ==== Proof.BChains.lean ====
/-
  A separating conjunction over all of a finite index type, written out as the chain of its terms in order, for
  the index types of 67, 129 and 195 elements.
-/
import proofs.«900022_g7700000000000023_dist_a2a_v7x_xy2x2_x_m8192_n1024_bf16_1_alg».proof.Proof.BGeometry

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

omit [FloatOps F] in
theorem bigSep_fin67 (Φ : Fin 67 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36 ∗ Φ 37 ∗ Φ 38 ∗ Φ 39 ∗ Φ 40 ∗ Φ 41 ∗ Φ 42 ∗ Φ 43 ∗ Φ 44 ∗ Φ 45 ∗ Φ 46 ∗ Φ 47 ∗ Φ 48 ∗ Φ 49 ∗ Φ 50 ∗ Φ 51 ∗ Φ 52 ∗ Φ 53 ∗ Φ 54 ∗ Φ 55 ∗ Φ 56 ∗ Φ 57 ∗ Φ 58 ∗ Φ 59 ∗ Φ 60 ∗ Φ 61 ∗ Φ 62 ∗ Φ 63 ∗ Φ 64 ∗ Φ 65 ∗ Φ 66) :=
  bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66] (by decide) (by decide) Φ

omit [FloatOps F] in
theorem bigSep_fin129 (Φ : Fin 129 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36 ∗ Φ 37 ∗ Φ 38 ∗ Φ 39 ∗ Φ 40 ∗ Φ 41 ∗ Φ 42 ∗ Φ 43 ∗ Φ 44 ∗ Φ 45 ∗ Φ 46 ∗ Φ 47 ∗ Φ 48 ∗ Φ 49 ∗ Φ 50 ∗ Φ 51 ∗ Φ 52 ∗ Φ 53 ∗ Φ 54 ∗ Φ 55 ∗ Φ 56 ∗ Φ 57 ∗ Φ 58 ∗ Φ 59 ∗ Φ 60 ∗ Φ 61 ∗ Φ 62 ∗ Φ 63 ∗ Φ 64 ∗ Φ 65 ∗ Φ 66 ∗ Φ 67 ∗ Φ 68 ∗ Φ 69 ∗ Φ 70 ∗ Φ 71 ∗ Φ 72 ∗ Φ 73 ∗ Φ 74 ∗ Φ 75 ∗ Φ 76 ∗ Φ 77 ∗ Φ 78 ∗ Φ 79 ∗ Φ 80 ∗ Φ 81 ∗ Φ 82 ∗ Φ 83 ∗ Φ 84 ∗ Φ 85 ∗ Φ 86 ∗ Φ 87 ∗ Φ 88 ∗ Φ 89 ∗ Φ 90 ∗ Φ 91 ∗ Φ 92 ∗ Φ 93 ∗ Φ 94 ∗ Φ 95 ∗ Φ 96 ∗ Φ 97 ∗ Φ 98 ∗ Φ 99 ∗ Φ 100 ∗ Φ 101 ∗ Φ 102 ∗ Φ 103 ∗ Φ 104 ∗ Φ 105 ∗ Φ 106 ∗ Φ 107 ∗ Φ 108 ∗ Φ 109 ∗ Φ 110 ∗ Φ 111 ∗ Φ 112 ∗ Φ 113 ∗ Φ 114 ∗ Φ 115 ∗ Φ 116 ∗ Φ 117 ∗ Φ 118 ∗ Φ 119 ∗ Φ 120 ∗ Φ 121 ∗ Φ 122 ∗ Φ 123 ∗ Φ 124 ∗ Φ 125 ∗ Φ 126 ∗ Φ 127 ∗ Φ 128) :=
  bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125, 126, 127, 128] (by decide) (by decide) Φ

omit [FloatOps F] in
theorem bigSep_fin195 (Φ : Fin 195 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36 ∗ Φ 37 ∗ Φ 38 ∗ Φ 39 ∗ Φ 40 ∗ Φ 41 ∗ Φ 42 ∗ Φ 43 ∗ Φ 44 ∗ Φ 45 ∗ Φ 46 ∗ Φ 47 ∗ Φ 48 ∗ Φ 49 ∗ Φ 50 ∗ Φ 51 ∗ Φ 52 ∗ Φ 53 ∗ Φ 54 ∗ Φ 55 ∗ Φ 56 ∗ Φ 57 ∗ Φ 58 ∗ Φ 59 ∗ Φ 60 ∗ Φ 61 ∗ Φ 62 ∗ Φ 63 ∗ Φ 64 ∗ Φ 65 ∗ Φ 66 ∗ Φ 67 ∗ Φ 68 ∗ Φ 69 ∗ Φ 70 ∗ Φ 71 ∗ Φ 72 ∗ Φ 73 ∗ Φ 74 ∗ Φ 75 ∗ Φ 76 ∗ Φ 77 ∗ Φ 78 ∗ Φ 79 ∗ Φ 80 ∗ Φ 81 ∗ Φ 82 ∗ Φ 83 ∗ Φ 84 ∗ Φ 85 ∗ Φ 86 ∗ Φ 87 ∗ Φ 88 ∗ Φ 89 ∗ Φ 90 ∗ Φ 91 ∗ Φ 92 ∗ Φ 93 ∗ Φ 94 ∗ Φ 95 ∗ Φ 96 ∗ Φ 97 ∗ Φ 98 ∗ Φ 99 ∗ Φ 100 ∗ Φ 101 ∗ Φ 102 ∗ Φ 103 ∗ Φ 104 ∗ Φ 105 ∗ Φ 106 ∗ Φ 107 ∗ Φ 108 ∗ Φ 109 ∗ Φ 110 ∗ Φ 111 ∗ Φ 112 ∗ Φ 113 ∗ Φ 114 ∗ Φ 115 ∗ Φ 116 ∗ Φ 117 ∗ Φ 118 ∗ Φ 119 ∗ Φ 120 ∗ Φ 121 ∗ Φ 122 ∗ Φ 123 ∗ Φ 124 ∗ Φ 125 ∗ Φ 126 ∗ Φ 127 ∗ Φ 128 ∗ Φ 129 ∗ Φ 130 ∗ Φ 131 ∗ Φ 132 ∗ Φ 133 ∗ Φ 134 ∗ Φ 135 ∗ Φ 136 ∗ Φ 137 ∗ Φ 138 ∗ Φ 139 ∗ Φ 140 ∗ Φ 141 ∗ Φ 142 ∗ Φ 143 ∗ Φ 144 ∗ Φ 145 ∗ Φ 146 ∗ Φ 147 ∗ Φ 148 ∗ Φ 149 ∗ Φ 150 ∗ Φ 151 ∗ Φ 152 ∗ Φ 153 ∗ Φ 154 ∗ Φ 155 ∗ Φ 156 ∗ Φ 157 ∗ Φ 158 ∗ Φ 159 ∗ Φ 160 ∗ Φ 161 ∗ Φ 162 ∗ Φ 163 ∗ Φ 164 ∗ Φ 165 ∗ Φ 166 ∗ Φ 167 ∗ Φ 168 ∗ Φ 169 ∗ Φ 170 ∗ Φ 171 ∗ Φ 172 ∗ Φ 173 ∗ Φ 174 ∗ Φ 175 ∗ Φ 176 ∗ Φ 177 ∗ Φ 178 ∗ Φ 179 ∗ Φ 180 ∗ Φ 181 ∗ Φ 182 ∗ Φ 183 ∗ Φ 184 ∗ Φ 185 ∗ Φ 186 ∗ Φ 187 ∗ Φ 188 ∗ Φ 189 ∗ Φ 190 ∗ Φ 191 ∗ Φ 192 ∗ Φ 193 ∗ Φ 194) :=
  bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125, 126, 127, 128, 129, 130, 131, 132, 133, 134, 135, 136, 137, 138, 139, 140, 141, 142, 143, 144, 145, 146, 147, 148, 149, 150, 151, 152, 153, 154, 155, 156, 157, 158, 159, 160, 161, 162, 163, 164, 165, 166, 167, 168, 169, 170, 171, 172, 173, 174, 175, 176, 177, 178, 179, 180, 181, 182, 183, 184, 185, 186, 187, 188, 189, 190, 191, 192, 193, 194] (by decide) (by decide) Φ

/-- info: 'Cert.Kernel.Hand.bigSep_fin67' depends on axioms: [propext, Classical.choice, Quot.sound] -/
#guard_msgs in #print axioms bigSep_fin67

/-- info: 'Cert.Kernel.Hand.bigSep_fin129' depends on axioms: [propext, Classical.choice, Quot.sound] -/
#guard_msgs in #print axioms bigSep_fin129

/-- info: 'Cert.Kernel.Hand.bigSep_fin195' depends on axioms: [propext, Classical.choice, Quot.sound] -/
#guard_msgs in #print axioms bigSep_fin195

end Cert.Kernel.Hand

end
-- ==== Proof.BJoins.lean ====
/-
  Gluing the pieces of a buffer back together when each piece holds contents of its own.

  Two halves of the full share of the same elements at the same contents are the full share. Pieces that are
  pairwise disjoint and cover a buffer, each held at some contents, are the buffer held at some contents: the glued
  contents take each piece's values on that piece. Pieces of the result whose contents agree, each on its own
  elements, with one function g are the result held at g.
-/
import proofs.«900022_g7700000000000023_dist_a2a_v7x_xy2x2_x_m8192_n1024_bf16_1_alg».proof.Proof.BGeometry
import proofs.«900022_g7700000000000023_dist_a2a_v7x_xy2x2_x_m8192_n1024_bf16_1_alg».proof.Proof.BGhost
import Idealize.ShloMosaic.Rules.PointsTo
import Idealize.SL.ProofMode.BigOp

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig Unit (Elt F) ℕ UU ℕ

/-! ## The two halves of the full share -/

omit [FloatOps F] in
theorem halves_join {ℓ : Loc nD τ sig} {S : Finset (Idx ℓ)} (f : Buf (Elt F) ℓ) :
    iprop((ℓ ↦[S]{fullShare.left} f) ∗ (ℓ ↦[S]{fullShare.right} f)) ⊢ (ℓ ↦[S]{fullShare} f : sProp 𝕄) :=
  (pointsTo_share (PosShare.mem_left_op_right fullShare)).2

omit [FloatOps F] in
theorem halves_split {ℓ : Loc nD τ sig} {S : Finset (Idx ℓ)} (f : Buf (Elt F) ℓ) :
    (ℓ ↦[S]{fullShare} f : sProp 𝕄) ⊢ iprop((ℓ ↦[S]{fullShare.left} f) ∗ (ℓ ↦[S]{fullShare.right} f)) :=
  (pointsTo_share (PosShare.mem_left_op_right fullShare)).1

omit [FloatOps F] in
/-- The same for the two halves of any share q. -/
theorem share_split {ℓ : Loc nD τ sig} {S : Finset (Idx ℓ)} (q : PosShare TreeShare) (f : Buf (Elt F) ℓ) :
    (ℓ ↦[S]{q} f : sProp 𝕄) ⊢ iprop((ℓ ↦[S]{q.left} f) ∗ (ℓ ↦[S]{q.right} f)) :=
  (pointsTo_share (PosShare.mem_left_op_right q)).1

omit [FloatOps F] in
theorem share_join {ℓ : Loc nD τ sig} {S : Finset (Idx ℓ)} (q : PosShare TreeShare) (f : Buf (Elt F) ℓ) :
    iprop((ℓ ↦[S]{q.left} f) ∗ (ℓ ↦[S]{q.right} f)) ⊢ (ℓ ↦[S]{q} f : sProp 𝕄) :=
  (pointsTo_share (PosShare.mem_left_op_right q)).2

/-! ## Pieces at contents of their own -/

/-- Finitely many pairwise disjoint pieces K k with union S, each held at some contents: S held at some contents. -/
theorem pieces_join_some {n : Nat} (ℓ : Loc nD τ sig) (S : Finset (Idx ℓ)) (K : Fin n → Finset (Idx ℓ))
    (hS : S = Finset.univ.biUnion K) (hK : ∀ t t', t ≠ t' → Disjoint (K t) (K t')) :
    (bigSep Finset.univ fun k : Fin n => iprop(∃ f, ℓ ↦[K k]{fullShare} f) : sProp 𝕄)
      ⊢ iprop(∃ g, ℓ ↦[S]{fullShare} g) := by
  subst hS
  have f₀ : Buf (Elt F) ℓ := fun _ => default
  have hne : ∀ _ : Fin n, Nonempty (Buf (Elt F) ℓ) := fun _ => ⟨f₀⟩
  refine (bigSep_exists_pi (Y := fun _ : Fin n => Buf (Elt F) ℓ) Finset.univ
    (fun (k : Fin n) (f : Buf (Elt F) ℓ) => (ℓ ↦[K k]{fullShare} f : sProp 𝕄))).trans ?_
  iintro ⟨%fs, H⟩
  ihave H' := (pointsTo_biUnion_join Finset.univ K fs f₀ (fun t _ t' _ h => hK t t' h)) $$ H
  icases H' with ⟨%g, -, H'⟩
  iexists g
  iexact H'

/-- The 32 chunks of a 32 x 128 x 1024 buffer, each over some contents, are the buffer over some contents. -/
theorem join32_some {e : EltTy} (M : Memref sig .tc .vmem S32x128x1024 e) (c : Dev nD) :
    (bigSep Finset.univ fun k : Fin 32 =>
        iprop(∃ f, (sl3 M k).view.loc (c : Thread nD τ) ↦[(sl3 M k).view.set]{fullShare} f) : sProp 𝕄)
      ⊢ someBuf M c :=
  pieces_join_some (M.view.loc (c : Thread nD τ)) M.view.set (fun k : Fin 32 => (sl3 M k).view.set)
    (sl3_cover M) (sl3_disjoint M)

/-- The 2 halves of the 2 x 1024 x 1024 buffer, each over some contents, are the buffer over some contents. -/
theorem join2_some (c : Dev nD) :
    (bigSep Finset.univ fun k : Fin 2 =>
        iprop(∃ f, (el2 k).view.loc (c : Thread nD τ) ↦[(el2 k).view.set]{fullShare} f) : sProp 𝕄)
      ⊢ someBuf elM c :=
  pieces_join_some (elM.view.loc (c : Thread nD τ)) elM.view.set (fun k : Fin 2 => (el2 k).view.set)
    el2_cover el2_disjoint

/-! ## The result from its 65 pieces -/

/-- The 65 pieces of the result at the same contents are the result. -/
theorem outJoin (c : Dev nD) (f : Buf (Elt F) (oM.view.loc (c : Thread nD τ))) :
    iprop((bigSep Finset.univ fun k : Fin 32 => ((oX c k).view.loc (c : Thread nD τ) ↦[(oX c k).view.set]{fullShare} f))
          ∗ (bigSep Finset.univ fun k : Fin 32 => ((oY c k).view.loc (c : Thread nD τ) ↦[(oY c k).view.set]{fullShare} f))
          ∗ ((oOwn c).view.loc (c : Thread nD τ) ↦[(oOwn c).view.set]{fullShare} f))
      ⊢ (oM.view.loc (c : Thread nD τ) ↦[oM.view.set]{fullShare} f : sProp 𝕄) :=
  Entails.of_eq (splitOut c f).symm

/-- The 65 pieces of the result, each at contents that agree with g on the piece, are the result at g. -/
theorem outJoin_of (c : Dev nD) (g : Buf (Elt F) (oM.view.loc (c : Thread nD τ)))
    (fX fY : Fin 32 → Buf (Elt F) (oM.view.loc (c : Thread nD τ))) (fO : Buf (Elt F) (oM.view.loc (c : Thread nD τ)))
    (hX : ∀ k, ∀ i ∈ (oX c k).view.set, fX k i = g i) (hY : ∀ k, ∀ i ∈ (oY c k).view.set, fY k i = g i)
    (hO : ∀ i ∈ (oOwn c).view.set, fO i = g i) :
    iprop((bigSep Finset.univ fun k : Fin 32 => ((oX c k).view.loc (c : Thread nD τ) ↦[(oX c k).view.set]{fullShare} fX k))
          ∗ (bigSep Finset.univ fun k : Fin 32 => ((oY c k).view.loc (c : Thread nD τ) ↦[(oY c k).view.set]{fullShare} fY k))
          ∗ ((oOwn c).view.loc (c : Thread nD τ) ↦[(oOwn c).view.set]{fullShare} fO))
      ⊢ (oM.view.loc (c : Thread nD τ) ↦[oM.view.set]{fullShare} g : sProp 𝕄) := by
  have eX : (bigSep Finset.univ fun k : Fin 32 => ((oX c k).view.loc (c : Thread nD τ) ↦[(oX c k).view.set]{fullShare} fX k) : sProp 𝕄)
      = bigSep Finset.univ fun k : Fin 32 => ((oX c k).view.loc (c : Thread nD τ) ↦[(oX c k).view.set]{fullShare} g) :=
    bigSep_congr fun k _ => pointsTo_congr (hX k)
  have eY : (bigSep Finset.univ fun k : Fin 32 => ((oY c k).view.loc (c : Thread nD τ) ↦[(oY c k).view.set]{fullShare} fY k) : sProp 𝕄)
      = bigSep Finset.univ fun k : Fin 32 => ((oY c k).view.loc (c : Thread nD τ) ↦[(oY c k).view.set]{fullShare} g) :=
    bigSep_congr fun k _ => pointsTo_congr (hY k)
  have eO : ((oOwn c).view.loc (c : Thread nD τ) ↦[(oOwn c).view.set]{fullShare} fO : sProp 𝕄)
      = ((oOwn c).view.loc (c : Thread nD τ) ↦[(oOwn c).view.set]{fullShare} g) := pointsTo_congr hO
  rw [eX, eY, eO]
  exact outJoin c g

/-- info: 'Cert.Kernel.Hand.join32_some' depends on axioms: [propext, Classical.choice, Quot.sound] -/
#guard_msgs in #print axioms join32_some

/-- info: 'Cert.Kernel.Hand.join2_some' depends on axioms: [propext, Classical.choice, Quot.sound] -/
#guard_msgs in #print axioms join2_some

/-- info: 'Cert.Kernel.Hand.outJoin_of' depends on axioms: [propext, Classical.choice, Quot.sound] -/
#guard_msgs in #print axioms outJoin_of

/-- info: 'Cert.Kernel.Hand.halves_join' depends on axioms: [propext, Classical.choice, Quot.sound] -/
#guard_msgs in #print axioms halves_join

end Cert.Kernel.Hand

end
-- ==== Proof.BRunVal.lean ====
/-
  The values the copies and stores leave, stated over the terms a step-by-step run of the body produces.

  A buffer written once through the whole of a view holds the payload under the view; a transfer that moves its
  source as it is moves what the source's view reads. So chunk k of the staging buffer, after chunk k of the load
  buffer has received rows 4096 y + 128 k .. of the device's block (columns 1024 (1 - x) ..), been read back, changed
  to the narrow format and stored, holds what the device stages for its column mate; and a piece of the result
  written from the received chunk holds the result's rows there.
-/
import proofs.«900022_g7700000000000023_dist_a2a_v7x_xy2x2_x_m8192_n1024_bf16_1_alg».proof.Proof.BCopyVal
import Idealize.ShloMosaic.Lib.Writes
import Idealize.ShloMosaic.Lib.Exec.Geometry

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ)

/-! ## One write through the whole of a view -/

omit [FloatOps F] in
/-- A transfer that moves its source as it is moves what is read. -/
theorem readAs_same_apply {s : Shape} {e : EltTy} (x : s.Idx → Elt F e) :
    (ReadAs.same : ReadAs (Elt F) s e s e).apply x = x := rfl

omit [FloatOps F] in
/-- One write of p through the whole rectangle of a view is p written through the view. -/
theorem writes_whole {κ : Kind} {sp : Space} {s : Shape} {e : EltTy} (v : View sig κ sp s e)
    (f : v.ty.Contents (Elt F)) (p : s.Idx → Elt F e) :
    v.writes (Elt F) f [⟨Rect.whole s, p⟩] = v.write (Elt F) f p Finset.univ := by
  funext i
  show (v.slice (Rect.whole s)).write (Elt F) f p Finset.univ i = v.write (Elt F) f p Finset.univ i
  have hset : (v.slice (Rect.whole s)).set = v.set := by rw [View.set_slice, Rect.set_whole]; rfl
  by_cases hi : i ∈ v.set
  · obtain ⟨y, rfl⟩ := View.exists_emb_of_mem_set v hi
    have e1 : (v.slice (Rect.whole s)).emb y = v.emb y := by
      show v.emb ((Rect.whole s).emb y) = v.emb y
      rw [Rect.emb_whole_apply]
    rw [View.write_emb_of_mem _ _ (Finset.mem_univ y), ← e1, View.write_emb_of_mem _ _ (Finset.mem_univ y)]
  · rw [View.write_of_not_mem _ _ _ (by rw [View.setOn_univ, hset]; exact hi),
      View.write_of_not_mem _ _ _ (by rw [View.setOn_univ]; exact hi)]

omit [FloatOps F] in
/-- On the view's own elements: the element under y holds p y. -/
theorem writes_whole_emb {κ : Kind} {sp : Space} {s : Shape} {e : EltTy} (v : View sig κ sp s e)
    (f : v.ty.Contents (Elt F)) (p : s.Idx → Elt F e) (y : s.Idx) :
    v.read (Elt F) (v.writes (Elt F) f [⟨Rect.whole s, p⟩]) y = p y :=
  congrFun (View.read_writes_whole v f p) y

/-! ## The staged chunk -/

theorem sendC_val (c : Dev nD) (i : S32x128x1024.Idx) (a b d : Nat)
    (h0 : (i 0).val = a) (h1 : (i 1).val = b) (h2 : (i 2).val = d) :
    sendC m c i = tr (xAt m c (4096 * cy c + 128 * a + b) (1024 * (1 - cx c) + d)) := by
  subst h0 h1 h2; rfl

omit [FloatOps F] in
/-- A 1 x 128 x 1024 index (0, a, b) is the 128 x 1024 index (a, b) with the unit axis put back. -/
theorem squeeze_idx_symm (h : S128x1024.numel = S1x128x1024.numel) (j : S1x128x1024.Idx) :
    Shape.reshapeEquiv (s := S1x128x1024) (s' := S128x1024) h (ix2 (j 1 : Fin 128) (j 2 : Fin 1024)) = j := by
  rw [squeeze_idx]
  have h0 : (j 0).val < 1 := (j 0).isLt
  funext a
  match a with
  | ⟨0, _⟩ => exact Fin.ext (show 0 = (j 0).val by omega)
  | ⟨1, _⟩ => rfl
  | ⟨2, _⟩ => rfl

/-- Chunk k of the load buffer, written once with rows 4096 y + 128 k .. of the device's block, read back through
    the whole buffer's rectangle k: element (0, a, b) is the block's element (4096 y + 128 k + a, 1024 (1 - x) + b). -/
theorem loaded_val (c : Dev nD) (k : Fin 32) (j : S1x128x1024.Idx) :
    View.readAt (Elt F) slM.view (Rect.unit (s := S32x128x1024) ![k.val, 0, 0] S1x128x1024.size (inb3 k)).toLoadRect
        ((sl3 slM k).view.writes (Elt F) (sl3 slM k).view.junk
          [⟨Rect.whole S128x1024, ReadAs.same.apply (View.read (Elt F) (xSl c k).view (X m c))⟩]) j
      = xAt m c (4096 * cy c + 128 * k.val + (j 1).val) (1024 * (1 - cx c) + (j 2).val) := by
  have hy := squeeze_idx_symm squeezes_S1x128x1024_S128x1024.numel_eq j
  have h1 : ∀ G : (sl3 slM k).view.ty.Contents (Elt F),
      View.readAt (Elt F) slM.view (Rect.unit (s := S32x128x1024) ![k.val, 0, 0] S1x128x1024.size (inb3 k)).toLoadRect G j
        = (sl3 slM k).view.read (Elt F) G (ix2 (j 1 : Fin 128) (j 2 : Fin 1024)) := by
    intro G
    show (slM.view.slice (r3 k)).read (Elt F) G j
      = (slM.view.slice (r3 k)).read (Elt F) G (Shape.reshapeEquiv squeezes_S1x128x1024_S128x1024.numel_eq (ix2 (j 1 : Fin 128) (j 2 : Fin 1024)))
    rw [hy]
  rw [h1, writes_whole_emb]
  obtain ⟨e0, e1⟩ := xSl_val c k (ix2 (j 1 : Fin 128) (j 2 : Fin 1024))
  have e0' : (((xSl c k).view.emb (ix2 (j 1 : Fin 128) (j 2 : Fin 1024)) : S8192x2048.Idx) 0).val
      = 4096 * (c.val % 2) + 128 * k.val + (j 1).val := e0
  have e1' : (((xSl c k).view.emb (ix2 (j 1 : Fin 128) (j 2 : Fin 1024)) : S8192x2048.Idx) 1).val
      = 1024 - 1024 * (c.val / 2) + (j 2).val := e1
  have hc : c.val < 4 := c.isLt
  refine Eq.trans (b := X m c ((xSl c k).view.emb (ix2 (j 1 : Fin 128) (j 2 : Fin 1024)))) rfl ?_
  refine Eq.trans (X_eq_xAt m c _ _ _ e0' e1') ?_
  exact xAt_congr m c (by unfold cy; omega) (by unfold cx; omega)

omit [FloatOps F] in
/-- The element of rectangle k of a whole 32 x 128 x 1024 buffer under (u, a, b) is (k, a, b). -/
theorem sb_access_val (k : Fin 32) (j : S1x128x1024.Idx) :
    (((sbM.access (Rect.unit (s := S32x128x1024) ![k.val, 0, 0] S1x128x1024.size (inb3 k))).emb j : S32x128x1024.Idx) 0).val = k.val
      ∧ (((sbM.access (Rect.unit (s := S32x128x1024) ![k.val, 0, 0] S1x128x1024.size (inb3 k))).emb j : S32x128x1024.Idx) 1).val = (j 1).val
      ∧ (((sbM.access (Rect.unit (s := S32x128x1024) ![k.val, 0, 0] S1x128x1024.size (inb3 k))).emb j : S32x128x1024.Idx) 2).val = (j 2).val := by
  have h0 : (j 0).val < 1 := (j 0).isLt
  refine ⟨?_, ?_, ?_⟩
  · show k.val + 1 * (j 0).val = k.val; omega
  · show 0 + 1 * (j 1).val = (j 1).val; omega
  · show 0 + 1 * (j 2).val = (j 2).val; omega

/-- Chunk k of the staging buffer after the load, the change of format and the store: what the device stages for
    its column mate. -/
theorem staged_val (c : Dev nD) (k : Fin 32) (h0 : Buf (Elt F) (sbM.view.loc (c : Thread nD τ))) :
    ∀ i ∈ (sl3 sbM k).view.set,
      View.write (Elt F) (sbM.access (Rect.unit (s := S32x128x1024) ![k.val, 0, 0] S1x128x1024.size (inb3 k))) h0
        (stageG (View.readAt (Elt F) slM.view (Rect.unit (s := S32x128x1024) ![k.val, 0, 0] S1x128x1024.size (inb3 k)).toLoadRect
          ((sl3 slM k).view.writes (Elt F) (sl3 slM k).view.junk
            [⟨Rect.whole S128x1024, ReadAs.same.apply (View.read (Elt F) (xSl c k).view (X m c))⟩])))
        Finset.univ i = sendC m c i := by
  intro i hi
  have hs : (sl3 sbM k).view.set
      = (sbM.access (Rect.unit (s := S32x128x1024) ![k.val, 0, 0] S1x128x1024.size (inb3 k))).set := View.set_reshape _ _
  rw [hs] at hi
  obtain ⟨j, rfl⟩ := View.exists_emb_of_mem_set _ hi
  rw [View.write_emb_of_mem _ _ (Finset.mem_univ j)]
  obtain ⟨c0, c1, c2⟩ := sb_access_val k j
  refine Eq.trans ?_ (sendC_val m c _ _ _ _ c0 c1 c2).symm
  refine Eq.trans (b := tr (View.readAt (Elt F) slM.view (Rect.unit (s := S32x128x1024) ![k.val, 0, 0] S1x128x1024.size (inb3 k)).toLoadRect
          ((sl3 slM k).view.writes (Elt F) (sl3 slM k).view.junk
            [⟨Rect.whole S128x1024, ReadAs.same.apply (View.read (Elt F) (xSl c k).view (X m c))⟩]) j)) (stageG_apply _ j) ?_
  rw [loaded_val]

/-! ## A piece of the result written from the received chunk -/

/-- Over any earlier contents f: the piece holds the device's result there; -/
theorem fstored_val (c : Dev nD) (k : Fin 32) (f : Buf (Elt F) ((oX c k).view.loc (c : Thread nD τ))) :
    ∀ i ∈ (oX c k).view.set,
      (oX c k).view.writes (Elt F) f
        [⟨Rect.whole S128x1024, ReadAs.same.apply (View.read (Elt F) (sl3 rbM k).view (recvC m c))⟩] i = outC m c i := by
  intro i hi
  rw [writes_whole]
  exact fst_val m c k f i hi

/-- the same piece of the row mate's result holds the row mate's result there. -/
theorem fwdstored_val (c : Dev nD) (k : Fin 32) (f : Buf (Elt F) ((oX c k).view.loc (yp c : Thread nD τ))) :
    ∀ i ∈ (oX c k).view.set,
      (oX c k).view.writes (Elt F) f
        [⟨Rect.whole S128x1024, ReadAs.same.apply (View.read (Elt F) (sl3 rbM k).view (recvC m c))⟩] i = outC m (yp c) i := by
  intro i hi
  rw [writes_whole]
  exact fwd_val m c k f i hi

/-- Over junk. -/
theorem fstored_val_junk (c : Dev nD) (k : Fin 32) :
    ∀ i ∈ (oX c k).view.set,
      (oX c k).view.writes (Elt F) (oX c k).view.junk
        [⟨Rect.whole S128x1024, ReadAs.same.apply (View.read (Elt F) (sl3 rbM k).view (recvC m c))⟩] i = outC m c i :=
  fstored_val m c k _

/-- info: 'Cert.Kernel.Hand.staged_val' depends on axioms: [propext, Classical.choice, Quot.sound] -/
#guard_msgs in #print axioms staged_val

/-- info: 'Cert.Kernel.Hand.fstored_val' depends on axioms: [propext, Classical.choice, Quot.sound] -/
#guard_msgs in #print axioms fstored_val

/-- info: 'Cert.Kernel.Hand.fwdstored_val' depends on axioms: [propext, Classical.choice, Quot.sound] -/
#guard_msgs in #print axioms fwdstored_val

end Cert.Kernel.Hand

end
-- ==== Proof.BOwnVal.lean ====
/-
  The device's own rows.

  For t = 0, ..., 7 the rows 1024 t .. 1024 t + 1023 of the device's block, columns 1024 x .. (x the device's column),
  are copied into half t % 2 of the 2 x 1024 x 1024 buffer, read back, changed to the narrow format and stored at
  rows 1024 t .. of the 8192 x 1024 buffer; that buffer is then copied to the device's own rows of the result. Each
  read of a half sees the copy made last into it, whatever was copied there before. So the 8192 x 1024 buffer ends
  holding, at (r, j), the narrow format of the block's element (r, 1024 x + j), and the own rows of the result are
  the result there.
-/
import proofs.«900022_g7700000000000023_dist_a2a_v7x_xy2x2_x_m8192_n1024_bf16_1_alg».proof.Proof.BRunVal

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ)

/-! ## The terms -/

/-- What a copy from the 1024 x 1024 piece of the device's block at offsets off moves. -/
abbrev ownSrc (c : Dev nD) (off : Fin 2 → Nat) (hoff : ∀ a, off a + S1024x1024.size a ≤ S8192x2048.size a) :
    S1024x1024.Idx → Elt F .f32 :=
  ReadAs.same.apply (View.read (Elt F) (xM.slice (Rect.unit (s := S8192x2048) off S1024x1024.size hoff) (fun _ => rfl)).view (X m c))

/-- What is read back from half 0, and from half 1, after the copies T into it (the last copy first). -/
abbrev ownLd0 (T : List (View.Piece (Elt F) S1024x1024 .f32)) : Vec F S1x1024x1024 .f32 :=
  View.readAt (Elt F) elM.view (Rect.unit (s := S2x1024x1024) ![0, 0, 0] S1x1024x1024.size inb_S2x1024x1024_S1x1024x1024_0_0_0).toLoadRect
    ((el2 0).view.writes (Elt F) (el2 0).view.junk T)
abbrev ownLd1 (T : List (View.Piece (Elt F) S1024x1024 .f32)) : Vec F S1x1024x1024 .f32 :=
  View.readAt (Elt F) elM.view (Rect.unit (s := S2x1024x1024) ![1, 0, 0] S1x1024x1024.size inb_S2x1024x1024_S1x1024x1024_1_0_0).toLoadRect
    ((el2 1).view.writes (Elt F) (el2 1).view.junk T)

/-- The eight stores into the 8192 x 1024 buffer, the last first. -/
def ownStores (c : Dev nD) : List (View.Piece (Elt F) S8192x1024 .bf16) :=
  [⟨Rect.unit (s := S8192x1024) ![7168, 0] S1024x1024.size inb_S8192x1024_S1024x1024_7168_0, k0_pay46 (k0_pay45 (ownLd1 (F := F) [⟨Rect.whole S1024x1024, ownSrc m c (k0_off10 c) (k0_off10_inb c)⟩, ⟨Rect.whole S1024x1024, ownSrc m c (k0_off8 c) (k0_off8_inb c)⟩, ⟨Rect.whole S1024x1024, ownSrc m c (k0_off6 c) (k0_off6_inb c)⟩, ⟨Rect.whole S1024x1024, ownSrc m c (k0_off4 c) (k0_off4_inb c)⟩]))⟩,
   ⟨Rect.unit (s := S8192x1024) ![6144, 0] S1024x1024.size inb_S8192x1024_S1024x1024_6144_0, k0_pay44 (ownLd0 (F := F) [⟨Rect.whole S1024x1024, ownSrc m c (k0_off9 c) (k0_off9_inb c)⟩, ⟨Rect.whole S1024x1024, ownSrc m c (k0_off7 c) (k0_off7_inb c)⟩, ⟨Rect.whole S1024x1024, ownSrc m c (k0_off5 c) (k0_off5_inb c)⟩, ⟨Rect.whole S1024x1024, ownSrc m c (k0_off2 c) (k0_off2_inb c)⟩])⟩,
   ⟨Rect.unit (s := S8192x1024) ![5120, 0] S1024x1024.size inb_S8192x1024_S1024x1024_5120_0, k0_pay43 (ownLd1 (F := F) [⟨Rect.whole S1024x1024, ownSrc m c (k0_off8 c) (k0_off8_inb c)⟩, ⟨Rect.whole S1024x1024, ownSrc m c (k0_off6 c) (k0_off6_inb c)⟩, ⟨Rect.whole S1024x1024, ownSrc m c (k0_off4 c) (k0_off4_inb c)⟩])⟩,
   ⟨Rect.unit (s := S8192x1024) ![4096, 0] S1024x1024.size inb_S8192x1024_S1024x1024_4096_0, k0_pay42 (ownLd0 (F := F) [⟨Rect.whole S1024x1024, ownSrc m c (k0_off7 c) (k0_off7_inb c)⟩, ⟨Rect.whole S1024x1024, ownSrc m c (k0_off5 c) (k0_off5_inb c)⟩, ⟨Rect.whole S1024x1024, ownSrc m c (k0_off2 c) (k0_off2_inb c)⟩])⟩,
   ⟨Rect.unit (s := S8192x1024) ![3072, 0] S1024x1024.size inb_S8192x1024_S1024x1024_3072_0, k0_pay41 (k0_pay40 (ownLd1 (F := F) [⟨Rect.whole S1024x1024, ownSrc m c (k0_off6 c) (k0_off6_inb c)⟩, ⟨Rect.whole S1024x1024, ownSrc m c (k0_off4 c) (k0_off4_inb c)⟩]))⟩,
   ⟨Rect.unit (s := S8192x1024) ![2048, 0] S1024x1024.size inb_S8192x1024_S1024x1024_2048_0, k0_pay39 (ownLd0 (F := F) [⟨Rect.whole S1024x1024, ownSrc m c (k0_off5 c) (k0_off5_inb c)⟩, ⟨Rect.whole S1024x1024, ownSrc m c (k0_off2 c) (k0_off2_inb c)⟩])⟩,
   ⟨Rect.unit (s := S8192x1024) ![1024, 0] S1024x1024.size inb_S8192x1024_S1024x1024_1024_0, k0_pay38 (ownLd1 (F := F) [⟨Rect.whole S1024x1024, ownSrc m c (k0_off4 c) (k0_off4_inb c)⟩])⟩,
   ⟨Rect.unit (s := S8192x1024) ![0, 0] S1024x1024.size inb_S8192x1024_S1024x1024_0_0, k0_pay37 (ownLd0 (F := F) [⟨Rect.whole S1024x1024, ownSrc m c (k0_off2 c) (k0_off2_inb c)⟩])⟩]

/-- The 8192 x 1024 buffer after the eight stores, over earlier contents flv. -/
def ownL (c : Dev nD) (flv : Buf (Elt F) (lvM.view.loc (c : Thread nD τ))) : Buf (Elt F) (lvM.view.loc (c : Thread nD τ)) :=
  lvM.view.writes (Elt F) flv (ownStores m c)

/-! ## One step -/

omit [FloatOps F] in
/-- A 1024 x 1024 index (a, b), read as an index of the 1 x 1024 x 1024 shape, is (0, a, b). -/
theorem el_idx (h : S1024x1024.numel = S1x1024x1024.numel) (x : S1024x1024.Idx) :
    Shape.reshapeEquiv (s := S1x1024x1024) (s' := S1024x1024) h x
      = (ix3 (0 : Fin 1) (x 0 : Fin 1024) (x 1 : Fin 1024) : S1x1024x1024.Idx) :=
  Shape.reshapeEquiv_eq_of_rowMajor h (by
    have e3 := Shape.rowMajor_val_three (d := ![1, 1024, 1024]) (ix3 (0 : Fin 1) (x 0 : Fin 1024) (x 1 : Fin 1024))
    have e2 := Shape.rowMajor_val_two (d := ![1024, 1024]) x
    refine e3.trans (Eq.trans ?_ e2.symm)
    show (0 * 1024 + (x 0).val) * 1024 + (x 1).val = (x 0).val * 1024 + (x 1).val
    omega)

/-- Half h read back after a copy of the block's rows row .. row + 1023, columns 1024 x .., made last into it, and
    changed to the narrow format: element (a, b) is the narrow format of the block's element (row + a, 1024 x + b). -/
theorem eload_step (c : Dev nD) (h : Fin 2) (row : Nat) (off : Fin 2 → Nat)
    (hoff : ∀ a, off a + S1024x1024.size a ≤ S8192x2048.size a) (heq : off = ![row, 1024 * (c.val / 2)])
    (hrow : row + 1024 ≤ 8192) (T : List (View.Piece (Elt F) S1024x1024 .f32)) (x : S1024x1024.Idx) :
    stageE (View.readAt (Elt F) elM.view (Rect.unit (s := S2x1024x1024) ![h.val, 0, 0] S1x1024x1024.size (inb2 h)).toLoadRect
        ((el2 h).view.writes (Elt F) (el2 h).view.junk (⟨Rect.whole S1024x1024, ownSrc m c off hoff⟩ :: T))) x
      = tr (xAt m c (row + (x 0).val) (1024 * cx c + (x 1).val)) := by
  subst heq
  rw [stageE_apply]
  congr 1
  have hy := el_idx squeezes_S1x1024x1024_S1024x1024.numel_eq x
  have h1 : ∀ G : (el2 h).view.ty.Contents (Elt F),
      View.readAt (Elt F) elM.view (Rect.unit (s := S2x1024x1024) ![h.val, 0, 0] S1x1024x1024.size (inb2 h)).toLoadRect G
          (ix3 (0 : Fin 1) (x 0 : Fin 1024) (x 1 : Fin 1024))
        = (el2 h).view.read (Elt F) G x := by
    intro G
    show (elM.view.slice (r2 h)).read (Elt F) G (ix3 (0 : Fin 1) (x 0 : Fin 1024) (x 1 : Fin 1024))
      = (elM.view.slice (r2 h)).read (Elt F) G (Shape.reshapeEquiv squeezes_S1x1024x1024_S1024x1024.numel_eq x)
    rw [hy]
  have h2 := View.read_writes_cons_emb (el2 h).view ((el2 h).view.junk (Val := Elt F)) (Rect.whole S1024x1024)
    (ownSrc m c ![row, 1024 * (c.val / 2)] hoff) T x
  rw [Rect.emb_whole_apply] at h2
  rw [h1, h2]
  have e : ∀ a : Fin 2, (((xM.slice (Rect.unit (s := S8192x2048) ![row, 1024 * (c.val / 2)] S1024x1024.size hoff) (fun _ => rfl)).view.emb x
      : S8192x2048.Idx) a).val = (![row, 1024 * (c.val / 2)] : Fin 2 → Nat) a + 1 * (x a).val := fun a => rfl
  have e0 : (((xM.slice (Rect.unit (s := S8192x2048) ![row, 1024 * (c.val / 2)] S1024x1024.size hoff) (fun _ => rfl)).view.emb x
      : S8192x2048.Idx) 0).val = row + (x 0).val :=
    (e 0).trans (by show row + 1 * (x 0).val = _; omega)
  have e1 : (((xM.slice (Rect.unit (s := S8192x2048) ![row, 1024 * (c.val / 2)] S1024x1024.size hoff) (fun _ => rfl)).view.emb x
      : S8192x2048.Idx) 1).val = 1024 * (c.val / 2) + (x 1).val :=
    (e 1).trans (by show 1024 * (c.val / 2) + 1 * (x 1).val = _; omega)
  refine Eq.trans (b := X m c ((xM.slice (Rect.unit (s := S8192x2048) ![row, 1024 * (c.val / 2)] S1024x1024.size hoff) (fun _ => rfl)).view.emb x)) rfl ?_
  refine Eq.trans (X_eq_xAt m c _ _ _ e0 e1) ?_
  exact xAt_congr m c rfl (by unfold cx; rfl)

/-- What the 8192 x 1024 buffer is to hold. -/
def lvG (c : Dev nD) : S8192x1024.Idx → Elt F .bf16 := fun y => tr (xAt m c (y 0).val (1024 * cx c + (y 1).val))

/-- A store of such a half at rows row .. agrees with it. -/
theorem own_piece (c : Dev nD) (h : Fin 2) (row : Nat) (off : Fin 2 → Nat)
    (hoff : ∀ a, off a + S1024x1024.size a ≤ S8192x2048.size a) (heq : off = ![row, 1024 * (c.val / 2)])
    (hrow : row + 1024 ≤ 8192) (hinb : ∀ a, (![row, 0] : Fin 2 → Nat) a + S1024x1024.size a ≤ S8192x1024.size a)
    (T : List (View.Piece (Elt F) S1024x1024 .f32)) :
    ∀ x : (Rect.unit (s := S8192x1024) ![row, 0] S1024x1024.size hinb).shape.Idx,
      stageE (View.readAt (Elt F) elM.view (Rect.unit (s := S2x1024x1024) ![h.val, 0, 0] S1x1024x1024.size (inb2 h)).toLoadRect
          ((el2 h).view.writes (Elt F) (el2 h).view.junk (⟨Rect.whole S1024x1024, ownSrc m c off hoff⟩ :: T))) x
        = lvG m c ((Rect.unit (s := S8192x1024) ![row, 0] S1024x1024.size hinb).emb x) := by
  intro x
  refine (eload_step m c h row off hoff heq hrow T x).trans ?_
  show tr (xAt m c (row + (x 0).val) (1024 * cx c + (x 1).val))
    = tr (xAt m c (row + 1 * (x 0).val) (1024 * cx c + (0 + 1 * (x 1).val)))
  congr 1
  exact xAt_congr m c (by omega) (by omega)

omit [FloatOps F] in
theorem mem_lvrect (row : Nat) (hinb : ∀ a, (![row, 0] : Fin 2 → Nat) a + S1024x1024.size a ≤ S8192x1024.size a)
    (y : S8192x1024.Idx) (hy : row ≤ (y 0).val ∧ (y 0).val < row + 1024) :
    y ∈ (Rect.unit (s := S8192x1024) ![row, 0] S1024x1024.size hinb).set := by
  rw [Rect.mem_set_unit]
  have h1 : (y 1).val < 1024 := (y 1).isLt
  intro a; fin_cases a
  · exact hy
  · show 0 ≤ (y 1).val ∧ (y 1).val < 0 + 1024; omega

/-! ## The eight steps -/

theorem own_piece0 (c : Dev nD) : ∀ x : S1024x1024.Idx,
    (k0_pay37 (ownLd0 (F := F) [⟨Rect.whole S1024x1024, ownSrc m c (k0_off2 c) (k0_off2_inb c)⟩])) x
      = lvG m c ((Rect.unit (s := S8192x1024) ![0, 0] S1024x1024.size inb_S8192x1024_S1024x1024_0_0).emb x) := by
  intro x
  rw [k0_pay37_eq]
  exact own_piece m c 0 0 (k0_off2 c) (k0_off2_inb c) (k0_off2_eq c) (by omega)
    inb_S8192x1024_S1024x1024_0_0 _ x

theorem own_piece1 (c : Dev nD) : ∀ x : S1024x1024.Idx,
    (k0_pay38 (ownLd1 (F := F) [⟨Rect.whole S1024x1024, ownSrc m c (k0_off4 c) (k0_off4_inb c)⟩])) x
      = lvG m c ((Rect.unit (s := S8192x1024) ![1024, 0] S1024x1024.size inb_S8192x1024_S1024x1024_1024_0).emb x) := by
  intro x
  rw [k0_pay38_eq]
  exact own_piece m c 1 1024 (k0_off4 c) (k0_off4_inb c) (k0_off4_eq c) (by omega)
    inb_S8192x1024_S1024x1024_1024_0 _ x

theorem own_piece2 (c : Dev nD) : ∀ x : S1024x1024.Idx,
    (k0_pay39 (ownLd0 (F := F) [⟨Rect.whole S1024x1024, ownSrc m c (k0_off5 c) (k0_off5_inb c)⟩, ⟨Rect.whole S1024x1024, ownSrc m c (k0_off2 c) (k0_off2_inb c)⟩])) x
      = lvG m c ((Rect.unit (s := S8192x1024) ![2048, 0] S1024x1024.size inb_S8192x1024_S1024x1024_2048_0).emb x) := by
  intro x
  rw [k0_pay39_eq]
  exact own_piece m c 0 2048 (k0_off5 c) (k0_off5_inb c) (k0_off5_eq c) (by omega)
    inb_S8192x1024_S1024x1024_2048_0 _ x

theorem own_piece3 (c : Dev nD) : ∀ x : S1024x1024.Idx,
    (k0_pay41 (k0_pay40 (ownLd1 (F := F) [⟨Rect.whole S1024x1024, ownSrc m c (k0_off6 c) (k0_off6_inb c)⟩, ⟨Rect.whole S1024x1024, ownSrc m c (k0_off4 c) (k0_off4_inb c)⟩]))) x
      = lvG m c ((Rect.unit (s := S8192x1024) ![3072, 0] S1024x1024.size inb_S8192x1024_S1024x1024_3072_0).emb x) := by
  intro x
  rw [k0_pay41_40_eq]
  exact own_piece m c 1 3072 (k0_off6 c) (k0_off6_inb c) (k0_off6_eq c) (by omega)
    inb_S8192x1024_S1024x1024_3072_0 _ x

theorem own_piece4 (c : Dev nD) : ∀ x : S1024x1024.Idx,
    (k0_pay42 (ownLd0 (F := F) [⟨Rect.whole S1024x1024, ownSrc m c (k0_off7 c) (k0_off7_inb c)⟩, ⟨Rect.whole S1024x1024, ownSrc m c (k0_off5 c) (k0_off5_inb c)⟩, ⟨Rect.whole S1024x1024, ownSrc m c (k0_off2 c) (k0_off2_inb c)⟩])) x
      = lvG m c ((Rect.unit (s := S8192x1024) ![4096, 0] S1024x1024.size inb_S8192x1024_S1024x1024_4096_0).emb x) := by
  intro x
  rw [k0_pay42_eq]
  exact own_piece m c 0 4096 (k0_off7 c) (k0_off7_inb c) (k0_off7_eq c) (by omega)
    inb_S8192x1024_S1024x1024_4096_0 _ x

theorem own_piece5 (c : Dev nD) : ∀ x : S1024x1024.Idx,
    (k0_pay43 (ownLd1 (F := F) [⟨Rect.whole S1024x1024, ownSrc m c (k0_off8 c) (k0_off8_inb c)⟩, ⟨Rect.whole S1024x1024, ownSrc m c (k0_off6 c) (k0_off6_inb c)⟩, ⟨Rect.whole S1024x1024, ownSrc m c (k0_off4 c) (k0_off4_inb c)⟩])) x
      = lvG m c ((Rect.unit (s := S8192x1024) ![5120, 0] S1024x1024.size inb_S8192x1024_S1024x1024_5120_0).emb x) := by
  intro x
  rw [k0_pay43_eq]
  exact own_piece m c 1 5120 (k0_off8 c) (k0_off8_inb c) (k0_off8_eq c) (by omega)
    inb_S8192x1024_S1024x1024_5120_0 _ x

theorem own_piece6 (c : Dev nD) : ∀ x : S1024x1024.Idx,
    (k0_pay44 (ownLd0 (F := F) [⟨Rect.whole S1024x1024, ownSrc m c (k0_off9 c) (k0_off9_inb c)⟩, ⟨Rect.whole S1024x1024, ownSrc m c (k0_off7 c) (k0_off7_inb c)⟩, ⟨Rect.whole S1024x1024, ownSrc m c (k0_off5 c) (k0_off5_inb c)⟩, ⟨Rect.whole S1024x1024, ownSrc m c (k0_off2 c) (k0_off2_inb c)⟩])) x
      = lvG m c ((Rect.unit (s := S8192x1024) ![6144, 0] S1024x1024.size inb_S8192x1024_S1024x1024_6144_0).emb x) := by
  intro x
  rw [k0_pay44_eq]
  exact own_piece m c 0 6144 (k0_off9 c) (k0_off9_inb c) (k0_off9_eq c) (by omega)
    inb_S8192x1024_S1024x1024_6144_0 _ x

theorem own_piece7 (c : Dev nD) : ∀ x : S1024x1024.Idx,
    (k0_pay46 (k0_pay45 (ownLd1 (F := F) [⟨Rect.whole S1024x1024, ownSrc m c (k0_off10 c) (k0_off10_inb c)⟩, ⟨Rect.whole S1024x1024, ownSrc m c (k0_off8 c) (k0_off8_inb c)⟩, ⟨Rect.whole S1024x1024, ownSrc m c (k0_off6 c) (k0_off6_inb c)⟩, ⟨Rect.whole S1024x1024, ownSrc m c (k0_off4 c) (k0_off4_inb c)⟩]))) x
      = lvG m c ((Rect.unit (s := S8192x1024) ![7168, 0] S1024x1024.size inb_S8192x1024_S1024x1024_7168_0).emb x) := by
  intro x
  rw [k0_pay46_45_eq]
  exact own_piece m c 1 7168 (k0_off10 c) (k0_off10_inb c) (k0_off10_eq c) (by omega)
    inb_S8192x1024_S1024x1024_7168_0 _ x

theorem ownL_val (c : Dev nD) (flv : Buf (Elt F) (lvM.view.loc (c : Thread nD τ))) (y : S8192x1024.Idx) :
    ownL m c flv y = tr (xAt m c (y 0).val (1024 * cx c + (y 1).val)) := by
  show lvM.view.writes (Elt F) flv (ownStores m c) y = lvG m c y
  have hG : ∀ p ∈ ownStores m c, ∀ x : p.1.shape.Idx, p.2 x = lvG m c (p.1.emb x) :=
    List.forall_mem_cons.mpr ⟨own_piece7 m c,
      List.forall_mem_cons.mpr ⟨own_piece6 m c,
      List.forall_mem_cons.mpr ⟨own_piece5 m c,
      List.forall_mem_cons.mpr ⟨own_piece4 m c,
      List.forall_mem_cons.mpr ⟨own_piece3 m c,
      List.forall_mem_cons.mpr ⟨own_piece2 m c,
      List.forall_mem_cons.mpr ⟨own_piece1 m c,
      List.forall_mem_cons.mpr ⟨own_piece0 m c,
      fun _ h => absurd h List.not_mem_nil⟩⟩⟩⟩⟩⟩⟩⟩
  have hcov : ∃ p ∈ ownStores m c, y ∈ p.1.set := by
    have h0 : (y 0).val < 8192 := (y 0).isLt
    have hc : (y 0).val < 1024 ∨ (1024 ≤ (y 0).val ∧ (y 0).val < 2048) ∨ (2048 ≤ (y 0).val ∧ (y 0).val < 3072)
        ∨ (3072 ≤ (y 0).val ∧ (y 0).val < 4096) ∨ (4096 ≤ (y 0).val ∧ (y 0).val < 5120) ∨ (5120 ≤ (y 0).val ∧ (y 0).val < 6144)
        ∨ (6144 ≤ (y 0).val ∧ (y 0).val < 7168) ∨ (7168 ≤ (y 0).val ∧ (y 0).val < 8192) := by omega
    rcases hc with hc | hc | hc | hc | hc | hc | hc | hc
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem_lvrect 0 inb_S8192x1024_S1024x1024_0_0 y (by omega)⟩
    · exact ⟨_, (List.mem_cons_of_mem _ (List.mem_cons_of_mem _ (List.mem_cons_of_mem _ (List.mem_cons_of_mem _ (List.mem_cons_of_mem _ (List.mem_cons_of_mem _ List.mem_cons_self)))))), mem_lvrect 1024 inb_S8192x1024_S1024x1024_1024_0 y (by omega)⟩
    · exact ⟨_, (List.mem_cons_of_mem _ (List.mem_cons_of_mem _ (List.mem_cons_of_mem _ (List.mem_cons_of_mem _ (List.mem_cons_of_mem _ List.mem_cons_self))))), mem_lvrect 2048 inb_S8192x1024_S1024x1024_2048_0 y (by omega)⟩
    · exact ⟨_, (List.mem_cons_of_mem _ (List.mem_cons_of_mem _ (List.mem_cons_of_mem _ (List.mem_cons_of_mem _ List.mem_cons_self)))), mem_lvrect 3072 inb_S8192x1024_S1024x1024_3072_0 y (by omega)⟩
    · exact ⟨_, (List.mem_cons_of_mem _ (List.mem_cons_of_mem _ (List.mem_cons_of_mem _ List.mem_cons_self))), mem_lvrect 4096 inb_S8192x1024_S1024x1024_4096_0 y (by omega)⟩
    · exact ⟨_, (List.mem_cons_of_mem _ (List.mem_cons_of_mem _ List.mem_cons_self)), mem_lvrect 5120 inb_S8192x1024_S1024x1024_5120_0 y (by omega)⟩
    · exact ⟨_, (List.mem_cons_of_mem _ List.mem_cons_self), mem_lvrect 6144 inb_S8192x1024_S1024x1024_6144_0 y (by omega)⟩
    · exact ⟨_, List.mem_cons_self, mem_lvrect 7168 inb_S8192x1024_S1024x1024_7168_0 y (by omega)⟩
  have key := View.read_writes_apply_of_pieces lvM.view flv (lvG m c) (ownStores m c) hG y hcov
  rw [View.read_whole] at key
  exact key

/-- The own rows of the result, written from the 8192 x 1024 buffer after the eight stores (over any earlier
    contents flv of that buffer and f of the result), are the result there. -/
theorem ownstored_val (c : Dev nD) (flv : Buf (Elt F) (lvM.view.loc (c : Thread nD τ)))
    (f : Buf (Elt F) ((oOwn c).view.loc (c : Thread nD τ))) :
    ∀ i ∈ (oOwn c).view.set,
      (oOwn c).view.writes (Elt F) f
        [⟨Rect.whole S8192x1024, ReadAs.same.apply (View.read (Elt F) lvM.view (ownL m c flv))⟩] i = outC m c i := by
  intro i hi
  rw [writes_whole]
  exact own_val m c f (ownL m c flv) (ownL_val m c flv) i hi

/-- info: 'Cert.Kernel.Hand.ownstored_val' depends on axioms: [propext, Classical.choice, Quot.sound] -/
#guard_msgs in #print axioms ownstored_val

end Cert.Kernel.Hand

end
-- ==== Proof.BFinish.lean ====
/-
  The end of a device's kernel: from what the body holds after its last wait to what the kernel is to end with.

  The 128 transfer cells have finished their one round, so each closes and its counter is the kernel's again, at zero;
  with the 67 counters of the device's own copies these are all 195. Each scratch buffer is glued from its pieces, the
  receive buffer's pieces first from their two half shares. The result is glued from its 65 row ranges, each holding what
  the result is to hold there.
-/
import proofs.«900022_g7700000000000023_dist_a2a_v7x_xy2x2_x_m8192_n1024_bf16_1_alg».proof.Proof.BSteps
import proofs.«900022_g7700000000000023_dist_a2a_v7x_xy2x2_x_m8192_n1024_bf16_1_alg».proof.Proof.BChains
import proofs.«900022_g7700000000000023_dist_a2a_v7x_xy2x2_x_m8192_n1024_bf16_1_alg».proof.Proof.BJoins

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ)

/-! ## The 195 counters: 67 of the device's own copies, then 32 of each of the four kinds of transfer cell -/

omit [FloatOps F] in
private theorem bigSep_fin_add (a b : ℕ) (Φ : Fin (a + b) → sProp 𝕄) :
    bigSep Finset.univ Φ
      = iprop((bigSep Finset.univ fun i : Fin a => Φ (Fin.castAdd b i)) ∗ bigSep Finset.univ fun j : Fin b => Φ (Fin.natAdd a j)) := by
  rw [bigSep_univ_equiv finSumFinEquiv Φ, bigSep_univ_sum]
  rfl

omit [FloatOps F] in
private theorem bigSep_fin_addN (a b : ℕ) (Φ : ℕ → sProp 𝕄) :
    (bigSep Finset.univ fun i : Fin (a + b) => Φ i.val)
      = iprop((bigSep Finset.univ fun i : Fin a => Φ i.val) ∗ bigSep Finset.univ fun j : Fin b => Φ (a + j.val)) :=
  bigSep_fin_add a b (fun i => Φ i.val)

omit [FloatOps F] in
private theorem split195 (Φ : ℕ → sProp 𝕄) :
    (bigSep Finset.univ fun i : Fin 195 => Φ i.val)
      = iprop((bigSep Finset.univ fun i : Fin 67 => Φ i.val) ∗ (bigSep Finset.univ fun k : Fin 32 => Φ (67 + k.val))
          ∗ (bigSep Finset.univ fun k : Fin 32 => Φ (99 + k.val)) ∗ (bigSep Finset.univ fun k : Fin 32 => Φ (131 + k.val))
          ∗ (bigSep Finset.univ fun k : Fin 32 => Φ (163 + k.val))) := by
  have h1 : (bigSep Finset.univ fun i : Fin 195 => Φ i.val)
      = iprop((bigSep Finset.univ fun i : Fin 67 => Φ i.val) ∗ bigSep Finset.univ fun j : Fin 128 => Φ (67 + j.val)) :=
    bigSep_fin_addN 67 128 Φ
  have h2 : (bigSep Finset.univ fun j : Fin 128 => Φ (67 + j.val))
      = iprop((bigSep Finset.univ fun k : Fin 32 => Φ (67 + k.val)) ∗ bigSep Finset.univ fun j : Fin 96 => Φ (67 + (32 + j.val))) :=
    bigSep_fin_addN 32 96 (fun n => Φ (67 + n))
  have h3 : (bigSep Finset.univ fun j : Fin 96 => Φ (67 + (32 + j.val)))
      = iprop((bigSep Finset.univ fun k : Fin 32 => Φ (67 + (32 + k.val))) ∗ bigSep Finset.univ fun j : Fin 64 => Φ (67 + (32 + (32 + j.val)))) :=
    bigSep_fin_addN 32 64 (fun n => Φ (67 + (32 + n)))
  have h4 : (bigSep Finset.univ fun j : Fin 64 => Φ (67 + (32 + (32 + j.val))))
      = iprop((bigSep Finset.univ fun k : Fin 32 => Φ (67 + (32 + (32 + k.val)))) ∗ bigSep Finset.univ fun k : Fin 32 => Φ (67 + (32 + (32 + (32 + k.val))))) :=
    bigSep_fin_addN 32 32 (fun n => Φ (67 + (32 + (32 + n))))
  rw [h1, h2, h3, h4]
  simp only [show ∀ n : ℕ, 67 + (32 + n) = 99 + n from fun n => by omega, show ∀ n : ℕ, 99 + (32 + n) = 131 + n from fun n => by omega,
    show ∀ n : ℕ, 131 + (32 + n) = 163 + n from fun n => by omega]

/-- The counter of DMA semaphore number n of device c at zero (nothing for a number that names no semaphore). -/
private def sv (c : Dev nD) (n : ℕ) : sProp 𝕄 := if h : n < 195 then semVal (dcell c n h) 0 else iprop(emp)
omit [FloatOps F] in
private theorem sv_eq (c : Dev nD) (n : ℕ) (h : n < 195) : (sv c n : sProp 𝕄) = semVal (dcell c n h) 0 := dif_pos h

omit [FloatOps F] in
/-- All the counters at zero: the 67 of the device's own copies, and the 32 of each kind of transfer cell. -/
theorem allSems0_split (c : Dev nD) :
    (allSems0 c : sProp 𝕄) = iprop(locals c ∗ (bigSep Finset.univ fun k : Fin 32 => semVal (sXc c k) 0) ∗ (bigSep Finset.univ fun k : Fin 32 => semVal (rXc c k) 0)
      ∗ (bigSep Finset.univ fun k : Fin 32 => semVal (sYc c k) 0) ∗ (bigSep Finset.univ fun k : Fin 32 => semVal (rYc c k) 0)) := by
  have e195 : (allSems0 c : sProp 𝕄) = bigSep Finset.univ fun i : Fin 195 => sv c i.val := by
    unfold allSems0; exact bigSep_congr fun i _ => (sv_eq c i.val i.isLt).symm
  have e67 : (locals c : sProp 𝕄) = bigSep Finset.univ fun i : Fin 67 => sv c i.val := by
    unfold locals; exact bigSep_congr fun i _ => (sv_eq c i.val _).symm
  have eK (n0 : ℕ) (hn : n0 ≤ 163) : (bigSep Finset.univ fun k : Fin 32 => (semVal (dcell c (n0 + k.val) (lt195 k n0 hn)) 0 : sProp 𝕄))
      = bigSep Finset.univ fun k : Fin 32 => sv c (n0 + k.val) :=
    bigSep_congr fun k _ => (sv_eq c (n0 + k.val) _).symm
  rw [e195, split195 (sv c), e67]
  exact congrArg₂ (fun A B : sProp 𝕄 => iprop(A ∗ B)) rfl (congrArg₂ (fun A B : sProp 𝕄 => iprop(A ∗ B)) (eK 67 (by decide)).symm
    (congrArg₂ (fun A B : sProp 𝕄 => iprop(A ∗ B)) (eK 99 (by decide)).symm (congrArg₂ (fun A B : sProp 𝕄 => iprop(A ∗ B)) (eK 131 (by decide)).symm (eK 163 (by decide)).symm)))

/-! ## The transfer cells close -/

section Close
variable (K : Dev nD × Fin 129 → ℕ) (c : Dev nD)

theorem close1 (i : ℕ) (h : i < 195) (hi : 67 ≤ i) :
    iprop(records m K ∗ atPos ER (dcell c i h) 1 ∅ 0) ⊢ |={Set.univ}=> semVal (dcell c i h) 0 := by
  iintro ⟨#HR, Hat⟩
  ihave Hw := (stepClose m K c i h hi) $$ HR
  iapply Hw; iexact Hat

/-- The 32 cells of one kind (semaphore numbers n0 to n0 + 31), their one round over, give their counters back at zero. -/
theorem closeKind (n0 : ℕ) (h0 : 67 ≤ n0) (h1 : n0 ≤ 163) :
    iprop(records m K ∗ bigSep Finset.univ fun k : Fin 32 => atPos ER (dcell c (n0 + k.val) (lt195 k n0 h1)) 1 ∅ 0)
      ⊢ |={Set.univ}=> bigSep Finset.univ fun k : Fin 32 => (semVal (dcell c (n0 + k.val) (lt195 k n0 h1)) 0 : sProp 𝕄) :=
  (bigSep_with_persistent (R := records m K) fun k _ => close1 m K c (n0 + k.val) (lt195 k n0 h1) (ge67 k n0 h0)).trans (bigSep_fupd _ _)

end Close

/-! ## The end of the kernel -/

/-- From what the body holds after its last wait: the scratch buffers glued from their pieces, the result from its 65
    pieces, and every counter back at zero. -/
theorem finish (K : Dev nD × Fin 129 → ℕ) (c : Dev nD) :
    records m K ⊢ iprop(
      (xM.view.loc (c : Thread nD τ) ↦[xM.view.set]{fullShare.left} X m c)
      -∗ (bigSep Finset.univ fun k : Fin 32 => iprop(∃ f, ((sl3 slM k).view.loc (c : Thread nD τ) ↦[(sl3 slM k).view.set]{fullShare} f)))
      -∗ (bigSep Finset.univ fun k : Fin 32 => iprop(∃ f, ((sl3 sbM k).view.loc (c : Thread nD τ) ↦[(sl3 sbM k).view.set]{fullShare} f)))
      -∗ (bigSep Finset.univ fun k : Fin 32 => iprop(((sl3 rbM k).view.loc (c : Thread nD τ) ↦[(sl3 rbM k).view.set]{fullShare.left} recvC m c) ∗ ((sl3 rbM k).view.loc (c : Thread nD τ) ↦[(sl3 rbM k).view.set]{fullShare.right} recvC m c)))
      -∗ (bigSep Finset.univ fun j : Fin 2 => iprop(∃ f, ((el2 j).view.loc (c : Thread nD τ) ↦[(el2 j).view.set]{fullShare} f)))
      -∗ someBuf lvM c
      -∗ (bigSep Finset.univ fun k : Fin 32 => ((oX c k).view.loc (c : Thread nD τ) ↦[(oX c k).view.set]{fullShare} outC m c))
      -∗ (bigSep Finset.univ fun k : Fin 32 => ((oY c k).view.loc (c : Thread nD τ) ↦[(oY c k).view.set]{fullShare} outC m c))
      -∗ ((oOwn c).view.loc (c : Thread nD τ) ↦[(oOwn c).view.set]{fullShare} outC m c)
      -∗ locals c
      -∗ (bigSep Finset.univ fun k : Fin 32 => iprop(atPos ER (sXc c k) 1 ∅ 0 ∗ atPos ER (rXc c k) 1 ∅ 0 ∗ atPos ER (sYc c k) 1 ∅ 0 ∗ atPos ER (rYc c k) 1 ∅ 0))
      -∗ |={Set.univ}=> Φ₁ m c) := by
  have hrb : (bigSep Finset.univ fun k : Fin 32 => iprop(((sl3 rbM k).view.loc (c : Thread nD τ) ↦[(sl3 rbM k).view.set]{fullShare.left} recvC m c)
        ∗ ((sl3 rbM k).view.loc (c : Thread nD τ) ↦[(sl3 rbM k).view.set]{fullShare.right} recvC m c)) : sProp 𝕄)
      ⊢ someBuf rbM c :=
    (bigSep_mono fun k _ => (halves_join (recvC m c)).trans (by iintro H; iexists (recvC m c); iexact H)).trans (join32_some rbM c)
  iintro #HR Hx Hsl Hsb Hrb Hel Hlv HoX HoY HoO Hloc Hat
  ihave Hsl' := (join32_some slM c) $$ Hsl
  ihave Hsb' := (join32_some sbM c) $$ Hsb
  ihave Hrb' := hrb $$ Hrb
  ihave Hel' := (join2_some c) $$ Hel
  ihave Ho := (outJoin c (outC m c)) $$ [HoX HoY HoO]
  · isplitl [HoX]; · iexact HoX
    isplitl [HoY] <;> iassumption
  ihave Hat' := (Entails.of_eq (by simp only [bigSep_sep'] :
      (bigSep Finset.univ fun k : Fin 32 => iprop(atPos ER (sXc c k) 1 ∅ 0 ∗ atPos ER (rXc c k) 1 ∅ 0 ∗ atPos ER (sYc c k) 1 ∅ 0 ∗ atPos ER (rYc c k) 1 ∅ 0) : sProp 𝕄)
        = iprop((bigSep Finset.univ fun k : Fin 32 => atPos ER (sXc c k) 1 ∅ 0) ∗ (bigSep Finset.univ fun k : Fin 32 => atPos ER (rXc c k) 1 ∅ 0)
            ∗ (bigSep Finset.univ fun k : Fin 32 => atPos ER (sYc c k) 1 ∅ 0) ∗ (bigSep Finset.univ fun k : Fin 32 => atPos ER (rYc c k) 1 ∅ 0)))) $$ Hat
  icases Hat' with ⟨A1, A2, A3, A4⟩
  imod (closeKind m K c 67 (by decide) (by decide)) $$ [A1] with V1
  · isplitr; · iexact HR
    iexact A1
  imod (closeKind m K c 99 (by decide) (by decide)) $$ [A2] with V2
  · isplitr; · iexact HR
    iexact A2
  imod (closeKind m K c 131 (by decide) (by decide)) $$ [A3] with V3
  · isplitr; · iexact HR
    iexact A3
  imod (closeKind m K c 163 (by decide) (by decide)) $$ [A4] with V4
  · isplitr; · iexact HR
    iexact A4
  imodintro
  unfold Φ₁
  rw [allSems0_split]
  isplitl [Hx]; · iexact Hx
  isplitl [Ho]; · iexact Ho
  isplitl [Hloc V1 V2 V3 V4]
  · isplitl [Hloc]; · iexact Hloc
    isplitl [V1]; · iexact V1
    isplitl [V2]; · iexact V2
    isplitl [V3] <;> iassumption
  isplitl [Hsl']; · iexact Hsl'
  isplitl [Hsb']; · iexact Hsb'
  isplitl [Hrb']; · iexact Hrb'
  isplitl [Hel'] <;> iassumption

/-- info: 'Cert.Kernel.Hand.finish' depends on axioms: [propext, Classical.choice, Quot.sound] -/
#guard_msgs in #print axioms finish

end Cert.Kernel.Hand

end
-- ==== Proof.BBody.lean ====
/-
  One device's kernel, from what the launch deals it to what it must leave.

  The device signals both mates and waits for both; starts 32 copies of 128 rows of its block into its load buffer;
  per chunk waits for the copy, converts it into the staging buffer and sends it to the column mate; per chunk waits
  for the column mate's chunk, forwards half of its share to the row mate and copies the other half into its own
  result (and, every fourth chunk, moves 1024 of its own rows through a two-slot buffer into a local block); copies
  the local block into its result; waits for the row mate's 32 forwards, its 64 departures and its 33 copies.
  Its own copies, loads and stores are stepped mechanically; each signal, send and wait on a cell another device
  pays is applied by its rule. Every piece is held through the view that addresses it, so that the 32 concurrent
  copies into one buffer each hold their own piece. The argument array's left half-share stays aside, whole.
-/
import proofs.«900022_g7700000000000023_dist_a2a_v7x_xy2x2_x_m8192_n1024_bf16_1_alg».proof.Proof.BSteps
import proofs.«900022_g7700000000000023_dist_a2a_v7x_xy2x2_x_m8192_n1024_bf16_1_alg».proof.Proof.BChains
import proofs.«900022_g7700000000000023_dist_a2a_v7x_xy2x2_x_m8192_n1024_bf16_1_alg».proof.Proof.BJoins
import proofs.«900022_g7700000000000023_dist_a2a_v7x_xy2x2_x_m8192_n1024_bf16_1_alg».proof.Proof.BPoint
import proofs.«900022_g7700000000000023_dist_a2a_v7x_xy2x2_x_m8192_n1024_bf16_1_alg».proof.Proof.BRunVal
import proofs.«900022_g7700000000000023_dist_a2a_v7x_xy2x2_x_m8192_n1024_bf16_1_alg».proof.Proof.BOwnVal
import proofs.«900022_g7700000000000023_dist_a2a_v7x_xy2x2_x_m8192_n1024_bf16_1_alg».proof.Proof.BFinish
import proofs.«900022_g7700000000000023_dist_a2a_v7x_xy2x2_x_m8192_n1024_bf16_1_alg».proof.Proof.Gen.Kernel.Skeleton

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig Unit (Elt F) ℕ UU ℕ
set_option maxRecDepth 100000
variable (m : (ℓ : Loc nD τ sig) → Buf (Elt F) ℓ)

/-- The device's 129 positions, cell by cell. -/
theorem positions_chain (c : Dev nD) :
    (positions (F := F) c : sProp 𝕄) = iprop(atPos ER (barCell c) 0 ∅ 0
      ∗ atPos ER (sXc c 0) 0 ∅ 0 ∗ atPos ER (sXc c 1) 0 ∅ 0 ∗ atPos ER (sXc c 2) 0 ∅ 0 ∗ atPos ER (sXc c 3) 0 ∅ 0 ∗ atPos ER (sXc c 4) 0 ∅ 0 ∗ atPos ER (sXc c 5) 0 ∅ 0 ∗ atPos ER (sXc c 6) 0 ∅ 0 ∗ atPos ER (sXc c 7) 0 ∅ 0 ∗ atPos ER (sXc c 8) 0 ∅ 0 ∗ atPos ER (sXc c 9) 0 ∅ 0 ∗ atPos ER (sXc c 10) 0 ∅ 0 ∗ atPos ER (sXc c 11) 0 ∅ 0 ∗ atPos ER (sXc c 12) 0 ∅ 0 ∗ atPos ER (sXc c 13) 0 ∅ 0 ∗ atPos ER (sXc c 14) 0 ∅ 0 ∗ atPos ER (sXc c 15) 0 ∅ 0 ∗ atPos ER (sXc c 16) 0 ∅ 0 ∗ atPos ER (sXc c 17) 0 ∅ 0 ∗ atPos ER (sXc c 18) 0 ∅ 0 ∗ atPos ER (sXc c 19) 0 ∅ 0 ∗ atPos ER (sXc c 20) 0 ∅ 0 ∗ atPos ER (sXc c 21) 0 ∅ 0 ∗ atPos ER (sXc c 22) 0 ∅ 0 ∗ atPos ER (sXc c 23) 0 ∅ 0 ∗ atPos ER (sXc c 24) 0 ∅ 0 ∗ atPos ER (sXc c 25) 0 ∅ 0 ∗ atPos ER (sXc c 26) 0 ∅ 0 ∗ atPos ER (sXc c 27) 0 ∅ 0 ∗ atPos ER (sXc c 28) 0 ∅ 0 ∗ atPos ER (sXc c 29) 0 ∅ 0 ∗ atPos ER (sXc c 30) 0 ∅ 0 ∗ atPos ER (sXc c 31) 0 ∅ 0
      ∗ atPos ER (rXc c 0) 0 ∅ 0 ∗ atPos ER (rXc c 1) 0 ∅ 0 ∗ atPos ER (rXc c 2) 0 ∅ 0 ∗ atPos ER (rXc c 3) 0 ∅ 0 ∗ atPos ER (rXc c 4) 0 ∅ 0 ∗ atPos ER (rXc c 5) 0 ∅ 0 ∗ atPos ER (rXc c 6) 0 ∅ 0 ∗ atPos ER (rXc c 7) 0 ∅ 0 ∗ atPos ER (rXc c 8) 0 ∅ 0 ∗ atPos ER (rXc c 9) 0 ∅ 0 ∗ atPos ER (rXc c 10) 0 ∅ 0 ∗ atPos ER (rXc c 11) 0 ∅ 0 ∗ atPos ER (rXc c 12) 0 ∅ 0 ∗ atPos ER (rXc c 13) 0 ∅ 0 ∗ atPos ER (rXc c 14) 0 ∅ 0 ∗ atPos ER (rXc c 15) 0 ∅ 0 ∗ atPos ER (rXc c 16) 0 ∅ 0 ∗ atPos ER (rXc c 17) 0 ∅ 0 ∗ atPos ER (rXc c 18) 0 ∅ 0 ∗ atPos ER (rXc c 19) 0 ∅ 0 ∗ atPos ER (rXc c 20) 0 ∅ 0 ∗ atPos ER (rXc c 21) 0 ∅ 0 ∗ atPos ER (rXc c 22) 0 ∅ 0 ∗ atPos ER (rXc c 23) 0 ∅ 0 ∗ atPos ER (rXc c 24) 0 ∅ 0 ∗ atPos ER (rXc c 25) 0 ∅ 0 ∗ atPos ER (rXc c 26) 0 ∅ 0 ∗ atPos ER (rXc c 27) 0 ∅ 0 ∗ atPos ER (rXc c 28) 0 ∅ 0 ∗ atPos ER (rXc c 29) 0 ∅ 0 ∗ atPos ER (rXc c 30) 0 ∅ 0 ∗ atPos ER (rXc c 31) 0 ∅ 0
      ∗ atPos ER (sYc c 0) 0 ∅ 0 ∗ atPos ER (sYc c 1) 0 ∅ 0 ∗ atPos ER (sYc c 2) 0 ∅ 0 ∗ atPos ER (sYc c 3) 0 ∅ 0 ∗ atPos ER (sYc c 4) 0 ∅ 0 ∗ atPos ER (sYc c 5) 0 ∅ 0 ∗ atPos ER (sYc c 6) 0 ∅ 0 ∗ atPos ER (sYc c 7) 0 ∅ 0 ∗ atPos ER (sYc c 8) 0 ∅ 0 ∗ atPos ER (sYc c 9) 0 ∅ 0 ∗ atPos ER (sYc c 10) 0 ∅ 0 ∗ atPos ER (sYc c 11) 0 ∅ 0 ∗ atPos ER (sYc c 12) 0 ∅ 0 ∗ atPos ER (sYc c 13) 0 ∅ 0 ∗ atPos ER (sYc c 14) 0 ∅ 0 ∗ atPos ER (sYc c 15) 0 ∅ 0 ∗ atPos ER (sYc c 16) 0 ∅ 0 ∗ atPos ER (sYc c 17) 0 ∅ 0 ∗ atPos ER (sYc c 18) 0 ∅ 0 ∗ atPos ER (sYc c 19) 0 ∅ 0 ∗ atPos ER (sYc c 20) 0 ∅ 0 ∗ atPos ER (sYc c 21) 0 ∅ 0 ∗ atPos ER (sYc c 22) 0 ∅ 0 ∗ atPos ER (sYc c 23) 0 ∅ 0 ∗ atPos ER (sYc c 24) 0 ∅ 0 ∗ atPos ER (sYc c 25) 0 ∅ 0 ∗ atPos ER (sYc c 26) 0 ∅ 0 ∗ atPos ER (sYc c 27) 0 ∅ 0 ∗ atPos ER (sYc c 28) 0 ∅ 0 ∗ atPos ER (sYc c 29) 0 ∅ 0 ∗ atPos ER (sYc c 30) 0 ∅ 0 ∗ atPos ER (sYc c 31) 0 ∅ 0
      ∗ atPos ER (rYc c 0) 0 ∅ 0 ∗ atPos ER (rYc c 1) 0 ∅ 0 ∗ atPos ER (rYc c 2) 0 ∅ 0 ∗ atPos ER (rYc c 3) 0 ∅ 0 ∗ atPos ER (rYc c 4) 0 ∅ 0 ∗ atPos ER (rYc c 5) 0 ∅ 0 ∗ atPos ER (rYc c 6) 0 ∅ 0 ∗ atPos ER (rYc c 7) 0 ∅ 0 ∗ atPos ER (rYc c 8) 0 ∅ 0 ∗ atPos ER (rYc c 9) 0 ∅ 0 ∗ atPos ER (rYc c 10) 0 ∅ 0 ∗ atPos ER (rYc c 11) 0 ∅ 0 ∗ atPos ER (rYc c 12) 0 ∅ 0 ∗ atPos ER (rYc c 13) 0 ∅ 0 ∗ atPos ER (rYc c 14) 0 ∅ 0 ∗ atPos ER (rYc c 15) 0 ∅ 0 ∗ atPos ER (rYc c 16) 0 ∅ 0 ∗ atPos ER (rYc c 17) 0 ∅ 0 ∗ atPos ER (rYc c 18) 0 ∅ 0 ∗ atPos ER (rYc c 19) 0 ∅ 0 ∗ atPos ER (rYc c 20) 0 ∅ 0 ∗ atPos ER (rYc c 21) 0 ∅ 0 ∗ atPos ER (rYc c 22) 0 ∅ 0 ∗ atPos ER (rYc c 23) 0 ∅ 0 ∗ atPos ER (rYc c 24) 0 ∅ 0 ∗ atPos ER (rYc c 25) 0 ∅ 0 ∗ atPos ER (rYc c 26) 0 ∅ 0 ∗ atPos ER (rYc c 27) 0 ∅ 0 ∗ atPos ER (rYc c 28) 0 ∅ 0 ∗ atPos ER (rYc c 29) 0 ∅ 0 ∗ atPos ER (rYc c 30) 0 ∅ 0 ∗ atPos ER (rYc c 31) 0 ∅ 0) := by
  refine (bigSep_fin129 (fun j : Fin 129 => (atPos ER (kcell (c, j)) 0 ∅ 0 : sProp 𝕄))).trans ?_
  iterate 128 (refine congrArg₂ _ rfl ?_)
  rfl

/-- An assertion put aside: held, but not offered to the mechanical stepping. -/
def Aside (P : sProp 𝕄) : sProp 𝕄 := P
theorem aside_in (P : sProp 𝕄) : P ⊢ Aside P := by unfold Aside; exact BI.Entails.refl _
theorem aside_out (P : sProp 𝕄) : Aside P ⊢ P := by unfold Aside; exact BI.Entails.refl _

set_option maxHeartbeats 0 in
theorem sound_body (c : Dev nD) (Kt : PUnit → sProp 𝕄) :
    iprop(Φ₀ m c ∗ (dats m 0 c).owesAt () (t₀ : Fin cfg0.N).castSucc
        ∗ ((Φ₁ m c ∗ (dats m 0 c).owesAt () (t₀ : Fin cfg0.N).succ) -∗ Kt ⟨⟩))
      ⊢ wp frame (wpE (defs₀ (F := F)) 𝒱₀ c none) Set.univ (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12) Kt := by
  have hc4 : c.val < 4 := c.isLt
  have hcx : c.val / 2 < 2 := by omega
  have hcy : c.val % 2 < 2 := by omega
  unfold Φ₀ start someBuf payToks creds locals
  iintro ⟨⟨⟨⟨%K, #HR, Hpos, TbX, TbY, Htk⟩, ⟨CB, Hcrk⟩, #Hlev, Hloc, Hx, ⟨%fo, Ho⟩⟩, ⟨%fsl, Hsl⟩, ⟨%fsb, Hsb⟩, ⟨%frb, Hrb⟩, ⟨%fel, Hel⟩, ⟨%flv, Hlv⟩⟩, Howes, Hk⟩
  unfold Dat.owesAt Pipeline.owesWithin
  icases Howes with ⟨%W, %hW, HO⟩
  rw [show (dats m 0 c).owed (t₀ : Fin cfg0.N).castSucc = O₀ c from rfl]
  -- the positions, tokens, credits and counters, one by one
  ihave Hp := (Entails.of_eq (positions_chain c)) $$ Hpos
  icases Hp with ⟨PB, PsX0, PsX1, PsX2, PsX3, PsX4, PsX5, PsX6, PsX7, PsX8, PsX9, PsX10, PsX11, PsX12, PsX13, PsX14, PsX15, PsX16, PsX17, PsX18, PsX19, PsX20, PsX21, PsX22, PsX23, PsX24, PsX25, PsX26, PsX27, PsX28, PsX29, PsX30, PsX31, PrX0, PrX1, PrX2, PrX3, PrX4, PrX5, PrX6, PrX7, PrX8, PrX9, PrX10, PrX11, PrX12, PrX13, PrX14, PrX15, PrX16, PrX17, PrX18, PrX19, PrX20, PrX21, PrX22, PrX23, PrX24, PrX25, PrX26, PrX27, PrX28, PrX29, PrX30, PrX31, PsY0, PsY1, PsY2, PsY3, PsY4, PsY5, PsY6, PsY7, PsY8, PsY9, PsY10, PsY11, PsY12, PsY13, PsY14, PsY15, PsY16, PsY17, PsY18, PsY19, PsY20, PsY21, PsY22, PsY23, PsY24, PsY25, PsY26, PsY27, PsY28, PsY29, PsY30, PsY31, PrY0, PrY1, PrY2, PrY3, PrY4, PrY5, PrY6, PrY7, PrY8, PrY9, PrY10, PrY11, PrY12, PrY13, PrY14, PrY15, PrY16, PrY17, PrY18, PrY19, PrY20, PrY21, PrY22, PrY23, PrY24, PrY25, PrY26, PrY27, PrY28, PrY29, PrY30, PrY31⟩
  ihave Ht := (Entails.of_eq (bigSep_fin32 (fun k : Fin 32 => (iprop(dutyTok ER (sXc c k) 0 false ∗ dutyTok ER (rXc (xp c) k) 0 false ∗ dutyTok ER (sYc c k) 0 false ∗ dutyTok ER (rYc (yp c) k) 0 false) : sProp 𝕄)))) $$ Htk
  icases Ht with ⟨⟨TsX0, TrX0, TsY0, TrY0⟩, ⟨TsX1, TrX1, TsY1, TrY1⟩, ⟨TsX2, TrX2, TsY2, TrY2⟩, ⟨TsX3, TrX3, TsY3, TrY3⟩, ⟨TsX4, TrX4, TsY4, TrY4⟩, ⟨TsX5, TrX5, TsY5, TrY5⟩, ⟨TsX6, TrX6, TsY6, TrY6⟩, ⟨TsX7, TrX7, TsY7, TrY7⟩, ⟨TsX8, TrX8, TsY8, TrY8⟩, ⟨TsX9, TrX9, TsY9, TrY9⟩, ⟨TsX10, TrX10, TsY10, TrY10⟩, ⟨TsX11, TrX11, TsY11, TrY11⟩, ⟨TsX12, TrX12, TsY12, TrY12⟩, ⟨TsX13, TrX13, TsY13, TrY13⟩, ⟨TsX14, TrX14, TsY14, TrY14⟩, ⟨TsX15, TrX15, TsY15, TrY15⟩, ⟨TsX16, TrX16, TsY16, TrY16⟩, ⟨TsX17, TrX17, TsY17, TrY17⟩, ⟨TsX18, TrX18, TsY18, TrY18⟩, ⟨TsX19, TrX19, TsY19, TrY19⟩, ⟨TsX20, TrX20, TsY20, TrY20⟩, ⟨TsX21, TrX21, TsY21, TrY21⟩, ⟨TsX22, TrX22, TsY22, TrY22⟩, ⟨TsX23, TrX23, TsY23, TrY23⟩, ⟨TsX24, TrX24, TsY24, TrY24⟩, ⟨TsX25, TrX25, TsY25, TrY25⟩, ⟨TsX26, TrX26, TsY26, TrY26⟩, ⟨TsX27, TrX27, TsY27, TrY27⟩, ⟨TsX28, TrX28, TsY28, TrY28⟩, ⟨TsX29, TrX29, TsY29, TrY29⟩, ⟨TsX30, TrX30, TsY30, TrY30⟩, ⟨TsX31, TrX31, TsY31, TrY31⟩⟩
  ihave Hc := (Entails.of_eq (bigSep_fin32 (fun k : Fin 32 => (iprop(cred (tallyAt (rXc c k) () NC) ∗ cred (tallyAt (rYc c k) () NC)) : sProp 𝕄)))) $$ Hcrk
  icases Hc with ⟨⟨CrX0, CrY0⟩, ⟨CrX1, CrY1⟩, ⟨CrX2, CrY2⟩, ⟨CrX3, CrY3⟩, ⟨CrX4, CrY4⟩, ⟨CrX5, CrY5⟩, ⟨CrX6, CrY6⟩, ⟨CrX7, CrY7⟩, ⟨CrX8, CrY8⟩, ⟨CrX9, CrY9⟩, ⟨CrX10, CrY10⟩, ⟨CrX11, CrY11⟩, ⟨CrX12, CrY12⟩, ⟨CrX13, CrY13⟩, ⟨CrX14, CrY14⟩, ⟨CrX15, CrY15⟩, ⟨CrX16, CrY16⟩, ⟨CrX17, CrY17⟩, ⟨CrX18, CrY18⟩, ⟨CrX19, CrY19⟩, ⟨CrX20, CrY20⟩, ⟨CrX21, CrY21⟩, ⟨CrX22, CrY22⟩, ⟨CrX23, CrY23⟩, ⟨CrX24, CrY24⟩, ⟨CrX25, CrY25⟩, ⟨CrX26, CrY26⟩, ⟨CrX27, CrY27⟩, ⟨CrX28, CrY28⟩, ⟨CrX29, CrY29⟩, ⟨CrX30, CrY30⟩, ⟨CrX31, CrY31⟩⟩
  ihave Hv := (Entails.of_eq (bigSep_fin67 _)) $$ Hloc
  icases Hv with ⟨V0, V1, V2, V3, V4, V5, V6, V7, V8, V9, V10, V11, V12, V13, V14, V15, V16, V17, V18, V19, V20, V21, V22, V23, V24, V25, V26, V27, V28, V29, V30, V31, V32, V33, V34, V35, V36, V37, V38, V39, V40, V41, V42, V43, V44, V45, V46, V47, V48, V49, V50, V51, V52, V53, V54, V55, V56, V57, V58, V59, V60, V61, V62, V63, V64, V65, V66⟩
  -- the buffers, piece by piece
  ihave Hs1 := (Entails.of_eq ((split32 slM c fsl).trans (bigSep_fin32 _))) $$ Hsl
  icases Hs1 with ⟨Sl0, Sl1, Sl2, Sl3, Sl4, Sl5, Sl6, Sl7, Sl8, Sl9, Sl10, Sl11, Sl12, Sl13, Sl14, Sl15, Sl16, Sl17, Sl18, Sl19, Sl20, Sl21, Sl22, Sl23, Sl24, Sl25, Sl26, Sl27, Sl28, Sl29, Sl30, Sl31⟩
  ihave Hs2 := (Entails.of_eq ((split32 sbM c fsb).trans (bigSep_fin32 _))) $$ Hsb
  icases Hs2 with ⟨Sb0, Sb1, Sb2, Sb3, Sb4, Sb5, Sb6, Sb7, Sb8, Sb9, Sb10, Sb11, Sb12, Sb13, Sb14, Sb15, Sb16, Sb17, Sb18, Sb19, Sb20, Sb21, Sb22, Sb23, Sb24, Sb25, Sb26, Sb27, Sb28, Sb29, Sb30, Sb31⟩
  ihave Hrbs := (Entails.of_eq (split32 rbM c frb)) $$ Hrb
  ihave Hs3 := (Entails.of_eq ((split2 c fel).trans (bigSep_fin2 _))) $$ Hel
  icases Hs3 with ⟨El0, El1⟩
  ihave Hos := (Entails.of_eq (splitOut c fo)) $$ Ho
  icases Hos with ⟨HoX, HoY, HoOwn⟩
  ihave Hs4 := (Entails.of_eq (bigSep_fin32 _)) $$ HoX
  icases Hs4 with ⟨Ox0, Ox1, Ox2, Ox3, Ox4, Ox5, Ox6, Ox7, Ox8, Ox9, Ox10, Ox11, Ox12, Ox13, Ox14, Ox15, Ox16, Ox17, Ox18, Ox19, Ox20, Ox21, Ox22, Ox23, Ox24, Ox25, Ox26, Ox27, Ox28, Ox29, Ox30, Ox31⟩
  ihave Ox0 : (((oM.slice (Rect.unit (s := S16384x1024) (k0_off3 c 0#32) S128x1024.size (k0_off3_inb c 0)) (fun _ => rfl)).view.loc (c : Thread nD τ) ↦[(oM.slice (Rect.unit (s := S16384x1024) (k0_off3 c 0#32) S128x1024.size (k0_off3_inb c 0)) (fun _ => rfl)).view.set]{fullShare} fo)) $$ [Ox0]
  · iexact Ox0
  ihave Ox1 : (((oM.slice (Rect.unit (s := S16384x1024) (k0_off3 c 128#32) S128x1024.size (k0_off3_inb c 1)) (fun _ => rfl)).view.loc (c : Thread nD τ) ↦[(oM.slice (Rect.unit (s := S16384x1024) (k0_off3 c 128#32) S128x1024.size (k0_off3_inb c 1)) (fun _ => rfl)).view.set]{fullShare} fo)) $$ [Ox1]
  · iexact Ox1
  ihave Ox2 : (((oM.slice (Rect.unit (s := S16384x1024) (k0_off3 c 256#32) S128x1024.size (k0_off3_inb c 2)) (fun _ => rfl)).view.loc (c : Thread nD τ) ↦[(oM.slice (Rect.unit (s := S16384x1024) (k0_off3 c 256#32) S128x1024.size (k0_off3_inb c 2)) (fun _ => rfl)).view.set]{fullShare} fo)) $$ [Ox2]
  · iexact Ox2
  ihave Ox3 : (((oM.slice (Rect.unit (s := S16384x1024) (k0_off3 c 384#32) S128x1024.size (k0_off3_inb c 3)) (fun _ => rfl)).view.loc (c : Thread nD τ) ↦[(oM.slice (Rect.unit (s := S16384x1024) (k0_off3 c 384#32) S128x1024.size (k0_off3_inb c 3)) (fun _ => rfl)).view.set]{fullShare} fo)) $$ [Ox3]
  · iexact Ox3
  ihave Ox4 : (((oM.slice (Rect.unit (s := S16384x1024) (k0_off3 c 512#32) S128x1024.size (k0_off3_inb c 4)) (fun _ => rfl)).view.loc (c : Thread nD τ) ↦[(oM.slice (Rect.unit (s := S16384x1024) (k0_off3 c 512#32) S128x1024.size (k0_off3_inb c 4)) (fun _ => rfl)).view.set]{fullShare} fo)) $$ [Ox4]
  · iexact Ox4
  ihave Ox5 : (((oM.slice (Rect.unit (s := S16384x1024) (k0_off3 c 640#32) S128x1024.size (k0_off3_inb c 5)) (fun _ => rfl)).view.loc (c : Thread nD τ) ↦[(oM.slice (Rect.unit (s := S16384x1024) (k0_off3 c 640#32) S128x1024.size (k0_off3_inb c 5)) (fun _ => rfl)).view.set]{fullShare} fo)) $$ [Ox5]
  · iexact Ox5
  ihave Ox6 : (((oM.slice (Rect.unit (s := S16384x1024) (k0_off3 c 768#32) S128x1024.size (k0_off3_inb c 6)) (fun _ => rfl)).view.loc (c : Thread nD τ) ↦[(oM.slice (Rect.unit (s := S16384x1024) (k0_off3 c 768#32) S128x1024.size (k0_off3_inb c 6)) (fun _ => rfl)).view.set]{fullShare} fo)) $$ [Ox6]
  · iexact Ox6
  ihave Ox7 : (((oM.slice (Rect.unit (s := S16384x1024) (k0_off3 c 896#32) S128x1024.size (k0_off3_inb c 7)) (fun _ => rfl)).view.loc (c : Thread nD τ) ↦[(oM.slice (Rect.unit (s := S16384x1024) (k0_off3 c 896#32) S128x1024.size (k0_off3_inb c 7)) (fun _ => rfl)).view.set]{fullShare} fo)) $$ [Ox7]
  · iexact Ox7
  ihave Ox8 : (((oM.slice (Rect.unit (s := S16384x1024) (k0_off3 c 1024#32) S128x1024.size (k0_off3_inb c 8)) (fun _ => rfl)).view.loc (c : Thread nD τ) ↦[(oM.slice (Rect.unit (s := S16384x1024) (k0_off3 c 1024#32) S128x1024.size (k0_off3_inb c 8)) (fun _ => rfl)).view.set]{fullShare} fo)) $$ [Ox8]
  · iexact Ox8
  ihave Ox9 : (((oM.slice (Rect.unit (s := S16384x1024) (k0_off3 c 1152#32) S128x1024.size (k0_off3_inb c 9)) (fun _ => rfl)).view.loc (c : Thread nD τ) ↦[(oM.slice (Rect.unit (s := S16384x1024) (k0_off3 c 1152#32) S128x1024.size (k0_off3_inb c 9)) (fun _ => rfl)).view.set]{fullShare} fo)) $$ [Ox9]
  · iexact Ox9
  ihave Ox10 : (((oM.slice (Rect.unit (s := S16384x1024) (k0_off3 c 1280#32) S128x1024.size (k0_off3_inb c 10)) (fun _ => rfl)).view.loc (c : Thread nD τ) ↦[(oM.slice (Rect.unit (s := S16384x1024) (k0_off3 c 1280#32) S128x1024.size (k0_off3_inb c 10)) (fun _ => rfl)).view.set]{fullShare} fo)) $$ [Ox10]
  · iexact Ox10
  ihave Ox11 : (((oM.slice (Rect.unit (s := S16384x1024) (k0_off3 c 1408#32) S128x1024.size (k0_off3_inb c 11)) (fun _ => rfl)).view.loc (c : Thread nD τ) ↦[(oM.slice (Rect.unit (s := S16384x1024) (k0_off3 c 1408#32) S128x1024.size (k0_off3_inb c 11)) (fun _ => rfl)).view.set]{fullShare} fo)) $$ [Ox11]
  · iexact Ox11
  ihave Ox12 : (((oM.slice (Rect.unit (s := S16384x1024) (k0_off3 c 1536#32) S128x1024.size (k0_off3_inb c 12)) (fun _ => rfl)).view.loc (c : Thread nD τ) ↦[(oM.slice (Rect.unit (s := S16384x1024) (k0_off3 c 1536#32) S128x1024.size (k0_off3_inb c 12)) (fun _ => rfl)).view.set]{fullShare} fo)) $$ [Ox12]
  · iexact Ox12
  ihave Ox13 : (((oM.slice (Rect.unit (s := S16384x1024) (k0_off3 c 1664#32) S128x1024.size (k0_off3_inb c 13)) (fun _ => rfl)).view.loc (c : Thread nD τ) ↦[(oM.slice (Rect.unit (s := S16384x1024) (k0_off3 c 1664#32) S128x1024.size (k0_off3_inb c 13)) (fun _ => rfl)).view.set]{fullShare} fo)) $$ [Ox13]
  · iexact Ox13
  ihave Ox14 : (((oM.slice (Rect.unit (s := S16384x1024) (k0_off3 c 1792#32) S128x1024.size (k0_off3_inb c 14)) (fun _ => rfl)).view.loc (c : Thread nD τ) ↦[(oM.slice (Rect.unit (s := S16384x1024) (k0_off3 c 1792#32) S128x1024.size (k0_off3_inb c 14)) (fun _ => rfl)).view.set]{fullShare} fo)) $$ [Ox14]
  · iexact Ox14
  ihave Ox15 : (((oM.slice (Rect.unit (s := S16384x1024) (k0_off3 c 1920#32) S128x1024.size (k0_off3_inb c 15)) (fun _ => rfl)).view.loc (c : Thread nD τ) ↦[(oM.slice (Rect.unit (s := S16384x1024) (k0_off3 c 1920#32) S128x1024.size (k0_off3_inb c 15)) (fun _ => rfl)).view.set]{fullShare} fo)) $$ [Ox15]
  · iexact Ox15
  ihave Ox16 : (((oM.slice (Rect.unit (s := S16384x1024) (k0_off3 c 2048#32) S128x1024.size (k0_off3_inb c 16)) (fun _ => rfl)).view.loc (c : Thread nD τ) ↦[(oM.slice (Rect.unit (s := S16384x1024) (k0_off3 c 2048#32) S128x1024.size (k0_off3_inb c 16)) (fun _ => rfl)).view.set]{fullShare} fo)) $$ [Ox16]
  · iexact Ox16
  ihave Ox17 : (((oM.slice (Rect.unit (s := S16384x1024) (k0_off3 c 2176#32) S128x1024.size (k0_off3_inb c 17)) (fun _ => rfl)).view.loc (c : Thread nD τ) ↦[(oM.slice (Rect.unit (s := S16384x1024) (k0_off3 c 2176#32) S128x1024.size (k0_off3_inb c 17)) (fun _ => rfl)).view.set]{fullShare} fo)) $$ [Ox17]
  · iexact Ox17
  ihave Ox18 : (((oM.slice (Rect.unit (s := S16384x1024) (k0_off3 c 2304#32) S128x1024.size (k0_off3_inb c 18)) (fun _ => rfl)).view.loc (c : Thread nD τ) ↦[(oM.slice (Rect.unit (s := S16384x1024) (k0_off3 c 2304#32) S128x1024.size (k0_off3_inb c 18)) (fun _ => rfl)).view.set]{fullShare} fo)) $$ [Ox18]
  · iexact Ox18
  ihave Ox19 : (((oM.slice (Rect.unit (s := S16384x1024) (k0_off3 c 2432#32) S128x1024.size (k0_off3_inb c 19)) (fun _ => rfl)).view.loc (c : Thread nD τ) ↦[(oM.slice (Rect.unit (s := S16384x1024) (k0_off3 c 2432#32) S128x1024.size (k0_off3_inb c 19)) (fun _ => rfl)).view.set]{fullShare} fo)) $$ [Ox19]
  · iexact Ox19
  ihave Ox20 : (((oM.slice (Rect.unit (s := S16384x1024) (k0_off3 c 2560#32) S128x1024.size (k0_off3_inb c 20)) (fun _ => rfl)).view.loc (c : Thread nD τ) ↦[(oM.slice (Rect.unit (s := S16384x1024) (k0_off3 c 2560#32) S128x1024.size (k0_off3_inb c 20)) (fun _ => rfl)).view.set]{fullShare} fo)) $$ [Ox20]
  · iexact Ox20
  ihave Ox21 : (((oM.slice (Rect.unit (s := S16384x1024) (k0_off3 c 2688#32) S128x1024.size (k0_off3_inb c 21)) (fun _ => rfl)).view.loc (c : Thread nD τ) ↦[(oM.slice (Rect.unit (s := S16384x1024) (k0_off3 c 2688#32) S128x1024.size (k0_off3_inb c 21)) (fun _ => rfl)).view.set]{fullShare} fo)) $$ [Ox21]
  · iexact Ox21
  ihave Ox22 : (((oM.slice (Rect.unit (s := S16384x1024) (k0_off3 c 2816#32) S128x1024.size (k0_off3_inb c 22)) (fun _ => rfl)).view.loc (c : Thread nD τ) ↦[(oM.slice (Rect.unit (s := S16384x1024) (k0_off3 c 2816#32) S128x1024.size (k0_off3_inb c 22)) (fun _ => rfl)).view.set]{fullShare} fo)) $$ [Ox22]
  · iexact Ox22
  ihave Ox23 : (((oM.slice (Rect.unit (s := S16384x1024) (k0_off3 c 2944#32) S128x1024.size (k0_off3_inb c 23)) (fun _ => rfl)).view.loc (c : Thread nD τ) ↦[(oM.slice (Rect.unit (s := S16384x1024) (k0_off3 c 2944#32) S128x1024.size (k0_off3_inb c 23)) (fun _ => rfl)).view.set]{fullShare} fo)) $$ [Ox23]
  · iexact Ox23
  ihave Ox24 : (((oM.slice (Rect.unit (s := S16384x1024) (k0_off3 c 3072#32) S128x1024.size (k0_off3_inb c 24)) (fun _ => rfl)).view.loc (c : Thread nD τ) ↦[(oM.slice (Rect.unit (s := S16384x1024) (k0_off3 c 3072#32) S128x1024.size (k0_off3_inb c 24)) (fun _ => rfl)).view.set]{fullShare} fo)) $$ [Ox24]
  · iexact Ox24
  ihave Ox25 : (((oM.slice (Rect.unit (s := S16384x1024) (k0_off3 c 3200#32) S128x1024.size (k0_off3_inb c 25)) (fun _ => rfl)).view.loc (c : Thread nD τ) ↦[(oM.slice (Rect.unit (s := S16384x1024) (k0_off3 c 3200#32) S128x1024.size (k0_off3_inb c 25)) (fun _ => rfl)).view.set]{fullShare} fo)) $$ [Ox25]
  · iexact Ox25
  ihave Ox26 : (((oM.slice (Rect.unit (s := S16384x1024) (k0_off3 c 3328#32) S128x1024.size (k0_off3_inb c 26)) (fun _ => rfl)).view.loc (c : Thread nD τ) ↦[(oM.slice (Rect.unit (s := S16384x1024) (k0_off3 c 3328#32) S128x1024.size (k0_off3_inb c 26)) (fun _ => rfl)).view.set]{fullShare} fo)) $$ [Ox26]
  · iexact Ox26
  ihave Ox27 : (((oM.slice (Rect.unit (s := S16384x1024) (k0_off3 c 3456#32) S128x1024.size (k0_off3_inb c 27)) (fun _ => rfl)).view.loc (c : Thread nD τ) ↦[(oM.slice (Rect.unit (s := S16384x1024) (k0_off3 c 3456#32) S128x1024.size (k0_off3_inb c 27)) (fun _ => rfl)).view.set]{fullShare} fo)) $$ [Ox27]
  · iexact Ox27
  ihave Ox28 : (((oM.slice (Rect.unit (s := S16384x1024) (k0_off3 c 3584#32) S128x1024.size (k0_off3_inb c 28)) (fun _ => rfl)).view.loc (c : Thread nD τ) ↦[(oM.slice (Rect.unit (s := S16384x1024) (k0_off3 c 3584#32) S128x1024.size (k0_off3_inb c 28)) (fun _ => rfl)).view.set]{fullShare} fo)) $$ [Ox28]
  · iexact Ox28
  ihave Ox29 : (((oM.slice (Rect.unit (s := S16384x1024) (k0_off3 c 3712#32) S128x1024.size (k0_off3_inb c 29)) (fun _ => rfl)).view.loc (c : Thread nD τ) ↦[(oM.slice (Rect.unit (s := S16384x1024) (k0_off3 c 3712#32) S128x1024.size (k0_off3_inb c 29)) (fun _ => rfl)).view.set]{fullShare} fo)) $$ [Ox29]
  · iexact Ox29
  ihave Ox30 : (((oM.slice (Rect.unit (s := S16384x1024) (k0_off3 c 3840#32) S128x1024.size (k0_off3_inb c 30)) (fun _ => rfl)).view.loc (c : Thread nD τ) ↦[(oM.slice (Rect.unit (s := S16384x1024) (k0_off3 c 3840#32) S128x1024.size (k0_off3_inb c 30)) (fun _ => rfl)).view.set]{fullShare} fo)) $$ [Ox30]
  · iexact Ox30
  ihave Ox31 : (((oM.slice (Rect.unit (s := S16384x1024) (k0_off3 c 3968#32) S128x1024.size (k0_off3_inb c 31)) (fun _ => rfl)).view.loc (c : Thread nD τ) ↦[(oM.slice (Rect.unit (s := S16384x1024) (k0_off3 c 3968#32) S128x1024.size (k0_off3_inb c 31)) (fun _ => rfl)).view.set]{fullShare} fo)) $$ [Ox31]
  · iexact Ox31
  ihave Hxs := (halves_split (ℓ := xM.view.loc (c : Thread nD τ)) (S := xM.view.set) (X m c)) $$ Hx
  icases Hxs with ⟨HxL, HxR⟩
  ihave Hxq := (share_split (ℓ := xM.view.loc (c : Thread nD τ)) (S := xM.view.set) fullShare.right (X m c)) $$ HxR
  icases Hxq with ⟨Hx, HxB⟩
  ihave AL := (aside_in _) $$ HxL
  ihave AB := (aside_in _) $$ HxB
  beta_reduce
  have ledgerX := fun (s : DmaSem sig) (hs : s.val < 99) (j : ℕ) => mw_low_X (F := F) c s hs j
  have ledgerY := fun (s : DmaSem sig) (hs : s.val < 99) (j : ℕ) => mw_low_Y (F := F) c s hs j
  rw [cc0_body_eq_skeleton]; unfold cc0_body_skel
  sl_exec
  -- the entry handshake
  iapply (stepSigX m K c _ (Fin.ext (k0_dev1_eq c)) W frb) $$ HR HO TbX Hrbs
  iintro HO
  sl_exec
  iapply (stepSigY m K c _ (Fin.ext (k0_dev2_eq c)) W fo) $$ HR HO TbY HoY
  iintro HO
  sl_exec
  iapply (stepWaitBar m K c W) $$ HR CB HO Hlev PB
  iintro ⟨HO, PB, PX, PY⟩
  unfold barPayX barPayY
  ihave PXc := (Entails.of_eq (bigSep_fin32 (fun k : Fin 32 => (iprop((∃ f, ((sl3 rbM k).view.loc (xp c : Thread nD τ) ↦[(sl3 rbM k).view.set]{fullShare} f)) ∗ reached ER (rXc (xp c) k) 0) : sProp 𝕄)))) $$ PX
  icases PXc with ⟨⟨⟨%fx0, Rx0⟩, -⟩, ⟨⟨%fx1, Rx1⟩, -⟩, ⟨⟨%fx2, Rx2⟩, -⟩, ⟨⟨%fx3, Rx3⟩, -⟩, ⟨⟨%fx4, Rx4⟩, -⟩, ⟨⟨%fx5, Rx5⟩, -⟩, ⟨⟨%fx6, Rx6⟩, -⟩, ⟨⟨%fx7, Rx7⟩, -⟩, ⟨⟨%fx8, Rx8⟩, -⟩, ⟨⟨%fx9, Rx9⟩, -⟩, ⟨⟨%fx10, Rx10⟩, -⟩, ⟨⟨%fx11, Rx11⟩, -⟩, ⟨⟨%fx12, Rx12⟩, -⟩, ⟨⟨%fx13, Rx13⟩, -⟩, ⟨⟨%fx14, Rx14⟩, -⟩, ⟨⟨%fx15, Rx15⟩, -⟩, ⟨⟨%fx16, Rx16⟩, -⟩, ⟨⟨%fx17, Rx17⟩, -⟩, ⟨⟨%fx18, Rx18⟩, -⟩, ⟨⟨%fx19, Rx19⟩, -⟩, ⟨⟨%fx20, Rx20⟩, -⟩, ⟨⟨%fx21, Rx21⟩, -⟩, ⟨⟨%fx22, Rx22⟩, -⟩, ⟨⟨%fx23, Rx23⟩, -⟩, ⟨⟨%fx24, Rx24⟩, -⟩, ⟨⟨%fx25, Rx25⟩, -⟩, ⟨⟨%fx26, Rx26⟩, -⟩, ⟨⟨%fx27, Rx27⟩, -⟩, ⟨⟨%fx28, Rx28⟩, -⟩, ⟨⟨%fx29, Rx29⟩, -⟩, ⟨⟨%fx30, Rx30⟩, -⟩, ⟨⟨%fx31, Rx31⟩, -⟩⟩
  ihave PYc := (Entails.of_eq (bigSep_fin32 (fun k : Fin 32 => (iprop((∃ f, ((oY (yp c) k).view.loc (yp c : Thread nD τ) ↦[(oY (yp c) k).view.set]{fullShare} f)) ∗ reached ER (rYc (yp c) k) 0) : sProp 𝕄)))) $$ PY
  icases PYc with ⟨⟨⟨%fy0, Ry0⟩, -⟩, ⟨⟨%fy1, Ry1⟩, -⟩, ⟨⟨%fy2, Ry2⟩, -⟩, ⟨⟨%fy3, Ry3⟩, -⟩, ⟨⟨%fy4, Ry4⟩, -⟩, ⟨⟨%fy5, Ry5⟩, -⟩, ⟨⟨%fy6, Ry6⟩, -⟩, ⟨⟨%fy7, Ry7⟩, -⟩, ⟨⟨%fy8, Ry8⟩, -⟩, ⟨⟨%fy9, Ry9⟩, -⟩, ⟨⟨%fy10, Ry10⟩, -⟩, ⟨⟨%fy11, Ry11⟩, -⟩, ⟨⟨%fy12, Ry12⟩, -⟩, ⟨⟨%fy13, Ry13⟩, -⟩, ⟨⟨%fy14, Ry14⟩, -⟩, ⟨⟨%fy15, Ry15⟩, -⟩, ⟨⟨%fy16, Ry16⟩, -⟩, ⟨⟨%fy17, Ry17⟩, -⟩, ⟨⟨%fy18, Ry18⟩, -⟩, ⟨⟨%fy19, Ry19⟩, -⟩, ⟨⟨%fy20, Ry20⟩, -⟩, ⟨⟨%fy21, Ry21⟩, -⟩, ⟨⟨%fy22, Ry22⟩, -⟩, ⟨⟨%fy23, Ry23⟩, -⟩, ⟨⟨%fy24, Ry24⟩, -⟩, ⟨⟨%fy25, Ry25⟩, -⟩, ⟨⟨%fy26, Ry26⟩, -⟩, ⟨⟨%fy27, Ry27⟩, -⟩, ⟨⟨%fy28, Ry28⟩, -⟩, ⟨⟨%fy29, Ry29⟩, -⟩, ⟨⟨%fy30, Ry30⟩, -⟩, ⟨⟨%fy31, Ry31⟩, -⟩⟩
  sl_exec
  -- the 32 sends to the column mate, each from the piece just staged
  iapply (stepSendX m K c _ (Fin.ext (k0_dev3_eq c)) 0 31 32 rfl (by decide) _ _ fx0 ?hv0) $$ HR Sb0 Rx0 HO TsX0 TrX0
  case hv0 => exact fun i hi => by sl_unfold_run_names; exact staged_val m c 0 _ i hi
  iintro ⟨CsX0, HO⟩
  sl_exec
  iapply (stepSendX m K c _ (Fin.ext (k0_dev4_eq c)) 1 30 31 rfl (by decide) _ _ fx1 ?hv1) $$ HR Sb1 Rx1 HO TsX1 TrX1
  case hv1 => exact fun i hi => by sl_unfold_run_names; exact staged_val m c 1 _ i hi
  iintro ⟨CsX1, HO⟩
  sl_exec
  iapply (stepSendX m K c _ (Fin.ext (k0_dev5_eq c)) 2 29 30 rfl (by decide) _ _ fx2 ?hv2) $$ HR Sb2 Rx2 HO TsX2 TrX2
  case hv2 => exact fun i hi => by sl_unfold_run_names; exact staged_val m c 2 _ i hi
  iintro ⟨CsX2, HO⟩
  sl_exec
  iapply (stepSendX m K c _ (Fin.ext (k0_dev6_eq c)) 3 28 29 rfl (by decide) _ _ fx3 ?hv3) $$ HR Sb3 Rx3 HO TsX3 TrX3
  case hv3 => exact fun i hi => by sl_unfold_run_names; exact staged_val m c 3 _ i hi
  iintro ⟨CsX3, HO⟩
  sl_exec
  iapply (stepSendX m K c _ (Fin.ext (k0_dev7_eq c)) 4 27 28 rfl (by decide) _ _ fx4 ?hv4) $$ HR Sb4 Rx4 HO TsX4 TrX4
  case hv4 => exact fun i hi => by sl_unfold_run_names; exact staged_val m c 4 _ i hi
  iintro ⟨CsX4, HO⟩
  sl_exec
  iapply (stepSendX m K c _ (Fin.ext (k0_dev8_eq c)) 5 26 27 rfl (by decide) _ _ fx5 ?hv5) $$ HR Sb5 Rx5 HO TsX5 TrX5
  case hv5 => exact fun i hi => by sl_unfold_run_names; exact staged_val m c 5 _ i hi
  iintro ⟨CsX5, HO⟩
  sl_exec
  iapply (stepSendX m K c _ (Fin.ext (k0_dev9_eq c)) 6 25 26 rfl (by decide) _ _ fx6 ?hv6) $$ HR Sb6 Rx6 HO TsX6 TrX6
  case hv6 => exact fun i hi => by sl_unfold_run_names; exact staged_val m c 6 _ i hi
  iintro ⟨CsX6, HO⟩
  sl_exec
  iapply (stepSendX m K c _ (Fin.ext (k0_dev10_eq c)) 7 24 25 rfl (by decide) _ _ fx7 ?hv7) $$ HR Sb7 Rx7 HO TsX7 TrX7
  case hv7 => exact fun i hi => by sl_unfold_run_names; exact staged_val m c 7 _ i hi
  iintro ⟨CsX7, HO⟩
  sl_exec
  iapply (stepSendX m K c _ (Fin.ext (k0_dev11_eq c)) 8 23 24 rfl (by decide) _ _ fx8 ?hv8) $$ HR Sb8 Rx8 HO TsX8 TrX8
  case hv8 => exact fun i hi => by sl_unfold_run_names; exact staged_val m c 8 _ i hi
  iintro ⟨CsX8, HO⟩
  sl_exec
  iapply (stepSendX m K c _ (Fin.ext (k0_dev12_eq c)) 9 22 23 rfl (by decide) _ _ fx9 ?hv9) $$ HR Sb9 Rx9 HO TsX9 TrX9
  case hv9 => exact fun i hi => by sl_unfold_run_names; exact staged_val m c 9 _ i hi
  iintro ⟨CsX9, HO⟩
  sl_exec
  iapply (stepSendX m K c _ (Fin.ext (k0_dev13_eq c)) 10 21 22 rfl (by decide) _ _ fx10 ?hv10) $$ HR Sb10 Rx10 HO TsX10 TrX10
  case hv10 => exact fun i hi => by sl_unfold_run_names; exact staged_val m c 10 _ i hi
  iintro ⟨CsX10, HO⟩
  sl_exec
  iapply (stepSendX m K c _ (Fin.ext (k0_dev14_eq c)) 11 20 21 rfl (by decide) _ _ fx11 ?hv11) $$ HR Sb11 Rx11 HO TsX11 TrX11
  case hv11 => exact fun i hi => by sl_unfold_run_names; exact staged_val m c 11 _ i hi
  iintro ⟨CsX11, HO⟩
  sl_exec
  iapply (stepSendX m K c _ (Fin.ext (k0_dev15_eq c)) 12 19 20 rfl (by decide) _ _ fx12 ?hv12) $$ HR Sb12 Rx12 HO TsX12 TrX12
  case hv12 => exact fun i hi => by sl_unfold_run_names; exact staged_val m c 12 _ i hi
  iintro ⟨CsX12, HO⟩
  sl_exec
  iapply (stepSendX m K c _ (Fin.ext (k0_dev16_eq c)) 13 18 19 rfl (by decide) _ _ fx13 ?hv13) $$ HR Sb13 Rx13 HO TsX13 TrX13
  case hv13 => exact fun i hi => by sl_unfold_run_names; exact staged_val m c 13 _ i hi
  iintro ⟨CsX13, HO⟩
  sl_exec
  iapply (stepSendX m K c _ (Fin.ext (k0_dev17_eq c)) 14 17 18 rfl (by decide) _ _ fx14 ?hv14) $$ HR Sb14 Rx14 HO TsX14 TrX14
  case hv14 => exact fun i hi => by sl_unfold_run_names; exact staged_val m c 14 _ i hi
  iintro ⟨CsX14, HO⟩
  sl_exec
  iapply (stepSendX m K c _ (Fin.ext (k0_dev18_eq c)) 15 16 17 rfl (by decide) _ _ fx15 ?hv15) $$ HR Sb15 Rx15 HO TsX15 TrX15
  case hv15 => exact fun i hi => by sl_unfold_run_names; exact staged_val m c 15 _ i hi
  iintro ⟨CsX15, HO⟩
  sl_exec
  iapply (stepSendX m K c _ (Fin.ext (k0_dev19_eq c)) 16 15 16 rfl (by decide) _ _ fx16 ?hv16) $$ HR Sb16 Rx16 HO TsX16 TrX16
  case hv16 => exact fun i hi => by sl_unfold_run_names; exact staged_val m c 16 _ i hi
  iintro ⟨CsX16, HO⟩
  sl_exec
  iapply (stepSendX m K c _ (Fin.ext (k0_dev20_eq c)) 17 14 15 rfl (by decide) _ _ fx17 ?hv17) $$ HR Sb17 Rx17 HO TsX17 TrX17
  case hv17 => exact fun i hi => by sl_unfold_run_names; exact staged_val m c 17 _ i hi
  iintro ⟨CsX17, HO⟩
  sl_exec
  iapply (stepSendX m K c _ (Fin.ext (k0_dev21_eq c)) 18 13 14 rfl (by decide) _ _ fx18 ?hv18) $$ HR Sb18 Rx18 HO TsX18 TrX18
  case hv18 => exact fun i hi => by sl_unfold_run_names; exact staged_val m c 18 _ i hi
  iintro ⟨CsX18, HO⟩
  sl_exec
  iapply (stepSendX m K c _ (Fin.ext (k0_dev22_eq c)) 19 12 13 rfl (by decide) _ _ fx19 ?hv19) $$ HR Sb19 Rx19 HO TsX19 TrX19
  case hv19 => exact fun i hi => by sl_unfold_run_names; exact staged_val m c 19 _ i hi
  iintro ⟨CsX19, HO⟩
  sl_exec
  iapply (stepSendX m K c _ (Fin.ext (k0_dev23_eq c)) 20 11 12 rfl (by decide) _ _ fx20 ?hv20) $$ HR Sb20 Rx20 HO TsX20 TrX20
  case hv20 => exact fun i hi => by sl_unfold_run_names; exact staged_val m c 20 _ i hi
  iintro ⟨CsX20, HO⟩
  sl_exec
  iapply (stepSendX m K c _ (Fin.ext (k0_dev24_eq c)) 21 10 11 rfl (by decide) _ _ fx21 ?hv21) $$ HR Sb21 Rx21 HO TsX21 TrX21
  case hv21 => exact fun i hi => by sl_unfold_run_names; exact staged_val m c 21 _ i hi
  iintro ⟨CsX21, HO⟩
  sl_exec
  iapply (stepSendX m K c _ (Fin.ext (k0_dev25_eq c)) 22 9 10 rfl (by decide) _ _ fx22 ?hv22) $$ HR Sb22 Rx22 HO TsX22 TrX22
  case hv22 => exact fun i hi => by sl_unfold_run_names; exact staged_val m c 22 _ i hi
  iintro ⟨CsX22, HO⟩
  sl_exec
  iapply (stepSendX m K c _ (Fin.ext (k0_dev26_eq c)) 23 8 9 rfl (by decide) _ _ fx23 ?hv23) $$ HR Sb23 Rx23 HO TsX23 TrX23
  case hv23 => exact fun i hi => by sl_unfold_run_names; exact staged_val m c 23 _ i hi
  iintro ⟨CsX23, HO⟩
  sl_exec
  iapply (stepSendX m K c _ (Fin.ext (k0_dev27_eq c)) 24 7 8 rfl (by decide) _ _ fx24 ?hv24) $$ HR Sb24 Rx24 HO TsX24 TrX24
  case hv24 => exact fun i hi => by sl_unfold_run_names; exact staged_val m c 24 _ i hi
  iintro ⟨CsX24, HO⟩
  sl_exec
  iapply (stepSendX m K c _ (Fin.ext (k0_dev28_eq c)) 25 6 7 rfl (by decide) _ _ fx25 ?hv25) $$ HR Sb25 Rx25 HO TsX25 TrX25
  case hv25 => exact fun i hi => by sl_unfold_run_names; exact staged_val m c 25 _ i hi
  iintro ⟨CsX25, HO⟩
  sl_exec
  iapply (stepSendX m K c _ (Fin.ext (k0_dev29_eq c)) 26 5 6 rfl (by decide) _ _ fx26 ?hv26) $$ HR Sb26 Rx26 HO TsX26 TrX26
  case hv26 => exact fun i hi => by sl_unfold_run_names; exact staged_val m c 26 _ i hi
  iintro ⟨CsX26, HO⟩
  sl_exec
  iapply (stepSendX m K c _ (Fin.ext (k0_dev30_eq c)) 27 4 5 rfl (by decide) _ _ fx27 ?hv27) $$ HR Sb27 Rx27 HO TsX27 TrX27
  case hv27 => exact fun i hi => by sl_unfold_run_names; exact staged_val m c 27 _ i hi
  iintro ⟨CsX27, HO⟩
  sl_exec
  iapply (stepSendX m K c _ (Fin.ext (k0_dev31_eq c)) 28 3 4 rfl (by decide) _ _ fx28 ?hv28) $$ HR Sb28 Rx28 HO TsX28 TrX28
  case hv28 => exact fun i hi => by sl_unfold_run_names; exact staged_val m c 28 _ i hi
  iintro ⟨CsX28, HO⟩
  sl_exec
  iapply (stepSendX m K c _ (Fin.ext (k0_dev32_eq c)) 29 2 3 rfl (by decide) _ _ fx29 ?hv29) $$ HR Sb29 Rx29 HO TsX29 TrX29
  case hv29 => exact fun i hi => by sl_unfold_run_names; exact staged_val m c 29 _ i hi
  iintro ⟨CsX29, HO⟩
  sl_exec
  iapply (stepSendX m K c _ (Fin.ext (k0_dev33_eq c)) 30 1 2 rfl (by decide) _ _ fx30 ?hv30) $$ HR Sb30 Rx30 HO TsX30 TrX30
  case hv30 => exact fun i hi => by sl_unfold_run_names; exact staged_val m c 30 _ i hi
  iintro ⟨CsX30, HO⟩
  sl_exec
  iapply (stepSendX m K c _ (Fin.ext (k0_dev34_eq c)) 31 0 1 rfl (by decide) _ _ fx31 ?hv31) $$ HR Sb31 Rx31 HO TsX31 TrX31
  case hv31 => exact fun i hi => by sl_unfold_run_names; exact staged_val m c 31 _ i hi
  iintro ⟨CsX31, HO⟩
  sl_exec
  ihave AA := (aside_in _) $$ Hx
  ihave Hx := (aside_out _) $$ AB
  sl_exec
  ihave HO := (owes_remX0 c _) $$ HO
  -- per chunk: the arrival from the column mate, the forward to the row mate, the copy into the result
  iapply (stepWaitRX m K c 0 32 (wpE_waitDma2_eq 𝒱₀ (c : Thread nD τ) none Set.univ (src := sl3 sbM 0) (dst := sl3 rbM 0)) _) $$ HR CrX0 HO Hlev PrX0
  iintro ⟨HO, PrX0, Rb0⟩
  ihave Hh0 := (halves_split (ℓ := (sl3 rbM 0).view.loc (c : Thread nD τ)) (S := (sl3 rbM 0).view.set) (recvC m c)) $$ Rb0
  icases Hh0 with ⟨RbL0, RbR0⟩
  first | sl_exec | (rw [wp_ret]; imodintro; beta_reduce) | skip
  iapply (stepSendY m K c _ (Fin.ext (k0_dev35_eq c)) 0 31 32 rfl (by decide) _ fy0) $$ HR RbL0 Ry0 HO TsY0 TrY0
  iintro ⟨CsY0, HO⟩
  sl_exec
  iapply (stepWaitRX m K c 1 31 (wpE_waitDma2_eq 𝒱₀ (c : Thread nD τ) none Set.univ (src := sl3 sbM 1) (dst := sl3 rbM 1)) _) $$ HR CrX1 HO Hlev PrX1
  iintro ⟨HO, PrX1, Rb1⟩
  ihave Hh1 := (halves_split (ℓ := (sl3 rbM 1).view.loc (c : Thread nD τ)) (S := (sl3 rbM 1).view.set) (recvC m c)) $$ Rb1
  icases Hh1 with ⟨RbL1, RbR1⟩
  first | sl_exec | (rw [wp_ret]; imodintro; beta_reduce) | skip
  iapply (stepSendY m K c _ (Fin.ext (k0_dev36_eq c)) 1 30 31 rfl (by decide) _ fy1) $$ HR RbL1 Ry1 HO TsY1 TrY1
  iintro ⟨CsY1, HO⟩
  sl_exec
  iapply (stepWaitRX m K c 2 30 (wpE_waitDma2_eq 𝒱₀ (c : Thread nD τ) none Set.univ (src := sl3 sbM 2) (dst := sl3 rbM 2)) _) $$ HR CrX2 HO Hlev PrX2
  iintro ⟨HO, PrX2, Rb2⟩
  ihave Hh2 := (halves_split (ℓ := (sl3 rbM 2).view.loc (c : Thread nD τ)) (S := (sl3 rbM 2).view.set) (recvC m c)) $$ Rb2
  icases Hh2 with ⟨RbL2, RbR2⟩
  first | sl_exec | (rw [wp_ret]; imodintro; beta_reduce) | skip
  iapply (stepSendY m K c _ (Fin.ext (k0_dev37_eq c)) 2 29 30 rfl (by decide) _ fy2) $$ HR RbL2 Ry2 HO TsY2 TrY2
  iintro ⟨CsY2, HO⟩
  sl_exec
  iapply (stepWaitRX m K c 3 29 (wpE_waitDma2_eq 𝒱₀ (c : Thread nD τ) none Set.univ (src := sl3 sbM 3) (dst := sl3 rbM 3)) _) $$ HR CrX3 HO Hlev PrX3
  iintro ⟨HO, PrX3, Rb3⟩
  ihave Hh3 := (halves_split (ℓ := (sl3 rbM 3).view.loc (c : Thread nD τ)) (S := (sl3 rbM 3).view.set) (recvC m c)) $$ Rb3
  icases Hh3 with ⟨RbL3, RbR3⟩
  first | sl_exec | (rw [wp_ret]; imodintro; beta_reduce) | skip
  iapply (stepSendY m K c _ (Fin.ext (k0_dev38_eq c)) 3 28 29 rfl (by decide) _ fy3) $$ HR RbL3 Ry3 HO TsY3 TrY3
  iintro ⟨CsY3, HO⟩
  sl_exec
  iapply (stepWaitRX m K c 4 28 (wpE_waitDma2_eq 𝒱₀ (c : Thread nD τ) none Set.univ (src := sl3 sbM 4) (dst := sl3 rbM 4)) _) $$ HR CrX4 HO Hlev PrX4
  iintro ⟨HO, PrX4, Rb4⟩
  ihave Hh4 := (halves_split (ℓ := (sl3 rbM 4).view.loc (c : Thread nD τ)) (S := (sl3 rbM 4).view.set) (recvC m c)) $$ Rb4
  icases Hh4 with ⟨RbL4, RbR4⟩
  first | sl_exec | (rw [wp_ret]; imodintro; beta_reduce) | skip
  iapply (stepSendY m K c _ (Fin.ext (k0_dev39_eq c)) 4 27 28 rfl (by decide) _ fy4) $$ HR RbL4 Ry4 HO TsY4 TrY4
  iintro ⟨CsY4, HO⟩
  sl_exec
  iapply (stepWaitRX m K c 5 27 (wpE_waitDma2_eq 𝒱₀ (c : Thread nD τ) none Set.univ (src := sl3 sbM 5) (dst := sl3 rbM 5)) _) $$ HR CrX5 HO Hlev PrX5
  iintro ⟨HO, PrX5, Rb5⟩
  ihave Hh5 := (halves_split (ℓ := (sl3 rbM 5).view.loc (c : Thread nD τ)) (S := (sl3 rbM 5).view.set) (recvC m c)) $$ Rb5
  icases Hh5 with ⟨RbL5, RbR5⟩
  first | sl_exec | (rw [wp_ret]; imodintro; beta_reduce) | skip
  iapply (stepSendY m K c _ (Fin.ext (k0_dev40_eq c)) 5 26 27 rfl (by decide) _ fy5) $$ HR RbL5 Ry5 HO TsY5 TrY5
  iintro ⟨CsY5, HO⟩
  sl_exec
  iapply (stepWaitRX m K c 6 26 (wpE_waitDma2_eq 𝒱₀ (c : Thread nD τ) none Set.univ (src := sl3 sbM 6) (dst := sl3 rbM 6)) _) $$ HR CrX6 HO Hlev PrX6
  iintro ⟨HO, PrX6, Rb6⟩
  ihave Hh6 := (halves_split (ℓ := (sl3 rbM 6).view.loc (c : Thread nD τ)) (S := (sl3 rbM 6).view.set) (recvC m c)) $$ Rb6
  icases Hh6 with ⟨RbL6, RbR6⟩
  first | sl_exec | (rw [wp_ret]; imodintro; beta_reduce) | skip
  iapply (stepSendY m K c _ (Fin.ext (k0_dev41_eq c)) 6 25 26 rfl (by decide) _ fy6) $$ HR RbL6 Ry6 HO TsY6 TrY6
  iintro ⟨CsY6, HO⟩
  sl_exec
  iapply (stepWaitRX m K c 7 25 (wpE_waitDma2_eq 𝒱₀ (c : Thread nD τ) none Set.univ (src := sl3 sbM 7) (dst := sl3 rbM 7)) _) $$ HR CrX7 HO Hlev PrX7
  iintro ⟨HO, PrX7, Rb7⟩
  ihave Hh7 := (halves_split (ℓ := (sl3 rbM 7).view.loc (c : Thread nD τ)) (S := (sl3 rbM 7).view.set) (recvC m c)) $$ Rb7
  icases Hh7 with ⟨RbL7, RbR7⟩
  first | sl_exec | (rw [wp_ret]; imodintro; beta_reduce) | skip
  iapply (stepSendY m K c _ (Fin.ext (k0_dev42_eq c)) 7 24 25 rfl (by decide) _ fy7) $$ HR RbL7 Ry7 HO TsY7 TrY7
  iintro ⟨CsY7, HO⟩
  sl_exec
  iapply (stepWaitRX m K c 8 24 (wpE_waitDma2_eq 𝒱₀ (c : Thread nD τ) none Set.univ (src := sl3 sbM 8) (dst := sl3 rbM 8)) _) $$ HR CrX8 HO Hlev PrX8
  iintro ⟨HO, PrX8, Rb8⟩
  ihave Hh8 := (halves_split (ℓ := (sl3 rbM 8).view.loc (c : Thread nD τ)) (S := (sl3 rbM 8).view.set) (recvC m c)) $$ Rb8
  icases Hh8 with ⟨RbL8, RbR8⟩
  first | sl_exec | (rw [wp_ret]; imodintro; beta_reduce) | skip
  iapply (stepSendY m K c _ (Fin.ext (k0_dev43_eq c)) 8 23 24 rfl (by decide) _ fy8) $$ HR RbL8 Ry8 HO TsY8 TrY8
  iintro ⟨CsY8, HO⟩
  sl_exec
  iapply (stepWaitRX m K c 9 23 (wpE_waitDma2_eq 𝒱₀ (c : Thread nD τ) none Set.univ (src := sl3 sbM 9) (dst := sl3 rbM 9)) _) $$ HR CrX9 HO Hlev PrX9
  iintro ⟨HO, PrX9, Rb9⟩
  ihave Hh9 := (halves_split (ℓ := (sl3 rbM 9).view.loc (c : Thread nD τ)) (S := (sl3 rbM 9).view.set) (recvC m c)) $$ Rb9
  icases Hh9 with ⟨RbL9, RbR9⟩
  first | sl_exec | (rw [wp_ret]; imodintro; beta_reduce) | skip
  iapply (stepSendY m K c _ (Fin.ext (k0_dev44_eq c)) 9 22 23 rfl (by decide) _ fy9) $$ HR RbL9 Ry9 HO TsY9 TrY9
  iintro ⟨CsY9, HO⟩
  sl_exec
  iapply (stepWaitRX m K c 10 22 (wpE_waitDma2_eq 𝒱₀ (c : Thread nD τ) none Set.univ (src := sl3 sbM 10) (dst := sl3 rbM 10)) _) $$ HR CrX10 HO Hlev PrX10
  iintro ⟨HO, PrX10, Rb10⟩
  ihave Hh10 := (halves_split (ℓ := (sl3 rbM 10).view.loc (c : Thread nD τ)) (S := (sl3 rbM 10).view.set) (recvC m c)) $$ Rb10
  icases Hh10 with ⟨RbL10, RbR10⟩
  first | sl_exec | (rw [wp_ret]; imodintro; beta_reduce) | skip
  iapply (stepSendY m K c _ (Fin.ext (k0_dev45_eq c)) 10 21 22 rfl (by decide) _ fy10) $$ HR RbL10 Ry10 HO TsY10 TrY10
  iintro ⟨CsY10, HO⟩
  sl_exec
  iapply (stepWaitRX m K c 11 21 (wpE_waitDma2_eq 𝒱₀ (c : Thread nD τ) none Set.univ (src := sl3 sbM 11) (dst := sl3 rbM 11)) _) $$ HR CrX11 HO Hlev PrX11
  iintro ⟨HO, PrX11, Rb11⟩
  ihave Hh11 := (halves_split (ℓ := (sl3 rbM 11).view.loc (c : Thread nD τ)) (S := (sl3 rbM 11).view.set) (recvC m c)) $$ Rb11
  icases Hh11 with ⟨RbL11, RbR11⟩
  first | sl_exec | (rw [wp_ret]; imodintro; beta_reduce) | skip
  iapply (stepSendY m K c _ (Fin.ext (k0_dev46_eq c)) 11 20 21 rfl (by decide) _ fy11) $$ HR RbL11 Ry11 HO TsY11 TrY11
  iintro ⟨CsY11, HO⟩
  sl_exec
  iapply (stepWaitRX m K c 12 20 (wpE_waitDma2_eq 𝒱₀ (c : Thread nD τ) none Set.univ (src := sl3 sbM 12) (dst := sl3 rbM 12)) _) $$ HR CrX12 HO Hlev PrX12
  iintro ⟨HO, PrX12, Rb12⟩
  ihave Hh12 := (halves_split (ℓ := (sl3 rbM 12).view.loc (c : Thread nD τ)) (S := (sl3 rbM 12).view.set) (recvC m c)) $$ Rb12
  icases Hh12 with ⟨RbL12, RbR12⟩
  first | sl_exec | (rw [wp_ret]; imodintro; beta_reduce) | skip
  iapply (stepSendY m K c _ (Fin.ext (k0_dev47_eq c)) 12 19 20 rfl (by decide) _ fy12) $$ HR RbL12 Ry12 HO TsY12 TrY12
  iintro ⟨CsY12, HO⟩
  sl_exec
  iapply (stepWaitRX m K c 13 19 (wpE_waitDma2_eq 𝒱₀ (c : Thread nD τ) none Set.univ (src := sl3 sbM 13) (dst := sl3 rbM 13)) _) $$ HR CrX13 HO Hlev PrX13
  iintro ⟨HO, PrX13, Rb13⟩
  ihave Hh13 := (halves_split (ℓ := (sl3 rbM 13).view.loc (c : Thread nD τ)) (S := (sl3 rbM 13).view.set) (recvC m c)) $$ Rb13
  icases Hh13 with ⟨RbL13, RbR13⟩
  first | sl_exec | (rw [wp_ret]; imodintro; beta_reduce) | skip
  iapply (stepSendY m K c _ (Fin.ext (k0_dev48_eq c)) 13 18 19 rfl (by decide) _ fy13) $$ HR RbL13 Ry13 HO TsY13 TrY13
  iintro ⟨CsY13, HO⟩
  sl_exec
  iapply (stepWaitRX m K c 14 18 (wpE_waitDma2_eq 𝒱₀ (c : Thread nD τ) none Set.univ (src := sl3 sbM 14) (dst := sl3 rbM 14)) _) $$ HR CrX14 HO Hlev PrX14
  iintro ⟨HO, PrX14, Rb14⟩
  ihave Hh14 := (halves_split (ℓ := (sl3 rbM 14).view.loc (c : Thread nD τ)) (S := (sl3 rbM 14).view.set) (recvC m c)) $$ Rb14
  icases Hh14 with ⟨RbL14, RbR14⟩
  first | sl_exec | (rw [wp_ret]; imodintro; beta_reduce) | skip
  iapply (stepSendY m K c _ (Fin.ext (k0_dev49_eq c)) 14 17 18 rfl (by decide) _ fy14) $$ HR RbL14 Ry14 HO TsY14 TrY14
  iintro ⟨CsY14, HO⟩
  sl_exec
  iapply (stepWaitRX m K c 15 17 (wpE_waitDma2_eq 𝒱₀ (c : Thread nD τ) none Set.univ (src := sl3 sbM 15) (dst := sl3 rbM 15)) _) $$ HR CrX15 HO Hlev PrX15
  iintro ⟨HO, PrX15, Rb15⟩
  ihave Hh15 := (halves_split (ℓ := (sl3 rbM 15).view.loc (c : Thread nD τ)) (S := (sl3 rbM 15).view.set) (recvC m c)) $$ Rb15
  icases Hh15 with ⟨RbL15, RbR15⟩
  first | sl_exec | (rw [wp_ret]; imodintro; beta_reduce) | skip
  iapply (stepSendY m K c _ (Fin.ext (k0_dev50_eq c)) 15 16 17 rfl (by decide) _ fy15) $$ HR RbL15 Ry15 HO TsY15 TrY15
  iintro ⟨CsY15, HO⟩
  sl_exec
  iapply (stepWaitRX m K c 16 16 (wpE_waitDma2_eq 𝒱₀ (c : Thread nD τ) none Set.univ (src := sl3 sbM 16) (dst := sl3 rbM 16)) _) $$ HR CrX16 HO Hlev PrX16
  iintro ⟨HO, PrX16, Rb16⟩
  ihave Hh16 := (halves_split (ℓ := (sl3 rbM 16).view.loc (c : Thread nD τ)) (S := (sl3 rbM 16).view.set) (recvC m c)) $$ Rb16
  icases Hh16 with ⟨RbL16, RbR16⟩
  first | sl_exec | (rw [wp_ret]; imodintro; beta_reduce) | skip
  iapply (stepSendY m K c _ (Fin.ext (k0_dev51_eq c)) 16 15 16 rfl (by decide) _ fy16) $$ HR RbL16 Ry16 HO TsY16 TrY16
  iintro ⟨CsY16, HO⟩
  sl_exec
  iapply (stepWaitRX m K c 17 15 (wpE_waitDma2_eq 𝒱₀ (c : Thread nD τ) none Set.univ (src := sl3 sbM 17) (dst := sl3 rbM 17)) _) $$ HR CrX17 HO Hlev PrX17
  iintro ⟨HO, PrX17, Rb17⟩
  ihave Hh17 := (halves_split (ℓ := (sl3 rbM 17).view.loc (c : Thread nD τ)) (S := (sl3 rbM 17).view.set) (recvC m c)) $$ Rb17
  icases Hh17 with ⟨RbL17, RbR17⟩
  first | sl_exec | (rw [wp_ret]; imodintro; beta_reduce) | skip
  iapply (stepSendY m K c _ (Fin.ext (k0_dev52_eq c)) 17 14 15 rfl (by decide) _ fy17) $$ HR RbL17 Ry17 HO TsY17 TrY17
  iintro ⟨CsY17, HO⟩
  sl_exec
  iapply (stepWaitRX m K c 18 14 (wpE_waitDma2_eq 𝒱₀ (c : Thread nD τ) none Set.univ (src := sl3 sbM 18) (dst := sl3 rbM 18)) _) $$ HR CrX18 HO Hlev PrX18
  iintro ⟨HO, PrX18, Rb18⟩
  ihave Hh18 := (halves_split (ℓ := (sl3 rbM 18).view.loc (c : Thread nD τ)) (S := (sl3 rbM 18).view.set) (recvC m c)) $$ Rb18
  icases Hh18 with ⟨RbL18, RbR18⟩
  first | sl_exec | (rw [wp_ret]; imodintro; beta_reduce) | skip
  iapply (stepSendY m K c _ (Fin.ext (k0_dev53_eq c)) 18 13 14 rfl (by decide) _ fy18) $$ HR RbL18 Ry18 HO TsY18 TrY18
  iintro ⟨CsY18, HO⟩
  sl_exec
  iapply (stepWaitRX m K c 19 13 (wpE_waitDma2_eq 𝒱₀ (c : Thread nD τ) none Set.univ (src := sl3 sbM 19) (dst := sl3 rbM 19)) _) $$ HR CrX19 HO Hlev PrX19
  iintro ⟨HO, PrX19, Rb19⟩
  ihave Hh19 := (halves_split (ℓ := (sl3 rbM 19).view.loc (c : Thread nD τ)) (S := (sl3 rbM 19).view.set) (recvC m c)) $$ Rb19
  icases Hh19 with ⟨RbL19, RbR19⟩
  first | sl_exec | (rw [wp_ret]; imodintro; beta_reduce) | skip
  iapply (stepSendY m K c _ (Fin.ext (k0_dev54_eq c)) 19 12 13 rfl (by decide) _ fy19) $$ HR RbL19 Ry19 HO TsY19 TrY19
  iintro ⟨CsY19, HO⟩
  sl_exec
  iapply (stepWaitRX m K c 20 12 (wpE_waitDma2_eq 𝒱₀ (c : Thread nD τ) none Set.univ (src := sl3 sbM 20) (dst := sl3 rbM 20)) _) $$ HR CrX20 HO Hlev PrX20
  iintro ⟨HO, PrX20, Rb20⟩
  ihave Hh20 := (halves_split (ℓ := (sl3 rbM 20).view.loc (c : Thread nD τ)) (S := (sl3 rbM 20).view.set) (recvC m c)) $$ Rb20
  icases Hh20 with ⟨RbL20, RbR20⟩
  first | sl_exec | (rw [wp_ret]; imodintro; beta_reduce) | skip
  iapply (stepSendY m K c _ (Fin.ext (k0_dev55_eq c)) 20 11 12 rfl (by decide) _ fy20) $$ HR RbL20 Ry20 HO TsY20 TrY20
  iintro ⟨CsY20, HO⟩
  sl_exec
  iapply (stepWaitRX m K c 21 11 (wpE_waitDma2_eq 𝒱₀ (c : Thread nD τ) none Set.univ (src := sl3 sbM 21) (dst := sl3 rbM 21)) _) $$ HR CrX21 HO Hlev PrX21
  iintro ⟨HO, PrX21, Rb21⟩
  ihave Hh21 := (halves_split (ℓ := (sl3 rbM 21).view.loc (c : Thread nD τ)) (S := (sl3 rbM 21).view.set) (recvC m c)) $$ Rb21
  icases Hh21 with ⟨RbL21, RbR21⟩
  first | sl_exec | (rw [wp_ret]; imodintro; beta_reduce) | skip
  iapply (stepSendY m K c _ (Fin.ext (k0_dev56_eq c)) 21 10 11 rfl (by decide) _ fy21) $$ HR RbL21 Ry21 HO TsY21 TrY21
  iintro ⟨CsY21, HO⟩
  sl_exec
  iapply (stepWaitRX m K c 22 10 (wpE_waitDma2_eq 𝒱₀ (c : Thread nD τ) none Set.univ (src := sl3 sbM 22) (dst := sl3 rbM 22)) _) $$ HR CrX22 HO Hlev PrX22
  iintro ⟨HO, PrX22, Rb22⟩
  ihave Hh22 := (halves_split (ℓ := (sl3 rbM 22).view.loc (c : Thread nD τ)) (S := (sl3 rbM 22).view.set) (recvC m c)) $$ Rb22
  icases Hh22 with ⟨RbL22, RbR22⟩
  first | sl_exec | (rw [wp_ret]; imodintro; beta_reduce) | skip
  iapply (stepSendY m K c _ (Fin.ext (k0_dev57_eq c)) 22 9 10 rfl (by decide) _ fy22) $$ HR RbL22 Ry22 HO TsY22 TrY22
  iintro ⟨CsY22, HO⟩
  sl_exec
  iapply (stepWaitRX m K c 23 9 (wpE_waitDma2_eq 𝒱₀ (c : Thread nD τ) none Set.univ (src := sl3 sbM 23) (dst := sl3 rbM 23)) _) $$ HR CrX23 HO Hlev PrX23
  iintro ⟨HO, PrX23, Rb23⟩
  ihave Hh23 := (halves_split (ℓ := (sl3 rbM 23).view.loc (c : Thread nD τ)) (S := (sl3 rbM 23).view.set) (recvC m c)) $$ Rb23
  icases Hh23 with ⟨RbL23, RbR23⟩
  first | sl_exec | (rw [wp_ret]; imodintro; beta_reduce) | skip
  iapply (stepSendY m K c _ (Fin.ext (k0_dev58_eq c)) 23 8 9 rfl (by decide) _ fy23) $$ HR RbL23 Ry23 HO TsY23 TrY23
  iintro ⟨CsY23, HO⟩
  sl_exec
  iapply (stepWaitRX m K c 24 8 (wpE_waitDma2_eq 𝒱₀ (c : Thread nD τ) none Set.univ (src := sl3 sbM 24) (dst := sl3 rbM 24)) _) $$ HR CrX24 HO Hlev PrX24
  iintro ⟨HO, PrX24, Rb24⟩
  ihave Hh24 := (halves_split (ℓ := (sl3 rbM 24).view.loc (c : Thread nD τ)) (S := (sl3 rbM 24).view.set) (recvC m c)) $$ Rb24
  icases Hh24 with ⟨RbL24, RbR24⟩
  first | sl_exec | (rw [wp_ret]; imodintro; beta_reduce) | skip
  iapply (stepSendY m K c _ (Fin.ext (k0_dev59_eq c)) 24 7 8 rfl (by decide) _ fy24) $$ HR RbL24 Ry24 HO TsY24 TrY24
  iintro ⟨CsY24, HO⟩
  sl_exec
  iapply (stepWaitRX m K c 25 7 (wpE_waitDma2_eq 𝒱₀ (c : Thread nD τ) none Set.univ (src := sl3 sbM 25) (dst := sl3 rbM 25)) _) $$ HR CrX25 HO Hlev PrX25
  iintro ⟨HO, PrX25, Rb25⟩
  ihave Hh25 := (halves_split (ℓ := (sl3 rbM 25).view.loc (c : Thread nD τ)) (S := (sl3 rbM 25).view.set) (recvC m c)) $$ Rb25
  icases Hh25 with ⟨RbL25, RbR25⟩
  first | sl_exec | (rw [wp_ret]; imodintro; beta_reduce) | skip
  iapply (stepSendY m K c _ (Fin.ext (k0_dev60_eq c)) 25 6 7 rfl (by decide) _ fy25) $$ HR RbL25 Ry25 HO TsY25 TrY25
  iintro ⟨CsY25, HO⟩
  sl_exec
  iapply (stepWaitRX m K c 26 6 (wpE_waitDma2_eq 𝒱₀ (c : Thread nD τ) none Set.univ (src := sl3 sbM 26) (dst := sl3 rbM 26)) _) $$ HR CrX26 HO Hlev PrX26
  iintro ⟨HO, PrX26, Rb26⟩
  ihave Hh26 := (halves_split (ℓ := (sl3 rbM 26).view.loc (c : Thread nD τ)) (S := (sl3 rbM 26).view.set) (recvC m c)) $$ Rb26
  icases Hh26 with ⟨RbL26, RbR26⟩
  first | sl_exec | (rw [wp_ret]; imodintro; beta_reduce) | skip
  iapply (stepSendY m K c _ (Fin.ext (k0_dev61_eq c)) 26 5 6 rfl (by decide) _ fy26) $$ HR RbL26 Ry26 HO TsY26 TrY26
  iintro ⟨CsY26, HO⟩
  sl_exec
  iapply (stepWaitRX m K c 27 5 (wpE_waitDma2_eq 𝒱₀ (c : Thread nD τ) none Set.univ (src := sl3 sbM 27) (dst := sl3 rbM 27)) _) $$ HR CrX27 HO Hlev PrX27
  iintro ⟨HO, PrX27, Rb27⟩
  ihave Hh27 := (halves_split (ℓ := (sl3 rbM 27).view.loc (c : Thread nD τ)) (S := (sl3 rbM 27).view.set) (recvC m c)) $$ Rb27
  icases Hh27 with ⟨RbL27, RbR27⟩
  first | sl_exec | (rw [wp_ret]; imodintro; beta_reduce) | skip
  iapply (stepSendY m K c _ (Fin.ext (k0_dev62_eq c)) 27 4 5 rfl (by decide) _ fy27) $$ HR RbL27 Ry27 HO TsY27 TrY27
  iintro ⟨CsY27, HO⟩
  sl_exec
  iapply (stepWaitRX m K c 28 4 (wpE_waitDma2_eq 𝒱₀ (c : Thread nD τ) none Set.univ (src := sl3 sbM 28) (dst := sl3 rbM 28)) _) $$ HR CrX28 HO Hlev PrX28
  iintro ⟨HO, PrX28, Rb28⟩
  ihave Hh28 := (halves_split (ℓ := (sl3 rbM 28).view.loc (c : Thread nD τ)) (S := (sl3 rbM 28).view.set) (recvC m c)) $$ Rb28
  icases Hh28 with ⟨RbL28, RbR28⟩
  first | sl_exec | (rw [wp_ret]; imodintro; beta_reduce) | skip
  iapply (stepSendY m K c _ (Fin.ext (k0_dev63_eq c)) 28 3 4 rfl (by decide) _ fy28) $$ HR RbL28 Ry28 HO TsY28 TrY28
  iintro ⟨CsY28, HO⟩
  sl_exec
  iapply (stepWaitRX m K c 29 3 (wpE_waitDma2_eq 𝒱₀ (c : Thread nD τ) none Set.univ (src := sl3 sbM 29) (dst := sl3 rbM 29)) _) $$ HR CrX29 HO Hlev PrX29
  iintro ⟨HO, PrX29, Rb29⟩
  ihave Hh29 := (halves_split (ℓ := (sl3 rbM 29).view.loc (c : Thread nD τ)) (S := (sl3 rbM 29).view.set) (recvC m c)) $$ Rb29
  icases Hh29 with ⟨RbL29, RbR29⟩
  first | sl_exec | (rw [wp_ret]; imodintro; beta_reduce) | skip
  iapply (stepSendY m K c _ (Fin.ext (k0_dev64_eq c)) 29 2 3 rfl (by decide) _ fy29) $$ HR RbL29 Ry29 HO TsY29 TrY29
  iintro ⟨CsY29, HO⟩
  sl_exec
  iapply (stepWaitRX m K c 30 2 (wpE_waitDma2_eq 𝒱₀ (c : Thread nD τ) none Set.univ (src := sl3 sbM 30) (dst := sl3 rbM 30)) _) $$ HR CrX30 HO Hlev PrX30
  iintro ⟨HO, PrX30, Rb30⟩
  ihave Hh30 := (halves_split (ℓ := (sl3 rbM 30).view.loc (c : Thread nD τ)) (S := (sl3 rbM 30).view.set) (recvC m c)) $$ Rb30
  icases Hh30 with ⟨RbL30, RbR30⟩
  first | sl_exec | (rw [wp_ret]; imodintro; beta_reduce) | skip
  iapply (stepSendY m K c _ (Fin.ext (k0_dev65_eq c)) 30 1 2 rfl (by decide) _ fy30) $$ HR RbL30 Ry30 HO TsY30 TrY30
  iintro ⟨CsY30, HO⟩
  sl_exec
  iapply (stepWaitRX m K c 31 1 (wpE_waitDma2_eq 𝒱₀ (c : Thread nD τ) none Set.univ (src := sl3 sbM 31) (dst := sl3 rbM 31)) _) $$ HR CrX31 HO Hlev PrX31
  iintro ⟨HO, PrX31, Rb31⟩
  ihave Hh31 := (halves_split (ℓ := (sl3 rbM 31).view.loc (c : Thread nD τ)) (S := (sl3 rbM 31).view.set) (recvC m c)) $$ Rb31
  icases Hh31 with ⟨RbL31, RbR31⟩
  first | sl_exec | (rw [wp_ret]; imodintro; beta_reduce) | skip
  iapply (stepSendY m K c _ (Fin.ext (k0_dev66_eq c)) 31 0 1 rfl (by decide) _ fy31) $$ HR RbL31 Ry31 HO TsY31 TrY31
  iintro ⟨CsY31, HO⟩
  sl_exec
  ihave HO := (owes_remY0 c _) $$ HO
  -- the arrivals from the row mate
  iapply (stepWaitRY m K c 0 (wpE_waitDma2_eq 𝒱₀ (c : Thread nD τ) none Set.univ (src := sl3 rbM 0) (dst := oY c 0)) _) $$ HR CrY0 HO PrY0
  iintro ⟨HO, PrY0, Oy0⟩
  first | sl_exec | (rw [wp_ret]; imodintro; beta_reduce) | skip
  iapply (stepWaitRY m K c 1 (wpE_waitDma2_eq 𝒱₀ (c : Thread nD τ) none Set.univ (src := sl3 rbM 1) (dst := oY c 1)) _) $$ HR CrY1 HO PrY1
  iintro ⟨HO, PrY1, Oy1⟩
  first | sl_exec | (rw [wp_ret]; imodintro; beta_reduce) | skip
  iapply (stepWaitRY m K c 2 (wpE_waitDma2_eq 𝒱₀ (c : Thread nD τ) none Set.univ (src := sl3 rbM 2) (dst := oY c 2)) _) $$ HR CrY2 HO PrY2
  iintro ⟨HO, PrY2, Oy2⟩
  first | sl_exec | (rw [wp_ret]; imodintro; beta_reduce) | skip
  iapply (stepWaitRY m K c 3 (wpE_waitDma2_eq 𝒱₀ (c : Thread nD τ) none Set.univ (src := sl3 rbM 3) (dst := oY c 3)) _) $$ HR CrY3 HO PrY3
  iintro ⟨HO, PrY3, Oy3⟩
  first | sl_exec | (rw [wp_ret]; imodintro; beta_reduce) | skip
  iapply (stepWaitRY m K c 4 (wpE_waitDma2_eq 𝒱₀ (c : Thread nD τ) none Set.univ (src := sl3 rbM 4) (dst := oY c 4)) _) $$ HR CrY4 HO PrY4
  iintro ⟨HO, PrY4, Oy4⟩
  first | sl_exec | (rw [wp_ret]; imodintro; beta_reduce) | skip
  iapply (stepWaitRY m K c 5 (wpE_waitDma2_eq 𝒱₀ (c : Thread nD τ) none Set.univ (src := sl3 rbM 5) (dst := oY c 5)) _) $$ HR CrY5 HO PrY5
  iintro ⟨HO, PrY5, Oy5⟩
  first | sl_exec | (rw [wp_ret]; imodintro; beta_reduce) | skip
  iapply (stepWaitRY m K c 6 (wpE_waitDma2_eq 𝒱₀ (c : Thread nD τ) none Set.univ (src := sl3 rbM 6) (dst := oY c 6)) _) $$ HR CrY6 HO PrY6
  iintro ⟨HO, PrY6, Oy6⟩
  first | sl_exec | (rw [wp_ret]; imodintro; beta_reduce) | skip
  iapply (stepWaitRY m K c 7 (wpE_waitDma2_eq 𝒱₀ (c : Thread nD τ) none Set.univ (src := sl3 rbM 7) (dst := oY c 7)) _) $$ HR CrY7 HO PrY7
  iintro ⟨HO, PrY7, Oy7⟩
  first | sl_exec | (rw [wp_ret]; imodintro; beta_reduce) | skip
  iapply (stepWaitRY m K c 8 (wpE_waitDma2_eq 𝒱₀ (c : Thread nD τ) none Set.univ (src := sl3 rbM 8) (dst := oY c 8)) _) $$ HR CrY8 HO PrY8
  iintro ⟨HO, PrY8, Oy8⟩
  first | sl_exec | (rw [wp_ret]; imodintro; beta_reduce) | skip
  iapply (stepWaitRY m K c 9 (wpE_waitDma2_eq 𝒱₀ (c : Thread nD τ) none Set.univ (src := sl3 rbM 9) (dst := oY c 9)) _) $$ HR CrY9 HO PrY9
  iintro ⟨HO, PrY9, Oy9⟩
  first | sl_exec | (rw [wp_ret]; imodintro; beta_reduce) | skip
  iapply (stepWaitRY m K c 10 (wpE_waitDma2_eq 𝒱₀ (c : Thread nD τ) none Set.univ (src := sl3 rbM 10) (dst := oY c 10)) _) $$ HR CrY10 HO PrY10
  iintro ⟨HO, PrY10, Oy10⟩
  first | sl_exec | (rw [wp_ret]; imodintro; beta_reduce) | skip
  iapply (stepWaitRY m K c 11 (wpE_waitDma2_eq 𝒱₀ (c : Thread nD τ) none Set.univ (src := sl3 rbM 11) (dst := oY c 11)) _) $$ HR CrY11 HO PrY11
  iintro ⟨HO, PrY11, Oy11⟩
  first | sl_exec | (rw [wp_ret]; imodintro; beta_reduce) | skip
  iapply (stepWaitRY m K c 12 (wpE_waitDma2_eq 𝒱₀ (c : Thread nD τ) none Set.univ (src := sl3 rbM 12) (dst := oY c 12)) _) $$ HR CrY12 HO PrY12
  iintro ⟨HO, PrY12, Oy12⟩
  first | sl_exec | (rw [wp_ret]; imodintro; beta_reduce) | skip
  iapply (stepWaitRY m K c 13 (wpE_waitDma2_eq 𝒱₀ (c : Thread nD τ) none Set.univ (src := sl3 rbM 13) (dst := oY c 13)) _) $$ HR CrY13 HO PrY13
  iintro ⟨HO, PrY13, Oy13⟩
  first | sl_exec | (rw [wp_ret]; imodintro; beta_reduce) | skip
  iapply (stepWaitRY m K c 14 (wpE_waitDma2_eq 𝒱₀ (c : Thread nD τ) none Set.univ (src := sl3 rbM 14) (dst := oY c 14)) _) $$ HR CrY14 HO PrY14
  iintro ⟨HO, PrY14, Oy14⟩
  first | sl_exec | (rw [wp_ret]; imodintro; beta_reduce) | skip
  iapply (stepWaitRY m K c 15 (wpE_waitDma2_eq 𝒱₀ (c : Thread nD τ) none Set.univ (src := sl3 rbM 15) (dst := oY c 15)) _) $$ HR CrY15 HO PrY15
  iintro ⟨HO, PrY15, Oy15⟩
  first | sl_exec | (rw [wp_ret]; imodintro; beta_reduce) | skip
  iapply (stepWaitRY m K c 16 (wpE_waitDma2_eq 𝒱₀ (c : Thread nD τ) none Set.univ (src := sl3 rbM 16) (dst := oY c 16)) _) $$ HR CrY16 HO PrY16
  iintro ⟨HO, PrY16, Oy16⟩
  first | sl_exec | (rw [wp_ret]; imodintro; beta_reduce) | skip
  iapply (stepWaitRY m K c 17 (wpE_waitDma2_eq 𝒱₀ (c : Thread nD τ) none Set.univ (src := sl3 rbM 17) (dst := oY c 17)) _) $$ HR CrY17 HO PrY17
  iintro ⟨HO, PrY17, Oy17⟩
  first | sl_exec | (rw [wp_ret]; imodintro; beta_reduce) | skip
  iapply (stepWaitRY m K c 18 (wpE_waitDma2_eq 𝒱₀ (c : Thread nD τ) none Set.univ (src := sl3 rbM 18) (dst := oY c 18)) _) $$ HR CrY18 HO PrY18
  iintro ⟨HO, PrY18, Oy18⟩
  first | sl_exec | (rw [wp_ret]; imodintro; beta_reduce) | skip
  iapply (stepWaitRY m K c 19 (wpE_waitDma2_eq 𝒱₀ (c : Thread nD τ) none Set.univ (src := sl3 rbM 19) (dst := oY c 19)) _) $$ HR CrY19 HO PrY19
  iintro ⟨HO, PrY19, Oy19⟩
  first | sl_exec | (rw [wp_ret]; imodintro; beta_reduce) | skip
  iapply (stepWaitRY m K c 20 (wpE_waitDma2_eq 𝒱₀ (c : Thread nD τ) none Set.univ (src := sl3 rbM 20) (dst := oY c 20)) _) $$ HR CrY20 HO PrY20
  iintro ⟨HO, PrY20, Oy20⟩
  first | sl_exec | (rw [wp_ret]; imodintro; beta_reduce) | skip
  iapply (stepWaitRY m K c 21 (wpE_waitDma2_eq 𝒱₀ (c : Thread nD τ) none Set.univ (src := sl3 rbM 21) (dst := oY c 21)) _) $$ HR CrY21 HO PrY21
  iintro ⟨HO, PrY21, Oy21⟩
  first | sl_exec | (rw [wp_ret]; imodintro; beta_reduce) | skip
  iapply (stepWaitRY m K c 22 (wpE_waitDma2_eq 𝒱₀ (c : Thread nD τ) none Set.univ (src := sl3 rbM 22) (dst := oY c 22)) _) $$ HR CrY22 HO PrY22
  iintro ⟨HO, PrY22, Oy22⟩
  first | sl_exec | (rw [wp_ret]; imodintro; beta_reduce) | skip
  iapply (stepWaitRY m K c 23 (wpE_waitDma2_eq 𝒱₀ (c : Thread nD τ) none Set.univ (src := sl3 rbM 23) (dst := oY c 23)) _) $$ HR CrY23 HO PrY23
  iintro ⟨HO, PrY23, Oy23⟩
  first | sl_exec | (rw [wp_ret]; imodintro; beta_reduce) | skip
  iapply (stepWaitRY m K c 24 (wpE_waitDma2_eq 𝒱₀ (c : Thread nD τ) none Set.univ (src := sl3 rbM 24) (dst := oY c 24)) _) $$ HR CrY24 HO PrY24
  iintro ⟨HO, PrY24, Oy24⟩
  first | sl_exec | (rw [wp_ret]; imodintro; beta_reduce) | skip
  iapply (stepWaitRY m K c 25 (wpE_waitDma2_eq 𝒱₀ (c : Thread nD τ) none Set.univ (src := sl3 rbM 25) (dst := oY c 25)) _) $$ HR CrY25 HO PrY25
  iintro ⟨HO, PrY25, Oy25⟩
  first | sl_exec | (rw [wp_ret]; imodintro; beta_reduce) | skip
  iapply (stepWaitRY m K c 26 (wpE_waitDma2_eq 𝒱₀ (c : Thread nD τ) none Set.univ (src := sl3 rbM 26) (dst := oY c 26)) _) $$ HR CrY26 HO PrY26
  iintro ⟨HO, PrY26, Oy26⟩
  first | sl_exec | (rw [wp_ret]; imodintro; beta_reduce) | skip
  iapply (stepWaitRY m K c 27 (wpE_waitDma2_eq 𝒱₀ (c : Thread nD τ) none Set.univ (src := sl3 rbM 27) (dst := oY c 27)) _) $$ HR CrY27 HO PrY27
  iintro ⟨HO, PrY27, Oy27⟩
  first | sl_exec | (rw [wp_ret]; imodintro; beta_reduce) | skip
  iapply (stepWaitRY m K c 28 (wpE_waitDma2_eq 𝒱₀ (c : Thread nD τ) none Set.univ (src := sl3 rbM 28) (dst := oY c 28)) _) $$ HR CrY28 HO PrY28
  iintro ⟨HO, PrY28, Oy28⟩
  first | sl_exec | (rw [wp_ret]; imodintro; beta_reduce) | skip
  iapply (stepWaitRY m K c 29 (wpE_waitDma2_eq 𝒱₀ (c : Thread nD τ) none Set.univ (src := sl3 rbM 29) (dst := oY c 29)) _) $$ HR CrY29 HO PrY29
  iintro ⟨HO, PrY29, Oy29⟩
  first | sl_exec | (rw [wp_ret]; imodintro; beta_reduce) | skip
  iapply (stepWaitRY m K c 30 (wpE_waitDma2_eq 𝒱₀ (c : Thread nD τ) none Set.univ (src := sl3 rbM 30) (dst := oY c 30)) _) $$ HR CrY30 HO PrY30
  iintro ⟨HO, PrY30, Oy30⟩
  first | sl_exec | (rw [wp_ret]; imodintro; beta_reduce) | skip
  iapply (stepWaitRY m K c 31 (wpE_waitDma2_eq 𝒱₀ (c : Thread nD τ) none Set.univ (src := sl3 rbM 31) (dst := oY c 31)) _) $$ HR CrY31 HO PrY31
  iintro ⟨HO, PrY31, Oy31⟩
  first | sl_exec | (rw [wp_ret]; imodintro; beta_reduce) | skip
  -- the departures
  iapply (stepWaitSX m K c 0 (wpE_waitDma2_eq 𝒱₀ (c : Thread nD τ) none Set.univ (src := sl3 rbM 0) (dst := sl3 sbM 0)) _) $$ HR CsX0 HO PsX0
  iintro ⟨HO, PsX0, ⟨%fb0, Sb0⟩⟩
  first | sl_exec | (rw [wp_ret]; imodintro; beta_reduce) | skip
  iapply (stepWaitSX m K c 1 (wpE_waitDma2_eq 𝒱₀ (c : Thread nD τ) none Set.univ (src := sl3 rbM 1) (dst := sl3 sbM 1)) _) $$ HR CsX1 HO PsX1
  iintro ⟨HO, PsX1, ⟨%fb1, Sb1⟩⟩
  first | sl_exec | (rw [wp_ret]; imodintro; beta_reduce) | skip
  iapply (stepWaitSX m K c 2 (wpE_waitDma2_eq 𝒱₀ (c : Thread nD τ) none Set.univ (src := sl3 rbM 2) (dst := sl3 sbM 2)) _) $$ HR CsX2 HO PsX2
  iintro ⟨HO, PsX2, ⟨%fb2, Sb2⟩⟩
  first | sl_exec | (rw [wp_ret]; imodintro; beta_reduce) | skip
  iapply (stepWaitSX m K c 3 (wpE_waitDma2_eq 𝒱₀ (c : Thread nD τ) none Set.univ (src := sl3 rbM 3) (dst := sl3 sbM 3)) _) $$ HR CsX3 HO PsX3
  iintro ⟨HO, PsX3, ⟨%fb3, Sb3⟩⟩
  first | sl_exec | (rw [wp_ret]; imodintro; beta_reduce) | skip
  iapply (stepWaitSX m K c 4 (wpE_waitDma2_eq 𝒱₀ (c : Thread nD τ) none Set.univ (src := sl3 rbM 4) (dst := sl3 sbM 4)) _) $$ HR CsX4 HO PsX4
  iintro ⟨HO, PsX4, ⟨%fb4, Sb4⟩⟩
  first | sl_exec | (rw [wp_ret]; imodintro; beta_reduce) | skip
  iapply (stepWaitSX m K c 5 (wpE_waitDma2_eq 𝒱₀ (c : Thread nD τ) none Set.univ (src := sl3 rbM 5) (dst := sl3 sbM 5)) _) $$ HR CsX5 HO PsX5
  iintro ⟨HO, PsX5, ⟨%fb5, Sb5⟩⟩
  first | sl_exec | (rw [wp_ret]; imodintro; beta_reduce) | skip
  iapply (stepWaitSX m K c 6 (wpE_waitDma2_eq 𝒱₀ (c : Thread nD τ) none Set.univ (src := sl3 rbM 6) (dst := sl3 sbM 6)) _) $$ HR CsX6 HO PsX6
  iintro ⟨HO, PsX6, ⟨%fb6, Sb6⟩⟩
  first | sl_exec | (rw [wp_ret]; imodintro; beta_reduce) | skip
  iapply (stepWaitSX m K c 7 (wpE_waitDma2_eq 𝒱₀ (c : Thread nD τ) none Set.univ (src := sl3 rbM 7) (dst := sl3 sbM 7)) _) $$ HR CsX7 HO PsX7
  iintro ⟨HO, PsX7, ⟨%fb7, Sb7⟩⟩
  first | sl_exec | (rw [wp_ret]; imodintro; beta_reduce) | skip
  iapply (stepWaitSX m K c 8 (wpE_waitDma2_eq 𝒱₀ (c : Thread nD τ) none Set.univ (src := sl3 rbM 8) (dst := sl3 sbM 8)) _) $$ HR CsX8 HO PsX8
  iintro ⟨HO, PsX8, ⟨%fb8, Sb8⟩⟩
  first | sl_exec | (rw [wp_ret]; imodintro; beta_reduce) | skip
  iapply (stepWaitSX m K c 9 (wpE_waitDma2_eq 𝒱₀ (c : Thread nD τ) none Set.univ (src := sl3 rbM 9) (dst := sl3 sbM 9)) _) $$ HR CsX9 HO PsX9
  iintro ⟨HO, PsX9, ⟨%fb9, Sb9⟩⟩
  first | sl_exec | (rw [wp_ret]; imodintro; beta_reduce) | skip
  iapply (stepWaitSX m K c 10 (wpE_waitDma2_eq 𝒱₀ (c : Thread nD τ) none Set.univ (src := sl3 rbM 10) (dst := sl3 sbM 10)) _) $$ HR CsX10 HO PsX10
  iintro ⟨HO, PsX10, ⟨%fb10, Sb10⟩⟩
  first | sl_exec | (rw [wp_ret]; imodintro; beta_reduce) | skip
  iapply (stepWaitSX m K c 11 (wpE_waitDma2_eq 𝒱₀ (c : Thread nD τ) none Set.univ (src := sl3 rbM 11) (dst := sl3 sbM 11)) _) $$ HR CsX11 HO PsX11
  iintro ⟨HO, PsX11, ⟨%fb11, Sb11⟩⟩
  first | sl_exec | (rw [wp_ret]; imodintro; beta_reduce) | skip
  iapply (stepWaitSX m K c 12 (wpE_waitDma2_eq 𝒱₀ (c : Thread nD τ) none Set.univ (src := sl3 rbM 12) (dst := sl3 sbM 12)) _) $$ HR CsX12 HO PsX12
  iintro ⟨HO, PsX12, ⟨%fb12, Sb12⟩⟩
  first | sl_exec | (rw [wp_ret]; imodintro; beta_reduce) | skip
  iapply (stepWaitSX m K c 13 (wpE_waitDma2_eq 𝒱₀ (c : Thread nD τ) none Set.univ (src := sl3 rbM 13) (dst := sl3 sbM 13)) _) $$ HR CsX13 HO PsX13
  iintro ⟨HO, PsX13, ⟨%fb13, Sb13⟩⟩
  first | sl_exec | (rw [wp_ret]; imodintro; beta_reduce) | skip
  iapply (stepWaitSX m K c 14 (wpE_waitDma2_eq 𝒱₀ (c : Thread nD τ) none Set.univ (src := sl3 rbM 14) (dst := sl3 sbM 14)) _) $$ HR CsX14 HO PsX14
  iintro ⟨HO, PsX14, ⟨%fb14, Sb14⟩⟩
  first | sl_exec | (rw [wp_ret]; imodintro; beta_reduce) | skip
  iapply (stepWaitSX m K c 15 (wpE_waitDma2_eq 𝒱₀ (c : Thread nD τ) none Set.univ (src := sl3 rbM 15) (dst := sl3 sbM 15)) _) $$ HR CsX15 HO PsX15
  iintro ⟨HO, PsX15, ⟨%fb15, Sb15⟩⟩
  first | sl_exec | (rw [wp_ret]; imodintro; beta_reduce) | skip
  iapply (stepWaitSX m K c 16 (wpE_waitDma2_eq 𝒱₀ (c : Thread nD τ) none Set.univ (src := sl3 rbM 16) (dst := sl3 sbM 16)) _) $$ HR CsX16 HO PsX16
  iintro ⟨HO, PsX16, ⟨%fb16, Sb16⟩⟩
  first | sl_exec | (rw [wp_ret]; imodintro; beta_reduce) | skip
  iapply (stepWaitSX m K c 17 (wpE_waitDma2_eq 𝒱₀ (c : Thread nD τ) none Set.univ (src := sl3 rbM 17) (dst := sl3 sbM 17)) _) $$ HR CsX17 HO PsX17
  iintro ⟨HO, PsX17, ⟨%fb17, Sb17⟩⟩
  first | sl_exec | (rw [wp_ret]; imodintro; beta_reduce) | skip
  iapply (stepWaitSX m K c 18 (wpE_waitDma2_eq 𝒱₀ (c : Thread nD τ) none Set.univ (src := sl3 rbM 18) (dst := sl3 sbM 18)) _) $$ HR CsX18 HO PsX18
  iintro ⟨HO, PsX18, ⟨%fb18, Sb18⟩⟩
  first | sl_exec | (rw [wp_ret]; imodintro; beta_reduce) | skip
  iapply (stepWaitSX m K c 19 (wpE_waitDma2_eq 𝒱₀ (c : Thread nD τ) none Set.univ (src := sl3 rbM 19) (dst := sl3 sbM 19)) _) $$ HR CsX19 HO PsX19
  iintro ⟨HO, PsX19, ⟨%fb19, Sb19⟩⟩
  first | sl_exec | (rw [wp_ret]; imodintro; beta_reduce) | skip
  iapply (stepWaitSX m K c 20 (wpE_waitDma2_eq 𝒱₀ (c : Thread nD τ) none Set.univ (src := sl3 rbM 20) (dst := sl3 sbM 20)) _) $$ HR CsX20 HO PsX20
  iintro ⟨HO, PsX20, ⟨%fb20, Sb20⟩⟩
  first | sl_exec | (rw [wp_ret]; imodintro; beta_reduce) | skip
  iapply (stepWaitSX m K c 21 (wpE_waitDma2_eq 𝒱₀ (c : Thread nD τ) none Set.univ (src := sl3 rbM 21) (dst := sl3 sbM 21)) _) $$ HR CsX21 HO PsX21
  iintro ⟨HO, PsX21, ⟨%fb21, Sb21⟩⟩
  first | sl_exec | (rw [wp_ret]; imodintro; beta_reduce) | skip
  iapply (stepWaitSX m K c 22 (wpE_waitDma2_eq 𝒱₀ (c : Thread nD τ) none Set.univ (src := sl3 rbM 22) (dst := sl3 sbM 22)) _) $$ HR CsX22 HO PsX22
  iintro ⟨HO, PsX22, ⟨%fb22, Sb22⟩⟩
  first | sl_exec | (rw [wp_ret]; imodintro; beta_reduce) | skip
  iapply (stepWaitSX m K c 23 (wpE_waitDma2_eq 𝒱₀ (c : Thread nD τ) none Set.univ (src := sl3 rbM 23) (dst := sl3 sbM 23)) _) $$ HR CsX23 HO PsX23
  iintro ⟨HO, PsX23, ⟨%fb23, Sb23⟩⟩
  first | sl_exec | (rw [wp_ret]; imodintro; beta_reduce) | skip
  iapply (stepWaitSX m K c 24 (wpE_waitDma2_eq 𝒱₀ (c : Thread nD τ) none Set.univ (src := sl3 rbM 24) (dst := sl3 sbM 24)) _) $$ HR CsX24 HO PsX24
  iintro ⟨HO, PsX24, ⟨%fb24, Sb24⟩⟩
  first | sl_exec | (rw [wp_ret]; imodintro; beta_reduce) | skip
  iapply (stepWaitSX m K c 25 (wpE_waitDma2_eq 𝒱₀ (c : Thread nD τ) none Set.univ (src := sl3 rbM 25) (dst := sl3 sbM 25)) _) $$ HR CsX25 HO PsX25
  iintro ⟨HO, PsX25, ⟨%fb25, Sb25⟩⟩
  first | sl_exec | (rw [wp_ret]; imodintro; beta_reduce) | skip
  iapply (stepWaitSX m K c 26 (wpE_waitDma2_eq 𝒱₀ (c : Thread nD τ) none Set.univ (src := sl3 rbM 26) (dst := sl3 sbM 26)) _) $$ HR CsX26 HO PsX26
  iintro ⟨HO, PsX26, ⟨%fb26, Sb26⟩⟩
  first | sl_exec | (rw [wp_ret]; imodintro; beta_reduce) | skip
  iapply (stepWaitSX m K c 27 (wpE_waitDma2_eq 𝒱₀ (c : Thread nD τ) none Set.univ (src := sl3 rbM 27) (dst := sl3 sbM 27)) _) $$ HR CsX27 HO PsX27
  iintro ⟨HO, PsX27, ⟨%fb27, Sb27⟩⟩
  first | sl_exec | (rw [wp_ret]; imodintro; beta_reduce) | skip
  iapply (stepWaitSX m K c 28 (wpE_waitDma2_eq 𝒱₀ (c : Thread nD τ) none Set.univ (src := sl3 rbM 28) (dst := sl3 sbM 28)) _) $$ HR CsX28 HO PsX28
  iintro ⟨HO, PsX28, ⟨%fb28, Sb28⟩⟩
  first | sl_exec | (rw [wp_ret]; imodintro; beta_reduce) | skip
  iapply (stepWaitSX m K c 29 (wpE_waitDma2_eq 𝒱₀ (c : Thread nD τ) none Set.univ (src := sl3 rbM 29) (dst := sl3 sbM 29)) _) $$ HR CsX29 HO PsX29
  iintro ⟨HO, PsX29, ⟨%fb29, Sb29⟩⟩
  first | sl_exec | (rw [wp_ret]; imodintro; beta_reduce) | skip
  iapply (stepWaitSX m K c 30 (wpE_waitDma2_eq 𝒱₀ (c : Thread nD τ) none Set.univ (src := sl3 rbM 30) (dst := sl3 sbM 30)) _) $$ HR CsX30 HO PsX30
  iintro ⟨HO, PsX30, ⟨%fb30, Sb30⟩⟩
  first | sl_exec | (rw [wp_ret]; imodintro; beta_reduce) | skip
  iapply (stepWaitSX m K c 31 (wpE_waitDma2_eq 𝒱₀ (c : Thread nD τ) none Set.univ (src := sl3 rbM 31) (dst := sl3 sbM 31)) _) $$ HR CsX31 HO PsX31
  iintro ⟨HO, PsX31, ⟨%fb31, Sb31⟩⟩
  first | sl_exec | (rw [wp_ret]; imodintro; beta_reduce) | skip
  iapply (stepWaitSY m K c 0 (wpE_waitDma2_eq 𝒱₀ (c : Thread nD τ) none Set.univ (src := oX c 0) (dst := sl3 rbM 0)) _) $$ HR CsY0 HO PsY0
  iintro ⟨HO, PsY0, RbL0⟩
  first | sl_exec | (rw [wp_ret]; imodintro; beta_reduce) | skip
  iapply (stepWaitSY m K c 1 (wpE_waitDma2_eq 𝒱₀ (c : Thread nD τ) none Set.univ (src := oX c 1) (dst := sl3 rbM 1)) _) $$ HR CsY1 HO PsY1
  iintro ⟨HO, PsY1, RbL1⟩
  first | sl_exec | (rw [wp_ret]; imodintro; beta_reduce) | skip
  iapply (stepWaitSY m K c 2 (wpE_waitDma2_eq 𝒱₀ (c : Thread nD τ) none Set.univ (src := oX c 2) (dst := sl3 rbM 2)) _) $$ HR CsY2 HO PsY2
  iintro ⟨HO, PsY2, RbL2⟩
  first | sl_exec | (rw [wp_ret]; imodintro; beta_reduce) | skip
  iapply (stepWaitSY m K c 3 (wpE_waitDma2_eq 𝒱₀ (c : Thread nD τ) none Set.univ (src := oX c 3) (dst := sl3 rbM 3)) _) $$ HR CsY3 HO PsY3
  iintro ⟨HO, PsY3, RbL3⟩
  first | sl_exec | (rw [wp_ret]; imodintro; beta_reduce) | skip
  iapply (stepWaitSY m K c 4 (wpE_waitDma2_eq 𝒱₀ (c : Thread nD τ) none Set.univ (src := oX c 4) (dst := sl3 rbM 4)) _) $$ HR CsY4 HO PsY4
  iintro ⟨HO, PsY4, RbL4⟩
  first | sl_exec | (rw [wp_ret]; imodintro; beta_reduce) | skip
  iapply (stepWaitSY m K c 5 (wpE_waitDma2_eq 𝒱₀ (c : Thread nD τ) none Set.univ (src := oX c 5) (dst := sl3 rbM 5)) _) $$ HR CsY5 HO PsY5
  iintro ⟨HO, PsY5, RbL5⟩
  first | sl_exec | (rw [wp_ret]; imodintro; beta_reduce) | skip
  iapply (stepWaitSY m K c 6 (wpE_waitDma2_eq 𝒱₀ (c : Thread nD τ) none Set.univ (src := oX c 6) (dst := sl3 rbM 6)) _) $$ HR CsY6 HO PsY6
  iintro ⟨HO, PsY6, RbL6⟩
  first | sl_exec | (rw [wp_ret]; imodintro; beta_reduce) | skip
  iapply (stepWaitSY m K c 7 (wpE_waitDma2_eq 𝒱₀ (c : Thread nD τ) none Set.univ (src := oX c 7) (dst := sl3 rbM 7)) _) $$ HR CsY7 HO PsY7
  iintro ⟨HO, PsY7, RbL7⟩
  first | sl_exec | (rw [wp_ret]; imodintro; beta_reduce) | skip
  iapply (stepWaitSY m K c 8 (wpE_waitDma2_eq 𝒱₀ (c : Thread nD τ) none Set.univ (src := oX c 8) (dst := sl3 rbM 8)) _) $$ HR CsY8 HO PsY8
  iintro ⟨HO, PsY8, RbL8⟩
  first | sl_exec | (rw [wp_ret]; imodintro; beta_reduce) | skip
  iapply (stepWaitSY m K c 9 (wpE_waitDma2_eq 𝒱₀ (c : Thread nD τ) none Set.univ (src := oX c 9) (dst := sl3 rbM 9)) _) $$ HR CsY9 HO PsY9
  iintro ⟨HO, PsY9, RbL9⟩
  first | sl_exec | (rw [wp_ret]; imodintro; beta_reduce) | skip
  iapply (stepWaitSY m K c 10 (wpE_waitDma2_eq 𝒱₀ (c : Thread nD τ) none Set.univ (src := oX c 10) (dst := sl3 rbM 10)) _) $$ HR CsY10 HO PsY10
  iintro ⟨HO, PsY10, RbL10⟩
  first | sl_exec | (rw [wp_ret]; imodintro; beta_reduce) | skip
  iapply (stepWaitSY m K c 11 (wpE_waitDma2_eq 𝒱₀ (c : Thread nD τ) none Set.univ (src := oX c 11) (dst := sl3 rbM 11)) _) $$ HR CsY11 HO PsY11
  iintro ⟨HO, PsY11, RbL11⟩
  first | sl_exec | (rw [wp_ret]; imodintro; beta_reduce) | skip
  iapply (stepWaitSY m K c 12 (wpE_waitDma2_eq 𝒱₀ (c : Thread nD τ) none Set.univ (src := oX c 12) (dst := sl3 rbM 12)) _) $$ HR CsY12 HO PsY12
  iintro ⟨HO, PsY12, RbL12⟩
  first | sl_exec | (rw [wp_ret]; imodintro; beta_reduce) | skip
  iapply (stepWaitSY m K c 13 (wpE_waitDma2_eq 𝒱₀ (c : Thread nD τ) none Set.univ (src := oX c 13) (dst := sl3 rbM 13)) _) $$ HR CsY13 HO PsY13
  iintro ⟨HO, PsY13, RbL13⟩
  first | sl_exec | (rw [wp_ret]; imodintro; beta_reduce) | skip
  iapply (stepWaitSY m K c 14 (wpE_waitDma2_eq 𝒱₀ (c : Thread nD τ) none Set.univ (src := oX c 14) (dst := sl3 rbM 14)) _) $$ HR CsY14 HO PsY14
  iintro ⟨HO, PsY14, RbL14⟩
  first | sl_exec | (rw [wp_ret]; imodintro; beta_reduce) | skip
  iapply (stepWaitSY m K c 15 (wpE_waitDma2_eq 𝒱₀ (c : Thread nD τ) none Set.univ (src := oX c 15) (dst := sl3 rbM 15)) _) $$ HR CsY15 HO PsY15
  iintro ⟨HO, PsY15, RbL15⟩
  first | sl_exec | (rw [wp_ret]; imodintro; beta_reduce) | skip
  iapply (stepWaitSY m K c 16 (wpE_waitDma2_eq 𝒱₀ (c : Thread nD τ) none Set.univ (src := oX c 16) (dst := sl3 rbM 16)) _) $$ HR CsY16 HO PsY16
  iintro ⟨HO, PsY16, RbL16⟩
  first | sl_exec | (rw [wp_ret]; imodintro; beta_reduce) | skip
  iapply (stepWaitSY m K c 17 (wpE_waitDma2_eq 𝒱₀ (c : Thread nD τ) none Set.univ (src := oX c 17) (dst := sl3 rbM 17)) _) $$ HR CsY17 HO PsY17
  iintro ⟨HO, PsY17, RbL17⟩
  first | sl_exec | (rw [wp_ret]; imodintro; beta_reduce) | skip
  iapply (stepWaitSY m K c 18 (wpE_waitDma2_eq 𝒱₀ (c : Thread nD τ) none Set.univ (src := oX c 18) (dst := sl3 rbM 18)) _) $$ HR CsY18 HO PsY18
  iintro ⟨HO, PsY18, RbL18⟩
  first | sl_exec | (rw [wp_ret]; imodintro; beta_reduce) | skip
  iapply (stepWaitSY m K c 19 (wpE_waitDma2_eq 𝒱₀ (c : Thread nD τ) none Set.univ (src := oX c 19) (dst := sl3 rbM 19)) _) $$ HR CsY19 HO PsY19
  iintro ⟨HO, PsY19, RbL19⟩
  first | sl_exec | (rw [wp_ret]; imodintro; beta_reduce) | skip
  iapply (stepWaitSY m K c 20 (wpE_waitDma2_eq 𝒱₀ (c : Thread nD τ) none Set.univ (src := oX c 20) (dst := sl3 rbM 20)) _) $$ HR CsY20 HO PsY20
  iintro ⟨HO, PsY20, RbL20⟩
  first | sl_exec | (rw [wp_ret]; imodintro; beta_reduce) | skip
  iapply (stepWaitSY m K c 21 (wpE_waitDma2_eq 𝒱₀ (c : Thread nD τ) none Set.univ (src := oX c 21) (dst := sl3 rbM 21)) _) $$ HR CsY21 HO PsY21
  iintro ⟨HO, PsY21, RbL21⟩
  first | sl_exec | (rw [wp_ret]; imodintro; beta_reduce) | skip
  iapply (stepWaitSY m K c 22 (wpE_waitDma2_eq 𝒱₀ (c : Thread nD τ) none Set.univ (src := oX c 22) (dst := sl3 rbM 22)) _) $$ HR CsY22 HO PsY22
  iintro ⟨HO, PsY22, RbL22⟩
  first | sl_exec | (rw [wp_ret]; imodintro; beta_reduce) | skip
  iapply (stepWaitSY m K c 23 (wpE_waitDma2_eq 𝒱₀ (c : Thread nD τ) none Set.univ (src := oX c 23) (dst := sl3 rbM 23)) _) $$ HR CsY23 HO PsY23
  iintro ⟨HO, PsY23, RbL23⟩
  first | sl_exec | (rw [wp_ret]; imodintro; beta_reduce) | skip
  iapply (stepWaitSY m K c 24 (wpE_waitDma2_eq 𝒱₀ (c : Thread nD τ) none Set.univ (src := oX c 24) (dst := sl3 rbM 24)) _) $$ HR CsY24 HO PsY24
  iintro ⟨HO, PsY24, RbL24⟩
  first | sl_exec | (rw [wp_ret]; imodintro; beta_reduce) | skip
  iapply (stepWaitSY m K c 25 (wpE_waitDma2_eq 𝒱₀ (c : Thread nD τ) none Set.univ (src := oX c 25) (dst := sl3 rbM 25)) _) $$ HR CsY25 HO PsY25
  iintro ⟨HO, PsY25, RbL25⟩
  first | sl_exec | (rw [wp_ret]; imodintro; beta_reduce) | skip
  iapply (stepWaitSY m K c 26 (wpE_waitDma2_eq 𝒱₀ (c : Thread nD τ) none Set.univ (src := oX c 26) (dst := sl3 rbM 26)) _) $$ HR CsY26 HO PsY26
  iintro ⟨HO, PsY26, RbL26⟩
  first | sl_exec | (rw [wp_ret]; imodintro; beta_reduce) | skip
  iapply (stepWaitSY m K c 27 (wpE_waitDma2_eq 𝒱₀ (c : Thread nD τ) none Set.univ (src := oX c 27) (dst := sl3 rbM 27)) _) $$ HR CsY27 HO PsY27
  iintro ⟨HO, PsY27, RbL27⟩
  first | sl_exec | (rw [wp_ret]; imodintro; beta_reduce) | skip
  iapply (stepWaitSY m K c 28 (wpE_waitDma2_eq 𝒱₀ (c : Thread nD τ) none Set.univ (src := oX c 28) (dst := sl3 rbM 28)) _) $$ HR CsY28 HO PsY28
  iintro ⟨HO, PsY28, RbL28⟩
  first | sl_exec | (rw [wp_ret]; imodintro; beta_reduce) | skip
  iapply (stepWaitSY m K c 29 (wpE_waitDma2_eq 𝒱₀ (c : Thread nD τ) none Set.univ (src := oX c 29) (dst := sl3 rbM 29)) _) $$ HR CsY29 HO PsY29
  iintro ⟨HO, PsY29, RbL29⟩
  first | sl_exec | (rw [wp_ret]; imodintro; beta_reduce) | skip
  iapply (stepWaitSY m K c 30 (wpE_waitDma2_eq 𝒱₀ (c : Thread nD τ) none Set.univ (src := oX c 30) (dst := sl3 rbM 30)) _) $$ HR CsY30 HO PsY30
  iintro ⟨HO, PsY30, RbL30⟩
  first | sl_exec | (rw [wp_ret]; imodintro; beta_reduce) | skip
  iapply (stepWaitSY m K c 31 (wpE_waitDma2_eq 𝒱₀ (c : Thread nD τ) none Set.univ (src := oX c 31) (dst := sl3 rbM 31)) _) $$ HR CsY31 HO PsY31
  iintro ⟨HO, PsY31, RbL31⟩
  first | sl_exec | (rw [wp_ret]; imodintro; beta_reduce) | skip
  -- what the result's pieces hold
  sl_unfold_run_names
  ihave Ox0 : (((oX c 0).view.loc (c : Thread nD τ) ↦[(oX c 0).view.set]{fullShare} outC m c)) $$ [Ox0]
  · iapply (Entails.of_eq (pointsTo_congr (fstored_val m c 0 _)))
    iexact Ox0
  ihave Ox1 : (((oX c 1).view.loc (c : Thread nD τ) ↦[(oX c 1).view.set]{fullShare} outC m c)) $$ [Ox1]
  · iapply (Entails.of_eq (pointsTo_congr (fstored_val m c 1 _)))
    iexact Ox1
  ihave Ox2 : (((oX c 2).view.loc (c : Thread nD τ) ↦[(oX c 2).view.set]{fullShare} outC m c)) $$ [Ox2]
  · iapply (Entails.of_eq (pointsTo_congr (fstored_val m c 2 _)))
    iexact Ox2
  ihave Ox3 : (((oX c 3).view.loc (c : Thread nD τ) ↦[(oX c 3).view.set]{fullShare} outC m c)) $$ [Ox3]
  · iapply (Entails.of_eq (pointsTo_congr (fstored_val m c 3 _)))
    iexact Ox3
  ihave Ox4 : (((oX c 4).view.loc (c : Thread nD τ) ↦[(oX c 4).view.set]{fullShare} outC m c)) $$ [Ox4]
  · iapply (Entails.of_eq (pointsTo_congr (fstored_val m c 4 _)))
    iexact Ox4
  ihave Ox5 : (((oX c 5).view.loc (c : Thread nD τ) ↦[(oX c 5).view.set]{fullShare} outC m c)) $$ [Ox5]
  · iapply (Entails.of_eq (pointsTo_congr (fstored_val m c 5 _)))
    iexact Ox5
  ihave Ox6 : (((oX c 6).view.loc (c : Thread nD τ) ↦[(oX c 6).view.set]{fullShare} outC m c)) $$ [Ox6]
  · iapply (Entails.of_eq (pointsTo_congr (fstored_val m c 6 _)))
    iexact Ox6
  ihave Ox7 : (((oX c 7).view.loc (c : Thread nD τ) ↦[(oX c 7).view.set]{fullShare} outC m c)) $$ [Ox7]
  · iapply (Entails.of_eq (pointsTo_congr (fstored_val m c 7 _)))
    iexact Ox7
  ihave Ox8 : (((oX c 8).view.loc (c : Thread nD τ) ↦[(oX c 8).view.set]{fullShare} outC m c)) $$ [Ox8]
  · iapply (Entails.of_eq (pointsTo_congr (fstored_val m c 8 _)))
    iexact Ox8
  ihave Ox9 : (((oX c 9).view.loc (c : Thread nD τ) ↦[(oX c 9).view.set]{fullShare} outC m c)) $$ [Ox9]
  · iapply (Entails.of_eq (pointsTo_congr (fstored_val m c 9 _)))
    iexact Ox9
  ihave Ox10 : (((oX c 10).view.loc (c : Thread nD τ) ↦[(oX c 10).view.set]{fullShare} outC m c)) $$ [Ox10]
  · iapply (Entails.of_eq (pointsTo_congr (fstored_val m c 10 _)))
    iexact Ox10
  ihave Ox11 : (((oX c 11).view.loc (c : Thread nD τ) ↦[(oX c 11).view.set]{fullShare} outC m c)) $$ [Ox11]
  · iapply (Entails.of_eq (pointsTo_congr (fstored_val m c 11 _)))
    iexact Ox11
  ihave Ox12 : (((oX c 12).view.loc (c : Thread nD τ) ↦[(oX c 12).view.set]{fullShare} outC m c)) $$ [Ox12]
  · iapply (Entails.of_eq (pointsTo_congr (fstored_val m c 12 _)))
    iexact Ox12
  ihave Ox13 : (((oX c 13).view.loc (c : Thread nD τ) ↦[(oX c 13).view.set]{fullShare} outC m c)) $$ [Ox13]
  · iapply (Entails.of_eq (pointsTo_congr (fstored_val m c 13 _)))
    iexact Ox13
  ihave Ox14 : (((oX c 14).view.loc (c : Thread nD τ) ↦[(oX c 14).view.set]{fullShare} outC m c)) $$ [Ox14]
  · iapply (Entails.of_eq (pointsTo_congr (fstored_val m c 14 _)))
    iexact Ox14
  ihave Ox15 : (((oX c 15).view.loc (c : Thread nD τ) ↦[(oX c 15).view.set]{fullShare} outC m c)) $$ [Ox15]
  · iapply (Entails.of_eq (pointsTo_congr (fstored_val m c 15 _)))
    iexact Ox15
  ihave Ox16 : (((oX c 16).view.loc (c : Thread nD τ) ↦[(oX c 16).view.set]{fullShare} outC m c)) $$ [Ox16]
  · iapply (Entails.of_eq (pointsTo_congr (fstored_val m c 16 _)))
    iexact Ox16
  ihave Ox17 : (((oX c 17).view.loc (c : Thread nD τ) ↦[(oX c 17).view.set]{fullShare} outC m c)) $$ [Ox17]
  · iapply (Entails.of_eq (pointsTo_congr (fstored_val m c 17 _)))
    iexact Ox17
  ihave Ox18 : (((oX c 18).view.loc (c : Thread nD τ) ↦[(oX c 18).view.set]{fullShare} outC m c)) $$ [Ox18]
  · iapply (Entails.of_eq (pointsTo_congr (fstored_val m c 18 _)))
    iexact Ox18
  ihave Ox19 : (((oX c 19).view.loc (c : Thread nD τ) ↦[(oX c 19).view.set]{fullShare} outC m c)) $$ [Ox19]
  · iapply (Entails.of_eq (pointsTo_congr (fstored_val m c 19 _)))
    iexact Ox19
  ihave Ox20 : (((oX c 20).view.loc (c : Thread nD τ) ↦[(oX c 20).view.set]{fullShare} outC m c)) $$ [Ox20]
  · iapply (Entails.of_eq (pointsTo_congr (fstored_val m c 20 _)))
    iexact Ox20
  ihave Ox21 : (((oX c 21).view.loc (c : Thread nD τ) ↦[(oX c 21).view.set]{fullShare} outC m c)) $$ [Ox21]
  · iapply (Entails.of_eq (pointsTo_congr (fstored_val m c 21 _)))
    iexact Ox21
  ihave Ox22 : (((oX c 22).view.loc (c : Thread nD τ) ↦[(oX c 22).view.set]{fullShare} outC m c)) $$ [Ox22]
  · iapply (Entails.of_eq (pointsTo_congr (fstored_val m c 22 _)))
    iexact Ox22
  ihave Ox23 : (((oX c 23).view.loc (c : Thread nD τ) ↦[(oX c 23).view.set]{fullShare} outC m c)) $$ [Ox23]
  · iapply (Entails.of_eq (pointsTo_congr (fstored_val m c 23 _)))
    iexact Ox23
  ihave Ox24 : (((oX c 24).view.loc (c : Thread nD τ) ↦[(oX c 24).view.set]{fullShare} outC m c)) $$ [Ox24]
  · iapply (Entails.of_eq (pointsTo_congr (fstored_val m c 24 _)))
    iexact Ox24
  ihave Ox25 : (((oX c 25).view.loc (c : Thread nD τ) ↦[(oX c 25).view.set]{fullShare} outC m c)) $$ [Ox25]
  · iapply (Entails.of_eq (pointsTo_congr (fstored_val m c 25 _)))
    iexact Ox25
  ihave Ox26 : (((oX c 26).view.loc (c : Thread nD τ) ↦[(oX c 26).view.set]{fullShare} outC m c)) $$ [Ox26]
  · iapply (Entails.of_eq (pointsTo_congr (fstored_val m c 26 _)))
    iexact Ox26
  ihave Ox27 : (((oX c 27).view.loc (c : Thread nD τ) ↦[(oX c 27).view.set]{fullShare} outC m c)) $$ [Ox27]
  · iapply (Entails.of_eq (pointsTo_congr (fstored_val m c 27 _)))
    iexact Ox27
  ihave Ox28 : (((oX c 28).view.loc (c : Thread nD τ) ↦[(oX c 28).view.set]{fullShare} outC m c)) $$ [Ox28]
  · iapply (Entails.of_eq (pointsTo_congr (fstored_val m c 28 _)))
    iexact Ox28
  ihave Ox29 : (((oX c 29).view.loc (c : Thread nD τ) ↦[(oX c 29).view.set]{fullShare} outC m c)) $$ [Ox29]
  · iapply (Entails.of_eq (pointsTo_congr (fstored_val m c 29 _)))
    iexact Ox29
  ihave Ox30 : (((oX c 30).view.loc (c : Thread nD τ) ↦[(oX c 30).view.set]{fullShare} outC m c)) $$ [Ox30]
  · iapply (Entails.of_eq (pointsTo_congr (fstored_val m c 30 _)))
    iexact Ox30
  ihave Ox31 : (((oX c 31).view.loc (c : Thread nD τ) ↦[(oX c 31).view.set]{fullShare} outC m c)) $$ [Ox31]
  · iapply (Entails.of_eq (pointsTo_congr (fstored_val m c 31 _)))
    iexact Ox31
  ihave HoOwn : (((oOwn c).view.loc (c : Thread nD τ) ↦[(oOwn c).view.set]{fullShare} outC m c)) $$ [HoOwn]
  · iapply (Entails.of_eq (pointsTo_congr (ownstored_val m c _ _)))
    iexact HoOwn
  ihave HxL := (aside_out _) $$ AL
  -- the end: every cell closed, every buffer whole again
  rw [wp_ret]
  imod (finish m K c) $$ HR HxL [Sl0 Sl1 Sl2 Sl3 Sl4 Sl5 Sl6 Sl7 Sl8 Sl9 Sl10 Sl11 Sl12 Sl13 Sl14 Sl15 Sl16 Sl17 Sl18 Sl19 Sl20 Sl21 Sl22 Sl23 Sl24 Sl25 Sl26 Sl27 Sl28 Sl29 Sl30 Sl31] [Sb0 Sb1 Sb2 Sb3 Sb4 Sb5 Sb6 Sb7 Sb8 Sb9 Sb10 Sb11 Sb12 Sb13 Sb14 Sb15 Sb16 Sb17 Sb18 Sb19 Sb20 Sb21 Sb22 Sb23 Sb24 Sb25 Sb26 Sb27 Sb28 Sb29 Sb30 Sb31] [RbL0 RbR0 RbL1 RbR1 RbL2 RbR2 RbL3 RbR3 RbL4 RbR4 RbL5 RbR5 RbL6 RbR6 RbL7 RbR7 RbL8 RbR8 RbL9 RbR9 RbL10 RbR10 RbL11 RbR11 RbL12 RbR12 RbL13 RbR13 RbL14 RbR14 RbL15 RbR15 RbL16 RbR16 RbL17 RbR17 RbL18 RbR18 RbL19 RbR19 RbL20 RbR20 RbL21 RbR21 RbL22 RbR22 RbL23 RbR23 RbL24 RbR24 RbL25 RbR25 RbL26 RbR26 RbL27 RbR27 RbL28 RbR28 RbL29 RbR29 RbL30 RbR30 RbL31 RbR31] [El0 El1] [Hlv] [Ox0 Ox1 Ox2 Ox3 Ox4 Ox5 Ox6 Ox7 Ox8 Ox9 Ox10 Ox11 Ox12 Ox13 Ox14 Ox15 Ox16 Ox17 Ox18 Ox19 Ox20 Ox21 Ox22 Ox23 Ox24 Ox25 Ox26 Ox27 Ox28 Ox29 Ox30 Ox31] [Oy0 Oy1 Oy2 Oy3 Oy4 Oy5 Oy6 Oy7 Oy8 Oy9 Oy10 Oy11 Oy12 Oy13 Oy14 Oy15 Oy16 Oy17 Oy18 Oy19 Oy20 Oy21 Oy22 Oy23 Oy24 Oy25 Oy26 Oy27 Oy28 Oy29 Oy30 Oy31] HoOwn [V0 V1 V2 V3 V4 V5 V6 V7 V8 V9 V10 V11 V12 V13 V14 V15 V16 V17 V18 V19 V20 V21 V22 V23 V24 V25 V26 V27 V28 V29 V30 V31 V32 V33 V34 V35 V36 V37 V38 V39 V40 V41 V42 V43 V44 V45 V46 V47 V48 V49 V50 V51 V52 V53 V54 V55 V56 V57 V58 V59 V60 V61 V62 V63 V64 V65 V66] [PsX0 PrX0 PsY0 PrY0 PsX1 PrX1 PsY1 PrY1 PsX2 PrX2 PsY2 PrY2 PsX3 PrX3 PsY3 PrY3 PsX4 PrX4 PsY4 PrY4 PsX5 PrX5 PsY5 PrY5 PsX6 PrX6 PsY6 PrY6 PsX7 PrX7 PsY7 PrY7 PsX8 PrX8 PsY8 PrY8 PsX9 PrX9 PsY9 PrY9 PsX10 PrX10 PsY10 PrY10 PsX11 PrX11 PsY11 PrY11 PsX12 PrX12 PsY12 PrY12 PsX13 PrX13 PsY13 PrY13 PsX14 PrX14 PsY14 PrY14 PsX15 PrX15 PsY15 PrY15 PsX16 PrX16 PsY16 PrY16 PsX17 PrX17 PsY17 PrY17 PsX18 PrX18 PsY18 PrY18 PsX19 PrX19 PsY19 PrY19 PsX20 PrX20 PsY20 PrY20 PsX21 PrX21 PsY21 PrY21 PsX22 PrX22 PsY22 PrY22 PsX23 PrX23 PsY23 PrY23 PsX24 PrX24 PsY24 PrY24 PsX25 PrX25 PsY25 PrY25 PsX26 PrX26 PsY26 PrY26 PsX27 PrX27 PsY27 PrY27 PsX28 PrX28 PsY28 PrY28 PsX29 PrX29 PsY29 PrY29 PsX30 PrX30 PsY30 PrY30 PsX31 PrX31 PsY31 PrY31] with HΦ
  · iapply (Entails.of_eq (bigSep_fin32 (fun k : Fin 32 => (iprop(∃ f, ((sl3 slM k).view.loc (c : Thread nD τ) ↦[(sl3 slM k).view.set]{fullShare} f)) : sProp 𝕄))).symm)
    isplitl [Sl0]; · iexists _; iexact Sl0
    isplitl [Sl1]; · iexists _; iexact Sl1
    isplitl [Sl2]; · iexists _; iexact Sl2
    isplitl [Sl3]; · iexists _; iexact Sl3
    isplitl [Sl4]; · iexists _; iexact Sl4
    isplitl [Sl5]; · iexists _; iexact Sl5
    isplitl [Sl6]; · iexists _; iexact Sl6
    isplitl [Sl7]; · iexists _; iexact Sl7
    isplitl [Sl8]; · iexists _; iexact Sl8
    isplitl [Sl9]; · iexists _; iexact Sl9
    isplitl [Sl10]; · iexists _; iexact Sl10
    isplitl [Sl11]; · iexists _; iexact Sl11
    isplitl [Sl12]; · iexists _; iexact Sl12
    isplitl [Sl13]; · iexists _; iexact Sl13
    isplitl [Sl14]; · iexists _; iexact Sl14
    isplitl [Sl15]; · iexists _; iexact Sl15
    isplitl [Sl16]; · iexists _; iexact Sl16
    isplitl [Sl17]; · iexists _; iexact Sl17
    isplitl [Sl18]; · iexists _; iexact Sl18
    isplitl [Sl19]; · iexists _; iexact Sl19
    isplitl [Sl20]; · iexists _; iexact Sl20
    isplitl [Sl21]; · iexists _; iexact Sl21
    isplitl [Sl22]; · iexists _; iexact Sl22
    isplitl [Sl23]; · iexists _; iexact Sl23
    isplitl [Sl24]; · iexists _; iexact Sl24
    isplitl [Sl25]; · iexists _; iexact Sl25
    isplitl [Sl26]; · iexists _; iexact Sl26
    isplitl [Sl27]; · iexists _; iexact Sl27
    isplitl [Sl28]; · iexists _; iexact Sl28
    isplitl [Sl29]; · iexists _; iexact Sl29
    isplitl [Sl30]; · iexists _; iexact Sl30
    iexists _; iexact Sl31
  · iapply (Entails.of_eq (bigSep_fin32 (fun k : Fin 32 => (iprop(∃ f, ((sl3 sbM k).view.loc (c : Thread nD τ) ↦[(sl3 sbM k).view.set]{fullShare} f)) : sProp 𝕄))).symm)
    isplitl [Sb0]; · iexists _; iexact Sb0
    isplitl [Sb1]; · iexists _; iexact Sb1
    isplitl [Sb2]; · iexists _; iexact Sb2
    isplitl [Sb3]; · iexists _; iexact Sb3
    isplitl [Sb4]; · iexists _; iexact Sb4
    isplitl [Sb5]; · iexists _; iexact Sb5
    isplitl [Sb6]; · iexists _; iexact Sb6
    isplitl [Sb7]; · iexists _; iexact Sb7
    isplitl [Sb8]; · iexists _; iexact Sb8
    isplitl [Sb9]; · iexists _; iexact Sb9
    isplitl [Sb10]; · iexists _; iexact Sb10
    isplitl [Sb11]; · iexists _; iexact Sb11
    isplitl [Sb12]; · iexists _; iexact Sb12
    isplitl [Sb13]; · iexists _; iexact Sb13
    isplitl [Sb14]; · iexists _; iexact Sb14
    isplitl [Sb15]; · iexists _; iexact Sb15
    isplitl [Sb16]; · iexists _; iexact Sb16
    isplitl [Sb17]; · iexists _; iexact Sb17
    isplitl [Sb18]; · iexists _; iexact Sb18
    isplitl [Sb19]; · iexists _; iexact Sb19
    isplitl [Sb20]; · iexists _; iexact Sb20
    isplitl [Sb21]; · iexists _; iexact Sb21
    isplitl [Sb22]; · iexists _; iexact Sb22
    isplitl [Sb23]; · iexists _; iexact Sb23
    isplitl [Sb24]; · iexists _; iexact Sb24
    isplitl [Sb25]; · iexists _; iexact Sb25
    isplitl [Sb26]; · iexists _; iexact Sb26
    isplitl [Sb27]; · iexists _; iexact Sb27
    isplitl [Sb28]; · iexists _; iexact Sb28
    isplitl [Sb29]; · iexists _; iexact Sb29
    isplitl [Sb30]; · iexists _; iexact Sb30
    iexists _; iexact Sb31
  · iapply (Entails.of_eq (bigSep_fin32 (fun k : Fin 32 => (iprop(((sl3 rbM k).view.loc (c : Thread nD τ) ↦[(sl3 rbM k).view.set]{fullShare.left} recvC m c) ∗ ((sl3 rbM k).view.loc (c : Thread nD τ) ↦[(sl3 rbM k).view.set]{fullShare.right} recvC m c)) : sProp 𝕄))).symm)
    isplitl [RbL0 RbR0]; · (isplitl [RbL0]; · iexact RbL0); iexact RbR0
    isplitl [RbL1 RbR1]; · (isplitl [RbL1]; · iexact RbL1); iexact RbR1
    isplitl [RbL2 RbR2]; · (isplitl [RbL2]; · iexact RbL2); iexact RbR2
    isplitl [RbL3 RbR3]; · (isplitl [RbL3]; · iexact RbL3); iexact RbR3
    isplitl [RbL4 RbR4]; · (isplitl [RbL4]; · iexact RbL4); iexact RbR4
    isplitl [RbL5 RbR5]; · (isplitl [RbL5]; · iexact RbL5); iexact RbR5
    isplitl [RbL6 RbR6]; · (isplitl [RbL6]; · iexact RbL6); iexact RbR6
    isplitl [RbL7 RbR7]; · (isplitl [RbL7]; · iexact RbL7); iexact RbR7
    isplitl [RbL8 RbR8]; · (isplitl [RbL8]; · iexact RbL8); iexact RbR8
    isplitl [RbL9 RbR9]; · (isplitl [RbL9]; · iexact RbL9); iexact RbR9
    isplitl [RbL10 RbR10]; · (isplitl [RbL10]; · iexact RbL10); iexact RbR10
    isplitl [RbL11 RbR11]; · (isplitl [RbL11]; · iexact RbL11); iexact RbR11
    isplitl [RbL12 RbR12]; · (isplitl [RbL12]; · iexact RbL12); iexact RbR12
    isplitl [RbL13 RbR13]; · (isplitl [RbL13]; · iexact RbL13); iexact RbR13
    isplitl [RbL14 RbR14]; · (isplitl [RbL14]; · iexact RbL14); iexact RbR14
    isplitl [RbL15 RbR15]; · (isplitl [RbL15]; · iexact RbL15); iexact RbR15
    isplitl [RbL16 RbR16]; · (isplitl [RbL16]; · iexact RbL16); iexact RbR16
    isplitl [RbL17 RbR17]; · (isplitl [RbL17]; · iexact RbL17); iexact RbR17
    isplitl [RbL18 RbR18]; · (isplitl [RbL18]; · iexact RbL18); iexact RbR18
    isplitl [RbL19 RbR19]; · (isplitl [RbL19]; · iexact RbL19); iexact RbR19
    isplitl [RbL20 RbR20]; · (isplitl [RbL20]; · iexact RbL20); iexact RbR20
    isplitl [RbL21 RbR21]; · (isplitl [RbL21]; · iexact RbL21); iexact RbR21
    isplitl [RbL22 RbR22]; · (isplitl [RbL22]; · iexact RbL22); iexact RbR22
    isplitl [RbL23 RbR23]; · (isplitl [RbL23]; · iexact RbL23); iexact RbR23
    isplitl [RbL24 RbR24]; · (isplitl [RbL24]; · iexact RbL24); iexact RbR24
    isplitl [RbL25 RbR25]; · (isplitl [RbL25]; · iexact RbL25); iexact RbR25
    isplitl [RbL26 RbR26]; · (isplitl [RbL26]; · iexact RbL26); iexact RbR26
    isplitl [RbL27 RbR27]; · (isplitl [RbL27]; · iexact RbL27); iexact RbR27
    isplitl [RbL28 RbR28]; · (isplitl [RbL28]; · iexact RbL28); iexact RbR28
    isplitl [RbL29 RbR29]; · (isplitl [RbL29]; · iexact RbL29); iexact RbR29
    isplitl [RbL30 RbR30]; · (isplitl [RbL30]; · iexact RbL30); iexact RbR30
    (isplitl [RbL31]; · iexact RbL31); iexact RbR31
  · iapply (Entails.of_eq (bigSep_fin2 (fun j : Fin 2 => (iprop(∃ f, ((el2 j).view.loc (c : Thread nD τ) ↦[(el2 j).view.set]{fullShare} f)) : sProp 𝕄))).symm)
    isplitl [El0]; · iexists _; iexact El0
    iexists _; iexact El1
  · iexists _; iexact Hlv
  · iapply (Entails.of_eq (bigSep_fin32 (fun k : Fin 32 => (((oX c k).view.loc (c : Thread nD τ) ↦[(oX c k).view.set]{fullShare} outC m c) : sProp 𝕄))).symm)
    isplitl [Ox0]; · iexact Ox0
    isplitl [Ox1]; · iexact Ox1
    isplitl [Ox2]; · iexact Ox2
    isplitl [Ox3]; · iexact Ox3
    isplitl [Ox4]; · iexact Ox4
    isplitl [Ox5]; · iexact Ox5
    isplitl [Ox6]; · iexact Ox6
    isplitl [Ox7]; · iexact Ox7
    isplitl [Ox8]; · iexact Ox8
    isplitl [Ox9]; · iexact Ox9
    isplitl [Ox10]; · iexact Ox10
    isplitl [Ox11]; · iexact Ox11
    isplitl [Ox12]; · iexact Ox12
    isplitl [Ox13]; · iexact Ox13
    isplitl [Ox14]; · iexact Ox14
    isplitl [Ox15]; · iexact Ox15
    isplitl [Ox16]; · iexact Ox16
    isplitl [Ox17]; · iexact Ox17
    isplitl [Ox18]; · iexact Ox18
    isplitl [Ox19]; · iexact Ox19
    isplitl [Ox20]; · iexact Ox20
    isplitl [Ox21]; · iexact Ox21
    isplitl [Ox22]; · iexact Ox22
    isplitl [Ox23]; · iexact Ox23
    isplitl [Ox24]; · iexact Ox24
    isplitl [Ox25]; · iexact Ox25
    isplitl [Ox26]; · iexact Ox26
    isplitl [Ox27]; · iexact Ox27
    isplitl [Ox28]; · iexact Ox28
    isplitl [Ox29]; · iexact Ox29
    isplitl [Ox30]; · iexact Ox30
    iexact Ox31
  · iapply (Entails.of_eq (bigSep_fin32 (fun k : Fin 32 => (((oY c k).view.loc (c : Thread nD τ) ↦[(oY c k).view.set]{fullShare} outC m c) : sProp 𝕄))).symm)
    isplitl [Oy0]; · iexact Oy0
    isplitl [Oy1]; · iexact Oy1
    isplitl [Oy2]; · iexact Oy2
    isplitl [Oy3]; · iexact Oy3
    isplitl [Oy4]; · iexact Oy4
    isplitl [Oy5]; · iexact Oy5
    isplitl [Oy6]; · iexact Oy6
    isplitl [Oy7]; · iexact Oy7
    isplitl [Oy8]; · iexact Oy8
    isplitl [Oy9]; · iexact Oy9
    isplitl [Oy10]; · iexact Oy10
    isplitl [Oy11]; · iexact Oy11
    isplitl [Oy12]; · iexact Oy12
    isplitl [Oy13]; · iexact Oy13
    isplitl [Oy14]; · iexact Oy14
    isplitl [Oy15]; · iexact Oy15
    isplitl [Oy16]; · iexact Oy16
    isplitl [Oy17]; · iexact Oy17
    isplitl [Oy18]; · iexact Oy18
    isplitl [Oy19]; · iexact Oy19
    isplitl [Oy20]; · iexact Oy20
    isplitl [Oy21]; · iexact Oy21
    isplitl [Oy22]; · iexact Oy22
    isplitl [Oy23]; · iexact Oy23
    isplitl [Oy24]; · iexact Oy24
    isplitl [Oy25]; · iexact Oy25
    isplitl [Oy26]; · iexact Oy26
    isplitl [Oy27]; · iexact Oy27
    isplitl [Oy28]; · iexact Oy28
    isplitl [Oy29]; · iexact Oy29
    isplitl [Oy30]; · iexact Oy30
    iexact Oy31
  · unfold locals
    iapply (Entails.of_eq (bigSep_fin67 _).symm)
    isplitl [V0]; · iexact V0
    isplitl [V1]; · iexact V1
    isplitl [V2]; · iexact V2
    isplitl [V3]; · iexact V3
    isplitl [V4]; · iexact V4
    isplitl [V5]; · iexact V5
    isplitl [V6]; · iexact V6
    isplitl [V7]; · iexact V7
    isplitl [V8]; · iexact V8
    isplitl [V9]; · iexact V9
    isplitl [V10]; · iexact V10
    isplitl [V11]; · iexact V11
    isplitl [V12]; · iexact V12
    isplitl [V13]; · iexact V13
    isplitl [V14]; · iexact V14
    isplitl [V15]; · iexact V15
    isplitl [V16]; · iexact V16
    isplitl [V17]; · iexact V17
    isplitl [V18]; · iexact V18
    isplitl [V19]; · iexact V19
    isplitl [V20]; · iexact V20
    isplitl [V21]; · iexact V21
    isplitl [V22]; · iexact V22
    isplitl [V23]; · iexact V23
    isplitl [V24]; · iexact V24
    isplitl [V25]; · iexact V25
    isplitl [V26]; · iexact V26
    isplitl [V27]; · iexact V27
    isplitl [V28]; · iexact V28
    isplitl [V29]; · iexact V29
    isplitl [V30]; · iexact V30
    isplitl [V31]; · iexact V31
    isplitl [V32]; · iexact V32
    isplitl [V33]; · iexact V33
    isplitl [V34]; · iexact V34
    isplitl [V35]; · iexact V35
    isplitl [V36]; · iexact V36
    isplitl [V37]; · iexact V37
    isplitl [V38]; · iexact V38
    isplitl [V39]; · iexact V39
    isplitl [V40]; · iexact V40
    isplitl [V41]; · iexact V41
    isplitl [V42]; · iexact V42
    isplitl [V43]; · iexact V43
    isplitl [V44]; · iexact V44
    isplitl [V45]; · iexact V45
    isplitl [V46]; · iexact V46
    isplitl [V47]; · iexact V47
    isplitl [V48]; · iexact V48
    isplitl [V49]; · iexact V49
    isplitl [V50]; · iexact V50
    isplitl [V51]; · iexact V51
    isplitl [V52]; · iexact V52
    isplitl [V53]; · iexact V53
    isplitl [V54]; · iexact V54
    isplitl [V55]; · iexact V55
    isplitl [V56]; · iexact V56
    isplitl [V57]; · iexact V57
    isplitl [V58]; · iexact V58
    isplitl [V59]; · iexact V59
    isplitl [V60]; · iexact V60
    isplitl [V61]; · iexact V61
    isplitl [V62]; · iexact V62
    isplitl [V63]; · iexact V63
    isplitl [V64]; · iexact V64
    isplitl [V65]; · iexact V65
    iexact V66
  · iapply (Entails.of_eq (bigSep_fin32 (fun k : Fin 32 => (iprop(atPos ER (sXc c k) 1 ∅ 0 ∗ atPos ER (rXc c k) 1 ∅ 0 ∗ atPos ER (sYc c k) 1 ∅ 0 ∗ atPos ER (rYc c k) 1 ∅ 0) : sProp 𝕄))).symm)
    isplitl [PsX0 PrX0 PsY0 PrY0]; · (isplitl [PsX0]; · iexact PsX0); (isplitl [PrX0]; · iexact PrX0); (isplitl [PsY0]; · iexact PsY0); iexact PrY0
    isplitl [PsX1 PrX1 PsY1 PrY1]; · (isplitl [PsX1]; · iexact PsX1); (isplitl [PrX1]; · iexact PrX1); (isplitl [PsY1]; · iexact PsY1); iexact PrY1
    isplitl [PsX2 PrX2 PsY2 PrY2]; · (isplitl [PsX2]; · iexact PsX2); (isplitl [PrX2]; · iexact PrX2); (isplitl [PsY2]; · iexact PsY2); iexact PrY2
    isplitl [PsX3 PrX3 PsY3 PrY3]; · (isplitl [PsX3]; · iexact PsX3); (isplitl [PrX3]; · iexact PrX3); (isplitl [PsY3]; · iexact PsY3); iexact PrY3
    isplitl [PsX4 PrX4 PsY4 PrY4]; · (isplitl [PsX4]; · iexact PsX4); (isplitl [PrX4]; · iexact PrX4); (isplitl [PsY4]; · iexact PsY4); iexact PrY4
    isplitl [PsX5 PrX5 PsY5 PrY5]; · (isplitl [PsX5]; · iexact PsX5); (isplitl [PrX5]; · iexact PrX5); (isplitl [PsY5]; · iexact PsY5); iexact PrY5
    isplitl [PsX6 PrX6 PsY6 PrY6]; · (isplitl [PsX6]; · iexact PsX6); (isplitl [PrX6]; · iexact PrX6); (isplitl [PsY6]; · iexact PsY6); iexact PrY6
    isplitl [PsX7 PrX7 PsY7 PrY7]; · (isplitl [PsX7]; · iexact PsX7); (isplitl [PrX7]; · iexact PrX7); (isplitl [PsY7]; · iexact PsY7); iexact PrY7
    isplitl [PsX8 PrX8 PsY8 PrY8]; · (isplitl [PsX8]; · iexact PsX8); (isplitl [PrX8]; · iexact PrX8); (isplitl [PsY8]; · iexact PsY8); iexact PrY8
    isplitl [PsX9 PrX9 PsY9 PrY9]; · (isplitl [PsX9]; · iexact PsX9); (isplitl [PrX9]; · iexact PrX9); (isplitl [PsY9]; · iexact PsY9); iexact PrY9
    isplitl [PsX10 PrX10 PsY10 PrY10]; · (isplitl [PsX10]; · iexact PsX10); (isplitl [PrX10]; · iexact PrX10); (isplitl [PsY10]; · iexact PsY10); iexact PrY10
    isplitl [PsX11 PrX11 PsY11 PrY11]; · (isplitl [PsX11]; · iexact PsX11); (isplitl [PrX11]; · iexact PrX11); (isplitl [PsY11]; · iexact PsY11); iexact PrY11
    isplitl [PsX12 PrX12 PsY12 PrY12]; · (isplitl [PsX12]; · iexact PsX12); (isplitl [PrX12]; · iexact PrX12); (isplitl [PsY12]; · iexact PsY12); iexact PrY12
    isplitl [PsX13 PrX13 PsY13 PrY13]; · (isplitl [PsX13]; · iexact PsX13); (isplitl [PrX13]; · iexact PrX13); (isplitl [PsY13]; · iexact PsY13); iexact PrY13
    isplitl [PsX14 PrX14 PsY14 PrY14]; · (isplitl [PsX14]; · iexact PsX14); (isplitl [PrX14]; · iexact PrX14); (isplitl [PsY14]; · iexact PsY14); iexact PrY14
    isplitl [PsX15 PrX15 PsY15 PrY15]; · (isplitl [PsX15]; · iexact PsX15); (isplitl [PrX15]; · iexact PrX15); (isplitl [PsY15]; · iexact PsY15); iexact PrY15
    isplitl [PsX16 PrX16 PsY16 PrY16]; · (isplitl [PsX16]; · iexact PsX16); (isplitl [PrX16]; · iexact PrX16); (isplitl [PsY16]; · iexact PsY16); iexact PrY16
    isplitl [PsX17 PrX17 PsY17 PrY17]; · (isplitl [PsX17]; · iexact PsX17); (isplitl [PrX17]; · iexact PrX17); (isplitl [PsY17]; · iexact PsY17); iexact PrY17
    isplitl [PsX18 PrX18 PsY18 PrY18]; · (isplitl [PsX18]; · iexact PsX18); (isplitl [PrX18]; · iexact PrX18); (isplitl [PsY18]; · iexact PsY18); iexact PrY18
    isplitl [PsX19 PrX19 PsY19 PrY19]; · (isplitl [PsX19]; · iexact PsX19); (isplitl [PrX19]; · iexact PrX19); (isplitl [PsY19]; · iexact PsY19); iexact PrY19
    isplitl [PsX20 PrX20 PsY20 PrY20]; · (isplitl [PsX20]; · iexact PsX20); (isplitl [PrX20]; · iexact PrX20); (isplitl [PsY20]; · iexact PsY20); iexact PrY20
    isplitl [PsX21 PrX21 PsY21 PrY21]; · (isplitl [PsX21]; · iexact PsX21); (isplitl [PrX21]; · iexact PrX21); (isplitl [PsY21]; · iexact PsY21); iexact PrY21
    isplitl [PsX22 PrX22 PsY22 PrY22]; · (isplitl [PsX22]; · iexact PsX22); (isplitl [PrX22]; · iexact PrX22); (isplitl [PsY22]; · iexact PsY22); iexact PrY22
    isplitl [PsX23 PrX23 PsY23 PrY23]; · (isplitl [PsX23]; · iexact PsX23); (isplitl [PrX23]; · iexact PrX23); (isplitl [PsY23]; · iexact PsY23); iexact PrY23
    isplitl [PsX24 PrX24 PsY24 PrY24]; · (isplitl [PsX24]; · iexact PsX24); (isplitl [PrX24]; · iexact PrX24); (isplitl [PsY24]; · iexact PsY24); iexact PrY24
    isplitl [PsX25 PrX25 PsY25 PrY25]; · (isplitl [PsX25]; · iexact PsX25); (isplitl [PrX25]; · iexact PrX25); (isplitl [PsY25]; · iexact PsY25); iexact PrY25
    isplitl [PsX26 PrX26 PsY26 PrY26]; · (isplitl [PsX26]; · iexact PsX26); (isplitl [PrX26]; · iexact PrX26); (isplitl [PsY26]; · iexact PsY26); iexact PrY26
    isplitl [PsX27 PrX27 PsY27 PrY27]; · (isplitl [PsX27]; · iexact PsX27); (isplitl [PrX27]; · iexact PrX27); (isplitl [PsY27]; · iexact PsY27); iexact PrY27
    isplitl [PsX28 PrX28 PsY28 PrY28]; · (isplitl [PsX28]; · iexact PsX28); (isplitl [PrX28]; · iexact PrX28); (isplitl [PsY28]; · iexact PsY28); iexact PrY28
    isplitl [PsX29 PrX29 PsY29 PrY29]; · (isplitl [PsX29]; · iexact PsX29); (isplitl [PrX29]; · iexact PrX29); (isplitl [PsY29]; · iexact PsY29); iexact PrY29
    isplitl [PsX30 PrX30 PsY30 PrY30]; · (isplitl [PsX30]; · iexact PsX30); (isplitl [PrX30]; · iexact PrX30); (isplitl [PsY30]; · iexact PsY30); iexact PrY30
    (isplitl [PsX31]; · iexact PsX31); (isplitl [PrX31]; · iexact PrX31); (isplitl [PsY31]; · iexact PsY31); iexact PrY31
  imodintro
  iapply Hk
  isplitl [HΦ]; · iexact HΦ
  iexists _
  isplitr
  rotate_left
  · first | iexact HO | (rw [show (dats m 0 c).owed (t₀ : Fin cfg0.N).succ = 0 from rfl]; iexact HO)
  · ipureintro
    first | exact fun _ _ => Or.inl trivial | (intro x hx; exact Or.inl trivial) | trivial

end Cert.Kernel.Hand

end
-- ==== Proof.lean ====
/-
  Four devices on a 2 x 2 mesh exchange the column blocks of a 16384 x 2048 array.

  Device c (column c / 2, row c % 2) holds rows [8192 (c/2), +8192) of the whole array and must end with columns
  [1024 (c/2), +1024) of it, all 16384 rows, in the narrow float format. Its own 8192 rows of that block it copies
  from its own rows. Of the other 8192 rows, its column mate (same row of the mesh, other column) sends it the 4096
  that their common row coordinate names, in 32 chunks of 128 rows; it writes each chunk into its result and forwards
  it to its row mate, which forwards it the other 4096. Before any transfer every device signals both mates' barrier
  semaphore and waits for both signals, so a chunk never lands on a device that has not yet entered the kernel.

  The reference converts the whole array to the narrow format on one device. Over the extended reals the conversion
  is the identity on values, so the claim is an index equation: row r, column j of device c's result is row r,
  column 1024 (c/2) + j of the whole array, whichever of the three routes brought it there.

  The proof: a schedule of the exchange under which every wait is at a level below what its device still owes
  (barrier below the first exchange's arrivals below the second's); one device's kernel run once at a symbolic
  device from that schedule, the copies and waits of its own stepped mechanically and each signal, send and
  cross-device wait by its rule, every landing's contents named from the start; the launch of the four kernels from
  the body's obligation; and the index equation between what the result holds and the device's block of the
  reference's result. The word-level program's frame is the same run at the word-level instance, values dropped.
-/
import proofs.«900022_g7700000000000023_dist_a2a_v7x_xy2x2_x_m8192_n1024_bf16_1_alg».proof.Defs
import proofs.«900022_g7700000000000023_dist_a2a_v7x_xy2x2_x_m8192_n1024_bf16_1_alg».proof.Proof.Gen.Kernel
import proofs.«900022_g7700000000000023_dist_a2a_v7x_xy2x2_x_m8192_n1024_bf16_1_alg».proof.Proof.Gen.Kernel.Skeleton
import proofs.«900022_g7700000000000023_dist_a2a_v7x_xy2x2_x_m8192_n1024_bf16_1_alg».proof.Proof.Gen.Kernel.Launch
import proofs.«900022_g7700000000000023_dist_a2a_v7x_xy2x2_x_m8192_n1024_bf16_1_alg».proof.Proof.Gen.Kernel.Points
import proofs.«900022_g7700000000000023_dist_a2a_v7x_xy2x2_x_m8192_n1024_bf16_1_alg».proof.Proof.Gen.Kernel.Frame
import proofs.«900022_g7700000000000023_dist_a2a_v7x_xy2x2_x_m8192_n1024_bf16_1_alg».proof.Proof.Gen.KernelIdeal
import proofs.«900022_g7700000000000023_dist_a2a_v7x_xy2x2_x_m8192_n1024_bf16_1_alg».proof.Proof.Gen.KernelIdeal.Skeleton
import proofs.«900022_g7700000000000023_dist_a2a_v7x_xy2x2_x_m8192_n1024_bf16_1_alg».proof.Proof.Gen.KernelIdeal.Launch
import proofs.«900022_g7700000000000023_dist_a2a_v7x_xy2x2_x_m8192_n1024_bf16_1_alg».proof.Proof.Gen.KernelIdeal.Points
import proofs.«900022_g7700000000000023_dist_a2a_v7x_xy2x2_x_m8192_n1024_bf16_1_alg».proof.Proof.Gen.KernelIdeal.Frame
import proofs.«900022_g7700000000000023_dist_a2a_v7x_xy2x2_x_m8192_n1024_bf16_1_alg».proof.Proof.Gen.ReferenceIdeal
import proofs.«900022_g7700000000000023_dist_a2a_v7x_xy2x2_x_m8192_n1024_bf16_1_alg».proof.Proof.Gen.Pre_finite_inputs_Kernel
import proofs.«900022_g7700000000000023_dist_a2a_v7x_xy2x2_x_m8192_n1024_bf16_1_alg».proof.Proof.Gen.Pre_finite_inputs_ReferenceIdeal
import proofs.«900022_g7700000000000023_dist_a2a_v7x_xy2x2_x_m8192_n1024_bf16_1_alg».proof.Proof.Value
import proofs.«900022_g7700000000000023_dist_a2a_v7x_xy2x2_x_m8192_n1024_bf16_1_alg».proof.Proof.Oblig
import proofs.«900022_g7700000000000023_dist_a2a_v7x_xy2x2_x_m8192_n1024_bf16_1_alg».proof.Proof.Body
import proofs.«900022_g7700000000000023_dist_a2a_v7x_xy2x2_x_m8192_n1024_bf16_1_alg».proof.Proof.BOblig
import proofs.«900022_g7700000000000023_dist_a2a_v7x_xy2x2_x_m8192_n1024_bf16_1_alg».proof.Proof.BBody
import Idealize.ShloMosaic.Adequacy
import Idealize.ShloMosaic.Init

noncomputable section

namespace Cert.Proof

open Idealize.ShloMosaic Idealize.SL.Sem

/-- The word-level program runs, and its argument arrays end unchanged: the kernel's run with the result dropped. -/
theorem frame_kernel : Cert.frame_Kernel (hKernel := Cert.Kernel.Gen.facts) (hPre_finite_inputs_Kernel := Cert.Pre_finite_inputs_Kernel.Gen.facts) :=
  fun m ρ _ => (θ_run (Cert.Kernel.defs (F := Bits)) _ _).mono (fun _ h c => (h c).2)
    (Cert.Kernel.Hand.run_of_sound (F := Bits) m ρ (fun c Kt => Cert.Kernel.Hand.sound_body m c Kt))

/-- The same for the idealized program. -/
theorem frame_kernelIdeal : Cert.frame_KernelIdeal (hKernelIdeal := Cert.KernelIdeal.Gen.facts) (hPre_finite_inputs_Kernel := Cert.Pre_finite_inputs_Kernel.Gen.facts) :=
  fun m ρ _ => (θ_run (Cert.KernelIdeal.defs (F := Ideal)) _ _).mono (fun _ h c => (h c).2)
    (Cert.KernelIdeal.Hand.run_of_sound (F := Ideal) m ρ (fun c Kt => Cert.KernelIdeal.Hand.sound_body m c Kt))

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_kernel, frame_kernelIdeal, Cert.KernelIdeal.Value.frame_ref, trivial,
  Cert.KernelIdeal.Value.algebraic_of_run
    (fun m ρ => Cert.KernelIdeal.Hand.run_of_sound (F := Ideal) m ρ (fun c Kt => Cert.KernelIdeal.Hand.sound_body m c Kt))⟩

end Cert.Proof

end
